-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v94)) (v1 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_v107) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_v158) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S500000x128 : Shape := ⟨2, ![500000, 128]⟩
abbrev S500000x1x1 : Shape := ⟨3, ![500000, 1, 1]⟩
abbrev S500000 : Shape := ⟨1, ![500000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S500000x128 : S_.BroadcastsInDim S500000x128 (![] : Fin 0 → Fin S500000x128.rank)
  reducesTo_S500000x128_S_d0_1 : S500000x128.ReducesTo [0, 1] S_
  bcast_S_S500000x1x1 : S_.BroadcastsInDim S500000x1x1 (![] : Fin 0 → Fin S500000x1x1.rank)
  reducesTo_S500000x1x1_S_d0_1_2 : S500000x1x1.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_

variable [Facts]

def fn_part7 {F : FTy → Type} [FloatOps F] (main_arg27 : FVec F S128 .f32) (main_arg28 : FVec F S128 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128 .f32 := Host.absf main_arg27
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  let main_v129 : FVec F S128 .f32 := Host.absf main_arg28
  let main_cst_50 : FVec F S_ .f32 := constant S_ .f32 0x7F800000#32
  let main_v130 : FVec F S128 .f32 := broadcastInDim S128 ![] bcast_S_S128 main_cst_50
  let main_v131 : IVec S128 1 := cmpf .olt main_v129 main_v130
  let main_c_51 : IVec S_ 1 := constantI S_ 1 1#1
  let main_v132 : IVec S_ 1 := (fun x v => Host.reduce IntOp.andi x v reducesTo_S128_S_d0 h_S_) main_v131 main_c_51
  let main_v133 : IVec S_ 1 := andi main_v128 main_v132
  main_v133

def fn_part6 {F : FTy → Type} [FloatOps F] (main_arg23 : FVec F S256x128 .f32) (main_arg24 : FVec F S128 .f32) (main_arg25 : FVec F S128 .f32) (main_arg26 : FVec F S128 .f32) (main_arg27 : FVec F S128 .f32) (main_arg28 : FVec F S128 .f32) (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  let main_v104 : FVec F S256x128 .f32 := Host.absf main_arg23
  let main_cst_40 : FVec F S_ .f32 := constant S_ .f32 0x7F800000#32
  let main_v105 : FVec F S256x128 .f32 := broadcastInDim S256x128 ![] bcast_S_S256x128 main_cst_40
  let main_v106 : IVec S256x128 1 := cmpf .olt main_v104 main_v105
  let main_c_41 : IVec S_ 1 := constantI S_ 1 1#1
  let main_v107 : IVec S_ 1 := (fun x v => Host.reduce IntOp.andi x v reducesTo_S256x128_S_d0_1 h_S_) main_v106 main_c_41
  let main_v108 : IVec S_ 1 := andi main_v103 main_v107
  let main_v109 : FVec F S128 .f32 := Host.absf main_arg24
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128 .f32 := Host.absf main_arg25
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128 .f32 := Host.absf main_arg26
  fn_part7 (F := F) main_arg27 main_arg28 main_v118 main_v119

def fn_part5 {F : FTy → Type} [FloatOps F] (main_arg20 : FVec F S128 .f32) (main_arg21 : FVec F S128x256 .f32) (main_arg22 : FVec F S256 .f32) (main_arg23 : FVec F S256x128 .f32) (main_arg24 : FVec F S128 .f32) (main_arg25 : FVec F S128 .f32) (main_arg26 : FVec F S128 .f32) (main_arg27 : FVec F S128 .f32) (main_arg28 : FVec F S128 .f32) (main_v83 : IVec S_ 1) (main_v84 : FVec F S256x128 .f32) (main_cst_32 : FVec F S_ .f32) : IVec S_ 1 :=
  let main_v85 : FVec F S256x128 .f32 := broadcastInDim S256x128 ![] bcast_S_S256x128 main_cst_32
  let main_v86 : IVec S256x128 1 := cmpf .olt main_v84 main_v85
  let main_c_33 : IVec S_ 1 := constantI S_ 1 1#1
  let main_v87 : IVec S_ 1 := (fun x v => Host.reduce IntOp.andi x v reducesTo_S256x128_S_d0_1 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x256 .f32 := Host.absf main_arg21
  let main_cst_36 : FVec F S_ .f32 := constant S_ .f32 0x7F800000#32
  let main_v95 : FVec F S128x256 .f32 := broadcastInDim S128x256 ![] bcast_S_S128x256 main_cst_36
  let main_v96 : IVec S128x256 1 := cmpf .olt main_v94 main_v95
  let main_c_37 : IVec S_ 1 := constantI S_ 1 1#1
  let main_v97 : IVec S_ 1 := (fun x v => Host.reduce IntOp.andi x v reducesTo_S128x256_S_d0_1 h_S_) main_v96 main_c_37
  let main_v98 : IVec S_ 1 := andi main_v93 main_v97
  let main_v99 : FVec F S256 .f32 := Host.absf main_arg22
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_arg23 main_arg24 main_arg25 main_arg26 main_arg27 main_arg28 main_v98 main_v101 main_c_39

def fn_part4 {F : FTy → Type} [FloatOps F] (main_arg16 : FVec F S128 .f32) (main_arg17 : FVec F S128x256 .f32) (main_arg18 : FVec F S256 .f32) (main_arg19 : FVec F S256x128 .f32) (main_arg20 : FVec F S128 .f32) (main_arg21 : FVec F S128x256 .f32) (main_arg22 : FVec F S256 .f32) (main_arg23 : FVec F S256x128 .f32) (main_arg24 : FVec F S128 .f32) (main_arg25 : FVec F S128 .f32) (main_arg26 : FVec F S128 .f32) (main_arg27 : FVec F S128 .f32) (main_arg28 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x256 .f32 := Host.absf main_arg17
  let main_cst_28 : FVec F S_ .f32 := constant S_ .f32 0x7F800000#32
  let main_v75 : FVec F S128x256 .f32 := broadcastInDim S128x256 ![] bcast_S_S128x256 main_cst_28
  let main_v76 : IVec S128x256 1 := cmpf .olt main_v74 main_v75
  let main_c_29 : IVec S_ 1 := constantI S_ 1 1#1
  let main_v77 : IVec S_ 1 := (fun x v => Host.reduce IntOp.andi x v reducesTo_S128x256_S_d0_1 h_S_) main_v76 main_c_29
  let main_v78 : IVec S_ 1 := andi main_v73 main_v77
  let main_v79 : FVec F S256 .f32 := Host.absf main_arg18
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256x128 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_v83 main_v84 main_cst_32

def fn_part3 {F : FTy → Type} [FloatOps F] (main_arg13 : FVec F S128 .f32) (main_arg14 : FVec F S128 .f32) (main_arg15 : FVec F S128 .f32) (main_arg16 : FVec F S128 .f32) (main_arg17 : FVec F S128x256 .f32) (main_arg18 : FVec F S256 .f32) (main_arg19 : FVec F S256x128 .f32) (main_arg20 : FVec F S128 .f32) (main_arg21 : FVec F S128x256 .f32) (main_arg22 : FVec F S256 .f32) (main_arg23 : FVec F S256x128 .f32) (main_arg24 : FVec F S128 .f32) (main_arg25 : FVec F S128 .f32) (main_arg26 : FVec F S128 .f32) (main_arg27 : FVec F S128 .f32) (main_arg28 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_arg20 main_arg21 main_arg22 main_arg23 main_arg24 main_arg25 main_arg26 main_arg27 main_arg28 main_v63 main_v67

def fn_part2 {F : FTy → Type} [FloatOps F] (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S128x256 .f32) (main_arg18 : FVec F S256 .f32) (main_arg19 : FVec F S256x128 .f32) (main_arg20 : FVec F S128 .f32) (main_arg21 : FVec F S128x256 .f32) (main_arg22 : FVec F S256 .f32) (main_arg23 : FVec F S256x128 .f32) (main_arg24 : FVec F S128 .f32) (main_arg25 : FVec F S128 .f32) (main_arg26 : FVec F S128 .f32) (main_arg27 : FVec F S128 .f32) (main_arg28 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg6 : FVec F S128x128 .f32) (main_arg7 : FVec F S128x128 .f32) (main_arg8 : FVec F S128x128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S128x256 .f32) (main_arg18 : FVec F S256 .f32) (main_arg19 : FVec F S256x128 .f32) (main_arg20 : FVec F S128 .f32) (main_arg21 : FVec F S128x256 .f32) (main_arg22 : FVec F S256 .f32) (main_arg23 : FVec F S256x128 .f32) (main_arg24 : FVec F S128 .f32) (main_arg25 : FVec F S128 .f32) (main_arg26 : FVec F S128 .f32) (main_arg27 : FVec F S128 .f32) (main_arg28 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S50000x128 .f32) (main_arg1 : FVec F S500000x128 .f32) (main_arg2 : FVec F S500000x1x1 .f32) (main_arg3 : IVec S500000 32) (main_arg4 : IVec S500000 32) (main_arg5 : FVec F S128x128 .f32) (main_arg6 : FVec F S128x128 .f32) (main_arg7 : FVec F S128x128 .f32) (main_arg8 : FVec F S128x128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S128x256 .f32) (main_arg18 : FVec F S256 .f32) (main_arg19 : FVec F S256x128 .f32) (main_arg20 : FVec F S128 .f32) (main_arg21 : FVec F S128x256 .f32) (main_arg22 : FVec F S256 .f32) (main_arg23 : FVec F S256x128 .f32) (main_arg24 : FVec F S128 .f32) (main_arg25 : FVec F S128 .f32) (main_arg26 : FVec F S128 .f32) (main_arg27 : FVec F S128 .f32) (main_arg28 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S500000x128 .f32 := Host.absf main_arg1
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S500000x1x1 .f32 := Host.absf main_arg2
  let main_cst_2 : FVec F S_ .f32 := constant S_ .f32 0x7F800000#32
  let main_v10 : FVec F S500000x1x1 .f32 := broadcastInDim S500000x1x1 ![] bcast_S_S500000x1x1 main_cst_2
  let main_v11 : IVec S500000x1x1 1 := cmpf .olt main_v9 main_v10
  let main_c_3 : IVec S_ 1 := constantI S_ 1 1#1
  let main_v12 : IVec S_ 1 := (fun x v => Host.reduce IntOp.andi x v reducesTo_S500000x1x1_S_d0_1_2 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S50000x128 : Shape := ⟨2, ![50000, 128]⟩
abbrev S500000x128 : Shape := ⟨2, ![500000, 128]⟩
abbrev S500000x1x1 : Shape := ⟨3, ![500000, 1, 1]⟩
abbrev S500000 : Shape := ⟨1, ![500000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x8 : Shape := ⟨2, ![128, 8]⟩
abbrev S8x128 : Shape := ⟨2, ![8, 128]⟩
abbrev S128x384 : Shape := ⟨2, ![128, 384]⟩
abbrev S1x128 : Shape := ⟨2, ![1, 128]⟩
abbrev S1x256 : Shape := ⟨2, ![1, 256]⟩
abbrev S50000x384 : Shape := ⟨2, ![50000, 384]⟩
abbrev S5000x128 : Shape := ⟨2, ![5000, 128]⟩
abbrev S5000x384 : Shape := ⟨2, ![5000, 384]⟩
abbrev S_ : Shape := ⟨0, ![]⟩
abbrev S500000x1 : Shape := ⟨2, ![500000, 1]⟩
abbrev S500000x8 : Shape := ⟨2, ![500000, 8]⟩
abbrev S2000x128 : Shape := ⟨2, ![2000, 128]⟩
abbrev S2000x1 : Shape := ⟨2, ![2000, 1]⟩
abbrev S2000x8 : Shape := ⟨2, ![2000, 8]⟩
abbrev S50000x8 : Shape := ⟨2, ![50000, 8]⟩
abbrev S50000x8x16 : Shape := ⟨3, ![50000, 8, 16]⟩
abbrev S5000x256 : Shape := ⟨2, ![5000, 256]⟩

abbrev nBuf : Space → Nat
  | .hbm => 252
  | .vmem => 68
  | .smem => 0
  | _ => 0

abbrev hbmTy0_0 (i : Nat) : BufTy := match i % 128 with
  | 0 => ⟨S50000x128, .f32⟩
  | 1 => ⟨S500000x128, .f32⟩
  | 2 => ⟨S500000x1x1, .f32⟩
  | 3 => ⟨S500000, .i32⟩
  | 4 => ⟨S500000, .i32⟩
  | 5 => ⟨S128x128, .f32⟩
  | 6 => ⟨S128x128, .f32⟩
  | 7 => ⟨S128x128, .f32⟩
  | 8 => ⟨S128x128, .f32⟩
  | 9 => ⟨S128x128, .f32⟩
  | 10 => ⟨S128, .f32⟩
  | 11 => ⟨S128x128, .f32⟩
  | 12 => ⟨S128, .f32⟩
  | 13 => ⟨S128, .f32⟩
  | 14 => ⟨S128, .f32⟩
  | 15 => ⟨S128, .f32⟩
  | 16 => ⟨S128, .f32⟩
  | 17 => ⟨S128x256, .f32⟩
  | 18 => ⟨S256, .f32⟩
  | 19 => ⟨S256x128, .f32⟩
  | 20 => ⟨S128, .f32⟩
  | 21 => ⟨S128x256, .f32⟩
  | 22 => ⟨S256, .f32⟩
  | 23 => ⟨S256x128, .f32⟩
  | 24 => ⟨S128, .f32⟩
  | 25 => ⟨S128, .f32⟩
  | 26 => ⟨S128, .f32⟩
  | 27 => ⟨S128, .f32⟩
  | 28 => ⟨S128, .f32⟩
  | 29 => ⟨S128x8, .f32⟩
  | 30 => ⟨S8x128, .f32⟩
  | 31 => ⟨S128x384, .f32⟩
  | 32 => ⟨S128x384, .bf16⟩
  | 33 => ⟨S128x128, .bf16⟩
  | 34 => ⟨S128x128, .bf16⟩
  | 35 => ⟨S128x128, .bf16⟩
  | 36 => ⟨S128x256, .bf16⟩
  | 37 => ⟨S256x128, .bf16⟩
  | 38 => ⟨S128x256, .bf16⟩
  | 39 => ⟨S256x128, .bf16⟩
  | 40 => ⟨S1x128, .f32⟩
  | 41 => ⟨S1x128, .f32⟩
  | 42 => ⟨S1x256, .f32⟩
  | 43 => ⟨S1x128, .f32⟩
  | 44 => ⟨S1x256, .f32⟩
  | 45 => ⟨S1x128, .f32⟩
  | 46 => ⟨S50000x384, .f32⟩
  | 47 => ⟨S50000x128, .f32⟩
  | 48 => ⟨S50000x128, .f32⟩
  | 49 => ⟨S50000x128, .f32⟩
  | 50 => ⟨S500000x128, .f32⟩
  | 51 => ⟨S_, .i32⟩
  | 52 => ⟨S500000, .i32⟩
  | 53 => ⟨S500000, .i1⟩
  | 54 => ⟨S_, .i32⟩
  | 55 => ⟨S500000, .i32⟩
  | 56 => ⟨S500000, .i32⟩
  | 57 => ⟨S500000, .i32⟩
  | 58 => ⟨S500000x1, .i32⟩
  | 59 => ⟨S500000x128, .f32⟩
  | 60 => ⟨S_, .i32⟩
  | 61 => ⟨S500000, .i32⟩
  | 62 => ⟨S500000, .i1⟩
  | 63 => ⟨S_, .i32⟩
  | 64 => ⟨S500000, .i32⟩
  | 65 => ⟨S500000, .i32⟩
  | 66 => ⟨S500000, .i32⟩
  | 67 => ⟨S500000x1, .i32⟩
  | 68 => ⟨S500000x128, .f32⟩
  | 69 => ⟨S_, .i32⟩
  | 70 => ⟨S500000, .i32⟩
  | 71 => ⟨S500000, .i1⟩
  | 72 => ⟨S_, .i32⟩
  | 73 => ⟨S500000, .i32⟩
  | 74 => ⟨S500000, .i32⟩
  | 75 => ⟨S500000, .i32⟩
  | 76 => ⟨S500000x1, .i32⟩
  | 77 => ⟨S500000x128, .f32⟩
  | 78 => ⟨S500000x1, .f32⟩
  | 79 => ⟨S500000x128, .f32⟩
  | 80 => ⟨S500000x8, .f32⟩
  | 81 => ⟨S500000x128, .f32⟩
  | 82 => ⟨S_, .f32⟩
  | 83 => ⟨S50000x128, .f32⟩
  | 84 => ⟨S500000x1, .i32⟩
  | 85 => ⟨S50000x128, .f32⟩
  | 86 => ⟨S_, .f32⟩
  | 87 => ⟨S50000x8, .f32⟩
  | 88 => ⟨S500000x1, .i32⟩
  | 89 => ⟨S50000x8, .f32⟩
  | 90 => ⟨S50000x8x16, .f32⟩
  | 91 => ⟨S50000x128, .f32⟩
  | 92 => ⟨S_, .f32⟩
  | 93 => ⟨S50000x128, .f32⟩
  | 94 => ⟨S50000x128, .f32⟩
  | 95 => ⟨S50000x128, .f32⟩
  | 96 => ⟨S50000x128, .f32⟩
  | 97 => ⟨S500000x128, .f32⟩
  | 98 => ⟨S_, .f32⟩
  | 99 => ⟨S128, .f32⟩
  | 100 => ⟨S1x128, .f32⟩
  | 101 => ⟨S_, .f32⟩
  | 102 => ⟨S1x128, .f32⟩
  | 103 => ⟨S1x128, .f32⟩
  | 104 => ⟨S_, .i32⟩
  | 105 => ⟨S_, .f32⟩
  | 106 => ⟨S128, .f32⟩
  | 107 => ⟨S1x128, .f32⟩
  | 108 => ⟨S_, .f32⟩
  | 109 => ⟨S1x128, .f32⟩
  | 110 => ⟨S1x128, .f32⟩
  | 111 => ⟨S50000x128, .f32⟩
  | 112 => ⟨S50000x128, .f32⟩
  | 113 => ⟨S50000x128, .f32⟩
  | 114 => ⟨S_, .f32⟩
  | 115 => ⟨S_, .f32⟩
  | 116 => ⟨S_, .f32⟩
  | 117 => ⟨S_, .f32⟩
  | 118 => ⟨S128, .f32⟩
  | 119 => ⟨S1x128, .f32⟩
  | 120 => ⟨S1x128, .f32⟩
  | 121 => ⟨S1x128, .f32⟩
  | 122 => ⟨S_, .f32⟩
  | 123 => ⟨S_, .i1⟩
  | 124 => ⟨S_, .f32⟩
  | 125 => ⟨S_, .f32⟩
  | 126 => ⟨S1x128, .f32⟩
  | 127 => ⟨S1x128, .f32⟩
  | _ => ⟨S50000x128, .f32⟩

abbrev hbmTy0_1 (i : Nat) : BufTy := match i % 128 with
  | 0 => ⟨S_, .f32⟩
  | 1 => ⟨S128, .f32⟩
  | 2 => ⟨S1x128, .f32⟩
  | 3 => ⟨S_, .f32⟩
  | 4 => ⟨S1x128, .f32⟩
  | 5 => ⟨S1x128, .f32⟩
  | 6 => ⟨S_, .i32⟩
  | 7 => ⟨S_, .f32⟩
  | 8 => ⟨S128, .f32⟩
  | 9 => ⟨S1x128, .f32⟩
  | 10 => ⟨S_, .f32⟩
  | 11 => ⟨S1x128, .f32⟩
  | 12 => ⟨S1x128, .f32⟩
  | 13 => ⟨S500000x128, .f32⟩
  | 14 => ⟨S500000x128, .f32⟩
  | 15 => ⟨S500000x128, .f32⟩
  | 16 => ⟨S_, .f32⟩
  | 17 => ⟨S_, .f32⟩
  | 18 => ⟨S_, .f32⟩
  | 19 => ⟨S_, .f32⟩
  | 20 => ⟨S128, .f32⟩
  | 21 => ⟨S1x128, .f32⟩
  | 22 => ⟨S1x128, .f32⟩
  | 23 => ⟨S1x128, .f32⟩
  | 24 => ⟨S_, .f32⟩
  | 25 => ⟨S_, .i1⟩
  | 26 => ⟨S_, .f32⟩
  | 27 => ⟨S_, .f32⟩
  | 28 => ⟨S1x128, .f32⟩
  | 29 => ⟨S1x128, .f32⟩
  | 30 => ⟨S1x128, .f32⟩
  | 31 => ⟨S1x128, .f32⟩
  | 32 => ⟨S1x128, .f32⟩
  | 33 => ⟨S1x128, .f32⟩
  | 34 => ⟨S50000x128, .f32⟩
  | 35 => ⟨S500000x128, .f32⟩
  | 36 => ⟨S_, .f32⟩
  | 37 => ⟨S128, .f32⟩
  | 38 => ⟨S1x128, .f32⟩
  | 39 => ⟨S_, .f32⟩
  | 40 => ⟨S1x128, .f32⟩
  | 41 => ⟨S1x128, .f32⟩
  | 42 => ⟨S_, .i32⟩
  | 43 => ⟨S_, .f32⟩
  | 44 => ⟨S128, .f32⟩
  | 45 => ⟨S1x128, .f32⟩
  | 46 => ⟨S_, .f32⟩
  | 47 => ⟨S1x128, .f32⟩
  | 48 => ⟨S1x128, .f32⟩
  | 49 => ⟨S50000x128, .f32⟩
  | 50 => ⟨S50000x128, .f32⟩
  | 51 => ⟨S50000x128, .f32⟩
  | 52 => ⟨S_, .f32⟩
  | 53 => ⟨S_, .f32⟩
  | 54 => ⟨S_, .f32⟩
  | 55 => ⟨S_, .f32⟩
  | 56 => ⟨S128, .f32⟩
  | 57 => ⟨S1x128, .f32⟩
  | 58 => ⟨S1x128, .f32⟩
  | 59 => ⟨S1x128, .f32⟩
  | 60 => ⟨S_, .f32⟩
  | 61 => ⟨S_, .i1⟩
  | 62 => ⟨S_, .f32⟩
  | 63 => ⟨S_, .f32⟩
  | 64 => ⟨S1x128, .f32⟩
  | 65 => ⟨S1x128, .f32⟩
  | 66 => ⟨S_, .f32⟩
  | 67 => ⟨S128, .f32⟩
  | 68 => ⟨S1x128, .f32⟩
  | 69 => ⟨S_, .f32⟩
  | 70 => ⟨S1x128, .f32⟩
  | 71 => ⟨S1x128, .f32⟩
  | 72 => ⟨S_, .i32⟩
  | 73 => ⟨S_, .f32⟩
  | 74 => ⟨S128, .f32⟩
  | 75 => ⟨S1x128, .f32⟩
  | 76 => ⟨S_, .f32⟩
  | 77 => ⟨S1x128, .f32⟩
  | 78 => ⟨S1x128, .f32⟩
  | 79 => ⟨S500000x128, .f32⟩
  | 80 => ⟨S500000x128, .f32⟩
  | 81 => ⟨S500000x128, .f32⟩
  | 82 => ⟨S_, .f32⟩
  | 83 => ⟨S_, .f32⟩
  | 84 => ⟨S_, .f32⟩
  | 85 => ⟨S_, .f32⟩
  | 86 => ⟨S128, .f32⟩
  | 87 => ⟨S1x128, .f32⟩
  | 88 => ⟨S1x128, .f32⟩
  | 89 => ⟨S1x128, .f32⟩
  | 90 => ⟨S_, .f32⟩
  | 91 => ⟨S_, .i1⟩
  | 92 => ⟨S_, .f32⟩
  | 93 => ⟨S_, .f32⟩
  | 94 => ⟨S1x128, .f32⟩
  | 95 => ⟨S1x128, .f32⟩
  | 96 => ⟨S50000x128, .f32⟩
  | 97 => ⟨S50000x128, .f32⟩
  | 98 => ⟨S_, .f32⟩
  | 99 => ⟨S1x128, .f32⟩
  | 100 => ⟨S1x128, .f32⟩
  | 101 => ⟨S1x128, .f32⟩
  | 102 => ⟨S50000x128, .f32⟩
  | 103 => ⟨S50000x128, .f32⟩
  | 104 => ⟨S1x128, .f32⟩
  | 105 => ⟨S50000x128, .f32⟩
  | 106 => ⟨S50000x128, .f32⟩
  | 107 => ⟨S1x128, .f32⟩
  | 108 => ⟨S50000x128, .f32⟩
  | 109 => ⟨S50000x128, .f32⟩
  | 110 => ⟨S500000x128, .f32⟩
  | 111 => ⟨S500000x128, .f32⟩
  | 112 => ⟨S_, .f32⟩
  | 113 => ⟨S1x128, .f32⟩
  | 114 => ⟨S1x128, .f32⟩
  | 115 => ⟨S1x128, .f32⟩
  | 116 => ⟨S500000x128, .f32⟩
  | 117 => ⟨S500000x128, .f32⟩
  | 118 => ⟨S1x128, .f32⟩
  | 119 => ⟨S500000x128, .f32⟩
  | 120 => ⟨S500000x128, .f32⟩
  | 121 => ⟨S1x128, .f32⟩
  | 122 => ⟨S500000x128, .f32⟩
  | 123 => ⟨S500000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x384, .bf16⟩
  | .local _ .vmem, ⟨3, _⟩ => ⟨S5000x384, .f32⟩
  | .local _ .vmem, ⟨4, _⟩ => ⟨S5000x384, .f32⟩
  | .local _ .vmem, ⟨5, _⟩ => ⟨S5000x128, .f32⟩
  | .local _ .vmem, ⟨6, _⟩ => ⟨S5000x128, .f32⟩
  | .local _ .vmem, ⟨7, _⟩ => ⟨S128x128, .bf16⟩
  | .local _ .vmem, ⟨8, _⟩ => ⟨S5000x128, .f32⟩
  | .local _ .vmem, ⟨9, _⟩ => ⟨S5000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x1, .f32⟩
  | .local _ .vmem, ⟨17, _⟩ => ⟨S2000x1, .f32⟩
  | .local _ .vmem, ⟨18, _⟩ => ⟨S2000x128, .f32⟩
  | .local _ .vmem, ⟨19, _⟩ => ⟨S2000x128, .f32⟩
  | .local _ .vmem, ⟨20, _⟩ => ⟨S128x8, .f32⟩
  | .local _ .vmem, ⟨21, _⟩ => ⟨S8x128, .f32⟩
  | .local _ .vmem, ⟨22, _⟩ => ⟨S2000x128, .f32⟩
  | .local _ .vmem, ⟨23, _⟩ => ⟨S2000x128, .f32⟩
  | .local _ .vmem, ⟨24, _⟩ => ⟨S2000x8, .f32⟩
  | .local _ .vmem, ⟨25, _⟩ => ⟨S2000x8, .f32⟩
  | .local _ .vmem, ⟨26, _⟩ => ⟨S2000x128, .f32⟩
  | .local _ .vmem, ⟨27, _⟩ => ⟨S2000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x128, .bf16⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x128, .bf16⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S1x128, .f32⟩
  | .local _ .vmem, ⟨50, _⟩ => ⟨S128x256, .bf16⟩
  | .local _ .vmem, ⟨51, _⟩ => ⟨S1x256, .f32⟩
  | .local _ .vmem, ⟨52, _⟩ => ⟨S256x128, .bf16⟩
  | .local _ .vmem, ⟨53, _⟩ => ⟨S1x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S1x128, .f32⟩
  | .local _ .vmem, ⟨59, _⟩ => ⟨S1x128, .f32⟩
  | .local _ .vmem, ⟨60, _⟩ => ⟨S1x128, .f32⟩
  | .local _ .vmem, ⟨61, _⟩ => ⟨S1x128, .f32⟩
  | .local _ .vmem, ⟨62, _⟩ => ⟨S128x256, .bf16⟩
  | .local _ .vmem, ⟨63, _⟩ => ⟨S1x256, .f32⟩
  | .local _ .vmem, ⟨64, _⟩ => ⟨S256x128, .bf16⟩
  | .local _ .vmem, ⟨65, _⟩ => ⟨S1x128, .f32⟩
  | .local _ .vmem, ⟨66, _⟩ => ⟨S5000x128, .f32⟩
  | .local _ .vmem, ⟨67, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_cst : Ref sig .tc := ⟨.hbm, 29, rfl⟩
abbrev main_cst_0 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_c : Ref sig .tc := ⟨.hbm, 51, rfl⟩
abbrev main_v20 : Ref sig .tc := ⟨.hbm, 52, rfl⟩
abbrev main_v21 : Ref sig .tc := ⟨.hbm, 53, rfl⟩
abbrev main_c_1 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_c_2 : Ref sig .tc := ⟨.hbm, 60, rfl⟩
abbrev main_v27 : Ref sig .tc := ⟨.hbm, 61, rfl⟩
abbrev main_v28 : Ref sig .tc := ⟨.hbm, 62, rfl⟩
abbrev main_c_3 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_c_4 : Ref sig .tc := ⟨.hbm, 69, rfl⟩
abbrev main_v34 : Ref sig .tc := ⟨.hbm, 70, rfl⟩
abbrev main_v35 : Ref sig .tc := ⟨.hbm, 71, rfl⟩
abbrev main_c_5 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42_0 : Ref sig .tc := ⟨.hbm, 79, rfl⟩
abbrev main_v42_1 : Ref sig .tc := ⟨.hbm, 80, rfl⟩
abbrev main_v42_2 : Ref sig .tc := ⟨.hbm, 81, rfl⟩
abbrev main_cst_6 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_cst_7 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_cst_8 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_cst_9 : Ref sig .tc := ⟨.hbm, 98, rfl⟩
abbrev main_v56 : Ref sig .tc := ⟨.hbm, 99, rfl⟩
abbrev main_v57 : Ref sig .tc := ⟨.hbm, 100, rfl⟩
abbrev main_cst_10 : Ref sig .tc := ⟨.hbm, 101, rfl⟩
abbrev main_v58 : Ref sig .tc := ⟨.hbm, 102, rfl⟩
abbrev main_v59 : Ref sig .tc := ⟨.hbm, 103, rfl⟩
abbrev main_c_11 : Ref sig .tc := ⟨.hbm, 104, rfl⟩
abbrev main_call0_cst : Ref sig .tc := ⟨.hbm, 105, rfl⟩
abbrev main_call0_v0 : Ref sig .tc := ⟨.hbm, 106, rfl⟩
abbrev main_call0_v1 : Ref sig .tc := ⟨.hbm, 107, rfl⟩
abbrev main_call0_cst_0 : Ref sig .tc := ⟨.hbm, 108, rfl⟩
abbrev main_call0_v2 : Ref sig .tc := ⟨.hbm, 109, rfl⟩
abbrev main_call0_v3 : Ref sig .tc := ⟨.hbm, 110, rfl⟩
abbrev main_call0_v4 : Ref sig .tc := ⟨.hbm, 111, rfl⟩
abbrev main_call0_v5 : Ref sig .tc := ⟨.hbm, 112, rfl⟩
abbrev main_call0_v6 : Ref sig .tc := ⟨.hbm, 113, rfl⟩
abbrev main_call0_v7 : Ref sig .tc := ⟨.hbm, 114, rfl⟩
abbrev main_call0_cst_1 : Ref sig .tc := ⟨.hbm, 115, rfl⟩
abbrev main_call0_v8 : Ref sig .tc := ⟨.hbm, 116, rfl⟩
abbrev main_call0_cst_2 : Ref sig .tc := ⟨.hbm, 117, rfl⟩
abbrev main_call0_v9 : Ref sig .tc := ⟨.hbm, 118, rfl⟩
abbrev main_call0_v10 : Ref sig .tc := ⟨.hbm, 119, rfl⟩
abbrev main_call0_v11 : Ref sig .tc := ⟨.hbm, 120, rfl⟩
abbrev main_call0_v12 : Ref sig .tc := ⟨.hbm, 121, rfl⟩
abbrev main_call0_cst_3 : Ref sig .tc := ⟨.hbm, 122, rfl⟩
abbrev main_call0_v13 : Ref sig .tc := ⟨.hbm, 123, rfl⟩
abbrev main_call0_cst_4 : Ref sig .tc := ⟨.hbm, 124, rfl⟩
abbrev main_call0_call0_v0 : Ref sig .tc := ⟨.hbm, 125, rfl⟩
abbrev main_call0_call0_v1 : Ref sig .tc := ⟨.hbm, 126, rfl⟩
abbrev main_v60 : Ref sig .tc := ⟨.hbm, 127, rfl⟩
abbrev main_cst_12 : Ref sig .tc := ⟨.hbm, 128, rfl⟩
abbrev main_v61 : Ref sig .tc := ⟨.hbm, 129, rfl⟩
abbrev main_v62 : Ref sig .tc := ⟨.hbm, 130, rfl⟩
abbrev main_cst_13 : Ref sig .tc := ⟨.hbm, 131, rfl⟩
abbrev main_v63 : Ref sig .tc := ⟨.hbm, 132, rfl⟩
abbrev main_v64 : Ref sig .tc := ⟨.hbm, 133, rfl⟩
abbrev main_c_14 : Ref sig .tc := ⟨.hbm, 134, rfl⟩
abbrev main_call1_cst : Ref sig .tc := ⟨.hbm, 135, rfl⟩
abbrev main_call1_v0 : Ref sig .tc := ⟨.hbm, 136, rfl⟩
abbrev main_call1_v1 : Ref sig .tc := ⟨.hbm, 137, rfl⟩
abbrev main_call1_cst_0 : Ref sig .tc := ⟨.hbm, 138, rfl⟩
abbrev main_call1_v2 : Ref sig .tc := ⟨.hbm, 139, rfl⟩
abbrev main_call1_v3 : Ref sig .tc := ⟨.hbm, 140, rfl⟩
abbrev main_call1_v4 : Ref sig .tc := ⟨.hbm, 141, rfl⟩
abbrev main_call1_v5 : Ref sig .tc := ⟨.hbm, 142, rfl⟩
abbrev main_call1_v6 : Ref sig .tc := ⟨.hbm, 143, rfl⟩
abbrev main_call1_v7 : Ref sig .tc := ⟨.hbm, 144, rfl⟩
abbrev main_call1_cst_1 : Ref sig .tc := ⟨.hbm, 145, rfl⟩
abbrev main_call1_v8 : Ref sig .tc := ⟨.hbm, 146, rfl⟩
abbrev main_call1_cst_2 : Ref sig .tc := ⟨.hbm, 147, rfl⟩
abbrev main_call1_v9 : Ref sig .tc := ⟨.hbm, 148, rfl⟩
abbrev main_call1_v10 : Ref sig .tc := ⟨.hbm, 149, rfl⟩
abbrev main_call1_v11 : Ref sig .tc := ⟨.hbm, 150, rfl⟩
abbrev main_call1_v12 : Ref sig .tc := ⟨.hbm, 151, rfl⟩
abbrev main_call1_cst_3 : Ref sig .tc := ⟨.hbm, 152, rfl⟩
abbrev main_call1_v13 : Ref sig .tc := ⟨.hbm, 153, rfl⟩
abbrev main_call1_cst_4 : Ref sig .tc := ⟨.hbm, 154, rfl⟩
abbrev main_call1_call0_v0 : Ref sig .tc := ⟨.hbm, 155, rfl⟩
abbrev main_call1_call0_v1 : Ref sig .tc := ⟨.hbm, 156, rfl⟩
abbrev main_v65 : Ref sig .tc := ⟨.hbm, 157, rfl⟩
abbrev main_v66 : Ref sig .tc := ⟨.hbm, 158, rfl⟩
abbrev main_v67 : Ref sig .tc := ⟨.hbm, 159, rfl⟩
abbrev main_v68 : Ref sig .tc := ⟨.hbm, 160, rfl⟩
abbrev main_v69 : Ref sig .tc := ⟨.hbm, 161, rfl⟩
abbrev main_v70 : Ref sig .tc := ⟨.hbm, 162, rfl⟩
abbrev main_v71 : Ref sig .tc := ⟨.hbm, 163, rfl⟩
abbrev main_cst_15 : Ref sig .tc := ⟨.hbm, 164, rfl⟩
abbrev main_v72 : Ref sig .tc := ⟨.hbm, 165, rfl⟩
abbrev main_v73 : Ref sig .tc := ⟨.hbm, 166, rfl⟩
abbrev main_cst_16 : Ref sig .tc := ⟨.hbm, 167, rfl⟩
abbrev main_v74 : Ref sig .tc := ⟨.hbm, 168, rfl⟩
abbrev main_v75 : Ref sig .tc := ⟨.hbm, 169, rfl⟩
abbrev main_c_17 : Ref sig .tc := ⟨.hbm, 170, rfl⟩
abbrev main_call2_cst : Ref sig .tc := ⟨.hbm, 171, rfl⟩
abbrev main_call2_v0 : Ref sig .tc := ⟨.hbm, 172, rfl⟩
abbrev main_call2_v1 : Ref sig .tc := ⟨.hbm, 173, rfl⟩
abbrev main_call2_cst_0 : Ref sig .tc := ⟨.hbm, 174, rfl⟩
abbrev main_call2_v2 : Ref sig .tc := ⟨.hbm, 175, rfl⟩
abbrev main_call2_v3 : Ref sig .tc := ⟨.hbm, 176, rfl⟩
abbrev main_call2_v4 : Ref sig .tc := ⟨.hbm, 177, rfl⟩
abbrev main_call2_v5 : Ref sig .tc := ⟨.hbm, 178, rfl⟩
abbrev main_call2_v6 : Ref sig .tc := ⟨.hbm, 179, rfl⟩
abbrev main_call2_v7 : Ref sig .tc := ⟨.hbm, 180, rfl⟩
abbrev main_call2_cst_1 : Ref sig .tc := ⟨.hbm, 181, rfl⟩
abbrev main_call2_v8 : Ref sig .tc := ⟨.hbm, 182, rfl⟩
abbrev main_call2_cst_2 : Ref sig .tc := ⟨.hbm, 183, rfl⟩
abbrev main_call2_v9 : Ref sig .tc := ⟨.hbm, 184, rfl⟩
abbrev main_call2_v10 : Ref sig .tc := ⟨.hbm, 185, rfl⟩
abbrev main_call2_v11 : Ref sig .tc := ⟨.hbm, 186, rfl⟩
abbrev main_call2_v12 : Ref sig .tc := ⟨.hbm, 187, rfl⟩
abbrev main_call2_cst_3 : Ref sig .tc := ⟨.hbm, 188, rfl⟩
abbrev main_call2_v13 : Ref sig .tc := ⟨.hbm, 189, rfl⟩
abbrev main_call2_cst_4 : Ref sig .tc := ⟨.hbm, 190, rfl⟩
abbrev main_call2_call0_v0 : Ref sig .tc := ⟨.hbm, 191, rfl⟩
abbrev main_call2_call0_v1 : Ref sig .tc := ⟨.hbm, 192, rfl⟩
abbrev main_v76 : Ref sig .tc := ⟨.hbm, 193, rfl⟩
abbrev main_cst_18 : Ref sig .tc := ⟨.hbm, 194, rfl⟩
abbrev main_v77 : Ref sig .tc := ⟨.hbm, 195, rfl⟩
abbrev main_v78 : Ref sig .tc := ⟨.hbm, 196, rfl⟩
abbrev main_cst_19 : Ref sig .tc := ⟨.hbm, 197, rfl⟩
abbrev main_v79 : Ref sig .tc := ⟨.hbm, 198, rfl⟩
abbrev main_v80 : Ref sig .tc := ⟨.hbm, 199, rfl⟩
abbrev main_c_20 : Ref sig .tc := ⟨.hbm, 200, rfl⟩
abbrev main_call3_cst : Ref sig .tc := ⟨.hbm, 201, rfl⟩
abbrev main_call3_v0 : Ref sig .tc := ⟨.hbm, 202, rfl⟩
abbrev main_call3_v1 : Ref sig .tc := ⟨.hbm, 203, rfl⟩
abbrev main_call3_cst_0 : Ref sig .tc := ⟨.hbm, 204, rfl⟩
abbrev main_call3_v2 : Ref sig .tc := ⟨.hbm, 205, rfl⟩
abbrev main_call3_v3 : Ref sig .tc := ⟨.hbm, 206, rfl⟩
abbrev main_call3_v4 : Ref sig .tc := ⟨.hbm, 207, rfl⟩
abbrev main_call3_v5 : Ref sig .tc := ⟨.hbm, 208, rfl⟩
abbrev main_call3_v6 : Ref sig .tc := ⟨.hbm, 209, rfl⟩
abbrev main_call3_v7 : Ref sig .tc := ⟨.hbm, 210, rfl⟩
abbrev main_call3_cst_1 : Ref sig .tc := ⟨.hbm, 211, rfl⟩
abbrev main_call3_v8 : Ref sig .tc := ⟨.hbm, 212, rfl⟩
abbrev main_call3_cst_2 : Ref sig .tc := ⟨.hbm, 213, rfl⟩
abbrev main_call3_v9 : Ref sig .tc := ⟨.hbm, 214, rfl⟩
abbrev main_call3_v10 : Ref sig .tc := ⟨.hbm, 215, rfl⟩
abbrev main_call3_v11 : Ref sig .tc := ⟨.hbm, 216, rfl⟩
abbrev main_call3_v12 : Ref sig .tc := ⟨.hbm, 217, rfl⟩
abbrev main_call3_cst_3 : Ref sig .tc := ⟨.hbm, 218, rfl⟩
abbrev main_call3_v13 : Ref sig .tc := ⟨.hbm, 219, rfl⟩
abbrev main_call3_cst_4 : Ref sig .tc := ⟨.hbm, 220, rfl⟩
abbrev main_call3_call0_v0 : Ref sig .tc := ⟨.hbm, 221, rfl⟩
abbrev main_call3_call0_v1 : Ref sig .tc := ⟨.hbm, 222, rfl⟩
abbrev main_v81 : Ref sig .tc := ⟨.hbm, 223, rfl⟩
abbrev main_v82 : Ref sig .tc := ⟨.hbm, 224, rfl⟩
abbrev main_v83 : Ref sig .tc := ⟨.hbm, 225, rfl⟩
abbrev main_cst_21 : Ref sig .tc := ⟨.hbm, 226, rfl⟩
abbrev main_v84 : Ref sig .tc := ⟨.hbm, 227, rfl⟩
abbrev main_v85 : Ref sig .tc := ⟨.hbm, 228, rfl⟩
abbrev main_v86 : Ref sig .tc := ⟨.hbm, 229, rfl⟩
abbrev main_v87 : Ref sig .tc := ⟨.hbm, 230, rfl⟩
abbrev main_v88 : Ref sig .tc := ⟨.hbm, 231, rfl⟩
abbrev main_v89 : Ref sig .tc := ⟨.hbm, 232, rfl⟩
abbrev main_v90 : Ref sig .tc := ⟨.hbm, 233, rfl⟩
abbrev main_v91 : Ref sig .tc := ⟨.hbm, 234, rfl⟩
abbrev main_v92 : Ref sig .tc := ⟨.hbm, 235, rfl⟩
abbrev main_v93 : Ref sig .tc := ⟨.hbm, 236, rfl⟩
abbrev main_v94 : Ref sig .tc := ⟨.hbm, 237, rfl⟩
abbrev main_v95 : Ref sig .tc := ⟨.hbm, 238, rfl⟩
abbrev main_v96 : Ref sig .tc := ⟨.hbm, 239, rfl⟩
abbrev main_cst_22 : Ref sig .tc := ⟨.hbm, 240, rfl⟩
abbrev main_v97 : Ref sig .tc := ⟨.hbm, 241, rfl⟩
abbrev main_v98 : Ref sig .tc := ⟨.hbm, 242, rfl⟩
abbrev main_v99 : Ref sig .tc := ⟨.hbm, 243, rfl⟩
abbrev main_v100 : Ref sig .tc := ⟨.hbm, 244, rfl⟩
abbrev main_v101 : Ref sig .tc := ⟨.hbm, 245, rfl⟩
abbrev main_v102 : Ref sig .tc := ⟨.hbm, 246, rfl⟩
abbrev main_v103 : Ref sig .tc := ⟨.hbm, 247, rfl⟩
abbrev main_v104 : Ref sig .tc := ⟨.hbm, 248, rfl⟩
abbrev main_v105 : Ref sig .tc := ⟨.hbm, 249, rfl⟩
abbrev main_v106 : Ref sig .tc := ⟨.hbm, 250, rfl⟩
abbrev main_v107 : Ref sig .tc := ⟨.hbm, 251, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg7_1 : Ref sig .tc := ⟨.vmem, 23, rfl⟩
abbrev cc2_stg8_0 : Ref sig .tc := ⟨.vmem, 24, rfl⟩
abbrev cc2_stg8_1 : Ref sig .tc := ⟨.vmem, 25, rfl⟩
abbrev cc2_stg9_0 : Ref sig .tc := ⟨.vmem, 26, rfl⟩
abbrev cc2_stg9_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg4_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg4_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg5_0 : Ref sig .tc := ⟨.vmem, 50, rfl⟩
abbrev cc5_stg6_0 : Ref sig .tc := ⟨.vmem, 51, rfl⟩
abbrev cc5_stg7_0 : Ref sig .tc := ⟨.vmem, 52, rfl⟩
abbrev cc5_stg8_0 : Ref sig .tc := ⟨.vmem, 53, rfl⟩
abbrev cc5_stg9_0 : Ref sig .tc := ⟨.vmem, 54, rfl⟩
abbrev cc5_stg9_1 : Ref sig .tc := ⟨.vmem, 55, rfl⟩
abbrev cc6_stg0_0 : Ref sig .tc := ⟨.vmem, 56, rfl⟩
abbrev cc6_stg0_1 : Ref sig .tc := ⟨.vmem, 57, rfl⟩
abbrev cc6_stg1_0 : Ref sig .tc := ⟨.vmem, 58, rfl⟩
abbrev cc6_stg2_0 : Ref sig .tc := ⟨.vmem, 59, rfl⟩
abbrev cc6_stg3_0 : Ref sig .tc := ⟨.vmem, 60, rfl⟩
abbrev cc6_stg4_0 : Ref sig .tc := ⟨.vmem, 61, rfl⟩
abbrev cc6_stg5_0 : Ref sig .tc := ⟨.vmem, 62, rfl⟩
abbrev cc6_stg6_0 : Ref sig .tc := ⟨.vmem, 63, rfl⟩
abbrev cc6_stg7_0 : Ref sig .tc := ⟨.vmem, 64, rfl⟩
abbrev cc6_stg8_0 : Ref sig .tc := ⟨.vmem, 65, rfl⟩
abbrev cc6_stg9_0 : Ref sig .tc := ⟨.vmem, 66, rfl⟩
abbrev cc6_stg9_1 : Ref sig .tc := ⟨.vmem, 67, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem4_1 : DmaSem sig := 19
abbrev cc2_sem5_0 : DmaSem sig := 20
abbrev cc2_sem6_0 : DmaSem sig := 21
abbrev cc2_sem7_0 : DmaSem sig := 22
abbrev cc2_sem7_1 : DmaSem sig := 23
abbrev cc2_sem8_0 : DmaSem sig := 24
abbrev cc2_sem8_1 : DmaSem sig := 25
abbrev cc2_sem9_0 : DmaSem sig := 26
abbrev cc2_sem9_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem4_0 : DmaSem sig := 34
abbrev cc3_sem4_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem4_1 : DmaSem sig := 43
abbrev cc5_sem0_0 : DmaSem sig := 44
abbrev cc5_sem0_1 : DmaSem sig := 45
abbrev cc5_sem1_0 : DmaSem sig := 46
abbrev cc5_sem2_0 : DmaSem sig := 47
abbrev cc5_sem3_0 : DmaSem sig := 48
abbrev cc5_sem4_0 : DmaSem sig := 49
abbrev cc5_sem5_0 : DmaSem sig := 50
abbrev cc5_sem6_0 : DmaSem sig := 51
abbrev cc5_sem7_0 : DmaSem sig := 52
abbrev cc5_sem8_0 : DmaSem sig := 53
abbrev cc5_sem9_0 : DmaSem sig := 54
abbrev cc5_sem9_1 : DmaSem sig := 55
abbrev cc6_sem0_0 : DmaSem sig := 56
abbrev cc6_sem0_1 : DmaSem sig := 57
abbrev cc6_sem1_0 : DmaSem sig := 58
abbrev cc6_sem2_0 : DmaSem sig := 59
abbrev cc6_sem3_0 : DmaSem sig := 60
abbrev cc6_sem4_0 : DmaSem sig := 61
abbrev cc6_sem5_0 : DmaSem sig := 62
abbrev cc6_sem6_0 : DmaSem sig := 63
abbrev cc6_sem7_0 : DmaSem sig := 64
abbrev cc6_sem8_0 : DmaSem sig := 65
abbrev cc6_sem9_0 : DmaSem sig := 66
abbrev cc6_sem9_1 : DmaSem sig := 67

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![250], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S128x8 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S8x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S2000x8 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S2000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x256 .bf16 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x256 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S256x128 .bf16 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 2 → Memref sig .tc .vmem S5000x128 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x256 .bf16 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x256 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S256x128 .bf16 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x128 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 2 → Memref sig .tc .vmem S5000x128 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

class Facts₀ : Prop where
  concatenates_S128x128_S128x128_S128x128_S128x384_d1 : Shape.Concatenates [S128x128, S128x128, S128x128] S128x384 1
  bitsLt_bf16_f32 : FTy.bits .bf16 < FTy.bits .f32
  shapeCasts_S128_S1x128 : S128.ShapeCasts S1x128
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S5000x384_S5000x384_0_0 : ∀ a, (![0, 0] : Fin 2 → Nat) a + S5000x384.size a ≤ S5000x384.size a
  h_S5000x384 : 0 < S5000x384.numel
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S500000 : S_.BroadcastsInDim S500000 (![] : Fin 0 → Fin S500000.rank)
  bcast_S500000_S500000x1_0 : S500000.BroadcastsInDim S500000x1 (![0] : Fin 1 → Fin S500000x1.rank)
  shapeCasts_S500000x1x1_S500000x1 : S500000x1x1.ShapeCasts S500000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x8_S128x8_0_0 : ∀ a, (![0, 0] : Fin 2 → Nat) a + S128x8.size a ≤ S128x8.size a
  h_S128x8 : 0 < S128x8.numel
  inb_S2000x8_S2000x8_0_0 : ∀ a, (![0, 0] : Fin 2 → Nat) a + S2000x8.size a ≤ S2000x8.size a
  h_S2000x8 : 0 < S2000x8.numel
  inb_S8x128_S8x128_0_0 : ∀ a, (![0, 0] : Fin 2 → Nat) a + S8x128.size a ≤ S8x128.size a
  h_S8x128 : 0 < S8x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bcast_S_S50000x128 : S_.BroadcastsInDim S50000x128 (![] : Fin 0 → Fin S50000x128.rank)
  bcast_S_S50000x8 : S_.BroadcastsInDim S50000x8 (![] : Fin 0 → Fin S50000x8.rank)
  bcast_S50000x8_S50000x8x16_0_1 : S50000x8.BroadcastsInDim S50000x8x16 (![0, 1] : Fin 2 → Fin S50000x8x16.rank)
  shapeCasts_S50000x8x16_S50000x128 : S50000x8x16.ShapeCasts S50000x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reducesTo_S50000x128_S128_d0 : S50000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  reducesTo_S500000x128_S128_d0 : S500000x128.ReducesTo [0] S128
  bcast_S1x128_S500000x128_0_1 : S1x128.BroadcastsInDim S500000x128 (![0, 1] : Fin 2 → Fin S500000x128.rank)
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  dot_S5000x128_S128x384_S5000x384_1_0_0_1_n_n_wf : DotDims.WF S5000x128 S128x384 S5000x384 [1] [0] [0] [1] [] []
  dot_S5000x128_S128x128_S5000x128_1_0_0_1_n_n_wf : DotDims.WF S5000x128 S128x128 S5000x128 [1] [0] [0] [1] [] []
  gather_S50000x128_S500000x1_S500000x128_1_0_n_n_0_1_1128_wf : GatherDims.WF S50000x128 S500000x1 S500000x128 [1] [0] [] [0] [] 1 ![1, 128]
  dot_S2000x128_S128x8_S2000x8_1_0_0_1_n_n_wf : DotDims.WF S2000x128 S128x8 S2000x8 [1] [0] [0] [1] [] []
  dot_S2000x8_S8x128_S2000x128_1_0_0_1_n_n_wf : DotDims.WF S2000x8 S8x128 S2000x128 [1] [0] [0] [1] [] []
  scatter_S50000x128_S500000x1_S500000x128_1_0_0_1_wf : ScatterDims.WF S50000x128 S500000x1 S500000x128 [1] [0] [0] 1
  scatter_S50000x8_S500000x1_S500000x8_1_0_0_1_wf : ScatterDims.WF S50000x8 S500000x1 S500000x8 [1] [0] [0] 1
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .bf16 = 32 ∨ (Rect.block (s := S128x384) S128x384.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x384.size a ≤ S50000x384.size a
  hwx0_2 : ∀ i : grid0.Coords, EltTy.bits .f32 = 32 ∨ (Rect.block (s := S50000x384) S5000x384.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S500000x128.size a
  hwx1_0 : ∀ i : grid1.Coords, EltTy.bits .f32 = 32 ∨ (Rect.block (s := S500000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S500000x128.size a
  hwx1_2 : ∀ i : grid1.Coords, EltTy.bits .f32 = 32 ∨ (Rect.block (s := S500000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S500000x128.size a
  hwx2_0 : ∀ i : grid2.Coords, EltTy.bits .f32 = 32 ∨ (Rect.block (s := S500000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S500000x128.size a
  hwx2_1 : ∀ i : grid2.Coords, EltTy.bits .f32 = 32 ∨ (Rect.block (s := S500000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S500000x128.size a
  hwx2_2 : ∀ i : grid2.Coords, EltTy.bits .f32 = 32 ∨ (Rect.block (s := S500000x128) S2000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S500000x1.size a
  hwx2_3 : ∀ i : grid2.Coords, EltTy.bits .f32 = 32 ∨ (Rect.block (s := S500000x1) S2000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S500000x128.size a
  hwx2_4 : ∀ i : grid2.Coords, EltTy.bits .f32 = 32 ∨ (Rect.block (s := S500000x128) S2000x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x8.size a ≤ S128x8.size a
  hwx2_5 : ∀ i : grid2.Coords, EltTy.bits .f32 = 32 ∨ (Rect.block (s := S128x8) S128x8.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S8x128.size a ≤ S8x128.size a
  hwx2_6 : ∀ i : grid2.Coords, EltTy.bits .f32 = 32 ∨ (Rect.block (s := S8x128) S8x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S500000x128.size a
  hwx2_7 : ∀ i : grid2.Coords, EltTy.bits .f32 = 32 ∨ (Rect.block (s := S500000x128) S2000x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x8.size a ≤ S500000x8.size a
  hwx2_8 : ∀ i : grid2.Coords, EltTy.bits .f32 = 32 ∨ (Rect.block (s := S500000x8) S2000x8.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2000x128.size a ≤ S500000x128.size a
  hwx2_9 : ∀ i : grid2.Coords, EltTy.bits .f32 = 32 ∨ (Rect.block (s := S500000x128) S2000x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .bf16 = 32 ∨ (Rect.block (s := S128x128) S128x128.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S500000x128.size a
  hwx4_0 : ∀ i : grid4.Coords, EltTy.bits .f32 = 32 ∨ (Rect.block (s := S500000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S500000x128.size a
  hwx4_1 : ∀ i : grid4.Coords, EltTy.bits .f32 = 32 ∨ (Rect.block (s := S500000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .bf16 = 32 ∨ (Rect.block (s := S128x128) S128x128.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S500000x128.size a
  hwx4_4 : ∀ i : grid4.Coords, EltTy.bits .f32 = 32 ∨ (Rect.block (s := S500000x128) S5000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x256.size a ≤ S128x256.size a
  hwx5_5 : ∀ i : grid5.Coords, EltTy.bits .bf16 = 32 ∨ (Rect.block (s := S128x256) S128x256.size (cc5_transform_5 i) (hinb5_5 i)).WholeWords (EltTy.packing .bf16)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x256.size a ≤ S1x256.size a
  hwx5_6 : ∀ i : grid5.Coords, EltTy.bits .f32 = 32 ∨ (Rect.block (s := S1x256) S1x256.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S256x128.size a ≤ S256x128.size a
  hwx5_7 : ∀ i : grid5.Coords, EltTy.bits .bf16 = 32 ∨ (Rect.block (s := S256x128) S256x128.size (cc5_transform_7 i) (hinb5_7 i)).WholeWords (EltTy.packing .bf16)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x128.size a ≤ S1x128.size a
  hwx5_8 : ∀ i : grid5.Coords, EltTy.bits .f32 = 32 ∨ (Rect.block (s := S1x128) S1x128.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S5000x128.size a ≤ S50000x128.size a
  hwx5_9 : ∀ i : grid5.Coords, EltTy.bits .f32 = 32 ∨ (Rect.block (s := S50000x128) S5000x128.size (cc5_transform_9 i) (hinb5_9 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S500000x128.size a
  hwx6_0 : ∀ i : grid6.Coords, EltTy.bits .f32 = 32 ∨ (Rect.block (s := S500000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x256.size a ≤ S128x256.size a
  hwx6_5 : ∀ i : grid6.Coords, EltTy.bits .bf16 = 32 ∨ (Rect.block (s := S128x256) S128x256.size (cc6_transform_5 i) (hinb6_5 i)).WholeWords (EltTy.packing .bf16)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x256.size a ≤ S1x256.size a
  hwx6_6 : ∀ i : grid6.Coords, EltTy.bits .f32 = 32 ∨ (Rect.block (s := S1x256) S1x256.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S256x128.size a ≤ S256x128.size a
  hwx6_7 : ∀ i : grid6.Coords, EltTy.bits .bf16 = 32 ∨ (Rect.block (s := S256x128) S256x128.size (cc6_transform_7 i) (hinb6_7 i)).WholeWords (EltTy.packing .bf16)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x128.size a ≤ S1x128.size a
  hwx6_8 : ∀ i : grid6.Coords, EltTy.bits .f32 = 32 ∨ (Rect.block (s := S1x128) S1x128.size (cc6_transform_8 i) (hinb6_8 i)).WholeWords (EltTy.packing .f32)
  hstage6_9 : ∀ j, (stage6_9 j).IsWhole
  nbuf6_9 : grid6.bufCount reads6_9 false = 2
  hreads6_9 : ∀ i i' : grid6.Coords, (∀ a, reads6_9 a = true → i a = i' a) → cc6_transform_9 i = cc6_transform_9 i'
  hinb6_9 : ∀ (i : grid6.Coords) a, (cc6_transform_9 i a + 1) * S5000x128.size a ≤ S500000x128.size a
  hwx6_9 : ∀ i : grid6.Coords, EltTy.bits .f32 = 32 ∨ (Rect.block (s := S500000x128) S5000x128.size (cc6_transform_9 i) (hinb6_9 i)).WholeWords (EltTy.packing .f32)

variable [Facts₀]

def dot_S5000x128_S128x384_S5000x384_1_0_0_1_n_n : DotDims S5000x128 S128x384 S5000x384 where
  lhsContracting := [1]
  rhsContracting := [0]
  lhsNonContracting := [0]
  rhsNonContracting := [1]
  lhsBatch := []
  rhsBatch := []
  wf := dot_S5000x128_S128x384_S5000x384_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S2000x128_S128x8_S2000x8_1_0_0_1_n_n : DotDims S2000x128 S128x8 S2000x8 where
  lhsContracting := [1]
  rhsContracting := [0]
  lhsNonContracting := [0]
  rhsNonContracting := [1]
  lhsBatch := []
  rhsBatch := []
  wf := dot_S2000x128_S128x8_S2000x8_1_0_0_1_n_n_wf
def dot_S2000x8_S8x128_S2000x128_1_0_0_1_n_n : DotDims S2000x8 S8x128 S2000x128 where
  lhsContracting := [1]
  rhsContracting := [0]
  lhsNonContracting := [0]
  rhsNonContracting := [1]
  lhsBatch := []
  rhsBatch := []
  wf := dot_S2000x8_S8x128_S2000x128_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000x8_S500000x1_S500000x8_1_0_0_1 : ScatterDims S50000x8 S500000x1 S500000x8 where
  updateWindowDims := [1]
  insertedWindowDims := [0]
  scatterDimsToOperandDims := [0]
  indexVectorDim := 1
  wf := scatter_S50000x8_S500000x1_S500000x8_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v26) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v19) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v41) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v40) S2000x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_cst) S128x8.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_cst_0) S8x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v42_0) S2000x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v42_1) S2000x8.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v42_2) S2000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_arg0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v3) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v9) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v54) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_arg1) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v42_0) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v4) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v10) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v55) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v54) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v59) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v60) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v66) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v67) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v5) S128x256.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v11) S1x256.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v6) S256x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v12) S1x128.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v70) S5000x128.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

abbrev win6_0 : Pipeline.Window sig grid6 :=
  Pipeline.Window.ofSpec (Memref.whole main_v55) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v64) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v65) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v68) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v69) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v7) S128x256.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v13) S1x256.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v8) S256x128.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v14) S1x128.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v71) S5000x128.size cc6_transform_9 reads6_9 true false 2 stage6_9 sem6_9
    hrank6 hreads6_9 hinb6_9 nbuf6_9 (Memref.isWhole_whole _) hwx6_9 hstage6_9

abbrev win6 : Fin 10 → Pipeline.Window sig grid6 := fun | 0 => win6_0 | 1 => win6_1 | 2 => win6_2 | 3 => win6_3 | 4 => win6_4 | 5 => win6_5 | 6 => win6_6 | 7 => win6_7 | 8 => win6_8 | 9 => win6_9 | ⟨_ + 10, h⟩ => absurd h (Nat.not_lt.2 (Nat.le_add_left _ _))
abbrev spec6 : Fin 10 → Pipeline.WinSpec sig grid6.rank := fun w => (win6 w).toWinSpec

class Facts : Prop extends Facts₀ where

variable [Facts]
-- ==== ReferenceIdeal.lean ====
abbrev S50000x128 : Shape := ⟨2, ![50000, 128]⟩
abbrev S500000x128 : Shape := ⟨2, ![500000, 128]⟩
abbrev S500000x1x1 : Shape := ⟨3, ![500000, 1, 1]⟩
abbrev S500000 : Shape := ⟨1, ![500000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S50000x8x16 : Shape := ⟨3, ![50000, 8, 16]⟩
abbrev S500000x8x16 : Shape := ⟨3, ![500000, 8, 16]⟩
abbrev S_ : Shape := ⟨0, ![]⟩
abbrev S500000x1 : Shape := ⟨2, ![500000, 1]⟩
abbrev S500000x8 : Shape := ⟨2, ![500000, 8]⟩
abbrev S500000x8x1 : Shape := ⟨3, ![500000, 8, 1]⟩
abbrev S50000x8x1 : Shape := ⟨3, ![50000, 8, 1]⟩
abbrev S1x128 : Shape := ⟨2, ![1, 128]⟩
abbrev S50000x256 : Shape := ⟨2, ![50000, 256]⟩
abbrev S1x256 : Shape := ⟨2, ![1, 256]⟩
abbrev S500000x256 : Shape := ⟨2, ![500000, 256]⟩

abbrev nBuf : Space → Nat
  | .hbm => 310
  | .vmem => 0
  | .smem => 0
  | _ => 0

abbrev hbmTy0_0 (i : Nat) : BufTy := match i % 128 with
  | 0 => ⟨S50000x128, .f32⟩
  | 1 => ⟨S500000x128, .f32⟩
  | 2 => ⟨S500000x1x1, .f32⟩
  | 3 => ⟨S500000, .i32⟩
  | 4 => ⟨S500000, .i32⟩
  | 5 => ⟨S128x128, .f32⟩
  | 6 => ⟨S128x128, .f32⟩
  | 7 => ⟨S128x128, .f32⟩
  | 8 => ⟨S128x128, .f32⟩
  | 9 => ⟨S128x128, .f32⟩
  | 10 => ⟨S128, .f32⟩
  | 11 => ⟨S128x128, .f32⟩
  | 12 => ⟨S128, .f32⟩
  | 13 => ⟨S128, .f32⟩
  | 14 => ⟨S128, .f32⟩
  | 15 => ⟨S128, .f32⟩
  | 16 => ⟨S128, .f32⟩
  | 17 => ⟨S128x256, .f32⟩
  | 18 => ⟨S256, .f32⟩
  | 19 => ⟨S256x128, .f32⟩
  | 20 => ⟨S128, .f32⟩
  | 21 => ⟨S128x256, .f32⟩
  | 22 => ⟨S256, .f32⟩
  | 23 => ⟨S256x128, .f32⟩
  | 24 => ⟨S128, .f32⟩
  | 25 => ⟨S128, .f32⟩
  | 26 => ⟨S128, .f32⟩
  | 27 => ⟨S128, .f32⟩
  | 28 => ⟨S128, .f32⟩
  | 29 => ⟨S50000x128, .f32⟩
  | 30 => ⟨S50000x8x16, .f32⟩
  | 31 => ⟨S50000x128, .f32⟩
  | 32 => ⟨S50000x8x16, .f32⟩
  | 33 => ⟨S50000x128, .f32⟩
  | 34 => ⟨S50000x8x16, .f32⟩
  | 35 => ⟨S500000x128, .f32⟩
  | 36 => ⟨S500000x8x16, .f32⟩
  | 37 => ⟨S_, .i32⟩
  | 38 => ⟨S500000, .i32⟩
  | 39 => ⟨S500000, .i1⟩
  | 40 => ⟨S_, .i32⟩
  | 41 => ⟨S500000, .i32⟩
  | 42 => ⟨S500000, .i32⟩
  | 43 => ⟨S500000, .i32⟩
  | 44 => ⟨S500000x1, .i32⟩
  | 45 => ⟨S500000x8x16, .f32⟩
  | 46 => ⟨S_, .i32⟩
  | 47 => ⟨S500000, .i32⟩
  | 48 => ⟨S500000, .i1⟩
  | 49 => ⟨S_, .i32⟩
  | 50 => ⟨S500000, .i32⟩
  | 51 => ⟨S500000, .i32⟩
  | 52 => ⟨S500000, .i32⟩
  | 53 => ⟨S500000x1, .i32⟩
  | 54 => ⟨S500000x8x16, .f32⟩
  | 55 => ⟨S500000x8x16, .f32⟩
  | 56 => ⟨S_, .f32⟩
  | 57 => ⟨S500000x8x16, .f32⟩
  | 58 => ⟨S500000x8x16, .f32⟩
  | 59 => ⟨S500000x8x16, .f32⟩
  | 60 => ⟨S500000x128, .f32⟩
  | 61 => ⟨S_, .f32⟩
  | 62 => ⟨S500000x8, .f32⟩
  | 63 => ⟨S500000x8x1, .f32⟩
  | 64 => ⟨S_, .f32⟩
  | 65 => ⟨S_, .f32⟩
  | 66 => ⟨S_, .f32⟩
  | 67 => ⟨S500000x8x1, .f32⟩
  | 68 => ⟨S500000x8x1, .f32⟩
  | 69 => ⟨S_, .f32⟩
  | 70 => ⟨S500000x8x1, .f32⟩
  | 71 => ⟨S500000x8x1, .f32⟩
  | 72 => ⟨S500000x8x1, .f32⟩
  | 73 => ⟨S_, .i32⟩
  | 74 => ⟨S500000, .i32⟩
  | 75 => ⟨S500000, .i1⟩
  | 76 => ⟨S_, .i32⟩
  | 77 => ⟨S500000, .i32⟩
  | 78 => ⟨S500000, .i32⟩
  | 79 => ⟨S500000, .i32⟩
  | 80 => ⟨S500000x1, .i32⟩
  | 81 => ⟨S500000x8x16, .f32⟩
  | 82 => ⟨S500000x8x16, .f32⟩
  | 83 => ⟨S500000x8x16, .f32⟩
  | 84 => ⟨S500000x8x16, .f32⟩
  | 85 => ⟨S500000x8x16, .f32⟩
  | 86 => ⟨S_, .f32⟩
  | 87 => ⟨S50000x8x16, .f32⟩
  | 88 => ⟨S500000x1, .i32⟩
  | 89 => ⟨S50000x8x16, .f32⟩
  | 90 => ⟨S_, .f32⟩
  | 91 => ⟨S50000x8x1, .f32⟩
  | 92 => ⟨S500000x1, .i32⟩
  | 93 => ⟨S50000x8x1, .f32⟩
  | 94 => ⟨S_, .f32⟩
  | 95 => ⟨S50000x8x1, .f32⟩
  | 96 => ⟨S50000x8x1, .f32⟩
  | 97 => ⟨S50000x8x16, .f32⟩
  | 98 => ⟨S50000x8x16, .f32⟩
  | 99 => ⟨S50000x128, .f32⟩
  | 100 => ⟨S50000x128, .f32⟩
  | 101 => ⟨S1x128, .f32⟩
  | 102 => ⟨S50000x128, .f32⟩
  | 103 => ⟨S50000x128, .f32⟩
  | 104 => ⟨S50000x128, .f32⟩
  | 105 => ⟨S_, .f32⟩
  | 106 => ⟨S128, .f32⟩
  | 107 => ⟨S_, .f32⟩
  | 108 => ⟨S128, .f32⟩
  | 109 => ⟨S128, .f32⟩
  | 110 => ⟨S_, .i32⟩
  | 111 => ⟨S_, .f32⟩
  | 112 => ⟨S128, .f32⟩
  | 113 => ⟨S1x128, .f32⟩
  | 114 => ⟨S_, .f32⟩
  | 115 => ⟨S1x128, .f32⟩
  | 116 => ⟨S1x128, .f32⟩
  | 117 => ⟨S50000x128, .f32⟩
  | 118 => ⟨S50000x128, .f32⟩
  | 119 => ⟨S50000x128, .f32⟩
  | 120 => ⟨S_, .f32⟩
  | 121 => ⟨S_, .f32⟩
  | 122 => ⟨S_, .f32⟩
  | 123 => ⟨S_, .f32⟩
  | 124 => ⟨S128, .f32⟩
  | 125 => ⟨S128, .f32⟩
  | 126 => ⟨S128, .f32⟩
  | 127 => ⟨S_, .f32⟩
  | _ => ⟨S50000x128, .f32⟩

abbrev hbmTy0_1 (i : Nat) : BufTy := match i % 128 with
  | 0 => ⟨S_, .i1⟩
  | 1 => ⟨S_, .f32⟩
  | 2 => ⟨S_, .f32⟩
  | 3 => ⟨S128, .f32⟩
  | 4 => ⟨S128, .f32⟩
  | 5 => ⟨S1x128, .f32⟩
  | 6 => ⟨S50000x128, .f32⟩
  | 7 => ⟨S50000x128, .f32⟩
  | 8 => ⟨S_, .f32⟩
  | 9 => ⟨S128, .f32⟩
  | 10 => ⟨S128, .f32⟩
  | 11 => ⟨S128, .f32⟩
  | 12 => ⟨S1x128, .f32⟩
  | 13 => ⟨S50000x128, .f32⟩
  | 14 => ⟨S50000x128, .f32⟩
  | 15 => ⟨S1x128, .f32⟩
  | 16 => ⟨S50000x128, .f32⟩
  | 17 => ⟨S50000x128, .f32⟩
  | 18 => ⟨S1x128, .f32⟩
  | 19 => ⟨S50000x128, .f32⟩
  | 20 => ⟨S50000x128, .f32⟩
  | 21 => ⟨S500000x128, .f32⟩
  | 22 => ⟨S1x128, .f32⟩
  | 23 => ⟨S500000x128, .f32⟩
  | 24 => ⟨S500000x128, .f32⟩
  | 25 => ⟨S500000x128, .f32⟩
  | 26 => ⟨S_, .f32⟩
  | 27 => ⟨S128, .f32⟩
  | 28 => ⟨S_, .f32⟩
  | 29 => ⟨S128, .f32⟩
  | 30 => ⟨S128, .f32⟩
  | 31 => ⟨S_, .i32⟩
  | 32 => ⟨S_, .f32⟩
  | 33 => ⟨S128, .f32⟩
  | 34 => ⟨S1x128, .f32⟩
  | 35 => ⟨S_, .f32⟩
  | 36 => ⟨S1x128, .f32⟩
  | 37 => ⟨S1x128, .f32⟩
  | 38 => ⟨S500000x128, .f32⟩
  | 39 => ⟨S500000x128, .f32⟩
  | 40 => ⟨S500000x128, .f32⟩
  | 41 => ⟨S_, .f32⟩
  | 42 => ⟨S_, .f32⟩
  | 43 => ⟨S_, .f32⟩
  | 44 => ⟨S_, .f32⟩
  | 45 => ⟨S128, .f32⟩
  | 46 => ⟨S128, .f32⟩
  | 47 => ⟨S128, .f32⟩
  | 48 => ⟨S_, .f32⟩
  | 49 => ⟨S_, .i1⟩
  | 50 => ⟨S_, .f32⟩
  | 51 => ⟨S_, .f32⟩
  | 52 => ⟨S128, .f32⟩
  | 53 => ⟨S128, .f32⟩
  | 54 => ⟨S1x128, .f32⟩
  | 55 => ⟨S500000x128, .f32⟩
  | 56 => ⟨S500000x128, .f32⟩
  | 57 => ⟨S_, .f32⟩
  | 58 => ⟨S128, .f32⟩
  | 59 => ⟨S128, .f32⟩
  | 60 => ⟨S128, .f32⟩
  | 61 => ⟨S1x128, .f32⟩
  | 62 => ⟨S500000x128, .f32⟩
  | 63 => ⟨S500000x128, .f32⟩
  | 64 => ⟨S1x128, .f32⟩
  | 65 => ⟨S500000x128, .f32⟩
  | 66 => ⟨S500000x128, .f32⟩
  | 67 => ⟨S1x128, .f32⟩
  | 68 => ⟨S500000x128, .f32⟩
  | 69 => ⟨S500000x128, .f32⟩
  | 70 => ⟨S50000x256, .f32⟩
  | 71 => ⟨S1x256, .f32⟩
  | 72 => ⟨S50000x256, .f32⟩
  | 73 => ⟨S50000x256, .f32⟩
  | 74 => ⟨S_, .f32⟩
  | 75 => ⟨S50000x256, .f32⟩
  | 76 => ⟨S50000x256, .f32⟩
  | 77 => ⟨S50000x128, .f32⟩
  | 78 => ⟨S1x128, .f32⟩
  | 79 => ⟨S50000x128, .f32⟩
  | 80 => ⟨S50000x128, .f32⟩
  | 81 => ⟨S50000x128, .f32⟩
  | 82 => ⟨S_, .f32⟩
  | 83 => ⟨S128, .f32⟩
  | 84 => ⟨S_, .f32⟩
  | 85 => ⟨S128, .f32⟩
  | 86 => ⟨S128, .f32⟩
  | 87 => ⟨S_, .i32⟩
  | 88 => ⟨S_, .f32⟩
  | 89 => ⟨S128, .f32⟩
  | 90 => ⟨S1x128, .f32⟩
  | 91 => ⟨S_, .f32⟩
  | 92 => ⟨S1x128, .f32⟩
  | 93 => ⟨S1x128, .f32⟩
  | 94 => ⟨S50000x128, .f32⟩
  | 95 => ⟨S50000x128, .f32⟩
  | 96 => ⟨S50000x128, .f32⟩
  | 97 => ⟨S_, .f32⟩
  | 98 => ⟨S_, .f32⟩
  | 99 => ⟨S_, .f32⟩
  | 100 => ⟨S_, .f32⟩
  | 101 => ⟨S128, .f32⟩
  | 102 => ⟨S128, .f32⟩
  | 103 => ⟨S128, .f32⟩
  | 104 => ⟨S_, .f32⟩
  | 105 => ⟨S_, .i1⟩
  | 106 => ⟨S_, .f32⟩
  | 107 => ⟨S_, .f32⟩
  | 108 => ⟨S128, .f32⟩
  | 109 => ⟨S128, .f32⟩
  | 110 => ⟨S1x128, .f32⟩
  | 111 => ⟨S50000x128, .f32⟩
  | 112 => ⟨S50000x128, .f32⟩
  | 113 => ⟨S_, .f32⟩
  | 114 => ⟨S128, .f32⟩
  | 115 => ⟨S128, .f32⟩
  | 116 => ⟨S128, .f32⟩
  | 117 => ⟨S1x128, .f32⟩
  | 118 => ⟨S50000x128, .f32⟩
  | 119 => ⟨S50000x128, .f32⟩
  | 120 => ⟨S1x128, .f32⟩
  | 121 => ⟨S50000x128, .f32⟩
  | 122 => ⟨S50000x128, .f32⟩
  | 123 => ⟨S1x128, .f32⟩
  | 124 => ⟨S50000x128, .f32⟩
  | 125 => ⟨S50000x128, .f32⟩
  | 126 => ⟨S500000x256, .f32⟩
  | 127 => ⟨S1x256, .f32⟩
  | _ => ⟨S50000x128, .f32⟩

abbrev hbmTy0_2 (i : Nat) : BufTy := match i % 128 with
  | 0 => ⟨S500000x256, .f32⟩
  | 1 => ⟨S500000x256, .f32⟩
  | 2 => ⟨S_, .f32⟩
  | 3 => ⟨S500000x256, .f32⟩
  | 4 => ⟨S500000x256, .f32⟩
  | 5 => ⟨S500000x128, .f32⟩
  | 6 => ⟨S1x128, .f32⟩
  | 7 => ⟨S500000x128, .f32⟩
  | 8 => ⟨S500000x128, .f32⟩
  | 9 => ⟨S500000x128, .f32⟩
  | 10 => ⟨S_, .f32⟩
  | 11 => ⟨S128, .f32⟩
  | 12 => ⟨S_, .f32⟩
  | 13 => ⟨S128, .f32⟩
  | 14 => ⟨S128, .f32⟩
  | 15 => ⟨S_, .i32⟩
  | 16 => ⟨S_, .f32⟩
  | 17 => ⟨S128, .f32⟩
  | 18 => ⟨S1x128, .f32⟩
  | 19 => ⟨S_, .f32⟩
  | 20 => ⟨S1x128, .f32⟩
  | 21 => ⟨S1x128, .f32⟩
  | 22 => ⟨S500000x128, .f32⟩
  | 23 => ⟨S500000x128, .f32⟩
  | 24 => ⟨S500000x128, .f32⟩
  | 25 => ⟨S_, .f32⟩
  | 26 => ⟨S_, .f32⟩
  | 27 => ⟨S_, .f32⟩
  | 28 => ⟨S_, .f32⟩
  | 29 => ⟨S128, .f32⟩
  | 30 => ⟨S128, .f32⟩
  | 31 => ⟨S128, .f32⟩
  | 32 => ⟨S_, .f32⟩
  | 33 => ⟨S_, .i1⟩
  | 34 => ⟨S_, .f32⟩
  | 35 => ⟨S_, .f32⟩
  | 36 => ⟨S128, .f32⟩
  | 37 => ⟨S128, .f32⟩
  | 38 => ⟨S1x128, .f32⟩
  | 39 => ⟨S500000x128, .f32⟩
  | 40 => ⟨S500000x128, .f32⟩
  | 41 => ⟨S_, .f32⟩
  | 42 => ⟨S128, .f32⟩
  | 43 => ⟨S128, .f32⟩
  | 44 => ⟨S128, .f32⟩
  | 45 => ⟨S1x128, .f32⟩
  | 46 => ⟨S500000x128, .f32⟩
  | 47 => ⟨S500000x128, .f32⟩
  | 48 => ⟨S1x128, .f32⟩
  | 49 => ⟨S500000x128, .f32⟩
  | 50 => ⟨S500000x128, .f32⟩
  | 51 => ⟨S1x128, .f32⟩
  | 52 => ⟨S500000x128, .f32⟩
  | 53 => ⟨S500000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_c : Ref sig .tc := ⟨.hbm, 37, rfl⟩
abbrev main_v8 : Ref sig .tc := ⟨.hbm, 38, rfl⟩
abbrev main_v9 : Ref sig .tc := ⟨.hbm, 39, rfl⟩
abbrev main_c_0 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_c_1 : Ref sig .tc := ⟨.hbm, 46, rfl⟩
abbrev main_v15 : Ref sig .tc := ⟨.hbm, 47, rfl⟩
abbrev main_v16 : Ref sig .tc := ⟨.hbm, 48, rfl⟩
abbrev main_c_2 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_cst : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_cst_3 : Ref sig .tc := ⟨.hbm, 61, rfl⟩
abbrev main_v27 : Ref sig .tc := ⟨.hbm, 62, rfl⟩
abbrev main_v28 : Ref sig .tc := ⟨.hbm, 63, rfl⟩
abbrev main_cst_4 : Ref sig .tc := ⟨.hbm, 64, rfl⟩
abbrev main_cst_5 : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_v29 : Ref sig .tc := ⟨.hbm, 71, rfl⟩
abbrev main_v30 : Ref sig .tc := ⟨.hbm, 72, rfl⟩
abbrev main_c_6 : Ref sig .tc := ⟨.hbm, 73, rfl⟩
abbrev main_v31 : Ref sig .tc := ⟨.hbm, 74, rfl⟩
abbrev main_v32 : Ref sig .tc := ⟨.hbm, 75, rfl⟩
abbrev main_c_7 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_cst_8 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_cst_9 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_cst_10 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_cst_11 : Ref sig .tc := ⟨.hbm, 105, rfl⟩
abbrev main_v58 : Ref sig .tc := ⟨.hbm, 106, rfl⟩
abbrev main_cst_12 : Ref sig .tc := ⟨.hbm, 107, rfl⟩
abbrev main_v59 : Ref sig .tc := ⟨.hbm, 108, rfl⟩
abbrev main_v60 : Ref sig .tc := ⟨.hbm, 109, rfl⟩
abbrev main_c_13 : Ref sig .tc := ⟨.hbm, 110, rfl⟩
abbrev main_call1_cst : Ref sig .tc := ⟨.hbm, 111, rfl⟩
abbrev main_call1_v0 : Ref sig .tc := ⟨.hbm, 112, rfl⟩
abbrev main_call1_v1 : Ref sig .tc := ⟨.hbm, 113, rfl⟩
abbrev main_call1_cst_0 : Ref sig .tc := ⟨.hbm, 114, rfl⟩
abbrev main_call1_v2 : Ref sig .tc := ⟨.hbm, 115, rfl⟩
abbrev main_call1_v3 : Ref sig .tc := ⟨.hbm, 116, rfl⟩
abbrev main_call1_v4 : Ref sig .tc := ⟨.hbm, 117, rfl⟩
abbrev main_call1_v5 : Ref sig .tc := ⟨.hbm, 118, rfl⟩
abbrev main_call1_v6 : Ref sig .tc := ⟨.hbm, 119, rfl⟩
abbrev main_call1_v7 : Ref sig .tc := ⟨.hbm, 120, rfl⟩
abbrev main_call1_cst_1 : Ref sig .tc := ⟨.hbm, 121, rfl⟩
abbrev main_call1_v8 : Ref sig .tc := ⟨.hbm, 122, rfl⟩
abbrev main_call1_cst_2 : Ref sig .tc := ⟨.hbm, 123, rfl⟩
abbrev main_call1_v9 : Ref sig .tc := ⟨.hbm, 124, rfl⟩
abbrev main_call1_v10 : Ref sig .tc := ⟨.hbm, 125, rfl⟩
abbrev main_call1_v11 : Ref sig .tc := ⟨.hbm, 126, rfl⟩
abbrev main_call1_cst_3 : Ref sig .tc := ⟨.hbm, 127, rfl⟩
abbrev main_call1_v12 : Ref sig .tc := ⟨.hbm, 128, rfl⟩
abbrev main_call1_cst_4 : Ref sig .tc := ⟨.hbm, 129, rfl⟩
abbrev main_call1_call0_v0 : Ref sig .tc := ⟨.hbm, 130, rfl⟩
abbrev main_call1_call0_v1 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_cst_14 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_v71 : Ref sig .tc := ⟨.hbm, 143, rfl⟩
abbrev main_v72 : Ref sig .tc := ⟨.hbm, 144, rfl⟩
abbrev main_v73 : Ref sig .tc := ⟨.hbm, 145, rfl⟩
abbrev main_v74 : Ref sig .tc := ⟨.hbm, 146, rfl⟩
abbrev main_v75 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_cst_15 : Ref sig .tc := ⟨.hbm, 154, rfl⟩
abbrev main_v82 : Ref sig .tc := ⟨.hbm, 155, rfl⟩
abbrev main_cst_16 : Ref sig .tc := ⟨.hbm, 156, rfl⟩
abbrev main_v83 : Ref sig .tc := ⟨.hbm, 157, rfl⟩
abbrev main_v84 : Ref sig .tc := ⟨.hbm, 158, rfl⟩
abbrev main_c_17 : Ref sig .tc := ⟨.hbm, 159, rfl⟩
abbrev main_call2_cst : Ref sig .tc := ⟨.hbm, 160, rfl⟩
abbrev main_call2_v0 : Ref sig .tc := ⟨.hbm, 161, rfl⟩
abbrev main_call2_v1 : Ref sig .tc := ⟨.hbm, 162, rfl⟩
abbrev main_call2_cst_0 : Ref sig .tc := ⟨.hbm, 163, rfl⟩
abbrev main_call2_v2 : Ref sig .tc := ⟨.hbm, 164, rfl⟩
abbrev main_call2_v3 : Ref sig .tc := ⟨.hbm, 165, rfl⟩
abbrev main_call2_v4 : Ref sig .tc := ⟨.hbm, 166, rfl⟩
abbrev main_call2_v5 : Ref sig .tc := ⟨.hbm, 167, rfl⟩
abbrev main_call2_v6 : Ref sig .tc := ⟨.hbm, 168, rfl⟩
abbrev main_call2_v7 : Ref sig .tc := ⟨.hbm, 169, rfl⟩
abbrev main_call2_cst_1 : Ref sig .tc := ⟨.hbm, 170, rfl⟩
abbrev main_call2_v8 : Ref sig .tc := ⟨.hbm, 171, rfl⟩
abbrev main_call2_cst_2 : Ref sig .tc := ⟨.hbm, 172, rfl⟩
abbrev main_call2_v9 : Ref sig .tc := ⟨.hbm, 173, rfl⟩
abbrev main_call2_v10 : Ref sig .tc := ⟨.hbm, 174, rfl⟩
abbrev main_call2_v11 : Ref sig .tc := ⟨.hbm, 175, rfl⟩
abbrev main_call2_cst_3 : Ref sig .tc := ⟨.hbm, 176, rfl⟩
abbrev main_call2_v12 : Ref sig .tc := ⟨.hbm, 177, rfl⟩
abbrev main_call2_cst_4 : Ref sig .tc := ⟨.hbm, 178, rfl⟩
abbrev main_call2_call0_v0 : Ref sig .tc := ⟨.hbm, 179, rfl⟩
abbrev main_call2_call0_v1 : Ref sig .tc := ⟨.hbm, 180, rfl⟩
abbrev main_v85 : Ref sig .tc := ⟨.hbm, 181, rfl⟩
abbrev main_v86 : Ref sig .tc := ⟨.hbm, 182, rfl⟩
abbrev main_v87 : Ref sig .tc := ⟨.hbm, 183, rfl⟩
abbrev main_v88 : Ref sig .tc := ⟨.hbm, 184, rfl⟩
abbrev main_cst_18 : Ref sig .tc := ⟨.hbm, 185, rfl⟩
abbrev main_v89 : Ref sig .tc := ⟨.hbm, 186, rfl⟩
abbrev main_v90 : Ref sig .tc := ⟨.hbm, 187, rfl⟩
abbrev main_v91 : Ref sig .tc := ⟨.hbm, 188, rfl⟩
abbrev main_v92 : Ref sig .tc := ⟨.hbm, 189, rfl⟩
abbrev main_v93 : Ref sig .tc := ⟨.hbm, 190, rfl⟩
abbrev main_v94 : Ref sig .tc := ⟨.hbm, 191, rfl⟩
abbrev main_v95 : Ref sig .tc := ⟨.hbm, 192, rfl⟩
abbrev main_v96 : Ref sig .tc := ⟨.hbm, 193, rfl⟩
abbrev main_v97 : Ref sig .tc := ⟨.hbm, 194, rfl⟩
abbrev main_v98 : Ref sig .tc := ⟨.hbm, 195, rfl⟩
abbrev main_v99 : Ref sig .tc := ⟨.hbm, 196, rfl⟩
abbrev main_v100 : Ref sig .tc := ⟨.hbm, 197, rfl⟩
abbrev main_v101 : Ref sig .tc := ⟨.hbm, 198, rfl⟩
abbrev main_v102 : Ref sig .tc := ⟨.hbm, 199, rfl⟩
abbrev main_v103 : Ref sig .tc := ⟨.hbm, 200, rfl⟩
abbrev main_v104 : Ref sig .tc := ⟨.hbm, 201, rfl⟩
abbrev main_call3_cst : Ref sig .tc := ⟨.hbm, 202, rfl⟩
abbrev main_call3_v0 : Ref sig .tc := ⟨.hbm, 203, rfl⟩
abbrev main_v105 : Ref sig .tc := ⟨.hbm, 204, rfl⟩
abbrev main_v106 : Ref sig .tc := ⟨.hbm, 205, rfl⟩
abbrev main_v107 : Ref sig .tc := ⟨.hbm, 206, rfl⟩
abbrev main_v108 : Ref sig .tc := ⟨.hbm, 207, rfl⟩
abbrev main_v109 : Ref sig .tc := ⟨.hbm, 208, rfl⟩
abbrev main_v110 : Ref sig .tc := ⟨.hbm, 209, rfl⟩
abbrev main_cst_19 : Ref sig .tc := ⟨.hbm, 210, rfl⟩
abbrev main_v111 : Ref sig .tc := ⟨.hbm, 211, rfl⟩
abbrev main_cst_20 : Ref sig .tc := ⟨.hbm, 212, rfl⟩
abbrev main_v112 : Ref sig .tc := ⟨.hbm, 213, rfl⟩
abbrev main_v113 : Ref sig .tc := ⟨.hbm, 214, rfl⟩
abbrev main_c_21 : Ref sig .tc := ⟨.hbm, 215, rfl⟩
abbrev main_call4_cst : Ref sig .tc := ⟨.hbm, 216, rfl⟩
abbrev main_call4_v0 : Ref sig .tc := ⟨.hbm, 217, rfl⟩
abbrev main_call4_v1 : Ref sig .tc := ⟨.hbm, 218, rfl⟩
abbrev main_call4_cst_0 : Ref sig .tc := ⟨.hbm, 219, rfl⟩
abbrev main_call4_v2 : Ref sig .tc := ⟨.hbm, 220, rfl⟩
abbrev main_call4_v3 : Ref sig .tc := ⟨.hbm, 221, rfl⟩
abbrev main_call4_v4 : Ref sig .tc := ⟨.hbm, 222, rfl⟩
abbrev main_call4_v5 : Ref sig .tc := ⟨.hbm, 223, rfl⟩
abbrev main_call4_v6 : Ref sig .tc := ⟨.hbm, 224, rfl⟩
abbrev main_call4_v7 : Ref sig .tc := ⟨.hbm, 225, rfl⟩
abbrev main_call4_cst_1 : Ref sig .tc := ⟨.hbm, 226, rfl⟩
abbrev main_call4_v8 : Ref sig .tc := ⟨.hbm, 227, rfl⟩
abbrev main_call4_cst_2 : Ref sig .tc := ⟨.hbm, 228, rfl⟩
abbrev main_call4_v9 : Ref sig .tc := ⟨.hbm, 229, rfl⟩
abbrev main_call4_v10 : Ref sig .tc := ⟨.hbm, 230, rfl⟩
abbrev main_call4_v11 : Ref sig .tc := ⟨.hbm, 231, rfl⟩
abbrev main_call4_cst_3 : Ref sig .tc := ⟨.hbm, 232, rfl⟩
abbrev main_call4_v12 : Ref sig .tc := ⟨.hbm, 233, rfl⟩
abbrev main_call4_cst_4 : Ref sig .tc := ⟨.hbm, 234, rfl⟩
abbrev main_call4_call0_v0 : Ref sig .tc := ⟨.hbm, 235, rfl⟩
abbrev main_call4_call0_v1 : Ref sig .tc := ⟨.hbm, 236, rfl⟩
abbrev main_v114 : Ref sig .tc := ⟨.hbm, 237, rfl⟩
abbrev main_v115 : Ref sig .tc := ⟨.hbm, 238, rfl⟩
abbrev main_v116 : Ref sig .tc := ⟨.hbm, 239, rfl⟩
abbrev main_v117 : Ref sig .tc := ⟨.hbm, 240, rfl⟩
abbrev main_cst_22 : Ref sig .tc := ⟨.hbm, 241, rfl⟩
abbrev main_v118 : Ref sig .tc := ⟨.hbm, 242, rfl⟩
abbrev main_v119 : Ref sig .tc := ⟨.hbm, 243, rfl⟩
abbrev main_v120 : Ref sig .tc := ⟨.hbm, 244, rfl⟩
abbrev main_v121 : Ref sig .tc := ⟨.hbm, 245, rfl⟩
abbrev main_v122 : Ref sig .tc := ⟨.hbm, 246, rfl⟩
abbrev main_v123 : Ref sig .tc := ⟨.hbm, 247, rfl⟩
abbrev main_v124 : Ref sig .tc := ⟨.hbm, 248, rfl⟩
abbrev main_v125 : Ref sig .tc := ⟨.hbm, 249, rfl⟩
abbrev main_v126 : Ref sig .tc := ⟨.hbm, 250, rfl⟩
abbrev main_v127 : Ref sig .tc := ⟨.hbm, 251, rfl⟩
abbrev main_v128 : Ref sig .tc := ⟨.hbm, 252, rfl⟩
abbrev main_v129 : Ref sig .tc := ⟨.hbm, 253, rfl⟩
abbrev main_v130 : Ref sig .tc := ⟨.hbm, 254, rfl⟩
abbrev main_v131 : Ref sig .tc := ⟨.hbm, 255, rfl⟩
abbrev main_v132 : Ref sig .tc := ⟨.hbm, 256, rfl⟩
abbrev main_v133 : Ref sig .tc := ⟨.hbm, 257, rfl⟩
abbrev main_call5_cst : Ref sig .tc := ⟨.hbm, 258, rfl⟩
abbrev main_call5_v0 : Ref sig .tc := ⟨.hbm, 259, rfl⟩
abbrev main_v134 : Ref sig .tc := ⟨.hbm, 260, rfl⟩
abbrev main_v135 : Ref sig .tc := ⟨.hbm, 261, rfl⟩
abbrev main_v136 : Ref sig .tc := ⟨.hbm, 262, rfl⟩
abbrev main_v137 : Ref sig .tc := ⟨.hbm, 263, rfl⟩
abbrev main_v138 : Ref sig .tc := ⟨.hbm, 264, rfl⟩
abbrev main_v139 : Ref sig .tc := ⟨.hbm, 265, rfl⟩
abbrev main_cst_23 : Ref sig .tc := ⟨.hbm, 266, rfl⟩
abbrev main_v140 : Ref sig .tc := ⟨.hbm, 267, rfl⟩
abbrev main_cst_24 : Ref sig .tc := ⟨.hbm, 268, rfl⟩
abbrev main_v141 : Ref sig .tc := ⟨.hbm, 269, rfl⟩
abbrev main_v142 : Ref sig .tc := ⟨.hbm, 270, rfl⟩
abbrev main_c_25 : Ref sig .tc := ⟨.hbm, 271, rfl⟩
abbrev main_call6_cst : Ref sig .tc := ⟨.hbm, 272, rfl⟩
abbrev main_call6_v0 : Ref sig .tc := ⟨.hbm, 273, rfl⟩
abbrev main_call6_v1 : Ref sig .tc := ⟨.hbm, 274, rfl⟩
abbrev main_call6_cst_0 : Ref sig .tc := ⟨.hbm, 275, rfl⟩
abbrev main_call6_v2 : Ref sig .tc := ⟨.hbm, 276, rfl⟩
abbrev main_call6_v3 : Ref sig .tc := ⟨.hbm, 277, rfl⟩
abbrev main_call6_v4 : Ref sig .tc := ⟨.hbm, 278, rfl⟩
abbrev main_call6_v5 : Ref sig .tc := ⟨.hbm, 279, rfl⟩
abbrev main_call6_v6 : Ref sig .tc := ⟨.hbm, 280, rfl⟩
abbrev main_call6_v7 : Ref sig .tc := ⟨.hbm, 281, rfl⟩
abbrev main_call6_cst_1 : Ref sig .tc := ⟨.hbm, 282, rfl⟩
abbrev main_call6_v8 : Ref sig .tc := ⟨.hbm, 283, rfl⟩
abbrev main_call6_cst_2 : Ref sig .tc := ⟨.hbm, 284, rfl⟩
abbrev main_call6_v9 : Ref sig .tc := ⟨.hbm, 285, rfl⟩
abbrev main_call6_v10 : Ref sig .tc := ⟨.hbm, 286, rfl⟩
abbrev main_call6_v11 : Ref sig .tc := ⟨.hbm, 287, rfl⟩
abbrev main_call6_cst_3 : Ref sig .tc := ⟨.hbm, 288, rfl⟩
abbrev main_call6_v12 : Ref sig .tc := ⟨.hbm, 289, rfl⟩
abbrev main_call6_cst_4 : Ref sig .tc := ⟨.hbm, 290, rfl⟩
abbrev main_call6_call0_v0 : Ref sig .tc := ⟨.hbm, 291, rfl⟩
abbrev main_call6_call0_v1 : Ref sig .tc := ⟨.hbm, 292, rfl⟩
abbrev main_v143 : Ref sig .tc := ⟨.hbm, 293, rfl⟩
abbrev main_v144 : Ref sig .tc := ⟨.hbm, 294, rfl⟩
abbrev main_v145 : Ref sig .tc := ⟨.hbm, 295, rfl⟩
abbrev main_v146 : Ref sig .tc := ⟨.hbm, 296, rfl⟩
abbrev main_cst_26 : Ref sig .tc := ⟨.hbm, 297, rfl⟩
abbrev main_v147 : Ref sig .tc := ⟨.hbm, 298, rfl⟩
abbrev main_v148 : Ref sig .tc := ⟨.hbm, 299, rfl⟩
abbrev main_v149 : Ref sig .tc := ⟨.hbm, 300, rfl⟩
abbrev main_v150 : Ref sig .tc := ⟨.hbm, 301, rfl⟩
abbrev main_v151 : Ref sig .tc := ⟨.hbm, 302, rfl⟩
abbrev main_v152 : Ref sig .tc := ⟨.hbm, 303, rfl⟩
abbrev main_v153 : Ref sig .tc := ⟨.hbm, 304, rfl⟩
abbrev main_v154 : Ref sig .tc := ⟨.hbm, 305, rfl⟩
abbrev main_v155 : Ref sig .tc := ⟨.hbm, 306, rfl⟩
abbrev main_v156 : Ref sig .tc := ⟨.hbm, 307, rfl⟩
abbrev main_v157 : Ref sig .tc := ⟨.hbm, 308, rfl⟩
abbrev main_v158 : Ref sig .tc := ⟨.hbm, 309, rfl⟩

abbrev nD : Nat := 1
abbrev τ : Topo := Topo.v7x

variable {F : FTy → Type} [FloatOps F]

class Facts₀ : Prop where
  shapeCasts_S50000x128_S50000x8x16 : S50000x128.ShapeCasts S50000x8x16
  shapeCasts_S500000x128_S500000x8x16 : S500000x128.ShapeCasts S500000x8x16
  bcast_S_S500000 : S_.BroadcastsInDim S500000 (![] : Fin 0 → Fin S500000.rank)
  bcast_S500000_S500000x1_0 : S500000.BroadcastsInDim S500000x1 (![0] : Fin 1 → Fin S500000x1.rank)
  bcast_S_S500000x8x16 : S_.BroadcastsInDim S500000x8x16 (![] : Fin 0 → Fin S500000x8x16.rank)
  shapeCasts_S500000x8x16_S500000x128 : S500000x8x16.ShapeCasts S500000x128
  reducesTo_S500000x8x16_S500000x8_d2 : S500000x8x16.ReducesTo [2] S500000x8
  h_S_ : 0 < S_.numel
  bcast_S500000x8_S500000x8x1_0_1 : S500000x8.BroadcastsInDim S500000x8x1 (![0, 1] : Fin 2 → Fin S500000x8x1.rank)
  bcast_S_S500000x8x1 : S_.BroadcastsInDim S500000x8x1 (![] : Fin 0 → Fin S500000x8x1.rank)
  bcast_S500000x1x1_S500000x8x16_0_1_2 : S500000x1x1.BroadcastsInDim S500000x8x16 (![0, 1, 2] : Fin 3 → Fin S500000x8x16.rank)
  bcast_S500000x8x1_S500000x8x16_0_1_2 : S500000x8x1.BroadcastsInDim S500000x8x16 (![0, 1, 2] : Fin 3 → Fin S500000x8x16.rank)
  bcast_S_S50000x8x16 : S_.BroadcastsInDim S50000x8x16 (![] : Fin 0 → Fin S50000x8x16.rank)
  bcast_S_S50000x8x1 : S_.BroadcastsInDim S50000x8x1 (![] : Fin 0 → Fin S50000x8x1.rank)
  bcast_S50000x8x1_S50000x8x16_0_1_2 : S50000x8x1.BroadcastsInDim S50000x8x16 (![0, 1, 2] : Fin 3 → Fin S50000x8x16.rank)
  shapeCasts_S50000x8x16_S50000x128 : S50000x8x16.ShapeCasts S50000x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  bcast_S_S128 : S_.BroadcastsInDim S128 (![] : Fin 0 → Fin S128.rank)
  bcast_S_S1x128 : S_.BroadcastsInDim S1x128 (![] : Fin 0 → Fin S1x128.rank)
  bcast_S1x128_S500000x128_0_1 : S1x128.BroadcastsInDim S500000x128 (![0, 1] : Fin 2 → Fin S500000x128.rank)
  reducesTo_S500000x128_S128_d0 : S500000x128.ReducesTo [0] S128
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  dot_S50000x128_S128x128_S50000x128_1_0_0_1_n_n_wf : DotDims.WF S50000x128 S128x128 S50000x128 [1] [0] [0] [1] [] []
  dot_S500000x128_S128x128_S500000x128_1_0_0_1_n_n_wf : DotDims.WF S500000x128 S128x128 S500000x128 [1] [0] [0] [1] [] []
  gather_S50000x8x16_S500000x1_S500000x8x16_12_0_n_n_0_1_1816_wf : GatherDims.WF S50000x8x16 S500000x1 S500000x8x16 [1, 2] [0] [] [0] [] 1 ![1, 8, 16]
  scatter_S50000x8x16_S500000x1_S500000x8x16_12_0_0_1_wf : ScatterDims.WF S50000x8x16 S500000x1 S500000x8x16 [1, 2] [0] [0] 1
  scatter_S50000x8x1_S500000x1_S500000x8x1_12_0_0_1_wf : ScatterDims.WF S50000x8x1 S500000x1 S500000x8x1 [1, 2] [0] [0] 1
  dot_S50000x128_S128x256_S50000x256_1_0_0_1_n_n_wf : DotDims.WF S50000x128 S128x256 S50000x256 [1] [0] [0] [1] [] []
  dot_S50000x256_S256x128_S50000x128_1_0_0_1_n_n_wf : DotDims.WF S50000x256 S256x128 S50000x128 [1] [0] [0] [1] [] []
  dot_S500000x128_S128x256_S500000x256_1_0_0_1_n_n_wf : DotDims.WF S500000x128 S128x256 S500000x256 [1] [0] [0] [1] [] []
  dot_S500000x256_S256x128_S500000x128_1_0_0_1_n_n_wf : DotDims.WF S500000x256 S256x128 S500000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def gather_S50000x8x16_S500000x1_S500000x8x16_12_0_n_n_0_1_1816 : GatherDims S50000x8x16 S500000x1 S500000x8x16 where
  offsetDims := [1, 2]
  collapsedSliceDims := [0]
  operandBatchingDims := []
  startIndicesBatchingDims := []
  startIndexMap := [0]
  indexVectorDim := 1
  sliceSizes := ![1, 8, 16]
  wf := gather_S50000x8x16_S500000x1_S500000x8x16_12_0_n_n_0_1_1816_wf
def scatter_S50000x8x16_S500000x1_S500000x8x16_12_0_0_1 : ScatterDims S50000x8x16 S500000x1 S500000x8x16 where
  updateWindowDims := [1, 2]
  insertedWindowDims := [0]
  scatterDimsToOperandDims := [0]
  indexVectorDim := 1
  wf := scatter_S50000x8x16_S500000x1_S500000x8x16_12_0_0_1_wf
def scatter_S50000x8x1_S500000x1_S500000x8x1_12_0_0_1 : ScatterDims S50000x8x1 S500000x1 S500000x8x1 where
  updateWindowDims := [1, 2]
  insertedWindowDims := [0]
  scatterDimsToOperandDims := [0]
  indexVectorDim := 1
  wf := scatter_S50000x8x1_S500000x1_S500000x8x1_12_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S500000x128_S128x256_S500000x256_1_0_0_1_n_n : DotDims S500000x128 S128x256 S500000x256 where
  lhsContracting := [1]
  rhsContracting := [0]
  lhsNonContracting := [0]
  rhsNonContracting := [1]
  lhsBatch := []
  rhsBatch := []
  wf := dot_S500000x128_S128x256_S500000x256_1_0_0_1_n_n_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf

class Facts : Prop extends Facts₀ where

variable [Facts]
-- ==== Proof.K.Reg0.lean ====
/- The class-A half of region 0 of the kernel program, at a parameter `V` (the TensorCore's buffer contents when the
   region is entered): each window's block at a point, what the body leaves in the output window's buffer (the matrix
   product of the row block, read at the narrower float format, with the whole weight matrix), the body's triple, the
   proof data and the body obligation at every point. -/
import proofs.«101045_j34351148433892_1_alg».proof.Proof.Gen.Kernel.Launch
import proofs.«101045_j34351148433892_1_alg».proof.Proof.Gen.Kernel.Skeleton
import proofs.«101045_j34351148433892_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the row block, a new block at every point): its current staging buffer holds its block at every
    point, for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weight matrix, the same block at every point, so brought in at the first point only): its
    current staging buffer holds its block at every point, brought in there or not, since its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_0 : Rect S5000x128 := Rect.unit (s := S5000x128) ![0, 0] S5000x128.size inb_S5000x128_S5000x128_0_0
abbrev r0_1 : Rect S128x384 := Rect.unit (s := S128x384) ![0, 0] S128x384.size inb_S128x384_S128x384_0_0
abbrev r0_2 : Rect S5000x384 := Rect.unit (s := S5000x384) ![0, 0] S5000x384.size inb_S5000x384_S5000x384_0_0

/-! ## What the body leaves in the output window's buffer -/

/-- Window 2's staging buffer after the body, from the two input windows' blocks: its one store, the product of the row
    block with the weight matrix. -/
def out0_2 (x0 : Vec F S5000x128 .f32) (x1 : Vec F S128x384 .bf16) : Vec F S5000x384 .f32 :=
  View.canon [⟨r0_2, k0_pay1 (View.ld x0 r0_0) (View.ld x1 r0_1)⟩]

/-- The one store is the whole buffer, so it covers it. -/
theorem cover0_2 (p0 : Vec F S5000x384 .f32) (y : S5000x384.Idx) :
    ∃ pc ∈ ([⟨r0_2, p0⟩] : List (View.Piece (Elt F) S5000x384 .f32)), y ∈ pc.1.set :=
  View.cover_of_tiled [⟨r0_2, p0⟩] S5000x384.size (by rfl) y

/-! ## The body's triple -/

set_option maxHeartbeats 1000000 in
/-- The kernel body on whole staging memrefs, the inputs' at read contents and the output's at anything (it is read
    before it is written, the value read unused), runs to the continuation holding the inputs' as they were and the
    output's at `out0_2` of the inputs'. -/
theorem sound_kernel0 (c : Dev nD) (E : Set ℕ) (i : grid0.Coords)
    (arg1 : Memref sig .tc .vmem S5000x128 .f32) (harg1 : arg1.IsWhole)
    (arg2 : Memref sig .tc .vmem S128x384 .bf16) (harg2 : arg2.IsWhole)
    (arg3 : Memref sig .tc .vmem S5000x384 .f32) (harg3 : arg3.IsWhole)
    (x0 : Vec F S5000x128 .f32) (x1 : Vec F S128x384 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__qkv_kernel i arg1 harg1 arg2 harg2 arg3 harg3) K := by
  simp only [cc0__qkv_kernel_eq_skeleton]; unfold cc0__qkv_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point `t`
    each input's buffer at its block and the output's at `out0_2` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand
-- ==== Proof.K.Reg1.lean ====
/- The class-A half of region 1 of the kernel program, at a parameter `V` (the TensorCore's buffer contents when the
   region is entered): each window's block at a point, what the body leaves in the output window's buffer (the matrix
   product of the row block, read at the narrower float format, with the whole weight matrix), the body's triple, the
   proof data and the body obligation at every point. -/
import proofs.«101045_j34351148433892_1_alg».proof.Proof.Gen.Kernel.Launch
import proofs.«101045_j34351148433892_1_alg».proof.Proof.Gen.Kernel.Skeleton
import proofs.«101045_j34351148433892_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the row block, a new block at every point): its current staging buffer holds its block at every
    point, for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the weight matrix, the same block at every point, so brought in at the first point only): its
    current staging buffer holds its block at every point, brought in there or not, since its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

abbrev r1_0 : Rect S5000x128 := Rect.unit (s := S5000x128) ![0, 0] S5000x128.size inb_S5000x128_S5000x128_0_0
abbrev r1_1 : Rect S128x128 := Rect.unit (s := S128x128) ![0, 0] S128x128.size inb_S128x128_S128x128_0_0
abbrev r1_2 : Rect S5000x128 := Rect.unit (s := S5000x128) ![0, 0] S5000x128.size inb_S5000x128_S5000x128_0_0

/-! ## What the body leaves in the output window's buffer -/

/-- Window 2's staging buffer after the body, from the two input windows' blocks: its one store, the product of the row
    block with the weight matrix. -/
def out1_2 (x0 : Vec F S5000x128 .f32) (x1 : Vec F S128x128 .bf16) : Vec F S5000x128 .f32 :=
  View.canon [⟨r1_2, k1_pay1 (View.ld x0 r1_0) (View.ld x1 r1_1)⟩]

/-- The one store is the whole buffer, so it covers it. -/
theorem cover1_2 (p0 : Vec F S5000x128 .f32) (y : S5000x128.Idx) :
    ∃ pc ∈ ([⟨r1_2, p0⟩] : List (View.Piece (Elt F) S5000x128 .f32)), y ∈ pc.1.set :=
  View.cover_of_tiled [⟨r1_2, p0⟩] S5000x128.size (by rfl) y

/-! ## The body's triple -/

set_option maxHeartbeats 1000000 in
/-- The kernel body on whole staging memrefs, the inputs' at read contents and the output's at anything (it is read
    before it is written, the value read unused), runs to the continuation holding the inputs' as they were and the
    output's at `out1_2` of the inputs'. -/
theorem sound_kernel1 (c : Dev nD) (E : Set ℕ) (i : grid1.Coords)
    (arg1 : Memref sig .tc .vmem S5000x128 .f32) (harg1 : arg1.IsWhole)
    (arg2 : Memref sig .tc .vmem S128x128 .bf16) (harg2 : arg2.IsWhole)
    (arg3 : Memref sig .tc .vmem S5000x128 .f32) (harg3 : arg3.IsWhole)
    (x0 : Vec F S5000x128 .f32) (x1 : Vec F S128x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__pe_kernel i arg1 harg1 arg2 harg2 arg3 harg3) K := by
  simp only [cc1__pe_kernel_eq_skeleton]; unfold cc1__pe_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at point `t`
    each input's buffer at its block and the output's at `out1_2` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand
-- ==== Proof.K.Reg2.lean ====
/- Region 2 of the kernel program, the per-edge kernel, at a PARAMETER `V`: the TensorCore's buffer contents when the
   region is entered. Ten windows over a grid of 250 points, blocks of 2000 rows: windows 0..4 are the gathered keys,
   the gathered queries, the edge encodings, the envelope column and the gathered values; windows 5 and 6 are the two
   constant 0/1 tables (head reduction [128,8] and head broadcast [8,128]), whose block index never moves; windows
   7, 8, 9 are the three results. Stated here: each window's block at a point, each result window's buffer after the
   body as a function of the input blocks, the body's triple, the pipeline's proof data and its body obligation. -/
import proofs.«101045_j34351148433892_1_alg».proof.Proof.Gen.Kernel.Launch
import proofs.«101045_j34351148433892_1_alg».proof.Proof.Gen.Kernel.Skeleton
import proofs.«101045_j34351148433892_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array that the point's block index selects, read off the
    array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether the point fetched it or not: where it
    was not fetched the block index has not moved since the previous point, and the body leaves the buffer as found. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, whether the point fetched it or not: where it
    was not fetched the block index has not moved since the previous point, and the body leaves the buffer as found. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, whether the point fetched it or not: where it
    was not fetched the block index has not moved since the previous point, and the body leaves the buffer as found. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, whether the point fetched it or not: where it
    was not fetched the block index has not moved since the previous point, and the body leaves the buffer as found. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, whether the point fetched it or not: where it
    was not fetched the block index has not moved since the previous point, and the body leaves the buffer as found. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's staging buffer holds its block at every point, whether the point fetched it or not: where it
    was not fetched the block index has not moved since the previous point, and the body leaves the buffer as found. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's staging buffer holds its block at every point, whether the point fetched it or not: where it
    was not fetched the block index has not moved since the previous point, and the body leaves the buffer as found. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole buffer -/

abbrev r2_0 : Rect S2000x128 := Rect.unit (s := S2000x128) ![0, 0] S2000x128.size inb_S2000x128_S2000x128_0_0
abbrev r2_1 : Rect S2000x8 := Rect.unit (s := S2000x8) ![0, 0] S2000x8.size inb_S2000x8_S2000x8_0_0
abbrev r2_2 : Rect S128x8 := Rect.unit (s := S128x8) ![0, 0] S128x8.size inb_S128x8_S128x8_0_0
abbrev r2_3 : Rect S8x128 := Rect.unit (s := S8x128) ![0, 0] S8x128.size inb_S8x128_S8x128_0_0
abbrev r2_4 : Rect S2000x1 := Rect.unit (s := S2000x1) ![0, 0] S2000x1.size inb_S2000x1_S2000x1_0_0

/-! ## What the body leaves in each result window's buffer -/

/-- Window 7 after the body: the scaled product of keys, queries and edge encodings, one whole-buffer store. -/
def out2_7 (x0 x1 x2 : Vec F S2000x128 .f32) : Vec F S2000x128 .f32 :=
  View.canon [⟨r2_0, k2_pay1 (View.ld x0 r2_0) (View.ld x1 r2_0) (View.ld x2 r2_0)⟩]

/-- Window 8 after the body: the exponential of the clipped per-head sums of window 7's value through the head
    reduction table, one whole-buffer store. -/
def out2_8 (x0 x1 x2 : Vec F S2000x128 .f32) (x5 : Vec F S128x8 .f32) : Vec F S2000x8 .f32 :=
  View.canon [⟨r2_1, k2_pay2 (View.ld x0 r2_0) (View.ld x1 r2_0) (View.ld x2 r2_0) (View.ld x5 r2_2)⟩]

/-- Window 9 after the body: the values times the envelope times window 8's value spread back over the heads'
    columns through the head broadcast table, one whole-buffer store. -/
def out2_9 (x0 x1 x2 : Vec F S2000x128 .f32) (x3 : Vec F S2000x1 .f32) (x4 : Vec F S2000x128 .f32) (x5 : Vec F S128x8 .f32)
    (x6 : Vec F S8x128 .f32) : Vec F S2000x128 .f32 :=
  View.canon [⟨r2_0, k2_pay3 (View.ld x0 r2_0) (View.ld x1 r2_0) (View.ld x2 r2_0) (View.ld x5 r2_2) (View.ld x6 r2_3)
    (View.ld x3 r2_4) (View.ld x4 r2_0)⟩]

/-- A single whole-buffer store covers the buffer. -/
theorem cover2_7 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y
theorem cover2_8 (p0 : Vec F S2000x8 .f32) (y : S2000x8.Idx) :
    ∃ pc ∈ ([⟨r2_1, p0⟩] : List (View.Piece (Elt F) S2000x8 .f32)), y ∈ pc.1.set :=
  View.cover_of_tiled [⟨r2_1, p0⟩] S2000x8.size (by rfl) y
theorem cover2_9 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y

/-! ## The body's triple -/

set_option maxHeartbeats 4000000 in
/-- The body on whole staging memrefs, the inputs' at contents `xW` and the results' at anything, runs to the
    continuation that holds the inputs' as they were and each result's at `out2_W` of the inputs'. Each result memref is
    read once before it is written; the value read is not used. -/
theorem sound_kernel2 (c : Dev nD) (E : Set ℕ) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x1 .f32) (harg4 : arg4.IsWhole) (arg5 : Memref sig .tc .vmem S2000x128 .f32) (harg5 : arg5.IsWhole) (arg6 : Memref sig .tc .vmem S128x8 .f32) (harg6 : arg6.IsWhole) (arg7 : Memref sig .tc .vmem S8x128 .f32) (harg7 : arg7.IsWhole) (arg8 : Memref sig .tc .vmem S2000x128 .f32) (harg8 : arg8.IsWhole) (arg9 : Memref sig .tc .vmem S2000x8 .f32) (harg9 : arg9.IsWhole) (arg10 : Memref sig .tc .vmem S2000x128 .f32) (harg10 : arg10.IsWhole)
    (x0 : Vec F S2000x128 .f32) (x1 : Vec F S2000x128 .f32) (x2 : Vec F S2000x128 .f32) (x3 : Vec F S2000x1 .f32) (x4 : Vec F S2000x128 .f32) (x5 : Vec F S128x8 .f32) (x6 : Vec F S8x128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ (∃ d, owns (c : Thread nD τ) arg8 fullShare d)
        ∗ (∃ d, owns (c : Thread nD τ) arg9 fullShare d)
        ∗ (∃ d, owns (c : Thread nD τ) arg10 fullShare d)
        ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare (out2_7 x0 x1 x2)
          ∗ owns (c : Thread nD τ) arg9 fullShare (out2_8 x0 x1 x2 x5)
          ∗ owns (c : Thread nD τ) arg10 fullShare (out2_9 x0 x1 x2 x3 x4 x5 x6)) -∗ K ⟨⟩))
      ⊢ wp frame (wpE (defs₀ (F := F)) Variants.none c none) E (cc2__edge_kernel i arg1 harg1 arg2 harg2 arg3 harg3 arg4 harg4 arg5 harg5 arg6 harg6 arg7 harg7 arg8 harg8 arg9 harg9 arg10 harg10) K := by
  simp only [cc2__edge_kernel_eq_skeleton]; unfold cc2__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover2_7 _)
  isplitl [H8]
  · iexists _; isplitr
    swap; · iexact H8
    ipureintro
    exact View.read_writes_eq_canon _ _ _ (cover2_8 _)
  iexists _; isplitr
  swap; · iexact H9
  ipureintro
  exact View.read_writes_eq_canon _ _ _ (cover2_9 _)

/-! ## The pipeline's proof data -/

/-- The proof data of pipeline 2 on core `c`: the arrays as the region finds them; after the body at point `t` each
    input's buffer at its block and each result's at `out2_W` of the input blocks; the invariant keeps the scoped rest
    and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t)
    | ⟨8, _⟩ => out2_8 (iblk2 V c 0 t) (iblk2 V c 1 t) (iblk2 V c 2 t) (iblk2 V c 5 t)
    | ⟨9, _⟩ => out2_9 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) := by dsimp only [dat2]
theorem after2_8 (c : Dev nD) (t : Fin cfg2.N) : (dat2 V c).after 8 t = out2_8 (iblk2 V c 0 t) (iblk2 V c 1 t) (iblk2 V c 2 t) (iblk2 V c 5 t) := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at any point: the inputs' memrefs hold their blocks, so the body's triple applies; the invariant and the
    core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand
-- ==== Proof.K.Reg3.lean ====
/- The class-A half of region 3 (`cc3__outproj_kernel`: x + attn · W + b on blocks of 5000 rows), at a parameter
   `V` — the TensorCore's buffer contents when the region is entered. Windows 0..3 are inputs (x, attn, W, b; W and b
   have a constant block index), window 4 is the output. -/
import proofs.«101045_j34351148433892_1_alg».proof.Proof.Gen.Kernel.Launch
import proofs.«101045_j34351148433892_1_alg».proof.Proof.Gen.Kernel.Skeleton
import proofs.«101045_j34351148433892_1_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current buffer holds its block at every point, fetched there or not (an unfetched window's
    block index has not moved), for any proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_0 : Rect S5000x128 := Rect.unit (s := S5000x128) ![0, 0] S5000x128.size inb_S5000x128_S5000x128_0_0
abbrev r3_1 : Rect S128x128 := Rect.unit (s := S128x128) ![0, 0] S128x128.size inb_S128x128_S128x128_0_0
abbrev r3_2 : Rect S1x128 := Rect.unit (s := S1x128) ![0, 0] S1x128.size inb_S1x128_S1x128_0_0

/-! ## What the body leaves in the output window's buffer -/

/-- Window 4's buffer after the body, from the input windows' blocks (x0 = x, x1 = attn, x2 = W, x3 = b): one store
    of the whole buffer. -/
def out3_4 (x0 : Vec F S5000x128 .f32) (x1 : Vec F S5000x128 .f32) (x2 : Vec F S128x128 .bf16) (x3 : Vec F S1x128 .f32) : Vec F S5000x128 .f32 :=
  View.canon [⟨r3_0, k3_pay1 (View.ld x1 r3_0) (View.ld x2 r3_1) (View.ld x0 r3_0) (View.ld x3 r3_2)⟩]

/-- The one store covers the buffer. -/
theorem cover3_4 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

/-! ## The body's triple -/

set_option maxHeartbeats 1000000 in
/-- The body on whole staging memrefs, the inputs' at contents `xW` and the output's at anything, runs to the
    continuation holding the inputs' as they were and the output's at `out3_4` of the inputs'. -/
theorem sound_kernel3 (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S5000x128 .f32) (x2 : Vec F S128x128 .bf16) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__outproj_kernel i arg1 harg1 arg2 harg2 arg3 harg3 arg4 harg4 arg5 harg5) K := by
  simp only [cc3__outproj_kernel_eq_skeleton]; unfold cc3__outproj_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The pipeline's proof data -/

/-- The proof data of the region on core `c`: the arrays as the region finds them (`V`); after the body at point
    `t` each input's buffer at its block and the output's at `out3_4` of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks, so the body's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Reg4.lean ====
/- The class-A half of region 4 (`cc4__outproj_kernel`: x + attn · W + b on blocks of 5000 rows), at a parameter
   `V` — the TensorCore's buffer contents when the region is entered. Windows 0..3 are inputs (x, attn, W, b; W and b
   have a constant block index), window 4 is the output. -/
import proofs.«101045_j34351148433892_1_alg».proof.Proof.Gen.Kernel.Launch
import proofs.«101045_j34351148433892_1_alg».proof.Proof.Gen.Kernel.Skeleton
import proofs.«101045_j34351148433892_1_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current buffer holds its block at every point, fetched there or not (an unfetched window's
    block index has not moved), for any proof data whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer whole -/

abbrev r4_0 : Rect S5000x128 := Rect.unit (s := S5000x128) ![0, 0] S5000x128.size inb_S5000x128_S5000x128_0_0
abbrev r4_1 : Rect S128x128 := Rect.unit (s := S128x128) ![0, 0] S128x128.size inb_S128x128_S128x128_0_0
abbrev r4_2 : Rect S1x128 := Rect.unit (s := S1x128) ![0, 0] S1x128.size inb_S1x128_S1x128_0_0

/-! ## What the body leaves in the output window's buffer -/

/-- Window 4's buffer after the body, from the input windows' blocks (x0 = x, x1 = attn, x2 = W, x3 = b): one store
    of the whole buffer. -/
def out4_4 (x0 : Vec F S5000x128 .f32) (x1 : Vec F S5000x128 .f32) (x2 : Vec F S128x128 .bf16) (x3 : Vec F S1x128 .f32) : Vec F S5000x128 .f32 :=
  View.canon [⟨r4_0, k4_pay1 (View.ld x1 r4_0) (View.ld x2 r4_1) (View.ld x0 r4_0) (View.ld x3 r4_2)⟩]

/-- The one store covers the buffer. -/
theorem cover4_4 (p0 : Vec F S5000x128 .f32) (y : S5000x128.Idx) :
    ∃ pc ∈ ([⟨r4_0, p0⟩] : List (View.Piece (Elt F) S5000x128 .f32)), y ∈ pc.1.set :=
  View.cover_of_tiled [⟨r4_0, p0⟩] S5000x128.size (by rfl) y

/-! ## The body's triple -/

set_option maxHeartbeats 1000000 in
/-- The body on whole staging memrefs, the inputs' at contents `xW` and the output's at anything, runs to the
    continuation holding the inputs' as they were and the output's at `out4_4` of the inputs'. -/
theorem sound_kernel4 (c : Dev nD) (E : Set ℕ) (i : grid4.Coords) (arg1 : Memref sig .tc .vmem S5000x128 .f32) (harg1 : arg1.IsWhole) (arg2 : Memref sig .tc .vmem S5000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S5000x128 .f32) (x2 : Vec F S128x128 .bf16) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out4_4 x0 x1 x2 x3)) -∗ K ⟨⟩))
      ⊢ wp frame (wpE (defs₀ (F := F)) Variants.none c none) E (cc4__outproj_kernel i arg1 harg1 arg2 harg2 arg3 harg3 arg4 harg4 arg5 harg5) K := by
  simp only [cc4__outproj_kernel_eq_skeleton]; unfold cc4__outproj_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-! ## The pipeline's proof data -/

/-- The proof data of the region on core `c`: the arrays as the region finds them (`V`); after the body at point
    `t` each input's buffer at its block and the output's at `out4_4` of the input blocks; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = out4_4 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' memrefs hold their blocks, so the body's triple applies; the invariant and
    the core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Reg5.lean ====
/- Region 5, the fused batch-norm and feed-forward kernel, at any contents V of the core's buffers on entry:
   each window's block at a grid point, what the body's one store leaves in the output window's staging buffer as a
   function of the nine input blocks, the body's triple, the pipeline's proof data and the body obligation. -/
import proofs.«101045_j34351148433892_1_alg».proof.Proof.Gen.Kernel.Launch
import proofs.«101045_j34351148433892_1_alg».proof.Proof.Gen.Kernel.Skeleton
import proofs.«101045_j34351148433892_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not: where it is not
    fetched its block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not: where it is not
    fetched its block index has not moved. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not: where it is not
    fetched its block index has not moved. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not: where it is not
    fetched its block index has not moved. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not: where it is not
    fetched its block index has not moved. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, fetched there or not: where it is not
    fetched its block index has not moved. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's current staging buffer holds its block at every point, fetched there or not: where it is not
    fetched its block index has not moved. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-- Input window 7's current staging buffer holds its block at every point, fetched there or not: where it is not
    fetched its block index has not moved. -/
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

/-- Input window 8's current staging buffer holds its block at every point, fetched there or not: where it is not
    fetched its block index has not moved. -/
theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and the store take a whole staging buffer -/

abbrev r5_a : Rect S5000x128 := Rect.unit (s := S5000x128) ![0, 0] S5000x128.size inb_S5000x128_S5000x128_0_0
abbrev r5_b : Rect S1x128 := Rect.unit (s := S1x128) ![0, 0] S1x128.size inb_S1x128_S1x128_0_0
abbrev r5_c : Rect S128x256 := Rect.unit (s := S128x256) ![0, 0] S128x256.size inb_S128x256_S128x256_0_0
abbrev r5_d : Rect S1x256 := Rect.unit (s := S1x256) ![0, 0] S1x256.size inb_S1x256_S1x256_0_0
abbrev r5_e : Rect S256x128 := Rect.unit (s := S256x128) ![0, 0] S256x128.size inb_S256x128_S256x128_0_0

/-! ## What the body leaves in the output window's buffer -/

/-- Window 9's staging buffer after the body, from the input windows' blocks: its one store. -/
def out5_9 (x0 : Vec F S5000x128 .f32) (x1 : Vec F S1x128 .f32) (x2 : Vec F S1x128 .f32) (x3 : Vec F S1x128 .f32) (x4 : Vec F S1x128 .f32) (x5 : Vec F S128x256 .bf16) (x6 : Vec F S1x256 .f32) (x7 : Vec F S256x128 .bf16) (x8 : Vec F S1x128 .f32) : Vec F S5000x128 .f32 :=
  View.canon [⟨r5_a, k5_pay1 (k5_pay2 (View.ld x0 r5_a) (View.ld x1 r5_b) (View.ld x2 r5_b) (View.ld x3 r5_b) (View.ld x4 r5_b))
    (k5_pay3 (View.ld x0 r5_a) (View.ld x1 r5_b) (View.ld x2 r5_b) (View.ld x3 r5_b) (View.ld x4 r5_b) (View.ld x5 r5_c) (View.ld x6 r5_d) (View.ld x7 r5_e))
    (k5_pay4 (View.ld x8 r5_b))⟩]

/-- The store covers the buffer. -/
theorem cover5_9 (p0 : Vec F S5000x128 .f32) (y : S5000x128.Idx) :
    ∃ pc ∈ ([⟨r5_a, p0⟩] : List (View.Piece (Elt F) S5000x128 .f32)), y ∈ pc.1.set :=
  View.cover_of_tiled [⟨r5_a, p0⟩] S5000x128.size (by rfl) y

/-! ## The body's triple -/

set_option maxHeartbeats 4000000 in
/-- The kernel body on whole staging memrefs, the inputs' at contents `xW` and the output's at anything, runs to the
    continuation holding the inputs' as they were and the output's at `out5_9` of the inputs'. -/
theorem sound_kernel5 (c : Dev nD) (E : Set ℕ) (i : grid5.Coords) (arg0 : Memref sig .tc .vmem S5000x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S256x128 .bf16) (harg7 : arg7.IsWhole) (arg8 : Memref sig .tc .vmem S1x128 .f32) (harg8 : arg8.IsWhole) (arg9 : Memref sig .tc .vmem S5000x128 .f32) (harg9 : arg9.IsWhole)
    (x0 : Vec F S5000x128 .f32) (x1 : Vec F S1x128 .f32) (x2 : Vec F S1x128 .f32) (x3 : Vec F S1x128 .f32) (x4 : Vec F S1x128 .f32) (x5 : Vec F S128x256 .bf16) (x6 : Vec F S1x256 .f32) (x7 : Vec F S256x128 .bf16) (x8 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out5_9 x0 x1 x2 x3 x4 x5 x6 x7 x8)) -∗ K ⟨⟩))
      ⊢ wp frame (wpE (defs₀ (F := F)) Variants.none c none) E (cc5__ffn_kernel i arg0 harg0 arg1 harg1 arg2 harg2 arg3 harg3 arg4 harg4 arg5 harg5 arg6 harg6 arg7 harg7 arg8 harg8 arg9 harg9) K := by
  simp only [cc5__ffn_kernel_eq_skeleton]; unfold cc5__ffn_kernel_skel
  simp only [k5_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover5_9 _)

/-! ## The pipeline's proof data -/

/-- The proof data of pipeline 5 on core `c`: the arrays as the region finds them; after the body at point `t` each
    input's buffer at its block and the output's at `out5_9` of the input blocks; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => out5_9 (iblk5 V c 0 t) (iblk5 V c 1 t) (iblk5 V c 2 t) (iblk5 V c 3 t) (iblk5 V c 4 t) (iblk5 V c 5 t) (iblk5 V c 6 t) (iblk5 V c 7 t) (iblk5 V c 8 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = out5_9 (iblk5 V c 0 t) (iblk5 V c 1 t) (iblk5 V c 2 t) (iblk5 V c 3 t) (iblk5 V c 4 t) (iblk5 V c 5 t) (iblk5 V c 6 t) (iblk5 V c 7 t) (iblk5 V c 8 t) := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t))

set_option maxHeartbeats 1000000 in
/-- The body at any point: the inputs' memrefs hold their blocks, so the body's triple applies; the invariant and the
    core's owed waits pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel5 c Set.univ (grid5.coords t) _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) (iblk5 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Reg6.lean ====
/- Region 6, the fused batch-norm and feed-forward kernel, at any contents V of the core's buffers on entry:
   each window's block at a grid point, what the body's one store leaves in the output window's staging buffer as a
   function of the nine input blocks, the body's triple, the pipeline's proof data and the body obligation. -/
import proofs.«101045_j34351148433892_1_alg».proof.Proof.Gen.Kernel.Launch
import proofs.«101045_j34351148433892_1_alg».proof.Proof.Gen.Kernel.Skeleton
import proofs.«101045_j34351148433892_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not: where it is not
    fetched its block index has not moved. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not: where it is not
    fetched its block index has not moved. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not: where it is not
    fetched its block index has not moved. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not: where it is not
    fetched its block index has not moved. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not: where it is not
    fetched its block index has not moved. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5's current staging buffer holds its block at every point, fetched there or not: where it is not
    fetched its block index has not moved. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-- Input window 6's current staging buffer holds its block at every point, fetched there or not: where it is not
    fetched its block index has not moved. -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-- Input window 7's current staging buffer holds its block at every point, fetched there or not: where it is not
    fetched its block index has not moved. -/
theorem before6_7_of {c : Dev nD} (dat : Dat τ (Elt F) Unit ℕ (UR sig nD τ) ℕ cfg6 c) (hA : dat.A 7 = V c (Pipeline.arrRef spec6 7))
    (hafter : ∀ t, dat.after 7 t = iblk6 V c 7 t) (t : Fin cfg6.N) (d) : dat.before 7 t d = iblk6 V c 7 t :=
  (dat.before_in_eq_fetched 7 rfl (fun _ => rfl) (fun _ _ _ => rfl) (fun t => by rw [hafter]; unfold Dat.blockOf iblk6; rw [hA]; try rfl) t d).trans
    (by unfold Dat.fetched Dat.blockOf iblk6; rw [hA]; try rfl)

/-- Input window 8's current staging buffer holds its block at every point, fetched there or not: where it is not
    fetched its block index has not moved. -/
theorem before6_8_of {c : Dev nD} (dat : Dat τ (Elt F) Unit ℕ (UR sig nD τ) ℕ cfg6 c) (hA : dat.A 8 = V c (Pipeline.arrRef spec6 8))
    (hafter : ∀ t, dat.after 8 t = iblk6 V c 8 t) (t : Fin cfg6.N) (d) : dat.before 8 t d = iblk6 V c 8 t :=
  (dat.before_in_eq_fetched 8 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and the store take a whole staging buffer -/

abbrev r6_a : Rect S5000x128 := Rect.unit (s := S5000x128) ![0, 0] S5000x128.size inb_S5000x128_S5000x128_0_0
abbrev r6_b : Rect S1x128 := Rect.unit (s := S1x128) ![0, 0] S1x128.size inb_S1x128_S1x128_0_0
abbrev r6_c : Rect S128x256 := Rect.unit (s := S128x256) ![0, 0] S128x256.size inb_S128x256_S128x256_0_0
abbrev r6_d : Rect S1x256 := Rect.unit (s := S1x256) ![0, 0] S1x256.size inb_S1x256_S1x256_0_0
abbrev r6_e : Rect S256x128 := Rect.unit (s := S256x128) ![0, 0] S256x128.size inb_S256x128_S256x128_0_0

/-! ## What the body leaves in the output window's buffer -/

/-- Window 9's staging buffer after the body, from the input windows' blocks: its one store. -/
def out6_9 (x0 : Vec F S5000x128 .f32) (x1 : Vec F S1x128 .f32) (x2 : Vec F S1x128 .f32) (x3 : Vec F S1x128 .f32) (x4 : Vec F S1x128 .f32) (x5 : Vec F S128x256 .bf16) (x6 : Vec F S1x256 .f32) (x7 : Vec F S256x128 .bf16) (x8 : Vec F S1x128 .f32) : Vec F S5000x128 .f32 :=
  View.canon [⟨r6_a, k6_pay1 (k6_pay2 (View.ld x0 r6_a) (View.ld x1 r6_b) (View.ld x2 r6_b) (View.ld x3 r6_b) (View.ld x4 r6_b))
    (k6_pay3 (View.ld x0 r6_a) (View.ld x1 r6_b) (View.ld x2 r6_b) (View.ld x3 r6_b) (View.ld x4 r6_b) (View.ld x5 r6_c) (View.ld x6 r6_d) (View.ld x7 r6_e))
    (k6_pay4 (View.ld x8 r6_b))⟩]

/-- The store covers the buffer. -/
theorem cover6_9 (p0 : Vec F S5000x128 .f32) (y : S5000x128.Idx) :
    ∃ pc ∈ ([⟨r6_a, p0⟩] : List (View.Piece (Elt F) S5000x128 .f32)), y ∈ pc.1.set :=
  View.cover_of_tiled [⟨r6_a, p0⟩] S5000x128.size (by rfl) y

/-! ## The body's triple -/

set_option maxHeartbeats 4000000 in
/-- The kernel body on whole staging memrefs, the inputs' at contents `xW` and the output's at anything, runs to the
    continuation holding the inputs' as they were and the output's at `out6_9` of the inputs'. -/
theorem sound_kernel6 (c : Dev nD) (E : Set ℕ) (i : grid6.Coords) (arg0 : Memref sig .tc .vmem S5000x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S256x128 .bf16) (harg7 : arg7.IsWhole) (arg8 : Memref sig .tc .vmem S1x128 .f32) (harg8 : arg8.IsWhole) (arg9 : Memref sig .tc .vmem S5000x128 .f32) (harg9 : arg9.IsWhole)
    (x0 : Vec F S5000x128 .f32) (x1 : Vec F S1x128 .f32) (x2 : Vec F S1x128 .f32) (x3 : Vec F S1x128 .f32) (x4 : Vec F S1x128 .f32) (x5 : Vec F S128x256 .bf16) (x6 : Vec F S1x256 .f32) (x7 : Vec F S256x128 .bf16) (x8 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out6_9 x0 x1 x2 x3 x4 x5 x6 x7 x8)) -∗ K ⟨⟩))
      ⊢ wp frame (wpE (defs₀ (F := F)) Variants.none c none) E (cc6__ffn_kernel i arg0 harg0 arg1 harg1 arg2 harg2 arg3 harg3 arg4 harg4 arg5 harg5 arg6 harg6 arg7 harg7 arg8 harg8 arg9 harg9) K := by
  simp only [cc6__ffn_kernel_eq_skeleton]; unfold cc6__ffn_kernel_skel
  simp only [k6_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover6_9 _)

/-! ## The pipeline's proof data -/

/-- The proof data of pipeline 6 on core `c`: the arrays as the region finds them; after the body at point `t` each
    input's buffer at its block and the output's at `out6_9` of the input blocks; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => out6_9 (iblk6 V c 0 t) (iblk6 V c 1 t) (iblk6 V c 2 t) (iblk6 V c 3 t) (iblk6 V c 4 t) (iblk6 V c 5 t) (iblk6 V c 6 t) (iblk6 V c 7 t) (iblk6 V c 8 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = iblk6 V c 8 t := by dsimp only [dat6]
theorem after6_9 (c : Dev nD) (t : Fin cfg6.N) : (dat6 V c).after 9 t = out6_9 (iblk6 V c 0 t) (iblk6 V c 1 t) (iblk6 V c 2 t) (iblk6 V c 3 t) (iblk6 V c 4 t) (iblk6 V c 5 t) (iblk6 V c 6 t) (iblk6 V c 7 t) (iblk6 V c 8 t) := by dsimp only [dat6]

/-- Each input's current staging buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d
theorem before6_7 (c : Dev nD) (t : Fin cfg6.N) (d) : (dat6 V c).before 7 t d = iblk6 V c 7 t :=
  before6_7_of V (dat6 V c) (A_eq6 V c 7) (after6_7 V c) t d
theorem before6_8 (c : Dev nD) (t : Fin cfg6.N) (d) : (dat6 V c).before 8 t d = iblk6 V c 8 t :=
  before6_8_of V (dat6 V c) (A_eq6 V c 8) (after6_8 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d))
    ∗ (∃ d, owns (c : Thread nD τ) (st6_9 t) fullShare ((dat6 V c).before 9 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t)
    ∗ owns (c : Thread nD τ) (st6_8 t) fullShare ((dat6 V c).after 8 t)
    ∗ owns (c : Thread nD τ) (st6_9 t) fullShare ((dat6 V c).after 9 t))

set_option maxHeartbeats 1000000 in
/-- The body at any point: the inputs' memrefs hold their blocks, so the body's triple applies; the invariant and the
    core's owed waits pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7, before6_8]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8, after6_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel6 c Set.univ (grid6.coords t) _ _ _ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) (iblk6 V c 7 t) (iblk6 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.Run.lean ====
/-
  The kernel program's run, at any float instance: seven pallas_call regions among stretches of host operations.
  Each region is entered with every unscoped buffer of the core at the contents the fold of the program's operations
  gives it, its arrays are split out, the pipeline runs over the region's proof data (the class-A half of each region:
  every output block a function of that point's input blocks), and the arrays are put back with each output array at
  what the write-backs leave. The contents a region leaves are named first (`outs`), stage by stage, because what
  region K leaves depends on what the earlier regions left.
  Two consequences: the frame (every argument array ends as launched), and the whole final memory of every core
  at the last fold, from which the two result arrays are read.
-/
import proofs.«101045_j34351148433892_1_alg».proof.Proof.Gen.Kernel.Regions
import proofs.«101045_j34351148433892_1_alg».proof.Proof.K.Reg0
import proofs.«101045_j34351148433892_1_alg».proof.Proof.K.Reg1
import proofs.«101045_j34351148433892_1_alg».proof.Proof.K.Reg2
import proofs.«101045_j34351148433892_1_alg».proof.Proof.K.Reg3
import proofs.«101045_j34351148433892_1_alg».proof.Proof.K.Reg4
import proofs.«101045_j34351148433892_1_alg».proof.Proof.K.Reg5
import proofs.«101045_j34351148433892_1_alg».proof.Proof.K.Reg6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave, named stage by stage -/

/-- One more slot of the regions' leavings fixed: slot `(j, r)` at `v`, every other slot as before. -/
def upd (o : Outs (F := F)) (j : ℕ) (r : Ref sig .tc) (v : (c : Dev nD) → Buf (Elt F) ((c : Thread nD τ).loc r)) : Outs (F := F) :=
  fun j' r' c => if h : j' = j ∧ r' = r then h.2 ▸ v c else o j' r' c

theorem upd_same (o : Outs (F := F)) (j : ℕ) (r : Ref sig .tc) (v : (c : Dev nD) → Buf (Elt F) ((c : Thread nD τ).loc r)) (c : Dev nD) :
    upd o j r v j r c = v c := by
  unfold upd; rw [dif_pos ⟨rfl, rfl⟩]

theorem upd_other (o : Outs (F := F)) (j : ℕ) (r : Ref sig .tc) (v : (c : Dev nD) → Buf (Elt F) ((c : Thread nD τ).loc r))
    (j' : ℕ) (r' : Ref sig .tc) (c : Dev nD) (h : ¬ (j' = j ∧ r' = r)) : upd o j r v j' r' c = o j' r' c := by
  unfold upd; rw [dif_neg h]

/-- Two namings agree on every slot up to `k`. -/
def Agree (k : ℕ) (o o' : Outs (F := F)) : Prop := ∀ j r c, j ≤ k → o j r c = o' j r c

theorem Agree.refl (k : ℕ) (o : Outs (F := F)) : Agree k o o := fun _ _ _ _ => rfl
theorem Agree.trans {k : ℕ} {o o' o'' : Outs (F := F)} (h : Agree k o o') (h' : Agree k o' o'') : Agree k o o'' :=
  fun j r c hj => (h j r c hj).trans (h' j r c hj)
theorem Agree.symm {k : ℕ} {o o' : Outs (F := F)} (h : Agree k o o') : Agree k o' o := fun j r c hj => (h j r c hj).symm
theorem Agree.mono {k k' : ℕ} {o o' : Outs (F := F)} (hk : k' ≤ k) (h : Agree k o o') : Agree k' o o' :=
  fun j r c hj => h j r c (hj.trans hk)
/-- Fixing a later slot changes no earlier one. -/
theorem upd_agree (o : Outs (F := F)) (j : ℕ) (r : Ref sig .tc) (v : (c : Dev nD) → Buf (Elt F) ((c : Thread nD τ).loc r))
    (k : ℕ) (hk : k < j) : Agree k (upd o j r v) o :=
  fun j' r' c hj => upd_other o j r v j' r' c (fun h => by omega)

/-- The fold of the buffer contents reads the regions' leavings only at slots up to the boundary's own. -/
theorem V3_agree {o o' : Outs (F := F)} (h : Agree 2 o o') (c : Dev nD) : V3 m o c = V3 m o' c := by
  simp only [V3, V2, h 2 main_v15 c (by omega)]
theorem V5_agree {o o' : Outs (F := F)} (h : Agree 4 o o') (c : Dev nD) : V5 m o c = V5 m o' c := by
  simp only [V5, V4, V3, V2, h 2 main_v15 c (by omega), h 4 main_v19 c (by omega)]
theorem V7_agree {o o' : Outs (F := F)} (h : Agree 6 o o') (c : Dev nD) : V7 m o c = V7 m o' c := by
  simp only [V7, V6, V5, V4, V3, V2, h 2 main_v15 c (by omega), h 4 main_v19 c (by omega),
    h 6 main_v42_0 c (by omega), h 6 main_v42_1 c (by omega), h 6 main_v42_2 c (by omega)]
theorem V8_agree {o o' : Outs (F := F)} (h : Agree 8 o o') (c : Dev nD) : V8 m o c = V8 m o' c := by
  simp only [V8, V7, V6, V5, V4, V3, V2, h 2 main_v15 c (by omega), h 4 main_v19 c (by omega),
    h 6 main_v42_0 c (by omega), h 6 main_v42_1 c (by omega), h 6 main_v42_2 c (by omega), h 8 main_v54 c (by omega)]
theorem V14_agree {o o' : Outs (F := F)} (h : Agree 9 o o') (c : Dev nD) : V14 m o c = V14 m o' c := by
  simp only [V14, V13, V12, V11, V10, V9, V8, V7, V6, V5, V4, V3, V2, h 2 main_v15 c (by omega), h 4 main_v19 c (by omega),
    h 6 main_v42_0 c (by omega), h 6 main_v42_1 c (by omega), h 6 main_v42_2 c (by omega), h 8 main_v54 c (by omega),
    h 9 main_v55 c (by omega)]
theorem V15_agree {o o' : Outs (F := F)} (h : Agree 15 o o') (c : Dev nD) : V15 m o c = V15 m o' c := by
  simp only [V15, V14, V13, V12, V11, V10, V9, V8, V7, V6, V5, V4, V3, V2, h 2 main_v15 c (by omega), h 4 main_v19 c (by omega),
    h 6 main_v42_0 c (by omega), h 6 main_v42_1 c (by omega), h 6 main_v42_2 c (by omega), h 8 main_v54 c (by omega),
    h 9 main_v55 c (by omega), h 15 main_v70 c (by omega)]

/-- Before any region: every slot at the launch memory (a placeholder no fold reads). -/
def outs0 : Outs (F := F) := fun _ r c => m ((c : Thread nD τ).loc r)
/-- What region 0 leaves in `main_v15`: its output window 2's write-backs folded over the whole grid. -/
def o_main_v15 (c : Dev nD) : Buf (Elt F) ((c : Thread nD τ).loc main_v15) :=
  (dat0 (fun c b => V1 m c b) c).arrAt 2 cfg0.N
def outs1 : Outs (F := F) := (upd (outs0 m) 2 main_v15 (o_main_v15 m))
/-- What region 1 leaves in `main_v19`: its output window 2's write-backs folded over the whole grid. -/
def o_main_v19 (c : Dev nD) : Buf (Elt F) ((c : Thread nD τ).loc main_v19) :=
  (dat1 (fun c b => V3 m (outs1 m) c b) c).arrAt 2 cfg1.N
def outs2 : Outs (F := F) := (upd (outs1 m) 4 main_v19 (o_main_v19 m))
/-- What region 2 leaves in `main_v42_0`: its output window 7's write-backs folded over the whole grid. -/
def o_main_v42_0 (c : Dev nD) : Buf (Elt F) ((c : Thread nD τ).loc main_v42_0) :=
  (dat2 (fun c b => V5 m (outs2 m) c b) c).arrAt 7 cfg2.N
/-- What region 2 leaves in `main_v42_1`: its output window 8's write-backs folded over the whole grid. -/
def o_main_v42_1 (c : Dev nD) : Buf (Elt F) ((c : Thread nD τ).loc main_v42_1) :=
  (dat2 (fun c b => V5 m (outs2 m) c b) c).arrAt 8 cfg2.N
/-- What region 2 leaves in `main_v42_2`: its output window 9's write-backs folded over the whole grid. -/
def o_main_v42_2 (c : Dev nD) : Buf (Elt F) ((c : Thread nD τ).loc main_v42_2) :=
  (dat2 (fun c b => V5 m (outs2 m) c b) c).arrAt 9 cfg2.N
def outs3 : Outs (F := F) := (upd (upd (upd (outs2 m) 6 main_v42_0 (o_main_v42_0 m)) 6 main_v42_1 (o_main_v42_1 m)) 6 main_v42_2 (o_main_v42_2 m))
/-- What region 3 leaves in `main_v54`: its output window 4's write-backs folded over the whole grid. -/
def o_main_v54 (c : Dev nD) : Buf (Elt F) ((c : Thread nD τ).loc main_v54) :=
  (dat3 (fun c b => V7 m (outs3 m) c b) c).arrAt 4 cfg3.N
def outs4 : Outs (F := F) := (upd (outs3 m) 8 main_v54 (o_main_v54 m))
/-- What region 4 leaves in `main_v55`: its output window 4's write-backs folded over the whole grid. -/
def o_main_v55 (c : Dev nD) : Buf (Elt F) ((c : Thread nD τ).loc main_v55) :=
  (dat4 (fun c b => V8 m (outs4 m) c b) c).arrAt 4 cfg4.N
def outs5 : Outs (F := F) := (upd (outs4 m) 9 main_v55 (o_main_v55 m))
/-- What region 5 leaves in `main_v70`: its output window 9's write-backs folded over the whole grid. -/
def o_main_v70 (c : Dev nD) : Buf (Elt F) ((c : Thread nD τ).loc main_v70) :=
  (dat5 (fun c b => V14 m (outs5 m) c b) c).arrAt 9 cfg5.N
def outs6 : Outs (F := F) := (upd (outs5 m) 15 main_v70 (o_main_v70 m))
/-- What region 6 leaves in `main_v71`: its output window 9's write-backs folded over the whole grid. -/
def o_main_v71 (c : Dev nD) : Buf (Elt F) ((c : Thread nD τ).loc main_v71) :=
  (dat6 (fun c b => V15 m (outs6 m) c b) c).arrAt 9 cfg6.N
def outs7 : Outs (F := F) := (upd (outs6 m) 16 main_v71 (o_main_v71 m))

/-- The regions' leavings, all seven stages fixed. -/
abbrev outs : Outs (F := F) := outs7 m

/-! ### Later stages leave earlier slots alone -/

theorem outs7_6 (k : ℕ) (hk : k < 16) : Agree k (outs7 m) (outs6 m) := upd_agree _ _ _ _ k hk
theorem outs6_5 (k : ℕ) (hk : k < 15) : Agree k (outs6 m) (outs5 m) := upd_agree _ _ _ _ k hk
theorem outs5_4 (k : ℕ) (hk : k < 9) : Agree k (outs5 m) (outs4 m) := upd_agree _ _ _ _ k hk
theorem outs4_3 (k : ℕ) (hk : k < 8) : Agree k (outs4 m) (outs3 m) := upd_agree _ _ _ _ k hk
theorem outs3_2 (k : ℕ) (hk : k < 6) : Agree k (outs3 m) (outs2 m) :=
  ((upd_agree _ _ _ _ k hk).trans (upd_agree _ _ _ _ k hk)).trans (upd_agree _ _ _ _ k hk)
theorem outs2_1 (k : ℕ) (hk : k < 4) : Agree k (outs2 m) (outs1 m) := upd_agree _ _ _ _ k hk

theorem agree_6 : Agree 15 (outs m) (outs6 m) := outs7_6 m 15 (by omega)
theorem agree_5 : Agree 9 (outs m) (outs5 m) := (outs7_6 m 9 (by omega)).trans (outs6_5 m 9 (by omega))
theorem agree_4 : Agree 8 (outs m) (outs4 m) :=
  ((outs7_6 m 8 (by omega)).trans (outs6_5 m 8 (by omega))).trans (outs5_4 m 8 (by omega))
theorem agree_3 : Agree 6 (outs m) (outs3 m) :=
  (((outs7_6 m 6 (by omega)).trans (outs6_5 m 6 (by omega))).trans (outs5_4 m 6 (by omega))).trans (outs4_3 m 6 (by omega))
theorem agree_2 : Agree 4 (outs m) (outs2 m) :=
  ((((outs7_6 m 4 (by omega)).trans (outs6_5 m 4 (by omega))).trans (outs5_4 m 4 (by omega))).trans (outs4_3 m 4 (by omega))).trans
    (outs3_2 m 4 (by omega))
theorem agree_1 : Agree 2 (outs m) (outs1 m) :=
  (((((outs7_6 m 2 (by omega)).trans (outs6_5 m 2 (by omega))).trans (outs5_4 m 2 (by omega))).trans (outs4_3 m 2 (by omega))).trans
    (outs3_2 m 2 (by omega))).trans (outs2_1 m 2 (by omega))

/-! ### Each slot holds what its region leaves -/

theorem outs_v15 (c : Dev nD) : outs m 2 main_v15 c = o_main_v15 m c :=
  (agree_1 m 2 main_v15 c le_rfl).trans (by unfold outs1; exact upd_same _ _ _ _ c)
theorem outs_v19 (c : Dev nD) : outs m 4 main_v19 c = o_main_v19 m c :=
  (agree_2 m 4 main_v19 c le_rfl).trans (by unfold outs2; exact upd_same _ _ _ _ c)
theorem outs_v42_2 (c : Dev nD) : outs m 6 main_v42_2 c = o_main_v42_2 m c :=
  (agree_3 m 6 main_v42_2 c le_rfl).trans (by unfold outs3; exact upd_same _ _ _ _ c)
theorem outs_v42_1 (c : Dev nD) : outs m 6 main_v42_1 c = o_main_v42_1 m c :=
  (agree_3 m 6 main_v42_1 c le_rfl).trans (by
    unfold outs3; rw [upd_other _ _ _ _ _ _ _ (by decide)]; exact upd_same _ _ _ _ c)
theorem outs_v42_0 (c : Dev nD) : outs m 6 main_v42_0 c = o_main_v42_0 m c :=
  (agree_3 m 6 main_v42_0 c le_rfl).trans (by
    unfold outs3; rw [upd_other _ _ _ _ _ _ _ (by decide), upd_other _ _ _ _ _ _ _ (by decide)]; exact upd_same _ _ _ _ c)
theorem outs_v54 (c : Dev nD) : outs m 8 main_v54 c = o_main_v54 m c :=
  (agree_4 m 8 main_v54 c le_rfl).trans (by unfold outs4; exact upd_same _ _ _ _ c)
theorem outs_v55 (c : Dev nD) : outs m 9 main_v55 c = o_main_v55 m c :=
  (agree_5 m 9 main_v55 c le_rfl).trans (by unfold outs5; exact upd_same _ _ _ _ c)
theorem outs_v70 (c : Dev nD) : outs m 15 main_v70 c = o_main_v70 m c :=
  (agree_6 m 15 main_v70 c le_rfl).trans (by unfold outs6; exact upd_same _ _ _ _ c)
theorem outs_v71 (c : Dev nD) : outs m 16 main_v71 c = o_main_v71 m c := by
  unfold outs outs7; exact upd_same _ _ _ _ c

/-! ### The contents each region is entered with, under the final naming and under its own stage's -/

theorem entry1 : (fun (c : Dev nD) (b : Ref sig .tc) => V3 m (outs m) c b) = fun (c : Dev nD) (b : Ref sig .tc) => V3 m (outs1 m) c b := by
  funext c b; rw [V3_agree m (agree_1 m) c]
theorem entry2 : (fun (c : Dev nD) (b : Ref sig .tc) => V5 m (outs m) c b) = fun (c : Dev nD) (b : Ref sig .tc) => V5 m (outs2 m) c b := by
  funext c b; rw [V5_agree m (agree_2 m) c]
theorem entry3 : (fun (c : Dev nD) (b : Ref sig .tc) => V7 m (outs m) c b) = fun (c : Dev nD) (b : Ref sig .tc) => V7 m (outs3 m) c b := by
  funext c b; rw [V7_agree m (agree_3 m) c]
theorem entry4 : (fun (c : Dev nD) (b : Ref sig .tc) => V8 m (outs m) c b) = fun (c : Dev nD) (b : Ref sig .tc) => V8 m (outs4 m) c b := by
  funext c b; rw [V8_agree m (agree_4 m) c]
theorem entry5 : (fun (c : Dev nD) (b : Ref sig .tc) => V14 m (outs m) c b) = fun (c : Dev nD) (b : Ref sig .tc) => V14 m (outs5 m) c b := by
  funext c b; rw [V14_agree m (agree_5 m) c]
theorem entry6 : (fun (c : Dev nD) (b : Ref sig .tc) => V15 m (outs m) c b) = fun (c : Dev nD) (b : Ref sig .tc) => V15 m (outs6 m) c b := by
  funext c b; rw [V15_agree m (agree_6 m) c]

/-- THE SPECIFICATION OF `outs`: each slot is its region's output array after the whole grid, the region entered at
    the fold's contents under `outs` itself. -/
theorem spec_v15 (c : Dev nD) : (dat0 (fun c b => V1 m c b) c).arrAt 2 cfg0.N = outs m 2 main_v15 c := (outs_v15 m c).symm
theorem spec_v19 (c : Dev nD) : (dat1 (fun c b => V3 m (outs m) c b) c).arrAt 2 cfg1.N = outs m 4 main_v19 c := by
  rw [entry1 m]; exact (outs_v19 m c).symm
theorem spec_v42_0 (c : Dev nD) : (dat2 (fun c b => V5 m (outs m) c b) c).arrAt 7 cfg2.N = outs m 6 main_v42_0 c := by
  rw [entry2 m]; exact (outs_v42_0 m c).symm
theorem spec_v42_1 (c : Dev nD) : (dat2 (fun c b => V5 m (outs m) c b) c).arrAt 8 cfg2.N = outs m 6 main_v42_1 c := by
  rw [entry2 m]; exact (outs_v42_1 m c).symm
theorem spec_v42_2 (c : Dev nD) : (dat2 (fun c b => V5 m (outs m) c b) c).arrAt 9 cfg2.N = outs m 6 main_v42_2 c := by
  rw [entry2 m]; exact (outs_v42_2 m c).symm
theorem spec_v54 (c : Dev nD) : (dat3 (fun c b => V7 m (outs m) c b) c).arrAt 4 cfg3.N = outs m 8 main_v54 c := by
  rw [entry3 m]; exact (outs_v54 m c).symm
theorem spec_v55 (c : Dev nD) : (dat4 (fun c b => V8 m (outs m) c b) c).arrAt 4 cfg4.N = outs m 9 main_v55 c := by
  rw [entry4 m]; exact (outs_v55 m c).symm
theorem spec_v70 (c : Dev nD) : (dat5 (fun c b => V14 m (outs m) c b) c).arrAt 9 cfg5.N = outs m 15 main_v70 c := by
  rw [entry5 m]; exact (outs_v70 m c).symm
theorem spec_v71 (c : Dev nD) : (dat6 (fun c b => V15 m (outs m) c b) c).arrAt 9 cfg6.N = outs m 16 main_v71 c := by
  rw [entry6 m]; exact (outs_v71 m c).symm

/-! ### A slot read back off the fold right after its region -/

theorem V2_at (o : Outs (F := F)) (c : Dev nD) : V2 m o c main_v15 = o 2 main_v15 c := by
  simp only [V2, Function.update_self]
theorem V4_at (o : Outs (F := F)) (c : Dev nD) : V4 m o c main_v19 = o 4 main_v19 c := by
  simp only [V4, Function.update_self]
theorem V6_at2 (o : Outs (F := F)) (c : Dev nD) : V6 m o c main_v42_2 = o 6 main_v42_2 c := by
  simp only [V6, Function.update_self]
theorem V6_at1 (o : Outs (F := F)) (c : Dev nD) : V6 m o c main_v42_1 = o 6 main_v42_1 c := by
  simp only [V6, Function.update_of_ne (StableHlo.devRef_ne_of_ne (by decide) : (Proc.devRef .tc main_v42_1 : DevRef τ sig) ≠ Proc.devRef .tc main_v42_2),
    Function.update_self]
theorem V6_at0 (o : Outs (F := F)) (c : Dev nD) : V6 m o c main_v42_0 = o 6 main_v42_0 c := by
  simp only [V6, Function.update_of_ne (StableHlo.devRef_ne_of_ne (by decide) : (Proc.devRef .tc main_v42_0 : DevRef τ sig) ≠ Proc.devRef .tc main_v42_2),
    Function.update_of_ne (StableHlo.devRef_ne_of_ne (by decide) : (Proc.devRef .tc main_v42_0 : DevRef τ sig) ≠ Proc.devRef .tc main_v42_1),
    Function.update_self]
theorem V8_at (o : Outs (F := F)) (c : Dev nD) : V8 m o c main_v54 = o 8 main_v54 c := by
  simp only [V8, Function.update_self]
theorem V9_at (o : Outs (F := F)) (c : Dev nD) : V9 m o c main_v55 = o 9 main_v55 c := by
  simp only [V9, Function.update_self]
theorem V15_at (o : Outs (F := F)) (c : Dev nD) : V15 m o c main_v70 = o 15 main_v70 c := by
  simp only [V15, Function.update_self]
theorem V16_at (o : Outs (F := F)) (c : Dev nD) : V16 m o c main_v71 = o 16 main_v71 c := by
  simp only [V16, Function.update_self]

/-! ## The proof data family and what rides beside the buffers -/

/-- Every pipeline's proof data, each at its region's entry contents: a literal match on the pipeline's index. -/
def pdats : (p : Fin 7) → (c : Dev nD) → Dat τ (Elt F) Unit ℕ (UR sig nD τ) ℕ (cfgs p) c
  | ⟨0, _⟩ => fun c => dat0 (fun c b => V1 m c b) c
  | ⟨1, _⟩ => fun c => dat1 (fun c b => V3 m (outs m) c b) c
  | ⟨2, _⟩ => fun c => dat2 (fun c b => V5 m (outs m) c b) c
  | ⟨3, _⟩ => fun c => dat3 (fun c b => V7 m (outs m) c b) c
  | ⟨4, _⟩ => fun c => dat4 (fun c b => V8 m (outs m) c b) c
  | ⟨5, _⟩ => fun c => dat5 (fun c b => V14 m (outs m) c b) c
  | ⟨6, _⟩ => fun c => dat6 (fun c b => V15 m (outs m) c b) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- The same rest at every boundary. -/
def E : Fin 8 → Dev nD → sProp 𝕄 := fun _ c => R (F := F) c

/-! ### Region 0 -/

set_option maxHeartbeats 2000000 in
/-- At region 0's exit each of its arrays holds what the pipeline leaves: an input array its entry contents, which the
    exit contents keep; an output array its write-backs folded, which is what the exit contents name. -/
theorem hF0 (c : Dev nD) : ∀ w : Fin cfg0.W, (dat0 (fun (c : Dev nD) (b : Ref sig .tc) => V1 m c b) c).arrAt w cfg0.N = (fun b => V2 m (outs m) c b) (Pipeline.arrRef spec0 w)
  | ⟨0, _⟩ => (((dat0 (fun (c : Dev nD) (b : Ref sig .tc) => V1 m c b) c).arrAt_in 0 rfl _).trans (A_eq0 (fun (c : Dev nD) (b : Ref sig .tc) => V1 m c b) c 0)).trans (V2_of m (outs m) c main_arg0 (by decide)).symm
  | ⟨1, _⟩ => (((dat0 (fun (c : Dev nD) (b : Ref sig .tc) => V1 m c b) c).arrAt_in 1 rfl _).trans (A_eq0 (fun (c : Dev nD) (b : Ref sig .tc) => V1 m c b) c 1)).trans (V2_of m (outs m) c main_v1 (by decide)).symm
  | ⟨2, _⟩ => (spec_v15 m c).trans (V2_at m (outs m) c).symm
  | ⟨_ + 3, h⟩ => absurd h (Nat.not_lt.2 (Nat.le_add_left _ _))
/-- and every other buffer what it held at entry. -/
theorem hrest0 (c : Dev nD) : ∀ b, b ∉ Finset.univ.image (Pipeline.arrRef spec0) → (fun b => V2 m (outs m) c b) b = (fun b => V1 m c b) b :=
  fun b hb => V2_of m (outs m) c b (fun hmem => hb (by
    simp only [List.mem_cons, List.mem_nil_iff, or_false] at hmem
    rcases hmem with rfl
    · exact Finset.mem_image.mpr ⟨2, Finset.mem_univ _, rfl⟩))

set_option backward.isDefEq.respectTransparency.types false in
/-- Region 0 over the thread state: entered with every unscoped buffer at the fold's contents before it, left with them at
    the contents after it; its arrays split out and put back; the generator register into the class invariant and out;
    nothing owed; no semaphore of the kernel's own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (fun c b => V1 m c b) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V1 m c b) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 1 -/

set_option maxHeartbeats 2000000 in
/-- At region 1's exit each of its arrays holds what the pipeline leaves: an input array its entry contents, which the
    exit contents keep; an output array its write-backs folded, which is what the exit contents name. -/
theorem hF1 (c : Dev nD) : ∀ w : Fin cfg1.W, (dat1 (fun (c : Dev nD) (b : Ref sig .tc) => V3 m (outs m) c b) c).arrAt w cfg1.N = (fun b => V4 m (outs m) c b) (Pipeline.arrRef spec1 w)
  | ⟨0, _⟩ => (((dat1 (fun (c : Dev nD) (b : Ref sig .tc) => V3 m (outs m) c b) c).arrAt_in 0 rfl _).trans (A_eq1 (fun (c : Dev nD) (b : Ref sig .tc) => V3 m (outs m) c b) c 0)).trans (V4_of m (outs m) c main_arg1 (by decide)).symm
  | ⟨1, _⟩ => (((dat1 (fun (c : Dev nD) (b : Ref sig .tc) => V3 m (outs m) c b) c).arrAt_in 1 rfl _).trans (A_eq1 (fun (c : Dev nD) (b : Ref sig .tc) => V3 m (outs m) c b) c 1)).trans (V4_of m (outs m) c main_v2 (by decide)).symm
  | ⟨2, _⟩ => (spec_v19 m c).trans (V4_at m (outs m) c).symm
  | ⟨_ + 3, h⟩ => absurd h (Nat.not_lt.2 (Nat.le_add_left _ _))
/-- and every other buffer what it held at entry. -/
theorem hrest1 (c : Dev nD) : ∀ b, b ∉ Finset.univ.image (Pipeline.arrRef spec1) → (fun b => V4 m (outs m) c b) b = (fun b => V3 m (outs m) c b) b :=
  fun b hb => V4_of m (outs m) c b (fun hmem => hb (by
    simp only [List.mem_cons, List.mem_nil_iff, or_false] at hmem
    rcases hmem with rfl
    · exact Finset.mem_image.mpr ⟨2, Finset.mem_univ _, rfl⟩))

set_option backward.isDefEq.respectTransparency.types false in
/-- Region 1 over the thread state: entered with every unscoped buffer at the fold's contents before it, left with them at
    the contents after it; its arrays split out and put back; the generator register into the class invariant and out;
    nothing owed; no semaphore of the kernel's own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (fun c b => V3 m (outs m) c b) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => V3 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V3 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V3 m (outs m) c b) (fun b => V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 2 -/

set_option maxHeartbeats 2000000 in
/-- At region 2's exit each of its arrays holds what the pipeline leaves: an input array its entry contents, which the
    exit contents keep; an output array its write-backs folded, which is what the exit contents name. -/
theorem hF2 (c : Dev nD) : ∀ w : Fin cfg2.W, (dat2 (fun (c : Dev nD) (b : Ref sig .tc) => V5 m (outs m) c b) c).arrAt w cfg2.N = (fun b => V6 m (outs m) c b) (Pipeline.arrRef spec2 w)
  | ⟨0, _⟩ => (((dat2 (fun (c : Dev nD) (b : Ref sig .tc) => V5 m (outs m) c b) c).arrAt_in 0 rfl _).trans (A_eq2 (fun (c : Dev nD) (b : Ref sig .tc) => V5 m (outs m) c b) c 0)).trans (V6_of m (outs m) c main_v26 (by decide)).symm
  | ⟨1, _⟩ => (((dat2 (fun (c : Dev nD) (b : Ref sig .tc) => V5 m (outs m) c b) c).arrAt_in 1 rfl _).trans (A_eq2 (fun (c : Dev nD) (b : Ref sig .tc) => V5 m (outs m) c b) c 1)).trans (V6_of m (outs m) c main_v33 (by decide)).symm
  | ⟨2, _⟩ => (((dat2 (fun (c : Dev nD) (b : Ref sig .tc) => V5 m (outs m) c b) c).arrAt_in 2 rfl _).trans (A_eq2 (fun (c : Dev nD) (b : Ref sig .tc) => V5 m (outs m) c b) c 2)).trans (V6_of m (outs m) c main_v19 (by decide)).symm
  | ⟨3, _⟩ => (((dat2 (fun (c : Dev nD) (b : Ref sig .tc) => V5 m (outs m) c b) c).arrAt_in 3 rfl _).trans (A_eq2 (fun (c : Dev nD) (b : Ref sig .tc) => V5 m (outs m) c b) c 3)).trans (V6_of m (outs m) c main_v41 (by decide)).symm
  | ⟨4, _⟩ => (((dat2 (fun (c : Dev nD) (b : Ref sig .tc) => V5 m (outs m) c b) c).arrAt_in 4 rfl _).trans (A_eq2 (fun (c : Dev nD) (b : Ref sig .tc) => V5 m (outs m) c b) c 4)).trans (V6_of m (outs m) c main_v40 (by decide)).symm
  | ⟨5, _⟩ => (((dat2 (fun (c : Dev nD) (b : Ref sig .tc) => V5 m (outs m) c b) c).arrAt_in 5 rfl _).trans (A_eq2 (fun (c : Dev nD) (b : Ref sig .tc) => V5 m (outs m) c b) c 5)).trans (V6_of m (outs m) c main_cst (by decide)).symm
  | ⟨6, _⟩ => (((dat2 (fun (c : Dev nD) (b : Ref sig .tc) => V5 m (outs m) c b) c).arrAt_in 6 rfl _).trans (A_eq2 (fun (c : Dev nD) (b : Ref sig .tc) => V5 m (outs m) c b) c 6)).trans (V6_of m (outs m) c main_cst_0 (by decide)).symm
  | ⟨7, _⟩ => (spec_v42_0 m c).trans (V6_at0 m (outs m) c).symm
  | ⟨8, _⟩ => (spec_v42_1 m c).trans (V6_at1 m (outs m) c).symm
  | ⟨9, _⟩ => (spec_v42_2 m c).trans (V6_at2 m (outs m) c).symm
  | ⟨_ + 10, h⟩ => absurd h (Nat.not_lt.2 (Nat.le_add_left _ _))
/-- and every other buffer what it held at entry. -/
theorem hrest2 (c : Dev nD) : ∀ b, b ∉ Finset.univ.image (Pipeline.arrRef spec2) → (fun b => V6 m (outs m) c b) b = (fun b => V5 m (outs m) c b) b :=
  fun b hb => V6_of m (outs m) c b (fun hmem => hb (by
    simp only [List.mem_cons, List.mem_nil_iff, or_false] at hmem
    rcases hmem with rfl | rfl | rfl
    · exact Finset.mem_image.mpr ⟨7, Finset.mem_univ _, rfl⟩
    · exact Finset.mem_image.mpr ⟨8, Finset.mem_univ _, rfl⟩
    · exact Finset.mem_image.mpr ⟨9, Finset.mem_univ _, rfl⟩))

set_option backward.isDefEq.respectTransparency.types false in
/-- Region 2 over the thread state: entered with every unscoped buffer at the fold's contents before it, left with them at
    the contents after it; its arrays split out and put back; the generator register into the class invariant and out;
    nothing owed; no semaphore of the kernel's own. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (fun c b => V5 m (outs m) c b) c).loose
  hwaits := Pipeline.hwaits_of_owed_zero _ _ _ _ L lv 2 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (fun b => V5 m (outs m) c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => V5 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => V5 m (outs m) c b) (fun b => V6 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 3 -/

set_option maxHeartbeats 2000000 in
/-- At region 3's exit each of its arrays holds what the pipeline leaves: an input array its entry contents, which the
    exit contents keep; an output array its write-backs folded, which is what the exit contents name. -/
theorem hF3 (c : Dev nD) : ∀ w : Fin cfg3.W, (dat3 (fun (c : Dev nD) (b : Ref sig .tc) => V7 m (outs m) c b) c).arrAt w cfg3.N = (fun b => V8 m (outs m) c b) (Pipeline.arrRef spec3 w)
  | ⟨0, _⟩ => (((dat3 (fun (c : Dev nD) (b : Ref sig .tc) => V7 m (outs m) c b) c).arrAt_in 0 rfl _).trans (A_eq3 (fun (c : Dev nD) (b : Ref sig .tc) => V7 m (outs m) c b) c 0)).trans (V8_of m (outs m) c main_arg0 (by decide)).symm
  | ⟨1, _⟩ => (((dat3 (fun (c : Dev nD) (b : Ref sig .tc) => V7 m (outs m) c b) c).arrAt_in 1 rfl _).trans (A_eq3 (fun (c : Dev nD) (b : Ref sig .tc) => V7 m (outs m) c b) c 1)).trans (V8_of m (outs m) c main_v53 (by decide)).symm
  | ⟨2, _⟩ => (((dat3 (fun (c : Dev nD) (b : Ref sig .tc) => V7 m (outs m) c b) c).arrAt_in 2 rfl _).trans (A_eq3 (fun (c : Dev nD) (b : Ref sig .tc) => V7 m (outs m) c b) c 2)).trans (V8_of m (outs m) c main_v3 (by decide)).symm
  | ⟨3, _⟩ => (((dat3 (fun (c : Dev nD) (b : Ref sig .tc) => V7 m (outs m) c b) c).arrAt_in 3 rfl _).trans (A_eq3 (fun (c : Dev nD) (b : Ref sig .tc) => V7 m (outs m) c b) c 3)).trans (V8_of m (outs m) c main_v9 (by decide)).symm
  | ⟨4, _⟩ => (spec_v54 m c).trans (V8_at m (outs m) c).symm
  | ⟨_ + 5, h⟩ => absurd h (Nat.not_lt.2 (Nat.le_add_left _ _))
/-- and every other buffer what it held at entry. -/
theorem hrest3 (c : Dev nD) : ∀ b, b ∉ Finset.univ.image (Pipeline.arrRef spec3) → (fun b => V8 m (outs m) c b) b = (fun b => V7 m (outs m) c b) b :=
  fun b hb => V8_of m (outs m) c b (fun hmem => hb (by
    simp only [List.mem_cons, List.mem_nil_iff, or_false] at hmem
    rcases hmem with rfl
    · exact Finset.mem_image.mpr ⟨4, Finset.mem_univ _, rfl⟩))

set_option backward.isDefEq.respectTransparency.types false in
/-- Region 3 over the thread state: entered with every unscoped buffer at the fold's contents before it, left with them at
    the contents after it; its arrays split out and put back; the generator register into the class invariant and out;
    nothing owed; no semaphore of the kernel's own. -/
def reg3 : RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (fun c b => V7 m (outs m) c b) c).loose
  hwaits := Pipeline.hwaits_of_owed_zero _ _ _ _ L lv 3 fun _ _ => rfl
  pre c := iprop(StableHlo.held (c : Thread nD τ) (Pipeline.ucRefs τ sig) (V7 m (outs m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec3 c (fun b => V7 m (outs m) c b)
  hentry c := by
    rw [Pipeline.ownSems0_none]
    have hsplit := Pipeline.arrays_of_unscopedBufs (p := 3) (pcfgs (F := F)) adm (pdats m) launch3.win launch3.arr_whole c
      ((pdats m 3 c).share_full fun _ => rfl) (fun b => V7 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (fun b => V7 m (outs m) c b) (fun b => V8 m (outs m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 4 -/

set_option maxHeartbeats 2000000 in
/-- At region 4's exit each of its arrays holds what the pipeline leaves: an input array its entry contents, which the
    exit contents keep; an output array its write-backs folded, which is what the exit contents name. -/
theorem hF4 (c : Dev nD) : ∀ w : Fin cfg4.W, (dat4 (fun (c : Dev nD) (b : Ref sig .tc) => V8 m (outs m) c b) c).arrAt w cfg4.N = (fun b => V9 m (outs m) c b) (Pipeline.arrRef spec4 w)
  | ⟨0, _⟩ => (((dat4 (fun (c : Dev nD) (b : Ref sig .tc) => V8 m (outs m) c b) c).arrAt_in 0 rfl _).trans (A_eq4 (fun (c : Dev nD) (b : Ref sig .tc) => V8 m (outs m) c b) c 0)).trans (V9_of m (outs m) c main_arg1 (by decide)).symm
  | ⟨1, _⟩ => (((dat4 (fun (c : Dev nD) (b : Ref sig .tc) => V8 m (outs m) c b) c).arrAt_in 1 rfl _).trans (A_eq4 (fun (c : Dev nD) (b : Ref sig .tc) => V8 m (outs m) c b) c 1)).trans (V9_of m (outs m) c main_v42_0 (by decide)).symm
  | ⟨2, _⟩ => (((dat4 (fun (c : Dev nD) (b : Ref sig .tc) => V8 m (outs m) c b) c).arrAt_in 2 rfl _).trans (A_eq4 (fun (c : Dev nD) (b : Ref sig .tc) => V8 m (outs m) c b) c 2)).trans (V9_of m (outs m) c main_v4 (by decide)).symm
  | ⟨3, _⟩ => (((dat4 (fun (c : Dev nD) (b : Ref sig .tc) => V8 m (outs m) c b) c).arrAt_in 3 rfl _).trans (A_eq4 (fun (c : Dev nD) (b : Ref sig .tc) => V8 m (outs m) c b) c 3)).trans (V9_of m (outs m) c main_v10 (by decide)).symm
  | ⟨4, _⟩ => (spec_v55 m c).trans (V9_at m (outs m) c).symm
  | ⟨_ + 5, h⟩ => absurd h (Nat.not_lt.2 (Nat.le_add_left _ _))
/-- and every other buffer what it held at entry. -/
theorem hrest4 (c : Dev nD) : ∀ b, b ∉ Finset.univ.image (Pipeline.arrRef spec4) → (fun b => V9 m (outs m) c b) b = (fun b => V8 m (outs m) c b) b :=
  fun b hb => V9_of m (outs m) c b (fun hmem => hb (by
    simp only [List.mem_cons, List.mem_nil_iff, or_false] at hmem
    rcases hmem with rfl
    · exact Finset.mem_image.mpr ⟨4, Finset.mem_univ _, rfl⟩))

set_option backward.isDefEq.respectTransparency.types false in
/-- Region 4 over the thread state: entered with every unscoped buffer at the fold's contents before it, left with them at
    the contents after it; its arrays split out and put back; the generator register into the class invariant and out;
    nothing owed; no semaphore of the kernel's own. -/
def reg4 : RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (fun c b => V8 m (outs m) c b) c).loose
  hwaits := Pipeline.hwaits_of_owed_zero _ _ _ _ L lv 4 fun _ _ => rfl
  pre c := iprop(StableHlo.held (c : Thread nD τ) (Pipeline.ucRefs τ sig) (V8 m (outs m) c) ∗ R c)
  post c := iprop(StableHlo.held (c : Thread nD τ) (Pipeline.ucRefs τ sig) (V9 m (outs m) c) ∗ R c)
  X c := iprop(∃ r, prngReg c r)
  Y c := iprop(∃ r, prngReg c r)
  Z c := Pipeline.unscopedRest (Ix := Unit) (Name := ℕ) (U := UR sig nD τ) (Lvl := ℕ) spec4 c (fun b => V8 m (outs m) c b)
  hentry c := by
    rw [Pipeline.ownSems0_none]
    have hsplit := Pipeline.arrays_of_unscopedBufs (p := 4) (pcfgs (F := F)) adm (pdats m) launch4.win launch4.arr_whole c
      ((pdats m 4 c).share_full fun _ => rfl) (fun b => V8 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (fun b => V8 m (outs m) c b) (fun b => V9 m (outs m) c b) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 5 -/

set_option maxHeartbeats 2000000 in
/-- At region 5's exit each of its arrays holds what the pipeline leaves: an input array its entry contents, which the
    exit contents keep; an output array its write-backs folded, which is what the exit contents name. -/
theorem hF5 (c : Dev nD) : ∀ w : Fin cfg5.W, (dat5 (fun (c : Dev nD) (b : Ref sig .tc) => V14 m (outs m) c b) c).arrAt w cfg5.N = (fun b => V15 m (outs m) c b) (Pipeline.arrRef spec5 w)
  | ⟨0, _⟩ => (((dat5 (fun (c : Dev nD) (b : Ref sig .tc) => V14 m (outs m) c b) c).arrAt_in 0 rfl _).trans (A_eq5 (fun (c : Dev nD) (b : Ref sig .tc) => V14 m (outs m) c b) c 0)).trans (V15_of m (outs m) c main_v54 (by decide)).symm
  | ⟨1, _⟩ => (((dat5 (fun (c : Dev nD) (b : Ref sig .tc) => V14 m (outs m) c b) c).arrAt_in 1 rfl _).trans (A_eq5 (fun (c : Dev nD) (b : Ref sig .tc) => V14 m (outs m) c b) c 1)).trans (V15_of m (outs m) c main_v59 (by decide)).symm
  | ⟨2, _⟩ => (((dat5 (fun (c : Dev nD) (b : Ref sig .tc) => V14 m (outs m) c b) c).arrAt_in 2 rfl _).trans (A_eq5 (fun (c : Dev nD) (b : Ref sig .tc) => V14 m (outs m) c b) c 2)).trans (V15_of m (outs m) c main_v60 (by decide)).symm
  | ⟨3, _⟩ => (((dat5 (fun (c : Dev nD) (b : Ref sig .tc) => V14 m (outs m) c b) c).arrAt_in 3 rfl _).trans (A_eq5 (fun (c : Dev nD) (b : Ref sig .tc) => V14 m (outs m) c b) c 3)).trans (V15_of m (outs m) c main_v66 (by decide)).symm
  | ⟨4, _⟩ => (((dat5 (fun (c : Dev nD) (b : Ref sig .tc) => V14 m (outs m) c b) c).arrAt_in 4 rfl _).trans (A_eq5 (fun (c : Dev nD) (b : Ref sig .tc) => V14 m (outs m) c b) c 4)).trans (V15_of m (outs m) c main_v67 (by decide)).symm
  | ⟨5, _⟩ => (((dat5 (fun (c : Dev nD) (b : Ref sig .tc) => V14 m (outs m) c b) c).arrAt_in 5 rfl _).trans (A_eq5 (fun (c : Dev nD) (b : Ref sig .tc) => V14 m (outs m) c b) c 5)).trans (V15_of m (outs m) c main_v5 (by decide)).symm
  | ⟨6, _⟩ => (((dat5 (fun (c : Dev nD) (b : Ref sig .tc) => V14 m (outs m) c b) c).arrAt_in 6 rfl _).trans (A_eq5 (fun (c : Dev nD) (b : Ref sig .tc) => V14 m (outs m) c b) c 6)).trans (V15_of m (outs m) c main_v11 (by decide)).symm
  | ⟨7, _⟩ => (((dat5 (fun (c : Dev nD) (b : Ref sig .tc) => V14 m (outs m) c b) c).arrAt_in 7 rfl _).trans (A_eq5 (fun (c : Dev nD) (b : Ref sig .tc) => V14 m (outs m) c b) c 7)).trans (V15_of m (outs m) c main_v6 (by decide)).symm
  | ⟨8, _⟩ => (((dat5 (fun (c : Dev nD) (b : Ref sig .tc) => V14 m (outs m) c b) c).arrAt_in 8 rfl _).trans (A_eq5 (fun (c : Dev nD) (b : Ref sig .tc) => V14 m (outs m) c b) c 8)).trans (V15_of m (outs m) c main_v12 (by decide)).symm
  | ⟨9, _⟩ => (spec_v70 m c).trans (V15_at m (outs m) c).symm
  | ⟨_ + 10, h⟩ => absurd h (Nat.not_lt.2 (Nat.le_add_left _ _))
/-- and every other buffer what it held at entry. -/
theorem hrest5 (c : Dev nD) : ∀ b, b ∉ Finset.univ.image (Pipeline.arrRef spec5) → (fun b => V15 m (outs m) c b) b = (fun b => V14 m (outs m) c b) b :=
  fun b hb => V15_of m (outs m) c b (fun hmem => hb (by
    simp only [List.mem_cons, List.mem_nil_iff, or_false] at hmem
    rcases hmem with rfl
    · exact Finset.mem_image.mpr ⟨9, Finset.mem_univ _, rfl⟩))

set_option backward.isDefEq.respectTransparency.types false in
/-- Region 5 over the thread state: entered with every unscoped buffer at the fold's contents before it, left with them at
    the contents after it; its arrays split out and put back; the generator register into the class invariant and out;
    nothing owed; no semaphore of the kernel's own. -/
def reg5 : RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (fun c b => V14 m (outs m) c b) c).loose
  hwaits := Pipeline.hwaits_of_owed_zero _ _ _ _ L lv 5 fun _ _ => rfl
  pre c := iprop(StableHlo.held (c : Thread nD τ) (Pipeline.ucRefs τ sig) (V14 m (outs m) c) ∗ R c)
  post c := iprop(StableHlo.held (c : Thread nD τ) (Pipeline.ucRefs τ sig) (V15 m (outs m) c) ∗ R c)
  X c := iprop(∃ r, prngReg c r)
  Y c := iprop(∃ r, prngReg c r)
  Z c := Pipeline.unscopedRest (Ix := Unit) (Name := ℕ) (U := UR sig nD τ) (Lvl := ℕ) spec5 c (fun b => V14 m (outs m) c b)
  hentry c := by
    rw [Pipeline.ownSems0_none]
    have hsplit := Pipeline.arrays_of_unscopedBufs (p := 5) (pcfgs (F := F)) adm (pdats m) launch5.win launch5.arr_whole c
      ((pdats m 5 c).share_full fun _ => rfl) (fun b => V14 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (fun b => V14 m (outs m) c b) (fun b => V15 m (outs m) c b) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 6 -/

set_option maxHeartbeats 2000000 in
/-- At region 6's exit each of its arrays holds what the pipeline leaves: an input array its entry contents, which the
    exit contents keep; an output array its write-backs folded, which is what the exit contents name. -/
theorem hF6 (c : Dev nD) : ∀ w : Fin cfg6.W, (dat6 (fun (c : Dev nD) (b : Ref sig .tc) => V15 m (outs m) c b) c).arrAt w cfg6.N = (fun b => V16 m (outs m) c b) (Pipeline.arrRef spec6 w)
  | ⟨0, _⟩ => (((dat6 (fun (c : Dev nD) (b : Ref sig .tc) => V15 m (outs m) c b) c).arrAt_in 0 rfl _).trans (A_eq6 (fun (c : Dev nD) (b : Ref sig .tc) => V15 m (outs m) c b) c 0)).trans (V16_of m (outs m) c main_v55 (by decide)).symm
  | ⟨1, _⟩ => (((dat6 (fun (c : Dev nD) (b : Ref sig .tc) => V15 m (outs m) c b) c).arrAt_in 1 rfl _).trans (A_eq6 (fun (c : Dev nD) (b : Ref sig .tc) => V15 m (outs m) c b) c 1)).trans (V16_of m (outs m) c main_v64 (by decide)).symm
  | ⟨2, _⟩ => (((dat6 (fun (c : Dev nD) (b : Ref sig .tc) => V15 m (outs m) c b) c).arrAt_in 2 rfl _).trans (A_eq6 (fun (c : Dev nD) (b : Ref sig .tc) => V15 m (outs m) c b) c 2)).trans (V16_of m (outs m) c main_v65 (by decide)).symm
  | ⟨3, _⟩ => (((dat6 (fun (c : Dev nD) (b : Ref sig .tc) => V15 m (outs m) c b) c).arrAt_in 3 rfl _).trans (A_eq6 (fun (c : Dev nD) (b : Ref sig .tc) => V15 m (outs m) c b) c 3)).trans (V16_of m (outs m) c main_v68 (by decide)).symm
  | ⟨4, _⟩ => (((dat6 (fun (c : Dev nD) (b : Ref sig .tc) => V15 m (outs m) c b) c).arrAt_in 4 rfl _).trans (A_eq6 (fun (c : Dev nD) (b : Ref sig .tc) => V15 m (outs m) c b) c 4)).trans (V16_of m (outs m) c main_v69 (by decide)).symm
  | ⟨5, _⟩ => (((dat6 (fun (c : Dev nD) (b : Ref sig .tc) => V15 m (outs m) c b) c).arrAt_in 5 rfl _).trans (A_eq6 (fun (c : Dev nD) (b : Ref sig .tc) => V15 m (outs m) c b) c 5)).trans (V16_of m (outs m) c main_v7 (by decide)).symm
  | ⟨6, _⟩ => (((dat6 (fun (c : Dev nD) (b : Ref sig .tc) => V15 m (outs m) c b) c).arrAt_in 6 rfl _).trans (A_eq6 (fun (c : Dev nD) (b : Ref sig .tc) => V15 m (outs m) c b) c 6)).trans (V16_of m (outs m) c main_v13 (by decide)).symm
  | ⟨7, _⟩ => (((dat6 (fun (c : Dev nD) (b : Ref sig .tc) => V15 m (outs m) c b) c).arrAt_in 7 rfl _).trans (A_eq6 (fun (c : Dev nD) (b : Ref sig .tc) => V15 m (outs m) c b) c 7)).trans (V16_of m (outs m) c main_v8 (by decide)).symm
  | ⟨8, _⟩ => (((dat6 (fun (c : Dev nD) (b : Ref sig .tc) => V15 m (outs m) c b) c).arrAt_in 8 rfl _).trans (A_eq6 (fun (c : Dev nD) (b : Ref sig .tc) => V15 m (outs m) c b) c 8)).trans (V16_of m (outs m) c main_v14 (by decide)).symm
  | ⟨9, _⟩ => (spec_v71 m c).trans (V16_at m (outs m) c).symm
  | ⟨_ + 10, h⟩ => absurd h (Nat.not_lt.2 (Nat.le_add_left _ _))
/-- and every other buffer what it held at entry. -/
theorem hrest6 (c : Dev nD) : ∀ b, b ∉ Finset.univ.image (Pipeline.arrRef spec6) → (fun b => V16 m (outs m) c b) b = (fun b => V15 m (outs m) c b) b :=
  fun b hb => V16_of m (outs m) c b (fun hmem => hb (by
    simp only [List.mem_cons, List.mem_nil_iff, or_false] at hmem
    rcases hmem with rfl
    · exact Finset.mem_image.mpr ⟨9, Finset.mem_univ _, rfl⟩))

set_option backward.isDefEq.respectTransparency.types false in
/-- Region 6 over the thread state: entered with every unscoped buffer at the fold's contents before it, left with them at
    the contents after it; its arrays split out and put back; the generator register into the class invariant and out;
    nothing owed; no semaphore of the kernel's own. -/
def reg6 : RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (fun c b => V15 m (outs m) c b) c).loose
  hwaits := Pipeline.hwaits_of_owed_zero _ _ _ _ L lv 6 fun _ _ => rfl
  pre c := iprop(StableHlo.held (c : Thread nD τ) (Pipeline.ucRefs τ sig) (V15 m (outs m) c) ∗ R c)
  post c := iprop(StableHlo.held (c : Thread nD τ) (Pipeline.ucRefs τ sig) (V16 m (outs m) c) ∗ R c)
  X c := iprop(∃ r, prngReg c r)
  Y c := iprop(∃ r, prngReg c r)
  Z c := Pipeline.unscopedRest (Ix := Unit) (Name := ℕ) (U := UR sig nD τ) (Lvl := ℕ) spec6 c (fun b => V15 m (outs m) c b)
  hentry c := by
    rw [Pipeline.ownSems0_none]
    have hsplit := Pipeline.arrays_of_unscopedBufs (p := 6) (pcfgs (F := F)) adm (pdats m) launch6.win launch6.arr_whole c
      ((pdats m 6 c).share_full fun _ => rfl) (fun b => V15 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (fun b => V15 m (outs m) c b) (fun b => V16 m (outs m) c b) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch: the user algebra's initial resource, and the rest made on every core at once -/

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- On one core: the launch's dues and generator register make the rest that rides along. -/
theorem hE0c (c : Dev nD) : (iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄)) : sProp 𝕄)
    ⊢ (E (F := F) 0 c : sProp 𝕄) := by
  unfold E
  iintro ⟨-, HO, -, Hp, -⟩
  isplitl [Hp]; · iexists _; iexact Hp
  iexists ∅; iexact HO

theorem hE0 : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L lv)
    ⊢ (|={Set.univ}=> bigSep Finset.univ (E (F := F) 0) : sProp 𝕄) := by
  have hmono : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)))
      ⊢ (bigSep Finset.univ (E (F := F) 0) : sProp 𝕄) :=
    bigSep_mono fun c _ => hE0c (F := F) ρ c
  iintro ⟨H, -⟩
  imodintro
  iapply hmono
  iexact H

theorem hE7 (c : Dev nD) : E (F := F) 7 c ⊢ (iprop(∃ W, owes (c : Thread nD τ) (0 : CellTallies nD τ sig Unit) W) : sProp 𝕄) := by
  unfold E; iintro ⟨-, HO⟩; iexact HO

/-! ## The frame -/

set_option backward.isDefEq.respectTransparency.types false in
/-- THE FRAME of the kernel program at any float instance: from any memory with zero counters every weakly fair execution
    of @main terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  frame_cond m emb₁ () 𝒱₀ L lv (fun _ _ => rfl) ρ (outs m) (pdats m) 0 (fun _ => iprop(emp))
    (initOf (Pipeline.cells cfgs cellOf_inj) (Pipeline.launchToks cfgs cellOf_inj)) (hu₀ (F := F)) E (hE0 ρ) hE7
    (reg0 m) (fun _ => .rfl) (fun _ => .rfl)
    (reg1 m) (fun _ => .rfl) (fun _ => .rfl)
    (reg2 m) (fun _ => .rfl) (fun _ => .rfl)
    (reg3 m) (fun _ => .rfl) (fun _ => .rfl)
    (reg4 m) (fun _ => .rfl) (fun _ => .rfl)
    (reg5 m) (fun _ => .rfl) (fun _ => .rfl)
    (reg6 m) (fun _ => .rfl) (fun _ => .rfl)

/-! ## The whole final memory -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: every weakly fair execution of @main terminates, nothing faulting, with every unscoped buffer of every core at the
    last fold of the program's operations over the launch memory, the regions' leavings at `outs`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = V21 m (outs m) c b) := by
  refine Pipeline.θ_run_regions_kit_dev (pcfgs (F := F)) adm (pdats m) () cellOf_inj emb₁ defs₀ 𝒱₀ L lv m ρ main
    (segs m (outs m) 𝒱₀ L lv E () (pdats m) (reg0 m) (reg1 m) (reg2 m) (reg3 m) (reg4 m) (reg5 m) (reg6 m))
    (fun c Q => by
      rewrite [main_chain c, Seg.run_eq_chain,
        show (segs m (outs m) 𝒱₀ L lv E () (pdats m) (reg0 m) (reg1 m) (reg2 m) (reg3 m) (reg4 m) (reg5 m) (reg6 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          Prog.lift (.customCall (Pipeline.entry 4) ()),
          StableHlo.seq hostOps5,
          StableHlo.seq hostOps5_1,
          StableHlo.seq hostOps5_2,
          StableHlo.seq hostOps5_3,
          StableHlo.seq hostOps5_4,
          Prog.lift (.customCall (Pipeline.entry 5) ()),
          Prog.lift (.customCall (Pipeline.entry 6) ()),
          StableHlo.seq hostOps7,
          StableHlo.seq hostOps7_1,
          StableHlo.seq hostOps7_2,
          StableHlo.seq hostOps7_3,
          StableHlo.seq hostOps7_4 ] from rfl]
      exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj)) (hu₀ (F := F))
    (T₀ := fun c => iprop(StableHlo.held (c : Thread nD τ) (Pipeline.ucRefs τ sig) (V0 m c) ∗ E 0 c))
    (Tₙ := fun c => StableHlo.held (c : Thread nD τ) (Pipeline.ucRefs τ sig) (V21 m (outs m) c))
    (hch := fun c => ⟨.rfl, .rfl, .rfl, .rfl, .rfl, .rfl, .rfl, .rfl, .rfl, .rfl, .rfl, .rfl, .rfl, .rfl, .rfl, .rfl, .rfl, .rfl, .rfl, .rfl, .rfl, sep_mono .rfl (hE7 c)⟩)
    (hinit := ?_) (QY := fun c s => ∀ b ∈ Pipeline.ucRefs τ sig, s.mem ((c : Thread nD τ).1, b) = V21 m (outs m) c b)
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 (F := F) ρ) $$ [Hr Hla] with HE
    · isplitl [Hr]; · iexact Hr
      iexact Hla
    imodintro
    rw [bigSep_sep']
    isplitl [Hh]; · iexact Hh
    iexact HE
  · unfold StableHlo.held
    iintro ⟨Hh, HSI⟩
    imodintro
    iapply (pointsTo_read_all (Pipeline.ucRefs τ sig) (fun b => (((c : Thread nD τ)).1, b)) (V21 m (outs m) c) s')
    isplitl [Hh] <;> iassumption

end Cert.Kernel.Hand

end
-- ==== Proof.KI.Reg0.lean ====
/- The class-A half of region 0 of the kernel program, at a parameter `V` (the TensorCore's buffer contents when the
   region is entered): each window's block at a point, what the body leaves in the output window's buffer (the matrix
   product of the row block, read at the narrower float format, with the whole weight matrix), the body's triple, the
   proof data and the body obligation at every point. -/
import proofs.«101045_j34351148433892_1_alg».proof.Proof.Gen.KernelIdeal.Launch
import proofs.«101045_j34351148433892_1_alg».proof.Proof.Gen.KernelIdeal.Skeleton
import proofs.«101045_j34351148433892_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the row block, a new block at every point): its current staging buffer holds its block at every
    point, for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weight matrix, the same block at every point, so brought in at the first point only): its
    current staging buffer holds its block at every point, brought in there or not, since its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_0 : Rect S5000x128 := Rect.unit (s := S5000x128) ![0, 0] S5000x128.size inb_S5000x128_S5000x128_0_0
abbrev r0_1 : Rect S128x384 := Rect.unit (s := S128x384) ![0, 0] S128x384.size inb_S128x384_S128x384_0_0
abbrev r0_2 : Rect S5000x384 := Rect.unit (s := S5000x384) ![0, 0] S5000x384.size inb_S5000x384_S5000x384_0_0

/-! ## What the body leaves in the output window's buffer -/

/-- Window 2's staging buffer after the body, from the two input windows' blocks: its one store, the product of the row
    block with the weight matrix. -/
def out0_2 (x0 : Vec F S5000x128 .f32) (x1 : Vec F S128x384 .bf16) : Vec F S5000x384 .f32 :=
  View.canon [⟨r0_2, k0_pay1 (View.ld x0 r0_0) (View.ld x1 r0_1)⟩]

/-- The one store is the whole buffer, so it covers it. -/
theorem cover0_2 (p0 : Vec F S5000x384 .f32) (y : S5000x384.Idx) :
    ∃ pc ∈ ([⟨r0_2, p0⟩] : List (View.Piece (Elt F) S5000x384 .f32)), y ∈ pc.1.set :=
  View.cover_of_tiled [⟨r0_2, p0⟩] S5000x384.size (by rfl) y

/-! ## The body's triple -/

set_option maxHeartbeats 1000000 in
/-- The kernel body on whole staging memrefs, the inputs' at read contents and the output's at anything (it is read
    before it is written, the value read unused), runs to the continuation holding the inputs' as they were and the
    output's at `out0_2` of the inputs'. -/
theorem sound_kernel0 (c : Dev nD) (E : Set ℕ) (i : grid0.Coords)
    (arg1 : Memref sig .tc .vmem S5000x128 .f32) (harg1 : arg1.IsWhole)
    (arg2 : Memref sig .tc .vmem S128x384 .bf16) (harg2 : arg2.IsWhole)
    (arg3 : Memref sig .tc .vmem S5000x384 .f32) (harg3 : arg3.IsWhole)
    (x0 : Vec F S5000x128 .f32) (x1 : Vec F S128x384 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__qkv_kernel i arg1 harg1 arg2 harg2 arg3 harg3) K := by
  simp only [cc0__qkv_kernel_eq_skeleton]; unfold cc0__qkv_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point `t`
    each input's buffer at its block and the output's at `out0_2` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.KI.Reg1.lean ====
/- The class-A half of region 1 of the kernel program, at a parameter `V` (the TensorCore's buffer contents when the
   region is entered): each window's block at a point, what the body leaves in the output window's buffer (the matrix
   product of the row block, read at the narrower float format, with the whole weight matrix), the body's triple, the
   proof data and the body obligation at every point. -/
import proofs.«101045_j34351148433892_1_alg».proof.Proof.Gen.KernelIdeal.Launch
import proofs.«101045_j34351148433892_1_alg».proof.Proof.Gen.KernelIdeal.Skeleton
import proofs.«101045_j34351148433892_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the row block, a new block at every point): its current staging buffer holds its block at every
    point, for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the weight matrix, the same block at every point, so brought in at the first point only): its
    current staging buffer holds its block at every point, brought in there or not, since its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

abbrev r1_0 : Rect S5000x128 := Rect.unit (s := S5000x128) ![0, 0] S5000x128.size inb_S5000x128_S5000x128_0_0
abbrev r1_1 : Rect S128x128 := Rect.unit (s := S128x128) ![0, 0] S128x128.size inb_S128x128_S128x128_0_0
abbrev r1_2 : Rect S5000x128 := Rect.unit (s := S5000x128) ![0, 0] S5000x128.size inb_S5000x128_S5000x128_0_0

/-! ## What the body leaves in the output window's buffer -/

/-- Window 2's staging buffer after the body, from the two input windows' blocks: its one store, the product of the row
    block with the weight matrix. -/
def out1_2 (x0 : Vec F S5000x128 .f32) (x1 : Vec F S128x128 .bf16) : Vec F S5000x128 .f32 :=
  View.canon [⟨r1_2, k1_pay1 (View.ld x0 r1_0) (View.ld x1 r1_1)⟩]

/-- The one store is the whole buffer, so it covers it. -/
theorem cover1_2 (p0 : Vec F S5000x128 .f32) (y : S5000x128.Idx) :
    ∃ pc ∈ ([⟨r1_2, p0⟩] : List (View.Piece (Elt F) S5000x128 .f32)), y ∈ pc.1.set :=
  View.cover_of_tiled [⟨r1_2, p0⟩] S5000x128.size (by rfl) y

/-! ## The body's triple -/

set_option maxHeartbeats 1000000 in
/-- The kernel body on whole staging memrefs, the inputs' at read contents and the output's at anything (it is read
    before it is written, the value read unused), runs to the continuation holding the inputs' as they were and the
    output's at `out1_2` of the inputs'. -/
theorem sound_kernel1 (c : Dev nD) (E : Set ℕ) (i : grid1.Coords)
    (arg1 : Memref sig .tc .vmem S5000x128 .f32) (harg1 : arg1.IsWhole)
    (arg2 : Memref sig .tc .vmem S128x128 .bf16) (harg2 : arg2.IsWhole)
    (arg3 : Memref sig .tc .vmem S5000x128 .f32) (harg3 : arg3.IsWhole)
    (x0 : Vec F S5000x128 .f32) (x1 : Vec F S128x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__pe_kernel i arg1 harg1 arg2 harg2 arg3 harg3) K := by
  simp only [cc1__pe_kernel_eq_skeleton]; unfold cc1__pe_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at point `t`
    each input's buffer at its block and the output's at `out1_2` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand
-- ==== Proof.KI.Reg2.lean ====
/- Region 2 of the kernel program, the per-edge kernel, at a PARAMETER `V`: the TensorCore's buffer contents when the
   region is entered. Ten windows over a grid of 250 points, blocks of 2000 rows: windows 0..4 are the gathered keys,
   the gathered queries, the edge encodings, the envelope column and the gathered values; windows 5 and 6 are the two
   constant 0/1 tables (head reduction [128,8] and head broadcast [8,128]), whose block index never moves; windows
   7, 8, 9 are the three results. Stated here: each window's block at a point, each result window's buffer after the
   body as a function of the input blocks, the body's triple, the pipeline's proof data and its body obligation. -/
import proofs.«101045_j34351148433892_1_alg».proof.Proof.Gen.KernelIdeal.Launch
import proofs.«101045_j34351148433892_1_alg».proof.Proof.Gen.KernelIdeal.Skeleton
import proofs.«101045_j34351148433892_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array that the point's block index selects, read off the
    array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether the point fetched it or not: where it
    was not fetched the block index has not moved since the previous point, and the body leaves the buffer as found. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, whether the point fetched it or not: where it
    was not fetched the block index has not moved since the previous point, and the body leaves the buffer as found. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, whether the point fetched it or not: where it
    was not fetched the block index has not moved since the previous point, and the body leaves the buffer as found. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, whether the point fetched it or not: where it
    was not fetched the block index has not moved since the previous point, and the body leaves the buffer as found. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, whether the point fetched it or not: where it
    was not fetched the block index has not moved since the previous point, and the body leaves the buffer as found. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's staging buffer holds its block at every point, whether the point fetched it or not: where it
    was not fetched the block index has not moved since the previous point, and the body leaves the buffer as found. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's staging buffer holds its block at every point, whether the point fetched it or not: where it
    was not fetched the block index has not moved since the previous point, and the body leaves the buffer as found. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole buffer -/

abbrev r2_0 : Rect S2000x128 := Rect.unit (s := S2000x128) ![0, 0] S2000x128.size inb_S2000x128_S2000x128_0_0
abbrev r2_1 : Rect S2000x8 := Rect.unit (s := S2000x8) ![0, 0] S2000x8.size inb_S2000x8_S2000x8_0_0
abbrev r2_2 : Rect S128x8 := Rect.unit (s := S128x8) ![0, 0] S128x8.size inb_S128x8_S128x8_0_0
abbrev r2_3 : Rect S8x128 := Rect.unit (s := S8x128) ![0, 0] S8x128.size inb_S8x128_S8x128_0_0
abbrev r2_4 : Rect S2000x1 := Rect.unit (s := S2000x1) ![0, 0] S2000x1.size inb_S2000x1_S2000x1_0_0

/-! ## What the body leaves in each result window's buffer -/

/-- Window 7 after the body: the scaled product of keys, queries and edge encodings, one whole-buffer store. -/
def out2_7 (x0 x1 x2 : Vec F S2000x128 .f32) : Vec F S2000x128 .f32 :=
  View.canon [⟨r2_0, k2_pay1 (View.ld x0 r2_0) (View.ld x1 r2_0) (View.ld x2 r2_0)⟩]

/-- Window 8 after the body: the exponential of the clipped per-head sums of window 7's value through the head
    reduction table, one whole-buffer store. -/
def out2_8 (x0 x1 x2 : Vec F S2000x128 .f32) (x5 : Vec F S128x8 .f32) : Vec F S2000x8 .f32 :=
  View.canon [⟨r2_1, k2_pay2 (View.ld x0 r2_0) (View.ld x1 r2_0) (View.ld x2 r2_0) (View.ld x5 r2_2)⟩]

/-- Window 9 after the body: the values times the envelope times window 8's value spread back over the heads'
    columns through the head broadcast table, one whole-buffer store. -/
def out2_9 (x0 x1 x2 : Vec F S2000x128 .f32) (x3 : Vec F S2000x1 .f32) (x4 : Vec F S2000x128 .f32) (x5 : Vec F S128x8 .f32)
    (x6 : Vec F S8x128 .f32) : Vec F S2000x128 .f32 :=
  View.canon [⟨r2_0, k2_pay3 (View.ld x0 r2_0) (View.ld x1 r2_0) (View.ld x2 r2_0) (View.ld x5 r2_2) (View.ld x6 r2_3)
    (View.ld x3 r2_4) (View.ld x4 r2_0)⟩]

/-- A single whole-buffer store covers the buffer. -/
theorem cover2_7 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y
theorem cover2_8 (p0 : Vec F S2000x8 .f32) (y : S2000x8.Idx) :
    ∃ pc ∈ ([⟨r2_1, p0⟩] : List (View.Piece (Elt F) S2000x8 .f32)), y ∈ pc.1.set :=
  View.cover_of_tiled [⟨r2_1, p0⟩] S2000x8.size (by rfl) y
theorem cover2_9 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y

/-! ## The body's triple -/

set_option maxHeartbeats 4000000 in
/-- The body on whole staging memrefs, the inputs' at contents `xW` and the results' at anything, runs to the
    continuation that holds the inputs' as they were and each result's at `out2_W` of the inputs'. Each result memref is
    read once before it is written; the value read is not used. -/
theorem sound_kernel2 (c : Dev nD) (E : Set ℕ) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x1 .f32) (harg4 : arg4.IsWhole) (arg5 : Memref sig .tc .vmem S2000x128 .f32) (harg5 : arg5.IsWhole) (arg6 : Memref sig .tc .vmem S128x8 .f32) (harg6 : arg6.IsWhole) (arg7 : Memref sig .tc .vmem S8x128 .f32) (harg7 : arg7.IsWhole) (arg8 : Memref sig .tc .vmem S2000x128 .f32) (harg8 : arg8.IsWhole) (arg9 : Memref sig .tc .vmem S2000x8 .f32) (harg9 : arg9.IsWhole) (arg10 : Memref sig .tc .vmem S2000x128 .f32) (harg10 : arg10.IsWhole)
    (x0 : Vec F S2000x128 .f32) (x1 : Vec F S2000x128 .f32) (x2 : Vec F S2000x128 .f32) (x3 : Vec F S2000x1 .f32) (x4 : Vec F S2000x128 .f32) (x5 : Vec F S128x8 .f32) (x6 : Vec F S8x128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ (∃ d, owns (c : Thread nD τ) arg8 fullShare d)
        ∗ (∃ d, owns (c : Thread nD τ) arg9 fullShare d)
        ∗ (∃ d, owns (c : Thread nD τ) arg10 fullShare d)
        ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare (out2_7 x0 x1 x2)
          ∗ owns (c : Thread nD τ) arg9 fullShare (out2_8 x0 x1 x2 x5)
          ∗ owns (c : Thread nD τ) arg10 fullShare (out2_9 x0 x1 x2 x3 x4 x5 x6)) -∗ K ⟨⟩))
      ⊢ wp frame (wpE (defs₀ (F := F)) Variants.none c none) E (cc2__edge_kernel i arg1 harg1 arg2 harg2 arg3 harg3 arg4 harg4 arg5 harg5 arg6 harg6 arg7 harg7 arg8 harg8 arg9 harg9 arg10 harg10) K := by
  simp only [cc2__edge_kernel_eq_skeleton]; unfold cc2__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover2_7 _)
  isplitl [H8]
  · iexists _; isplitr
    swap; · iexact H8
    ipureintro
    exact View.read_writes_eq_canon _ _ _ (cover2_8 _)
  iexists _; isplitr
  swap; · iexact H9
  ipureintro
  exact View.read_writes_eq_canon _ _ _ (cover2_9 _)

/-! ## The pipeline's proof data -/

/-- The proof data of pipeline 2 on core `c`: the arrays as the region finds them; after the body at point `t` each
    input's buffer at its block and each result's at `out2_W` of the input blocks; the invariant keeps the scoped rest
    and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t)
    | ⟨8, _⟩ => out2_8 (iblk2 V c 0 t) (iblk2 V c 1 t) (iblk2 V c 2 t) (iblk2 V c 5 t)
    | ⟨9, _⟩ => out2_9 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) := by dsimp only [dat2]
theorem after2_8 (c : Dev nD) (t : Fin cfg2.N) : (dat2 V c).after 8 t = out2_8 (iblk2 V c 0 t) (iblk2 V c 1 t) (iblk2 V c 2 t) (iblk2 V c 5 t) := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at any point: the inputs' memrefs hold their blocks, so the body's triple applies; the invariant and the
    core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand
-- ==== Proof.KI.Reg3.lean ====
/- The class-A half of region 3 (`cc3__outproj_kernel`: x + attn · W + b on blocks of 5000 rows), at a parameter
   `V` — the TensorCore's buffer contents when the region is entered. Windows 0..3 are inputs (x, attn, W, b; W and b
   have a constant block index), window 4 is the output. -/
import proofs.«101045_j34351148433892_1_alg».proof.Proof.Gen.KernelIdeal.Launch
import proofs.«101045_j34351148433892_1_alg».proof.Proof.Gen.KernelIdeal.Skeleton
import proofs.«101045_j34351148433892_1_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current buffer holds its block at every point, fetched there or not (an unfetched window's
    block index has not moved), for any proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_0 : Rect S5000x128 := Rect.unit (s := S5000x128) ![0, 0] S5000x128.size inb_S5000x128_S5000x128_0_0
abbrev r3_1 : Rect S128x128 := Rect.unit (s := S128x128) ![0, 0] S128x128.size inb_S128x128_S128x128_0_0
abbrev r3_2 : Rect S1x128 := Rect.unit (s := S1x128) ![0, 0] S1x128.size inb_S1x128_S1x128_0_0

/-! ## What the body leaves in the output window's buffer -/

/-- Window 4's buffer after the body, from the input windows' blocks (x0 = x, x1 = attn, x2 = W, x3 = b): one store
    of the whole buffer. -/
def out3_4 (x0 : Vec F S5000x128 .f32) (x1 : Vec F S5000x128 .f32) (x2 : Vec F S128x128 .bf16) (x3 : Vec F S1x128 .f32) : Vec F S5000x128 .f32 :=
  View.canon [⟨r3_0, k3_pay1 (View.ld x1 r3_0) (View.ld x2 r3_1) (View.ld x0 r3_0) (View.ld x3 r3_2)⟩]

/-- The one store covers the buffer. -/
theorem cover3_4 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

/-! ## The body's triple -/

set_option maxHeartbeats 1000000 in
/-- The body on whole staging memrefs, the inputs' at contents `xW` and the output's at anything, runs to the
    continuation holding the inputs' as they were and the output's at `out3_4` of the inputs'. -/
theorem sound_kernel3 (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S5000x128 .f32) (x2 : Vec F S128x128 .bf16) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__outproj_kernel i arg1 harg1 arg2 harg2 arg3 harg3 arg4 harg4 arg5 harg5) K := by
  simp only [cc3__outproj_kernel_eq_skeleton]; unfold cc3__outproj_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The pipeline's proof data -/

/-- The proof data of the region on core `c`: the arrays as the region finds them (`V`); after the body at point
    `t` each input's buffer at its block and the output's at `out3_4` of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks, so the body's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
/- The class-A half of region 4 (`cc4__outproj_kernel`: x + attn · W + b on blocks of 5000 rows), at a parameter
   `V` — the TensorCore's buffer contents when the region is entered. Windows 0..3 are inputs (x, attn, W, b; W and b
   have a constant block index), window 4 is the output. -/
import proofs.«101045_j34351148433892_1_alg».proof.Proof.Gen.KernelIdeal.Launch
import proofs.«101045_j34351148433892_1_alg».proof.Proof.Gen.KernelIdeal.Skeleton
import proofs.«101045_j34351148433892_1_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current buffer holds its block at every point, fetched there or not (an unfetched window's
    block index has not moved), for any proof data whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer whole -/

abbrev r4_0 : Rect S5000x128 := Rect.unit (s := S5000x128) ![0, 0] S5000x128.size inb_S5000x128_S5000x128_0_0
abbrev r4_1 : Rect S128x128 := Rect.unit (s := S128x128) ![0, 0] S128x128.size inb_S128x128_S128x128_0_0
abbrev r4_2 : Rect S1x128 := Rect.unit (s := S1x128) ![0, 0] S1x128.size inb_S1x128_S1x128_0_0

/-! ## What the body leaves in the output window's buffer -/

/-- Window 4's buffer after the body, from the input windows' blocks (x0 = x, x1 = attn, x2 = W, x3 = b): one store
    of the whole buffer. -/
def out4_4 (x0 : Vec F S5000x128 .f32) (x1 : Vec F S5000x128 .f32) (x2 : Vec F S128x128 .bf16) (x3 : Vec F S1x128 .f32) : Vec F S5000x128 .f32 :=
  View.canon [⟨r4_0, k4_pay1 (View.ld x1 r4_0) (View.ld x2 r4_1) (View.ld x0 r4_0) (View.ld x3 r4_2)⟩]

/-- The one store covers the buffer. -/
theorem cover4_4 (p0 : Vec F S5000x128 .f32) (y : S5000x128.Idx) :
    ∃ pc ∈ ([⟨r4_0, p0⟩] : List (View.Piece (Elt F) S5000x128 .f32)), y ∈ pc.1.set :=
  View.cover_of_tiled [⟨r4_0, p0⟩] S5000x128.size (by rfl) y

/-! ## The body's triple -/

set_option maxHeartbeats 1000000 in
/-- The body on whole staging memrefs, the inputs' at contents `xW` and the output's at anything, runs to the
    continuation holding the inputs' as they were and the output's at `out4_4` of the inputs'. -/
theorem sound_kernel4 (c : Dev nD) (E : Set ℕ) (i : grid4.Coords) (arg1 : Memref sig .tc .vmem S5000x128 .f32) (harg1 : arg1.IsWhole) (arg2 : Memref sig .tc .vmem S5000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S5000x128 .f32) (x2 : Vec F S128x128 .bf16) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out4_4 x0 x1 x2 x3)) -∗ K ⟨⟩))
      ⊢ wp frame (wpE (defs₀ (F := F)) Variants.none c none) E (cc4__outproj_kernel i arg1 harg1 arg2 harg2 arg3 harg3 arg4 harg4 arg5 harg5) K := by
  simp only [cc4__outproj_kernel_eq_skeleton]; unfold cc4__outproj_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-! ## The pipeline's proof data -/

/-- The proof data of the region on core `c`: the arrays as the region finds them (`V`); after the body at point
    `t` each input's buffer at its block and the output's at `out4_4` of the input blocks; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = out4_4 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' memrefs hold their blocks, so the body's triple applies; the invariant and
    the core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Reg5.lean ====
/- Region 5, the fused batch-norm and feed-forward kernel, at any contents V of the core's buffers on entry:
   each window's block at a grid point, what the body's one store leaves in the output window's staging buffer as a
   function of the nine input blocks, the body's triple, the pipeline's proof data and the body obligation. -/
import proofs.«101045_j34351148433892_1_alg».proof.Proof.Gen.KernelIdeal.Launch
import proofs.«101045_j34351148433892_1_alg».proof.Proof.Gen.KernelIdeal.Skeleton
import proofs.«101045_j34351148433892_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not: where it is not
    fetched its block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not: where it is not
    fetched its block index has not moved. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not: where it is not
    fetched its block index has not moved. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not: where it is not
    fetched its block index has not moved. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not: where it is not
    fetched its block index has not moved. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, fetched there or not: where it is not
    fetched its block index has not moved. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's current staging buffer holds its block at every point, fetched there or not: where it is not
    fetched its block index has not moved. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-- Input window 7's current staging buffer holds its block at every point, fetched there or not: where it is not
    fetched its block index has not moved. -/
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

/-- Input window 8's current staging buffer holds its block at every point, fetched there or not: where it is not
    fetched its block index has not moved. -/
theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and the store take a whole staging buffer -/

abbrev r5_a : Rect S5000x128 := Rect.unit (s := S5000x128) ![0, 0] S5000x128.size inb_S5000x128_S5000x128_0_0
abbrev r5_b : Rect S1x128 := Rect.unit (s := S1x128) ![0, 0] S1x128.size inb_S1x128_S1x128_0_0
abbrev r5_c : Rect S128x256 := Rect.unit (s := S128x256) ![0, 0] S128x256.size inb_S128x256_S128x256_0_0
abbrev r5_d : Rect S1x256 := Rect.unit (s := S1x256) ![0, 0] S1x256.size inb_S1x256_S1x256_0_0
abbrev r5_e : Rect S256x128 := Rect.unit (s := S256x128) ![0, 0] S256x128.size inb_S256x128_S256x128_0_0

/-! ## What the body leaves in the output window's buffer -/

/-- Window 9's staging buffer after the body, from the input windows' blocks: its one store. -/
def out5_9 (x0 : Vec F S5000x128 .f32) (x1 : Vec F S1x128 .f32) (x2 : Vec F S1x128 .f32) (x3 : Vec F S1x128 .f32) (x4 : Vec F S1x128 .f32) (x5 : Vec F S128x256 .bf16) (x6 : Vec F S1x256 .f32) (x7 : Vec F S256x128 .bf16) (x8 : Vec F S1x128 .f32) : Vec F S5000x128 .f32 :=
  View.canon [⟨r5_a, k5_pay1 (k5_pay2 (View.ld x0 r5_a) (View.ld x1 r5_b) (View.ld x2 r5_b) (View.ld x3 r5_b) (View.ld x4 r5_b))
    (k5_pay3 (View.ld x0 r5_a) (View.ld x1 r5_b) (View.ld x2 r5_b) (View.ld x3 r5_b) (View.ld x4 r5_b) (View.ld x5 r5_c) (View.ld x6 r5_d) (View.ld x7 r5_e))
    (k5_pay4 (View.ld x8 r5_b))⟩]

/-- The store covers the buffer. -/
theorem cover5_9 (p0 : Vec F S5000x128 .f32) (y : S5000x128.Idx) :
    ∃ pc ∈ ([⟨r5_a, p0⟩] : List (View.Piece (Elt F) S5000x128 .f32)), y ∈ pc.1.set :=
  View.cover_of_tiled [⟨r5_a, p0⟩] S5000x128.size (by rfl) y

/-! ## The body's triple -/

set_option maxHeartbeats 4000000 in
/-- The kernel body on whole staging memrefs, the inputs' at contents `xW` and the output's at anything, runs to the
    continuation holding the inputs' as they were and the output's at `out5_9` of the inputs'. -/
theorem sound_kernel5 (c : Dev nD) (E : Set ℕ) (i : grid5.Coords) (arg0 : Memref sig .tc .vmem S5000x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S256x128 .bf16) (harg7 : arg7.IsWhole) (arg8 : Memref sig .tc .vmem S1x128 .f32) (harg8 : arg8.IsWhole) (arg9 : Memref sig .tc .vmem S5000x128 .f32) (harg9 : arg9.IsWhole)
    (x0 : Vec F S5000x128 .f32) (x1 : Vec F S1x128 .f32) (x2 : Vec F S1x128 .f32) (x3 : Vec F S1x128 .f32) (x4 : Vec F S1x128 .f32) (x5 : Vec F S128x256 .bf16) (x6 : Vec F S1x256 .f32) (x7 : Vec F S256x128 .bf16) (x8 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out5_9 x0 x1 x2 x3 x4 x5 x6 x7 x8)) -∗ K ⟨⟩))
      ⊢ wp frame (wpE (defs₀ (F := F)) Variants.none c none) E (cc5__ffn_kernel i arg0 harg0 arg1 harg1 arg2 harg2 arg3 harg3 arg4 harg4 arg5 harg5 arg6 harg6 arg7 harg7 arg8 harg8 arg9 harg9) K := by
  simp only [cc5__ffn_kernel_eq_skeleton]; unfold cc5__ffn_kernel_skel
  simp only [k5_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover5_9 _)

/-! ## The pipeline's proof data -/

/-- The proof data of pipeline 5 on core `c`: the arrays as the region finds them; after the body at point `t` each
    input's buffer at its block and the output's at `out5_9` of the input blocks; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => out5_9 (iblk5 V c 0 t) (iblk5 V c 1 t) (iblk5 V c 2 t) (iblk5 V c 3 t) (iblk5 V c 4 t) (iblk5 V c 5 t) (iblk5 V c 6 t) (iblk5 V c 7 t) (iblk5 V c 8 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = out5_9 (iblk5 V c 0 t) (iblk5 V c 1 t) (iblk5 V c 2 t) (iblk5 V c 3 t) (iblk5 V c 4 t) (iblk5 V c 5 t) (iblk5 V c 6 t) (iblk5 V c 7 t) (iblk5 V c 8 t) := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t))

set_option maxHeartbeats 1000000 in
/-- The body at any point: the inputs' memrefs hold their blocks, so the body's triple applies; the invariant and the
    core's owed waits pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel5 c Set.univ (grid5.coords t) _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) (iblk5 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Reg6.lean ====
/- Region 6, the fused batch-norm and feed-forward kernel, at any contents V of the core's buffers on entry:
   each window's block at a grid point, what the body's one store leaves in the output window's staging buffer as a
   function of the nine input blocks, the body's triple, the pipeline's proof data and the body obligation. -/
import proofs.«101045_j34351148433892_1_alg».proof.Proof.Gen.KernelIdeal.Launch
import proofs.«101045_j34351148433892_1_alg».proof.Proof.Gen.KernelIdeal.Skeleton
import proofs.«101045_j34351148433892_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not: where it is not
    fetched its block index has not moved. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not: where it is not
    fetched its block index has not moved. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not: where it is not
    fetched its block index has not moved. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not: where it is not
    fetched its block index has not moved. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not: where it is not
    fetched its block index has not moved. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5's current staging buffer holds its block at every point, fetched there or not: where it is not
    fetched its block index has not moved. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-- Input window 6's current staging buffer holds its block at every point, fetched there or not: where it is not
    fetched its block index has not moved. -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-- Input window 7's current staging buffer holds its block at every point, fetched there or not: where it is not
    fetched its block index has not moved. -/
theorem before6_7_of {c : Dev nD} (dat : Dat τ (Elt F) Unit ℕ (UR sig nD τ) ℕ cfg6 c) (hA : dat.A 7 = V c (Pipeline.arrRef spec6 7))
    (hafter : ∀ t, dat.after 7 t = iblk6 V c 7 t) (t : Fin cfg6.N) (d) : dat.before 7 t d = iblk6 V c 7 t :=
  (dat.before_in_eq_fetched 7 rfl (fun _ => rfl) (fun _ _ _ => rfl) (fun t => by rw [hafter]; unfold Dat.blockOf iblk6; rw [hA]; try rfl) t d).trans
    (by unfold Dat.fetched Dat.blockOf iblk6; rw [hA]; try rfl)

/-- Input window 8's current staging buffer holds its block at every point, fetched there or not: where it is not
    fetched its block index has not moved. -/
theorem before6_8_of {c : Dev nD} (dat : Dat τ (Elt F) Unit ℕ (UR sig nD τ) ℕ cfg6 c) (hA : dat.A 8 = V c (Pipeline.arrRef spec6 8))
    (hafter : ∀ t, dat.after 8 t = iblk6 V c 8 t) (t : Fin cfg6.N) (d) : dat.before 8 t d = iblk6 V c 8 t :=
  (dat.before_in_eq_fetched 8 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and the store take a whole staging buffer -/

abbrev r6_a : Rect S5000x128 := Rect.unit (s := S5000x128) ![0, 0] S5000x128.size inb_S5000x128_S5000x128_0_0
abbrev r6_b : Rect S1x128 := Rect.unit (s := S1x128) ![0, 0] S1x128.size inb_S1x128_S1x128_0_0
abbrev r6_c : Rect S128x256 := Rect.unit (s := S128x256) ![0, 0] S128x256.size inb_S128x256_S128x256_0_0
abbrev r6_d : Rect S1x256 := Rect.unit (s := S1x256) ![0, 0] S1x256.size inb_S1x256_S1x256_0_0
abbrev r6_e : Rect S256x128 := Rect.unit (s := S256x128) ![0, 0] S256x128.size inb_S256x128_S256x128_0_0

/-! ## What the body leaves in the output window's buffer -/

/-- Window 9's staging buffer after the body, from the input windows' blocks: its one store. -/
def out6_9 (x0 : Vec F S5000x128 .f32) (x1 : Vec F S1x128 .f32) (x2 : Vec F S1x128 .f32) (x3 : Vec F S1x128 .f32) (x4 : Vec F S1x128 .f32) (x5 : Vec F S128x256 .bf16) (x6 : Vec F S1x256 .f32) (x7 : Vec F S256x128 .bf16) (x8 : Vec F S1x128 .f32) : Vec F S5000x128 .f32 :=
  View.canon [⟨r6_a, k6_pay1 (k6_pay2 (View.ld x0 r6_a) (View.ld x1 r6_b) (View.ld x2 r6_b) (View.ld x3 r6_b) (View.ld x4 r6_b))
    (k6_pay3 (View.ld x0 r6_a) (View.ld x1 r6_b) (View.ld x2 r6_b) (View.ld x3 r6_b) (View.ld x4 r6_b) (View.ld x5 r6_c) (View.ld x6 r6_d) (View.ld x7 r6_e))
    (k6_pay4 (View.ld x8 r6_b))⟩]

/-- The store covers the buffer. -/
theorem cover6_9 (p0 : Vec F S5000x128 .f32) (y : S5000x128.Idx) :
    ∃ pc ∈ ([⟨r6_a, p0⟩] : List (View.Piece (Elt F) S5000x128 .f32)), y ∈ pc.1.set :=
  View.cover_of_tiled [⟨r6_a, p0⟩] S5000x128.size (by rfl) y

/-! ## The body's triple -/

set_option maxHeartbeats 4000000 in
/-- The kernel body on whole staging memrefs, the inputs' at contents `xW` and the output's at anything, runs to the
    continuation holding the inputs' as they were and the output's at `out6_9` of the inputs'. -/
theorem sound_kernel6 (c : Dev nD) (E : Set ℕ) (i : grid6.Coords) (arg0 : Memref sig .tc .vmem S5000x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S256x128 .bf16) (harg7 : arg7.IsWhole) (arg8 : Memref sig .tc .vmem S1x128 .f32) (harg8 : arg8.IsWhole) (arg9 : Memref sig .tc .vmem S5000x128 .f32) (harg9 : arg9.IsWhole)
    (x0 : Vec F S5000x128 .f32) (x1 : Vec F S1x128 .f32) (x2 : Vec F S1x128 .f32) (x3 : Vec F S1x128 .f32) (x4 : Vec F S1x128 .f32) (x5 : Vec F S128x256 .bf16) (x6 : Vec F S1x256 .f32) (x7 : Vec F S256x128 .bf16) (x8 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out6_9 x0 x1 x2 x3 x4 x5 x6 x7 x8)) -∗ K ⟨⟩))
      ⊢ wp frame (wpE (defs₀ (F := F)) Variants.none c none) E (cc6__ffn_kernel i arg0 harg0 arg1 harg1 arg2 harg2 arg3 harg3 arg4 harg4 arg5 harg5 arg6 harg6 arg7 harg7 arg8 harg8 arg9 harg9) K := by
  simp only [cc6__ffn_kernel_eq_skeleton]; unfold cc6__ffn_kernel_skel
  simp only [k6_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover6_9 _)

/-! ## The pipeline's proof data -/

/-- The proof data of pipeline 6 on core `c`: the arrays as the region finds them; after the body at point `t` each
    input's buffer at its block and the output's at `out6_9` of the input blocks; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => out6_9 (iblk6 V c 0 t) (iblk6 V c 1 t) (iblk6 V c 2 t) (iblk6 V c 3 t) (iblk6 V c 4 t) (iblk6 V c 5 t) (iblk6 V c 6 t) (iblk6 V c 7 t) (iblk6 V c 8 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = iblk6 V c 8 t := by dsimp only [dat6]
theorem after6_9 (c : Dev nD) (t : Fin cfg6.N) : (dat6 V c).after 9 t = out6_9 (iblk6 V c 0 t) (iblk6 V c 1 t) (iblk6 V c 2 t) (iblk6 V c 3 t) (iblk6 V c 4 t) (iblk6 V c 5 t) (iblk6 V c 6 t) (iblk6 V c 7 t) (iblk6 V c 8 t) := by dsimp only [dat6]

/-- Each input's current staging buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d
theorem before6_7 (c : Dev nD) (t : Fin cfg6.N) (d) : (dat6 V c).before 7 t d = iblk6 V c 7 t :=
  before6_7_of V (dat6 V c) (A_eq6 V c 7) (after6_7 V c) t d
theorem before6_8 (c : Dev nD) (t : Fin cfg6.N) (d) : (dat6 V c).before 8 t d = iblk6 V c 8 t :=
  before6_8_of V (dat6 V c) (A_eq6 V c 8) (after6_8 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d))
    ∗ (∃ d, owns (c : Thread nD τ) (st6_9 t) fullShare ((dat6 V c).before 9 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t)
    ∗ owns (c : Thread nD τ) (st6_8 t) fullShare ((dat6 V c).after 8 t)
    ∗ owns (c : Thread nD τ) (st6_9 t) fullShare ((dat6 V c).after 9 t))

set_option maxHeartbeats 1000000 in
/-- The body at any point: the inputs' memrefs hold their blocks, so the body's triple applies; the invariant and the
    core's owed waits pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7, before6_8]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8, after6_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel6 c Set.univ (grid6.coords t) _ _ _ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) (iblk6 V c 7 t) (iblk6 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Run.lean ====
/-
  The kernel program's run, at any float instance: seven pallas_call regions among stretches of host operations.
  Each region is entered with every unscoped buffer of the core at the contents the fold of the program's operations
  gives it, its arrays are split out, the pipeline runs over the region's proof data (the class-A half of each region:
  every output block a function of that point's input blocks), and the arrays are put back with each output array at
  what the write-backs leave. The contents a region leaves are named first (`outs`), stage by stage, because what
  region K leaves depends on what the earlier regions left.
  Two consequences: the frame (every argument array ends as launched), and the whole final memory of every core
  at the last fold, from which the two result arrays are read.
-/
import proofs.«101045_j34351148433892_1_alg».proof.Proof.Gen.KernelIdeal.Regions
import proofs.«101045_j34351148433892_1_alg».proof.Proof.KI.Reg0
import proofs.«101045_j34351148433892_1_alg».proof.Proof.KI.Reg1
import proofs.«101045_j34351148433892_1_alg».proof.Proof.KI.Reg2
import proofs.«101045_j34351148433892_1_alg».proof.Proof.KI.Reg3
import proofs.«101045_j34351148433892_1_alg».proof.Proof.KI.Reg4
import proofs.«101045_j34351148433892_1_alg».proof.Proof.KI.Reg5
import proofs.«101045_j34351148433892_1_alg».proof.Proof.KI.Reg6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave, named stage by stage -/

/-- One more slot of the regions' leavings fixed: slot `(j, r)` at `v`, every other slot as before. -/
def upd (o : Outs (F := F)) (j : ℕ) (r : Ref sig .tc) (v : (c : Dev nD) → Buf (Elt F) ((c : Thread nD τ).loc r)) : Outs (F := F) :=
  fun j' r' c => if h : j' = j ∧ r' = r then h.2 ▸ v c else o j' r' c

theorem upd_same (o : Outs (F := F)) (j : ℕ) (r : Ref sig .tc) (v : (c : Dev nD) → Buf (Elt F) ((c : Thread nD τ).loc r)) (c : Dev nD) :
    upd o j r v j r c = v c := by
  unfold upd; rw [dif_pos ⟨rfl, rfl⟩]

theorem upd_other (o : Outs (F := F)) (j : ℕ) (r : Ref sig .tc) (v : (c : Dev nD) → Buf (Elt F) ((c : Thread nD τ).loc r))
    (j' : ℕ) (r' : Ref sig .tc) (c : Dev nD) (h : ¬ (j' = j ∧ r' = r)) : upd o j r v j' r' c = o j' r' c := by
  unfold upd; rw [dif_neg h]

/-- Two namings agree on every slot up to `k`. -/
def Agree (k : ℕ) (o o' : Outs (F := F)) : Prop := ∀ j r c, j ≤ k → o j r c = o' j r c

theorem Agree.refl (k : ℕ) (o : Outs (F := F)) : Agree k o o := fun _ _ _ _ => rfl
theorem Agree.trans {k : ℕ} {o o' o'' : Outs (F := F)} (h : Agree k o o') (h' : Agree k o' o'') : Agree k o o'' :=
  fun j r c hj => (h j r c hj).trans (h' j r c hj)
theorem Agree.symm {k : ℕ} {o o' : Outs (F := F)} (h : Agree k o o') : Agree k o' o := fun j r c hj => (h j r c hj).symm
theorem Agree.mono {k k' : ℕ} {o o' : Outs (F := F)} (hk : k' ≤ k) (h : Agree k o o') : Agree k' o o' :=
  fun j r c hj => h j r c (hj.trans hk)
/-- Fixing a later slot changes no earlier one. -/
theorem upd_agree (o : Outs (F := F)) (j : ℕ) (r : Ref sig .tc) (v : (c : Dev nD) → Buf (Elt F) ((c : Thread nD τ).loc r))
    (k : ℕ) (hk : k < j) : Agree k (upd o j r v) o :=
  fun j' r' c hj => upd_other o j r v j' r' c (fun h => by omega)

/-- The fold of the buffer contents reads the regions' leavings only at slots up to the boundary's own. -/
theorem V3_agree {o o' : Outs (F := F)} (h : Agree 2 o o') (c : Dev nD) : V3 m o c = V3 m o' c := by
  simp only [V3, V2, h 2 main_v15 c (by omega)]
theorem V5_agree {o o' : Outs (F := F)} (h : Agree 4 o o') (c : Dev nD) : V5 m o c = V5 m o' c := by
  simp only [V5, V4, V3, V2, h 2 main_v15 c (by omega), h 4 main_v19 c (by omega)]
theorem V7_agree {o o' : Outs (F := F)} (h : Agree 6 o o') (c : Dev nD) : V7 m o c = V7 m o' c := by
  simp only [V7, V6, V5, V4, V3, V2, h 2 main_v15 c (by omega), h 4 main_v19 c (by omega),
    h 6 main_v42_0 c (by omega), h 6 main_v42_1 c (by omega), h 6 main_v42_2 c (by omega)]
theorem V8_agree {o o' : Outs (F := F)} (h : Agree 8 o o') (c : Dev nD) : V8 m o c = V8 m o' c := by
  simp only [V8, V7, V6, V5, V4, V3, V2, h 2 main_v15 c (by omega), h 4 main_v19 c (by omega),
    h 6 main_v42_0 c (by omega), h 6 main_v42_1 c (by omega), h 6 main_v42_2 c (by omega), h 8 main_v54 c (by omega)]
theorem V14_agree {o o' : Outs (F := F)} (h : Agree 9 o o') (c : Dev nD) : V14 m o c = V14 m o' c := by
  simp only [V14, V13, V12, V11, V10, V9, V8, V7, V6, V5, V4, V3, V2, h 2 main_v15 c (by omega), h 4 main_v19 c (by omega),
    h 6 main_v42_0 c (by omega), h 6 main_v42_1 c (by omega), h 6 main_v42_2 c (by omega), h 8 main_v54 c (by omega),
    h 9 main_v55 c (by omega)]
theorem V15_agree {o o' : Outs (F := F)} (h : Agree 15 o o') (c : Dev nD) : V15 m o c = V15 m o' c := by
  simp only [V15, V14, V13, V12, V11, V10, V9, V8, V7, V6, V5, V4, V3, V2, h 2 main_v15 c (by omega), h 4 main_v19 c (by omega),
    h 6 main_v42_0 c (by omega), h 6 main_v42_1 c (by omega), h 6 main_v42_2 c (by omega), h 8 main_v54 c (by omega),
    h 9 main_v55 c (by omega), h 15 main_v70 c (by omega)]

/-- Before any region: every slot at the launch memory (a placeholder no fold reads). -/
def outs0 : Outs (F := F) := fun _ r c => m ((c : Thread nD τ).loc r)
/-- What region 0 leaves in `main_v15`: its output window 2's write-backs folded over the whole grid. -/
def o_main_v15 (c : Dev nD) : Buf (Elt F) ((c : Thread nD τ).loc main_v15) :=
  (dat0 (fun c b => V1 m c b) c).arrAt 2 cfg0.N
def outs1 : Outs (F := F) := (upd (outs0 m) 2 main_v15 (o_main_v15 m))
/-- What region 1 leaves in `main_v19`: its output window 2's write-backs folded over the whole grid. -/
def o_main_v19 (c : Dev nD) : Buf (Elt F) ((c : Thread nD τ).loc main_v19) :=
  (dat1 (fun c b => V3 m (outs1 m) c b) c).arrAt 2 cfg1.N
def outs2 : Outs (F := F) := (upd (outs1 m) 4 main_v19 (o_main_v19 m))
/-- What region 2 leaves in `main_v42_0`: its output window 7's write-backs folded over the whole grid. -/
def o_main_v42_0 (c : Dev nD) : Buf (Elt F) ((c : Thread nD τ).loc main_v42_0) :=
  (dat2 (fun c b => V5 m (outs2 m) c b) c).arrAt 7 cfg2.N
/-- What region 2 leaves in `main_v42_1`: its output window 8's write-backs folded over the whole grid. -/
def o_main_v42_1 (c : Dev nD) : Buf (Elt F) ((c : Thread nD τ).loc main_v42_1) :=
  (dat2 (fun c b => V5 m (outs2 m) c b) c).arrAt 8 cfg2.N
/-- What region 2 leaves in `main_v42_2`: its output window 9's write-backs folded over the whole grid. -/
def o_main_v42_2 (c : Dev nD) : Buf (Elt F) ((c : Thread nD τ).loc main_v42_2) :=
  (dat2 (fun c b => V5 m (outs2 m) c b) c).arrAt 9 cfg2.N
def outs3 : Outs (F := F) := (upd (upd (upd (outs2 m) 6 main_v42_0 (o_main_v42_0 m)) 6 main_v42_1 (o_main_v42_1 m)) 6 main_v42_2 (o_main_v42_2 m))
/-- What region 3 leaves in `main_v54`: its output window 4's write-backs folded over the whole grid. -/
def o_main_v54 (c : Dev nD) : Buf (Elt F) ((c : Thread nD τ).loc main_v54) :=
  (dat3 (fun c b => V7 m (outs3 m) c b) c).arrAt 4 cfg3.N
def outs4 : Outs (F := F) := (upd (outs3 m) 8 main_v54 (o_main_v54 m))
/-- What region 4 leaves in `main_v55`: its output window 4's write-backs folded over the whole grid. -/
def o_main_v55 (c : Dev nD) : Buf (Elt F) ((c : Thread nD τ).loc main_v55) :=
  (dat4 (fun c b => V8 m (outs4 m) c b) c).arrAt 4 cfg4.N
def outs5 : Outs (F := F) := (upd (outs4 m) 9 main_v55 (o_main_v55 m))
/-- What region 5 leaves in `main_v70`: its output window 9's write-backs folded over the whole grid. -/
def o_main_v70 (c : Dev nD) : Buf (Elt F) ((c : Thread nD τ).loc main_v70) :=
  (dat5 (fun c b => V14 m (outs5 m) c b) c).arrAt 9 cfg5.N
def outs6 : Outs (F := F) := (upd (outs5 m) 15 main_v70 (o_main_v70 m))
/-- What region 6 leaves in `main_v71`: its output window 9's write-backs folded over the whole grid. -/
def o_main_v71 (c : Dev nD) : Buf (Elt F) ((c : Thread nD τ).loc main_v71) :=
  (dat6 (fun c b => V15 m (outs6 m) c b) c).arrAt 9 cfg6.N
def outs7 : Outs (F := F) := (upd (outs6 m) 16 main_v71 (o_main_v71 m))

/-- The regions' leavings, all seven stages fixed. -/
abbrev outs : Outs (F := F) := outs7 m

/-! ### Later stages leave earlier slots alone -/

theorem outs7_6 (k : ℕ) (hk : k < 16) : Agree k (outs7 m) (outs6 m) := upd_agree _ _ _ _ k hk
theorem outs6_5 (k : ℕ) (hk : k < 15) : Agree k (outs6 m) (outs5 m) := upd_agree _ _ _ _ k hk
theorem outs5_4 (k : ℕ) (hk : k < 9) : Agree k (outs5 m) (outs4 m) := upd_agree _ _ _ _ k hk
theorem outs4_3 (k : ℕ) (hk : k < 8) : Agree k (outs4 m) (outs3 m) := upd_agree _ _ _ _ k hk
theorem outs3_2 (k : ℕ) (hk : k < 6) : Agree k (outs3 m) (outs2 m) :=
  ((upd_agree _ _ _ _ k hk).trans (upd_agree _ _ _ _ k hk)).trans (upd_agree _ _ _ _ k hk)
theorem outs2_1 (k : ℕ) (hk : k < 4) : Agree k (outs2 m) (outs1 m) := upd_agree _ _ _ _ k hk

theorem agree_6 : Agree 15 (outs m) (outs6 m) := outs7_6 m 15 (by omega)
theorem agree_5 : Agree 9 (outs m) (outs5 m) := (outs7_6 m 9 (by omega)).trans (outs6_5 m 9 (by omega))
theorem agree_4 : Agree 8 (outs m) (outs4 m) :=
  ((outs7_6 m 8 (by omega)).trans (outs6_5 m 8 (by omega))).trans (outs5_4 m 8 (by omega))
theorem agree_3 : Agree 6 (outs m) (outs3 m) :=
  (((outs7_6 m 6 (by omega)).trans (outs6_5 m 6 (by omega))).trans (outs5_4 m 6 (by omega))).trans (outs4_3 m 6 (by omega))
theorem agree_2 : Agree 4 (outs m) (outs2 m) :=
  ((((outs7_6 m 4 (by omega)).trans (outs6_5 m 4 (by omega))).trans (outs5_4 m 4 (by omega))).trans (outs4_3 m 4 (by omega))).trans
    (outs3_2 m 4 (by omega))
theorem agree_1 : Agree 2 (outs m) (outs1 m) :=
  (((((outs7_6 m 2 (by omega)).trans (outs6_5 m 2 (by omega))).trans (outs5_4 m 2 (by omega))).trans (outs4_3 m 2 (by omega))).trans
    (outs3_2 m 2 (by omega))).trans (outs2_1 m 2 (by omega))

/-! ### Each slot holds what its region leaves -/

theorem outs_v15 (c : Dev nD) : outs m 2 main_v15 c = o_main_v15 m c :=
  (agree_1 m 2 main_v15 c le_rfl).trans (by unfold outs1; exact upd_same _ _ _ _ c)
theorem outs_v19 (c : Dev nD) : outs m 4 main_v19 c = o_main_v19 m c :=
  (agree_2 m 4 main_v19 c le_rfl).trans (by unfold outs2; exact upd_same _ _ _ _ c)
theorem outs_v42_2 (c : Dev nD) : outs m 6 main_v42_2 c = o_main_v42_2 m c :=
  (agree_3 m 6 main_v42_2 c le_rfl).trans (by unfold outs3; exact upd_same _ _ _ _ c)
theorem outs_v42_1 (c : Dev nD) : outs m 6 main_v42_1 c = o_main_v42_1 m c :=
  (agree_3 m 6 main_v42_1 c le_rfl).trans (by
    unfold outs3; rw [upd_other _ _ _ _ _ _ _ (by decide)]; exact upd_same _ _ _ _ c)
theorem outs_v42_0 (c : Dev nD) : outs m 6 main_v42_0 c = o_main_v42_0 m c :=
  (agree_3 m 6 main_v42_0 c le_rfl).trans (by
    unfold outs3; rw [upd_other _ _ _ _ _ _ _ (by decide), upd_other _ _ _ _ _ _ _ (by decide)]; exact upd_same _ _ _ _ c)
theorem outs_v54 (c : Dev nD) : outs m 8 main_v54 c = o_main_v54 m c :=
  (agree_4 m 8 main_v54 c le_rfl).trans (by unfold outs4; exact upd_same _ _ _ _ c)
theorem outs_v55 (c : Dev nD) : outs m 9 main_v55 c = o_main_v55 m c :=
  (agree_5 m 9 main_v55 c le_rfl).trans (by unfold outs5; exact upd_same _ _ _ _ c)
theorem outs_v70 (c : Dev nD) : outs m 15 main_v70 c = o_main_v70 m c :=
  (agree_6 m 15 main_v70 c le_rfl).trans (by unfold outs6; exact upd_same _ _ _ _ c)
theorem outs_v71 (c : Dev nD) : outs m 16 main_v71 c = o_main_v71 m c := by
  unfold outs outs7; exact upd_same _ _ _ _ c

/-! ### The contents each region is entered with, under the final naming and under its own stage's -/

theorem entry1 : (fun (c : Dev nD) (b : Ref sig .tc) => V3 m (outs m) c b) = fun (c : Dev nD) (b : Ref sig .tc) => V3 m (outs1 m) c b := by
  funext c b; rw [V3_agree m (agree_1 m) c]
theorem entry2 : (fun (c : Dev nD) (b : Ref sig .tc) => V5 m (outs m) c b) = fun (c : Dev nD) (b : Ref sig .tc) => V5 m (outs2 m) c b := by
  funext c b; rw [V5_agree m (agree_2 m) c]
theorem entry3 : (fun (c : Dev nD) (b : Ref sig .tc) => V7 m (outs m) c b) = fun (c : Dev nD) (b : Ref sig .tc) => V7 m (outs3 m) c b := by
  funext c b; rw [V7_agree m (agree_3 m) c]
theorem entry4 : (fun (c : Dev nD) (b : Ref sig .tc) => V8 m (outs m) c b) = fun (c : Dev nD) (b : Ref sig .tc) => V8 m (outs4 m) c b := by
  funext c b; rw [V8_agree m (agree_4 m) c]
theorem entry5 : (fun (c : Dev nD) (b : Ref sig .tc) => V14 m (outs m) c b) = fun (c : Dev nD) (b : Ref sig .tc) => V14 m (outs5 m) c b := by
  funext c b; rw [V14_agree m (agree_5 m) c]
theorem entry6 : (fun (c : Dev nD) (b : Ref sig .tc) => V15 m (outs m) c b) = fun (c : Dev nD) (b : Ref sig .tc) => V15 m (outs6 m) c b := by
  funext c b; rw [V15_agree m (agree_6 m) c]

/-- THE SPECIFICATION OF `outs`: each slot is its region's output array after the whole grid, the region entered at
    the fold's contents under `outs` itself. -/
theorem spec_v15 (c : Dev nD) : (dat0 (fun c b => V1 m c b) c).arrAt 2 cfg0.N = outs m 2 main_v15 c := (outs_v15 m c).symm
theorem spec_v19 (c : Dev nD) : (dat1 (fun c b => V3 m (outs m) c b) c).arrAt 2 cfg1.N = outs m 4 main_v19 c := by
  rw [entry1 m]; exact (outs_v19 m c).symm
theorem spec_v42_0 (c : Dev nD) : (dat2 (fun c b => V5 m (outs m) c b) c).arrAt 7 cfg2.N = outs m 6 main_v42_0 c := by
  rw [entry2 m]; exact (outs_v42_0 m c).symm
theorem spec_v42_1 (c : Dev nD) : (dat2 (fun c b => V5 m (outs m) c b) c).arrAt 8 cfg2.N = outs m 6 main_v42_1 c := by
  rw [entry2 m]; exact (outs_v42_1 m c).symm
theorem spec_v42_2 (c : Dev nD) : (dat2 (fun c b => V5 m (outs m) c b) c).arrAt 9 cfg2.N = outs m 6 main_v42_2 c := by
  rw [entry2 m]; exact (outs_v42_2 m c).symm
theorem spec_v54 (c : Dev nD) : (dat3 (fun c b => V7 m (outs m) c b) c).arrAt 4 cfg3.N = outs m 8 main_v54 c := by
  rw [entry3 m]; exact (outs_v54 m c).symm
theorem spec_v55 (c : Dev nD) : (dat4 (fun c b => V8 m (outs m) c b) c).arrAt 4 cfg4.N = outs m 9 main_v55 c := by
  rw [entry4 m]; exact (outs_v55 m c).symm
theorem spec_v70 (c : Dev nD) : (dat5 (fun c b => V14 m (outs m) c b) c).arrAt 9 cfg5.N = outs m 15 main_v70 c := by
  rw [entry5 m]; exact (outs_v70 m c).symm
theorem spec_v71 (c : Dev nD) : (dat6 (fun c b => V15 m (outs m) c b) c).arrAt 9 cfg6.N = outs m 16 main_v71 c := by
  rw [entry6 m]; exact (outs_v71 m c).symm

/-! ### A slot read back off the fold right after its region -/

theorem V2_at (o : Outs (F := F)) (c : Dev nD) : V2 m o c main_v15 = o 2 main_v15 c := by
  simp only [V2, Function.update_self]
theorem V4_at (o : Outs (F := F)) (c : Dev nD) : V4 m o c main_v19 = o 4 main_v19 c := by
  simp only [V4, Function.update_self]
theorem V6_at2 (o : Outs (F := F)) (c : Dev nD) : V6 m o c main_v42_2 = o 6 main_v42_2 c := by
  simp only [V6, Function.update_self]
theorem V6_at1 (o : Outs (F := F)) (c : Dev nD) : V6 m o c main_v42_1 = o 6 main_v42_1 c := by
  simp only [V6, Function.update_of_ne (StableHlo.devRef_ne_of_ne (by decide) : (Proc.devRef .tc main_v42_1 : DevRef τ sig) ≠ Proc.devRef .tc main_v42_2),
    Function.update_self]
theorem V6_at0 (o : Outs (F := F)) (c : Dev nD) : V6 m o c main_v42_0 = o 6 main_v42_0 c := by
  simp only [V6, Function.update_of_ne (StableHlo.devRef_ne_of_ne (by decide) : (Proc.devRef .tc main_v42_0 : DevRef τ sig) ≠ Proc.devRef .tc main_v42_2),
    Function.update_of_ne (StableHlo.devRef_ne_of_ne (by decide) : (Proc.devRef .tc main_v42_0 : DevRef τ sig) ≠ Proc.devRef .tc main_v42_1),
    Function.update_self]
theorem V8_at (o : Outs (F := F)) (c : Dev nD) : V8 m o c main_v54 = o 8 main_v54 c := by
  simp only [V8, Function.update_self]
theorem V9_at (o : Outs (F := F)) (c : Dev nD) : V9 m o c main_v55 = o 9 main_v55 c := by
  simp only [V9, Function.update_self]
theorem V15_at (o : Outs (F := F)) (c : Dev nD) : V15 m o c main_v70 = o 15 main_v70 c := by
  simp only [V15, Function.update_self]
theorem V16_at (o : Outs (F := F)) (c : Dev nD) : V16 m o c main_v71 = o 16 main_v71 c := by
  simp only [V16, Function.update_self]

/-! ## The proof data family and what rides beside the buffers -/

/-- Every pipeline's proof data, each at its region's entry contents: a literal match on the pipeline's index. -/
def pdats : (p : Fin 7) → (c : Dev nD) → Dat τ (Elt F) Unit ℕ (UR sig nD τ) ℕ (cfgs p) c
  | ⟨0, _⟩ => fun c => dat0 (fun c b => V1 m c b) c
  | ⟨1, _⟩ => fun c => dat1 (fun c b => V3 m (outs m) c b) c
  | ⟨2, _⟩ => fun c => dat2 (fun c b => V5 m (outs m) c b) c
  | ⟨3, _⟩ => fun c => dat3 (fun c b => V7 m (outs m) c b) c
  | ⟨4, _⟩ => fun c => dat4 (fun c b => V8 m (outs m) c b) c
  | ⟨5, _⟩ => fun c => dat5 (fun c b => V14 m (outs m) c b) c
  | ⟨6, _⟩ => fun c => dat6 (fun c b => V15 m (outs m) c b) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- The same rest at every boundary. -/
def E : Fin 8 → Dev nD → sProp 𝕄 := fun _ c => R (F := F) c

/-! ### Region 0 -/

set_option maxHeartbeats 2000000 in
/-- At region 0's exit each of its arrays holds what the pipeline leaves: an input array its entry contents, which the
    exit contents keep; an output array its write-backs folded, which is what the exit contents name. -/
theorem hF0 (c : Dev nD) : ∀ w : Fin cfg0.W, (dat0 (fun (c : Dev nD) (b : Ref sig .tc) => V1 m c b) c).arrAt w cfg0.N = (fun b => V2 m (outs m) c b) (Pipeline.arrRef spec0 w)
  | ⟨0, _⟩ => (((dat0 (fun (c : Dev nD) (b : Ref sig .tc) => V1 m c b) c).arrAt_in 0 rfl _).trans (A_eq0 (fun (c : Dev nD) (b : Ref sig .tc) => V1 m c b) c 0)).trans (V2_of m (outs m) c main_arg0 (by decide)).symm
  | ⟨1, _⟩ => (((dat0 (fun (c : Dev nD) (b : Ref sig .tc) => V1 m c b) c).arrAt_in 1 rfl _).trans (A_eq0 (fun (c : Dev nD) (b : Ref sig .tc) => V1 m c b) c 1)).trans (V2_of m (outs m) c main_v1 (by decide)).symm
  | ⟨2, _⟩ => (spec_v15 m c).trans (V2_at m (outs m) c).symm
  | ⟨_ + 3, h⟩ => absurd h (Nat.not_lt.2 (Nat.le_add_left _ _))
/-- and every other buffer what it held at entry. -/
theorem hrest0 (c : Dev nD) : ∀ b, b ∉ Finset.univ.image (Pipeline.arrRef spec0) → (fun b => V2 m (outs m) c b) b = (fun b => V1 m c b) b :=
  fun b hb => V2_of m (outs m) c b (fun hmem => hb (by
    simp only [List.mem_cons, List.mem_nil_iff, or_false] at hmem
    rcases hmem with rfl
    · exact Finset.mem_image.mpr ⟨2, Finset.mem_univ _, rfl⟩))

set_option backward.isDefEq.respectTransparency.types false in
/-- Region 0 over the thread state: entered with every unscoped buffer at the fold's contents before it, left with them at
    the contents after it; its arrays split out and put back; the generator register into the class invariant and out;
    nothing owed; no semaphore of the kernel's own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (fun c b => V1 m c b) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V1 m c b) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 1 -/

set_option maxHeartbeats 2000000 in
/-- At region 1's exit each of its arrays holds what the pipeline leaves: an input array its entry contents, which the
    exit contents keep; an output array its write-backs folded, which is what the exit contents name. -/
theorem hF1 (c : Dev nD) : ∀ w : Fin cfg1.W, (dat1 (fun (c : Dev nD) (b : Ref sig .tc) => V3 m (outs m) c b) c).arrAt w cfg1.N = (fun b => V4 m (outs m) c b) (Pipeline.arrRef spec1 w)
  | ⟨0, _⟩ => (((dat1 (fun (c : Dev nD) (b : Ref sig .tc) => V3 m (outs m) c b) c).arrAt_in 0 rfl _).trans (A_eq1 (fun (c : Dev nD) (b : Ref sig .tc) => V3 m (outs m) c b) c 0)).trans (V4_of m (outs m) c main_arg1 (by decide)).symm
  | ⟨1, _⟩ => (((dat1 (fun (c : Dev nD) (b : Ref sig .tc) => V3 m (outs m) c b) c).arrAt_in 1 rfl _).trans (A_eq1 (fun (c : Dev nD) (b : Ref sig .tc) => V3 m (outs m) c b) c 1)).trans (V4_of m (outs m) c main_v2 (by decide)).symm
  | ⟨2, _⟩ => (spec_v19 m c).trans (V4_at m (outs m) c).symm
  | ⟨_ + 3, h⟩ => absurd h (Nat.not_lt.2 (Nat.le_add_left _ _))
/-- and every other buffer what it held at entry. -/
theorem hrest1 (c : Dev nD) : ∀ b, b ∉ Finset.univ.image (Pipeline.arrRef spec1) → (fun b => V4 m (outs m) c b) b = (fun b => V3 m (outs m) c b) b :=
  fun b hb => V4_of m (outs m) c b (fun hmem => hb (by
    simp only [List.mem_cons, List.mem_nil_iff, or_false] at hmem
    rcases hmem with rfl
    · exact Finset.mem_image.mpr ⟨2, Finset.mem_univ _, rfl⟩))

set_option backward.isDefEq.respectTransparency.types false in
/-- Region 1 over the thread state: entered with every unscoped buffer at the fold's contents before it, left with them at
    the contents after it; its arrays split out and put back; the generator register into the class invariant and out;
    nothing owed; no semaphore of the kernel's own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (fun c b => V3 m (outs m) c b) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => V3 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V3 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V3 m (outs m) c b) (fun b => V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 2 -/

set_option maxHeartbeats 2000000 in
/-- At region 2's exit each of its arrays holds what the pipeline leaves: an input array its entry contents, which the
    exit contents keep; an output array its write-backs folded, which is what the exit contents name. -/
theorem hF2 (c : Dev nD) : ∀ w : Fin cfg2.W, (dat2 (fun (c : Dev nD) (b : Ref sig .tc) => V5 m (outs m) c b) c).arrAt w cfg2.N = (fun b => V6 m (outs m) c b) (Pipeline.arrRef spec2 w)
  | ⟨0, _⟩ => (((dat2 (fun (c : Dev nD) (b : Ref sig .tc) => V5 m (outs m) c b) c).arrAt_in 0 rfl _).trans (A_eq2 (fun (c : Dev nD) (b : Ref sig .tc) => V5 m (outs m) c b) c 0)).trans (V6_of m (outs m) c main_v26 (by decide)).symm
  | ⟨1, _⟩ => (((dat2 (fun (c : Dev nD) (b : Ref sig .tc) => V5 m (outs m) c b) c).arrAt_in 1 rfl _).trans (A_eq2 (fun (c : Dev nD) (b : Ref sig .tc) => V5 m (outs m) c b) c 1)).trans (V6_of m (outs m) c main_v33 (by decide)).symm
  | ⟨2, _⟩ => (((dat2 (fun (c : Dev nD) (b : Ref sig .tc) => V5 m (outs m) c b) c).arrAt_in 2 rfl _).trans (A_eq2 (fun (c : Dev nD) (b : Ref sig .tc) => V5 m (outs m) c b) c 2)).trans (V6_of m (outs m) c main_v19 (by decide)).symm
  | ⟨3, _⟩ => (((dat2 (fun (c : Dev nD) (b : Ref sig .tc) => V5 m (outs m) c b) c).arrAt_in 3 rfl _).trans (A_eq2 (fun (c : Dev nD) (b : Ref sig .tc) => V5 m (outs m) c b) c 3)).trans (V6_of m (outs m) c main_v41 (by decide)).symm
  | ⟨4, _⟩ => (((dat2 (fun (c : Dev nD) (b : Ref sig .tc) => V5 m (outs m) c b) c).arrAt_in 4 rfl _).trans (A_eq2 (fun (c : Dev nD) (b : Ref sig .tc) => V5 m (outs m) c b) c 4)).trans (V6_of m (outs m) c main_v40 (by decide)).symm
  | ⟨5, _⟩ => (((dat2 (fun (c : Dev nD) (b : Ref sig .tc) => V5 m (outs m) c b) c).arrAt_in 5 rfl _).trans (A_eq2 (fun (c : Dev nD) (b : Ref sig .tc) => V5 m (outs m) c b) c 5)).trans (V6_of m (outs m) c main_cst (by decide)).symm
  | ⟨6, _⟩ => (((dat2 (fun (c : Dev nD) (b : Ref sig .tc) => V5 m (outs m) c b) c).arrAt_in 6 rfl _).trans (A_eq2 (fun (c : Dev nD) (b : Ref sig .tc) => V5 m (outs m) c b) c 6)).trans (V6_of m (outs m) c main_cst_0 (by decide)).symm
  | ⟨7, _⟩ => (spec_v42_0 m c).trans (V6_at0 m (outs m) c).symm
  | ⟨8, _⟩ => (spec_v42_1 m c).trans (V6_at1 m (outs m) c).symm
  | ⟨9, _⟩ => (spec_v42_2 m c).trans (V6_at2 m (outs m) c).symm
  | ⟨_ + 10, h⟩ => absurd h (Nat.not_lt.2 (Nat.le_add_left _ _))
/-- and every other buffer what it held at entry. -/
theorem hrest2 (c : Dev nD) : ∀ b, b ∉ Finset.univ.image (Pipeline.arrRef spec2) → (fun b => V6 m (outs m) c b) b = (fun b => V5 m (outs m) c b) b :=
  fun b hb => V6_of m (outs m) c b (fun hmem => hb (by
    simp only [List.mem_cons, List.mem_nil_iff, or_false] at hmem
    rcases hmem with rfl | rfl | rfl
    · exact Finset.mem_image.mpr ⟨7, Finset.mem_univ _, rfl⟩
    · exact Finset.mem_image.mpr ⟨8, Finset.mem_univ _, rfl⟩
    · exact Finset.mem_image.mpr ⟨9, Finset.mem_univ _, rfl⟩))

set_option backward.isDefEq.respectTransparency.types false in
/-- Region 2 over the thread state: entered with every unscoped buffer at the fold's contents before it, left with them at
    the contents after it; its arrays split out and put back; the generator register into the class invariant and out;
    nothing owed; no semaphore of the kernel's own. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (fun c b => V5 m (outs m) c b) c).loose
  hwaits := Pipeline.hwaits_of_owed_zero _ _ _ _ L lv 2 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (fun b => V5 m (outs m) c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => V5 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => V5 m (outs m) c b) (fun b => V6 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 3 -/

set_option maxHeartbeats 2000000 in
/-- At region 3's exit each of its arrays holds what the pipeline leaves: an input array its entry contents, which the
    exit contents keep; an output array its write-backs folded, which is what the exit contents name. -/
theorem hF3 (c : Dev nD) : ∀ w : Fin cfg3.W, (dat3 (fun (c : Dev nD) (b : Ref sig .tc) => V7 m (outs m) c b) c).arrAt w cfg3.N = (fun b => V8 m (outs m) c b) (Pipeline.arrRef spec3 w)
  | ⟨0, _⟩ => (((dat3 (fun (c : Dev nD) (b : Ref sig .tc) => V7 m (outs m) c b) c).arrAt_in 0 rfl _).trans (A_eq3 (fun (c : Dev nD) (b : Ref sig .tc) => V7 m (outs m) c b) c 0)).trans (V8_of m (outs m) c main_arg0 (by decide)).symm
  | ⟨1, _⟩ => (((dat3 (fun (c : Dev nD) (b : Ref sig .tc) => V7 m (outs m) c b) c).arrAt_in 1 rfl _).trans (A_eq3 (fun (c : Dev nD) (b : Ref sig .tc) => V7 m (outs m) c b) c 1)).trans (V8_of m (outs m) c main_v53 (by decide)).symm
  | ⟨2, _⟩ => (((dat3 (fun (c : Dev nD) (b : Ref sig .tc) => V7 m (outs m) c b) c).arrAt_in 2 rfl _).trans (A_eq3 (fun (c : Dev nD) (b : Ref sig .tc) => V7 m (outs m) c b) c 2)).trans (V8_of m (outs m) c main_v3 (by decide)).symm
  | ⟨3, _⟩ => (((dat3 (fun (c : Dev nD) (b : Ref sig .tc) => V7 m (outs m) c b) c).arrAt_in 3 rfl _).trans (A_eq3 (fun (c : Dev nD) (b : Ref sig .tc) => V7 m (outs m) c b) c 3)).trans (V8_of m (outs m) c main_v9 (by decide)).symm
  | ⟨4, _⟩ => (spec_v54 m c).trans (V8_at m (outs m) c).symm
  | ⟨_ + 5, h⟩ => absurd h (Nat.not_lt.2 (Nat.le_add_left _ _))
/-- and every other buffer what it held at entry. -/
theorem hrest3 (c : Dev nD) : ∀ b, b ∉ Finset.univ.image (Pipeline.arrRef spec3) → (fun b => V8 m (outs m) c b) b = (fun b => V7 m (outs m) c b) b :=
  fun b hb => V8_of m (outs m) c b (fun hmem => hb (by
    simp only [List.mem_cons, List.mem_nil_iff, or_false] at hmem
    rcases hmem with rfl
    · exact Finset.mem_image.mpr ⟨4, Finset.mem_univ _, rfl⟩))

set_option backward.isDefEq.respectTransparency.types false in
/-- Region 3 over the thread state: entered with every unscoped buffer at the fold's contents before it, left with them at
    the contents after it; its arrays split out and put back; the generator register into the class invariant and out;
    nothing owed; no semaphore of the kernel's own. -/
def reg3 : RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (fun c b => V7 m (outs m) c b) c).loose
  hwaits := Pipeline.hwaits_of_owed_zero _ _ _ _ L lv 3 fun _ _ => rfl
  pre c := iprop(StableHlo.held (c : Thread nD τ) (Pipeline.ucRefs τ sig) (V7 m (outs m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec3 c (fun b => V7 m (outs m) c b)
  hentry c := by
    rw [Pipeline.ownSems0_none]
    have hsplit := Pipeline.arrays_of_unscopedBufs (p := 3) (pcfgs (F := F)) adm (pdats m) launch3.win launch3.arr_whole c
      ((pdats m 3 c).share_full fun _ => rfl) (fun b => V7 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (fun b => V7 m (outs m) c b) (fun b => V8 m (outs m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 4 -/

set_option maxHeartbeats 2000000 in
/-- At region 4's exit each of its arrays holds what the pipeline leaves: an input array its entry contents, which the
    exit contents keep; an output array its write-backs folded, which is what the exit contents name. -/
theorem hF4 (c : Dev nD) : ∀ w : Fin cfg4.W, (dat4 (fun (c : Dev nD) (b : Ref sig .tc) => V8 m (outs m) c b) c).arrAt w cfg4.N = (fun b => V9 m (outs m) c b) (Pipeline.arrRef spec4 w)
  | ⟨0, _⟩ => (((dat4 (fun (c : Dev nD) (b : Ref sig .tc) => V8 m (outs m) c b) c).arrAt_in 0 rfl _).trans (A_eq4 (fun (c : Dev nD) (b : Ref sig .tc) => V8 m (outs m) c b) c 0)).trans (V9_of m (outs m) c main_arg1 (by decide)).symm
  | ⟨1, _⟩ => (((dat4 (fun (c : Dev nD) (b : Ref sig .tc) => V8 m (outs m) c b) c).arrAt_in 1 rfl _).trans (A_eq4 (fun (c : Dev nD) (b : Ref sig .tc) => V8 m (outs m) c b) c 1)).trans (V9_of m (outs m) c main_v42_0 (by decide)).symm
  | ⟨2, _⟩ => (((dat4 (fun (c : Dev nD) (b : Ref sig .tc) => V8 m (outs m) c b) c).arrAt_in 2 rfl _).trans (A_eq4 (fun (c : Dev nD) (b : Ref sig .tc) => V8 m (outs m) c b) c 2)).trans (V9_of m (outs m) c main_v4 (by decide)).symm
  | ⟨3, _⟩ => (((dat4 (fun (c : Dev nD) (b : Ref sig .tc) => V8 m (outs m) c b) c).arrAt_in 3 rfl _).trans (A_eq4 (fun (c : Dev nD) (b : Ref sig .tc) => V8 m (outs m) c b) c 3)).trans (V9_of m (outs m) c main_v10 (by decide)).symm
  | ⟨4, _⟩ => (spec_v55 m c).trans (V9_at m (outs m) c).symm
  | ⟨_ + 5, h⟩ => absurd h (Nat.not_lt.2 (Nat.le_add_left _ _))
/-- and every other buffer what it held at entry. -/
theorem hrest4 (c : Dev nD) : ∀ b, b ∉ Finset.univ.image (Pipeline.arrRef spec4) → (fun b => V9 m (outs m) c b) b = (fun b => V8 m (outs m) c b) b :=
  fun b hb => V9_of m (outs m) c b (fun hmem => hb (by
    simp only [List.mem_cons, List.mem_nil_iff, or_false] at hmem
    rcases hmem with rfl
    · exact Finset.mem_image.mpr ⟨4, Finset.mem_univ _, rfl⟩))

set_option backward.isDefEq.respectTransparency.types false in
/-- Region 4 over the thread state: entered with every unscoped buffer at the fold's contents before it, left with them at
    the contents after it; its arrays split out and put back; the generator register into the class invariant and out;
    nothing owed; no semaphore of the kernel's own. -/
def reg4 : RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (fun c b => V8 m (outs m) c b) c).loose
  hwaits := Pipeline.hwaits_of_owed_zero _ _ _ _ L lv 4 fun _ _ => rfl
  pre c := iprop(StableHlo.held (c : Thread nD τ) (Pipeline.ucRefs τ sig) (V8 m (outs m) c) ∗ R c)
  post c := iprop(StableHlo.held (c : Thread nD τ) (Pipeline.ucRefs τ sig) (V9 m (outs m) c) ∗ R c)
  X c := iprop(∃ r, prngReg c r)
  Y c := iprop(∃ r, prngReg c r)
  Z c := Pipeline.unscopedRest (Ix := Unit) (Name := ℕ) (U := UR sig nD τ) (Lvl := ℕ) spec4 c (fun b => V8 m (outs m) c b)
  hentry c := by
    rw [Pipeline.ownSems0_none]
    have hsplit := Pipeline.arrays_of_unscopedBufs (p := 4) (pcfgs (F := F)) adm (pdats m) launch4.win launch4.arr_whole c
      ((pdats m 4 c).share_full fun _ => rfl) (fun b => V8 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (fun b => V8 m (outs m) c b) (fun b => V9 m (outs m) c b) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 5 -/

set_option maxHeartbeats 2000000 in
/-- At region 5's exit each of its arrays holds what the pipeline leaves: an input array its entry contents, which the
    exit contents keep; an output array its write-backs folded, which is what the exit contents name. -/
theorem hF5 (c : Dev nD) : ∀ w : Fin cfg5.W, (dat5 (fun (c : Dev nD) (b : Ref sig .tc) => V14 m (outs m) c b) c).arrAt w cfg5.N = (fun b => V15 m (outs m) c b) (Pipeline.arrRef spec5 w)
  | ⟨0, _⟩ => (((dat5 (fun (c : Dev nD) (b : Ref sig .tc) => V14 m (outs m) c b) c).arrAt_in 0 rfl _).trans (A_eq5 (fun (c : Dev nD) (b : Ref sig .tc) => V14 m (outs m) c b) c 0)).trans (V15_of m (outs m) c main_v54 (by decide)).symm
  | ⟨1, _⟩ => (((dat5 (fun (c : Dev nD) (b : Ref sig .tc) => V14 m (outs m) c b) c).arrAt_in 1 rfl _).trans (A_eq5 (fun (c : Dev nD) (b : Ref sig .tc) => V14 m (outs m) c b) c 1)).trans (V15_of m (outs m) c main_v59 (by decide)).symm
  | ⟨2, _⟩ => (((dat5 (fun (c : Dev nD) (b : Ref sig .tc) => V14 m (outs m) c b) c).arrAt_in 2 rfl _).trans (A_eq5 (fun (c : Dev nD) (b : Ref sig .tc) => V14 m (outs m) c b) c 2)).trans (V15_of m (outs m) c main_v60 (by decide)).symm
  | ⟨3, _⟩ => (((dat5 (fun (c : Dev nD) (b : Ref sig .tc) => V14 m (outs m) c b) c).arrAt_in 3 rfl _).trans (A_eq5 (fun (c : Dev nD) (b : Ref sig .tc) => V14 m (outs m) c b) c 3)).trans (V15_of m (outs m) c main_v66 (by decide)).symm
  | ⟨4, _⟩ => (((dat5 (fun (c : Dev nD) (b : Ref sig .tc) => V14 m (outs m) c b) c).arrAt_in 4 rfl _).trans (A_eq5 (fun (c : Dev nD) (b : Ref sig .tc) => V14 m (outs m) c b) c 4)).trans (V15_of m (outs m) c main_v67 (by decide)).symm
  | ⟨5, _⟩ => (((dat5 (fun (c : Dev nD) (b : Ref sig .tc) => V14 m (outs m) c b) c).arrAt_in 5 rfl _).trans (A_eq5 (fun (c : Dev nD) (b : Ref sig .tc) => V14 m (outs m) c b) c 5)).trans (V15_of m (outs m) c main_v5 (by decide)).symm
  | ⟨6, _⟩ => (((dat5 (fun (c : Dev nD) (b : Ref sig .tc) => V14 m (outs m) c b) c).arrAt_in 6 rfl _).trans (A_eq5 (fun (c : Dev nD) (b : Ref sig .tc) => V14 m (outs m) c b) c 6)).trans (V15_of m (outs m) c main_v11 (by decide)).symm
  | ⟨7, _⟩ => (((dat5 (fun (c : Dev nD) (b : Ref sig .tc) => V14 m (outs m) c b) c).arrAt_in 7 rfl _).trans (A_eq5 (fun (c : Dev nD) (b : Ref sig .tc) => V14 m (outs m) c b) c 7)).trans (V15_of m (outs m) c main_v6 (by decide)).symm
  | ⟨8, _⟩ => (((dat5 (fun (c : Dev nD) (b : Ref sig .tc) => V14 m (outs m) c b) c).arrAt_in 8 rfl _).trans (A_eq5 (fun (c : Dev nD) (b : Ref sig .tc) => V14 m (outs m) c b) c 8)).trans (V15_of m (outs m) c main_v12 (by decide)).symm
  | ⟨9, _⟩ => (spec_v70 m c).trans (V15_at m (outs m) c).symm
  | ⟨_ + 10, h⟩ => absurd h (Nat.not_lt.2 (Nat.le_add_left _ _))
/-- and every other buffer what it held at entry. -/
theorem hrest5 (c : Dev nD) : ∀ b, b ∉ Finset.univ.image (Pipeline.arrRef spec5) → (fun b => V15 m (outs m) c b) b = (fun b => V14 m (outs m) c b) b :=
  fun b hb => V15_of m (outs m) c b (fun hmem => hb (by
    simp only [List.mem_cons, List.mem_nil_iff, or_false] at hmem
    rcases hmem with rfl
    · exact Finset.mem_image.mpr ⟨9, Finset.mem_univ _, rfl⟩))

set_option backward.isDefEq.respectTransparency.types false in
/-- Region 5 over the thread state: entered with every unscoped buffer at the fold's contents before it, left with them at
    the contents after it; its arrays split out and put back; the generator register into the class invariant and out;
    nothing owed; no semaphore of the kernel's own. -/
def reg5 : RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (fun c b => V14 m (outs m) c b) c).loose
  hwaits := Pipeline.hwaits_of_owed_zero _ _ _ _ L lv 5 fun _ _ => rfl
  pre c := iprop(StableHlo.held (c : Thread nD τ) (Pipeline.ucRefs τ sig) (V14 m (outs m) c) ∗ R c)
  post c := iprop(StableHlo.held (c : Thread nD τ) (Pipeline.ucRefs τ sig) (V15 m (outs m) c) ∗ R c)
  X c := iprop(∃ r, prngReg c r)
  Y c := iprop(∃ r, prngReg c r)
  Z c := Pipeline.unscopedRest (Ix := Unit) (Name := ℕ) (U := UR sig nD τ) (Lvl := ℕ) spec5 c (fun b => V14 m (outs m) c b)
  hentry c := by
    rw [Pipeline.ownSems0_none]
    have hsplit := Pipeline.arrays_of_unscopedBufs (p := 5) (pcfgs (F := F)) adm (pdats m) launch5.win launch5.arr_whole c
      ((pdats m 5 c).share_full fun _ => rfl) (fun b => V14 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (fun b => V14 m (outs m) c b) (fun b => V15 m (outs m) c b) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 6 -/

set_option maxHeartbeats 2000000 in
/-- At region 6's exit each of its arrays holds what the pipeline leaves: an input array its entry contents, which the
    exit contents keep; an output array its write-backs folded, which is what the exit contents name. -/
theorem hF6 (c : Dev nD) : ∀ w : Fin cfg6.W, (dat6 (fun (c : Dev nD) (b : Ref sig .tc) => V15 m (outs m) c b) c).arrAt w cfg6.N = (fun b => V16 m (outs m) c b) (Pipeline.arrRef spec6 w)
  | ⟨0, _⟩ => (((dat6 (fun (c : Dev nD) (b : Ref sig .tc) => V15 m (outs m) c b) c).arrAt_in 0 rfl _).trans (A_eq6 (fun (c : Dev nD) (b : Ref sig .tc) => V15 m (outs m) c b) c 0)).trans (V16_of m (outs m) c main_v55 (by decide)).symm
  | ⟨1, _⟩ => (((dat6 (fun (c : Dev nD) (b : Ref sig .tc) => V15 m (outs m) c b) c).arrAt_in 1 rfl _).trans (A_eq6 (fun (c : Dev nD) (b : Ref sig .tc) => V15 m (outs m) c b) c 1)).trans (V16_of m (outs m) c main_v64 (by decide)).symm
  | ⟨2, _⟩ => (((dat6 (fun (c : Dev nD) (b : Ref sig .tc) => V15 m (outs m) c b) c).arrAt_in 2 rfl _).trans (A_eq6 (fun (c : Dev nD) (b : Ref sig .tc) => V15 m (outs m) c b) c 2)).trans (V16_of m (outs m) c main_v65 (by decide)).symm
  | ⟨3, _⟩ => (((dat6 (fun (c : Dev nD) (b : Ref sig .tc) => V15 m (outs m) c b) c).arrAt_in 3 rfl _).trans (A_eq6 (fun (c : Dev nD) (b : Ref sig .tc) => V15 m (outs m) c b) c 3)).trans (V16_of m (outs m) c main_v68 (by decide)).symm
  | ⟨4, _⟩ => (((dat6 (fun (c : Dev nD) (b : Ref sig .tc) => V15 m (outs m) c b) c).arrAt_in 4 rfl _).trans (A_eq6 (fun (c : Dev nD) (b : Ref sig .tc) => V15 m (outs m) c b) c 4)).trans (V16_of m (outs m) c main_v69 (by decide)).symm
  | ⟨5, _⟩ => (((dat6 (fun (c : Dev nD) (b : Ref sig .tc) => V15 m (outs m) c b) c).arrAt_in 5 rfl _).trans (A_eq6 (fun (c : Dev nD) (b : Ref sig .tc) => V15 m (outs m) c b) c 5)).trans (V16_of m (outs m) c main_v7 (by decide)).symm
  | ⟨6, _⟩ => (((dat6 (fun (c : Dev nD) (b : Ref sig .tc) => V15 m (outs m) c b) c).arrAt_in 6 rfl _).trans (A_eq6 (fun (c : Dev nD) (b : Ref sig .tc) => V15 m (outs m) c b) c 6)).trans (V16_of m (outs m) c main_v13 (by decide)).symm
  | ⟨7, _⟩ => (((dat6 (fun (c : Dev nD) (b : Ref sig .tc) => V15 m (outs m) c b) c).arrAt_in 7 rfl _).trans (A_eq6 (fun (c : Dev nD) (b : Ref sig .tc) => V15 m (outs m) c b) c 7)).trans (V16_of m (outs m) c main_v8 (by decide)).symm
  | ⟨8, _⟩ => (((dat6 (fun (c : Dev nD) (b : Ref sig .tc) => V15 m (outs m) c b) c).arrAt_in 8 rfl _).trans (A_eq6 (fun (c : Dev nD) (b : Ref sig .tc) => V15 m (outs m) c b) c 8)).trans (V16_of m (outs m) c main_v14 (by decide)).symm
  | ⟨9, _⟩ => (spec_v71 m c).trans (V16_at m (outs m) c).symm
  | ⟨_ + 10, h⟩ => absurd h (Nat.not_lt.2 (Nat.le_add_left _ _))
/-- and every other buffer what it held at entry. -/
theorem hrest6 (c : Dev nD) : ∀ b, b ∉ Finset.univ.image (Pipeline.arrRef spec6) → (fun b => V16 m (outs m) c b) b = (fun b => V15 m (outs m) c b) b :=
  fun b hb => V16_of m (outs m) c b (fun hmem => hb (by
    simp only [List.mem_cons, List.mem_nil_iff, or_false] at hmem
    rcases hmem with rfl
    · exact Finset.mem_image.mpr ⟨9, Finset.mem_univ _, rfl⟩))

set_option backward.isDefEq.respectTransparency.types false in
/-- Region 6 over the thread state: entered with every unscoped buffer at the fold's contents before it, left with them at
    the contents after it; its arrays split out and put back; the generator register into the class invariant and out;
    nothing owed; no semaphore of the kernel's own. -/
def reg6 : RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (fun c b => V15 m (outs m) c b) c).loose
  hwaits := Pipeline.hwaits_of_owed_zero _ _ _ _ L lv 6 fun _ _ => rfl
  pre c := iprop(StableHlo.held (c : Thread nD τ) (Pipeline.ucRefs τ sig) (V15 m (outs m) c) ∗ R c)
  post c := iprop(StableHlo.held (c : Thread nD τ) (Pipeline.ucRefs τ sig) (V16 m (outs m) c) ∗ R c)
  X c := iprop(∃ r, prngReg c r)
  Y c := iprop(∃ r, prngReg c r)
  Z c := Pipeline.unscopedRest (Ix := Unit) (Name := ℕ) (U := UR sig nD τ) (Lvl := ℕ) spec6 c (fun b => V15 m (outs m) c b)
  hentry c := by
    rw [Pipeline.ownSems0_none]
    have hsplit := Pipeline.arrays_of_unscopedBufs (p := 6) (pcfgs (F := F)) adm (pdats m) launch6.win launch6.arr_whole c
      ((pdats m 6 c).share_full fun _ => rfl) (fun b => V15 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (fun b => V15 m (outs m) c b) (fun b => V16 m (outs m) c b) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch: the user algebra's initial resource, and the rest made on every core at once -/

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- On one core: the launch's dues and generator register make the rest that rides along. -/
theorem hE0c (c : Dev nD) : (iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄)) : sProp 𝕄)
    ⊢ (E (F := F) 0 c : sProp 𝕄) := by
  unfold E
  iintro ⟨-, HO, -, Hp, -⟩
  isplitl [Hp]; · iexists _; iexact Hp
  iexists ∅; iexact HO

theorem hE0 : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L lv)
    ⊢ (|={Set.univ}=> bigSep Finset.univ (E (F := F) 0) : sProp 𝕄) := by
  have hmono : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)))
      ⊢ (bigSep Finset.univ (E (F := F) 0) : sProp 𝕄) :=
    bigSep_mono fun c _ => hE0c (F := F) ρ c
  iintro ⟨H, -⟩
  imodintro
  iapply hmono
  iexact H

theorem hE7 (c : Dev nD) : E (F := F) 7 c ⊢ (iprop(∃ W, owes (c : Thread nD τ) (0 : CellTallies nD τ sig Unit) W) : sProp 𝕄) := by
  unfold E; iintro ⟨-, HO⟩; iexact HO

/-! ## The frame -/

set_option backward.isDefEq.respectTransparency.types false in
/-- THE FRAME of the kernel program at any float instance: from any memory with zero counters every weakly fair execution
    of @main terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  frame_cond m emb₁ () 𝒱₀ L lv (fun _ _ => rfl) ρ (outs m) (pdats m) 0 (fun _ => iprop(emp))
    (initOf (Pipeline.cells cfgs cellOf_inj) (Pipeline.launchToks cfgs cellOf_inj)) (hu₀ (F := F)) E (hE0 ρ) hE7
    (reg0 m) (fun _ => .rfl) (fun _ => .rfl)
    (reg1 m) (fun _ => .rfl) (fun _ => .rfl)
    (reg2 m) (fun _ => .rfl) (fun _ => .rfl)
    (reg3 m) (fun _ => .rfl) (fun _ => .rfl)
    (reg4 m) (fun _ => .rfl) (fun _ => .rfl)
    (reg5 m) (fun _ => .rfl) (fun _ => .rfl)
    (reg6 m) (fun _ => .rfl) (fun _ => .rfl)

/-! ## The whole final memory -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: every weakly fair execution of @main terminates, nothing faulting, with every unscoped buffer of every core at the
    last fold of the program's operations over the launch memory, the regions' leavings at `outs`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = V21 m (outs m) c b) := by
  refine Pipeline.θ_run_regions_kit_dev (pcfgs (F := F)) adm (pdats m) () cellOf_inj emb₁ defs₀ 𝒱₀ L lv m ρ main
    (segs m (outs m) 𝒱₀ L lv E () (pdats m) (reg0 m) (reg1 m) (reg2 m) (reg3 m) (reg4 m) (reg5 m) (reg6 m))
    (fun c Q => by
      rewrite [main_chain c, Seg.run_eq_chain,
        show (segs m (outs m) 𝒱₀ L lv E () (pdats m) (reg0 m) (reg1 m) (reg2 m) (reg3 m) (reg4 m) (reg5 m) (reg6 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          Prog.lift (.customCall (Pipeline.entry 4) ()),
          StableHlo.seq hostOps5,
          StableHlo.seq hostOps5_1,
          StableHlo.seq hostOps5_2,
          StableHlo.seq hostOps5_3,
          StableHlo.seq hostOps5_4,
          Prog.lift (.customCall (Pipeline.entry 5) ()),
          Prog.lift (.customCall (Pipeline.entry 6) ()),
          StableHlo.seq hostOps7,
          StableHlo.seq hostOps7_1,
          StableHlo.seq hostOps7_2,
          StableHlo.seq hostOps7_3,
          StableHlo.seq hostOps7_4 ] from rfl]
      exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj)) (hu₀ (F := F))
    (T₀ := fun c => iprop(StableHlo.held (c : Thread nD τ) (Pipeline.ucRefs τ sig) (V0 m c) ∗ E 0 c))
    (Tₙ := fun c => StableHlo.held (c : Thread nD τ) (Pipeline.ucRefs τ sig) (V21 m (outs m) c))
    (hch := fun c => ⟨.rfl, .rfl, .rfl, .rfl, .rfl, .rfl, .rfl, .rfl, .rfl, .rfl, .rfl, .rfl, .rfl, .rfl, .rfl, .rfl, .rfl, .rfl, .rfl, .rfl, .rfl, sep_mono .rfl (hE7 c)⟩)
    (hinit := ?_) (QY := fun c s => ∀ b ∈ Pipeline.ucRefs τ sig, s.mem ((c : Thread nD τ).1, b) = V21 m (outs m) c b)
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 (F := F) ρ) $$ [Hr Hla] with HE
    · isplitl [Hr]; · iexact Hr
      iexact Hla
    imodintro
    rw [bigSep_sep']
    isplitl [Hh]; · iexact Hh
    iexact HE
  · unfold StableHlo.held
    iintro ⟨Hh, HSI⟩
    imodintro
    iapply (pointsTo_read_all (Pipeline.ucRefs τ sig) (fun b => (((c : Thread nD τ)).1, b)) (V21 m (outs m) c) s')
    isplitl [Hh] <;> iassumption

end Cert.KernelIdeal.Hand

end
-- ==== Proof.Ref.Ops.lean ====
/-
  The reference program read as eleven consecutive lists of array operations, a called function's
  operations standing in the caller's list over the buffers of that call; the buffer contents
  `RV k` after the first `k` lists; and, per list, the references it writes, so that every other
  reference holds after the list what it held before.
-/
import proofs.«101045_j34351148433892_1_alg».proof.Proof.Gen.ReferenceIdeal
import Idealize.ShloMosaic.Lib.StableHlo.Run

set_option maxRecDepth 4096

open Idealize.ShloMosaic in
/-- One operation writes its result reference, and that reference is in the list. -/
macro "ref_writes_step" : tactic =>
  `(tactic|
      (simp only [StableHlo.nullary_writes, StableHlo.unary_writes, StableHlo.binary_writes,
         StableHlo.ternary_writes, StableHlo.reshape_writes, Finset.singleton_subset_iff, List.mem_toFinset];
       exact List.mem_map_of_mem (by decide)))

noncomputable section

namespace Cert.ReferenceIdeal.Hand

open Idealize.ShloMosaic Idealize.ShloMosaic.TcCoe
open Idealize.SL.Sem
open Cert.ReferenceIdeal Cert.ReferenceIdeal.Gen

variable {F : FTy → Type} [FloatOps F]

/-! ## The operations -/

/-- The node projections Q, K, V and the edge projection, each followed by its view with the heads split (%0 … %7). -/
abbrev ops0 : List (HloOp τ sig (Elt F)) :=
  [ StableHlo.binary main_arg0 main_arg5 main_v0 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.reshape main_v0 main_v1 rfl shapeCasts_S50000x128_S50000x8x16,
    StableHlo.binary main_arg0 main_arg6 main_v2 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.reshape main_v2 main_v3 rfl shapeCasts_S50000x128_S50000x8x16,
    StableHlo.binary main_arg0 main_arg7 main_v4 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.reshape main_v4 main_v5 rfl shapeCasts_S50000x128_S50000x8x16,
    StableHlo.binary main_arg1 main_arg8 main_v6 ((fun l r => Host.dotGeneral dot_S500000x128_S128x128_S500000x128_1_0_0_1_n_n none l r) : (⟨S500000x128, .f32⟩ : BufTy).Contents (Elt F) → (⟨S128x128, .f32⟩ : BufTy).Contents (Elt F) → (⟨S500000x128, .f32⟩ : BufTy).Contents (Elt F)),
    StableHlo.reshape main_v6 main_v7 rfl shapeCasts_S500000x128_S500000x8x16 ]
/-- The references the operations of `ops0` write. -/
abbrev ops0_W : List (Ref sig .tc) := [main_v0, main_v1, main_v2, main_v3, main_v4, main_v5, main_v6, main_v7]
theorem ops0_writes : (ops0 : List (HloOp τ sig (Elt F))).Forall fun op => op.writes ⊆ (ops0_W.map (Proc.devRef (τ := τ) .tc)).toFinset := by
  simp only [List.Forall]
  exact ⟨by ref_writes_step, by ref_writes_step, by ref_writes_step, by ref_writes_step, by ref_writes_step, by ref_writes_step, by ref_writes_step, by ref_writes_step⟩

/-- Per edge: the gathered keys and queries, their product scaled and weighted by the edge projection (the edge output), its sum over each head clamped to [-5, 5] and exponentiated (the scores), and the gathered values weighted by the envelope and the scores (the messages) (%c … %41). -/
abbrev ops1 : List (HloOp τ sig (Elt F)) :=
  [ StableHlo.nullary main_c (constantI S_ 32 0#32),
    StableHlo.unary main_c main_v8 (broadcastInDim S500000 ![] bcast_S_S500000 : (⟨S_, .i32⟩ : BufTy).Contents (Elt F) → (⟨S500000, .i32⟩ : BufTy).Contents (Elt F)),
    StableHlo.binary main_arg3 main_v8 main_v9 (cmpi .slt : (⟨S500000, .i32⟩ : BufTy).Contents (Elt F) → (⟨S500000, .i32⟩ : BufTy).Contents (Elt F) → (⟨S500000, .i1⟩ : BufTy).Contents (Elt F)),
    StableHlo.nullary main_c_0 (constantI S_ 32 50000#32),
    StableHlo.unary main_c_0 main_v10 (broadcastInDim S500000 ![] bcast_S_S500000 : (⟨S_, .i32⟩ : BufTy).Contents (Elt F) → (⟨S500000, .i32⟩ : BufTy).Contents (Elt F)),
    StableHlo.binary main_arg3 main_v10 main_v11 (addi : (⟨S500000, .i32⟩ : BufTy).Contents (Elt F) → (⟨S500000, .i32⟩ : BufTy).Contents (Elt F) → (⟨S500000, .i32⟩ : BufTy).Contents (Elt F)),
    StableHlo.ternary main_v9 main_v11 main_arg3 main_v12 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v12 main_v13 (broadcastInDim S500000x1 ![0] bcast_S500000_S500000x1_0 : (⟨S500000, .i32⟩ : BufTy).Contents (Elt F) → (⟨S500000x1, .i32⟩ : BufTy).Contents (Elt F)),
    StableHlo.binary main_v3 main_v13 main_v14 ((fun x i => Host.gather gather_S50000x8x16_S500000x1_S500000x8x16_12_0_n_n_0_1_1816 x i) : (⟨S50000x8x16, .f32⟩ : BufTy).Contents (Elt F) → (⟨S500000x1, .i32⟩ : BufTy).Contents (Elt F) → (⟨S500000x8x16, .f32⟩ : BufTy).Contents (Elt F)),
    StableHlo.nullary main_c_1 (constantI S_ 32 0#32),
    StableHlo.unary main_c_1 main_v15 (broadcastInDim S500000 ![] bcast_S_S500000 : (⟨S_, .i32⟩ : BufTy).Contents (Elt F) → (⟨S500000, .i32⟩ : BufTy).Contents (Elt F)),
    StableHlo.binary main_arg4 main_v15 main_v16 (cmpi .slt : (⟨S500000, .i32⟩ : BufTy).Contents (Elt F) → (⟨S500000, .i32⟩ : BufTy).Contents (Elt F) → (⟨S500000, .i1⟩ : BufTy).Contents (Elt F)),
    StableHlo.nullary main_c_2 (constantI S_ 32 50000#32),
    StableHlo.unary main_c_2 main_v17 (broadcastInDim S500000 ![] bcast_S_S500000 : (⟨S_, .i32⟩ : BufTy).Contents (Elt F) → (⟨S500000, .i32⟩ : BufTy).Contents (Elt F)),
    StableHlo.binary main_arg4 main_v17 main_v18 (addi : (⟨S500000, .i32⟩ : BufTy).Contents (Elt F) → (⟨S500000, .i32⟩ : BufTy).Contents (Elt F) → (⟨S500000, .i32⟩ : BufTy).Contents (Elt F)),
    StableHlo.ternary main_v16 main_v18 main_arg4 main_v19 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v19 main_v20 (broadcastInDim S500000x1 ![0] bcast_S500000_S500000x1_0 : (⟨S500000, .i32⟩ : BufTy).Contents (Elt F) → (⟨S500000x1, .i32⟩ : BufTy).Contents (Elt F)),
    StableHlo.binary main_v1 main_v20 main_v21 ((fun x i => Host.gather gather_S50000x8x16_S500000x1_S500000x8x16_12_0_n_n_0_1_1816 x i) : (⟨S50000x8x16, .f32⟩ : BufTy).Contents (Elt F) → (⟨S500000x1, .i32⟩ : BufTy).Contents (Elt F) → (⟨S500000x8x16, .f32⟩ : BufTy).Contents (Elt F)),
    StableHlo.binary main_v14 main_v21 main_v22 (mulf : (⟨S500000x8x16, .f32⟩ : BufTy).Contents (Elt F) → (⟨S500000x8x16, .f32⟩ : BufTy).Contents (Elt F) → (⟨S500000x8x16, .f32⟩ : BufTy).Contents (Elt F)),
    StableHlo.nullary main_cst (constant S_ .f32 0x40800000#32),
    StableHlo.unary main_cst main_v23 (broadcastInDim S500000x8x16 ![] bcast_S_S500000x8x16 : (⟨S_, .f32⟩ : BufTy).Contents (Elt F) → (⟨S500000x8x16, .f32⟩ : BufTy).Contents (Elt F)),
    StableHlo.binary main_v22 main_v23 main_v24 (Host.divf : (⟨S500000x8x16, .f32⟩ : BufTy).Contents (Elt F) → (⟨S500000x8x16, .f32⟩ : BufTy).Contents (Elt F) → (⟨S500000x8x16, .f32⟩ : BufTy).Contents (Elt F)),
    StableHlo.binary main_v24 main_v7 main_v25 (mulf : (⟨S500000x8x16, .f32⟩ : BufTy).Contents (Elt F) → (⟨S500000x8x16, .f32⟩ : BufTy).Contents (Elt F) → (⟨S500000x8x16, .f32⟩ : BufTy).Contents (Elt F)),
    StableHlo.reshape main_v25 main_v26 rfl shapeCasts_S500000x8x16_S500000x128,
    StableHlo.nullary main_cst_3 (constant S_ .f32 0x00000000#32),
    StableHlo.binary main_v25 main_cst_3 main_v27 ((fun x v => Host.reduceAdd x v reducesTo_S500000x8x16_S500000x8_d2 h_S_) : (⟨S500000x8x16, .f32⟩ : BufTy).Contents (Elt F) → (⟨S_, .f32⟩ : BufTy).Contents (Elt F) → (⟨S500000x8, .f32⟩ : BufTy).Contents (Elt F)),
    StableHlo.unary main_v27 main_v28 (broadcastInDim S500000x8x1 ![0, 1] bcast_S500000x8_S500000x8x1_0_1 : (⟨S500000x8, .f32⟩ : BufTy).Contents (Elt F) → (⟨S500000x8x1, .f32⟩ : BufTy).Contents (Elt F)),
    StableHlo.nullary main_cst_4 (constant S_ .f32 0xC0A00000#32),
    StableHlo.nullary main_cst_5 (constant S_ .f32 0x40A00000#32),
    StableHlo.TRef.unary (.of main_cst_4 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S500000x8x1, .f32⟩) (broadcastInDim S500000x8x1 ![] bcast_S_S500000x8x1),
    StableHlo.TRef.binary (.of main_call0_v1 : StableHlo.TRef sig ⟨S500000x8x1, .f32⟩) (.of main_v28 : StableHlo.TRef sig ⟨S500000x8x1, .f32⟩) (.of main_call0_v2 : StableHlo.TRef sig ⟨S500000x8x1, .f32⟩) maximumf,
    StableHlo.TRef.unary (.of main_cst_5 : StableHlo.TRef sig ⟨S_, .f32⟩) (.of main_call0_v3 : StableHlo.TRef sig ⟨S_, .f32⟩) id,
    StableHlo.TRef.unary (.of main_call0_v3 : StableHlo.TRef sig ⟨S_, .f32⟩) (.of main_call0_v4 : StableHlo.TRef sig ⟨S500000x8x1, .f32⟩) (broadcastInDim S500000x8x1 ![] bcast_S_S500000x8x1),
    StableHlo.TRef.binary (.of main_call0_v4 : StableHlo.TRef sig ⟨S500000x8x1, .f32⟩) (.of main_call0_v2 : StableHlo.TRef sig ⟨S500000x8x1, .f32⟩) (.of main_v29 : StableHlo.TRef sig ⟨S500000x8x1, .f32⟩) minimumf,
    StableHlo.unary main_v29 main_v30 (Host.exp : (⟨S500000x8x1, .f32⟩ : BufTy).Contents (Elt F) → (⟨S500000x8x1, .f32⟩ : BufTy).Contents (Elt F)),
    StableHlo.nullary main_c_6 (constantI S_ 32 0#32),
    StableHlo.unary main_c_6 main_v31 (broadcastInDim S500000 ![] bcast_S_S500000 : (⟨S_, .i32⟩ : BufTy).Contents (Elt F) → (⟨S500000, .i32⟩ : BufTy).Contents (Elt F)),
    StableHlo.binary main_arg3 main_v31 main_v32 (cmpi .slt : (⟨S500000, .i32⟩ : BufTy).Contents (Elt F) → (⟨S500000, .i32⟩ : BufTy).Contents (Elt F) → (⟨S500000, .i1⟩ : BufTy).Contents (Elt F)),
    StableHlo.nullary main_c_7 (constantI S_ 32 50000#32),
    StableHlo.unary main_c_7 main_v33 (broadcastInDim S500000 ![] bcast_S_S500000 : (⟨S_, .i32⟩ : BufTy).Contents (Elt F) → (⟨S500000, .i32⟩ : BufTy).Contents (Elt F)),
    StableHlo.binary main_arg3 main_v33 main_v34 (addi : (⟨S500000, .i32⟩ : BufTy).Contents (Elt F) → (⟨S500000, .i32⟩ : BufTy).Contents (Elt F) → (⟨S500000, .i32⟩ : BufTy).Contents (Elt F)),
    StableHlo.ternary main_v32 main_v34 main_arg3 main_v35 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v35 main_v36 (broadcastInDim S500000x1 ![0] bcast_S500000_S500000x1_0 : (⟨S500000, .i32⟩ : BufTy).Contents (Elt F) → (⟨S500000x1, .i32⟩ : BufTy).Contents (Elt F)),
    StableHlo.binary main_v5 main_v36 main_v37 ((fun x i => Host.gather gather_S50000x8x16_S500000x1_S500000x8x16_12_0_n_n_0_1_1816 x i) : (⟨S50000x8x16, .f32⟩ : BufTy).Contents (Elt F) → (⟨S500000x1, .i32⟩ : BufTy).Contents (Elt F) → (⟨S500000x8x16, .f32⟩ : BufTy).Contents (Elt F)),
    StableHlo.unary main_arg2 main_v38 (broadcastInDim S500000x8x16 ![0, 1, 2] bcast_S500000x1x1_S500000x8x16_0_1_2 : (⟨S500000x1x1, .f32⟩ : BufTy).Contents (Elt F) → (⟨S500000x8x16, .f32⟩ : BufTy).Contents (Elt F)),
    StableHlo.binary main_v37 main_v38 main_v39 (mulf : (⟨S500000x8x16, .f32⟩ : BufTy).Contents (Elt F) → (⟨S500000x8x16, .f32⟩ : BufTy).Contents (Elt F) → (⟨S500000x8x16, .f32⟩ : BufTy).Contents (Elt F)),
    StableHlo.unary main_v30 main_v40 (broadcastInDim S500000x8x16 ![0, 1, 2] bcast_S500000x8x1_S500000x8x16_0_1_2 : (⟨S500000x8x1, .f32⟩ : BufTy).Contents (Elt F) → (⟨S500000x8x16, .f32⟩ : BufTy).Contents (Elt F)),
    StableHlo.binary main_v39 main_v40 main_v41 (mulf : (⟨S500000x8x16, .f32⟩ : BufTy).Contents (Elt F) → (⟨S500000x8x16, .f32⟩ : BufTy).Contents (Elt F) → (⟨S500000x8x16, .f32⟩ : BufTy).Contents (Elt F)) ]
/-- The references the operations of `ops1` write. -/
abbrev ops1_W : List (Ref sig .tc) := [main_c, main_v8, main_v9, main_c_0, main_v10, main_v11, main_v12, main_v13, main_v14, main_c_1, main_v15, main_v16, main_c_2, main_v17, main_v18, main_v19, main_v20, main_v21, main_v22, main_cst, main_v23, main_v24, main_v25, main_v26, main_cst_3, main_v27, main_v28, main_cst_4, main_cst_5, main_call0_v0, main_call0_v1, main_call0_v2, main_call0_v3, main_call0_v4, main_v29, main_v30, main_c_6, main_v31, main_v32, main_c_7, main_v33, main_v34, main_v35, main_v36, main_v37, main_v38, main_v39, main_v40, main_v41]
theorem ops1_writes : (ops1 : List (HloOp τ sig (Elt F))).Forall fun op => op.writes ⊆ (ops1_W.map (Proc.devRef (τ := τ) .tc)).toFinset := by
  simp only [List.Forall]
  exact ⟨by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step⟩

/-- Per node: the messages and the scores summed over the incoming edges, and the quotient of the first by the second plus a small constant, seen with the heads merged (%cst_8 … %52). -/
abbrev ops2 : List (HloOp τ sig (Elt F)) :=
  [ StableHlo.nullary main_cst_8 (constant S_ .f32 0x00000000#32),
    StableHlo.unary main_cst_8 main_v42 (broadcastInDim S50000x8x16 ![] bcast_S_S50000x8x16 : (⟨S_, .f32⟩ : BufTy).Contents (Elt F) → (⟨S50000x8x16, .f32⟩ : BufTy).Contents (Elt F)),
    StableHlo.unary main_arg4 main_v43 (broadcastInDim S500000x1 ![0] bcast_S500000_S500000x1_0 : (⟨S500000, .i32⟩ : BufTy).Contents (Elt F) → (⟨S500000x1, .i32⟩ : BufTy).Contents (Elt F)),
    StableHlo.ternary main_v42 main_v43 main_v41 main_v44 ((fun x i u => Host.scatterAdd scatter_S50000x8x16_S500000x1_S500000x8x16_12_0_0_1 x i u) : (⟨S50000x8x16, .f32⟩ : BufTy).Contents (Elt F) → (⟨S500000x1, .i32⟩ : BufTy).Contents (Elt F) → (⟨S500000x8x16, .f32⟩ : BufTy).Contents (Elt F) → (⟨S50000x8x16, .f32⟩ : BufTy).Contents (Elt F)),
    StableHlo.nullary main_cst_9 (constant S_ .f32 0x00000000#32),
    StableHlo.unary main_cst_9 main_v45 (broadcastInDim S50000x8x1 ![] bcast_S_S50000x8x1 : (⟨S_, .f32⟩ : BufTy).Contents (Elt F) → (⟨S50000x8x1, .f32⟩ : BufTy).Contents (Elt F)),
    StableHlo.unary main_arg4 main_v46 (broadcastInDim S500000x1 ![0] bcast_S500000_S500000x1_0 : (⟨S500000, .i32⟩ : BufTy).Contents (Elt F) → (⟨S500000x1, .i32⟩ : BufTy).Contents (Elt F)),
    StableHlo.ternary main_v45 main_v46 main_v30 main_v47 ((fun x i u => Host.scatterAdd scatter_S50000x8x1_S500000x1_S500000x8x1_12_0_0_1 x i u) : (⟨S50000x8x1, .f32⟩ : BufTy).Contents (Elt F) → (⟨S500000x1, .i32⟩ : BufTy).Contents (Elt F) → (⟨S500000x8x1, .f32⟩ : BufTy).Contents (Elt F) → (⟨S50000x8x1, .f32⟩ : BufTy).Contents (Elt F)),
    StableHlo.nullary main_cst_10 (constant S_ .f32 0x358637BD#32),
    StableHlo.unary main_cst_10 main_v48 (broadcastInDim S50000x8x1 ![] bcast_S_S50000x8x1 : (⟨S_, .f32⟩ : BufTy).Contents (Elt F) → (⟨S50000x8x1, .f32⟩ : BufTy).Contents (Elt F)),
    StableHlo.binary main_v47 main_v48 main_v49 (addf : (⟨S50000x8x1, .f32⟩ : BufTy).Contents (Elt F) → (⟨S50000x8x1, .f32⟩ : BufTy).Contents (Elt F) → (⟨S50000x8x1, .f32⟩ : BufTy).Contents (Elt F)),
    StableHlo.unary main_v49 main_v50 (broadcastInDim S50000x8x16 ![0, 1, 2] bcast_S50000x8x1_S50000x8x16_0_1_2 : (⟨S50000x8x1, .f32⟩ : BufTy).Contents (Elt F) → (⟨S50000x8x16, .f32⟩ : BufTy).Contents (Elt F)),
    StableHlo.binary main_v44 main_v50 main_v51 (Host.divf : (⟨S50000x8x16, .f32⟩ : BufTy).Contents (Elt F) → (⟨S50000x8x16, .f32⟩ : BufTy).Contents (Elt F) → (⟨S50000x8x16, .f32⟩ : BufTy).Contents (Elt F)),
    StableHlo.reshape main_v51 main_v52 rfl shapeCasts_S50000x8x16_S50000x128 ]
/-- The references the operations of `ops2` write. -/
abbrev ops2_W : List (Ref sig .tc) := [main_cst_8, main_v42, main_v43, main_v44, main_cst_9, main_v45, main_v46, main_v47, main_cst_10, main_v48, main_v49, main_v50, main_v51, main_v52]
theorem ops2_writes : (ops2 : List (HloOp τ sig (Elt F))).Forall fun op => op.writes ⊆ (ops2_W.map (Proc.devRef (τ := τ) .tc)).toFinset := by
  simp only [List.Forall]
  exact ⟨by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step⟩

/-- The node output projection with bias, added to the node input (%53 … %57). -/
abbrev ops3 : List (HloOp τ sig (Elt F)) :=
  [ StableHlo.binary main_v52 main_arg9 main_v53 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg10 main_v54 (broadcastInDim S1x128 ![1] bcast_S128_S1x128_1 : (⟨S128, .f32⟩ : BufTy).Contents (Elt F) → (⟨S1x128, .f32⟩ : BufTy).Contents (Elt F)),
    StableHlo.unary main_v54 main_v55 (broadcastInDim S50000x128 ![0, 1] bcast_S1x128_S50000x128_0_1 : (⟨S1x128, .f32⟩ : BufTy).Contents (Elt F) → (⟨S50000x128, .f32⟩ : BufTy).Contents (Elt F)),
    StableHlo.binary main_v53 main_v55 main_v56 (addf : (⟨S50000x128, .f32⟩ : BufTy).Contents (Elt F) → (⟨S50000x128, .f32⟩ : BufTy).Contents (Elt F) → (⟨S50000x128, .f32⟩ : BufTy).Contents (Elt F)),
    StableHlo.binary main_arg0 main_v56 main_v57 (addf : (⟨S50000x128, .f32⟩ : BufTy).Contents (Elt F) → (⟨S50000x128, .f32⟩ : BufTy).Contents (Elt F) → (⟨S50000x128, .f32⟩ : BufTy).Contents (Elt F)) ]
/-- The references the operations of `ops3` write. -/
abbrev ops3_W : List (Ref sig .tc) := [main_v53, main_v54, main_v55, main_v56, main_v57]
theorem ops3_writes : (ops3 : List (HloOp τ sig (Elt F))).Forall fun op => op.writes ⊆ (ops3_W.map (Proc.devRef (τ := τ) .tc)).toFinset := by
  simp only [List.Forall]
  exact ⟨by ref_writes_step, by ref_writes_step, by ref_writes_step, by ref_writes_step, by ref_writes_step⟩

/-- The first normalisation of the nodes: mean and variance over the nodes, then centre, scale by the reciprocal root of variance plus a small constant, weight and bias (%cst_11 … %76). -/
abbrev ops4 : List (HloOp τ sig (Elt F)) :=
  [ StableHlo.nullary main_cst_11 (constant S_ .f32 0x00000000#32),
    StableHlo.binary main_v57 main_cst_11 main_v58 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_12 (constant S_ .f32 0x47435000#32),
    StableHlo.unary main_cst_12 main_v59 (broadcastInDim S128 ![] bcast_S_S128 : (⟨S_, .f32⟩ : BufTy).Contents (Elt F) → (⟨S128, .f32⟩ : BufTy).Contents (Elt F)),
    StableHlo.binary main_v58 main_v59 main_v60 (Host.divf : (⟨S128, .f32⟩ : BufTy).Contents (Elt F) → (⟨S128, .f32⟩ : BufTy).Contents (Elt F) → (⟨S128, .f32⟩ : BufTy).Contents (Elt F)),
    StableHlo.nullary main_c_13 (constantI S_ 32 0#32),
    StableHlo.TRef.nullary (.of main_call1_cst : StableHlo.TRef sig ⟨S_, .f32⟩) (constant S_ .f32 0x00000000#32),
    StableHlo.TRef.binary (.of main_v57 : StableHlo.TRef sig ⟨S50000x128, .f32⟩) (.of main_call1_cst : StableHlo.TRef sig ⟨S_, .f32⟩) (.of main_call1_v0 : StableHlo.TRef sig ⟨S128, .f32⟩) (fun x v => Host.reduceAdd x v reducesTo_S50000x128_S128_d0 h_S_),
    StableHlo.TRef.unary (.of main_call1_v0 : StableHlo.TRef sig ⟨S128, .f32⟩) (.of main_call1_v1 : StableHlo.TRef sig ⟨S1x128, .f32⟩) (broadcastInDim S1x128 ![1] bcast_S128_S1x128_1),
    StableHlo.TRef.nullary (.of main_call1_cst_0 : StableHlo.TRef sig ⟨S_, .f32⟩) (constant S_ .f32 0x47435000#32),
    StableHlo.TRef.unary (.of main_call1_cst_0 : StableHlo.TRef sig ⟨S_, .f32⟩) (.of main_call1_v2 : StableHlo.TRef sig ⟨S1x128, .f32⟩) (broadcastInDim S1x128 ![] bcast_S_S1x128),
    StableHlo.TRef.binary (.of main_call1_v1 : StableHlo.TRef sig ⟨S1x128, .f32⟩) (.of main_call1_v2 : StableHlo.TRef sig ⟨S1x128, .f32⟩) (.of main_call1_v3 : StableHlo.TRef sig ⟨S1x128, .f32⟩) Host.divf,
    StableHlo.TRef.unary (.of main_call1_v3 : StableHlo.TRef sig ⟨S1x128, .f32⟩) (.of main_call1_v4 : StableHlo.TRef sig ⟨S50000x128, .f32⟩) (broadcastInDim S50000x128 ![0, 1] bcast_S1x128_S50000x128_0_1),
    StableHlo.TRef.binary (.of main_v57 : StableHlo.TRef sig ⟨S50000x128, .f32⟩) (.of main_call1_v4 : StableHlo.TRef sig ⟨S50000x128, .f32⟩) (.of main_call1_v5 : StableHlo.TRef sig ⟨S50000x128, .f32⟩) subf,
    StableHlo.TRef.binary (.of main_call1_v5 : StableHlo.TRef sig ⟨S50000x128, .f32⟩) (.of main_call1_v5 : StableHlo.TRef sig ⟨S50000x128, .f32⟩) (.of main_call1_v6 : StableHlo.TRef sig ⟨S50000x128, .f32⟩) mulf,
    StableHlo.TRef.unary (.of main_c_13 : StableHlo.TRef sig ⟨S_, .i32⟩) (.of main_call1_v7 : StableHlo.TRef sig ⟨S_, .f32⟩) (sitofp .f32),
    StableHlo.TRef.nullary (.of main_call1_cst_1 : StableHlo.TRef sig ⟨S_, .f32⟩) (constant S_ .f32 0x47435000#32),
    StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf,
    StableHlo.TRef.nullary (.of main_call1_cst_2 : StableHlo.TRef sig ⟨S_, .f32⟩) (constant S_ .f32 0x00000000#32),
    StableHlo.TRef.binary (.of main_call1_v6 : StableHlo.TRef sig ⟨S50000x128, .f32⟩) (.of main_call1_cst_2 : StableHlo.TRef sig ⟨S_, .f32⟩) (.of main_call1_v9 : StableHlo.TRef sig ⟨S128, .f32⟩) (fun x v => Host.reduceAdd x v reducesTo_S50000x128_S128_d0 h_S_),
    StableHlo.TRef.unary (.of main_call1_v8 : StableHlo.TRef sig ⟨S_, .f32⟩) (.of main_call1_v10 : StableHlo.TRef sig ⟨S128, .f32⟩) (broadcastInDim S128 ![] bcast_S_S128),
    StableHlo.TRef.binary (.of main_call1_v9 : StableHlo.TRef sig ⟨S128, .f32⟩) (.of main_call1_v10 : StableHlo.TRef sig ⟨S128, .f32⟩) (.of main_call1_v11 : StableHlo.TRef sig ⟨S128, .f32⟩) Host.divf,
    StableHlo.TRef.nullary (.of main_call1_cst_3 : StableHlo.TRef sig ⟨S_, .f32⟩) (constant S_ .f32 0x00000000#32),
    StableHlo.TRef.binary (.of main_call1_v8 : StableHlo.TRef sig ⟨S_, .f32⟩) (.of main_call1_cst_3 : StableHlo.TRef sig ⟨S_, .f32⟩) (.of main_call1_v12 : StableHlo.TRef sig ⟨S_, .i1⟩) (cmpf .ogt),
    StableHlo.TRef.nullary (.of main_call1_cst_4 : StableHlo.TRef sig ⟨S_, .f32⟩) (constant S_ .f32 0x7FC00000#32),
    StableHlo.TRef.unary (.of main_call1_cst_4 : StableHlo.TRef sig ⟨S_, .f32⟩) (.of main_call1_call0_v0 : StableHlo.TRef sig ⟨S_, .f32⟩) id,
    StableHlo.TRef.unary (.of main_call1_call0_v0 : StableHlo.TRef sig ⟨S_, .f32⟩) (.of main_call1_call0_v1 : StableHlo.TRef sig ⟨S128, .f32⟩) (broadcastInDim S128 ![] bcast_S_S128),
    StableHlo.TRef.ternary (.of main_call1_v12 : StableHlo.TRef sig ⟨S_, .i1⟩) (.of main_call1_v11 : StableHlo.TRef sig ⟨S128, .f32⟩) (.of main_call1_call0_v1 : StableHlo.TRef sig ⟨S128, .f32⟩) (.of main_v61 : StableHlo.TRef sig ⟨S128, .f32⟩) (fun p a b => select (broadcastInDim S128 ![] bcast_S_S128 p) a b),
    StableHlo.unary main_v60 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S50000x128 ![0, 1] bcast_S1x128_S50000x128_0_1 : (⟨S1x128, .f32⟩ : BufTy).Contents (Elt F) → (⟨S50000x128, .f32⟩ : BufTy).Contents (Elt F)),
    StableHlo.binary main_v57 main_v63 main_v64 (subf : (⟨S50000x128, .f32⟩ : BufTy).Contents (Elt F) → (⟨S50000x128, .f32⟩ : BufTy).Contents (Elt F) → (⟨S50000x128, .f32⟩ : BufTy).Contents (Elt F)),
    StableHlo.nullary main_cst_14 (constant S_ .f32 0x3727C5AC#32),
    StableHlo.unary main_cst_14 main_v65 (broadcastInDim S128 ![] bcast_S_S128 : (⟨S_, .f32⟩ : BufTy).Contents (Elt F) → (⟨S128, .f32⟩ : BufTy).Contents (Elt F)),
    StableHlo.binary main_v61 main_v65 main_v66 (addf : (⟨S128, .f32⟩ : BufTy).Contents (Elt F) → (⟨S128, .f32⟩ : BufTy).Contents (Elt F) → (⟨S128, .f32⟩ : BufTy).Contents (Elt F)),
    StableHlo.unary main_v66 main_v67 (Host.rsqrt : (⟨S128, .f32⟩ : BufTy).Contents (Elt F) → (⟨S128, .f32⟩ : BufTy).Contents (Elt F)),
    StableHlo.unary main_v67 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S50000x128 ![0, 1] bcast_S1x128_S50000x128_0_1 : (⟨S1x128, .f32⟩ : BufTy).Contents (Elt F) → (⟨S50000x128, .f32⟩ : BufTy).Contents (Elt F)),
    StableHlo.binary main_v64 main_v69 main_v70 (mulf : (⟨S50000x128, .f32⟩ : BufTy).Contents (Elt F) → (⟨S50000x128, .f32⟩ : BufTy).Contents (Elt F) → (⟨S50000x128, .f32⟩ : BufTy).Contents (Elt F)),
    StableHlo.unary main_arg13 main_v71 (broadcastInDim S1x128 ![1] bcast_S128_S1x128_1 : (⟨S128, .f32⟩ : BufTy).Contents (Elt F) → (⟨S1x128, .f32⟩ : BufTy).Contents (Elt F)),
    StableHlo.unary main_v71 main_v72 (broadcastInDim S50000x128 ![0, 1] bcast_S1x128_S50000x128_0_1 : (⟨S1x128, .f32⟩ : BufTy).Contents (Elt F) → (⟨S50000x128, .f32⟩ : BufTy).Contents (Elt F)),
    StableHlo.binary main_v70 main_v72 main_v73 (mulf : (⟨S50000x128, .f32⟩ : BufTy).Contents (Elt F) → (⟨S50000x128, .f32⟩ : BufTy).Contents (Elt F) → (⟨S50000x128, .f32⟩ : BufTy).Contents (Elt F)),
    StableHlo.unary main_arg14 main_v74 (broadcastInDim S1x128 ![1] bcast_S128_S1x128_1 : (⟨S128, .f32⟩ : BufTy).Contents (Elt F) → (⟨S1x128, .f32⟩ : BufTy).Contents (Elt F)),
    StableHlo.unary main_v74 main_v75 (broadcastInDim S50000x128 ![0, 1] bcast_S1x128_S50000x128_0_1 : (⟨S1x128, .f32⟩ : BufTy).Contents (Elt F) → (⟨S50000x128, .f32⟩ : BufTy).Contents (Elt F)),
    StableHlo.binary main_v73 main_v75 main_v76 (addf : (⟨S50000x128, .f32⟩ : BufTy).Contents (Elt F) → (⟨S50000x128, .f32⟩ : BufTy).Contents (Elt F) → (⟨S50000x128, .f32⟩ : BufTy).Contents (Elt F)) ]
/-- The references the operations of `ops4` write. -/
abbrev ops4_W : List (Ref sig .tc) := [main_cst_11, main_v58, main_cst_12, main_v59, main_v60, main_c_13, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v61, main_v62, main_v63, main_v64, main_cst_14, main_v65, main_v66, main_v67, main_v68, main_v69, main_v70, main_v71, main_v72, main_v73, main_v74, main_v75, main_v76]
theorem ops4_writes : (ops4 : List (HloOp τ sig (Elt F))).Forall fun op => op.writes ⊆ (ops4_W.map (Proc.devRef (τ := τ) .tc)).toFinset := by
  simp only [List.Forall]
  exact ⟨by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step⟩

/-- The edge output projection with bias, added to the edge input (%77 … %81). -/
abbrev ops5 : List (HloOp τ sig (Elt F)) :=
  [ StableHlo.binary main_v26 main_arg11 main_v77 ((fun l r => Host.dotGeneral dot_S500000x128_S128x128_S500000x128_1_0_0_1_n_n none l r) : (⟨S500000x128, .f32⟩ : BufTy).Contents (Elt F) → (⟨S128x128, .f32⟩ : BufTy).Contents (Elt F) → (⟨S500000x128, .f32⟩ : BufTy).Contents (Elt F)),
    StableHlo.unary main_arg12 main_v78 (broadcastInDim S1x128 ![1] bcast_S128_S1x128_1 : (⟨S128, .f32⟩ : BufTy).Contents (Elt F) → (⟨S1x128, .f32⟩ : BufTy).Contents (Elt F)),
    StableHlo.unary main_v78 main_v79 (broadcastInDim S500000x128 ![0, 1] bcast_S1x128_S500000x128_0_1 : (⟨S1x128, .f32⟩ : BufTy).Contents (Elt F) → (⟨S500000x128, .f32⟩ : BufTy).Contents (Elt F)),
    StableHlo.binary main_v77 main_v79 main_v80 (addf : (⟨S500000x128, .f32⟩ : BufTy).Contents (Elt F) → (⟨S500000x128, .f32⟩ : BufTy).Contents (Elt F) → (⟨S500000x128, .f32⟩ : BufTy).Contents (Elt F)),
    StableHlo.binary main_arg1 main_v80 main_v81 (addf : (⟨S500000x128, .f32⟩ : BufTy).Contents (Elt F) → (⟨S500000x128, .f32⟩ : BufTy).Contents (Elt F) → (⟨S500000x128, .f32⟩ : BufTy).Contents (Elt F)) ]
/-- The references the operations of `ops5` write. -/
abbrev ops5_W : List (Ref sig .tc) := [main_v77, main_v78, main_v79, main_v80, main_v81]
theorem ops5_writes : (ops5 : List (HloOp τ sig (Elt F))).Forall fun op => op.writes ⊆ (ops5_W.map (Proc.devRef (τ := τ) .tc)).toFinset := by
  simp only [List.Forall]
  exact ⟨by ref_writes_step, by ref_writes_step, by ref_writes_step, by ref_writes_step, by ref_writes_step⟩

/-- The first normalisation of the edges: mean and variance over the edges, then centre, scale, weight and bias (%cst_15 … %100). -/
abbrev ops6 : List (HloOp τ sig (Elt F)) :=
  [ StableHlo.nullary main_cst_15 (constant S_ .f32 0x00000000#32),
    StableHlo.binary main_v81 main_cst_15 main_v82 ((fun x v => Host.reduceAdd x v reducesTo_S500000x128_S128_d0 h_S_) : (⟨S500000x128, .f32⟩ : BufTy).Contents (Elt F) → (⟨S_, .f32⟩ : BufTy).Contents (Elt F) → (⟨S128, .f32⟩ : BufTy).Contents (Elt F)),
    StableHlo.nullary main_cst_16 (constant S_ .f32 0x48F42400#32),
    StableHlo.unary main_cst_16 main_v83 (broadcastInDim S128 ![] bcast_S_S128 : (⟨S_, .f32⟩ : BufTy).Contents (Elt F) → (⟨S128, .f32⟩ : BufTy).Contents (Elt F)),
    StableHlo.binary main_v82 main_v83 main_v84 (Host.divf : (⟨S128, .f32⟩ : BufTy).Contents (Elt F) → (⟨S128, .f32⟩ : BufTy).Contents (Elt F) → (⟨S128, .f32⟩ : BufTy).Contents (Elt F)),
    StableHlo.nullary main_c_17 (constantI S_ 32 0#32),
    StableHlo.TRef.nullary (.of main_call2_cst : StableHlo.TRef sig ⟨S_, .f32⟩) (constant S_ .f32 0x00000000#32),
    StableHlo.TRef.binary (.of main_v81 : StableHlo.TRef sig ⟨S500000x128, .f32⟩) (.of main_call2_cst : StableHlo.TRef sig ⟨S_, .f32⟩) (.of main_call2_v0 : StableHlo.TRef sig ⟨S128, .f32⟩) (fun x v => Host.reduceAdd x v reducesTo_S500000x128_S128_d0 h_S_),
    StableHlo.TRef.unary (.of main_call2_v0 : StableHlo.TRef sig ⟨S128, .f32⟩) (.of main_call2_v1 : StableHlo.TRef sig ⟨S1x128, .f32⟩) (broadcastInDim S1x128 ![1] bcast_S128_S1x128_1),
    StableHlo.TRef.nullary (.of main_call2_cst_0 : StableHlo.TRef sig ⟨S_, .f32⟩) (constant S_ .f32 0x48F42400#32),
    StableHlo.TRef.unary (.of main_call2_cst_0 : StableHlo.TRef sig ⟨S_, .f32⟩) (.of main_call2_v2 : StableHlo.TRef sig ⟨S1x128, .f32⟩) (broadcastInDim S1x128 ![] bcast_S_S1x128),
    StableHlo.TRef.binary (.of main_call2_v1 : StableHlo.TRef sig ⟨S1x128, .f32⟩) (.of main_call2_v2 : StableHlo.TRef sig ⟨S1x128, .f32⟩) (.of main_call2_v3 : StableHlo.TRef sig ⟨S1x128, .f32⟩) Host.divf,
    StableHlo.TRef.unary (.of main_call2_v3 : StableHlo.TRef sig ⟨S1x128, .f32⟩) (.of main_call2_v4 : StableHlo.TRef sig ⟨S500000x128, .f32⟩) (broadcastInDim S500000x128 ![0, 1] bcast_S1x128_S500000x128_0_1),
    StableHlo.TRef.binary (.of main_v81 : StableHlo.TRef sig ⟨S500000x128, .f32⟩) (.of main_call2_v4 : StableHlo.TRef sig ⟨S500000x128, .f32⟩) (.of main_call2_v5 : StableHlo.TRef sig ⟨S500000x128, .f32⟩) subf,
    StableHlo.TRef.binary (.of main_call2_v5 : StableHlo.TRef sig ⟨S500000x128, .f32⟩) (.of main_call2_v5 : StableHlo.TRef sig ⟨S500000x128, .f32⟩) (.of main_call2_v6 : StableHlo.TRef sig ⟨S500000x128, .f32⟩) mulf,
    StableHlo.TRef.unary (.of main_c_17 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x48F42400#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S500000x128, .f32⟩) (.of main_call2_cst_2 : StableHlo.TRef sig ⟨S_, .f32⟩) (.of main_call2_v9 : StableHlo.TRef sig ⟨S128, .f32⟩) (fun x v => Host.reduceAdd x v reducesTo_S500000x128_S128_d0 h_S_),
    StableHlo.TRef.unary (.of main_call2_v8 : StableHlo.TRef sig ⟨S_, .f32⟩) (.of main_call2_v10 : StableHlo.TRef sig ⟨S128, .f32⟩) (broadcastInDim S128 ![] bcast_S_S128),
    StableHlo.TRef.binary (.of main_call2_v9 : StableHlo.TRef sig ⟨S128, .f32⟩) (.of main_call2_v10 : StableHlo.TRef sig ⟨S128, .f32⟩) (.of main_call2_v11 : StableHlo.TRef sig ⟨S128, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S128, .f32⟩) (broadcastInDim S128 ![] bcast_S_S128),
    StableHlo.TRef.ternary (.of main_call2_v12 : StableHlo.TRef sig ⟨S_, .i1⟩) (.of main_call2_v11 : StableHlo.TRef sig ⟨S128, .f32⟩) (.of main_call2_call0_v1 : StableHlo.TRef sig ⟨S128, .f32⟩) (.of main_v85 : StableHlo.TRef sig ⟨S128, .f32⟩) (fun p a b => select (broadcastInDim S128 ![] bcast_S_S128 p) a b),
    StableHlo.unary main_v84 main_v86 (broadcastInDim S1x128 ![1] bcast_S128_S1x128_1 : (⟨S128, .f32⟩ : BufTy).Contents (Elt F) → (⟨S1x128, .f32⟩ : BufTy).Contents (Elt F)),
    StableHlo.unary main_v86 main_v87 (broadcastInDim S500000x128 ![0, 1] bcast_S1x128_S500000x128_0_1 : (⟨S1x128, .f32⟩ : BufTy).Contents (Elt F) → (⟨S500000x128, .f32⟩ : BufTy).Contents (Elt F)),
    StableHlo.binary main_v81 main_v87 main_v88 (subf : (⟨S500000x128, .f32⟩ : BufTy).Contents (Elt F) → (⟨S500000x128, .f32⟩ : BufTy).Contents (Elt F) → (⟨S500000x128, .f32⟩ : BufTy).Contents (Elt F)),
    StableHlo.nullary main_cst_18 (constant S_ .f32 0x3727C5AC#32),
    StableHlo.unary main_cst_18 main_v89 (broadcastInDim S128 ![] bcast_S_S128 : (⟨S_, .f32⟩ : BufTy).Contents (Elt F) → (⟨S128, .f32⟩ : BufTy).Contents (Elt F)),
    StableHlo.binary main_v85 main_v89 main_v90 (addf : (⟨S128, .f32⟩ : BufTy).Contents (Elt F) → (⟨S128, .f32⟩ : BufTy).Contents (Elt F) → (⟨S128, .f32⟩ : BufTy).Contents (Elt F)),
    StableHlo.unary main_v90 main_v91 (Host.rsqrt : (⟨S128, .f32⟩ : BufTy).Contents (Elt F) → (⟨S128, .f32⟩ : BufTy).Contents (Elt F)),
    StableHlo.unary main_v91 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S500000x128 ![0, 1] bcast_S1x128_S500000x128_0_1 : (⟨S1x128, .f32⟩ : BufTy).Contents (Elt F) → (⟨S500000x128, .f32⟩ : BufTy).Contents (Elt F)),
    StableHlo.binary main_v88 main_v93 main_v94 (mulf : (⟨S500000x128, .f32⟩ : BufTy).Contents (Elt F) → (⟨S500000x128, .f32⟩ : BufTy).Contents (Elt F) → (⟨S500000x128, .f32⟩ : BufTy).Contents (Elt F)),
    StableHlo.unary main_arg15 main_v95 (broadcastInDim S1x128 ![1] bcast_S128_S1x128_1 : (⟨S128, .f32⟩ : BufTy).Contents (Elt F) → (⟨S1x128, .f32⟩ : BufTy).Contents (Elt F)),
    StableHlo.unary main_v95 main_v96 (broadcastInDim S500000x128 ![0, 1] bcast_S1x128_S500000x128_0_1 : (⟨S1x128, .f32⟩ : BufTy).Contents (Elt F) → (⟨S500000x128, .f32⟩ : BufTy).Contents (Elt F)),
    StableHlo.binary main_v94 main_v96 main_v97 (mulf : (⟨S500000x128, .f32⟩ : BufTy).Contents (Elt F) → (⟨S500000x128, .f32⟩ : BufTy).Contents (Elt F) → (⟨S500000x128, .f32⟩ : BufTy).Contents (Elt F)),
    StableHlo.unary main_arg16 main_v98 (broadcastInDim S1x128 ![1] bcast_S128_S1x128_1 : (⟨S128, .f32⟩ : BufTy).Contents (Elt F) → (⟨S1x128, .f32⟩ : BufTy).Contents (Elt F)),
    StableHlo.unary main_v98 main_v99 (broadcastInDim S500000x128 ![0, 1] bcast_S1x128_S500000x128_0_1 : (⟨S1x128, .f32⟩ : BufTy).Contents (Elt F) → (⟨S500000x128, .f32⟩ : BufTy).Contents (Elt F)),
    StableHlo.binary main_v97 main_v99 main_v100 (addf : (⟨S500000x128, .f32⟩ : BufTy).Contents (Elt F) → (⟨S500000x128, .f32⟩ : BufTy).Contents (Elt F) → (⟨S500000x128, .f32⟩ : BufTy).Contents (Elt F)) ]
/-- The references the operations of `ops6` write. -/
abbrev ops6_W : List (Ref sig .tc) := [main_cst_15, main_v82, main_cst_16, main_v83, main_v84, main_c_17, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v85, main_v86, main_v87, main_v88, main_cst_18, main_v89, main_v90, main_v91, main_v92, main_v93, main_v94, main_v95, main_v96, main_v97, main_v98, main_v99, main_v100]
theorem ops6_writes : (ops6 : List (HloOp τ sig (Elt F))).Forall fun op => op.writes ⊆ (ops6_W.map (Proc.devRef (τ := τ) .tc)).toFinset := by
  simp only [List.Forall]
  exact ⟨by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step⟩

/-- The node feed-forward block: two affine maps with a positive part between, added to its input (%101 … %110). -/
abbrev ops7 : List (HloOp τ sig (Elt F)) :=
  [ StableHlo.binary main_v76 main_arg17 main_v101 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg18 main_v102 (broadcastInDim S1x256 ![1] bcast_S256_S1x256_1 : (⟨S256, .f32⟩ : BufTy).Contents (Elt F) → (⟨S1x256, .f32⟩ : BufTy).Contents (Elt F)),
    StableHlo.unary main_v102 main_v103 (broadcastInDim S50000x256 ![0, 1] bcast_S1x256_S50000x256_0_1 : (⟨S1x256, .f32⟩ : BufTy).Contents (Elt F) → (⟨S50000x256, .f32⟩ : BufTy).Contents (Elt F)),
    StableHlo.binary main_v101 main_v103 main_v104 (addf : (⟨S50000x256, .f32⟩ : BufTy).Contents (Elt F) → (⟨S50000x256, .f32⟩ : BufTy).Contents (Elt F) → (⟨S50000x256, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S50000x256, .f32⟩) (broadcastInDim S50000x256 ![] bcast_S_S50000x256),
    StableHlo.TRef.binary (.of main_v104 : StableHlo.TRef sig ⟨S50000x256, .f32⟩) (.of main_call3_v0 : StableHlo.TRef sig ⟨S50000x256, .f32⟩) (.of main_v105 : StableHlo.TRef sig ⟨S50000x256, .f32⟩) maximumf,
    StableHlo.binary main_v105 main_arg19 main_v106 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg20 main_v107 (broadcastInDim S1x128 ![1] bcast_S128_S1x128_1 : (⟨S128, .f32⟩ : BufTy).Contents (Elt F) → (⟨S1x128, .f32⟩ : BufTy).Contents (Elt F)),
    StableHlo.unary main_v107 main_v108 (broadcastInDim S50000x128 ![0, 1] bcast_S1x128_S50000x128_0_1 : (⟨S1x128, .f32⟩ : BufTy).Contents (Elt F) → (⟨S50000x128, .f32⟩ : BufTy).Contents (Elt F)),
    StableHlo.binary main_v106 main_v108 main_v109 (addf : (⟨S50000x128, .f32⟩ : BufTy).Contents (Elt F) → (⟨S50000x128, .f32⟩ : BufTy).Contents (Elt F) → (⟨S50000x128, .f32⟩ : BufTy).Contents (Elt F)),
    StableHlo.binary main_v76 main_v109 main_v110 (addf : (⟨S50000x128, .f32⟩ : BufTy).Contents (Elt F) → (⟨S50000x128, .f32⟩ : BufTy).Contents (Elt F) → (⟨S50000x128, .f32⟩ : BufTy).Contents (Elt F)) ]
/-- The references the operations of `ops7` write. -/
abbrev ops7_W : List (Ref sig .tc) := [main_v101, main_v102, main_v103, main_v104, main_call3_cst, main_call3_v0, main_v105, main_v106, main_v107, main_v108, main_v109, main_v110]
theorem ops7_writes : (ops7 : List (HloOp τ sig (Elt F))).Forall fun op => op.writes ⊆ (ops7_W.map (Proc.devRef (τ := τ) .tc)).toFinset := by
  simp only [List.Forall]
  exact ⟨by ref_writes_step, by ref_writes_step, by ref_writes_step, by ref_writes_step, by ref_writes_step, by ref_writes_step, by ref_writes_step, by ref_writes_step, by ref_writes_step, by ref_writes_step, by ref_writes_step, by ref_writes_step⟩

/-- The second normalisation of the nodes (%cst_19 … %129). -/
abbrev ops8 : List (HloOp τ sig (Elt F)) :=
  [ StableHlo.nullary main_cst_19 (constant S_ .f32 0x00000000#32),
    StableHlo.binary main_v110 main_cst_19 main_v111 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_20 (constant S_ .f32 0x47435000#32),
    StableHlo.unary main_cst_20 main_v112 (broadcastInDim S128 ![] bcast_S_S128 : (⟨S_, .f32⟩ : BufTy).Contents (Elt F) → (⟨S128, .f32⟩ : BufTy).Contents (Elt F)),
    StableHlo.binary main_v111 main_v112 main_v113 (Host.divf : (⟨S128, .f32⟩ : BufTy).Contents (Elt F) → (⟨S128, .f32⟩ : BufTy).Contents (Elt F) → (⟨S128, .f32⟩ : BufTy).Contents (Elt F)),
    StableHlo.nullary main_c_21 (constantI S_ 32 0#32),
    StableHlo.TRef.nullary (.of main_call4_cst : StableHlo.TRef sig ⟨S_, .f32⟩) (constant S_ .f32 0x00000000#32),
    StableHlo.TRef.binary (.of main_v110 : StableHlo.TRef sig ⟨S50000x128, .f32⟩) (.of main_call4_cst : StableHlo.TRef sig ⟨S_, .f32⟩) (.of main_call4_v0 : StableHlo.TRef sig ⟨S128, .f32⟩) (fun x v => Host.reduceAdd x v reducesTo_S50000x128_S128_d0 h_S_),
    StableHlo.TRef.unary (.of main_call4_v0 : StableHlo.TRef sig ⟨S128, .f32⟩) (.of main_call4_v1 : StableHlo.TRef sig ⟨S1x128, .f32⟩) (broadcastInDim S1x128 ![1] bcast_S128_S1x128_1),
    StableHlo.TRef.nullary (.of main_call4_cst_0 : StableHlo.TRef sig ⟨S_, .f32⟩) (constant S_ .f32 0x47435000#32),
    StableHlo.TRef.unary (.of main_call4_cst_0 : StableHlo.TRef sig ⟨S_, .f32⟩) (.of main_call4_v2 : StableHlo.TRef sig ⟨S1x128, .f32⟩) (broadcastInDim S1x128 ![] bcast_S_S1x128),
    StableHlo.TRef.binary (.of main_call4_v1 : StableHlo.TRef sig ⟨S1x128, .f32⟩) (.of main_call4_v2 : StableHlo.TRef sig ⟨S1x128, .f32⟩) (.of main_call4_v3 : StableHlo.TRef sig ⟨S1x128, .f32⟩) Host.divf,
    StableHlo.TRef.unary (.of main_call4_v3 : StableHlo.TRef sig ⟨S1x128, .f32⟩) (.of main_call4_v4 : StableHlo.TRef sig ⟨S50000x128, .f32⟩) (broadcastInDim S50000x128 ![0, 1] bcast_S1x128_S50000x128_0_1),
    StableHlo.TRef.binary (.of main_v110 : StableHlo.TRef sig ⟨S50000x128, .f32⟩) (.of main_call4_v4 : StableHlo.TRef sig ⟨S50000x128, .f32⟩) (.of main_call4_v5 : StableHlo.TRef sig ⟨S50000x128, .f32⟩) subf,
    StableHlo.TRef.binary (.of main_call4_v5 : StableHlo.TRef sig ⟨S50000x128, .f32⟩) (.of main_call4_v5 : StableHlo.TRef sig ⟨S50000x128, .f32⟩) (.of main_call4_v6 : StableHlo.TRef sig ⟨S50000x128, .f32⟩) mulf,
    StableHlo.TRef.unary (.of main_c_21 : StableHlo.TRef sig ⟨S_, .i32⟩) (.of main_call4_v7 : StableHlo.TRef sig ⟨S_, .f32⟩) (sitofp .f32),
    StableHlo.TRef.nullary (.of main_call4_cst_1 : StableHlo.TRef sig ⟨S_, .f32⟩) (constant S_ .f32 0x47435000#32),
    StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf,
    StableHlo.TRef.nullary (.of main_call4_cst_2 : StableHlo.TRef sig ⟨S_, .f32⟩) (constant S_ .f32 0x00000000#32),
    StableHlo.TRef.binary (.of main_call4_v6 : StableHlo.TRef sig ⟨S50000x128, .f32⟩) (.of main_call4_cst_2 : StableHlo.TRef sig ⟨S_, .f32⟩) (.of main_call4_v9 : StableHlo.TRef sig ⟨S128, .f32⟩) (fun x v => Host.reduceAdd x v reducesTo_S50000x128_S128_d0 h_S_),
    StableHlo.TRef.unary (.of main_call4_v8 : StableHlo.TRef sig ⟨S_, .f32⟩) (.of main_call4_v10 : StableHlo.TRef sig ⟨S128, .f32⟩) (broadcastInDim S128 ![] bcast_S_S128),
    StableHlo.TRef.binary (.of main_call4_v9 : StableHlo.TRef sig ⟨S128, .f32⟩) (.of main_call4_v10 : StableHlo.TRef sig ⟨S128, .f32⟩) (.of main_call4_v11 : StableHlo.TRef sig ⟨S128, .f32⟩) Host.divf,
    StableHlo.TRef.nullary (.of main_call4_cst_3 : StableHlo.TRef sig ⟨S_, .f32⟩) (constant S_ .f32 0x00000000#32),
    StableHlo.TRef.binary (.of main_call4_v8 : StableHlo.TRef sig ⟨S_, .f32⟩) (.of main_call4_cst_3 : StableHlo.TRef sig ⟨S_, .f32⟩) (.of main_call4_v12 : StableHlo.TRef sig ⟨S_, .i1⟩) (cmpf .ogt),
    StableHlo.TRef.nullary (.of main_call4_cst_4 : StableHlo.TRef sig ⟨S_, .f32⟩) (constant S_ .f32 0x7FC00000#32),
    StableHlo.TRef.unary (.of main_call4_cst_4 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S128, .f32⟩) (broadcastInDim S128 ![] bcast_S_S128),
    StableHlo.TRef.ternary (.of main_call4_v12 : StableHlo.TRef sig ⟨S_, .i1⟩) (.of main_call4_v11 : StableHlo.TRef sig ⟨S128, .f32⟩) (.of main_call4_call0_v1 : StableHlo.TRef sig ⟨S128, .f32⟩) (.of main_v114 : StableHlo.TRef sig ⟨S128, .f32⟩) (fun p a b => select (broadcastInDim S128 ![] bcast_S_S128 p) a b),
    StableHlo.unary main_v113 main_v115 (broadcastInDim S1x128 ![1] bcast_S128_S1x128_1 : (⟨S128, .f32⟩ : BufTy).Contents (Elt F) → (⟨S1x128, .f32⟩ : BufTy).Contents (Elt F)),
    StableHlo.unary main_v115 main_v116 (broadcastInDim S50000x128 ![0, 1] bcast_S1x128_S50000x128_0_1 : (⟨S1x128, .f32⟩ : BufTy).Contents (Elt F) → (⟨S50000x128, .f32⟩ : BufTy).Contents (Elt F)),
    StableHlo.binary main_v110 main_v116 main_v117 (subf : (⟨S50000x128, .f32⟩ : BufTy).Contents (Elt F) → (⟨S50000x128, .f32⟩ : BufTy).Contents (Elt F) → (⟨S50000x128, .f32⟩ : BufTy).Contents (Elt F)),
    StableHlo.nullary main_cst_22 (constant S_ .f32 0x3727C5AC#32),
    StableHlo.unary main_cst_22 main_v118 (broadcastInDim S128 ![] bcast_S_S128 : (⟨S_, .f32⟩ : BufTy).Contents (Elt F) → (⟨S128, .f32⟩ : BufTy).Contents (Elt F)),
    StableHlo.binary main_v114 main_v118 main_v119 (addf : (⟨S128, .f32⟩ : BufTy).Contents (Elt F) → (⟨S128, .f32⟩ : BufTy).Contents (Elt F) → (⟨S128, .f32⟩ : BufTy).Contents (Elt F)),
    StableHlo.unary main_v119 main_v120 (Host.rsqrt : (⟨S128, .f32⟩ : BufTy).Contents (Elt F) → (⟨S128, .f32⟩ : BufTy).Contents (Elt F)),
    StableHlo.unary main_v120 main_v121 (broadcastInDim S1x128 ![1] bcast_S128_S1x128_1 : (⟨S128, .f32⟩ : BufTy).Contents (Elt F) → (⟨S1x128, .f32⟩ : BufTy).Contents (Elt F)),
    StableHlo.unary main_v121 main_v122 (broadcastInDim S50000x128 ![0, 1] bcast_S1x128_S50000x128_0_1 : (⟨S1x128, .f32⟩ : BufTy).Contents (Elt F) → (⟨S50000x128, .f32⟩ : BufTy).Contents (Elt F)),
    StableHlo.binary main_v117 main_v122 main_v123 (mulf : (⟨S50000x128, .f32⟩ : BufTy).Contents (Elt F) → (⟨S50000x128, .f32⟩ : BufTy).Contents (Elt F) → (⟨S50000x128, .f32⟩ : BufTy).Contents (Elt F)),
    StableHlo.unary main_arg25 main_v124 (broadcastInDim S1x128 ![1] bcast_S128_S1x128_1 : (⟨S128, .f32⟩ : BufTy).Contents (Elt F) → (⟨S1x128, .f32⟩ : BufTy).Contents (Elt F)),
    StableHlo.unary main_v124 main_v125 (broadcastInDim S50000x128 ![0, 1] bcast_S1x128_S50000x128_0_1 : (⟨S1x128, .f32⟩ : BufTy).Contents (Elt F) → (⟨S50000x128, .f32⟩ : BufTy).Contents (Elt F)),
    StableHlo.binary main_v123 main_v125 main_v126 (mulf : (⟨S50000x128, .f32⟩ : BufTy).Contents (Elt F) → (⟨S50000x128, .f32⟩ : BufTy).Contents (Elt F) → (⟨S50000x128, .f32⟩ : BufTy).Contents (Elt F)),
    StableHlo.unary main_arg26 main_v127 (broadcastInDim S1x128 ![1] bcast_S128_S1x128_1 : (⟨S128, .f32⟩ : BufTy).Contents (Elt F) → (⟨S1x128, .f32⟩ : BufTy).Contents (Elt F)),
    StableHlo.unary main_v127 main_v128 (broadcastInDim S50000x128 ![0, 1] bcast_S1x128_S50000x128_0_1 : (⟨S1x128, .f32⟩ : BufTy).Contents (Elt F) → (⟨S50000x128, .f32⟩ : BufTy).Contents (Elt F)),
    StableHlo.binary main_v126 main_v128 main_v129 (addf : (⟨S50000x128, .f32⟩ : BufTy).Contents (Elt F) → (⟨S50000x128, .f32⟩ : BufTy).Contents (Elt F) → (⟨S50000x128, .f32⟩ : BufTy).Contents (Elt F)) ]
/-- The references the operations of `ops8` write. -/
abbrev ops8_W : List (Ref sig .tc) := [main_cst_19, main_v111, main_cst_20, main_v112, main_v113, main_c_21, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v114, main_v115, main_v116, main_v117, main_cst_22, main_v118, main_v119, main_v120, main_v121, main_v122, main_v123, main_v124, main_v125, main_v126, main_v127, main_v128, main_v129]
theorem ops8_writes : (ops8 : List (HloOp τ sig (Elt F))).Forall fun op => op.writes ⊆ (ops8_W.map (Proc.devRef (τ := τ) .tc)).toFinset := by
  simp only [List.Forall]
  exact ⟨by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step⟩

/-- The edge feed-forward block (%130 … %139). -/
abbrev ops9 : List (HloOp τ sig (Elt F)) :=
  [ StableHlo.binary main_v100 main_arg21 main_v130 ((fun l r => Host.dotGeneral dot_S500000x128_S128x256_S500000x256_1_0_0_1_n_n none l r) : (⟨S500000x128, .f32⟩ : BufTy).Contents (Elt F) → (⟨S128x256, .f32⟩ : BufTy).Contents (Elt F) → (⟨S500000x256, .f32⟩ : BufTy).Contents (Elt F)),
    StableHlo.unary main_arg22 main_v131 (broadcastInDim S1x256 ![1] bcast_S256_S1x256_1 : (⟨S256, .f32⟩ : BufTy).Contents (Elt F) → (⟨S1x256, .f32⟩ : BufTy).Contents (Elt F)),
    StableHlo.unary main_v131 main_v132 (broadcastInDim S500000x256 ![0, 1] bcast_S1x256_S500000x256_0_1 : (⟨S1x256, .f32⟩ : BufTy).Contents (Elt F) → (⟨S500000x256, .f32⟩ : BufTy).Contents (Elt F)),
    StableHlo.binary main_v130 main_v132 main_v133 (addf : (⟨S500000x256, .f32⟩ : BufTy).Contents (Elt F) → (⟨S500000x256, .f32⟩ : BufTy).Contents (Elt F) → (⟨S500000x256, .f32⟩ : BufTy).Contents (Elt F)),
    StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S500000x256, .f32⟩) (broadcastInDim S500000x256 ![] bcast_S_S500000x256),
    StableHlo.TRef.binary (.of main_v133 : StableHlo.TRef sig ⟨S500000x256, .f32⟩) (.of main_call5_v0 : StableHlo.TRef sig ⟨S500000x256, .f32⟩) (.of main_v134 : StableHlo.TRef sig ⟨S500000x256, .f32⟩) maximumf,
    StableHlo.binary main_v134 main_arg23 main_v135 ((fun l r => Host.dotGeneral dot_S500000x256_S256x128_S500000x128_1_0_0_1_n_n none l r) : (⟨S500000x256, .f32⟩ : BufTy).Contents (Elt F) → (⟨S256x128, .f32⟩ : BufTy).Contents (Elt F) → (⟨S500000x128, .f32⟩ : BufTy).Contents (Elt F)),
    StableHlo.unary main_arg24 main_v136 (broadcastInDim S1x128 ![1] bcast_S128_S1x128_1 : (⟨S128, .f32⟩ : BufTy).Contents (Elt F) → (⟨S1x128, .f32⟩ : BufTy).Contents (Elt F)),
    StableHlo.unary main_v136 main_v137 (broadcastInDim S500000x128 ![0, 1] bcast_S1x128_S500000x128_0_1 : (⟨S1x128, .f32⟩ : BufTy).Contents (Elt F) → (⟨S500000x128, .f32⟩ : BufTy).Contents (Elt F)),
    StableHlo.binary main_v135 main_v137 main_v138 (addf : (⟨S500000x128, .f32⟩ : BufTy).Contents (Elt F) → (⟨S500000x128, .f32⟩ : BufTy).Contents (Elt F) → (⟨S500000x128, .f32⟩ : BufTy).Contents (Elt F)),
    StableHlo.binary main_v100 main_v138 main_v139 (addf : (⟨S500000x128, .f32⟩ : BufTy).Contents (Elt F) → (⟨S500000x128, .f32⟩ : BufTy).Contents (Elt F) → (⟨S500000x128, .f32⟩ : BufTy).Contents (Elt F)) ]
/-- The references the operations of `ops9` write. -/
abbrev ops9_W : List (Ref sig .tc) := [main_v130, main_v131, main_v132, main_v133, main_call5_cst, main_call5_v0, main_v134, main_v135, main_v136, main_v137, main_v138, main_v139]
theorem ops9_writes : (ops9 : List (HloOp τ sig (Elt F))).Forall fun op => op.writes ⊆ (ops9_W.map (Proc.devRef (τ := τ) .tc)).toFinset := by
  simp only [List.Forall]
  exact ⟨by ref_writes_step, by ref_writes_step, by ref_writes_step, by ref_writes_step, by ref_writes_step, by ref_writes_step, by ref_writes_step, by ref_writes_step, by ref_writes_step, by ref_writes_step, by ref_writes_step, by ref_writes_step⟩

/-- The second normalisation of the edges (%cst_23 … %158). -/
abbrev ops10 : List (HloOp τ sig (Elt F)) :=
  [ StableHlo.nullary main_cst_23 (constant S_ .f32 0x00000000#32),
    StableHlo.binary main_v139 main_cst_23 main_v140 ((fun x v => Host.reduceAdd x v reducesTo_S500000x128_S128_d0 h_S_) : (⟨S500000x128, .f32⟩ : BufTy).Contents (Elt F) → (⟨S_, .f32⟩ : BufTy).Contents (Elt F) → (⟨S128, .f32⟩ : BufTy).Contents (Elt F)),
    StableHlo.nullary main_cst_24 (constant S_ .f32 0x48F42400#32),
    StableHlo.unary main_cst_24 main_v141 (broadcastInDim S128 ![] bcast_S_S128 : (⟨S_, .f32⟩ : BufTy).Contents (Elt F) → (⟨S128, .f32⟩ : BufTy).Contents (Elt F)),
    StableHlo.binary main_v140 main_v141 main_v142 (Host.divf : (⟨S128, .f32⟩ : BufTy).Contents (Elt F) → (⟨S128, .f32⟩ : BufTy).Contents (Elt F) → (⟨S128, .f32⟩ : BufTy).Contents (Elt F)),
    StableHlo.nullary main_c_25 (constantI S_ 32 0#32),
    StableHlo.TRef.nullary (.of main_call6_cst : StableHlo.TRef sig ⟨S_, .f32⟩) (constant S_ .f32 0x00000000#32),
    StableHlo.TRef.binary (.of main_v139 : StableHlo.TRef sig ⟨S500000x128, .f32⟩) (.of main_call6_cst : StableHlo.TRef sig ⟨S_, .f32⟩) (.of main_call6_v0 : StableHlo.TRef sig ⟨S128, .f32⟩) (fun x v => Host.reduceAdd x v reducesTo_S500000x128_S128_d0 h_S_),
    StableHlo.TRef.unary (.of main_call6_v0 : StableHlo.TRef sig ⟨S128, .f32⟩) (.of main_call6_v1 : StableHlo.TRef sig ⟨S1x128, .f32⟩) (broadcastInDim S1x128 ![1] bcast_S128_S1x128_1),
    StableHlo.TRef.nullary (.of main_call6_cst_0 : StableHlo.TRef sig ⟨S_, .f32⟩) (constant S_ .f32 0x48F42400#32),
    StableHlo.TRef.unary (.of main_call6_cst_0 : StableHlo.TRef sig ⟨S_, .f32⟩) (.of main_call6_v2 : StableHlo.TRef sig ⟨S1x128, .f32⟩) (broadcastInDim S1x128 ![] bcast_S_S1x128),
    StableHlo.TRef.binary (.of main_call6_v1 : StableHlo.TRef sig ⟨S1x128, .f32⟩) (.of main_call6_v2 : StableHlo.TRef sig ⟨S1x128, .f32⟩) (.of main_call6_v3 : StableHlo.TRef sig ⟨S1x128, .f32⟩) Host.divf,
    StableHlo.TRef.unary (.of main_call6_v3 : StableHlo.TRef sig ⟨S1x128, .f32⟩) (.of main_call6_v4 : StableHlo.TRef sig ⟨S500000x128, .f32⟩) (broadcastInDim S500000x128 ![0, 1] bcast_S1x128_S500000x128_0_1),
    StableHlo.TRef.binary (.of main_v139 : StableHlo.TRef sig ⟨S500000x128, .f32⟩) (.of main_call6_v4 : StableHlo.TRef sig ⟨S500000x128, .f32⟩) (.of main_call6_v5 : StableHlo.TRef sig ⟨S500000x128, .f32⟩) subf,
    StableHlo.TRef.binary (.of main_call6_v5 : StableHlo.TRef sig ⟨S500000x128, .f32⟩) (.of main_call6_v5 : StableHlo.TRef sig ⟨S500000x128, .f32⟩) (.of main_call6_v6 : StableHlo.TRef sig ⟨S500000x128, .f32⟩) mulf,
    StableHlo.TRef.unary (.of main_c_25 : StableHlo.TRef sig ⟨S_, .i32⟩) (.of main_call6_v7 : StableHlo.TRef sig ⟨S_, .f32⟩) (sitofp .f32),
    StableHlo.TRef.nullary (.of main_call6_cst_1 : StableHlo.TRef sig ⟨S_, .f32⟩) (constant S_ .f32 0x48F42400#32),
    StableHlo.TRef.binary (.of main_call6_cst_1 : StableHlo.TRef sig ⟨S_, .f32⟩) (.of main_call6_v7 : StableHlo.TRef sig ⟨S_, .f32⟩) (.of main_call6_v8 : StableHlo.TRef sig ⟨S_, .f32⟩) subf,
    StableHlo.TRef.nullary (.of main_call6_cst_2 : StableHlo.TRef sig ⟨S_, .f32⟩) (constant S_ .f32 0x00000000#32),
    StableHlo.TRef.binary (.of main_call6_v6 : StableHlo.TRef sig ⟨S500000x128, .f32⟩) (.of main_call6_cst_2 : StableHlo.TRef sig ⟨S_, .f32⟩) (.of main_call6_v9 : StableHlo.TRef sig ⟨S128, .f32⟩) (fun x v => Host.reduceAdd x v reducesTo_S500000x128_S128_d0 h_S_),
    StableHlo.TRef.unary (.of main_call6_v8 : StableHlo.TRef sig ⟨S_, .f32⟩) (.of main_call6_v10 : StableHlo.TRef sig ⟨S128, .f32⟩) (broadcastInDim S128 ![] bcast_S_S128),
    StableHlo.TRef.binary (.of main_call6_v9 : StableHlo.TRef sig ⟨S128, .f32⟩) (.of main_call6_v10 : StableHlo.TRef sig ⟨S128, .f32⟩) (.of main_call6_v11 : StableHlo.TRef sig ⟨S128, .f32⟩) Host.divf,
    StableHlo.TRef.nullary (.of main_call6_cst_3 : StableHlo.TRef sig ⟨S_, .f32⟩) (constant S_ .f32 0x00000000#32),
    StableHlo.TRef.binary (.of main_call6_v8 : StableHlo.TRef sig ⟨S_, .f32⟩) (.of main_call6_cst_3 : StableHlo.TRef sig ⟨S_, .f32⟩) (.of main_call6_v12 : StableHlo.TRef sig ⟨S_, .i1⟩) (cmpf .ogt),
    StableHlo.TRef.nullary (.of main_call6_cst_4 : StableHlo.TRef sig ⟨S_, .f32⟩) (constant S_ .f32 0x7FC00000#32),
    StableHlo.TRef.unary (.of main_call6_cst_4 : StableHlo.TRef sig ⟨S_, .f32⟩) (.of main_call6_call0_v0 : StableHlo.TRef sig ⟨S_, .f32⟩) id,
    StableHlo.TRef.unary (.of main_call6_call0_v0 : StableHlo.TRef sig ⟨S_, .f32⟩) (.of main_call6_call0_v1 : StableHlo.TRef sig ⟨S128, .f32⟩) (broadcastInDim S128 ![] bcast_S_S128),
    StableHlo.TRef.ternary (.of main_call6_v12 : StableHlo.TRef sig ⟨S_, .i1⟩) (.of main_call6_v11 : StableHlo.TRef sig ⟨S128, .f32⟩) (.of main_call6_call0_v1 : StableHlo.TRef sig ⟨S128, .f32⟩) (.of main_v143 : StableHlo.TRef sig ⟨S128, .f32⟩) (fun p a b => select (broadcastInDim S128 ![] bcast_S_S128 p) a b),
    StableHlo.unary main_v142 main_v144 (broadcastInDim S1x128 ![1] bcast_S128_S1x128_1 : (⟨S128, .f32⟩ : BufTy).Contents (Elt F) → (⟨S1x128, .f32⟩ : BufTy).Contents (Elt F)),
    StableHlo.unary main_v144 main_v145 (broadcastInDim S500000x128 ![0, 1] bcast_S1x128_S500000x128_0_1 : (⟨S1x128, .f32⟩ : BufTy).Contents (Elt F) → (⟨S500000x128, .f32⟩ : BufTy).Contents (Elt F)),
    StableHlo.binary main_v139 main_v145 main_v146 (subf : (⟨S500000x128, .f32⟩ : BufTy).Contents (Elt F) → (⟨S500000x128, .f32⟩ : BufTy).Contents (Elt F) → (⟨S500000x128, .f32⟩ : BufTy).Contents (Elt F)),
    StableHlo.nullary main_cst_26 (constant S_ .f32 0x3727C5AC#32),
    StableHlo.unary main_cst_26 main_v147 (broadcastInDim S128 ![] bcast_S_S128 : (⟨S_, .f32⟩ : BufTy).Contents (Elt F) → (⟨S128, .f32⟩ : BufTy).Contents (Elt F)),
    StableHlo.binary main_v143 main_v147 main_v148 (addf : (⟨S128, .f32⟩ : BufTy).Contents (Elt F) → (⟨S128, .f32⟩ : BufTy).Contents (Elt F) → (⟨S128, .f32⟩ : BufTy).Contents (Elt F)),
    StableHlo.unary main_v148 main_v149 (Host.rsqrt : (⟨S128, .f32⟩ : BufTy).Contents (Elt F) → (⟨S128, .f32⟩ : BufTy).Contents (Elt F)),
    StableHlo.unary main_v149 main_v150 (broadcastInDim S1x128 ![1] bcast_S128_S1x128_1 : (⟨S128, .f32⟩ : BufTy).Contents (Elt F) → (⟨S1x128, .f32⟩ : BufTy).Contents (Elt F)),
    StableHlo.unary main_v150 main_v151 (broadcastInDim S500000x128 ![0, 1] bcast_S1x128_S500000x128_0_1 : (⟨S1x128, .f32⟩ : BufTy).Contents (Elt F) → (⟨S500000x128, .f32⟩ : BufTy).Contents (Elt F)),
    StableHlo.binary main_v146 main_v151 main_v152 (mulf : (⟨S500000x128, .f32⟩ : BufTy).Contents (Elt F) → (⟨S500000x128, .f32⟩ : BufTy).Contents (Elt F) → (⟨S500000x128, .f32⟩ : BufTy).Contents (Elt F)),
    StableHlo.unary main_arg27 main_v153 (broadcastInDim S1x128 ![1] bcast_S128_S1x128_1 : (⟨S128, .f32⟩ : BufTy).Contents (Elt F) → (⟨S1x128, .f32⟩ : BufTy).Contents (Elt F)),
    StableHlo.unary main_v153 main_v154 (broadcastInDim S500000x128 ![0, 1] bcast_S1x128_S500000x128_0_1 : (⟨S1x128, .f32⟩ : BufTy).Contents (Elt F) → (⟨S500000x128, .f32⟩ : BufTy).Contents (Elt F)),
    StableHlo.binary main_v152 main_v154 main_v155 (mulf : (⟨S500000x128, .f32⟩ : BufTy).Contents (Elt F) → (⟨S500000x128, .f32⟩ : BufTy).Contents (Elt F) → (⟨S500000x128, .f32⟩ : BufTy).Contents (Elt F)),
    StableHlo.unary main_arg28 main_v156 (broadcastInDim S1x128 ![1] bcast_S128_S1x128_1 : (⟨S128, .f32⟩ : BufTy).Contents (Elt F) → (⟨S1x128, .f32⟩ : BufTy).Contents (Elt F)),
    StableHlo.unary main_v156 main_v157 (broadcastInDim S500000x128 ![0, 1] bcast_S1x128_S500000x128_0_1 : (⟨S1x128, .f32⟩ : BufTy).Contents (Elt F) → (⟨S500000x128, .f32⟩ : BufTy).Contents (Elt F)),
    StableHlo.binary main_v155 main_v157 main_v158 (addf : (⟨S500000x128, .f32⟩ : BufTy).Contents (Elt F) → (⟨S500000x128, .f32⟩ : BufTy).Contents (Elt F) → (⟨S500000x128, .f32⟩ : BufTy).Contents (Elt F)) ]
/-- The references the operations of `ops10` write. -/
abbrev ops10_W : List (Ref sig .tc) := [main_cst_23, main_v140, main_cst_24, main_v141, main_v142, main_c_25, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v143, main_v144, main_v145, main_v146, main_cst_26, main_v147, main_v148, main_v149, main_v150, main_v151, main_v152, main_v153, main_v154, main_v155, main_v156, main_v157, main_v158]
theorem ops10_writes : (ops10 : List (HloOp τ sig (Elt F))).Forall fun op => op.writes ⊆ (ops10_W.map (Proc.devRef (τ := τ) .tc)).toFinset := by
  simp only [List.Forall]
  exact ⟨by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step, by ref_writes_step⟩

/-! ## The buffer contents between the lists -/

variable (m' : (ℓ : Loc nD τ sig) → Buf (Elt F) ℓ)

/-- Core `c`'s buffers at the start. -/
abbrev RV0 (c : Dev nD) : Valuation τ sig (Elt F) := fun b => m' (c, b)
/-- Core `c`'s buffers after `ops0`, …, `ops0`. -/
abbrev RV1 (c : Dev nD) : Valuation τ sig (Elt F) := StableHlo.after ops0 (RV0 m' c)
/-- Core `c`'s buffers after `ops0`, …, `ops1`. -/
abbrev RV2 (c : Dev nD) : Valuation τ sig (Elt F) := StableHlo.after ops1 (RV1 m' c)
/-- Core `c`'s buffers after `ops0`, …, `ops2`. -/
abbrev RV3 (c : Dev nD) : Valuation τ sig (Elt F) := StableHlo.after ops2 (RV2 m' c)
/-- Core `c`'s buffers after `ops0`, …, `ops3`. -/
abbrev RV4 (c : Dev nD) : Valuation τ sig (Elt F) := StableHlo.after ops3 (RV3 m' c)
/-- Core `c`'s buffers after `ops0`, …, `ops4`. -/
abbrev RV5 (c : Dev nD) : Valuation τ sig (Elt F) := StableHlo.after ops4 (RV4 m' c)
/-- Core `c`'s buffers after `ops0`, …, `ops5`. -/
abbrev RV6 (c : Dev nD) : Valuation τ sig (Elt F) := StableHlo.after ops5 (RV5 m' c)
/-- Core `c`'s buffers after `ops0`, …, `ops6`. -/
abbrev RV7 (c : Dev nD) : Valuation τ sig (Elt F) := StableHlo.after ops6 (RV6 m' c)
/-- Core `c`'s buffers after `ops0`, …, `ops7`. -/
abbrev RV8 (c : Dev nD) : Valuation τ sig (Elt F) := StableHlo.after ops7 (RV7 m' c)
/-- Core `c`'s buffers after `ops0`, …, `ops8`. -/
abbrev RV9 (c : Dev nD) : Valuation τ sig (Elt F) := StableHlo.after ops8 (RV8 m' c)
/-- Core `c`'s buffers after `ops0`, …, `ops9`. -/
abbrev RV10 (c : Dev nD) : Valuation τ sig (Elt F) := StableHlo.after ops9 (RV9 m' c)
/-- Core `c`'s buffers after `ops0`, …, `ops10`. -/
abbrev RV11 (c : Dev nD) : Valuation τ sig (Elt F) := StableHlo.after ops10 (RV10 m' c)

/-! ## A reference a list does not write keeps its contents -/

theorem RV1_of (c : Dev nD) (r : Ref sig .tc) (h : r ∉ ops0_W) : RV1 m' c r = RV0 m' c r :=
  StableHlo.after_of_writes_sub ops0 _ ops0_writes h
theorem RV2_of (c : Dev nD) (r : Ref sig .tc) (h : r ∉ ops1_W) : RV2 m' c r = RV1 m' c r :=
  StableHlo.after_of_writes_sub ops1 _ ops1_writes h
theorem RV3_of (c : Dev nD) (r : Ref sig .tc) (h : r ∉ ops2_W) : RV3 m' c r = RV2 m' c r :=
  StableHlo.after_of_writes_sub ops2 _ ops2_writes h
theorem RV4_of (c : Dev nD) (r : Ref sig .tc) (h : r ∉ ops3_W) : RV4 m' c r = RV3 m' c r :=
  StableHlo.after_of_writes_sub ops3 _ ops3_writes h
theorem RV5_of (c : Dev nD) (r : Ref sig .tc) (h : r ∉ ops4_W) : RV5 m' c r = RV4 m' c r :=
  StableHlo.after_of_writes_sub ops4 _ ops4_writes h
theorem RV6_of (c : Dev nD) (r : Ref sig .tc) (h : r ∉ ops5_W) : RV6 m' c r = RV5 m' c r :=
  StableHlo.after_of_writes_sub ops5 _ ops5_writes h
theorem RV7_of (c : Dev nD) (r : Ref sig .tc) (h : r ∉ ops6_W) : RV7 m' c r = RV6 m' c r :=
  StableHlo.after_of_writes_sub ops6 _ ops6_writes h
theorem RV8_of (c : Dev nD) (r : Ref sig .tc) (h : r ∉ ops7_W) : RV8 m' c r = RV7 m' c r :=
  StableHlo.after_of_writes_sub ops7 _ ops7_writes h
theorem RV9_of (c : Dev nD) (r : Ref sig .tc) (h : r ∉ ops8_W) : RV9 m' c r = RV8 m' c r :=
  StableHlo.after_of_writes_sub ops8 _ ops8_writes h
theorem RV10_of (c : Dev nD) (r : Ref sig .tc) (h : r ∉ ops9_W) : RV10 m' c r = RV9 m' c r :=
  StableHlo.after_of_writes_sub ops9 _ ops9_writes h
theorem RV11_of (c : Dev nD) (r : Ref sig .tc) (h : r ∉ ops10_W) : RV11 m' c r = RV10 m' c r :=
  StableHlo.after_of_writes_sub ops10 _ ops10_writes h

/-! ## No list writes an argument -/

theorem RV11_main_arg0 (c : Dev nD) : RV11 m' c main_arg0 = m' ((c : Thread nD τ).loc main_arg0) :=
  (RV11_of m' c main_arg0 (by decide)).trans <| (RV10_of m' c main_arg0 (by decide)).trans <| (RV9_of m' c main_arg0 (by decide)).trans <| (RV8_of m' c main_arg0 (by decide)).trans <| (RV7_of m' c main_arg0 (by decide)).trans <| (RV6_of m' c main_arg0 (by decide)).trans <| (RV5_of m' c main_arg0 (by decide)).trans <| (RV4_of m' c main_arg0 (by decide)).trans <| (RV3_of m' c main_arg0 (by decide)).trans <| (RV2_of m' c main_arg0 (by decide)).trans <| (RV1_of m' c main_arg0 (by decide)).trans <| rfl
theorem RV11_main_arg1 (c : Dev nD) : RV11 m' c main_arg1 = m' ((c : Thread nD τ).loc main_arg1) :=
  (RV11_of m' c main_arg1 (by decide)).trans <| (RV10_of m' c main_arg1 (by decide)).trans <| (RV9_of m' c main_arg1 (by decide)).trans <| (RV8_of m' c main_arg1 (by decide)).trans <| (RV7_of m' c main_arg1 (by decide)).trans <| (RV6_of m' c main_arg1 (by decide)).trans <| (RV5_of m' c main_arg1 (by decide)).trans <| (RV4_of m' c main_arg1 (by decide)).trans <| (RV3_of m' c main_arg1 (by decide)).trans <| (RV2_of m' c main_arg1 (by decide)).trans <| (RV1_of m' c main_arg1 (by decide)).trans <| rfl
theorem RV11_main_arg2 (c : Dev nD) : RV11 m' c main_arg2 = m' ((c : Thread nD τ).loc main_arg2) :=
  (RV11_of m' c main_arg2 (by decide)).trans <| (RV10_of m' c main_arg2 (by decide)).trans <| (RV9_of m' c main_arg2 (by decide)).trans <| (RV8_of m' c main_arg2 (by decide)).trans <| (RV7_of m' c main_arg2 (by decide)).trans <| (RV6_of m' c main_arg2 (by decide)).trans <| (RV5_of m' c main_arg2 (by decide)).trans <| (RV4_of m' c main_arg2 (by decide)).trans <| (RV3_of m' c main_arg2 (by decide)).trans <| (RV2_of m' c main_arg2 (by decide)).trans <| (RV1_of m' c main_arg2 (by decide)).trans <| rfl
theorem RV11_main_arg3 (c : Dev nD) : RV11 m' c main_arg3 = m' ((c : Thread nD τ).loc main_arg3) :=
  (RV11_of m' c main_arg3 (by decide)).trans <| (RV10_of m' c main_arg3 (by decide)).trans <| (RV9_of m' c main_arg3 (by decide)).trans <| (RV8_of m' c main_arg3 (by decide)).trans <| (RV7_of m' c main_arg3 (by decide)).trans <| (RV6_of m' c main_arg3 (by decide)).trans <| (RV5_of m' c main_arg3 (by decide)).trans <| (RV4_of m' c main_arg3 (by decide)).trans <| (RV3_of m' c main_arg3 (by decide)).trans <| (RV2_of m' c main_arg3 (by decide)).trans <| (RV1_of m' c main_arg3 (by decide)).trans <| rfl
theorem RV11_main_arg4 (c : Dev nD) : RV11 m' c main_arg4 = m' ((c : Thread nD τ).loc main_arg4) :=
  (RV11_of m' c main_arg4 (by decide)).trans <| (RV10_of m' c main_arg4 (by decide)).trans <| (RV9_of m' c main_arg4 (by decide)).trans <| (RV8_of m' c main_arg4 (by decide)).trans <| (RV7_of m' c main_arg4 (by decide)).trans <| (RV6_of m' c main_arg4 (by decide)).trans <| (RV5_of m' c main_arg4 (by decide)).trans <| (RV4_of m' c main_arg4 (by decide)).trans <| (RV3_of m' c main_arg4 (by decide)).trans <| (RV2_of m' c main_arg4 (by decide)).trans <| (RV1_of m' c main_arg4 (by decide)).trans <| rfl
theorem RV11_main_arg5 (c : Dev nD) : RV11 m' c main_arg5 = m' ((c : Thread nD τ).loc main_arg5) :=
  (RV11_of m' c main_arg5 (by decide)).trans <| (RV10_of m' c main_arg5 (by decide)).trans <| (RV9_of m' c main_arg5 (by decide)).trans <| (RV8_of m' c main_arg5 (by decide)).trans <| (RV7_of m' c main_arg5 (by decide)).trans <| (RV6_of m' c main_arg5 (by decide)).trans <| (RV5_of m' c main_arg5 (by decide)).trans <| (RV4_of m' c main_arg5 (by decide)).trans <| (RV3_of m' c main_arg5 (by decide)).trans <| (RV2_of m' c main_arg5 (by decide)).trans <| (RV1_of m' c main_arg5 (by decide)).trans <| rfl
theorem RV11_main_arg6 (c : Dev nD) : RV11 m' c main_arg6 = m' ((c : Thread nD τ).loc main_arg6) :=
  (RV11_of m' c main_arg6 (by decide)).trans <| (RV10_of m' c main_arg6 (by decide)).trans <| (RV9_of m' c main_arg6 (by decide)).trans <| (RV8_of m' c main_arg6 (by decide)).trans <| (RV7_of m' c main_arg6 (by decide)).trans <| (RV6_of m' c main_arg6 (by decide)).trans <| (RV5_of m' c main_arg6 (by decide)).trans <| (RV4_of m' c main_arg6 (by decide)).trans <| (RV3_of m' c main_arg6 (by decide)).trans <| (RV2_of m' c main_arg6 (by decide)).trans <| (RV1_of m' c main_arg6 (by decide)).trans <| rfl
theorem RV11_main_arg7 (c : Dev nD) : RV11 m' c main_arg7 = m' ((c : Thread nD τ).loc main_arg7) :=
  (RV11_of m' c main_arg7 (by decide)).trans <| (RV10_of m' c main_arg7 (by decide)).trans <| (RV9_of m' c main_arg7 (by decide)).trans <| (RV8_of m' c main_arg7 (by decide)).trans <| (RV7_of m' c main_arg7 (by decide)).trans <| (RV6_of m' c main_arg7 (by decide)).trans <| (RV5_of m' c main_arg7 (by decide)).trans <| (RV4_of m' c main_arg7 (by decide)).trans <| (RV3_of m' c main_arg7 (by decide)).trans <| (RV2_of m' c main_arg7 (by decide)).trans <| (RV1_of m' c main_arg7 (by decide)).trans <| rfl
theorem RV11_main_arg8 (c : Dev nD) : RV11 m' c main_arg8 = m' ((c : Thread nD τ).loc main_arg8) :=
  (RV11_of m' c main_arg8 (by decide)).trans <| (RV10_of m' c main_arg8 (by decide)).trans <| (RV9_of m' c main_arg8 (by decide)).trans <| (RV8_of m' c main_arg8 (by decide)).trans <| (RV7_of m' c main_arg8 (by decide)).trans <| (RV6_of m' c main_arg8 (by decide)).trans <| (RV5_of m' c main_arg8 (by decide)).trans <| (RV4_of m' c main_arg8 (by decide)).trans <| (RV3_of m' c main_arg8 (by decide)).trans <| (RV2_of m' c main_arg8 (by decide)).trans <| (RV1_of m' c main_arg8 (by decide)).trans <| rfl
theorem RV11_main_arg9 (c : Dev nD) : RV11 m' c main_arg9 = m' ((c : Thread nD τ).loc main_arg9) :=
  (RV11_of m' c main_arg9 (by decide)).trans <| (RV10_of m' c main_arg9 (by decide)).trans <| (RV9_of m' c main_arg9 (by decide)).trans <| (RV8_of m' c main_arg9 (by decide)).trans <| (RV7_of m' c main_arg9 (by decide)).trans <| (RV6_of m' c main_arg9 (by decide)).trans <| (RV5_of m' c main_arg9 (by decide)).trans <| (RV4_of m' c main_arg9 (by decide)).trans <| (RV3_of m' c main_arg9 (by decide)).trans <| (RV2_of m' c main_arg9 (by decide)).trans <| (RV1_of m' c main_arg9 (by decide)).trans <| rfl
theorem RV11_main_arg10 (c : Dev nD) : RV11 m' c main_arg10 = m' ((c : Thread nD τ).loc main_arg10) :=
  (RV11_of m' c main_arg10 (by decide)).trans <| (RV10_of m' c main_arg10 (by decide)).trans <| (RV9_of m' c main_arg10 (by decide)).trans <| (RV8_of m' c main_arg10 (by decide)).trans <| (RV7_of m' c main_arg10 (by decide)).trans <| (RV6_of m' c main_arg10 (by decide)).trans <| (RV5_of m' c main_arg10 (by decide)).trans <| (RV4_of m' c main_arg10 (by decide)).trans <| (RV3_of m' c main_arg10 (by decide)).trans <| (RV2_of m' c main_arg10 (by decide)).trans <| (RV1_of m' c main_arg10 (by decide)).trans <| rfl
theorem RV11_main_arg11 (c : Dev nD) : RV11 m' c main_arg11 = m' ((c : Thread nD τ).loc main_arg11) :=
  (RV11_of m' c main_arg11 (by decide)).trans <| (RV10_of m' c main_arg11 (by decide)).trans <| (RV9_of m' c main_arg11 (by decide)).trans <| (RV8_of m' c main_arg11 (by decide)).trans <| (RV7_of m' c main_arg11 (by decide)).trans <| (RV6_of m' c main_arg11 (by decide)).trans <| (RV5_of m' c main_arg11 (by decide)).trans <| (RV4_of m' c main_arg11 (by decide)).trans <| (RV3_of m' c main_arg11 (by decide)).trans <| (RV2_of m' c main_arg11 (by decide)).trans <| (RV1_of m' c main_arg11 (by decide)).trans <| rfl
theorem RV11_main_arg12 (c : Dev nD) : RV11 m' c main_arg12 = m' ((c : Thread nD τ).loc main_arg12) :=
  (RV11_of m' c main_arg12 (by decide)).trans <| (RV10_of m' c main_arg12 (by decide)).trans <| (RV9_of m' c main_arg12 (by decide)).trans <| (RV8_of m' c main_arg12 (by decide)).trans <| (RV7_of m' c main_arg12 (by decide)).trans <| (RV6_of m' c main_arg12 (by decide)).trans <| (RV5_of m' c main_arg12 (by decide)).trans <| (RV4_of m' c main_arg12 (by decide)).trans <| (RV3_of m' c main_arg12 (by decide)).trans <| (RV2_of m' c main_arg12 (by decide)).trans <| (RV1_of m' c main_arg12 (by decide)).trans <| rfl
theorem RV11_main_arg13 (c : Dev nD) : RV11 m' c main_arg13 = m' ((c : Thread nD τ).loc main_arg13) :=
  (RV11_of m' c main_arg13 (by decide)).trans <| (RV10_of m' c main_arg13 (by decide)).trans <| (RV9_of m' c main_arg13 (by decide)).trans <| (RV8_of m' c main_arg13 (by decide)).trans <| (RV7_of m' c main_arg13 (by decide)).trans <| (RV6_of m' c main_arg13 (by decide)).trans <| (RV5_of m' c main_arg13 (by decide)).trans <| (RV4_of m' c main_arg13 (by decide)).trans <| (RV3_of m' c main_arg13 (by decide)).trans <| (RV2_of m' c main_arg13 (by decide)).trans <| (RV1_of m' c main_arg13 (by decide)).trans <| rfl
theorem RV11_main_arg14 (c : Dev nD) : RV11 m' c main_arg14 = m' ((c : Thread nD τ).loc main_arg14) :=
  (RV11_of m' c main_arg14 (by decide)).trans <| (RV10_of m' c main_arg14 (by decide)).trans <| (RV9_of m' c main_arg14 (by decide)).trans <| (RV8_of m' c main_arg14 (by decide)).trans <| (RV7_of m' c main_arg14 (by decide)).trans <| (RV6_of m' c main_arg14 (by decide)).trans <| (RV5_of m' c main_arg14 (by decide)).trans <| (RV4_of m' c main_arg14 (by decide)).trans <| (RV3_of m' c main_arg14 (by decide)).trans <| (RV2_of m' c main_arg14 (by decide)).trans <| (RV1_of m' c main_arg14 (by decide)).trans <| rfl
theorem RV11_main_arg15 (c : Dev nD) : RV11 m' c main_arg15 = m' ((c : Thread nD τ).loc main_arg15) :=
  (RV11_of m' c main_arg15 (by decide)).trans <| (RV10_of m' c main_arg15 (by decide)).trans <| (RV9_of m' c main_arg15 (by decide)).trans <| (RV8_of m' c main_arg15 (by decide)).trans <| (RV7_of m' c main_arg15 (by decide)).trans <| (RV6_of m' c main_arg15 (by decide)).trans <| (RV5_of m' c main_arg15 (by decide)).trans <| (RV4_of m' c main_arg15 (by decide)).trans <| (RV3_of m' c main_arg15 (by decide)).trans <| (RV2_of m' c main_arg15 (by decide)).trans <| (RV1_of m' c main_arg15 (by decide)).trans <| rfl
theorem RV11_main_arg16 (c : Dev nD) : RV11 m' c main_arg16 = m' ((c : Thread nD τ).loc main_arg16) :=
  (RV11_of m' c main_arg16 (by decide)).trans <| (RV10_of m' c main_arg16 (by decide)).trans <| (RV9_of m' c main_arg16 (by decide)).trans <| (RV8_of m' c main_arg16 (by decide)).trans <| (RV7_of m' c main_arg16 (by decide)).trans <| (RV6_of m' c main_arg16 (by decide)).trans <| (RV5_of m' c main_arg16 (by decide)).trans <| (RV4_of m' c main_arg16 (by decide)).trans <| (RV3_of m' c main_arg16 (by decide)).trans <| (RV2_of m' c main_arg16 (by decide)).trans <| (RV1_of m' c main_arg16 (by decide)).trans <| rfl
theorem RV11_main_arg17 (c : Dev nD) : RV11 m' c main_arg17 = m' ((c : Thread nD τ).loc main_arg17) :=
  (RV11_of m' c main_arg17 (by decide)).trans <| (RV10_of m' c main_arg17 (by decide)).trans <| (RV9_of m' c main_arg17 (by decide)).trans <| (RV8_of m' c main_arg17 (by decide)).trans <| (RV7_of m' c main_arg17 (by decide)).trans <| (RV6_of m' c main_arg17 (by decide)).trans <| (RV5_of m' c main_arg17 (by decide)).trans <| (RV4_of m' c main_arg17 (by decide)).trans <| (RV3_of m' c main_arg17 (by decide)).trans <| (RV2_of m' c main_arg17 (by decide)).trans <| (RV1_of m' c main_arg17 (by decide)).trans <| rfl
theorem RV11_main_arg18 (c : Dev nD) : RV11 m' c main_arg18 = m' ((c : Thread nD τ).loc main_arg18) :=
  (RV11_of m' c main_arg18 (by decide)).trans <| (RV10_of m' c main_arg18 (by decide)).trans <| (RV9_of m' c main_arg18 (by decide)).trans <| (RV8_of m' c main_arg18 (by decide)).trans <| (RV7_of m' c main_arg18 (by decide)).trans <| (RV6_of m' c main_arg18 (by decide)).trans <| (RV5_of m' c main_arg18 (by decide)).trans <| (RV4_of m' c main_arg18 (by decide)).trans <| (RV3_of m' c main_arg18 (by decide)).trans <| (RV2_of m' c main_arg18 (by decide)).trans <| (RV1_of m' c main_arg18 (by decide)).trans <| rfl
theorem RV11_main_arg19 (c : Dev nD) : RV11 m' c main_arg19 = m' ((c : Thread nD τ).loc main_arg19) :=
  (RV11_of m' c main_arg19 (by decide)).trans <| (RV10_of m' c main_arg19 (by decide)).trans <| (RV9_of m' c main_arg19 (by decide)).trans <| (RV8_of m' c main_arg19 (by decide)).trans <| (RV7_of m' c main_arg19 (by decide)).trans <| (RV6_of m' c main_arg19 (by decide)).trans <| (RV5_of m' c main_arg19 (by decide)).trans <| (RV4_of m' c main_arg19 (by decide)).trans <| (RV3_of m' c main_arg19 (by decide)).trans <| (RV2_of m' c main_arg19 (by decide)).trans <| (RV1_of m' c main_arg19 (by decide)).trans <| rfl
theorem RV11_main_arg20 (c : Dev nD) : RV11 m' c main_arg20 = m' ((c : Thread nD τ).loc main_arg20) :=
  (RV11_of m' c main_arg20 (by decide)).trans <| (RV10_of m' c main_arg20 (by decide)).trans <| (RV9_of m' c main_arg20 (by decide)).trans <| (RV8_of m' c main_arg20 (by decide)).trans <| (RV7_of m' c main_arg20 (by decide)).trans <| (RV6_of m' c main_arg20 (by decide)).trans <| (RV5_of m' c main_arg20 (by decide)).trans <| (RV4_of m' c main_arg20 (by decide)).trans <| (RV3_of m' c main_arg20 (by decide)).trans <| (RV2_of m' c main_arg20 (by decide)).trans <| (RV1_of m' c main_arg20 (by decide)).trans <| rfl
theorem RV11_main_arg21 (c : Dev nD) : RV11 m' c main_arg21 = m' ((c : Thread nD τ).loc main_arg21) :=
  (RV11_of m' c main_arg21 (by decide)).trans <| (RV10_of m' c main_arg21 (by decide)).trans <| (RV9_of m' c main_arg21 (by decide)).trans <| (RV8_of m' c main_arg21 (by decide)).trans <| (RV7_of m' c main_arg21 (by decide)).trans <| (RV6_of m' c main_arg21 (by decide)).trans <| (RV5_of m' c main_arg21 (by decide)).trans <| (RV4_of m' c main_arg21 (by decide)).trans <| (RV3_of m' c main_arg21 (by decide)).trans <| (RV2_of m' c main_arg21 (by decide)).trans <| (RV1_of m' c main_arg21 (by decide)).trans <| rfl
theorem RV11_main_arg22 (c : Dev nD) : RV11 m' c main_arg22 = m' ((c : Thread nD τ).loc main_arg22) :=
  (RV11_of m' c main_arg22 (by decide)).trans <| (RV10_of m' c main_arg22 (by decide)).trans <| (RV9_of m' c main_arg22 (by decide)).trans <| (RV8_of m' c main_arg22 (by decide)).trans <| (RV7_of m' c main_arg22 (by decide)).trans <| (RV6_of m' c main_arg22 (by decide)).trans <| (RV5_of m' c main_arg22 (by decide)).trans <| (RV4_of m' c main_arg22 (by decide)).trans <| (RV3_of m' c main_arg22 (by decide)).trans <| (RV2_of m' c main_arg22 (by decide)).trans <| (RV1_of m' c main_arg22 (by decide)).trans <| rfl
theorem RV11_main_arg23 (c : Dev nD) : RV11 m' c main_arg23 = m' ((c : Thread nD τ).loc main_arg23) :=
  (RV11_of m' c main_arg23 (by decide)).trans <| (RV10_of m' c main_arg23 (by decide)).trans <| (RV9_of m' c main_arg23 (by decide)).trans <| (RV8_of m' c main_arg23 (by decide)).trans <| (RV7_of m' c main_arg23 (by decide)).trans <| (RV6_of m' c main_arg23 (by decide)).trans <| (RV5_of m' c main_arg23 (by decide)).trans <| (RV4_of m' c main_arg23 (by decide)).trans <| (RV3_of m' c main_arg23 (by decide)).trans <| (RV2_of m' c main_arg23 (by decide)).trans <| (RV1_of m' c main_arg23 (by decide)).trans <| rfl
theorem RV11_main_arg24 (c : Dev nD) : RV11 m' c main_arg24 = m' ((c : Thread nD τ).loc main_arg24) :=
  (RV11_of m' c main_arg24 (by decide)).trans <| (RV10_of m' c main_arg24 (by decide)).trans <| (RV9_of m' c main_arg24 (by decide)).trans <| (RV8_of m' c main_arg24 (by decide)).trans <| (RV7_of m' c main_arg24 (by decide)).trans <| (RV6_of m' c main_arg24 (by decide)).trans <| (RV5_of m' c main_arg24 (by decide)).trans <| (RV4_of m' c main_arg24 (by decide)).trans <| (RV3_of m' c main_arg24 (by decide)).trans <| (RV2_of m' c main_arg24 (by decide)).trans <| (RV1_of m' c main_arg24 (by decide)).trans <| rfl
theorem RV11_main_arg25 (c : Dev nD) : RV11 m' c main_arg25 = m' ((c : Thread nD τ).loc main_arg25) :=
  (RV11_of m' c main_arg25 (by decide)).trans <| (RV10_of m' c main_arg25 (by decide)).trans <| (RV9_of m' c main_arg25 (by decide)).trans <| (RV8_of m' c main_arg25 (by decide)).trans <| (RV7_of m' c main_arg25 (by decide)).trans <| (RV6_of m' c main_arg25 (by decide)).trans <| (RV5_of m' c main_arg25 (by decide)).trans <| (RV4_of m' c main_arg25 (by decide)).trans <| (RV3_of m' c main_arg25 (by decide)).trans <| (RV2_of m' c main_arg25 (by decide)).trans <| (RV1_of m' c main_arg25 (by decide)).trans <| rfl
theorem RV11_main_arg26 (c : Dev nD) : RV11 m' c main_arg26 = m' ((c : Thread nD τ).loc main_arg26) :=
  (RV11_of m' c main_arg26 (by decide)).trans <| (RV10_of m' c main_arg26 (by decide)).trans <| (RV9_of m' c main_arg26 (by decide)).trans <| (RV8_of m' c main_arg26 (by decide)).trans <| (RV7_of m' c main_arg26 (by decide)).trans <| (RV6_of m' c main_arg26 (by decide)).trans <| (RV5_of m' c main_arg26 (by decide)).trans <| (RV4_of m' c main_arg26 (by decide)).trans <| (RV3_of m' c main_arg26 (by decide)).trans <| (RV2_of m' c main_arg26 (by decide)).trans <| (RV1_of m' c main_arg26 (by decide)).trans <| rfl
theorem RV11_main_arg27 (c : Dev nD) : RV11 m' c main_arg27 = m' ((c : Thread nD τ).loc main_arg27) :=
  (RV11_of m' c main_arg27 (by decide)).trans <| (RV10_of m' c main_arg27 (by decide)).trans <| (RV9_of m' c main_arg27 (by decide)).trans <| (RV8_of m' c main_arg27 (by decide)).trans <| (RV7_of m' c main_arg27 (by decide)).trans <| (RV6_of m' c main_arg27 (by decide)).trans <| (RV5_of m' c main_arg27 (by decide)).trans <| (RV4_of m' c main_arg27 (by decide)).trans <| (RV3_of m' c main_arg27 (by decide)).trans <| (RV2_of m' c main_arg27 (by decide)).trans <| (RV1_of m' c main_arg27 (by decide)).trans <| rfl
theorem RV11_main_arg28 (c : Dev nD) : RV11 m' c main_arg28 = m' ((c : Thread nD τ).loc main_arg28) :=
  (RV11_of m' c main_arg28 (by decide)).trans <| (RV10_of m' c main_arg28 (by decide)).trans <| (RV9_of m' c main_arg28 (by decide)).trans <| (RV8_of m' c main_arg28 (by decide)).trans <| (RV7_of m' c main_arg28 (by decide)).trans <| (RV6_of m' c main_arg28 (by decide)).trans <| (RV5_of m' c main_arg28 (by decide)).trans <| (RV4_of m' c main_arg28 (by decide)).trans <| (RV3_of m' c main_arg28 (by decide)).trans <| (RV2_of m' c main_arg28 (by decide)).trans <| (RV1_of m' c main_arg28 (by decide)).trans <| rfl

end Cert.ReferenceIdeal.Hand

end
-- ==== Proof.Ref.Run.lean ====
/-
  The reference program is the straight line of its operations: every execution ends with each
  buffer of each core at the contents `RV11` computes from the contents at the start.
-/
import proofs.«101045_j34351148433892_1_alg».proof.Proof.Ref.Ops
import Idealize.ShloMosaic.Lib.StableHlo.Run
import Idealize.ShloMosaic.Lib.Pipeline.Regions

set_option maxRecDepth 4096

noncomputable section

namespace Cert.ReferenceIdeal.Hand

open Idealize.ShloMosaic Idealize.ShloMosaic.TcCoe
open Idealize.SL.Sem
open Cert.ReferenceIdeal Cert.ReferenceIdeal.Gen

variable {F : FTy → Type} [FloatOps F]

/-! ## Lists run one after the other -/

/-- The contents after two lists in turn are the contents after their concatenation. -/
theorem after_append {τ : Topo} {sig : RefSig} {Val : EltTy → Type} :
    ∀ (l₁ l₂ : List (HloOp τ sig Val)) (V : Valuation τ sig Val),
      StableHlo.after (l₁ ++ l₂) V = StableHlo.after l₂ (StableHlo.after l₁ V)
  | [], _, _ => rfl
  | op :: l, l₂, V => by
    rw [List.cons_append, StableHlo.after_cons, StableHlo.after_cons, after_append l l₂]

/-- A property of every element of two lists holds of every element of their concatenation. -/
theorem forall_append {α : Type} {p : α → Prop} {l₁ l₂ : List α} (h₁ : l₁.Forall p) (h₂ : l₂.Forall p) :
    (l₁ ++ l₂).Forall p :=
  List.forall_iff_forall_mem.2 fun x hx =>
    (List.mem_append.1 hx).elim (List.forall_iff_forall_mem.1 h₁ x) (List.forall_iff_forall_mem.1 h₂ x)

/-- All the operations, in order. -/
abbrev opsAll : List (HloOp τ sig (Elt F)) :=
  ops0 ++ (ops1 ++ (ops2 ++ (ops3 ++ (ops4 ++ (ops5 ++ (ops6 ++ (ops7 ++ (ops8 ++ (ops9 ++ ops10)))))))))

/-- The contents after all the operations are `RV11`. -/
theorem after_opsAll (m' : (ℓ : Loc nD τ sig) → Buf (Elt F) ℓ) (c : Dev nD) :
    StableHlo.after opsAll (StableHlo.launchContents m' c) = RV11 m' c := by
  rw [opsAll, after_append, after_append, after_append, after_append, after_append, after_append, after_append,
    after_append, after_append, after_append]

/-! ## Every operation touches the core's own references only, and determines its results -/

theorem ops0_sub : (ops0 : List (HloOp τ sig (Elt F))).Forall fun op => op.bufs ⊆ StableHlo.tcRefs τ sig :=
  ⟨StableHlo.binary_bufs_sub .., StableHlo.reshape_bufs_sub .., StableHlo.binary_bufs_sub .., StableHlo.reshape_bufs_sub .., StableHlo.binary_bufs_sub .., StableHlo.reshape_bufs_sub .., StableHlo.binary_bufs_sub .., StableHlo.reshape_bufs_sub ..⟩
theorem ops0_fresh : (ops0 : List (HloOp τ sig (Elt F))).Forall fun op => op.fresh = ∅ := by
  simp only [List.Forall]; repeat' constructor

theorem ops1_sub : (ops1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.reshape_bufs_sub .., StableHlo.nullary_bufs_sub .., StableHlo.binary_bufs_sub .., StableHlo.unary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.unary_bufs_sub .., StableHlo.binary_bufs_sub ..⟩
theorem ops1_fresh : (ops1 : List (HloOp τ sig (Elt F))).Forall fun op => op.fresh = ∅ := by
  simp only [List.Forall]; repeat' constructor

theorem ops2_sub : (ops2 : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.binary_bufs_sub .., StableHlo.reshape_bufs_sub ..⟩
theorem ops2_fresh : (ops2 : List (HloOp τ sig (Elt F))).Forall fun op => op.fresh = ∅ := by
  simp only [List.Forall]; repeat' constructor

theorem ops3_sub : (ops3 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.binary_bufs_sub ..⟩
theorem ops3_fresh : (ops3 : List (HloOp τ sig (Elt F))).Forall fun op => op.fresh = ∅ := by
  simp only [List.Forall]; repeat' constructor

theorem ops4_sub : (ops4 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
theorem ops4_fresh : (ops4 : List (HloOp τ sig (Elt F))).Forall fun op => op.fresh = ∅ := by
  simp only [List.Forall]; repeat' constructor

theorem ops5_sub : (ops5 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.binary_bufs_sub ..⟩
theorem ops5_fresh : (ops5 : List (HloOp τ sig (Elt F))).Forall fun op => op.fresh = ∅ := by
  simp only [List.Forall]; repeat' constructor

theorem ops6_sub : (ops6 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
theorem ops6_fresh : (ops6 : List (HloOp τ sig (Elt F))).Forall fun op => op.fresh = ∅ := by
  simp only [List.Forall]; repeat' constructor

theorem ops7_sub : (ops7 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub ..⟩
theorem ops7_fresh : (ops7 : List (HloOp τ sig (Elt F))).Forall fun op => op.fresh = ∅ := by
  simp only [List.Forall]; repeat' constructor

theorem ops8_sub : (ops8 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
theorem ops8_fresh : (ops8 : List (HloOp τ sig (Elt F))).Forall fun op => op.fresh = ∅ := by
  simp only [List.Forall]; repeat' constructor

theorem ops9_sub : (ops9 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub ..⟩
theorem ops9_fresh : (ops9 : List (HloOp τ sig (Elt F))).Forall fun op => op.fresh = ∅ := by
  simp only [List.Forall]; repeat' constructor

theorem ops10_sub : (ops10 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
theorem ops10_fresh : (ops10 : List (HloOp τ sig (Elt F))).Forall fun op => op.fresh = ∅ := by
  simp only [List.Forall]; repeat' constructor

theorem opsAll_sub : (opsAll : List (HloOp τ sig (Elt F))).Forall fun op => op.bufs ⊆ StableHlo.tcRefs τ sig :=
  forall_append ops0_sub (forall_append ops1_sub (forall_append ops2_sub (forall_append ops3_sub (forall_append ops4_sub (forall_append ops5_sub (forall_append ops6_sub (forall_append ops7_sub (forall_append ops8_sub (forall_append ops9_sub (ops10_sub))))))))))
theorem opsAll_fresh : (opsAll : List (HloOp τ sig (Elt F))).Forall fun op => op.fresh = ∅ :=
  forall_append ops0_fresh (forall_append ops1_fresh (forall_append ops2_fresh (forall_append ops3_fresh (forall_append ops4_fresh (forall_append ops5_fresh (forall_append ops6_fresh (forall_append ops7_fresh (forall_append ops8_fresh (forall_append ops9_fresh (ops10_fresh))))))))))

/-! ## The program is that straight line -/

/-- The program's statements, a called function's in the place of its call, are the operations of
    `opsAll` in order: both sides are one sequence of the same steps once sequencing is reassociated. -/
theorem main_eq (c : Dev nD) : main (F := F) c = StableHlo.seq opsAll := by
  chain_rfl

theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of the program terminates, and every
    final state has each buffer of each core at `RV11` of the memory at the start. -/
theorem run (m' : (ℓ : Loc nD τ sig) → Buf (Elt F) ℓ) (ρ : Dev nD → PrngReg) :
    θ_run defs (onTc (τ := τ) (main (F := F))) ⟨m', fun _ => 0, ρ⟩ fun r =>
      ∀ (c : Dev nD) (b : Ref sig .tc), r.2.mem ((c.tc : Thread nD τ).loc b) = RV11 m' c b :=
  (θ_run defs _ _).mono (fun _ h c b => (h c b).trans (congrFun (after_opsAll m' c) _))
    (StableHlo.run_seq scopedRefs_eq scopedSems_eq defs main (fun _ => opsAll) main_eq (fun _ => opsAll_sub) m' ρ
      (fun _ => List.forall_iff_forall_mem.1 opsAll_fresh))

end Cert.ReferenceIdeal.Hand

end
-- ==== Proof.Ref.Frame.lean ====
/-
  The reference program runs to the end from any memory and leaves every argument as it found it;
  and the first of its two results, computed by the ninth list of operations, is not written again.
-/
import proofs.«101045_j34351148433892_1_alg».proof.Proof.Ref.Run
import proofs.«101045_j34351148433892_1_alg».proof.Proof.Gen.Pre_finite_inputs
import proofs.«101045_j34351148433892_1_alg».proof.Defs

set_option maxRecDepth 4096

noncomputable section

namespace Cert.ReferenceIdeal.Hand

open Idealize.ShloMosaic Idealize.ShloMosaic.TcCoe
open Idealize.SL.Sem
open Cert.ReferenceIdeal Cert.ReferenceIdeal.Gen

variable {F : FTy → Type} [FloatOps F]

/-- The node result is what the ninth list leaves: the last two lists do not write it. -/
theorem RV11_main_v129 (m' : (ℓ : Loc nD τ sig) → Buf (Elt F) ℓ) (c : Dev nD) :
    RV11 m' c main_v129 = RV9 m' c main_v129 :=
  (RV11_of m' c main_v129 (by decide)).trans (RV10_of m' c main_v129 (by decide))

/-- Every execution of the reference program terminates and every argument ends as it started. -/
theorem frame_ref : Cert.frame_ReferenceIdeal := by
  intro m g _
  exact (θ_run (Cert.ReferenceIdeal.defs (F := Ideal)) _ _).mono
    (fun _ h c => ⟨(h c main_arg0).trans (RV11_main_arg0 m c),
      (h c main_arg1).trans (RV11_main_arg1 m c),
      (h c main_arg2).trans (RV11_main_arg2 m c),
      (h c main_arg3).trans (RV11_main_arg3 m c),
      (h c main_arg4).trans (RV11_main_arg4 m c),
      (h c main_arg5).trans (RV11_main_arg5 m c),
      (h c main_arg6).trans (RV11_main_arg6 m c),
      (h c main_arg7).trans (RV11_main_arg7 m c),
      (h c main_arg8).trans (RV11_main_arg8 m c),
      (h c main_arg9).trans (RV11_main_arg9 m c),
      (h c main_arg10).trans (RV11_main_arg10 m c),
      (h c main_arg11).trans (RV11_main_arg11 m c),
      (h c main_arg12).trans (RV11_main_arg12 m c),
      (h c main_arg13).trans (RV11_main_arg13 m c),
      (h c main_arg14).trans (RV11_main_arg14 m c),
      (h c main_arg15).trans (RV11_main_arg15 m c),
      (h c main_arg16).trans (RV11_main_arg16 m c),
      (h c main_arg17).trans (RV11_main_arg17 m c),
      (h c main_arg18).trans (RV11_main_arg18 m c),
      (h c main_arg19).trans (RV11_main_arg19 m c),
      (h c main_arg20).trans (RV11_main_arg20 m c),
      (h c main_arg21).trans (RV11_main_arg21 m c),
      (h c main_arg22).trans (RV11_main_arg22 m c),
      (h c main_arg23).trans (RV11_main_arg23 m c),
      (h c main_arg24).trans (RV11_main_arg24 m c),
      (h c main_arg25).trans (RV11_main_arg25 m c),
      (h c main_arg26).trans (RV11_main_arg26 m c),
      (h c main_arg27).trans (RV11_main_arg27 m c),
      (h c main_arg28).trans (RV11_main_arg28 m c)⟩)
    (run (F := Ideal) m g)

end Cert.ReferenceIdeal.Hand

end
-- ==== Proof.Val.S1.lean ====
/- Stage 1 of the bridge between the kernel program and the reference at the ideal values: the four projections. The
   two matmul regions' output arrays as one function of their row array and weight, index by index (each entry the sum
   over the 128 contracted coordinates of row entry times weight entry); the kernel program's buffers around them (the
   three column groups cut out of region 0's output; its weight, three matrices side by side); and the four equalities
   with the reference's products. -/
import proofs.«101045_j34351148433892_1_alg».proof.Proof.KI.Reg0
import proofs.«101045_j34351148433892_1_alg».proof.Proof.KI.Reg1
import proofs.«101045_j34351148433892_1_alg».proof.Proof.Gen.KernelIdeal.Regions
import Idealize.ShloMosaic.Lib.ValueIdx
import Idealize.ShloMosaic.Lib.ValueLayout
import Idealize.ShloMosaic.Lib.Pipeline.Value
import Idealize.ShloMosaic.PureOps.Ideal.Laws
import proofs.«101045_j34351148433892_1_alg».proof.Proof.Gen.ReferenceIdeal
import proofs.«101045_j34351148433892_1_alg».proof.Proof.Ref.Ops
import Idealize.ShloMosaic.Lib.Tactic

set_option maxRecDepth 16384

noncomputable section

namespace Cert.Bridge.S1

open Idealize.ShloMosaic Idealize.ShloMosaic.TcCoe Idealize.ShloMosaic.ValueIdx Idealize.SL.Sem
open Idealize.ShloMosaic.Pipeline (Dat)
open scoped BigOperators

/-- Row `r` of `a` against column `j` of `w`: the sum over the 128 contracted coordinates. -/
abbrev rowDot {M N : Nat} (a : (⟨2, ![M, 128]⟩ : Shape).Idx → EReal) (w : (⟨2, ![128, N]⟩ : Shape).Idx → EReal) (r : Fin M) (j : Fin N) : EReal :=
  ∑ k : Fin 128, a (ix2 r k) * w (ix2 k j)

/-- Two such sums agree once the row arrays are equal and the weights agree down the two columns read. -/
theorem rowDot_congr {M N N' : Nat} (a a' : (⟨2, ![M, 128]⟩ : Shape).Idx → EReal) (w : (⟨2, ![128, N]⟩ : Shape).Idx → EReal)
    (w' : (⟨2, ![128, N']⟩ : Shape).Idx → EReal) (r : Fin M) (j : Fin N) (j' : Fin N')
    (ha : a = a') (hw : ∀ k : Fin 128, w (ix2 k j) = w' (ix2 k j')) : rowDot a w r j = rowDot a' w' r j' := by
  subst ha
  exact Finset.sum_congr rfl fun k _ => by rw [hw k]
/-! ### The dimension numbers `dot_S5000x128_S128x384_S5000x384_1_0_0_1_n_n`: rows by the contracted axis, times the contracted axis by columns -/

theorem lhs_k0_0 (i : Cert.KernelIdeal.S5000x384.Idx) (q : Cert.KernelIdeal.dot_S5000x128_S128x384_S5000x384_1_0_0_1_n_n.contr.Idx) :
    (Cert.KernelIdeal.dot_S5000x128_S128x384_S5000x384_1_0_0_1_n_n.lhsIdx i q 0).val = (i 0).val := by
  unfold DotDims.lhsIdx
  rw [dif_neg (show ¬(0 : Fin Cert.KernelIdeal.S5000x128.rank) ∈ Cert.KernelIdeal.dot_S5000x128_S128x384_S5000x384_1_0_0_1_n_n.lhsBatch by decide), dif_pos (show (0 : Fin Cert.KernelIdeal.S5000x128.rank) ∈ Cert.KernelIdeal.dot_S5000x128_S128x384_S5000x384_1_0_0_1_n_n.lhsNonContracting by decide)]
  rfl
theorem lhs_k0_1 (i : Cert.KernelIdeal.S5000x384.Idx) (q : Cert.KernelIdeal.dot_S5000x128_S128x384_S5000x384_1_0_0_1_n_n.contr.Idx) :
    (Cert.KernelIdeal.dot_S5000x128_S128x384_S5000x384_1_0_0_1_n_n.lhsIdx i q 1).val = (q ⟨0, by decide⟩).val :=
  Cert.KernelIdeal.dot_S5000x128_S128x384_S5000x384_1_0_0_1_n_n.lhsIdx_val_of_single rfl i q
theorem rhs_k0_0 (i : Cert.KernelIdeal.S5000x384.Idx) (q : Cert.KernelIdeal.dot_S5000x128_S128x384_S5000x384_1_0_0_1_n_n.contr.Idx) :
    (Cert.KernelIdeal.dot_S5000x128_S128x384_S5000x384_1_0_0_1_n_n.rhsIdx i q 0).val = (q ⟨0, by decide⟩).val :=
  Cert.KernelIdeal.dot_S5000x128_S128x384_S5000x384_1_0_0_1_n_n.rhsIdx_val_of_single rfl i q
theorem rhs_k0_1 (i : Cert.KernelIdeal.S5000x384.Idx) (q : Cert.KernelIdeal.dot_S5000x128_S128x384_S5000x384_1_0_0_1_n_n.contr.Idx) :
    (Cert.KernelIdeal.dot_S5000x128_S128x384_S5000x384_1_0_0_1_n_n.rhsIdx i q 1).val = (i 1).val := by
  unfold DotDims.rhsIdx
  rw [dif_neg (show ¬(1 : Fin Cert.KernelIdeal.S128x384.rank) ∈ Cert.KernelIdeal.dot_S5000x128_S128x384_S5000x384_1_0_0_1_n_n.rhsBatch by decide), dif_pos (show (1 : Fin Cert.KernelIdeal.S128x384.rank) ∈ Cert.KernelIdeal.dot_S5000x128_S128x384_S5000x384_1_0_0_1_n_n.rhsNonContracting by decide)]
  rfl

/-- The left operand's index at output `(p, q)` and contraction coordinate `k` is `(p, k)`; the right's is `(k, q)`. -/
theorem lidx_k0 (p : Fin 5000) (q : Fin 384) (k : Fin 128) :
    Cert.KernelIdeal.dot_S5000x128_S128x384_S5000x384_1_0_0_1_n_n.lhsIdx (ix2 p q) ((contrEquiv1 Cert.KernelIdeal.dot_S5000x128_S128x384_S5000x384_1_0_0_1_n_n 128 rfl rfl).symm k) = ix2 p k := by
  have hk := contrEquiv1_symm_val Cert.KernelIdeal.dot_S5000x128_S128x384_S5000x384_1_0_0_1_n_n 128 rfl rfl k
  exact funext fun a => Fin.ext (by
    match a with
    | ⟨0, _⟩ => exact lhs_k0_0 _ _
    | ⟨1, _⟩ => exact (lhs_k0_1 _ _).trans hk)
theorem ridx_k0 (p : Fin 5000) (q : Fin 384) (k : Fin 128) :
    Cert.KernelIdeal.dot_S5000x128_S128x384_S5000x384_1_0_0_1_n_n.rhsIdx (ix2 p q) ((contrEquiv1 Cert.KernelIdeal.dot_S5000x128_S128x384_S5000x384_1_0_0_1_n_n 128 rfl rfl).symm k) = ix2 k q := by
  have hk := contrEquiv1_symm_val Cert.KernelIdeal.dot_S5000x128_S128x384_S5000x384_1_0_0_1_n_n 128 rfl rfl k
  exact funext fun a => Fin.ext (by
    match a with
    | ⟨0, _⟩ => exact (rhs_k0_0 _ _).trans hk
    | ⟨1, _⟩ => exact rhs_k0_1 _ _)

/-- The matrix product into zero, at `(p, q)`: the sum over `k` of the left at `(p, k)` times the right at `(k, q)`. -/
theorem matmul_k0 {φ₁ φ₂ : FTy} (x : FVec Ideal Cert.KernelIdeal.S5000x128 φ₁) (w : FVec Ideal Cert.KernelIdeal.S128x384 φ₂) (p : Fin 5000) (q : Fin 384) :
    FloatOps.matmul Cert.KernelIdeal.dot_S5000x128_S128x384_S5000x384_1_0_0_1_n_n none x w (constant (F := Ideal) Cert.KernelIdeal.S5000x384 .f32 0x00000000#32) (ix2 p q)
      = ∑ k : Fin 128, x (ix2 p k) * w (ix2 k q) := by
  rw [Ideal.matmul_constant_zero_apply, ← Equiv.sum_comp (contrEquiv1 Cert.KernelIdeal.dot_S5000x128_S128x384_S5000x384_1_0_0_1_n_n 128 rfl rfl).symm]
  refine Finset.sum_congr rfl fun k _ => ?_
  rw [lidx_k0, ridx_k0]

/-! ### The dimension numbers `dot_S5000x128_S128x128_S5000x128_1_0_0_1_n_n`: rows by the contracted axis, times the contracted axis by columns -/

theorem lhs_k1_0 (i : Cert.KernelIdeal.S5000x128.Idx) (q : Cert.KernelIdeal.dot_S5000x128_S128x128_S5000x128_1_0_0_1_n_n.contr.Idx) :
    (Cert.KernelIdeal.dot_S5000x128_S128x128_S5000x128_1_0_0_1_n_n.lhsIdx i q 0).val = (i 0).val := by
  unfold DotDims.lhsIdx
  rw [dif_neg (show ¬(0 : Fin Cert.KernelIdeal.S5000x128.rank) ∈ Cert.KernelIdeal.dot_S5000x128_S128x128_S5000x128_1_0_0_1_n_n.lhsBatch by decide), dif_pos (show (0 : Fin Cert.KernelIdeal.S5000x128.rank) ∈ Cert.KernelIdeal.dot_S5000x128_S128x128_S5000x128_1_0_0_1_n_n.lhsNonContracting by decide)]
  rfl
theorem lhs_k1_1 (i : Cert.KernelIdeal.S5000x128.Idx) (q : Cert.KernelIdeal.dot_S5000x128_S128x128_S5000x128_1_0_0_1_n_n.contr.Idx) :
    (Cert.KernelIdeal.dot_S5000x128_S128x128_S5000x128_1_0_0_1_n_n.lhsIdx i q 1).val = (q ⟨0, by decide⟩).val :=
  Cert.KernelIdeal.dot_S5000x128_S128x128_S5000x128_1_0_0_1_n_n.lhsIdx_val_of_single rfl i q
theorem rhs_k1_0 (i : Cert.KernelIdeal.S5000x128.Idx) (q : Cert.KernelIdeal.dot_S5000x128_S128x128_S5000x128_1_0_0_1_n_n.contr.Idx) :
    (Cert.KernelIdeal.dot_S5000x128_S128x128_S5000x128_1_0_0_1_n_n.rhsIdx i q 0).val = (q ⟨0, by decide⟩).val :=
  Cert.KernelIdeal.dot_S5000x128_S128x128_S5000x128_1_0_0_1_n_n.rhsIdx_val_of_single rfl i q
theorem rhs_k1_1 (i : Cert.KernelIdeal.S5000x128.Idx) (q : Cert.KernelIdeal.dot_S5000x128_S128x128_S5000x128_1_0_0_1_n_n.contr.Idx) :
    (Cert.KernelIdeal.dot_S5000x128_S128x128_S5000x128_1_0_0_1_n_n.rhsIdx i q 1).val = (i 1).val := by
  unfold DotDims.rhsIdx
  rw [dif_neg (show ¬(1 : Fin Cert.KernelIdeal.S128x128.rank) ∈ Cert.KernelIdeal.dot_S5000x128_S128x128_S5000x128_1_0_0_1_n_n.rhsBatch by decide), dif_pos (show (1 : Fin Cert.KernelIdeal.S128x128.rank) ∈ Cert.KernelIdeal.dot_S5000x128_S128x128_S5000x128_1_0_0_1_n_n.rhsNonContracting by decide)]
  rfl

/-- The left operand's index at output `(p, q)` and contraction coordinate `k` is `(p, k)`; the right's is `(k, q)`. -/
theorem lidx_k1 (p : Fin 5000) (q : Fin 128) (k : Fin 128) :
    Cert.KernelIdeal.dot_S5000x128_S128x128_S5000x128_1_0_0_1_n_n.lhsIdx (ix2 p q) ((contrEquiv1 Cert.KernelIdeal.dot_S5000x128_S128x128_S5000x128_1_0_0_1_n_n 128 rfl rfl).symm k) = ix2 p k := by
  have hk := contrEquiv1_symm_val Cert.KernelIdeal.dot_S5000x128_S128x128_S5000x128_1_0_0_1_n_n 128 rfl rfl k
  exact funext fun a => Fin.ext (by
    match a with
    | ⟨0, _⟩ => exact lhs_k1_0 _ _
    | ⟨1, _⟩ => exact (lhs_k1_1 _ _).trans hk)
theorem ridx_k1 (p : Fin 5000) (q : Fin 128) (k : Fin 128) :
    Cert.KernelIdeal.dot_S5000x128_S128x128_S5000x128_1_0_0_1_n_n.rhsIdx (ix2 p q) ((contrEquiv1 Cert.KernelIdeal.dot_S5000x128_S128x128_S5000x128_1_0_0_1_n_n 128 rfl rfl).symm k) = ix2 k q := by
  have hk := contrEquiv1_symm_val Cert.KernelIdeal.dot_S5000x128_S128x128_S5000x128_1_0_0_1_n_n 128 rfl rfl k
  exact funext fun a => Fin.ext (by
    match a with
    | ⟨0, _⟩ => exact (rhs_k1_0 _ _).trans hk
    | ⟨1, _⟩ => exact rhs_k1_1 _ _)

/-- The matrix product into zero, at `(p, q)`: the sum over `k` of the left at `(p, k)` times the right at `(k, q)`. -/
theorem matmul_k1 {φ₁ φ₂ : FTy} (x : FVec Ideal Cert.KernelIdeal.S5000x128 φ₁) (w : FVec Ideal Cert.KernelIdeal.S128x128 φ₂) (p : Fin 5000) (q : Fin 128) :
    FloatOps.matmul Cert.KernelIdeal.dot_S5000x128_S128x128_S5000x128_1_0_0_1_n_n none x w (constant (F := Ideal) Cert.KernelIdeal.S5000x128 .f32 0x00000000#32) (ix2 p q)
      = ∑ k : Fin 128, x (ix2 p k) * w (ix2 k q) := by
  rw [Ideal.matmul_constant_zero_apply, ← Equiv.sum_comp (contrEquiv1 Cert.KernelIdeal.dot_S5000x128_S128x128_S5000x128_1_0_0_1_n_n 128 rfl rfl).symm]
  refine Finset.sum_congr rfl fun k _ => ?_
  rw [lidx_k1, ridx_k1]

/-- Region 0's payload at `(p, q)`: the row block's row `p` against the weight's column `q` (the change to the
    narrower float format is the identity on the extended reals, and the shape cast is to the same shape). -/
theorem pay0_apply (x0 : Vec Ideal Cert.KernelIdeal.S5000x128 .f32) (x1 : Vec Ideal Cert.KernelIdeal.S128x384 .bf16) (p : Fin 5000) (q : Fin 384) :
    Cert.KernelIdeal.Gen.k0_pay1 x0 x1 (ix2 p q) = rowDot (M := 5000) (N := 384) x0 x1 p q := by
  unfold Cert.KernelIdeal.Gen.k0_pay1
  rw [shapeCast_self]
  exact matmul_k0 (truncf .bf16 x0 Cert.KernelIdeal.Gen.bitsLt_bf16_f32) x1 p q

/-- Region 1's payload at `(p, q)`, likewise. -/
theorem pay1_apply (x0 : Vec Ideal Cert.KernelIdeal.S5000x128 .f32) (x1 : Vec Ideal Cert.KernelIdeal.S128x128 .bf16) (p : Fin 5000) (q : Fin 128) :
    Cert.KernelIdeal.Gen.k1_pay1 x0 x1 (ix2 p q) = rowDot (M := 5000) (N := 128) x0 x1 p q := by
  unfold Cert.KernelIdeal.Gen.k1_pay1
  rw [shapeCast_self]
  exact matmul_k1 (truncf .bf16 x0 Cert.KernelIdeal.Gen.bitsLt_bf16_f32) x1 p q

/-! ### The dimension numbers `dot_S50000x128_S128x128_S50000x128_1_0_0_1_n_n`: rows by the contracted axis, times the contracted axis by columns -/

theorem lhs_r0_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide), dif_pos (show (0 : Fin Cert.ReferenceIdeal.S50000x128.rank) ∈ Cert.ReferenceIdeal.dot_S50000x128_S128x128_S50000x128_1_0_0_1_n_n.lhsNonContracting by decide)]
  rfl
theorem lhs_r0_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
theorem rhs_r0_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
theorem rhs_r0_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide), dif_pos (show (1 : Fin Cert.ReferenceIdeal.S128x128.rank) ∈ Cert.ReferenceIdeal.dot_S50000x128_S128x128_S50000x128_1_0_0_1_n_n.rhsNonContracting by decide)]
  rfl

/-- The left operand's index at output `(p, q)` and contraction coordinate `k` is `(p, k)`; the right's is `(k, q)`. -/
theorem lidx_r0 (p : Fin 50000) (q : Fin 128) (k : Fin 128) :
    Cert.ReferenceIdeal.dot_S50000x128_S128x128_S50000x128_1_0_0_1_n_n.lhsIdx (ix2 p q) ((contrEquiv1 Cert.ReferenceIdeal.dot_S50000x128_S128x128_S50000x128_1_0_0_1_n_n 128 rfl rfl).symm k) = ix2 p k := by
  have hk := contrEquiv1_symm_val Cert.ReferenceIdeal.dot_S50000x128_S128x128_S50000x128_1_0_0_1_n_n 128 rfl rfl k
  exact funext fun a => Fin.ext (by
    match a with
    | ⟨0, _⟩ => exact lhs_r0_0 _ _
    | ⟨1, _⟩ => exact (lhs_r0_1 _ _).trans hk)
theorem ridx_r0 (p : Fin 50000) (q : Fin 128) (k : Fin 128) :
    Cert.ReferenceIdeal.dot_S50000x128_S128x128_S50000x128_1_0_0_1_n_n.rhsIdx (ix2 p q) ((contrEquiv1 Cert.ReferenceIdeal.dot_S50000x128_S128x128_S50000x128_1_0_0_1_n_n 128 rfl rfl).symm k) = ix2 k q := by
  have hk := contrEquiv1_symm_val Cert.ReferenceIdeal.dot_S50000x128_S128x128_S50000x128_1_0_0_1_n_n 128 rfl rfl k
  exact funext fun a => Fin.ext (by
    match a with
    | ⟨0, _⟩ => exact (rhs_r0_0 _ _).trans hk
    | ⟨1, _⟩ => exact rhs_r0_1 _ _)

/-- The reference's product at `(p, q)`: the same sum, with no accumulator. -/
theorem dotGeneral_r0 (x : FVec Ideal Cert.ReferenceIdeal.S50000x128 .f32) (w : FVec Ideal Cert.ReferenceIdeal.S128x128 .f32) (p : Fin 50000) (q : Fin 128) :
    Host.dotGeneral (F := Ideal) (φ₁ := .f32) (φ₂ := .f32) Cert.ReferenceIdeal.dot_S50000x128_S128x128_S50000x128_1_0_0_1_n_n none x w (ix2 p q) = rowDot (M := 50000) (N := 128) x w p q := by
  simp only [Host.dotGeneral]
  rw [Ideal.dotGeneral_apply, ← Equiv.sum_comp (contrEquiv1 Cert.ReferenceIdeal.dot_S50000x128_S128x128_S50000x128_1_0_0_1_n_n 128 rfl rfl).symm]
  refine Finset.sum_congr rfl fun k _ => ?_
  rw [lidx_r0, ridx_r0]

/-! ### The dimension numbers `dot_S500000x128_S128x128_S500000x128_1_0_0_1_n_n`: rows by the contracted axis, times the contracted axis by columns -/

theorem lhs_r1_0 (i : Cert.ReferenceIdeal.S500000x128.Idx) (q : Cert.ReferenceIdeal.dot_S500000x128_S128x128_S500000x128_1_0_0_1_n_n.contr.Idx) :
    (Cert.ReferenceIdeal.dot_S500000x128_S128x128_S500000x128_1_0_0_1_n_n.lhsIdx i q 0).val = (i 0).val := by
  unfold DotDims.lhsIdx
  rw [dif_neg (show ¬(0 : Fin Cert.ReferenceIdeal.S500000x128.rank) ∈ Cert.ReferenceIdeal.dot_S500000x128_S128x128_S500000x128_1_0_0_1_n_n.lhsBatch by decide), dif_pos (show (0 : Fin Cert.ReferenceIdeal.S500000x128.rank) ∈ Cert.ReferenceIdeal.dot_S500000x128_S128x128_S500000x128_1_0_0_1_n_n.lhsNonContracting by decide)]
  rfl
theorem lhs_r1_1 (i : Cert.ReferenceIdeal.S500000x128.Idx) (q : Cert.ReferenceIdeal.dot_S500000x128_S128x128_S500000x128_1_0_0_1_n_n.contr.Idx) :
    (Cert.ReferenceIdeal.dot_S500000x128_S128x128_S500000x128_1_0_0_1_n_n.lhsIdx i q 1).val = (q ⟨0, by decide⟩).val :=
  Cert.ReferenceIdeal.dot_S500000x128_S128x128_S500000x128_1_0_0_1_n_n.lhsIdx_val_of_single rfl i q
theorem rhs_r1_0 (i : Cert.ReferenceIdeal.S500000x128.Idx) (q : Cert.ReferenceIdeal.dot_S500000x128_S128x128_S500000x128_1_0_0_1_n_n.contr.Idx) :
    (Cert.ReferenceIdeal.dot_S500000x128_S128x128_S500000x128_1_0_0_1_n_n.rhsIdx i q 0).val = (q ⟨0, by decide⟩).val :=
  Cert.ReferenceIdeal.dot_S500000x128_S128x128_S500000x128_1_0_0_1_n_n.rhsIdx_val_of_single rfl i q
theorem rhs_r1_1 (i : Cert.ReferenceIdeal.S500000x128.Idx) (q : Cert.ReferenceIdeal.dot_S500000x128_S128x128_S500000x128_1_0_0_1_n_n.contr.Idx) :
    (Cert.ReferenceIdeal.dot_S500000x128_S128x128_S500000x128_1_0_0_1_n_n.rhsIdx i q 1).val = (i 1).val := by
  unfold DotDims.rhsIdx
  rw [dif_neg (show ¬(1 : Fin Cert.ReferenceIdeal.S128x128.rank) ∈ Cert.ReferenceIdeal.dot_S500000x128_S128x128_S500000x128_1_0_0_1_n_n.rhsBatch by decide), dif_pos (show (1 : Fin Cert.ReferenceIdeal.S128x128.rank) ∈ Cert.ReferenceIdeal.dot_S500000x128_S128x128_S500000x128_1_0_0_1_n_n.rhsNonContracting by decide)]
  rfl

/-- The left operand's index at output `(p, q)` and contraction coordinate `k` is `(p, k)`; the right's is `(k, q)`. -/
theorem lidx_r1 (p : Fin 500000) (q : Fin 128) (k : Fin 128) :
    Cert.ReferenceIdeal.dot_S500000x128_S128x128_S500000x128_1_0_0_1_n_n.lhsIdx (ix2 p q) ((contrEquiv1 Cert.ReferenceIdeal.dot_S500000x128_S128x128_S500000x128_1_0_0_1_n_n 128 rfl rfl).symm k) = ix2 p k := by
  have hk := contrEquiv1_symm_val Cert.ReferenceIdeal.dot_S500000x128_S128x128_S500000x128_1_0_0_1_n_n 128 rfl rfl k
  exact funext fun a => Fin.ext (by
    match a with
    | ⟨0, _⟩ => exact lhs_r1_0 _ _
    | ⟨1, _⟩ => exact (lhs_r1_1 _ _).trans hk)
theorem ridx_r1 (p : Fin 500000) (q : Fin 128) (k : Fin 128) :
    Cert.ReferenceIdeal.dot_S500000x128_S128x128_S500000x128_1_0_0_1_n_n.rhsIdx (ix2 p q) ((contrEquiv1 Cert.ReferenceIdeal.dot_S500000x128_S128x128_S500000x128_1_0_0_1_n_n 128 rfl rfl).symm k) = ix2 k q := by
  have hk := contrEquiv1_symm_val Cert.ReferenceIdeal.dot_S500000x128_S128x128_S500000x128_1_0_0_1_n_n 128 rfl rfl k
  exact funext fun a => Fin.ext (by
    match a with
    | ⟨0, _⟩ => exact (rhs_r1_0 _ _).trans hk
    | ⟨1, _⟩ => exact rhs_r1_1 _ _)

/-- The reference's product at `(p, q)`: the same sum, with no accumulator. -/
theorem dotGeneral_r1 (x : FVec Ideal Cert.ReferenceIdeal.S500000x128 .f32) (w : FVec Ideal Cert.ReferenceIdeal.S128x128 .f32) (p : Fin 500000) (q : Fin 128) :
    Host.dotGeneral (F := Ideal) (φ₁ := .f32) (φ₂ := .f32) Cert.ReferenceIdeal.dot_S500000x128_S128x128_S500000x128_1_0_0_1_n_n none x w (ix2 p q) = rowDot (M := 500000) (N := 128) x w p q := by
  simp only [Host.dotGeneral]
  rw [Ideal.dotGeneral_apply, ← Equiv.sum_comp (contrEquiv1 Cert.ReferenceIdeal.dot_S500000x128_S128x128_S500000x128_1_0_0_1_n_n 128 rfl rfl).symm]
  refine Finset.sum_congr rfl fun k _ => ?_
  rw [lidx_r1, ridx_r1]

section Values
open Cert.KernelIdeal Cert.KernelIdeal.Gen Cert.KernelIdeal.Hand

variable (V : (c : Dev nD) → (b : Ref sig .tc) → Buf (Elt Ideal) ((c : Thread nD τ).loc b))

theorem hz : (![0, 0] : Fin 2 → Nat) = fun _ => 0 := funext fun a => by fin_cases a <;> rfl

/-! ## Region 0: the output array after the region, index by index, for any entry contents -/

/-- The windows' index maps over the grid: the row windows sit at block `t` of the rows and block 0 of the columns; the
    weight window always at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What the region leaves in its output array: each entry `(r, j)` is the sum over `k` of the row array at `(r, k)`
    times the weight at `(k, j)`. -/
abbrev G0 (a : S50000x128.Idx → EReal) (w : S128x384.Idx → EReal) : S50000x384.Idx → EReal :=
  fun i => rowDot (M := 50000) (N := 384) a w ⟨(i 0).val, idx2_lt0 i⟩ ⟨(i 1).val, idx2_lt1 i⟩

/-- The payload of two blocks at a block index `y` is `G0` of two arrays at an array index `i`, once the row block's
    row `y 0` is the row array's row `i 0` and the weight block's column `y 1` is the weight's column `i 1`. -/
theorem block_value0 (x0 : Vec Ideal S5000x128 .f32) (x1 : Vec Ideal S128x384 .bf16) (a : S50000x128.Idx → EReal) (w : S128x384.Idx → EReal)
    (y : S5000x384.Idx) (i : S50000x384.Idx)
    (h0 : ∀ k : Fin 128, x0 (ix2 (⟨(y 0).val, idx2_lt0 y⟩ : Fin 5000) k) = a (ix2 (⟨(i 0).val, idx2_lt0 i⟩ : Fin 50000) k))
    (h1 : ∀ k : Fin 128, x1 (ix2 k (⟨(y 1).val, idx2_lt1 y⟩ : Fin 384)) = w (ix2 k (⟨(i 1).val, idx2_lt1 i⟩ : Fin 384))) :
    k0_pay1 x0 x1 y = G0 a w i := by
  obtain ⟨p, q, rfl⟩ : ∃ (p : Fin 5000) (q : Fin 384), y = ix2 p q := ⟨y 0, y 1, eq_ix2 y⟩
  refine (pay0_apply x0 x1 p q).trans ?_
  exact Finset.sum_congr rfl fun k _ => by rw [← h0 k, ← h1 k]

/-- The row window's block at point `t` is rows `5000 t … 5000 t + 4999` of its array. -/
theorem iblk0_0_apply (c : Dev nD) (t : Fin cfg0.N) (p : Fin 5000) (k : Fin 128) (r : Fin 50000) (hr : r.val = 5000 * t.val + p.val) :
    (iblk0 V c 0 t : Vec Ideal S5000x128 .f32) (ix2 p k) = (V c main_arg0 : S50000x128.Idx → EReal) (ix2 r k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t 0 * 5000 + 1 * p.val = r.val; rw [e0, hr]; omega
  | ⟨1, _⟩ => show win0_0.index t 1 * 128 + 1 * k.val = k.val; rw [e1]; omega

/-- The weight window's block at every point is the whole weight. -/
theorem iblk0_1_apply (c : Dev nD) (t : Fin cfg0.N) (k : Fin 128) (q : Fin 384) :
    (iblk0 V c 1 t : Vec Ideal S128x384 .bf16) (ix2 k q) = (V c main_v1 : S128x384.Idx → EReal) (ix2 k q) := by
  obtain ⟨-, -, e2, e3, -⟩ := idx_facts0 t
  unfold iblk0
  rw [View.read_apply]
  show V c main_v1 _ = V c main_v1 _
  congr 1
  funext a
  apply Fin.ext
  match a with
  | ⟨0, _⟩ => show win0_1.index t 0 * 128 + 1 * k.val = k.val; rw [e2]; omega
  | ⟨1, _⟩ => show win0_1.index t 1 * 384 + 1 * q.val = q.val; rw [e3]; omega

/-- What point `t` writes back is block `t` of `G0` of the arrays as the region finds them. -/
theorem flushed0_eq (c : Dev nD) (t : Fin cfg0.N) :
    (dat0 V c).flushed 2 t = ((cfg0.win 2).blk t).view.read (Elt Ideal) (G0 (V c main_arg0) (V c main_v1)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x384) hz]
  obtain ⟨-, -, -, -, e4, e5⟩ := idx_facts0 t
  funext y
  show k0_pay1 (iblk0 V c 0 t) (iblk0 V c 1 t) y = G0 (V c main_arg0) (V c main_v1) (((cfg0.win 2).blk t).view.emb y)
  have hy0 : (y 0).val < 5000 := (y 0).isLt
  have hy1 : (y 1).val < 384 := (y 1).isLt
  have E0 : ((((cfg0.win 2).blk t).view.emb y) 0).val = 5000 * t.val + (y 0).val := by
    show win0_2.index t 0 * 5000 + 1 * (y 0).val = _; rw [e4]; omega
  have E1 : ((((cfg0.win 2).blk t).view.emb y) 1).val = (y 1).val := by
    show win0_2.index t 1 * 384 + 1 * (y 1).val = _; rw [e5]; omega
  refine block_value0 (iblk0 V c 0 t) (iblk0 V c 1 t) (V c main_arg0) (V c main_v1) y (((cfg0.win 2).blk t).view.emb y) (fun k => ?_) (fun k => ?_)
  · exact iblk0_0_apply V c t _ k _ E0
  · rw [iblk0_1_apply V c t k _]
    exact congrArg (V c main_v1 : S128x384.Idx → EReal) (congrArg (ix2 k) (Fin.ext E1.symm))

/-- Every index of the output array is in the block of the point `row / 5000`. -/
theorem cover0 (i : S50000x384.Idx) : ∃ t : Fin cfg0.N, (cfg0.win 2).flush t = true ∧ i ∈ ((cfg0.win 2).blk t).view.set := by
  have h0 : (i 0).val < 50000 := (i 0).isLt
  have h1 : (i 1).val < 384 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, e4, e5⟩ := idx_facts0 t
  refine ⟨t, flush0_2 t, ?_⟩
  show i ∈ ((View.whole main_v15).slice (win0_2.rect t)).set
  rw [View.set_slice_whole, Rect.mem_set_unit]
  intro a
  match a with
  | ⟨0, _⟩ => show win0_2.index t 0 * 5000 ≤ (i 0).val ∧ (i 0).val < win0_2.index t 0 * 5000 + 5000; rw [e4, ht]; omega
  | ⟨1, _⟩ => show win0_2.index t 1 * 384 ≤ (i 1).val ∧ (i 1).val < win0_2.index t 1 * 384 + 384; rw [e5]; omega

/-- THE REGION'S VALUE: after region 0 its output array is `G0` of the row array and the weight as the region finds them. -/
theorem val0_2 (c : Dev nD) : (dat0 V c).arrAt 2 cfg0.N = G0 (V c main_arg0) (V c main_v1) :=
  (dat0 V c).arrAt_eq_of_cover 2 _ (fun t _ => flushed0_eq V c t) (cover0)

/-- … at explicit coordinates. -/
theorem val0_2_apply (c : Dev nD) (r : Fin 50000) (j : Fin 384) :
    (dat0 V c).arrAt 2 cfg0.N (ix2 r j) = rowDot (M := 50000) (N := 384) (V c main_arg0) (V c main_v1) r j :=
  congrFun (val0_2 V c) (ix2 r j)

/-! ## Region 1: the output array after the region, index by index, for any entry contents -/

/-- The windows' index maps over the grid: the row windows sit at block `t` of the rows and block 0 of the columns; the
    weight window always at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What the region leaves in its output array: each entry `(r, j)` is the sum over `k` of the row array at `(r, k)`
    times the weight at `(k, j)`. -/
abbrev G1 (a : S500000x128.Idx → EReal) (w : S128x128.Idx → EReal) : S500000x128.Idx → EReal :=
  fun i => rowDot (M := 500000) (N := 128) a w ⟨(i 0).val, idx2_lt0 i⟩ ⟨(i 1).val, idx2_lt1 i⟩

/-- The payload of two blocks at a block index `y` is `G1` of two arrays at an array index `i`, once the row block's
    row `y 0` is the row array's row `i 0` and the weight block's column `y 1` is the weight's column `i 1`. -/
theorem block_value1 (x0 : Vec Ideal S5000x128 .f32) (x1 : Vec Ideal S128x128 .bf16) (a : S500000x128.Idx → EReal) (w : S128x128.Idx → EReal)
    (y : S5000x128.Idx) (i : S500000x128.Idx)
    (h0 : ∀ k : Fin 128, x0 (ix2 (⟨(y 0).val, idx2_lt0 y⟩ : Fin 5000) k) = a (ix2 (⟨(i 0).val, idx2_lt0 i⟩ : Fin 500000) k))
    (h1 : ∀ k : Fin 128, x1 (ix2 k (⟨(y 1).val, idx2_lt1 y⟩ : Fin 128)) = w (ix2 k (⟨(i 1).val, idx2_lt1 i⟩ : Fin 128))) :
    k1_pay1 x0 x1 y = G1 a w i := by
  obtain ⟨p, q, rfl⟩ : ∃ (p : Fin 5000) (q : Fin 128), y = ix2 p q := ⟨y 0, y 1, eq_ix2 y⟩
  refine (pay1_apply x0 x1 p q).trans ?_
  exact Finset.sum_congr rfl fun k _ => by rw [← h0 k, ← h1 k]

/-- The row window's block at point `t` is rows `5000 t … 5000 t + 4999` of its array. -/
theorem iblk1_0_apply (c : Dev nD) (t : Fin cfg1.N) (p : Fin 5000) (k : Fin 128) (r : Fin 500000) (hr : r.val = 5000 * t.val + p.val) :
    (iblk1 V c 0 t : Vec Ideal S5000x128 .f32) (ix2 p k) = (V c main_arg1 : S500000x128.Idx → EReal) (ix2 r k) := by
  obtain ⟨e0, e1, -⟩ := idx_facts1 t
  unfold iblk1
  rw [View.read_apply]
  show V c main_arg1 _ = V c main_arg1 _
  congr 1
  funext a
  apply Fin.ext
  match a with
  | ⟨0, _⟩ => show win1_0.index t 0 * 5000 + 1 * p.val = r.val; rw [e0, hr]; omega
  | ⟨1, _⟩ => show win1_0.index t 1 * 128 + 1 * k.val = k.val; rw [e1]; omega

/-- The weight window's block at every point is the whole weight. -/
theorem iblk1_1_apply (c : Dev nD) (t : Fin cfg1.N) (k : Fin 128) (q : Fin 128) :
    (iblk1 V c 1 t : Vec Ideal S128x128 .bf16) (ix2 k q) = (V c main_v2 : S128x128.Idx → EReal) (ix2 k q) := by
  obtain ⟨-, -, e2, e3, -⟩ := idx_facts1 t
  unfold iblk1
  rw [View.read_apply]
  show V c main_v2 _ = V c main_v2 _
  congr 1
  funext a
  apply Fin.ext
  match a with
  | ⟨0, _⟩ => show win1_1.index t 0 * 128 + 1 * k.val = k.val; rw [e2]; omega
  | ⟨1, _⟩ => show win1_1.index t 1 * 128 + 1 * q.val = q.val; rw [e3]; omega

/-- What point `t` writes back is block `t` of `G1` of the arrays as the region finds them. -/
theorem flushed1_eq (c : Dev nD) (t : Fin cfg1.N) :
    (dat1 V c).flushed 2 t = ((cfg1.win 2).blk t).view.read (Elt Ideal) (G1 (V c main_arg1) (V c main_v2)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  obtain ⟨-, -, -, -, e4, e5⟩ := idx_facts1 t
  funext y
  show k1_pay1 (iblk1 V c 0 t) (iblk1 V c 1 t) y = G1 (V c main_arg1) (V c main_v2) (((cfg1.win 2).blk t).view.emb y)
  have hy0 : (y 0).val < 5000 := (y 0).isLt
  have hy1 : (y 1).val < 128 := (y 1).isLt
  have E0 : ((((cfg1.win 2).blk t).view.emb y) 0).val = 5000 * t.val + (y 0).val := by
    show win1_2.index t 0 * 5000 + 1 * (y 0).val = _; rw [e4]; omega
  have E1 : ((((cfg1.win 2).blk t).view.emb y) 1).val = (y 1).val := by
    show win1_2.index t 1 * 128 + 1 * (y 1).val = _; rw [e5]; omega
  refine block_value1 (iblk1 V c 0 t) (iblk1 V c 1 t) (V c main_arg1) (V c main_v2) y (((cfg1.win 2).blk t).view.emb y) (fun k => ?_) (fun k => ?_)
  · exact iblk1_0_apply V c t _ k _ E0
  · rw [iblk1_1_apply V c t k _]
    exact congrArg (V c main_v2 : S128x128.Idx → EReal) (congrArg (ix2 k) (Fin.ext E1.symm))

/-- Every index of the output array is in the block of the point `row / 5000`. -/
theorem cover1 (i : S500000x128.Idx) : ∃ t : Fin cfg1.N, (cfg1.win 2).flush t = true ∧ i ∈ ((cfg1.win 2).blk t).view.set := by
  have h0 : (i 0).val < 500000 := (i 0).isLt
  have h1 : (i 1).val < 128 := (i 1).isLt
  have hN : cfg1.N = 100 := N_1
  obtain ⟨t, ht⟩ : ∃ t : Fin cfg1.N, t.val = (i 0).val / 5000 := ⟨⟨(i 0).val / 5000, by rw [hN]; omega⟩, rfl⟩
  obtain ⟨-, -, -, -, e4, e5⟩ := idx_facts1 t
  refine ⟨t, flush1_2 t, ?_⟩
  show i ∈ ((View.whole main_v19).slice (win1_2.rect t)).set
  rw [View.set_slice_whole, Rect.mem_set_unit]
  intro a
  match a with
  | ⟨0, _⟩ => show win1_2.index t 0 * 5000 ≤ (i 0).val ∧ (i 0).val < win1_2.index t 0 * 5000 + 5000; rw [e4, ht]; omega
  | ⟨1, _⟩ => show win1_2.index t 1 * 128 ≤ (i 1).val ∧ (i 1).val < win1_2.index t 1 * 128 + 128; rw [e5]; omega

/-- THE REGION'S VALUE: after region 1 its output array is `G1` of the row array and the weight as the region finds them. -/
theorem val1_2 (c : Dev nD) : (dat1 V c).arrAt 2 cfg1.N = G1 (V c main_arg1) (V c main_v2) :=
  (dat1 V c).arrAt_eq_of_cover 2 _ (fun t _ => flushed1_eq V c t) (cover1)

/-- … at explicit coordinates. -/
theorem val1_2_apply (c : Dev nD) (r : Fin 500000) (j : Fin 128) :
    (dat1 V c).arrAt 2 cfg1.N (ix2 r j) = rowDot (M := 500000) (N := 128) (V c main_arg1) (V c main_v2) r j :=
  congrFun (val1_2 V c) (ix2 r j)

end Values

section Reads
open Cert.KernelIdeal Cert.KernelIdeal.Gen

variable (m : (ℓ : Loc nD τ sig) → Buf (Elt Ideal) ℓ) (outs : Outs (F := Ideal))

/-! ## The kernel program's buffers around regions 0 and 1 -/

theorem concat3_0 {α : Type} (x0 x1 x2 : S128x128.Idx → α) (h : Shape.Concatenates [S128x128, S128x128, S128x128] S128x384 1)
    (k j : Fin 128) (J : Fin 384) (hJ : J.val = 0 + j.val) :
    concatenate S128x384 1 [⟨S128x128, x0⟩, ⟨S128x128, x1⟩, ⟨S128x128, x2⟩] h (ix2 k J) = x0 (ix2 k j) :=
  concatenate_apply_piece (t := S128x384) (1 : Fin S128x384.rank) [⟨S128x128, x0⟩, ⟨S128x128, x1⟩, ⟨S128x128, x2⟩] h (ix2 k J) 0 (by show (0 : Nat) < 3; decide) S128x128 x0 rfl rfl 0 (by rfl) (ix2 k j)
    (fun b hb => by match b with | ⟨0, _⟩ => rfl | ⟨1, _⟩ => exact absurd (Fin.ext rfl) hb) hJ.symm

theorem concat3_1 {α : Type} (x0 x1 x2 : S128x128.Idx → α) (h : Shape.Concatenates [S128x128, S128x128, S128x128] S128x384 1)
    (k j : Fin 128) (J : Fin 384) (hJ : J.val = 128 + j.val) :
    concatenate S128x384 1 [⟨S128x128, x0⟩, ⟨S128x128, x1⟩, ⟨S128x128, x2⟩] h (ix2 k J) = x1 (ix2 k j) :=
  concatenate_apply_piece (t := S128x384) (1 : Fin S128x384.rank) [⟨S128x128, x0⟩, ⟨S128x128, x1⟩, ⟨S128x128, x2⟩] h (ix2 k J) 1 (by show (1 : Nat) < 3; decide) S128x128 x1 rfl rfl 128 (by rfl) (ix2 k j)
    (fun b hb => by match b with | ⟨0, _⟩ => rfl | ⟨1, _⟩ => exact absurd (Fin.ext rfl) hb) hJ.symm

theorem concat3_2 {α : Type} (x0 x1 x2 : S128x128.Idx → α) (h : Shape.Concatenates [S128x128, S128x128, S128x128] S128x384 1)
    (k j : Fin 128) (J : Fin 384) (hJ : J.val = 256 + j.val) :
    concatenate S128x384 1 [⟨S128x128, x0⟩, ⟨S128x128, x1⟩, ⟨S128x128, x2⟩] h (ix2 k J) = x2 (ix2 k j) :=
  concatenate_apply_piece (t := S128x384) (1 : Fin S128x384.rank) [⟨S128x128, x0⟩, ⟨S128x128, x1⟩, ⟨S128x128, x2⟩] h (ix2 k J) 2 (by show (2 : Nat) < 3; decide) S128x128 x2 rfl rfl 256 (by rfl) (ix2 k j)
    (fun b hb => by match b with | ⟨0, _⟩ => rfl | ⟨1, _⟩ => exact absurd (Fin.ext rfl) hb) hJ.symm

/-- What region 0 wrote reads back as the unknown it was written at; likewise region 1. -/
theorem k_v15 (c : Dev nD) : V2 m outs c main_v15 = outs 2 main_v15 c := Function.update_self _ _ _
theorem k_v19 (c : Dev nD) : V4 m outs c main_v19 = outs 4 main_v19 c := Function.update_self _ _ _

/-- `main_v16` is the columns `0 … 127` of region 0's output. -/
theorem k_v16_apply (c : Dev nD) (r : Fin 50000) (j : Fin 128) (J : Fin 384) (hJ : J.val = 0 + j.val) :
    (V3 m outs c main_v16 : S50000x128.Idx → EReal) (ix2 r j) = (outs 2 main_v15 c : S50000x384.Idx → EReal) (ix2 r J) := by
  have e : (V3 m outs c main_v16 : S50000x128.Idx → EReal) = extractStridedSlice S50000x128 ![0, 0] (V2 m outs c main_v15 : S50000x384.Idx → EReal) slices_S50000x384_S50000x128_0_0 := by
    show StableHlo.after hostOps1 (V2 m outs c) (Proc.devRef .tc main_v16) = _
    after_results
  rw [e, k_v15]
  exact slice2_axis1_apply 0 _ slices_S50000x384_S50000x128_0_0 r j J hJ

/-- `main_v17` is the columns `128 … 255` of region 0's output. -/
theorem k_v17_apply (c : Dev nD) (r : Fin 50000) (j : Fin 128) (J : Fin 384) (hJ : J.val = 128 + j.val) :
    (V3 m outs c main_v17 : S50000x128.Idx → EReal) (ix2 r j) = (outs 2 main_v15 c : S50000x384.Idx → EReal) (ix2 r J) := by
  have e : (V3 m outs c main_v17 : S50000x128.Idx → EReal) = extractStridedSlice S50000x128 ![0, 128] (V2 m outs c main_v15 : S50000x384.Idx → EReal) slices_S50000x384_S50000x128_0_128 := by
    show StableHlo.after hostOps1 (V2 m outs c) (Proc.devRef .tc main_v17) = _
    after_results
  rw [e, k_v15]
  exact slice2_axis1_apply 128 _ slices_S50000x384_S50000x128_0_128 r j J hJ

/-- `main_v18` is the columns `256 … 383` of region 0's output. -/
theorem k_v18_apply (c : Dev nD) (r : Fin 50000) (j : Fin 128) (J : Fin 384) (hJ : J.val = 256 + j.val) :
    (V3 m outs c main_v18 : S50000x128.Idx → EReal) (ix2 r j) = (outs 2 main_v15 c : S50000x384.Idx → EReal) (ix2 r J) := by
  have e : (V3 m outs c main_v18 : S50000x128.Idx → EReal) = extractStridedSlice S50000x128 ![0, 256] (V2 m outs c main_v15 : S50000x384.Idx → EReal) slices_S50000x384_S50000x128_0_256 := by
    show StableHlo.after hostOps1 (V2 m outs c) (Proc.devRef .tc main_v18) = _
    after_results
  rw [e, k_v15]
  exact slice2_axis1_apply 256 _ slices_S50000x384_S50000x128_0_256 r j J hJ

/-- Region 0's weight: the three projection matrices side by side along the columns (the change of float format is
    the identity on the extended reals). -/
theorem k_v1 (c : Dev nD) : (V1 m c main_v1 : S128x384.Idx → EReal)
    = concatenate S128x384 1 [⟨S128x128, (m ((c : Thread nD τ).loc main_arg5) : S128x128.Idx → EReal)⟩, ⟨S128x128, (m ((c : Thread nD τ).loc main_arg6) : S128x128.Idx → EReal)⟩, ⟨S128x128, (m ((c : Thread nD τ).loc main_arg7) : S128x128.Idx → EReal)⟩] concatenates_S128x128_S128x128_S128x128_S128x384_d1 := by
  show StableHlo.after hostOps0 (fun b => m (c, b)) (Proc.devRef .tc main_v1) = _
  after_results
  rfl

theorem kW0_0 (c : Dev nD) (k j : Fin 128) (J : Fin 384) (hJ : J.val = 0 + j.val) :
    (V1 m c main_v1 : S128x384.Idx → EReal) (ix2 k J) = (m ((c : Thread nD τ).loc main_arg5) : S128x128.Idx → EReal) (ix2 k j) := by
  rw [k_v1]
  exact concat3_0 _ _ _ _ k j J hJ

theorem kW0_1 (c : Dev nD) (k j : Fin 128) (J : Fin 384) (hJ : J.val = 128 + j.val) :
    (V1 m c main_v1 : S128x384.Idx → EReal) (ix2 k J) = (m ((c : Thread nD τ).loc main_arg6) : S128x128.Idx → EReal) (ix2 k j) := by
  rw [k_v1]
  exact concat3_1 _ _ _ _ k j J hJ

theorem kW0_2 (c : Dev nD) (k j : Fin 128) (J : Fin 384) (hJ : J.val = 256 + j.val) :
    (V1 m c main_v1 : S128x384.Idx → EReal) (ix2 k J) = (m ((c : Thread nD τ).loc main_arg7) : S128x128.Idx → EReal) (ix2 k j) := by
  rw [k_v1]
  exact concat3_2 _ _ _ _ k j J hJ

/-- Region 0's rows are the first argument as launched. -/
theorem kA0 (c : Dev nD) : V1 m c main_arg0 = m ((c : Thread nD τ).loc main_arg0) := V1_of m c main_arg0 (by decide)

/-- Region 1's rows are the second argument as launched; its weight is the ninth argument (format change the identity). -/
theorem kA1 (c : Dev nD) : V3 m outs c main_arg1 = m ((c : Thread nD τ).loc main_arg1) :=
  (V3_of m outs c main_arg1 (by decide)).trans <| (V2_of m outs c main_arg1 (by decide)).trans <| V1_of m c main_arg1 (by decide)
theorem kW1 (c : Dev nD) : (V3 m outs c main_v2 : S128x128.Idx → EReal) = m ((c : Thread nD τ).loc main_arg8) := by
  refine (V3_of m outs c main_v2 (by decide)).trans <| (V2_of m outs c main_v2 (by decide)).trans ?_
  show StableHlo.after hostOps0 (fun b => m (c, b)) (Proc.devRef .tc main_v2) = _
  after_results
  rfl

end Reads

section Stage
open Cert.KernelIdeal Cert.KernelIdeal.Gen Cert.KernelIdeal.Hand

/-! ## Stage 1: the four projections -/

set_option maxHeartbeats 1000000 in
/-- With the slots of regions 0 and 1 at those regions' values and the two programs' arguments equal, the kernel
    program's three column groups of region 0's output and region 1's output are, entry by entry, the reference's four
    products `R0`, `R2`, `R4`, `R6` (named by what they are: the first argument times the sixth, seventh and eighth, the
    second times the ninth). -/
theorem stage_of_dots (m : (ℓ : Loc nD τ sig) → Buf (Elt Ideal) ℓ) (outs : Outs (F := Ideal))
    (m' : (ℓ : Loc Cert.ReferenceIdeal.nD Cert.ReferenceIdeal.τ Cert.ReferenceIdeal.sig) → Buf (Elt Ideal) ℓ) (c : Dev nD)
    (hs0 : (dat0 (fun c b => V1 m c b) c).arrAt 2 cfg0.N = outs 2 main_v15 c)
    (hs1 : (dat1 (fun c b => V3 m outs c b) c).arrAt 2 cfg1.N = outs 4 main_v19 c)
    (a0 : m' ((c.tc : Thread Cert.ReferenceIdeal.nD Cert.ReferenceIdeal.τ).loc Cert.ReferenceIdeal.main_arg0) = m ((c.tc : Thread nD τ).loc main_arg0))
    (a1 : m' ((c.tc : Thread Cert.ReferenceIdeal.nD Cert.ReferenceIdeal.τ).loc Cert.ReferenceIdeal.main_arg1) = m ((c.tc : Thread nD τ).loc main_arg1))
    (a5 : m' ((c.tc : Thread Cert.ReferenceIdeal.nD Cert.ReferenceIdeal.τ).loc Cert.ReferenceIdeal.main_arg5) = m ((c.tc : Thread nD τ).loc main_arg5))
    (a6 : m' ((c.tc : Thread Cert.ReferenceIdeal.nD Cert.ReferenceIdeal.τ).loc Cert.ReferenceIdeal.main_arg6) = m ((c.tc : Thread nD τ).loc main_arg6))
    (a7 : m' ((c.tc : Thread Cert.ReferenceIdeal.nD Cert.ReferenceIdeal.τ).loc Cert.ReferenceIdeal.main_arg7) = m ((c.tc : Thread nD τ).loc main_arg7))
    (a8 : m' ((c.tc : Thread Cert.ReferenceIdeal.nD Cert.ReferenceIdeal.τ).loc Cert.ReferenceIdeal.main_arg8) = m ((c.tc : Thread nD τ).loc main_arg8))
    (R0 R2 R4 : Cert.ReferenceIdeal.S50000x128.Idx → EReal) (R6 : Cert.ReferenceIdeal.S500000x128.Idx → EReal)
    (hR0 : R0 = Host.dotGeneral (F := Ideal) (φ₁ := .f32) (φ₂ := .f32) Cert.ReferenceIdeal.dot_S50000x128_S128x128_S50000x128_1_0_0_1_n_n none (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg5)))
    (hR2 : R2 = Host.dotGeneral (F := Ideal) (φ₁ := .f32) (φ₂ := .f32) Cert.ReferenceIdeal.dot_S50000x128_S128x128_S50000x128_1_0_0_1_n_n none (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg6)))
    (hR4 : R4 = Host.dotGeneral (F := Ideal) (φ₁ := .f32) (φ₂ := .f32) Cert.ReferenceIdeal.dot_S50000x128_S128x128_S50000x128_1_0_0_1_n_n none (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg7)))
    (hR6 : R6 = Host.dotGeneral (F := Ideal) (φ₁ := .f32) (φ₂ := .f32) Cert.ReferenceIdeal.dot_S500000x128_S128x128_S500000x128_1_0_0_1_n_n none (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg8))) :
    (∀ (r : Fin 50000) (j : Fin 128), (V3 m outs c main_v16 : S50000x128.Idx → EReal) (ix2 r j) = R0 (ix2 r j))
    ∧ (∀ (r : Fin 50000) (j : Fin 128), (V3 m outs c main_v17 : S50000x128.Idx → EReal) (ix2 r j) = R2 (ix2 r j))
    ∧ (∀ (r : Fin 50000) (j : Fin 128), (V3 m outs c main_v18 : S50000x128.Idx → EReal) (ix2 r j) = R4 (ix2 r j))
    ∧ (∀ (r : Fin 500000) (j : Fin 128), (V4 m outs c main_v19 : S500000x128.Idx → EReal) (ix2 r j) = R6 (ix2 r j)) := by
  refine ⟨?_, ?_, ?_, ?_⟩

  · intro r j
    obtain ⟨J, hJ⟩ : ∃ J : Fin 384, J.val = 0 + j.val := ⟨⟨0 + j.val, by have := j.isLt; omega⟩, rfl⟩
    refine (k_v16_apply m outs c r j J hJ).trans ?_
    refine (congrFun hs0.symm (ix2 r J)).trans ?_
    refine (val0_2_apply (fun c b => V1 m c b) c r J).trans ?_
    rw [hR0]
    refine Eq.trans ?_ (dotGeneral_r0 _ _ r j).symm
    exact rowDot_congr (M := 50000) (N := 384) (N' := 128) _ _ _ _ r J j ((kA0 m c).trans a0.symm)
      (fun k => (kW0_0 m c k j J hJ).trans (congrFun a5.symm (ix2 k j)))

  · intro r j
    obtain ⟨J, hJ⟩ : ∃ J : Fin 384, J.val = 128 + j.val := ⟨⟨128 + j.val, by have := j.isLt; omega⟩, rfl⟩
    refine (k_v17_apply m outs c r j J hJ).trans ?_
    refine (congrFun hs0.symm (ix2 r J)).trans ?_
    refine (val0_2_apply (fun c b => V1 m c b) c r J).trans ?_
    rw [hR2]
    refine Eq.trans ?_ (dotGeneral_r0 _ _ r j).symm
    exact rowDot_congr (M := 50000) (N := 384) (N' := 128) _ _ _ _ r J j ((kA0 m c).trans a0.symm)
      (fun k => (kW0_1 m c k j J hJ).trans (congrFun a6.symm (ix2 k j)))

  · intro r j
    obtain ⟨J, hJ⟩ : ∃ J : Fin 384, J.val = 256 + j.val := ⟨⟨256 + j.val, by have := j.isLt; omega⟩, rfl⟩
    refine (k_v18_apply m outs c r j J hJ).trans ?_
    refine (congrFun hs0.symm (ix2 r J)).trans ?_
    refine (val0_2_apply (fun c b => V1 m c b) c r J).trans ?_
    rw [hR4]
    refine Eq.trans ?_ (dotGeneral_r0 _ _ r j).symm
    exact rowDot_congr (M := 50000) (N := 384) (N' := 128) _ _ _ _ r J j ((kA0 m c).trans a0.symm)
      (fun k => (kW0_2 m c k j J hJ).trans (congrFun a7.symm (ix2 k j)))
  · intro r j
    refine (congrFun (k_v19 m outs c) (ix2 r j)).trans ?_
    refine (congrFun hs1.symm (ix2 r j)).trans ?_
    refine (val1_2_apply (fun c b => V3 m outs c b) c r j).trans ?_
    rw [hR6]
    refine Eq.trans ?_ (dotGeneral_r1 _ _ r j).symm
    exact rowDot_congr (M := 500000) (N := 128) (N' := 128) _ _ _ _ r j j ((kA1 m outs c).trans a1.symm)
      (fun k => congrFun ((kW1 m outs c).trans a8.symm) (ix2 k j))

end Stage

section RefReads

variable (m' : (ℓ : Loc Cert.ReferenceIdeal.nD Cert.ReferenceIdeal.τ Cert.ReferenceIdeal.sig) → Buf (Elt Ideal) ℓ)

/-! ## The reference's four products, read off its first list of operations -/

theorem r_v0 (c : Dev Cert.ReferenceIdeal.nD) : (Cert.ReferenceIdeal.Hand.RV1 (F := Ideal) m' c Cert.ReferenceIdeal.main_v0 : Cert.ReferenceIdeal.S50000x128.Idx → EReal)
    = Host.dotGeneral (F := Ideal) (φ₁ := .f32) (φ₂ := .f32) Cert.ReferenceIdeal.dot_S50000x128_S128x128_S50000x128_1_0_0_1_n_n none (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg5)) := by
  show StableHlo.after Cert.ReferenceIdeal.Hand.ops0 (fun b => m' (c, b)) (Proc.devRef .tc Cert.ReferenceIdeal.main_v0) = _
  after_results

theorem r_v2 (c : Dev Cert.ReferenceIdeal.nD) : (Cert.ReferenceIdeal.Hand.RV1 (F := Ideal) m' c Cert.ReferenceIdeal.main_v2 : Cert.ReferenceIdeal.S50000x128.Idx → EReal)
    = Host.dotGeneral (F := Ideal) (φ₁ := .f32) (φ₂ := .f32) Cert.ReferenceIdeal.dot_S50000x128_S128x128_S50000x128_1_0_0_1_n_n none (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg6)) := by
  show StableHlo.after Cert.ReferenceIdeal.Hand.ops0 (fun b => m' (c, b)) (Proc.devRef .tc Cert.ReferenceIdeal.main_v2) = _
  after_results

theorem r_v4 (c : Dev Cert.ReferenceIdeal.nD) : (Cert.ReferenceIdeal.Hand.RV1 (F := Ideal) m' c Cert.ReferenceIdeal.main_v4 : Cert.ReferenceIdeal.S50000x128.Idx → EReal)
    = Host.dotGeneral (F := Ideal) (φ₁ := .f32) (φ₂ := .f32) Cert.ReferenceIdeal.dot_S50000x128_S128x128_S50000x128_1_0_0_1_n_n none (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg7)) := by
  show StableHlo.after Cert.ReferenceIdeal.Hand.ops0 (fun b => m' (c, b)) (Proc.devRef .tc Cert.ReferenceIdeal.main_v4) = _
  after_results

theorem r_v6 (c : Dev Cert.ReferenceIdeal.nD) : (Cert.ReferenceIdeal.Hand.RV1 (F := Ideal) m' c Cert.ReferenceIdeal.main_v6 : Cert.ReferenceIdeal.S500000x128.Idx → EReal)
    = Host.dotGeneral (F := Ideal) (φ₁ := .f32) (φ₂ := .f32) Cert.ReferenceIdeal.dot_S500000x128_S128x128_S500000x128_1_0_0_1_n_n none (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg8)) := by
  show StableHlo.after Cert.ReferenceIdeal.Hand.ops0 (fun b => m' (c, b)) (Proc.devRef .tc Cert.ReferenceIdeal.main_v6) = _
  after_results

end RefReads

section Final
open Cert.KernelIdeal Cert.KernelIdeal.Gen Cert.KernelIdeal.Hand

/-- STAGE 1. With the slots of regions 0 and 1 at those regions' values and the two programs' arguments equal, the
    kernel program's query, key and value projections and its edge projection are, entry by entry, the reference's. -/
theorem stage (m : (ℓ : Loc nD τ sig) → Buf (Elt Ideal) ℓ) (outs : Outs (F := Ideal))
    (m' : (ℓ : Loc Cert.ReferenceIdeal.nD Cert.ReferenceIdeal.τ Cert.ReferenceIdeal.sig) → Buf (Elt Ideal) ℓ) (c : Dev nD)
    (hs0 : (dat0 (fun c b => V1 m c b) c).arrAt 2 cfg0.N = outs 2 main_v15 c)
    (hs1 : (dat1 (fun c b => V3 m outs c b) c).arrAt 2 cfg1.N = outs 4 main_v19 c)
    (a0 : m' ((c.tc : Thread Cert.ReferenceIdeal.nD Cert.ReferenceIdeal.τ).loc Cert.ReferenceIdeal.main_arg0) = m ((c.tc : Thread nD τ).loc main_arg0))
    (a1 : m' ((c.tc : Thread Cert.ReferenceIdeal.nD Cert.ReferenceIdeal.τ).loc Cert.ReferenceIdeal.main_arg1) = m ((c.tc : Thread nD τ).loc main_arg1))
    (a5 : m' ((c.tc : Thread Cert.ReferenceIdeal.nD Cert.ReferenceIdeal.τ).loc Cert.ReferenceIdeal.main_arg5) = m ((c.tc : Thread nD τ).loc main_arg5))
    (a6 : m' ((c.tc : Thread Cert.ReferenceIdeal.nD Cert.ReferenceIdeal.τ).loc Cert.ReferenceIdeal.main_arg6) = m ((c.tc : Thread nD τ).loc main_arg6))
    (a7 : m' ((c.tc : Thread Cert.ReferenceIdeal.nD Cert.ReferenceIdeal.τ).loc Cert.ReferenceIdeal.main_arg7) = m ((c.tc : Thread nD τ).loc main_arg7))
    (a8 : m' ((c.tc : Thread Cert.ReferenceIdeal.nD Cert.ReferenceIdeal.τ).loc Cert.ReferenceIdeal.main_arg8) = m ((c.tc : Thread nD τ).loc main_arg8)) :
    (∀ (r : Fin 50000) (j : Fin 128), (V3 m outs c main_v16 : S50000x128.Idx → EReal) (ix2 r j) = (Cert.ReferenceIdeal.Hand.RV1 (F := Ideal) m' c Cert.ReferenceIdeal.main_v0 : Cert.ReferenceIdeal.S50000x128.Idx → EReal) (ix2 r j))
    ∧ (∀ (r : Fin 50000) (j : Fin 128), (V3 m outs c main_v17 : S50000x128.Idx → EReal) (ix2 r j) = (Cert.ReferenceIdeal.Hand.RV1 (F := Ideal) m' c Cert.ReferenceIdeal.main_v2 : Cert.ReferenceIdeal.S50000x128.Idx → EReal) (ix2 r j))
    ∧ (∀ (r : Fin 50000) (j : Fin 128), (V3 m outs c main_v18 : S50000x128.Idx → EReal) (ix2 r j) = (Cert.ReferenceIdeal.Hand.RV1 (F := Ideal) m' c Cert.ReferenceIdeal.main_v4 : Cert.ReferenceIdeal.S50000x128.Idx → EReal) (ix2 r j))
    ∧ (∀ (r : Fin 500000) (j : Fin 128), (V4 m outs c main_v19 : S500000x128.Idx → EReal) (ix2 r j) = (Cert.ReferenceIdeal.Hand.RV1 (F := Ideal) m' c Cert.ReferenceIdeal.main_v6 : Cert.ReferenceIdeal.S500000x128.Idx → EReal) (ix2 r j)) :=
  stage_of_dots m outs m' c hs0 hs1 a0 a1 a5 a6 a7 a8 _ _ _ _ (r_v0 m' c) (r_v2 m' c) (r_v4 m' c) (r_v6 m' c)

end Final

end Cert.Bridge.S1
-- ==== Proof.Val.S2Lib.lean ====
/- Stage 2 (the per-edge attention) at the ideal values: the shared vocabulary and the index facts both programs' readings
   rest on. The edge output at (e, d) is K[src e, d] * Q[dst e, d] / 4 * P[e, d]; the head weight at (e, h) is the exponential
   of the head's 16 edge outputs summed and clamped to [-5, 5]; the message at (e, d) is V[src e, d] * env e times the
   weight of d's head. Here: the words 1/4 and 4; the two constant 0/1 tables (entry one iff column d belongs to head
   h, i.e. d / 16 = h) and the sums through them; a gather of whole rows read at an index, for an array [50000, 128]
   and for its view [50000, 8, 16]; the kernel body's three stored values read at a row and a column. -/
import proofs.«101045_j34351148433892_1_alg».proof.Proof.Gen.KernelIdeal.Skeleton
import proofs.«101045_j34351148433892_1_alg».proof.Proof.Gen.ReferenceIdeal
import Idealize.ShloMosaic.Lib.IdealHost
import Idealize.ShloMosaic.Lib.Pipeline.Value
import Idealize.ShloMosaic.Lib.ValueLayout

open Idealize.ShloMosaic Idealize.ShloMosaic.ValueIdx
open scoped BigOperators

noncomputable section

namespace Cert.Bridge.S2

/-! ## The shared vocabulary -/

/-- Column 16h + j of a [.., 128] array: lane j of head h. -/
def col (h : Fin 8) (j : Fin 16) : Fin 128 := ⟨16 * h.val + j.val, by omega⟩

/-- The row a start index selects: the word read signed, clamped to the last row (what the row gather reads). -/
def rowOf (idx : IVec (⟨2, ![500000, 1]⟩ : Shape) 32) (e : Fin 500000) : Fin 50000 :=
  ⟨min (idx (ix2 e (0 : Fin 1))).toInt.toNat (50000 - 1), by omega⟩

/-- The start indices both programs compute from an edge-endpoint array: a negative word wrapped by +50000, as a column. -/
def wrapIdx (hb : (⟨0, ![]⟩ : Shape).BroadcastsInDim ⟨1, ![500000]⟩ ![]) (hc : (⟨1, ![500000]⟩ : Shape).BroadcastsInDim ⟨2, ![500000, 1]⟩ ![0])
    (A : IVec (⟨1, ![500000]⟩ : Shape) 32) : IVec (⟨2, ![500000, 1]⟩ : Shape) 32 :=
  broadcastInDim ⟨2, ![500000, 1]⟩ ![0] hc
    (select (cmpi .slt A (broadcastInDim ⟨1, ![500000]⟩ ![] hb (constantI ⟨0, ![]⟩ 32 0#32)))
      (addi A (broadcastInDim ⟨1, ![500000]⟩ ![] hb (constantI ⟨0, ![]⟩ 32 50000#32))) A)

/-- The edge output at (e, d): keys at the source row times queries at the destination row, over four, times the edge projection. -/
def score (K Q : (⟨2, ![50000, 128]⟩ : Shape).Idx → EReal) (P : (⟨2, ![500000, 128]⟩ : Shape).Idx → EReal)
    (rk rq : Fin 500000 → Fin 50000) (e : Fin 500000) (d : Fin 128) : EReal :=
  Ideal.div (K (ix2 (rk e) d) * Q (ix2 (rq e) d)) (Ideal.ofBits .f32 0x40800000#32) * P (ix2 e d)

/-- The head weight at (e, h): the exponential of the head's 16 scores summed and clamped to [-5, 5]. -/
def weight (K Q : (⟨2, ![50000, 128]⟩ : Shape).Idx → EReal) (P : (⟨2, ![500000, 128]⟩ : Shape).Idx → EReal)
    (rk rq : Fin 500000 → Fin 50000) (e : Fin 500000) (h : Fin 8) : EReal :=
  Ideal.exp (min (Ideal.ofBits .f32 0x40A00000#32) (max (Ideal.ofBits .f32 0xC0A00000#32)
    (∑ j : Fin 16, score K Q P rk rq e (col h j))))

/-- The message at (e, d) under a head weight w: values at the source row times the envelope times w. -/
def message (V : (⟨2, ![50000, 128]⟩ : Shape).Idx → EReal) (env : Fin 500000 → EReal) (rv : Fin 500000 → Fin 50000)
    (w : EReal) (e : Fin 500000) (d : Fin 128) : EReal :=
  (V (ix2 (rv e) d) * env e) * w

/-! ## Words, tables, sums through the tables, row gathers -/

theorem ofBits_quarter_f32 : Ideal.ofBits .f32 0x3E800000#32 = (((1 : ℝ) / 4 : ℝ) : EReal) := by
  simp [Ideal.ofBits, Ideal.ieee, -EReal.coe_mul]; norm_num
theorem ofBits_four_f32 : Ideal.ofBits .f32 0x40800000#32 = ((4 : ℝ) : EReal) := by
  simp [Ideal.ofBits, Ideal.ieee, -EReal.coe_mul]; norm_num

/-- Scaling by a quarter after the third factor is dividing by four before it. -/
theorem scale_quarter (a b c : EReal) :
    ((a * b) * c) * Ideal.ofBits .f32 0x3E800000#32 = Ideal.div (a * b) (Ideal.ofBits .f32 0x40800000#32) * c := by
  rw [ofBits_quarter_f32, ofBits_four_f32, Ideal.div_coe (by norm_num : (4 : ℝ) ≠ 0)]
  exact mul_right_comm (a * b) c _

theorem lit0_read : ∀ (d : Fin 128) (h : Fin 8), Cert.KernelIdeal.lit0 ⟨8 * d.val + h.val, by omega⟩
    = if d.val / 16 = h.val then 0x3F800000#32 else 0x00000000#32 := by decide +kernel
theorem lit1_read : ∀ (h : Fin 8) (d : Fin 128), Cert.KernelIdeal.lit1 ⟨128 * h.val + d.val, by omega⟩
    = if d.val / 16 = h.val then 0x3F800000#32 else 0x00000000#32 := by decide +kernel

/-- The head reduction table: entry (d, h) is one when column d belongs to head h, else zero. -/
theorem gred_apply (d : Fin 128) (h : Fin 8) :
    Ideal.ofBits .f32 (Cert.KernelIdeal.lit0 (Cert.KernelIdeal.S128x8.rowMajor (ix2 d h)))
      = if d.val / 16 = h.val then (1 : EReal) else 0 := by
  have e : Cert.KernelIdeal.S128x8.rowMajor (ix2 d h) = (⟨8 * d.val + h.val, by omega⟩ : Fin 1024) :=
    Fin.ext (by rw [Shape.rowMajor_val_two]; show d.val * 8 + h.val = 8 * d.val + h.val; omega)
  rw [e, lit0_read]
  split
  · exact Ideal.ofBits_one_f32
  · exact Ideal.ofBits_zero_f32

/-- The head broadcast table is its transpose. -/
theorem gbro_apply (h : Fin 8) (d : Fin 128) :
    Ideal.ofBits .f32 (Cert.KernelIdeal.lit1 (Cert.KernelIdeal.S8x128.rowMajor (ix2 h d)))
      = if d.val / 16 = h.val then (1 : EReal) else 0 := by
  have e : Cert.KernelIdeal.S8x128.rowMajor (ix2 h d) = (⟨128 * h.val + d.val, by omega⟩ : Fin 1024) :=
    Fin.ext (by rw [Shape.rowMajor_val_two]; show h.val * 128 + d.val = 128 * h.val + d.val; omega)
  rw [e, lit1_read]
  split
  · exact Ideal.ofBits_one_f32
  · exact Ideal.ofBits_zero_f32

/-- A sum over the 128 columns against the indicator of head h is the sum over that head's 16 columns. -/
theorem sum_head (f : Fin 128 → EReal) (h : Fin 8) :
    ∑ k : Fin 128, f k * (if k.val / 16 = h.val then (1 : EReal) else 0)
      = ∑ j : Fin 16, f ⟨16 * h.val + j.val, by omega⟩ := by
  have e := Equiv.sum_comp (finProdFinEquiv : Fin 8 × Fin 16 ≃ Fin (8 * 16))
    (fun k : Fin (8 * 16) => f k * (if k.val / 16 = h.val then (1 : EReal) else 0))
  refine e.symm.trans ?_
  rw [Fintype.sum_prod_type, Finset.sum_eq_single h]
  · refine Finset.sum_congr rfl fun j _ => ?_
    have hv : (finProdFinEquiv (h, j) : Fin (8 * 16)).val = 16 * h.val + j.val := by
      simp [finProdFinEquiv]; omega
    have hq : (finProdFinEquiv (h, j) : Fin (8 * 16)).val / 16 = h.val := by rw [hv]; omega
    rw [if_pos hq, mul_one]
    exact congrArg f (Fin.ext hv)
  · intro a _ hne
    refine Finset.sum_eq_zero fun j _ => ?_
    have hv : (finProdFinEquiv (a, j) : Fin (8 * 16)).val = 16 * a.val + j.val := by
      simp [finProdFinEquiv]; omega
    have hq : ¬ (finProdFinEquiv (a, j) : Fin (8 * 16)).val / 16 = h.val := by
      rw [hv]; intro hh; exact hne (Fin.ext (by omega))
    rw [if_neg hq, mul_zero]
  · intro hn; exact absurd (Finset.mem_univ h) hn

/-- A sum over the 8 heads against the indicator of column d's head is the term of that head. -/
theorem sum_col (g : Fin 8 → EReal) (d : Fin 128) :
    ∑ k : Fin 8, g k * (if d.val / 16 = k.val then (1 : EReal) else 0) = g ⟨d.val / 16, by omega⟩ := by
  rw [Finset.sum_eq_single (⟨d.val / 16, by omega⟩ : Fin 8)]
  · rw [if_pos rfl, mul_one]
  · intro k _ hne
    rw [if_neg (fun hh => hne (Fin.ext hh.symm)), mul_zero]
  · intro hn; exact absurd (Finset.mem_univ _) hn

/-- A gather of whole rows of a [50000, 128] array reads, at (e, d), the selected row at column d. -/
theorem gatherK_apply {α : Type} (x : Cert.KernelIdeal.S50000x128.Idx → α) (idx : IVec Cert.KernelIdeal.S500000x1 32)
    (e : Fin 500000) (d : Fin 128) :
    Host.gather Cert.KernelIdeal.gather_S50000x128_S500000x1_S500000x128_1_0_n_n_0_1_1128 x idx (ix2 e d) = x (ix2 (rowOf idx e) d) := by
  unfold Host.gather
  refine congrArg x (funext fun a => Fin.ext ?_)
  match a with
  | ⟨0, _⟩ =>
    show Cert.KernelIdeal.gather_S50000x128_S500000x1_S500000x128_1_0_n_n_0_1_1128.start (ix2 e d) idx (0 : Fin Cert.KernelIdeal.S50000x128.rank) + Cert.KernelIdeal.gather_S50000x128_S500000x1_S500000x128_1_0_n_n_0_1_1128.batchCoord (ix2 e d) (0 : Fin Cert.KernelIdeal.S50000x128.rank)
      + Cert.KernelIdeal.gather_S50000x128_S500000x1_S500000x128_1_0_n_n_0_1_1128.offCoord (ix2 e d) (0 : Fin Cert.KernelIdeal.S50000x128.rank) = _
    rw [GatherDims.batchCoord_eq_zero _ _ _ (show (0 : Fin Cert.KernelIdeal.S50000x128.rank) ∉ Cert.KernelIdeal.gather_S50000x128_S500000x1_S500000x128_1_0_n_n_0_1_1128.operandBatchingDims by decide),
      GatherDims.offCoord_eq_zero _ _ _ (fun h => ((GatherDims.mem_sKept _ _).mp h).1
        (show (0 : Fin Cert.KernelIdeal.S50000x128.rank) ∈ Cert.KernelIdeal.gather_S50000x128_S500000x1_S500000x128_1_0_n_n_0_1_1128.collapsedSliceDims by decide))]
    simp only [Nat.add_zero]
    unfold GatherDims.start
    rw [dif_pos (show (0 : Fin Cert.KernelIdeal.S50000x128.rank) ∈ Cert.KernelIdeal.gather_S50000x128_S500000x1_S500000x128_1_0_n_n_0_1_1128.startIndexMap by decide)]
    have hsi : Cert.KernelIdeal.gather_S50000x128_S500000x1_S500000x128_1_0_n_n_0_1_1128.siIdx (ix2 e d) ⟨List.idxOf (0 : Fin Cert.KernelIdeal.S50000x128.rank) Cert.KernelIdeal.gather_S50000x128_S500000x1_S500000x128_1_0_n_n_0_1_1128.startIndexMap,
        List.idxOf_lt_length_iff.2 (show (0 : Fin Cert.KernelIdeal.S50000x128.rank) ∈ Cert.KernelIdeal.gather_S50000x128_S500000x1_S500000x128_1_0_n_n_0_1_1128.startIndexMap by decide)⟩
        = ix2 e (0 : Fin 1) := by
      funext b; refine Fin.ext ?_
      match b with
      | ⟨0, _⟩ => rfl
      | ⟨1, _⟩ => rfl
    rw [hsi]
    rfl
  | ⟨1, _⟩ =>
    show Cert.KernelIdeal.gather_S50000x128_S500000x1_S500000x128_1_0_n_n_0_1_1128.start (ix2 e d) idx (1 : Fin Cert.KernelIdeal.S50000x128.rank) + Cert.KernelIdeal.gather_S50000x128_S500000x1_S500000x128_1_0_n_n_0_1_1128.batchCoord (ix2 e d) (1 : Fin Cert.KernelIdeal.S50000x128.rank)
      + Cert.KernelIdeal.gather_S50000x128_S500000x1_S500000x128_1_0_n_n_0_1_1128.offCoord (ix2 e d) (1 : Fin Cert.KernelIdeal.S50000x128.rank) = _
    rw [GatherDims.batchCoord_eq_zero _ _ _ (show (1 : Fin Cert.KernelIdeal.S50000x128.rank) ∉ Cert.KernelIdeal.gather_S50000x128_S500000x1_S500000x128_1_0_n_n_0_1_1128.operandBatchingDims by decide)]
    unfold GatherDims.start
    rw [dif_neg (show (1 : Fin Cert.KernelIdeal.S50000x128.rank) ∉ Cert.KernelIdeal.gather_S50000x128_S500000x1_S500000x128_1_0_n_n_0_1_1128.startIndexMap by decide)]
    unfold GatherDims.offCoord
    rw [dif_pos (show (1 : Fin Cert.KernelIdeal.S50000x128.rank) ∈ Cert.KernelIdeal.gather_S50000x128_S500000x1_S500000x128_1_0_n_n_0_1_1128.sKept by decide)]
    have hk : Cert.KernelIdeal.gather_S50000x128_S500000x1_S500000x128_1_0_n_n_0_1_1128.offsetDims[List.idxOf (1 : Fin Cert.KernelIdeal.S50000x128.rank) Cert.KernelIdeal.gather_S50000x128_S500000x1_S500000x128_1_0_n_n_0_1_1128.sKept]'(by decide) = (1 : Fin Cert.KernelIdeal.S500000x128.rank) := by decide
    simp only [Nat.zero_add]
    exact congrArg (fun a : Fin Cert.KernelIdeal.S500000x128.rank => ((ix2 e d : Cert.KernelIdeal.S500000x128.Idx) a).val) hk

/-- The same gather of rows of a [50000, 8, 16] array reads, at (e, h, j), the selected row at (h, j). -/
theorem gatherR_apply {α : Type} (x : Cert.ReferenceIdeal.S50000x8x16.Idx → α) (idx : IVec Cert.ReferenceIdeal.S500000x1 32)
    (e : Fin 500000) (h : Fin 8) (j : Fin 16) :
    Host.gather Cert.ReferenceIdeal.gather_S50000x8x16_S500000x1_S500000x8x16_12_0_n_n_0_1_1816 x idx (ix3 e h j) = x (ix3 (rowOf idx e) h j) := by
  unfold Host.gather
  refine congrArg x (funext fun a => Fin.ext ?_)
  match a with
  | ⟨0, _⟩ =>
    show Cert.ReferenceIdeal.gather_S50000x8x16_S500000x1_S500000x8x16_12_0_n_n_0_1_1816.start (ix3 e h j) idx (0 : Fin Cert.ReferenceIdeal.S50000x8x16.rank) + Cert.ReferenceIdeal.gather_S50000x8x16_S500000x1_S500000x8x16_12_0_n_n_0_1_1816.batchCoord (ix3 e h j) (0 : Fin Cert.ReferenceIdeal.S50000x8x16.rank)
      + Cert.ReferenceIdeal.gather_S50000x8x16_S500000x1_S500000x8x16_12_0_n_n_0_1_1816.offCoord (ix3 e h j) (0 : Fin Cert.ReferenceIdeal.S50000x8x16.rank) = _
    rw [GatherDims.batchCoord_eq_zero _ _ _ (show (0 : Fin Cert.ReferenceIdeal.S50000x8x16.rank) ∉ Cert.ReferenceIdeal.gather_S50000x8x16_S500000x1_S500000x8x16_12_0_n_n_0_1_1816.operandBatchingDims by decide),
      GatherDims.offCoord_eq_zero _ _ _ (fun hh => ((GatherDims.mem_sKept _ _).mp hh).1
        (show (0 : Fin Cert.ReferenceIdeal.S50000x8x16.rank) ∈ Cert.ReferenceIdeal.gather_S50000x8x16_S500000x1_S500000x8x16_12_0_n_n_0_1_1816.collapsedSliceDims by decide))]
    simp only [Nat.add_zero]
    unfold GatherDims.start
    rw [dif_pos (show (0 : Fin Cert.ReferenceIdeal.S50000x8x16.rank) ∈ Cert.ReferenceIdeal.gather_S50000x8x16_S500000x1_S500000x8x16_12_0_n_n_0_1_1816.startIndexMap by decide)]
    have hsi : Cert.ReferenceIdeal.gather_S50000x8x16_S500000x1_S500000x8x16_12_0_n_n_0_1_1816.siIdx (ix3 e h j) ⟨List.idxOf (0 : Fin Cert.ReferenceIdeal.S50000x8x16.rank) Cert.ReferenceIdeal.gather_S50000x8x16_S500000x1_S500000x8x16_12_0_n_n_0_1_1816.startIndexMap,
        List.idxOf_lt_length_iff.2 (show (0 : Fin Cert.ReferenceIdeal.S50000x8x16.rank) ∈ Cert.ReferenceIdeal.gather_S50000x8x16_S500000x1_S500000x8x16_12_0_n_n_0_1_1816.startIndexMap by decide)⟩
        = ix2 e (0 : Fin 1) := by
      funext b; refine Fin.ext ?_
      match b with
      | ⟨0, _⟩ => rfl
      | ⟨1, _⟩ => rfl
    rw [hsi]
    rfl
  | ⟨1, _⟩ =>
    show Cert.ReferenceIdeal.gather_S50000x8x16_S500000x1_S500000x8x16_12_0_n_n_0_1_1816.start (ix3 e h j) idx (1 : Fin Cert.ReferenceIdeal.S50000x8x16.rank) + Cert.ReferenceIdeal.gather_S50000x8x16_S500000x1_S500000x8x16_12_0_n_n_0_1_1816.batchCoord (ix3 e h j) (1 : Fin Cert.ReferenceIdeal.S50000x8x16.rank)
      + Cert.ReferenceIdeal.gather_S50000x8x16_S500000x1_S500000x8x16_12_0_n_n_0_1_1816.offCoord (ix3 e h j) (1 : Fin Cert.ReferenceIdeal.S50000x8x16.rank) = _
    rw [GatherDims.batchCoord_eq_zero _ _ _ (show (1 : Fin Cert.ReferenceIdeal.S50000x8x16.rank) ∉ Cert.ReferenceIdeal.gather_S50000x8x16_S500000x1_S500000x8x16_12_0_n_n_0_1_1816.operandBatchingDims by decide)]
    unfold GatherDims.start
    rw [dif_neg (show (1 : Fin Cert.ReferenceIdeal.S50000x8x16.rank) ∉ Cert.ReferenceIdeal.gather_S50000x8x16_S500000x1_S500000x8x16_12_0_n_n_0_1_1816.startIndexMap by decide)]
    unfold GatherDims.offCoord
    rw [dif_pos (show (1 : Fin Cert.ReferenceIdeal.S50000x8x16.rank) ∈ Cert.ReferenceIdeal.gather_S50000x8x16_S500000x1_S500000x8x16_12_0_n_n_0_1_1816.sKept by decide)]
    have hk : Cert.ReferenceIdeal.gather_S50000x8x16_S500000x1_S500000x8x16_12_0_n_n_0_1_1816.offsetDims[List.idxOf (1 : Fin Cert.ReferenceIdeal.S50000x8x16.rank) Cert.ReferenceIdeal.gather_S50000x8x16_S500000x1_S500000x8x16_12_0_n_n_0_1_1816.sKept]'(by decide) = (1 : Fin Cert.ReferenceIdeal.S500000x8x16.rank) := by decide
    simp only [Nat.zero_add]
    exact congrArg (fun a : Fin Cert.ReferenceIdeal.S500000x8x16.rank => ((ix3 e h j : Cert.ReferenceIdeal.S500000x8x16.Idx) a).val) hk
  | ⟨2, _⟩ =>
    show Cert.ReferenceIdeal.gather_S50000x8x16_S500000x1_S500000x8x16_12_0_n_n_0_1_1816.start (ix3 e h j) idx (2 : Fin Cert.ReferenceIdeal.S50000x8x16.rank) + Cert.ReferenceIdeal.gather_S50000x8x16_S500000x1_S500000x8x16_12_0_n_n_0_1_1816.batchCoord (ix3 e h j) (2 : Fin Cert.ReferenceIdeal.S50000x8x16.rank)
      + Cert.ReferenceIdeal.gather_S50000x8x16_S500000x1_S500000x8x16_12_0_n_n_0_1_1816.offCoord (ix3 e h j) (2 : Fin Cert.ReferenceIdeal.S50000x8x16.rank) = _
    rw [GatherDims.batchCoord_eq_zero _ _ _ (show (2 : Fin Cert.ReferenceIdeal.S50000x8x16.rank) ∉ Cert.ReferenceIdeal.gather_S50000x8x16_S500000x1_S500000x8x16_12_0_n_n_0_1_1816.operandBatchingDims by decide)]
    unfold GatherDims.start
    rw [dif_neg (show (2 : Fin Cert.ReferenceIdeal.S50000x8x16.rank) ∉ Cert.ReferenceIdeal.gather_S50000x8x16_S500000x1_S500000x8x16_12_0_n_n_0_1_1816.startIndexMap by decide)]
    unfold GatherDims.offCoord
    rw [dif_pos (show (2 : Fin Cert.ReferenceIdeal.S50000x8x16.rank) ∈ Cert.ReferenceIdeal.gather_S50000x8x16_S500000x1_S500000x8x16_12_0_n_n_0_1_1816.sKept by decide)]
    have hk : Cert.ReferenceIdeal.gather_S50000x8x16_S500000x1_S500000x8x16_12_0_n_n_0_1_1816.offsetDims[List.idxOf (2 : Fin Cert.ReferenceIdeal.S50000x8x16.rank) Cert.ReferenceIdeal.gather_S50000x8x16_S500000x1_S500000x8x16_12_0_n_n_0_1_1816.sKept]'(by decide) = (2 : Fin Cert.ReferenceIdeal.S500000x8x16.rank) := by decide
    simp only [Nat.zero_add]
    exact congrArg (fun a : Fin Cert.ReferenceIdeal.S500000x8x16.rank => ((ix3 e h j : Cert.ReferenceIdeal.S500000x8x16.Idx) a).val) hk

/-! ## The kernel body's three stored values at a row and a column -/

section Payloads
open Cert.KernelIdeal Cert.KernelIdeal.Gen

theorem lhs_red_0 (i : Cert.KernelIdeal.S2000x8.Idx) (q : Cert.KernelIdeal.dot_S2000x128_S128x8_S2000x8_1_0_0_1_n_n.contr.Idx) : (Cert.KernelIdeal.dot_S2000x128_S128x8_S2000x8_1_0_0_1_n_n.lhsIdx i q 0).val = (i 0).val := by
  unfold DotDims.lhsIdx
  rw [dif_neg (show ¬(0 : Fin Cert.KernelIdeal.S2000x128.rank) ∈ Cert.KernelIdeal.dot_S2000x128_S128x8_S2000x8_1_0_0_1_n_n.lhsBatch by decide), dif_pos (show (0 : Fin Cert.KernelIdeal.S2000x128.rank) ∈ Cert.KernelIdeal.dot_S2000x128_S128x8_S2000x8_1_0_0_1_n_n.lhsNonContracting by decide)]
  rfl
theorem lhs_red_1 (i : Cert.KernelIdeal.S2000x8.Idx) (q : Cert.KernelIdeal.dot_S2000x128_S128x8_S2000x8_1_0_0_1_n_n.contr.Idx) : (Cert.KernelIdeal.dot_S2000x128_S128x8_S2000x8_1_0_0_1_n_n.lhsIdx i q 1).val = (q ⟨0, by decide⟩).val :=
  Cert.KernelIdeal.dot_S2000x128_S128x8_S2000x8_1_0_0_1_n_n.lhsIdx_val_of_single rfl i q
theorem rhs_red_0 (i : Cert.KernelIdeal.S2000x8.Idx) (q : Cert.KernelIdeal.dot_S2000x128_S128x8_S2000x8_1_0_0_1_n_n.contr.Idx) : (Cert.KernelIdeal.dot_S2000x128_S128x8_S2000x8_1_0_0_1_n_n.rhsIdx i q 0).val = (q ⟨0, by decide⟩).val :=
  Cert.KernelIdeal.dot_S2000x128_S128x8_S2000x8_1_0_0_1_n_n.rhsIdx_val_of_single rfl i q
theorem rhs_red_1 (i : Cert.KernelIdeal.S2000x8.Idx) (q : Cert.KernelIdeal.dot_S2000x128_S128x8_S2000x8_1_0_0_1_n_n.contr.Idx) : (Cert.KernelIdeal.dot_S2000x128_S128x8_S2000x8_1_0_0_1_n_n.rhsIdx i q 1).val = (i 1).val := by
  unfold DotDims.rhsIdx
  rw [dif_neg (show ¬(1 : Fin Cert.KernelIdeal.S128x8.rank) ∈ Cert.KernelIdeal.dot_S2000x128_S128x8_S2000x8_1_0_0_1_n_n.rhsBatch by decide), dif_pos (show (1 : Fin Cert.KernelIdeal.S128x8.rank) ∈ Cert.KernelIdeal.dot_S2000x128_S128x8_S2000x8_1_0_0_1_n_n.rhsNonContracting by decide)]
  rfl

theorem lhs_bro_0 (i : Cert.KernelIdeal.S2000x128.Idx) (q : Cert.KernelIdeal.dot_S2000x8_S8x128_S2000x128_1_0_0_1_n_n.contr.Idx) : (Cert.KernelIdeal.dot_S2000x8_S8x128_S2000x128_1_0_0_1_n_n.lhsIdx i q 0).val = (i 0).val := by
  unfold DotDims.lhsIdx
  rw [dif_neg (show ¬(0 : Fin Cert.KernelIdeal.S2000x8.rank) ∈ Cert.KernelIdeal.dot_S2000x8_S8x128_S2000x128_1_0_0_1_n_n.lhsBatch by decide), dif_pos (show (0 : Fin Cert.KernelIdeal.S2000x8.rank) ∈ Cert.KernelIdeal.dot_S2000x8_S8x128_S2000x128_1_0_0_1_n_n.lhsNonContracting by decide)]
  rfl
theorem lhs_bro_1 (i : Cert.KernelIdeal.S2000x128.Idx) (q : Cert.KernelIdeal.dot_S2000x8_S8x128_S2000x128_1_0_0_1_n_n.contr.Idx) : (Cert.KernelIdeal.dot_S2000x8_S8x128_S2000x128_1_0_0_1_n_n.lhsIdx i q 1).val = (q ⟨0, by decide⟩).val :=
  Cert.KernelIdeal.dot_S2000x8_S8x128_S2000x128_1_0_0_1_n_n.lhsIdx_val_of_single rfl i q
theorem rhs_bro_0 (i : Cert.KernelIdeal.S2000x128.Idx) (q : Cert.KernelIdeal.dot_S2000x8_S8x128_S2000x128_1_0_0_1_n_n.contr.Idx) : (Cert.KernelIdeal.dot_S2000x8_S8x128_S2000x128_1_0_0_1_n_n.rhsIdx i q 0).val = (q ⟨0, by decide⟩).val :=
  Cert.KernelIdeal.dot_S2000x8_S8x128_S2000x128_1_0_0_1_n_n.rhsIdx_val_of_single rfl i q
theorem rhs_bro_1 (i : Cert.KernelIdeal.S2000x128.Idx) (q : Cert.KernelIdeal.dot_S2000x8_S8x128_S2000x128_1_0_0_1_n_n.contr.Idx) : (Cert.KernelIdeal.dot_S2000x8_S8x128_S2000x128_1_0_0_1_n_n.rhsIdx i q 1).val = (i 1).val := by
  unfold DotDims.rhsIdx
  rw [dif_neg (show ¬(1 : Fin Cert.KernelIdeal.S8x128.rank) ∈ Cert.KernelIdeal.dot_S2000x8_S8x128_S2000x128_1_0_0_1_n_n.rhsBatch by decide), dif_pos (show (1 : Fin Cert.KernelIdeal.S8x128.rank) ∈ Cert.KernelIdeal.dot_S2000x8_S8x128_S2000x128_1_0_0_1_n_n.rhsNonContracting by decide)]
  rfl

/-- The scaled triple product at a row and a column. -/
theorem pay1_apply (x0 x1 x2 : Vec Ideal S2000x128 .f32) (y : Fin 2000) (d : Fin 128) :
    k2_pay1 (F := Ideal) x0 x1 x2 (ix2 y d)
      = ((x0 (ix2 y d) * x1 (ix2 y d)) * x2 (ix2 y d)) * Ideal.ofBits .f32 0x3E800000#32 := by
  unfold k2_pay1
  simp only [shapeCast_self]
  rfl

/-- The clipped exponential of the row's sums through the reduction table, at a row and a head. -/
theorem pay2_apply (x0 x1 x2 : Vec Ideal S2000x128 .f32) (x5 : Vec Ideal S128x8 .f32) (y : Fin 2000) (h : Fin 8) :
    k2_pay2 (F := Ideal) x0 x1 x2 x5 (ix2 y h)
      = Ideal.exp (min (Ideal.ofBits .f32 0x40A00000#32) (max (Ideal.ofBits .f32 0xC0A00000#32)
          (∑ k : Fin 128, k2_pay1 (F := Ideal) x0 x1 x2 (ix2 y k) * x5 (ix2 k h)))) := by
  unfold k2_pay2
  show Ideal.exp (min (Ideal.ofBits .f32 0x40A00000#32) (max (Ideal.ofBits .f32 0xC0A00000#32)
      (FloatOps.matmul Cert.KernelIdeal.dot_S2000x128_S128x8_S2000x8_1_0_0_1_n_n (some .fp32) (k2_pay1 (F := Ideal) x0 x1 x2) x5 (constant S2000x8 .f32 0x00000000#32) (ix2 y h)))) = _
  rw [Ideal.matmul_constant_zero_apply, ← Equiv.sum_comp (ValueIdx.contrEquiv1 Cert.KernelIdeal.dot_S2000x128_S128x8_S2000x8_1_0_0_1_n_n 128 rfl rfl).symm]
  refine congrArg (fun z => Ideal.exp (min _ (max _ z))) (Finset.sum_congr rfl fun k _ => ?_)
  have hk := ValueIdx.contrEquiv1_symm_val Cert.KernelIdeal.dot_S2000x128_S128x8_S2000x8_1_0_0_1_n_n 128 rfl rfl k
  have el : Cert.KernelIdeal.dot_S2000x128_S128x8_S2000x8_1_0_0_1_n_n.lhsIdx (ix2 y h) ((ValueIdx.contrEquiv1 Cert.KernelIdeal.dot_S2000x128_S128x8_S2000x8_1_0_0_1_n_n 128 rfl rfl).symm k) = ix2 y k := funext fun a => Fin.ext (by
    match a with
    | ⟨0, _⟩ => exact lhs_red_0 _ _
    | ⟨1, _⟩ => exact (lhs_red_1 _ _).trans hk)
  have er : Cert.KernelIdeal.dot_S2000x128_S128x8_S2000x8_1_0_0_1_n_n.rhsIdx (ix2 y h) ((ValueIdx.contrEquiv1 Cert.KernelIdeal.dot_S2000x128_S128x8_S2000x8_1_0_0_1_n_n 128 rfl rfl).symm k) = ix2 k h := funext fun a => Fin.ext (by
    match a with
    | ⟨0, _⟩ => exact (rhs_red_0 _ _).trans hk
    | ⟨1, _⟩ => exact rhs_red_1 _ _)
  rw [el, er]

/-- The weighted values at a row and a column: values times envelope times the row's head weights spread through the
    broadcast table. -/
theorem pay3_apply (x0 x1 x2 : Vec Ideal S2000x128 .f32) (x5 : Vec Ideal S128x8 .f32) (x6 : Vec Ideal S8x128 .f32)
    (x3 : Vec Ideal S2000x1 .f32) (x4 : Vec Ideal S2000x128 .f32) (y : Fin 2000) (d : Fin 128) :
    k2_pay3 (F := Ideal) x0 x1 x2 x5 x6 x3 x4 (ix2 y d)
      = (x4 (ix2 y d) * x3 (ix2 y (0 : Fin 1)))
          * (∑ k : Fin 8, k2_pay2 (F := Ideal) x0 x1 x2 x5 (ix2 y k) * x6 (ix2 k d)) := by
  unfold k2_pay3
  simp only [shapeCast_self]
  show (x4 (ix2 y d) * broadcastTo S2000x128 x3 broadcasts_S2000x1_S2000x128 (ix2 y d))
      * (FloatOps.matmul Cert.KernelIdeal.dot_S2000x8_S8x128_S2000x128_1_0_0_1_n_n (some .fp32) (k2_pay2 (F := Ideal) x0 x1 x2 x5) x6 (constant S2000x128 .f32 0x00000000#32) (ix2 y d)) = _
  rw [broadcastTo_apply x3 broadcasts_S2000x1_S2000x128 (ix2 y d) (ix2 y (0 : Fin 1)) (by
    intro a; match a with
    | ⟨0, _⟩ => rfl
    | ⟨1, _⟩ => rfl)]
  rw [Ideal.matmul_constant_zero_apply, ← Equiv.sum_comp (ValueIdx.contrEquiv1 Cert.KernelIdeal.dot_S2000x8_S8x128_S2000x128_1_0_0_1_n_n 8 rfl rfl).symm]
  refine congrArg (fun z => (x4 (ix2 y d) * x3 (ix2 y (0 : Fin 1))) * z) (Finset.sum_congr rfl fun k _ => ?_)
  have hk := ValueIdx.contrEquiv1_symm_val Cert.KernelIdeal.dot_S2000x8_S8x128_S2000x128_1_0_0_1_n_n 8 rfl rfl k
  have el : Cert.KernelIdeal.dot_S2000x8_S8x128_S2000x128_1_0_0_1_n_n.lhsIdx (ix2 y d) ((ValueIdx.contrEquiv1 Cert.KernelIdeal.dot_S2000x8_S8x128_S2000x128_1_0_0_1_n_n 8 rfl rfl).symm k) = ix2 y k := funext fun a => Fin.ext (by
    match a with
    | ⟨0, _⟩ => exact lhs_bro_0 _ _
    | ⟨1, _⟩ => exact (lhs_bro_1 _ _).trans hk)
  have er : Cert.KernelIdeal.dot_S2000x8_S8x128_S2000x128_1_0_0_1_n_n.rhsIdx (ix2 y d) ((ValueIdx.contrEquiv1 Cert.KernelIdeal.dot_S2000x8_S8x128_S2000x128_1_0_0_1_n_n 8 rfl rfl).symm k) = ix2 k d := funext fun a => Fin.ext (by
    match a with
    | ⟨0, _⟩ => exact (rhs_bro_0 _ _).trans hk
    | ⟨1, _⟩ => exact rhs_bro_1 _ _)
  rw [el, er]

end Payloads

end Cert.Bridge.S2
-- ==== Proof.Val.S2Reg.lean ====
/- Region 2 (the per-edge kernel) at the ideal values, for ANY contents V of the buffers at its entry: what its three result
   arrays hold after the region, index by index. A grid point t handles rows t * 2000 .. t * 2000 + 1999 of every edge array;
   the two constant tables are handed whole at every point. At a row e: the edge output at column d is the product of the
   gathered key, the gathered query and the edge projection there, times a quarter; the head weight at head h is the
   exponential of that row's 16 edge outputs of the head, summed (the sum through the 0/1 reduction table) and clamped to
   [-5, 5]; the message at column d is the gathered value times the row's envelope times the weight of d's head (the
   product through the 0/1 broadcast table). Each result array is covered by the blocks of the points row / 2000. -/
import proofs.«101045_j34351148433892_1_alg».proof.Proof.KI.Reg2
import proofs.«101045_j34351148433892_1_alg».proof.Proof.Gen.KernelIdeal.Regions
import proofs.«101045_j34351148433892_1_alg».proof.Proof.Val.S2Lib

set_option maxRecDepth 16384

noncomputable section

namespace Cert.Bridge.S2

open Idealize.ShloMosaic Idealize.ShloMosaic.ValueIdx Idealize.ShloMosaic.TcCoe
open Idealize.ShloMosaic.Pipeline (Dat)
open Cert.KernelIdeal Cert.KernelIdeal.Gen Cert.KernelIdeal.Hand
open scoped BigOperators

theorem hz : (![0, 0] : Fin 2 → Nat) = fun _ => 0 := funext fun a => by fin_cases a <;> rfl

/-! ## The kernel's three results from the gathered rows -/

/-- The kernel's edge output at (e, d) from the gathered keys, gathered queries and edge projections. -/
def kScore (Kg Qg Pe : S500000x128.Idx → EReal) (e : Fin 500000) (d : Fin 128) : EReal :=
  ((Kg (ix2 e d) * Qg (ix2 e d)) * Pe (ix2 e d)) * Ideal.ofBits .f32 0x3E800000#32

/-- The kernel's head weight at (e, h). -/
def kWeight (Kg Qg Pe : S500000x128.Idx → EReal) (e : Fin 500000) (h : Fin 8) : EReal :=
  Ideal.exp (min (Ideal.ofBits .f32 0x40A00000#32) (max (Ideal.ofBits .f32 0xC0A00000#32)
    (∑ j : Fin 16, kScore Kg Qg Pe e (col h j))))

/-! ## One block: the body's results at a local row -/

theorem out7_at (x0 x1 x2 : Vec Ideal S2000x128 .f32) (y : Fin 2000) (d : Fin 128) :
    out2_7 (F := Ideal) x0 x1 x2 (ix2 y d)
      = ((x0 (ix2 y d) * x1 (ix2 y d)) * x2 (ix2 y d)) * Ideal.ofBits .f32 0x3E800000#32 := by
  unfold out2_7
  rw [View.canon_unit_zero hz]
  simp only [View.ld_unit_zero (S := S2000x128) hz]
  exact pay1_apply x0 x1 x2 y d

/-! ## Where a block sits in its array -/

/-- The printed index maps over the grid: the row-blocked windows are at block (t, 0), the two tables at (0, 0). -/
theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_4.index t (0 : Fin 2) = t.val ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = t.val ∧ win2_7.index t (1 : Fin 2) = 0)
    ∧ (win2_8.index t (0 : Fin 2) = t.val ∧ win2_8.index t (1 : Fin 2) = 0)
    ∧ (win2_9.index t (0 : Fin 2) = t.val ∧ win2_9.index t (1 : Fin 2) = 0) :=
  (by decide +kernel : ∀ t : Fin grid2.N, _)

theorem N2 : cfg2.N = 250 := by decide

/-- Row t * 2000 + p of the edge arrays. -/
def grow (t : Fin cfg2.N) (p : Fin 2000) : Fin 500000 :=
  ⟨t.val * 2000 + p.val, by have := lt_of_lt_of_eq t.isLt N2; have := p.isLt; omega⟩

variable (V : (c : Dev nD) → (b : Ref sig .tc) → Buf (Elt Ideal) ((c : Thread nD τ).loc b))

/-- The gathered values and the envelope column as the region finds them, at their literal types. -/
abbrev aVg (c : Dev nD) : S500000x128.Idx → EReal := V c main_v40
abbrev aEn (c : Dev nD) : S500000x1.Idx → EReal := V c main_v41

/-- Block t of window 0 at local (p, q) is the gathered keys at (t * 2000 + p, q). -/
theorem blk0_at (c : Dev nD) (t : Fin cfg2.N) (p : Fin 2000) (q : Fin 128) :
    iblk2 V c 0 t (ix2 p q) = (V c main_v26 : S500000x128.Idx → EReal) (ix2 (grow t p) q) := by
  obtain ⟨⟨e0, e1⟩, -⟩ := idx_facts t
  show (V c main_v26 : S500000x128.Idx → EReal) (((cfg2.win 0).blk t).view.emb (ix2 p q)) = _
  refine congrArg _ (funext fun a => Fin.ext ?_)
  match a with
  | ⟨0, _⟩ => show win2_0.index t (0 : Fin 2) * 2000 + 1 * p.val = t.val * 2000 + p.val; omega
  | ⟨1, _⟩ => show win2_0.index t (1 : Fin 2) * 128 + 1 * q.val = q.val; omega

/-- Block t of window 1 at local (p, q) is the gathered queries at (t * 2000 + p, q). -/
theorem blk1_at (c : Dev nD) (t : Fin cfg2.N) (p : Fin 2000) (q : Fin 128) :
    iblk2 V c 1 t (ix2 p q) = (V c main_v33 : S500000x128.Idx → EReal) (ix2 (grow t p) q) := by
  obtain ⟨-, ⟨e0, e1⟩, -⟩ := idx_facts t
  show (V c main_v33 : S500000x128.Idx → EReal) (((cfg2.win 1).blk t).view.emb (ix2 p q)) = _
  refine congrArg _ (funext fun a => Fin.ext ?_)
  match a with
  | ⟨0, _⟩ => show win2_1.index t (0 : Fin 2) * 2000 + 1 * p.val = t.val * 2000 + p.val; omega
  | ⟨1, _⟩ => show win2_1.index t (1 : Fin 2) * 128 + 1 * q.val = q.val; omega

/-- Block t of window 2 at local (p, q) is the edge projections at (t * 2000 + p, q). -/
theorem blk2_at (c : Dev nD) (t : Fin cfg2.N) (p : Fin 2000) (q : Fin 128) :
    iblk2 V c 2 t (ix2 p q) = (V c main_v19 : S500000x128.Idx → EReal) (ix2 (grow t p) q) := by
  obtain ⟨-, -, ⟨e0, e1⟩, -⟩ := idx_facts t
  show (V c main_v19 : S500000x128.Idx → EReal) (((cfg2.win 2).blk t).view.emb (ix2 p q)) = _
  refine congrArg _ (funext fun a => Fin.ext ?_)
  match a with
  | ⟨0, _⟩ => show win2_2.index t (0 : Fin 2) * 2000 + 1 * p.val = t.val * 2000 + p.val; omega
  | ⟨1, _⟩ => show win2_2.index t (1 : Fin 2) * 128 + 1 * q.val = q.val; omega

/-- The array window 7 ends holding: the kernel's edge output of the three gathered arrays, index by index. -/
def G7 (Kg Qg Pe : S500000x128.Idx → EReal) : S500000x128.Idx → EReal :=
  fun i => kScore Kg Qg Pe ⟨(i 0).val, idx2_lt0 i⟩ ⟨(i 1).val, idx2_lt1 i⟩

/-- Block t of window 7 sits at rows t * 2000 .. t * 2000 + 1999. -/
theorem emb7 (t : Fin cfg2.N) (p : Fin 2000) (q : Fin 128) :
    ((cfg2.win 7).blk t).view.emb (ix2 p q) = ix2 (grow t p) q := by
  obtain ⟨-, -, -, -, -, -, -, ⟨e0, e1⟩, -⟩ := idx_facts t
  refine funext fun a => Fin.ext ?_
  match a with
  | ⟨0, _⟩ => show win2_7.index t (0 : Fin 2) * 2000 + 1 * p.val = t.val * 2000 + p.val; omega
  | ⟨1, _⟩ => show win2_7.index t (1 : Fin 2) * 128 + 1 * q.val = q.val; omega

/-- What point t writes back to window 7 is block t of that array. -/
theorem flushed7 (c : Dev nD) (t : Fin cfg2.N) :
    (dat2 V c).flushed 7 t = ((cfg2.win 7).blk t).view.read (Elt Ideal)
      (G7 (V c main_v26) (V c main_v33) (V c main_v19)) := by
  show (cfg2.win 7).cut (grid2.coords t) ((dat2 V c).after 7 t) = _
  rw [after2_7]
  funext y
  obtain ⟨p, q, rfl⟩ : ∃ (p : Fin 2000) (q : Fin 128), y = ix2 p q := ⟨y 0, y 1, eq_ix2 y⟩
  refine (out7_at (iblk2 V c 0 t) (iblk2 V c 1 t) (iblk2 V c 2 t) p q).trans ?_
  rw [blk0_at V c t p q, blk1_at V c t p q, blk2_at V c t p q]
  show _ = G7 (V c main_v26) (V c main_v33) (V c main_v19) (((cfg2.win 7).blk t).view.emb (ix2 p q))
  rw [emb7 t p q]
  rfl

/-- An index of the array is in point t's block iff each coordinate is in the block's range on its axis. -/
theorem mem_blk7 (t : Fin cfg2.N) (i : S500000x128.Idx) :
    i ∈ ((cfg2.win 7).blk t).view.set ↔ ∀ a : Fin 2, win2_7.index t a * S2000x128.size a ≤ (i a).val
      ∧ (i a).val < win2_7.index t a * S2000x128.size a + S2000x128.size a := by
  show i ∈ ((View.whole main_v42_0).slice (win2_7.rect t)).set ↔ _
  rw [View.set_slice_whole, Rect.mem_set_unit]
  exact Iff.rfl

/-- Every row is in the block of the point row / 2000. -/
theorem cover7 (i : S500000x128.Idx) :
    ∃ t : Fin cfg2.N, (cfg2.win 7).flush t = true ∧ i ∈ ((cfg2.win 7).blk t).view.set := by
  have hi0 : (i 0).val < 500000 := idx2_lt0 i
  have hi1 : (i 1).val < 128 := idx2_lt1 i
  have ht : (i 0).val / 2000 < cfg2.N := by rw [N2]; omega
  obtain ⟨-, -, -, -, -, -, -, ⟨e0, e1⟩, -⟩ := idx_facts ⟨(i 0).val / 2000, ht⟩
  refine ⟨⟨(i 0).val / 2000, ht⟩, flush2_7 _, ?_⟩
  rw [mem_blk7]
  intro a
  match a with
  | ⟨0, _⟩ =>
    show win2_7.index ⟨(i 0).val / 2000, ht⟩ (0 : Fin 2) * 2000 ≤ (i 0).val
      ∧ (i 0).val < win2_7.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_7.index ⟨(i 0).val / 2000, ht⟩ (1 : Fin 2) * 128 ≤ (i 1).val
      ∧ (i 1).val < win2_7.index ⟨(i 0).val / 2000, ht⟩ (1 : Fin 2) * 128 + 128
    rw [e1]; omega

/-- REGION 2, FIRST RESULT: after the region, window 7's array is the kernel's edge output of the gathered arrays. -/
theorem val2_7 (c : Dev nD) (e : Fin 500000) (d : Fin 128) :
    ((dat2 V c).arrAt 7 cfg2.N : S500000x128.Idx → EReal) (ix2 e d)
      = kScore (V c main_v26) (V c main_v33) (V c main_v19) e d := by
  rw [(dat2 V c).arrAt_eq_of_cover 7 (G7 (V c main_v26) (V c main_v33) (V c main_v19))
    (fun t _ => flushed7 V c t) cover7]
  rfl

/-! ## Windows 8 and 9: the values through the two tables -/

/-- The second stored value at a row and a head, when the reduction table holds the head indicator: the exponential of
    the clamped sum of the row's 16 scaled products in that head. -/
theorem pay2_table (x0 x1 x2 : Vec Ideal S2000x128 .f32) (x5 : Vec Ideal S128x8 .f32)
    (hx5 : ∀ (k : Fin 128) (h : Fin 8), x5 (ix2 k h) = if k.val / 16 = h.val then (1 : EReal) else 0)
    (y : Fin 2000) (h : Fin 8) :
    k2_pay2 (F := Ideal) x0 x1 x2 x5 (ix2 y h)
      = Ideal.exp (min (Ideal.ofBits .f32 0x40A00000#32) (max (Ideal.ofBits .f32 0xC0A00000#32) (∑ j : Fin 16, ((x0 (ix2 y (col h j)) * x1 (ix2 y (col h j))) * x2 (ix2 y (col h j))) * Ideal.ofBits .f32 0x3E800000#32))) := by
  refine (pay2_apply x0 x1 x2 x5 y h).trans ?_
  refine congrArg (fun z => Ideal.exp (min (Ideal.ofBits .f32 0x40A00000#32) (max (Ideal.ofBits .f32 0xC0A00000#32) z))) ?_
  have e1 : (∑ k : Fin 128, k2_pay1 (F := Ideal) x0 x1 x2 (ix2 y k) * x5 (ix2 k h))
      = ∑ k : Fin 128, k2_pay1 (F := Ideal) x0 x1 x2 (ix2 y k) * (if k.val / 16 = h.val then (1 : EReal) else 0) :=
    Finset.sum_congr rfl fun k _ => by rw [hx5 k h]
  rw [e1, sum_head (fun k => k2_pay1 (F := Ideal) x0 x1 x2 (ix2 y k)) h]
  refine Finset.sum_congr rfl fun j _ => ?_
  exact pay1_apply x0 x1 x2 y (col h j)

theorem out8_at (x0 x1 x2 : Vec Ideal S2000x128 .f32) (x5 : Vec Ideal S128x8 .f32)
    (hx5 : ∀ (k : Fin 128) (h : Fin 8), x5 (ix2 k h) = if k.val / 16 = h.val then (1 : EReal) else 0)
    (y : Fin 2000) (h : Fin 8) :
    out2_8 (F := Ideal) x0 x1 x2 x5 (ix2 y h)
      = Ideal.exp (min (Ideal.ofBits .f32 0x40A00000#32) (max (Ideal.ofBits .f32 0xC0A00000#32) (∑ j : Fin 16, ((x0 (ix2 y (col h j)) * x1 (ix2 y (col h j))) * x2 (ix2 y (col h j))) * Ideal.ofBits .f32 0x3E800000#32))) := by
  unfold out2_8
  rw [View.canon_unit_zero hz]
  simp only [View.ld_unit_zero (S := S2000x128) hz, View.ld_unit_zero (S := S128x8) hz]
  exact pay2_table x0 x1 x2 x5 hx5 y h

theorem out9_at (x0 x1 x2 : Vec Ideal S2000x128 .f32) (x3 : Vec Ideal S2000x1 .f32) (x4 : Vec Ideal S2000x128 .f32)
    (x5 : Vec Ideal S128x8 .f32) (x6 : Vec Ideal S8x128 .f32)
    (hx5 : ∀ (k : Fin 128) (h : Fin 8), x5 (ix2 k h) = if k.val / 16 = h.val then (1 : EReal) else 0)
    (hx6 : ∀ (k : Fin 8) (d : Fin 128), x6 (ix2 k d) = if d.val / 16 = k.val then (1 : EReal) else 0)
    (y : Fin 2000) (d : Fin 128) :
    out2_9 (F := Ideal) x0 x1 x2 x3 x4 x5 x6 (ix2 y d)
      = (x4 (ix2 y d) * x3 (ix2 y (0 : Fin 1)))
          * Ideal.exp (min (Ideal.ofBits .f32 0x40A00000#32) (max (Ideal.ofBits .f32 0xC0A00000#32) (∑ j : Fin 16, ((x0 (ix2 y (col (⟨d.val / 16, by omega⟩ : Fin 8) j)) * x1 (ix2 y (col (⟨d.val / 16, by omega⟩ : Fin 8) j))) * x2 (ix2 y (col (⟨d.val / 16, by omega⟩ : Fin 8) j))) * Ideal.ofBits .f32 0x3E800000#32))) := by
  unfold out2_9
  rw [View.canon_unit_zero hz]
  simp only [View.ld_unit_zero (S := S2000x128) hz, View.ld_unit_zero (S := S128x8) hz, View.ld_unit_zero (S := S8x128) hz,
    View.ld_unit_zero (S := S2000x1) hz]
  refine (pay3_apply x0 x1 x2 x5 x6 x3 x4 y d).trans ?_
  refine congrArg (fun z => (x4 (ix2 y d) * x3 (ix2 y (0 : Fin 1))) * z) ?_
  have e1 : (∑ k : Fin 8, k2_pay2 (F := Ideal) x0 x1 x2 x5 (ix2 y k) * x6 (ix2 k d))
      = ∑ k : Fin 8, k2_pay2 (F := Ideal) x0 x1 x2 x5 (ix2 y k) * (if d.val / 16 = k.val then (1 : EReal) else 0) :=
    Finset.sum_congr rfl fun k _ => by rw [hx6 k d]
  rw [e1, sum_col (fun k => k2_pay2 (F := Ideal) x0 x1 x2 x5 (ix2 y k)) d]
  exact pay2_table x0 x1 x2 x5 hx5 y _

/-- Block t of window 3 at a local index is the envelope column at row t * 2000 + p. -/
theorem blk3_at (c : Dev nD) (t : Fin cfg2.N) (p : Fin 2000) (q : Fin 1) :
    iblk2 V c 3 t (ix2 p q) = (V c main_v41 : S500000x1.Idx → EReal) (ix2 (grow t p) q) := by
  obtain ⟨-, -, -, ⟨e0, e1⟩, -⟩ := idx_facts t
  show (V c main_v41 : S500000x1.Idx → EReal) (((cfg2.win 3).blk t).view.emb (ix2 p q)) = _
  refine congrArg _ (funext fun a => Fin.ext ?_)
  match a with
  | ⟨0, _⟩ => show win2_3.index t (0 : Fin 2) * 2000 + 1 * p.val = t.val * 2000 + p.val; omega
  | ⟨1, _⟩ => show win2_3.index t (1 : Fin 2) * 1 + 1 * q.val = q.val; omega

/-- Block t of window 4 at a local index is the gathered values at (t * 2000 + p, q). -/
theorem blk4_at (c : Dev nD) (t : Fin cfg2.N) (p : Fin 2000) (q : Fin 128) :
    iblk2 V c 4 t (ix2 p q) = (V c main_v40 : S500000x128.Idx → EReal) (ix2 (grow t p) q) := by
  obtain ⟨-, -, -, -, ⟨e0, e1⟩, -⟩ := idx_facts t
  show (V c main_v40 : S500000x128.Idx → EReal) (((cfg2.win 4).blk t).view.emb (ix2 p q)) = _
  refine congrArg _ (funext fun a => Fin.ext ?_)
  match a with
  | ⟨0, _⟩ => show win2_4.index t (0 : Fin 2) * 2000 + 1 * p.val = t.val * 2000 + p.val; omega
  | ⟨1, _⟩ => show win2_4.index t (1 : Fin 2) * 128 + 1 * q.val = q.val; omega

/-- Block t of window 5 at a local index is the reduction table at the same index (its block is the whole table). -/
theorem blk5_at (c : Dev nD) (t : Fin cfg2.N) (p : Fin 128) (q : Fin 8) :
    iblk2 V c 5 t (ix2 p q) = (V c main_cst : S128x8.Idx → EReal) (ix2 p q) := by
  obtain ⟨-, -, -, -, -, ⟨e0, e1⟩, -⟩ := idx_facts t
  show (V c main_cst : S128x8.Idx → EReal) (((cfg2.win 5).blk t).view.emb (ix2 p q)) = _
  refine congrArg _ (funext fun a => Fin.ext ?_)
  match a with
  | ⟨0, _⟩ => show win2_5.index t (0 : Fin 2) * 128 + 1 * p.val = p.val; omega
  | ⟨1, _⟩ => show win2_5.index t (1 : Fin 2) * 8 + 1 * q.val = q.val; omega

/-- Block t of window 6 at a local index is the broadcast table at the same index (its block is the whole table). -/
theorem blk6_at (c : Dev nD) (t : Fin cfg2.N) (p : Fin 8) (q : Fin 128) :
    iblk2 V c 6 t (ix2 p q) = (V c main_cst_0 : S8x128.Idx → EReal) (ix2 p q) := by
  obtain ⟨-, -, -, -, -, -, ⟨e0, e1⟩, -⟩ := idx_facts t
  show (V c main_cst_0 : S8x128.Idx → EReal) (((cfg2.win 6).blk t).view.emb (ix2 p q)) = _
  refine congrArg _ (funext fun a => Fin.ext ?_)
  match a with
  | ⟨0, _⟩ => show win2_6.index t (0 : Fin 2) * 8 + 1 * p.val = p.val; omega
  | ⟨1, _⟩ => show win2_6.index t (1 : Fin 2) * 128 + 1 * q.val = q.val; omega

/-- Block t of window 8 sits at rows t * 2000 .. t * 2000 + 1999. -/
theorem emb8 (t : Fin cfg2.N) (p : Fin 2000) (q : Fin 8) :
    ((cfg2.win 8).blk t).view.emb (ix2 p q) = ix2 (grow t p) q := by
  obtain ⟨-, -, -, -, -, -, -, -, ⟨e0, e1⟩, -⟩ := idx_facts t
  refine funext fun a => Fin.ext ?_
  match a with
  | ⟨0, _⟩ => show win2_8.index t (0 : Fin 2) * 2000 + 1 * p.val = t.val * 2000 + p.val; omega
  | ⟨1, _⟩ => show win2_8.index t (1 : Fin 2) * 8 + 1 * q.val = q.val; omega

/-- Block t of window 9 sits at rows t * 2000 .. t * 2000 + 1999. -/
theorem emb9 (t : Fin cfg2.N) (p : Fin 2000) (q : Fin 128) :
    ((cfg2.win 9).blk t).view.emb (ix2 p q) = ix2 (grow t p) q := by
  obtain ⟨-, -, -, -, -, -, -, -, -, e0, e1⟩ := idx_facts t
  refine funext fun a => Fin.ext ?_
  match a with
  | ⟨0, _⟩ => show win2_9.index t (0 : Fin 2) * 2000 + 1 * p.val = t.val * 2000 + p.val; omega
  | ⟨1, _⟩ => show win2_9.index t (1 : Fin 2) * 128 + 1 * q.val = q.val; omega

/-- The array window 8 ends holding: the kernel's head weights of the three gathered arrays. -/
def G8 (Kg Qg Pe : S500000x128.Idx → EReal) : S500000x8.Idx → EReal :=
  fun i => kWeight Kg Qg Pe ⟨(i 0).val, idx2_lt0 i⟩ ⟨(i 1).val, idx2_lt1 i⟩

/-- The array window 9 ends holding: gathered values times the envelope times the weight of the column's head. -/
def G9 (Kg Qg Pe Vg : S500000x128.Idx → EReal) (En : S500000x1.Idx → EReal) : S500000x128.Idx → EReal :=
  fun i => (Vg (ix2 (⟨(i 0).val, idx2_lt0 i⟩ : Fin 500000) (⟨(i 1).val, idx2_lt1 i⟩ : Fin 128))
      * En (ix2 (⟨(i 0).val, idx2_lt0 i⟩ : Fin 500000) (0 : Fin 1)))
    * kWeight Kg Qg Pe ⟨(i 0).val, idx2_lt0 i⟩ ⟨(i 1).val / 16, by have := idx2_lt1 i; omega⟩

/-- The two tables as the region finds them: the head indicators. -/
def TablesOk (c : Dev nD) : Prop :=
  (∀ (k : Fin 128) (h : Fin 8), (V c main_cst : S128x8.Idx → EReal) (ix2 k h) = if k.val / 16 = h.val then (1 : EReal) else 0)
  ∧ (∀ (k : Fin 8) (d : Fin 128), (V c main_cst_0 : S8x128.Idx → EReal) (ix2 k d) = if d.val / 16 = k.val then (1 : EReal) else 0)

theorem flushed8 (c : Dev nD) (hT : TablesOk V c) (t : Fin cfg2.N) :
    (dat2 V c).flushed 8 t = ((cfg2.win 8).blk t).view.read (Elt Ideal)
      (G8 (V c main_v26) (V c main_v33) (V c main_v19)) := by
  show (cfg2.win 8).cut (grid2.coords t) ((dat2 V c).after 8 t) = _
  rw [after2_8]
  funext y
  obtain ⟨p, q, rfl⟩ : ∃ (p : Fin 2000) (q : Fin 8), y = ix2 p q := ⟨y 0, y 1, eq_ix2 y⟩
  refine (out8_at (iblk2 V c 0 t) (iblk2 V c 1 t) (iblk2 V c 2 t) (iblk2 V c 5 t)
    (fun k h => (blk5_at V c t k h).trans (hT.1 k h)) p q).trans ?_
  show _ = G8 (V c main_v26) (V c main_v33) (V c main_v19) (((cfg2.win 8).blk t).view.emb (ix2 p q))
  rw [emb8 t p q]
  refine congrArg (fun z => Ideal.exp (min (Ideal.ofBits .f32 0x40A00000#32) (max (Ideal.ofBits .f32 0xC0A00000#32) z))) (Finset.sum_congr rfl fun j _ => ?_)
  rw [blk0_at V c t p (col q j), blk1_at V c t p (col q j), blk2_at V c t p (col q j)]
  rfl

theorem flushed9 (c : Dev nD) (hT : TablesOk V c) (t : Fin cfg2.N) :
    (dat2 V c).flushed 9 t = ((cfg2.win 9).blk t).view.read (Elt Ideal)
      (G9 (V c main_v26) (V c main_v33) (V c main_v19) (V c main_v40) (V c main_v41)) := by
  show (cfg2.win 9).cut (grid2.coords t) ((dat2 V c).after 9 t) = _
  rw [after2_9]
  funext y
  obtain ⟨p, q, rfl⟩ : ∃ (p : Fin 2000) (q : Fin 128), y = ix2 p q := ⟨y 0, y 1, eq_ix2 y⟩
  refine (out9_at (iblk2 V c 0 t) (iblk2 V c 1 t) (iblk2 V c 2 t) (iblk2 V c 3 t) (iblk2 V c 4 t) (iblk2 V c 5 t) (iblk2 V c 6 t)
    (fun k h => (blk5_at V c t k h).trans (hT.1 k h)) (fun k d => (blk6_at V c t k d).trans (hT.2 k d)) p q).trans ?_
  show _ = G9 (V c main_v26) (V c main_v33) (V c main_v19) (V c main_v40) (V c main_v41) (((cfg2.win 9).blk t).view.emb (ix2 p q))
  rw [emb9 t p q, blk4_at V c t p q, blk3_at V c t p (0 : Fin 1)]
  refine congrArg (fun z => (aVg V c (ix2 (grow t p) q) * aEn V c (ix2 (grow t p) (0 : Fin 1)))
    * Ideal.exp (min (Ideal.ofBits .f32 0x40A00000#32) (max (Ideal.ofBits .f32 0xC0A00000#32) z))) (Finset.sum_congr rfl fun j _ => ?_)
  rw [blk0_at V c t p (col _ j), blk1_at V c t p (col _ j), blk2_at V c t p (col _ j)]
  rfl

/-- An index of window 8's array is in point t's block iff each coordinate is in the block's range on its axis. -/
theorem mem_blk8 (t : Fin cfg2.N) (i : S500000x8.Idx) :
    i ∈ ((cfg2.win 8).blk t).view.set ↔ ∀ a : Fin 2, win2_8.index t a * S2000x8.size a ≤ (i a).val
      ∧ (i a).val < win2_8.index t a * S2000x8.size a + S2000x8.size a := by
  show i ∈ ((View.whole main_v42_1).slice (win2_8.rect t)).set ↔ _
  rw [View.set_slice_whole, Rect.mem_set_unit]
  exact Iff.rfl

/-- Every row of window 8's array is in the block of the point row / 2000. -/
theorem cover8 (i : S500000x8.Idx) :
    ∃ t : Fin cfg2.N, (cfg2.win 8).flush t = true ∧ i ∈ ((cfg2.win 8).blk t).view.set := by
  have hi0 : (i 0).val < 500000 := idx2_lt0 i
  have hi1 : (i 1).val < 8 := idx2_lt1 i
  have ht : (i 0).val / 2000 < cfg2.N := by rw [N2]; omega
  obtain ⟨-, -, -, -, -, -, -, -, ⟨e0, e1⟩, -⟩ := idx_facts ⟨(i 0).val / 2000, ht⟩
  refine ⟨⟨(i 0).val / 2000, ht⟩, flush2_8 _, ?_⟩
  rw [mem_blk8]
  intro a
  match a with
  | ⟨0, _⟩ =>
    show win2_8.index ⟨(i 0).val / 2000, ht⟩ (0 : Fin 2) * 2000 ≤ (i 0).val
      ∧ (i 0).val < win2_8.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_8.index ⟨(i 0).val / 2000, ht⟩ (1 : Fin 2) * 8 ≤ (i 1).val
      ∧ (i 1).val < win2_8.index ⟨(i 0).val / 2000, ht⟩ (1 : Fin 2) * 8 + 8
    rw [e1]; omega

/-- An index of window 9's array is in point t's block iff each coordinate is in the block's range on its axis. -/
theorem mem_blk9 (t : Fin cfg2.N) (i : S500000x128.Idx) :
    i ∈ ((cfg2.win 9).blk t).view.set ↔ ∀ a : Fin 2, win2_9.index t a * S2000x128.size a ≤ (i a).val
      ∧ (i a).val < win2_9.index t a * S2000x128.size a + S2000x128.size a := by
  show i ∈ ((View.whole main_v42_2).slice (win2_9.rect t)).set ↔ _
  rw [View.set_slice_whole, Rect.mem_set_unit]
  exact Iff.rfl

/-- Every row of window 9's array is in the block of the point row / 2000. -/
theorem cover9 (i : S500000x128.Idx) :
    ∃ t : Fin cfg2.N, (cfg2.win 9).flush t = true ∧ i ∈ ((cfg2.win 9).blk t).view.set := by
  have hi0 : (i 0).val < 500000 := idx2_lt0 i
  have hi1 : (i 1).val < 128 := idx2_lt1 i
  have ht : (i 0).val / 2000 < cfg2.N := by rw [N2]; omega
  obtain ⟨-, -, -, -, -, -, -, -, -, e0, e1⟩ := idx_facts ⟨(i 0).val / 2000, ht⟩
  refine ⟨⟨(i 0).val / 2000, ht⟩, flush2_9 _, ?_⟩
  rw [mem_blk9]
  intro a
  match a with
  | ⟨0, _⟩ =>
    show win2_9.index ⟨(i 0).val / 2000, ht⟩ (0 : Fin 2) * 2000 ≤ (i 0).val
      ∧ (i 0).val < win2_9.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_9.index ⟨(i 0).val / 2000, ht⟩ (1 : Fin 2) * 128 ≤ (i 1).val
      ∧ (i 1).val < win2_9.index ⟨(i 0).val / 2000, ht⟩ (1 : Fin 2) * 128 + 128
    rw [e1]; omega

/-- REGION 2, SECOND RESULT: window 8's array is the head weights. -/
theorem val2_8 (c : Dev nD) (hT : TablesOk V c) (e : Fin 500000) (h : Fin 8) :
    ((dat2 V c).arrAt 8 cfg2.N : S500000x8.Idx → EReal) (ix2 e h)
      = kWeight (V c main_v26) (V c main_v33) (V c main_v19) e h := by
  rw [(dat2 V c).arrAt_eq_of_cover 8 (G8 (V c main_v26) (V c main_v33) (V c main_v19))
    (fun t _ => flushed8 V c hT t) cover8]
  rfl

/-- REGION 2, THIRD RESULT: window 9's array is the weighted values. -/
theorem val2_9 (c : Dev nD) (hT : TablesOk V c) (e : Fin 500000) (d : Fin 128) :
    ((dat2 V c).arrAt 9 cfg2.N : S500000x128.Idx → EReal) (ix2 e d)
      = (aVg V c (ix2 e d) * aEn V c (ix2 e (0 : Fin 1)))
          * kWeight (V c main_v26) (V c main_v33) (V c main_v19) e ⟨d.val / 16, by omega⟩ := by
  rw [(dat2 V c).arrAt_eq_of_cover 9 (G9 (V c main_v26) (V c main_v33) (V c main_v19) (V c main_v40) (V c main_v41))
    (fun t _ => flushed9 V c hT t) cover9]
  rfl

end Cert.Bridge.S2
-- ==== Proof.Val.S2Kern.lean ====
/- Stage 2, the kernel program's side. Before region 2 the program gathers, for every edge, the key row of its source
   node, the query row of its destination node and the value row of its source node (a negative node index wrapped by
   +50000, then clamped as a gather clamps), and reshapes the envelope to a column; the two constant tables reach the
   region as the first host stretch wrote them, and read as the head indicators. With region 2's value this puts the
   three slots the region leaves into the vocabulary shared with the reference: a row gather read at an index is the
   selected row; the kernel's "times a quarter" after the third factor is the reference's "over four" before it; the sum
   through the 0/1 reduction table is the sum over the head's 16 columns. The stage then follows from the reference's
   three edge arrays read in the same vocabulary. -/
import proofs.«101045_j34351148433892_1_alg».proof.Proof.Val.S2Reg

set_option maxRecDepth 16384

noncomputable section

namespace Cert.Bridge.S2

open Idealize.ShloMosaic Idealize.ShloMosaic.ValueIdx Idealize.ShloMosaic.TcCoe Idealize.ShloMosaic.StableHlo
open Idealize.ShloMosaic.Pipeline (Dat)
open Cert.KernelIdeal Cert.KernelIdeal.Gen Cert.KernelIdeal.Hand
open scoped BigOperators

/-! ## The gathers and the scaling: from the kernel's spelling to the shared one -/

theorem kScore_gather (K Q : S50000x128.Idx → EReal) (iK iQ : IVec S500000x1 32) (Pe : S500000x128.Idx → EReal)
    (e : Fin 500000) (d : Fin 128) :
    kScore (Host.gather gather_S50000x128_S500000x1_S500000x128_1_0_n_n_0_1_1128 K iK) (Host.gather gather_S50000x128_S500000x1_S500000x128_1_0_n_n_0_1_1128 Q iQ) Pe e d = score K Q Pe (rowOf iK) (rowOf iQ) e d := by
  unfold kScore score
  rw [gatherK_apply, gatherK_apply]
  exact scale_quarter _ _ _

theorem kWeight_gather (K Q : S50000x128.Idx → EReal) (iK iQ : IVec S500000x1 32) (Pe : S500000x128.Idx → EReal)
    (e : Fin 500000) (h : Fin 8) :
    kWeight (Host.gather gather_S50000x128_S500000x1_S500000x128_1_0_n_n_0_1_1128 K iK) (Host.gather gather_S50000x128_S500000x1_S500000x128_1_0_n_n_0_1_1128 Q iQ) Pe e h = weight K Q Pe (rowOf iK) (rowOf iQ) e h := by
  unfold kWeight weight
  exact congrArg (fun z => Ideal.exp (min (Ideal.ofBits .f32 0x40A00000#32) (max (Ideal.ofBits .f32 0xC0A00000#32) z)))
    (Finset.sum_congr rfl fun j _ => kScore_gather K Q iK iQ Pe e (col h j))

/-- The shared values depend on their arrays only through the entries. -/
theorem score_congr {K K' Q Q' : (⟨2, ![50000, 128]⟩ : Shape).Idx → EReal} {P P' : (⟨2, ![500000, 128]⟩ : Shape).Idx → EReal}
    (hK : ∀ r d, K (ix2 r d) = K' (ix2 r d)) (hQ : ∀ r d, Q (ix2 r d) = Q' (ix2 r d)) (hP : ∀ e d, P (ix2 e d) = P' (ix2 e d))
    (rk rq : Fin 500000 → Fin 50000) (e : Fin 500000) (d : Fin 128) : score K Q P rk rq e d = score K' Q' P' rk rq e d := by
  unfold score; rw [hK, hQ, hP]

theorem weight_congr {K K' Q Q' : (⟨2, ![50000, 128]⟩ : Shape).Idx → EReal} {P P' : (⟨2, ![500000, 128]⟩ : Shape).Idx → EReal}
    (hK : ∀ r d, K (ix2 r d) = K' (ix2 r d)) (hQ : ∀ r d, Q (ix2 r d) = Q' (ix2 r d)) (hP : ∀ e d, P (ix2 e d) = P' (ix2 e d))
    (rk rq : Fin 500000 → Fin 50000) (e : Fin 500000) (h : Fin 8) : weight K Q P rk rq e h = weight K' Q' P' rk rq e h := by
  unfold weight
  exact congrArg (fun z => Ideal.exp (min (Ideal.ofBits .f32 0x40A00000#32) (max (Ideal.ofBits .f32 0xC0A00000#32) z)))
    (Finset.sum_congr rfl fun j _ => score_congr hK hQ hP rk rq e (col h j))

/-! ## The kernel program's buffers around region 2 -/

variable (m : (ℓ : Loc nD τ sig) → Buf (Elt Ideal) ℓ) (outs : Outs (F := Ideal))

theorem V4_arg2 (c : Dev nD) : V4 m outs c main_arg2 = m ((c : Thread nD τ).loc main_arg2) :=
  (V4_of m outs c main_arg2 (by decide)).trans <| (V3_of m outs c main_arg2 (by decide)).trans <| (V2_of m outs c main_arg2 (by decide)).trans <| (V1_of m c main_arg2 (by decide)).trans rfl
theorem V4_arg3 (c : Dev nD) : V4 m outs c main_arg3 = m ((c : Thread nD τ).loc main_arg3) :=
  (V4_of m outs c main_arg3 (by decide)).trans <| (V3_of m outs c main_arg3 (by decide)).trans <| (V2_of m outs c main_arg3 (by decide)).trans <| (V1_of m c main_arg3 (by decide)).trans rfl
theorem V4_arg4 (c : Dev nD) : V4 m outs c main_arg4 = m ((c : Thread nD τ).loc main_arg4) :=
  (V4_of m outs c main_arg4 (by decide)).trans <| (V3_of m outs c main_arg4 (by decide)).trans <| (V2_of m outs c main_arg4 (by decide)).trans <| (V1_of m c main_arg4 (by decide)).trans rfl

/-- The gathered keys: rows of the key projection at the wrapped source indices. -/
theorem k_v26 (c : Dev nD) : (V5 m outs c main_v26 : S500000x128.Idx → EReal)
    = Host.gather gather_S50000x128_S500000x1_S500000x128_1_0_n_n_0_1_1128 (V4 m outs c main_v17 : S50000x128.Idx → EReal)
        (wrapIdx bcast_S_S500000 bcast_S500000_S500000x1_0 (V4 m outs c main_arg3)) := by
  dsimp only [V5, hostOps2]
  after_results_simp
  rfl

/-- The gathered queries: rows of the query projection at the wrapped destination indices. -/
theorem k_v33 (c : Dev nD) : (V5 m outs c main_v33 : S500000x128.Idx → EReal)
    = Host.gather gather_S50000x128_S500000x1_S500000x128_1_0_n_n_0_1_1128 (V4 m outs c main_v16 : S50000x128.Idx → EReal)
        (wrapIdx bcast_S_S500000 bcast_S500000_S500000x1_0 (V4 m outs c main_arg4)) := by
  dsimp only [V5, hostOps2]
  after_results_simp
  rfl

/-- The gathered values: rows of the value projection at the wrapped source indices. -/
theorem k_v40 (c : Dev nD) : (V5 m outs c main_v40 : S500000x128.Idx → EReal)
    = Host.gather gather_S50000x128_S500000x1_S500000x128_1_0_n_n_0_1_1128 (V4 m outs c main_v18 : S50000x128.Idx → EReal)
        (wrapIdx bcast_S_S500000 bcast_S500000_S500000x1_0 (V4 m outs c main_arg3)) := by
  dsimp only [V5, hostOps2]
  after_results_simp
  rfl

/-- The envelope column is the envelope argument with its two unit axes merged. -/
theorem k_v41 (c : Dev nD) : (V5 m outs c main_v41 : S500000x1.Idx → EReal)
    = shapeCast S500000x1 (V4 m outs c main_arg2 : S500000x1x1.Idx → EReal) shapeCasts_S500000x1x1_S500000x1 := by
  dsimp only [V5, hostOps2]
  after_results_simp
  rfl

/-! ## The tables as region 2 finds them, and the three slots it leaves -/

/-- The reduction table reaches region 2 as the first host stretch wrote it. -/
theorem k_cst (c : Dev nD) : (V5 m outs c main_cst : S128x8.Idx → EReal) = fun i => Ideal.ofBits .f32 (lit0 (S128x8.rowMajor i)) :=
  (V5_of m outs c main_cst (by decide)).trans <| (V4_of m outs c main_cst (by decide)).trans <|
    (V3_of m outs c main_cst (by decide)).trans <| (V2_of m outs c main_cst (by decide)).trans <| by
      dsimp only [V1, hostOps0]
      after_results
      rfl

/-- The broadcast table likewise. -/
theorem k_cst_0 (c : Dev nD) : (V5 m outs c main_cst_0 : S8x128.Idx → EReal) = fun i => Ideal.ofBits .f32 (lit1 (S8x128.rowMajor i)) :=
  (V5_of m outs c main_cst_0 (by decide)).trans <| (V4_of m outs c main_cst_0 (by decide)).trans <|
    (V3_of m outs c main_cst_0 (by decide)).trans <| (V2_of m outs c main_cst_0 (by decide)).trans <| by
      dsimp only [V1, hostOps0]
      after_results
      rfl

theorem tablesOk (c : Dev nD) : TablesOk (fun c b => V5 m outs c b) c := by
  refine ⟨fun k h => ?_, fun k d => ?_⟩
  · show (V5 m outs c main_cst : S128x8.Idx → EReal) (ix2 k h) = _
    rw [k_cst]; exact gred_apply k h
  · show (V5 m outs c main_cst_0 : S8x128.Idx → EReal) (ix2 k d) = _
    rw [k_cst_0]; exact gbro_apply k d

theorem v6_0 (c : Dev nD) : V6 m outs c main_v42_0 = outs 6 main_v42_0 c := by
  simp only [V6, Function.update_of_ne (StableHlo.devRef_ne_of_ne (by decide : main_v42_0 ≠ main_v42_2) : (Proc.devRef .tc main_v42_0 : DevRef τ sig) ≠ Proc.devRef .tc main_v42_2), Function.update_of_ne (StableHlo.devRef_ne_of_ne (by decide : main_v42_0 ≠ main_v42_1) : (Proc.devRef .tc main_v42_0 : DevRef τ sig) ≠ Proc.devRef .tc main_v42_1), Function.update_self]
theorem v6_1 (c : Dev nD) : V6 m outs c main_v42_1 = outs 6 main_v42_1 c := by
  simp only [V6, Function.update_of_ne (StableHlo.devRef_ne_of_ne (by decide : main_v42_1 ≠ main_v42_2) : (Proc.devRef .tc main_v42_1 : DevRef τ sig) ≠ Proc.devRef .tc main_v42_2), Function.update_self]
theorem v6_2 (c : Dev nD) : V6 m outs c main_v42_2 = outs 6 main_v42_2 c := by
  simp only [V6, Function.update_self]

/-! ## The kernel program's three results in the shared vocabulary -/

theorem kside0 (c : Dev nD) (hs7 : (dat2 (fun c b => V5 m outs c b) c).arrAt 7 cfg2.N = outs 6 main_v42_0 c)
    (e : Fin 500000) (d : Fin 128) :
    (V6 m outs c main_v42_0 : S500000x128.Idx → EReal) (ix2 e d)
      = score (V4 m outs c main_v17 : S50000x128.Idx → EReal) (V4 m outs c main_v16 : S50000x128.Idx → EReal) (V4 m outs c main_v19 : S500000x128.Idx → EReal) (rowOf (wrapIdx bcast_S_S500000 bcast_S500000_S500000x1_0 (V4 m outs c main_arg3))) (rowOf (wrapIdx bcast_S_S500000 bcast_S500000_S500000x1_0 (V4 m outs c main_arg4))) e d := by
  rw [v6_0, ← hs7]
  refine (val2_7 (fun c b => V5 m outs c b) c e d).trans ?_
  show kScore (V5 m outs c main_v26) (V5 m outs c main_v33) (V5 m outs c main_v19) e d = _
  rw [k_v26, k_v33, V5_of m outs c main_v19 (by decide)]
  exact kScore_gather _ _ _ _ _ e d

theorem kside1 (c : Dev nD) (hs8 : (dat2 (fun c b => V5 m outs c b) c).arrAt 8 cfg2.N = outs 6 main_v42_1 c)
    (e : Fin 500000) (h : Fin 8) :
    (V6 m outs c main_v42_1 : S500000x8.Idx → EReal) (ix2 e h)
      = weight (V4 m outs c main_v17 : S50000x128.Idx → EReal) (V4 m outs c main_v16 : S50000x128.Idx → EReal) (V4 m outs c main_v19 : S500000x128.Idx → EReal) (rowOf (wrapIdx bcast_S_S500000 bcast_S500000_S500000x1_0 (V4 m outs c main_arg3))) (rowOf (wrapIdx bcast_S_S500000 bcast_S500000_S500000x1_0 (V4 m outs c main_arg4))) e h := by
  rw [v6_1, ← hs8]
  refine (val2_8 (fun c b => V5 m outs c b) c (tablesOk m outs c) e h).trans ?_
  show kWeight (V5 m outs c main_v26) (V5 m outs c main_v33) (V5 m outs c main_v19) e h = _
  rw [k_v26, k_v33, V5_of m outs c main_v19 (by decide)]
  exact kWeight_gather _ _ _ _ _ e h

theorem kside2 (c : Dev nD) (hs9 : (dat2 (fun c b => V5 m outs c b) c).arrAt 9 cfg2.N = outs 6 main_v42_2 c)
    (e : Fin 500000) (d : Fin 128) :
    (V6 m outs c main_v42_2 : S500000x128.Idx → EReal) (ix2 e d)
      = message (V4 m outs c main_v18 : S50000x128.Idx → EReal) (fun e => (V4 m outs c main_arg2 : S500000x1x1.Idx → EReal) (ix3 e (0 : Fin 1) (0 : Fin 1)))
          (rowOf (wrapIdx bcast_S_S500000 bcast_S500000_S500000x1_0 (V4 m outs c main_arg3)))
          (weight (V4 m outs c main_v17 : S50000x128.Idx → EReal) (V4 m outs c main_v16 : S50000x128.Idx → EReal) (V4 m outs c main_v19 : S500000x128.Idx → EReal) (rowOf (wrapIdx bcast_S_S500000 bcast_S500000_S500000x1_0 (V4 m outs c main_arg3))) (rowOf (wrapIdx bcast_S_S500000 bcast_S500000_S500000x1_0 (V4 m outs c main_arg4))) e ⟨d.val / 16, by omega⟩) e d := by
  rw [v6_2, ← hs9]
  refine (val2_9 (fun c b => V5 m outs c b) c (tablesOk m outs c) e d).trans ?_
  have hV : aVg (fun c b => V5 m outs c b) c (ix2 e d) = (V4 m outs c main_v18 : S50000x128.Idx → EReal) (ix2 (rowOf (wrapIdx bcast_S_S500000 bcast_S500000_S500000x1_0 (V4 m outs c main_arg3)) e) d) := by
    show (V5 m outs c main_v40 : S500000x128.Idx → EReal) (ix2 e d) = _
    rw [k_v40, gatherK_apply]
  have hE : aEn (fun c b => V5 m outs c b) c (ix2 e (0 : Fin 1))
      = (V4 m outs c main_arg2 : S500000x1x1.Idx → EReal) (ix3 e (0 : Fin 1) (0 : Fin 1)) := by
    show (V5 m outs c main_v41 : S500000x1.Idx → EReal) (ix2 e (0 : Fin 1)) = _
    rw [k_v41]
    exact shapeCast_apply _ shapeCasts_S500000x1x1_S500000x1 (ix2 e (0 : Fin 1)) (ix3 e (0 : Fin 1) (0 : Fin 1))
      (by rw [Shape.rowMajor_val_three, Shape.rowMajor_val_two]; show (e.val * 1 + 0) * 1 + 0 = e.val * 1 + 0; omega)
  have hW : kWeight (V5 m outs c main_v26) (V5 m outs c main_v33) (V5 m outs c main_v19) e (⟨d.val / 16, by omega⟩ : Fin 8)
      = weight (V4 m outs c main_v17 : S50000x128.Idx → EReal) (V4 m outs c main_v16 : S50000x128.Idx → EReal) (V4 m outs c main_v19 : S500000x128.Idx → EReal) (rowOf (wrapIdx bcast_S_S500000 bcast_S500000_S500000x1_0 (V4 m outs c main_arg3))) (rowOf (wrapIdx bcast_S_S500000 bcast_S500000_S500000x1_0 (V4 m outs c main_arg4))) e ⟨d.val / 16, by omega⟩ := by
    rw [k_v26, k_v33, V5_of m outs c main_v19 (by decide)]
    exact kWeight_gather _ _ _ _ _ e _
  show (aVg (fun c b => V5 m outs c b) c (ix2 e d) * aEn (fun c b => V5 m outs c b) c (ix2 e (0 : Fin 1)))
      * kWeight (V5 m outs c main_v26) (V5 m outs c main_v33) (V5 m outs c main_v19) e (⟨d.val / 16, by omega⟩ : Fin 8) = _
  rw [hV, hE, hW]
  rfl

/-- The message depends on its arrays only through the entries it reads. -/
theorem message_congr {V V' : (⟨2, ![50000, 128]⟩ : Shape).Idx → EReal} {env env' : Fin 500000 → EReal} {w w' : EReal}
    (rv : Fin 500000 → Fin 50000) (e : Fin 500000) (d : Fin 128)
    (hV : ∀ r d, V (ix2 r d) = V' (ix2 r d)) (henv : env e = env' e) (hw : w = w') :
    message V env rv w e d = message V' env' rv w' e d := by
  unfold message; rw [hV, henv, hw]

/-! ## Stage 2 -/

/-- STAGE 2 FROM THE REFERENCE'S READINGS. Given region 2's three slots at the region's values, stage 1's equalities, and the
    reference's three edge arrays read in the shared vocabulary over start-index columns that are the wrapped source and
    destination arrays, the kernel program's edge output, head weights and messages are, entry by entry, the reference's:
    the kernel multiplies by a quarter after the third factor where the reference divides by four before it, and sums a
    head's 16 columns through a 0/1 table where the reference sums the last axis of the [E, 8, 16] view. -/
theorem stage_of_ref (c : Dev nD)
    (hs7 : (dat2 (fun c b => V5 m outs c b) c).arrAt 7 cfg2.N = outs 6 main_v42_0 c)
    (hs8 : (dat2 (fun c b => V5 m outs c b) c).arrAt 8 cfg2.N = outs 6 main_v42_1 c)
    (hs9 : (dat2 (fun c b => V5 m outs c b) c).arrAt 9 cfg2.N = outs 6 main_v42_2 c)
    (K' Q' V' : (⟨2, ![50000, 128]⟩ : Shape).Idx → EReal) (P' : (⟨2, ![500000, 128]⟩ : Shape).Idx → EReal) (env' : Fin 500000 → EReal)
    (iK' iQ' iV' : IVec (⟨2, ![500000, 1]⟩ : Shape) 32)
    (X26 : (⟨2, ![500000, 128]⟩ : Shape).Idx → EReal) (X30 : (⟨3, ![500000, 8, 1]⟩ : Shape).Idx → EReal) (X41 : (⟨3, ![500000, 8, 16]⟩ : Shape).Idx → EReal)
    (hQ : ∀ (r : Fin 50000) (j : Fin 128), (V3 m outs c main_v16 : S50000x128.Idx → EReal) (ix2 r j) = Q' (ix2 r j))
    (hK : ∀ (r : Fin 50000) (j : Fin 128), (V3 m outs c main_v17 : S50000x128.Idx → EReal) (ix2 r j) = K' (ix2 r j))
    (hV : ∀ (r : Fin 50000) (j : Fin 128), (V3 m outs c main_v18 : S50000x128.Idx → EReal) (ix2 r j) = V' (ix2 r j))
    (hP : ∀ (r : Fin 500000) (j : Fin 128), (V4 m outs c main_v19 : S500000x128.Idx → EReal) (ix2 r j) = P' (ix2 r j))
    (henv : ∀ e : Fin 500000, env' e = (m ((c.tc : Thread nD τ).loc main_arg2) : S500000x1x1.Idx → EReal) (ix3 e (0 : Fin 1) (0 : Fin 1)))
    (hiK : iK' = (wrapIdx bcast_S_S500000 bcast_S500000_S500000x1_0 (m ((c.tc : Thread nD τ).loc main_arg3)))) (hiQ : iQ' = (wrapIdx bcast_S_S500000 bcast_S500000_S500000x1_0 (m ((c.tc : Thread nD τ).loc main_arg4)))) (hiV : iV' = (wrapIdx bcast_S_S500000 bcast_S500000_S500000x1_0 (m ((c.tc : Thread nD τ).loc main_arg3))))
    (r26 : ∀ (e : Fin 500000) (d : Fin 128), X26 (ix2 e d) = score K' Q' P' (rowOf iK') (rowOf iQ') e d)
    (r30 : ∀ (e : Fin 500000) (h : Fin 8), X30 (ix3 e h (0 : Fin 1)) = weight K' Q' P' (rowOf iK') (rowOf iQ') e h)
    (r41 : ∀ (e : Fin 500000) (h : Fin 8) (j : Fin 16), X41 (ix3 e h j)
      = message V' env' (rowOf iV') (weight K' Q' P' (rowOf iK') (rowOf iQ') e h) e (col h j)) :
    (∀ (e : Fin 500000) (d : Fin 128), (V6 m outs c main_v42_0 : S500000x128.Idx → EReal) (ix2 e d) = X26 (ix2 e d))
    ∧ (∀ (e : Fin 500000) (h : Fin 8), (V6 m outs c main_v42_1 : S500000x8.Idx → EReal) (ix2 e h) = X30 (ix3 e h (0 : Fin 1)))
    ∧ (∀ (e : Fin 500000) (h : Fin 8) (j : Fin 16) (k : Fin 128), k.val = 16 * h.val + j.val →
        (V6 m outs c main_v42_2 : S500000x128.Idx → EReal) (ix2 e k) = X41 (ix3 e h j)) := by
  have hK4 : ∀ (r : Fin 50000) (j : Fin 128), (V4 m outs c main_v17 : S50000x128.Idx → EReal) (ix2 r j) = K' (ix2 r j) := fun r j => by
    rw [V4_of m outs c main_v17 (by decide)]; exact hK r j
  have hQ4 : ∀ (r : Fin 50000) (j : Fin 128), (V4 m outs c main_v16 : S50000x128.Idx → EReal) (ix2 r j) = Q' (ix2 r j) := fun r j => by
    rw [V4_of m outs c main_v16 (by decide)]; exact hQ r j
  have hV4 : ∀ (r : Fin 50000) (j : Fin 128), (V4 m outs c main_v18 : S50000x128.Idx → EReal) (ix2 r j) = V' (ix2 r j) := fun r j => by
    rw [V4_of m outs c main_v18 (by decide)]; exact hV r j
  subst hiK hiQ hiV
  refine ⟨fun e d => ?_, fun e h => ?_, fun e h j k hk => ?_⟩
  · rw [kside0 m outs c hs7 e d, r26 e d, V4_arg3, V4_arg4]
    exact score_congr hK4 hQ4 hP _ _ e d
  · rw [kside1 m outs c hs8 e h, r30 e h, V4_arg3, V4_arg4]
    exact weight_congr hK4 hQ4 hP _ _ e h
  · obtain rfl : k = col h j := Fin.ext hk
    have hh : (⟨(col h j).val / 16, by have := (col h j).isLt; omega⟩ : Fin 8) = h :=
      Fin.ext (by show (16 * h.val + j.val) / 16 = h.val; have := j.isLt; omega)
    rw [kside2 m outs c hs9 e (col h j), r41 e h j, V4_arg3, V4_arg4, V4_arg2, hh]
    exact message_congr _ e (col h j) hV4 (henv e).symm (weight_congr hK4 hQ4 hP _ _ e h)

end Cert.Bridge.S2
-- ==== Proof.Val.S2Ref.lean ====
/-
  The reference's per-edge attention — its second list of operations — read at an index, at the ideal
  values. With K, Q, V the node projections and P the edge projection that the first list leaves, and
  the three columns of start indices the second list computes from the edge endpoints: the edge output
  at (e, d) is K[src e, d] * Q[dst e, d] / 4 * P[e, d]; the head weight at (e, h) is the exponential of
  the sum of head h's sixteen edge outputs clamped to [-5, 5]; the message at (e, h, j) is
  V[src e, 16h + j] times the envelope of e times the head weight.
-/
import proofs.«101045_j34351148433892_1_alg».proof.Proof.Ref.Ops
import proofs.«101045_j34351148433892_1_alg».proof.Proof.Val.S2Lib
import Idealize.ShloMosaic.Lib.Pipeline.Regions
import Idealize.ShloMosaic.Lib.Pipeline.Value
import Idealize.ShloMosaic.Lib.IdealHost
import Idealize.ShloMosaic.PureOps.Ideal.Laws

set_option maxRecDepth 8192

open Idealize.ShloMosaic Idealize.ShloMosaic.ValueIdx Idealize.ShloMosaic.TcCoe
open Cert.ReferenceIdeal Cert.ReferenceIdeal.Gen Cert.ReferenceIdeal.Hand
open scoped BigOperators

noncomputable section

namespace Cert.Bridge.S2

/-! ## The second list, operation by operation (any float values)

Each buffer the readings below need, as the operation that writes it applied to the buffers it reads. -/

section Ops

variable {F : FTy → Type} [FloatOps F] (m' : (ℓ : Loc nD τ sig) → Buf (Elt F) ℓ) (c : Dev nD)

/-- The projections with the heads split are the projections, reshaped. -/
theorem r_v1 : (RV1 m' c main_v1 : (⟨S50000x8x16, .f32⟩ : BufTy).Contents (Elt F))
    = shapeCast S50000x8x16 (RV1 m' c main_v0 : (⟨S50000x128, .f32⟩ : BufTy).Contents (Elt F)) shapeCasts_S50000x128_S50000x8x16 := by
  chain_rfl
theorem r_v3 : (RV1 m' c main_v3 : (⟨S50000x8x16, .f32⟩ : BufTy).Contents (Elt F))
    = shapeCast S50000x8x16 (RV1 m' c main_v2 : (⟨S50000x128, .f32⟩ : BufTy).Contents (Elt F)) shapeCasts_S50000x128_S50000x8x16 := by
  chain_rfl
theorem r_v5 : (RV1 m' c main_v5 : (⟨S50000x8x16, .f32⟩ : BufTy).Contents (Elt F))
    = shapeCast S50000x8x16 (RV1 m' c main_v4 : (⟨S50000x128, .f32⟩ : BufTy).Contents (Elt F)) shapeCasts_S50000x128_S50000x8x16 := by
  chain_rfl
theorem r_v7 : (RV1 m' c main_v7 : (⟨S500000x8x16, .f32⟩ : BufTy).Contents (Elt F))
    = shapeCast S500000x8x16 (RV1 m' c main_v6 : (⟨S500000x128, .f32⟩ : BufTy).Contents (Elt F)) shapeCasts_S500000x128_S500000x8x16 := by
  chain_rfl

/-- The three columns of start indices: an endpoint array with its negative words wrapped by 50000. -/
theorem r_v13 : (RV2 m' c main_v13 : (⟨S500000x1, .i32⟩ : BufTy).Contents (Elt F))
    = broadcastInDim S500000x1 ![0] bcast_S500000_S500000x1_0
        (select (cmpi .slt (m' ((c : Thread nD τ).loc main_arg3) : (⟨S500000, .i32⟩ : BufTy).Contents (Elt F)) (broadcastInDim S500000 ![] bcast_S_S500000 (constantI S_ 32 0#32)))
          (addi (m' ((c : Thread nD τ).loc main_arg3) : (⟨S500000, .i32⟩ : BufTy).Contents (Elt F)) (broadcastInDim S500000 ![] bcast_S_S500000 (constantI S_ 32 50000#32)))
          (m' ((c : Thread nD τ).loc main_arg3) : (⟨S500000, .i32⟩ : BufTy).Contents (Elt F))) := by
  chain_rfl
theorem r_v20 : (RV2 m' c main_v20 : (⟨S500000x1, .i32⟩ : BufTy).Contents (Elt F))
    = broadcastInDim S500000x1 ![0] bcast_S500000_S500000x1_0
        (select (cmpi .slt (m' ((c : Thread nD τ).loc main_arg4) : (⟨S500000, .i32⟩ : BufTy).Contents (Elt F)) (broadcastInDim S500000 ![] bcast_S_S500000 (constantI S_ 32 0#32)))
          (addi (m' ((c : Thread nD τ).loc main_arg4) : (⟨S500000, .i32⟩ : BufTy).Contents (Elt F)) (broadcastInDim S500000 ![] bcast_S_S500000 (constantI S_ 32 50000#32)))
          (m' ((c : Thread nD τ).loc main_arg4) : (⟨S500000, .i32⟩ : BufTy).Contents (Elt F))) := by
  chain_rfl
theorem r_v36 : (RV2 m' c main_v36 : (⟨S500000x1, .i32⟩ : BufTy).Contents (Elt F))
    = broadcastInDim S500000x1 ![0] bcast_S500000_S500000x1_0
        (select (cmpi .slt (m' ((c : Thread nD τ).loc main_arg3) : (⟨S500000, .i32⟩ : BufTy).Contents (Elt F)) (broadcastInDim S500000 ![] bcast_S_S500000 (constantI S_ 32 0#32)))
          (addi (m' ((c : Thread nD τ).loc main_arg3) : (⟨S500000, .i32⟩ : BufTy).Contents (Elt F)) (broadcastInDim S500000 ![] bcast_S_S500000 (constantI S_ 32 50000#32)))
          (m' ((c : Thread nD τ).loc main_arg3) : (⟨S500000, .i32⟩ : BufTy).Contents (Elt F))) := by
  chain_rfl

/-- The edge output with the heads split: gathered keys times gathered queries, over four, times the edge projection. -/
theorem r_v25 : (RV2 m' c main_v25 : (⟨S500000x8x16, .f32⟩ : BufTy).Contents (Elt F))
    = mulf (Host.divf (mulf (Host.gather gather_S50000x8x16_S500000x1_S500000x8x16_12_0_n_n_0_1_1816 (RV1 m' c main_v3 : (⟨S50000x8x16, .f32⟩ : BufTy).Contents (Elt F)) (RV2 m' c main_v13 : (⟨S500000x1, .i32⟩ : BufTy).Contents (Elt F)))
                            (Host.gather gather_S50000x8x16_S500000x1_S500000x8x16_12_0_n_n_0_1_1816 (RV1 m' c main_v1 : (⟨S50000x8x16, .f32⟩ : BufTy).Contents (Elt F)) (RV2 m' c main_v20 : (⟨S500000x1, .i32⟩ : BufTy).Contents (Elt F))))
                      (broadcastInDim S500000x8x16 ![] bcast_S_S500000x8x16 (constant S_ .f32 0x40800000#32)))
           (RV1 m' c main_v7 : (⟨S500000x8x16, .f32⟩ : BufTy).Contents (Elt F)) := by
  chain_rfl

/-- The edge output is that array with the heads merged. -/
theorem r_v26 : (RV2 m' c main_v26 : (⟨S500000x128, .f32⟩ : BufTy).Contents (Elt F))
    = shapeCast S500000x128 (RV2 m' c main_v25 : (⟨S500000x8x16, .f32⟩ : BufTy).Contents (Elt F)) shapeCasts_S500000x8x16_S500000x128 := by
  chain_rfl

/-- The head weights: the exponential of the sum over each head's lanes, clamped below by -5 and above by 5. -/
theorem r_v30 : (RV2 m' c main_v30 : (⟨S500000x8x1, .f32⟩ : BufTy).Contents (Elt F))
    = Host.exp (minimumf (broadcastInDim S500000x8x1 ![] bcast_S_S500000x8x1 (constant S_ .f32 0x40A00000#32))
        (maximumf (broadcastInDim S500000x8x1 ![] bcast_S_S500000x8x1 (constant S_ .f32 0xC0A00000#32))
          (broadcastInDim S500000x8x1 ![0, 1] bcast_S500000x8_S500000x8x1_0_1
            (Host.reduceAdd (RV2 m' c main_v25 : (⟨S500000x8x16, .f32⟩ : BufTy).Contents (Elt F)) (constant S_ .f32 0x00000000#32) reducesTo_S500000x8x16_S500000x8_d2 h_S_)))) := by
  chain_rfl

/-- The messages: gathered values times the envelope times the head weights. -/
theorem r_v41 : (RV2 m' c main_v41 : (⟨S500000x8x16, .f32⟩ : BufTy).Contents (Elt F))
    = mulf (mulf (Host.gather gather_S50000x8x16_S500000x1_S500000x8x16_12_0_n_n_0_1_1816 (RV1 m' c main_v5 : (⟨S50000x8x16, .f32⟩ : BufTy).Contents (Elt F)) (RV2 m' c main_v36 : (⟨S500000x1, .i32⟩ : BufTy).Contents (Elt F)))
                 (broadcastInDim S500000x8x16 ![0, 1, 2] bcast_S500000x1x1_S500000x8x16_0_1_2 (m' ((c : Thread nD τ).loc main_arg2) : (⟨S500000x1x1, .f32⟩ : BufTy).Contents (Elt F))))
           (broadcastInDim S500000x8x16 ![0, 1, 2] bcast_S500000x8x1_S500000x8x16_0_1_2 (RV2 m' c main_v30 : (⟨S500000x8x1, .f32⟩ : BufTy).Contents (Elt F))) := by
  chain_rfl

end Ops

/-! ## Read at an index (the ideal values) -/

section Values

variable (m' : (ℓ : Loc nD τ sig) → Buf (Elt Ideal) ℓ) (c : Dev nD)

/-- The keys, queries, values and edge projection the first list leaves. -/
abbrev refK : (⟨2, ![50000, 128]⟩ : Shape).Idx → EReal := RV1 m' c main_v2
abbrev refQ : (⟨2, ![50000, 128]⟩ : Shape).Idx → EReal := RV1 m' c main_v0
abbrev refV : (⟨2, ![50000, 128]⟩ : Shape).Idx → EReal := RV1 m' c main_v4
abbrev refP : (⟨2, ![500000, 128]⟩ : Shape).Idx → EReal := RV1 m' c main_v6
/-- The three columns of start indices the second list computes. -/
abbrev refIK : IVec (⟨2, ![500000, 1]⟩ : Shape) 32 := RV2 m' c main_v13
abbrev refIQ : IVec (⟨2, ![500000, 1]⟩ : Shape) 32 := RV2 m' c main_v20
abbrev refIV : IVec (⟨2, ![500000, 1]⟩ : Shape) 32 := RV2 m' c main_v36
/-- The envelope of an edge. -/
abbrev refEnv (e : Fin 500000) : EReal :=
  (m' ((c : Thread nD τ).loc main_arg2) : (⟨3, ![500000, 1, 1]⟩ : Shape).Idx → EReal) (ix3 e 0 0)

/-- The host's exponential at an index. -/
theorem hostExp_apply {s : Shape} {φ : FTy} (x : FVec Ideal s φ) (i : s.Idx) : Host.exp x i = Ideal.exp (x i) := rfl

/-- Lane j of head h of row r is column 16h + j of row r: the two have the same row-major position. -/
theorem split_node {α : Type} (X : S50000x128.Idx → α) (r : Fin 50000) (h : Fin 8) (j : Fin 16) :
    shapeCast S50000x8x16 X shapeCasts_S50000x128_S50000x8x16 (ix3 r h j) = X (ix2 r (col h j)) :=
  shapeCast_apply X _ (ix3 r h j) (ix2 r (col h j)) (by
    rw [Shape.rowMajor_val_two, Shape.rowMajor_val_three]
    show r.val * 128 + (16 * h.val + j.val) = (r.val * 8 + h.val) * 16 + j.val
    omega)
theorem split_edge {α : Type} (X : S500000x128.Idx → α) (e : Fin 500000) (h : Fin 8) (j : Fin 16) :
    shapeCast S500000x8x16 X shapeCasts_S500000x128_S500000x8x16 (ix3 e h j) = X (ix2 e (col h j)) :=
  shapeCast_apply X _ (ix3 e h j) (ix2 e (col h j)) (by
    rw [Shape.rowMajor_val_two, Shape.rowMajor_val_three]
    show e.val * 128 + (16 * h.val + j.val) = (e.val * 8 + h.val) * 16 + j.val
    omega)
theorem merge_edge {α : Type} (Y : S500000x8x16.Idx → α) (e : Fin 500000) (h : Fin 8) (j : Fin 16) :
    shapeCast S500000x128 Y shapeCasts_S500000x8x16_S500000x128 (ix2 e (col h j)) = Y (ix3 e h j) :=
  shapeCast_apply Y _ (ix2 e (col h j)) (ix3 e h j) (by
    rw [Shape.rowMajor_val_two, Shape.rowMajor_val_three]
    show (e.val * 8 + h.val) * 16 + j.val = e.val * 128 + (16 * h.val + j.val)
    omega)

/-- The edge output with the heads split, at (e, h, j). -/
theorem v25_apply (e : Fin 500000) (h : Fin 8) (j : Fin 16) :
    (RV2 m' c main_v25 : S500000x8x16.Idx → EReal) (ix3 e h j)
      = score (refK m' c) (refQ m' c) (refP m' c) (rowOf (refIK m' c)) (rowOf (refIQ m' c)) e (col h j) := by
  refine (congrFun (r_v25 m' c) (ix3 e h j)).trans ?_
  rw [mulf_apply, hostDivf_apply, mulf_apply, gatherR_apply, gatherR_apply, broadcastInDim_scalar_apply, constant_apply,
    r_v3 m' c, r_v1 m' c, r_v7 m' c, split_node, split_node, split_edge]
  rfl

/-- The edge output at (e, d). -/
theorem ref_v26 (e : Fin 500000) (d : Fin 128) :
    (RV2 m' c main_v26 : S500000x128.Idx → EReal) (ix2 e d)
      = score (refK m' c) (refQ m' c) (refP m' c) (rowOf (refIK m' c)) (rowOf (refIQ m' c)) e d := by
  obtain ⟨h, j, rfl⟩ : ∃ (h : Fin 8) (j : Fin 16), d = col h j :=
    ⟨⟨d.val / 16, by omega⟩, ⟨d.val % 16, by omega⟩, Fin.ext (by show d.val = 16 * (d.val / 16) + d.val % 16; omega)⟩
  refine (congrFun (r_v26 m' c) (ix2 e (col h j))).trans ?_
  rw [merge_edge]
  exact v25_apply m' c e h j

/-- The reduced axis is the lane: the index of the sum's k-th term over (e, h) is (e, h, k). -/
theorem lane_lift (red : S500000x8x16.Reduces [2] S500000x8) (e : Fin 500000) (h : Fin 8) (k : Fin 16) :
    red.lift (ix2 e h) k = ix3 e h k := by
  funext a
  match a with
  | ⟨0, _⟩ => rfl
  | ⟨1, _⟩ => rfl
  | ⟨2, _⟩ => rfl

/-- The head weight at (e, h). -/
theorem ref_v30 (e : Fin 500000) (h : Fin 8) :
    (RV2 m' c main_v30 : S500000x8x1.Idx → EReal) (ix3 e h (0 : Fin 1))
      = weight (refK m' c) (refQ m' c) (refP m' c) (rowOf (refIK m' c)) (rowOf (refIQ m' c)) e h := by
  have red : S500000x8x16.Reduces [2] S500000x8 := by decide
  refine (congrFun (r_v30 m' c) (ix3 e h (0 : Fin 1))).trans ?_
  rw [hostExp_apply, minimumf_apply, maximumf_apply, broadcastInDim_scalar_apply, broadcastInDim_scalar_apply,
    constant_apply, constant_apply,
    broadcastInDim_apply ![0, 1] bcast_S500000x8_S500000x8x1_0_1 _ (ix3 e h (0 : Fin 1)) (ix2 e h) (by
      intro a
      match a with
      | ⟨0, _⟩ => rfl
      | ⟨1, _⟩ => rfl),
    hostReduceAdd_apply, Ideal.hostReduceAdd_single reducesTo_S500000x8x16_S500000x8_d2 red]
  rw [constant_apply, Ideal.ofBits_zero_f32, zero_add]
  unfold weight
  refine congrArg (fun z => Ideal.exp (min (Ideal.ofBits .f32 0x40A00000#32) (max (Ideal.ofBits .f32 0xC0A00000#32) z))) ?_
  refine Finset.sum_congr rfl fun k _ => ?_
  rw [lane_lift red e h k]
  exact v25_apply m' c e h k

/-- The message at (e, h, j). -/
theorem ref_v41 (e : Fin 500000) (h : Fin 8) (j : Fin 16) :
    (RV2 m' c main_v41 : S500000x8x16.Idx → EReal) (ix3 e h j)
      = message (refV m' c) (refEnv m' c) (rowOf (refIV m' c))
          (weight (refK m' c) (refQ m' c) (refP m' c) (rowOf (refIK m' c)) (rowOf (refIQ m' c)) e h) e (col h j) := by
  refine (congrFun (r_v41 m' c) (ix3 e h j)).trans ?_
  rw [mulf_apply, mulf_apply, gatherR_apply, r_v5 m' c, split_node,
    broadcastInDim_apply ![0, 1, 2] bcast_S500000x1x1_S500000x8x16_0_1_2 _ (ix3 e h j) (ix3 e (0 : Fin 1) (0 : Fin 1)) (by
      intro a
      match a with
      | ⟨0, _⟩ => rfl
      | ⟨1, _⟩ => rfl
      | ⟨2, _⟩ => rfl),
    broadcastInDim_apply ![0, 1, 2] bcast_S500000x8x1_S500000x8x16_0_1_2 _ (ix3 e h j) (ix3 e h (0 : Fin 1)) (by
      intro a
      match a with
      | ⟨0, _⟩ => rfl
      | ⟨1, _⟩ => rfl
      | ⟨2, _⟩ => rfl),
    ref_v30 m' c e h]
  rfl

/-- The start-index columns are the endpoint arrays wrapped. -/
theorem ref_iK : refIK m' c = wrapIdx bcast_S_S500000 bcast_S500000_S500000x1_0 (m' ((c : Thread nD τ).loc main_arg3)) :=
  r_v13 m' c
theorem ref_iQ : refIQ m' c = wrapIdx bcast_S_S500000 bcast_S500000_S500000x1_0 (m' ((c : Thread nD τ).loc main_arg4)) :=
  r_v20 m' c
theorem ref_iV : refIV m' c = wrapIdx bcast_S_S500000 bcast_S500000_S500000x1_0 (m' ((c : Thread nD τ).loc main_arg3)) :=
  r_v36 m' c

end Values

end Cert.Bridge.S2

end
-- ==== Proof.Val.S2.lean ====
/- Stage 2 (the per-edge attention): with region 2's three slots at the region's values, stage 1's equalities and the two
   programs' envelope, source and destination arguments equal, the kernel program's edge output, head weights and
   messages are, entry by entry, the reference's. The kernel side and the reference side are each read in one shared
   vocabulary (the edge output K[src] * Q[dst] / 4 * P; the head weight exp of the clamped sum over the head's 16
   columns; the message V[src] * envelope * weight); the start-index columns of the two programs are the same
   function of the same arguments. -/
import proofs.«101045_j34351148433892_1_alg».proof.Proof.Val.S2Kern
import proofs.«101045_j34351148433892_1_alg».proof.Proof.Val.S2Ref

set_option maxRecDepth 16384

noncomputable section

namespace Cert.Bridge.S2

open Idealize.ShloMosaic Idealize.ShloMosaic.ValueIdx Idealize.ShloMosaic.TcCoe Idealize.ShloMosaic.StableHlo
open Idealize.ShloMosaic.Pipeline (Dat)
open Cert.KernelIdeal Cert.KernelIdeal.Gen Cert.KernelIdeal.Hand
open scoped BigOperators

/-- STAGE 2. -/
theorem stage (m : (ℓ : Loc nD τ sig) → Buf (Elt Ideal) ℓ) (outs : Outs (F := Ideal))
    (m' : (ℓ : Loc Cert.ReferenceIdeal.nD Cert.ReferenceIdeal.τ Cert.ReferenceIdeal.sig) → Buf (Elt Ideal) ℓ) (c : Dev nD)
    (hs7 : (dat2 (fun c b => V5 m outs c b) c).arrAt 7 cfg2.N = outs 6 main_v42_0 c)
    (hs8 : (dat2 (fun c b => V5 m outs c b) c).arrAt 8 cfg2.N = outs 6 main_v42_1 c)
    (hs9 : (dat2 (fun c b => V5 m outs c b) c).arrAt 9 cfg2.N = outs 6 main_v42_2 c)
    (h16 : ∀ (r : Fin 50000) (j : Fin 128), (V3 m outs c main_v16 : S50000x128.Idx → EReal) (ix2 r j) = (Cert.ReferenceIdeal.Hand.RV1 (F := Ideal) m' c Cert.ReferenceIdeal.main_v0 : Cert.ReferenceIdeal.S50000x128.Idx → EReal) (ix2 r j))
    (h17 : ∀ (r : Fin 50000) (j : Fin 128), (V3 m outs c main_v17 : S50000x128.Idx → EReal) (ix2 r j) = (Cert.ReferenceIdeal.Hand.RV1 (F := Ideal) m' c Cert.ReferenceIdeal.main_v2 : Cert.ReferenceIdeal.S50000x128.Idx → EReal) (ix2 r j))
    (h18 : ∀ (r : Fin 50000) (j : Fin 128), (V3 m outs c main_v18 : S50000x128.Idx → EReal) (ix2 r j) = (Cert.ReferenceIdeal.Hand.RV1 (F := Ideal) m' c Cert.ReferenceIdeal.main_v4 : Cert.ReferenceIdeal.S50000x128.Idx → EReal) (ix2 r j))
    (h19 : ∀ (r : Fin 500000) (j : Fin 128), (V4 m outs c main_v19 : S500000x128.Idx → EReal) (ix2 r j) = (Cert.ReferenceIdeal.Hand.RV1 (F := Ideal) m' c Cert.ReferenceIdeal.main_v6 : Cert.ReferenceIdeal.S500000x128.Idx → EReal) (ix2 r j))
    (a2 : m' ((c.tc : Thread Cert.ReferenceIdeal.nD Cert.ReferenceIdeal.τ).loc Cert.ReferenceIdeal.main_arg2) = m ((c.tc : Thread nD τ).loc main_arg2))
    (a3 : m' ((c.tc : Thread Cert.ReferenceIdeal.nD Cert.ReferenceIdeal.τ).loc Cert.ReferenceIdeal.main_arg3) = m ((c.tc : Thread nD τ).loc main_arg3))
    (a4 : m' ((c.tc : Thread Cert.ReferenceIdeal.nD Cert.ReferenceIdeal.τ).loc Cert.ReferenceIdeal.main_arg4) = m ((c.tc : Thread nD τ).loc main_arg4)) :
    (∀ (e : Fin 500000) (d : Fin 128), (V6 m outs c main_v42_0 : S500000x128.Idx → EReal) (ix2 e d) = (Cert.ReferenceIdeal.Hand.RV2 (F := Ideal) m' c Cert.ReferenceIdeal.main_v26 : Cert.ReferenceIdeal.S500000x128.Idx → EReal) (ix2 e d))
    ∧ (∀ (e : Fin 500000) (h : Fin 8), (V6 m outs c main_v42_1 : S500000x8.Idx → EReal) (ix2 e h) = (Cert.ReferenceIdeal.Hand.RV2 (F := Ideal) m' c Cert.ReferenceIdeal.main_v30 : Cert.ReferenceIdeal.S500000x8x1.Idx → EReal) (ix3 e h (0 : Fin 1)))
    ∧ (∀ (e : Fin 500000) (h : Fin 8) (j : Fin 16) (k : Fin 128), k.val = 16 * h.val + j.val → (V6 m outs c main_v42_2 : S500000x128.Idx → EReal) (ix2 e k) = (Cert.ReferenceIdeal.Hand.RV2 (F := Ideal) m' c Cert.ReferenceIdeal.main_v41 : Cert.ReferenceIdeal.S500000x8x16.Idx → EReal) (ix3 e h j)) :=
  stage_of_ref m outs c hs7 hs8 hs9
    (refK m' c) (refQ m' c) (refV m' c) (refP m' c) (refEnv m' c)
    (refIK m' c) (refIQ m' c) (refIV m' c)
    (Cert.ReferenceIdeal.Hand.RV2 (F := Ideal) m' c Cert.ReferenceIdeal.main_v26 : Cert.ReferenceIdeal.S500000x128.Idx → EReal) (Cert.ReferenceIdeal.Hand.RV2 (F := Ideal) m' c Cert.ReferenceIdeal.main_v30 : Cert.ReferenceIdeal.S500000x8x1.Idx → EReal) (Cert.ReferenceIdeal.Hand.RV2 (F := Ideal) m' c Cert.ReferenceIdeal.main_v41 : Cert.ReferenceIdeal.S500000x8x16.Idx → EReal)
    h16 h17 h18 h19
    (fun e => by
      show ((m' ((c.tc : Thread Cert.ReferenceIdeal.nD Cert.ReferenceIdeal.τ).loc Cert.ReferenceIdeal.main_arg2)) : Cert.ReferenceIdeal.S500000x1x1.Idx → EReal) (ix3 e (0 : Fin 1) (0 : Fin 1)) = _
      rw [a2])
    ((ref_iK m' c).trans (by rw [a3]))
    ((ref_iQ m' c).trans (by rw [a4]))
    ((ref_iV m' c).trans (by rw [a3]))
    (ref_v26 m' c) (ref_v30 m' c) (ref_v41 m' c)

end Cert.Bridge.S2
-- ==== Proof.Val.S3.Scatter.lean ====
/-
  A row scatter with an adding body, read at one element of its result, at the ideal instance.

  The dimension numbers are those of a scatter of whole rows: update row e goes to operand row idx[e, 0] (update window
  axes = every trailing axis, inserted window axis 0, scatter_dims_to_operand_dims [0], index vector on axis 1 of an
  [E, 1] index array). Update element (e, rest) lands at (idx[e, 0], rest) when 0 ≤ idx[e, 0] < N, and nowhere
  otherwise. Hence result element (n, rest) is the operand's element plus the sum over the rows e with idx[e, 0] = n of
  update element (e, rest). Stated at rank 2 ([N, C]) and rank 3 ([N, C, D]); beside them, the reshape [a, b, c] →
  [a, b·c] read at (n, p·c + q).
-/
import Idealize.ShloMosaic.Lib.ValueIdx
import Idealize.ShloMosaic.Lib.Pipeline.Value
import Idealize.ShloMosaic.PureOps.Ideal

noncomputable section
open scoped BigOperators
namespace Cert.Bridge.S3
open Idealize.ShloMosaic Idealize.ShloMosaic.ValueIdx

/-- A row scatter's dimension numbers at rank 2. -/
abbrev rowDims2 (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

theorem sKept2 : (rowDims2 N E C wf).sKept = [1] := rfl

theorem start2_0 (idx : IVec ⟨2, ![E, 1]⟩ w) (e : Fin E) (c : Fin C) :
    (rowDims2 N E C wf).start (ix2 e c) idx 0 = (idx (ix2 e 0)).toInt := by
  unfold ScatterDims.start
  rw [dif_pos (show (0 : Fin 2) ∈ (rowDims2 N E C wf).scatterDimsToOperandDims from List.mem_singleton.mpr rfl)]
  congr 2
  funext b; refine Fin.ext ?_
  match b with
  | ⟨0, _⟩ => rfl
  | ⟨1, _⟩ => rfl

theorem start2_1 (idx : IVec ⟨2, ![E, 1]⟩ w) (j : (⟨2, ![E, C]⟩ : Shape).Idx) :
    (rowDims2 N E C wf).start j idx 1 = 0 := by
  unfold ScatterDims.start
  rw [dif_neg (show (1 : Fin 2) ∉ ([0] : List (Fin 2)) by decide +revert)]

theorem window2_0 (j : (⟨2, ![E, C]⟩ : Shape).Idx) : (rowDims2 N E C wf).window j 0 = 0 := by
  unfold ScatterDims.window
  rw [dif_neg (show (0 : Fin 2) ∉ (rowDims2 N E C wf).sKept from (by decide : (0 : Fin 2) ∉ ([1] : List (Fin 2))))]

theorem window2_1 (e : Fin E) (c : Fin C) : (rowDims2 N E C wf).window (ix2 e c) 1 = c.val := by
  unfold ScatterDims.window
  rw [dif_pos (show (1 : Fin 2) ∈ (rowDims2 N E C wf).sKept from (by decide : (1 : Fin 2) ∈ ([1] : List (Fin 2))))]
  rfl

theorem resultIdx2_eq_some_iff (idx : IVec ⟨2, ![E, 1]⟩ w) (e : Fin E) (c' : Fin C) (n : Fin N) (c : Fin C) :
    (rowDims2 N E C wf).resultIdx? (ix2 e c') idx = some (ix2 n c) ↔ (idx (ix2 e 0)).toInt = (n.val : ℤ) ∧ c' = c := by
  have hs0 := start2_0 wf idx e c'
  have hs1 := start2_1 wf idx (ix2 e c')
  have hw0 := window2_0 wf (ix2 e c')
  have hw1 := window2_1 wf e c'
  have hn := n.isLt
  have hc := c'.isLt
  unfold ScatterDims.resultIdx?
  split
  · rename_i h
    rw [Option.some.injEq]
    constructor
    · intro hf
      have h0 := congrArg (fun f => (f 0).val) hf
      have h1 := congrArg (fun f => (f 1).val) hf
      have h00 := h 0
      simp only [hs0, hw0] at h0 h00
      simp only [hs1, hw1] at h1
      have h1' : c'.val = c.val := by
        have h11 : ((0 : ℤ) + (c'.val : ℤ)).toNat = c.val := h1
        omega
      have h0' : ((idx (ix2 e 0)).toInt + 0).toNat = n.val := h0
      refine ⟨by omega, Fin.ext h1'⟩
    · rintro ⟨ht, rfl⟩
      funext a; refine Fin.ext ?_
      match a with
      | ⟨0, _⟩ =>
        show ((rowDims2 N E C wf).start (ix2 e c') idx 0 + (rowDims2 N E C wf).window (ix2 e c') 0).toNat = n.val
        rw [hs0, hw0]; omega
      | ⟨1, _⟩ =>
        show ((rowDims2 N E C wf).start (ix2 e c') idx 1 + (rowDims2 N E C wf).window (ix2 e c') 1).toNat = c'.val
        rw [hs1, hw1]; omega
  · rename_i h
    constructor
    · intro hf; exact absurd hf (by simp)
    · rintro ⟨ht, rfl⟩
      exfalso; apply h
      intro a
      match a with
      | ⟨0, _⟩ =>
        show 0 ≤ (rowDims2 N E C wf).start (ix2 e c') idx 0 + (rowDims2 N E C wf).window (ix2 e c') 0 ∧
          (rowDims2 N E C wf).start (ix2 e c') idx 0 + (rowDims2 N E C wf).window (ix2 e c') 0 < (N : ℤ)
        rw [hs0, hw0]; omega
      | ⟨1, _⟩ =>
        show 0 ≤ (rowDims2 N E C wf).start (ix2 e c') idx 1 + (rowDims2 N E C wf).window (ix2 e c') 1 ∧
          (rowDims2 N E C wf).start (ix2 e c') idx 1 + (rowDims2 N E C wf).window (ix2 e c') 1 < (C : ℤ)
        rw [hs1, hw1]; omega

/-- A row scatter read at an element: the operand there plus the updates of the rows sent to that row. -/
theorem scatterRow2_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowDims2 N E C wf) x idx upd (ix2 n c)
      = x (ix2 n c) + ∑ e : Fin E, if (idx (ix2 e 0)).toInt = (n.val : ℤ) then upd (ix2 e c) else 0 := by
  unfold Ideal.hostScatterAdd
  congr 1
  rw [Finset.sum_filter, sum_idx2]
  refine Finset.sum_congr rfl fun e _ => ?_
  simp only [resultIdx2_eq_some_iff]
  by_cases ht : (idx (ix2 e 0)).toInt = (n.val : ℤ)
  · simp only [ht, true_and]
    rw [Finset.sum_ite_eq' Finset.univ c (fun c' => upd (ix2 e c'))]
    simp
  · simp [ht]

/-! ## Rank 3 -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A row scatter's dimension numbers at rank 3. -/
abbrev rowDims3 (N E C D : Nat) (wf : ScatterDims.WF ⟨3, ![N, C, D]⟩ ⟨2, ![E, 1]⟩ ⟨3, ![E, C, D]⟩ [1, 2] [0] [0] 1) :
    ScatterDims ⟨3, ![N, C, D]⟩ ⟨2, ![E, 1]⟩ ⟨3, ![E, C, D]⟩ where
  updateWindowDims := [1, 2]
  insertedWindowDims := [0]
  scatterDimsToOperandDims := [0]
  indexVectorDim := 1
  wf := wf

section R3
variable {N E C D w : Nat} (wf : ScatterDims.WF ⟨3, ![N, C, D]⟩ ⟨2, ![E, 1]⟩ ⟨3, ![E, C, D]⟩ [1, 2] [0] [0] 1)

theorem start3_0 (idx : IVec ⟨2, ![E, 1]⟩ w) (e : Fin E) (c : Fin C) (d : Fin D) :
    (rowDims3 N E C D wf).start (ix3 e c d) idx 0 = (idx (ix2 e 0)).toInt := by
  unfold ScatterDims.start
  rw [dif_pos (show (0 : Fin 3) ∈ (rowDims3 N E C D wf).scatterDimsToOperandDims from List.mem_singleton.mpr rfl)]
  congr 2
  funext b; refine Fin.ext ?_
  match b with
  | ⟨0, _⟩ => rfl
  | ⟨1, _⟩ => rfl

theorem start3_1 (idx : IVec ⟨2, ![E, 1]⟩ w) (j : (⟨3, ![E, C, D]⟩ : Shape).Idx) :
    (rowDims3 N E C D wf).start j idx 1 = 0 := by
  unfold ScatterDims.start
  rw [dif_neg (show (1 : Fin 3) ∉ (rowDims3 N E C D wf).scatterDimsToOperandDims from (by decide : (1 : Fin 3) ∉ ([0] : List (Fin 3))))]

theorem start3_2 (idx : IVec ⟨2, ![E, 1]⟩ w) (j : (⟨3, ![E, C, D]⟩ : Shape).Idx) :
    (rowDims3 N E C D wf).start j idx 2 = 0 := by
  unfold ScatterDims.start
  rw [dif_neg (show (2 : Fin 3) ∉ (rowDims3 N E C D wf).scatterDimsToOperandDims from (by decide : (2 : Fin 3) ∉ ([0] : List (Fin 3))))]

theorem window3_0 (j : (⟨3, ![E, C, D]⟩ : Shape).Idx) : (rowDims3 N E C D wf).window j 0 = 0 := by
  unfold ScatterDims.window
  rw [dif_neg (show (0 : Fin 3) ∉ (rowDims3 N E C D wf).sKept from (by decide : (0 : Fin 3) ∉ ([1, 2] : List (Fin 3))))]

theorem window3_1 (e : Fin E) (c : Fin C) (d : Fin D) : (rowDims3 N E C D wf).window (ix3 e c d) 1 = c.val := by
  unfold ScatterDims.window
  rw [dif_pos (show (1 : Fin 3) ∈ (rowDims3 N E C D wf).sKept from (by decide : (1 : Fin 3) ∈ ([1, 2] : List (Fin 3))))]
  rfl

theorem window3_2 (e : Fin E) (c : Fin C) (d : Fin D) : (rowDims3 N E C D wf).window (ix3 e c d) 2 = d.val := by
  unfold ScatterDims.window
  rw [dif_pos (show (2 : Fin 3) ∈ (rowDims3 N E C D wf).sKept from (by decide : (2 : Fin 3) ∈ ([1, 2] : List (Fin 3))))]
  rfl

theorem resultIdx3_eq_some_iff (idx : IVec ⟨2, ![E, 1]⟩ w) (e : Fin E) (c' : Fin C) (d' : Fin D) (n : Fin N) (c : Fin C) (d : Fin D) :
    (rowDims3 N E C D wf).resultIdx? (ix3 e c' d') idx = some (ix3 n c d)
      ↔ (idx (ix2 e 0)).toInt = (n.val : ℤ) ∧ c' = c ∧ d' = d := by
  have hs0 := start3_0 wf idx e c' d'
  have hs1 := start3_1 wf idx (ix3 e c' d')
  have hs2 := start3_2 wf idx (ix3 e c' d')
  have hw0 := window3_0 wf (ix3 e c' d')
  have hw1 := window3_1 wf e c' d'
  have hw2 := window3_2 wf e c' d'
  have hn := n.isLt
  have hc := c'.isLt
  have hd := d'.isLt
  unfold ScatterDims.resultIdx?
  split
  · rename_i h
    rw [Option.some.injEq]
    constructor
    · intro hf
      have h0 := congrArg (fun f => (f 0).val) hf
      have h1 := congrArg (fun f => (f 1).val) hf
      have h2 := congrArg (fun f => (f 2).val) hf
      have h00 := h 0
      simp only [hs0, hw0] at h0 h00
      simp only [hs1, hw1] at h1
      simp only [hs2, hw2] at h2
      have h0' : ((idx (ix2 e 0)).toInt + 0).toNat = n.val := h0
      have h1' : ((0 : ℤ) + (c'.val : ℤ)).toNat = c.val := h1
      have h2' : ((0 : ℤ) + (d'.val : ℤ)).toNat = d.val := h2
      refine ⟨by omega, Fin.ext (by omega), Fin.ext (by omega)⟩
    · rintro ⟨ht, rfl, rfl⟩
      funext a; refine Fin.ext ?_
      match a with
      | ⟨0, _⟩ =>
        show ((rowDims3 N E C D wf).start (ix3 e c' d') idx 0 + (rowDims3 N E C D wf).window (ix3 e c' d') 0).toNat = n.val
        rw [hs0, hw0]; omega
      | ⟨1, _⟩ =>
        show ((rowDims3 N E C D wf).start (ix3 e c' d') idx 1 + (rowDims3 N E C D wf).window (ix3 e c' d') 1).toNat = c'.val
        rw [hs1, hw1]; omega
      | ⟨2, _⟩ =>
        show ((rowDims3 N E C D wf).start (ix3 e c' d') idx 2 + (rowDims3 N E C D wf).window (ix3 e c' d') 2).toNat = d'.val
        rw [hs2, hw2]; omega
  · rename_i h
    constructor
    · intro hf; exact absurd hf (by simp)
    · rintro ⟨ht, rfl, rfl⟩
      exfalso; apply h
      intro a
      match a with
      | ⟨0, _⟩ =>
        show 0 ≤ (rowDims3 N E C D wf).start (ix3 e c' d') idx 0 + (rowDims3 N E C D wf).window (ix3 e c' d') 0 ∧
          (rowDims3 N E C D wf).start (ix3 e c' d') idx 0 + (rowDims3 N E C D wf).window (ix3 e c' d') 0 < (N : ℤ)
        rw [hs0, hw0]; omega
      | ⟨1, _⟩ =>
        show 0 ≤ (rowDims3 N E C D wf).start (ix3 e c' d') idx 1 + (rowDims3 N E C D wf).window (ix3 e c' d') 1 ∧
          (rowDims3 N E C D wf).start (ix3 e c' d') idx 1 + (rowDims3 N E C D wf).window (ix3 e c' d') 1 < (C : ℤ)
        rw [hs1, hw1]; omega
      | ⟨2, _⟩ =>
        show 0 ≤ (rowDims3 N E C D wf).start (ix3 e c' d') idx 2 + (rowDims3 N E C D wf).window (ix3 e c' d') 2 ∧
          (rowDims3 N E C D wf).start (ix3 e c' d') idx 2 + (rowDims3 N E C D wf).window (ix3 e c' d') 2 < (D : ℤ)
        rw [hs2, hw2]; omega

/-- A row scatter of rank-3 updates read at an element: the operand there plus the updates of the rows sent to that row. -/
theorem scatterRow3_apply (x : (⟨3, ![N, C, D]⟩ : Shape).Idx → EReal) (idx : IVec ⟨2, ![E, 1]⟩ w)
    (upd : (⟨3, ![E, C, D]⟩ : Shape).Idx → EReal) (n : Fin N) (c : Fin C) (d : Fin D) :
    Ideal.hostScatterAdd (rowDims3 N E C D wf) x idx upd (ix3 n c d)
      = x (ix3 n c d) + ∑ e : Fin E, if (idx (ix2 e 0)).toInt = (n.val : ℤ) then upd (ix3 e c d) else 0 := by
  unfold Ideal.hostScatterAdd
  congr 1
  rw [Finset.sum_filter, sum_idx3]
  refine Finset.sum_congr rfl fun e _ => ?_
  simp only [resultIdx3_eq_some_iff]
  by_cases ht : (idx (ix2 e 0)).toInt = (n.val : ℤ)
  · simp only [ht, true_and]
    have : ∀ c' : Fin C, (∑ d' : Fin D, if c' = c ∧ d' = d then upd (ix3 e c' d') else 0)
        = if c' = c then upd (ix3 e c' d) else 0 := by
      intro c'
      by_cases hc : c' = c
      · simp only [hc, true_and]
        rw [Finset.sum_ite_eq' Finset.univ d (fun d' => upd (ix3 e c d'))]
        simp
      · simp [hc]
    simp only [this]
    rw [Finset.sum_ite_eq' Finset.univ c (fun c' => upd (ix3 e c' d))]
    simp
  · simp [ht]

end R3

/-! ## The reshape [a, b, c] → [a, b·c] at an element -/

/-- Element (n, p·c + q) of the reshape is element (n, p, q) of the operand: the two have the same row-major position. -/
theorem shapeCast_abc_am_apply {α : Type} {a b c m : ℕ} (hm : m = b * c) (x : (⟨3, ![a, b, c]⟩ : Shape).Idx → α)
    (h : (⟨3, ![a, b, c]⟩ : Shape).ShapeCasts ⟨2, ![a, m]⟩) (n : Fin a) (p : Fin b) (q : Fin c) (k : Fin m)
    (hk : k.val = p.val * c + q.val) :
    shapeCast ⟨2, ![a, m]⟩ x h (ix2 n k) = x (ix3 n p q) := by
  refine shapeCast_apply x h _ _ ?_
  rw [Shape.rowMajor_val_three, Shape.rowMajor_val_two]
  show (n.val * b + p.val) * c + q.val = n.val * m + k.val
  rw [hk, hm]; ring

end Cert.Bridge.S3
end
-- ==== Proof.Val.S3.lean ====
/-
  Stage S3: the per-node aggregation. On both sides, host operations only.

  Kernel side: the message rows [E, 128] and the score rows [E, 8] are each summed into the rows of their destination
  nodes (a scatter with an adding body into zeros); the score sums are repeated over the 16 lanes of each head and
  seen as [N, 128]; a small constant is added; the message sums are divided by the result.
  Reference side: the same with the heads kept apart, [E, 8, 16] and [E, 8, 1] summed into [N, 8, 16] and [N, 8, 1],
  the constant added to the score sums before they are repeated over the lanes, the quotient seen as [N, 128] last.

  At node n and lane d = 16·h + j both sides are
      (0 + ∑ over the edges e with dst e = n of msg(e, h, j)) / ((0 + ∑ over those edges of s(e, h)) + ε),
  so they are equal once the destination words agree and the edge stage's arrays agree element by element.
-/
import proofs.«101045_j34351148433892_1_alg».proof.Proof.Gen.KernelIdeal.Regions
import proofs.«101045_j34351148433892_1_alg».proof.Proof.Ref.Ops
import proofs.«101045_j34351148433892_1_alg».proof.Proof.Val.S3.Scatter
import Idealize.ShloMosaic.Lib.IdealHost
import Idealize.ShloMosaic.Lib.ValueIdx
import Idealize.ShloMosaic.Lib.Pipeline.Value
import Idealize.ShloMosaic.Lib.StableHlo.Run
import Idealize.ShloMosaic.PureOps.Ideal

set_option maxRecDepth 4096

noncomputable section

open scoped BigOperators

namespace Cert.Bridge.S3

open Idealize.ShloMosaic Idealize.ShloMosaic.ValueIdx Idealize.ShloMosaic.TcCoe

/-! ## Broadcasts read at an element (literal small ranks) -/

section Bcast
variable {α : Type}

/-- A vector made a one-column matrix reads its own element. -/
theorem bcast_col_apply {E : ℕ} (h : (⟨1, ![E]⟩ : Shape).BroadcastsInDim ⟨2, ![E, 1]⟩ ![0])
    (x : (⟨1, ![E]⟩ : Shape).Idx → α) (e : Fin E) :
    broadcastInDim ⟨2, ![E, 1]⟩ ![0] h x (ix2 e (0 : Fin 1)) = x (ix1 e) := by
  refine broadcastInDim_apply _ h x _ (ix1 e) ?_
  intro a
  match a with
  | ⟨0, _⟩ =>
    show e.val = if E = 1 then 0 else e.val
    have := e.isLt
    split <;> omega

/-- A matrix repeated along a new trailing axis reads the matrix's element. -/
theorem bcast_ab_abc_apply {a b c : ℕ} (h : (⟨2, ![a, b]⟩ : Shape).BroadcastsInDim ⟨3, ![a, b, c]⟩ ![0, 1])
    (x : (⟨2, ![a, b]⟩ : Shape).Idx → α) (n : Fin a) (p : Fin b) (q : Fin c) :
    broadcastInDim ⟨3, ![a, b, c]⟩ ![0, 1] h x (ix3 n p q) = x (ix2 n p) := by
  refine broadcastInDim_apply _ h x _ (ix2 n p) ?_
  intro i
  match i with
  | ⟨0, _⟩ =>
    show n.val = if a = 1 then 0 else n.val
    have := n.isLt
    split <;> omega
  | ⟨1, _⟩ =>
    show p.val = if b = 1 then 0 else p.val
    have := p.isLt
    split <;> omega

/-- An array with a trailing unit axis repeated along that axis reads its element at 0 there. -/
theorem bcast_ab1_abc_apply {a b c : ℕ} (h : (⟨3, ![a, b, 1]⟩ : Shape).BroadcastsInDim ⟨3, ![a, b, c]⟩ ![0, 1, 2])
    (x : (⟨3, ![a, b, 1]⟩ : Shape).Idx → α) (n : Fin a) (p : Fin b) (q : Fin c) :
    broadcastInDim ⟨3, ![a, b, c]⟩ ![0, 1, 2] h x (ix3 n p q) = x (ix3 n p (0 : Fin 1)) := by
  refine broadcastInDim_apply _ h x _ (ix3 n p (0 : Fin 1)) ?_
  intro i
  match i with
  | ⟨0, _⟩ =>
    show n.val = if a = 1 then 0 else n.val
    have := n.isLt
    split <;> omega
  | ⟨1, _⟩ =>
    show p.val = if b = 1 then 0 else p.val
    have := p.isLt
    split <;> omega
  | ⟨2, _⟩ =>
    show (0 : ℕ) = if (1 : ℕ) = 1 then 0 else q.val
    rw [if_pos rfl]

end Bcast

/-! ## The kernel side -/

/-- The host's quotient at an element. -/
theorem hostDivf_apply {s : Shape} {φ : FTy} (a b : FVec Ideal s φ) (i : s.Idx) : Host.divf a b i = Ideal.div (a i) (b i) := rfl

section K
open Cert.KernelIdeal Cert.KernelIdeal.Gen

/-- The aggregated value as the operations of the stretch compose it, over any buffer contents before the stretch. -/
abbrev aggK (dst : IVec S500000 32) (msg : S500000x128.Idx → EReal) (s : S500000x8.Idx → EReal) : S50000x128.Idx → EReal :=
  Host.divf
    (Host.scatterAdd scatter_S50000x128_S500000x1_S500000x128_1_0_0_1
      (broadcastInDim S50000x128 ![] bcast_S_S50000x128 (constant (F := Ideal) S_ .f32 0x00000000#32))
      (broadcastInDim S500000x1 ![0] bcast_S500000_S500000x1_0 dst)
      msg)
    (addf
      (shapeCast S50000x128
        (broadcastInDim S50000x8x16 ![0, 1] bcast_S50000x8_S50000x8x16_0_1
          (Host.scatterAdd scatter_S50000x8_S500000x1_S500000x8_1_0_0_1
            (broadcastInDim S50000x8 ![] bcast_S_S50000x8 (constant (F := Ideal) S_ .f32 0x00000000#32))
            (broadcastInDim S500000x1 ![0] bcast_S500000_S500000x1_0 dst)
            s))
        shapeCasts_S50000x8x16_S50000x128)
      (broadcastInDim S50000x128 ![] bcast_S_S50000x128 (constant (F := Ideal) S_ .f32 0x358637BD#32)))

set_option maxHeartbeats 2000000 in
theorem k_after (W : Valuation τ sig (Elt Ideal)) :
    (StableHlo.after hostOps3 W main_v53 : S50000x128.Idx → EReal) = aggK (W main_arg4) (W main_v42_2) (W main_v42_1) := by
  after_results; rfl

/-- The scatter of the message rows at an element. -/
theorem k_sc128 (x : FVec Ideal S50000x128 .f32) (idx : IVec S500000x1 32) (upd : FVec Ideal S500000x128 .f32) (n : Fin 50000) (k : Fin 128) :
    Host.scatterAdd scatter_S50000x128_S500000x1_S500000x128_1_0_0_1 x idx upd (ix2 n k)
      = x (ix2 n k) + ∑ e : Fin 500000, if (idx (ix2 e (0 : Fin 1))).toInt = (n.val : ℤ) then upd (ix2 e k) else 0 :=
  scatterRow2_apply (scatter_S50000x128_S500000x1_S500000x128_1_0_0_1).wf x idx upd n k

/-- The scatter of the score rows at an element. -/
theorem k_sc8 (x : FVec Ideal S50000x8 .f32) (idx : IVec S500000x1 32) (upd : FVec Ideal S500000x8 .f32) (n : Fin 50000) (h : Fin 8) :
    Host.scatterAdd scatter_S50000x8_S500000x1_S500000x8_1_0_0_1 x idx upd (ix2 n h)
      = x (ix2 n h) + ∑ e : Fin 500000, if (idx (ix2 e (0 : Fin 1))).toInt = (n.val : ℤ) then upd (ix2 e h) else 0 :=
  scatterRow2_apply (scatter_S50000x8_S500000x1_S500000x8_1_0_0_1).wf x idx upd n h

/-- The kernel side's aggregated value at node n, head h, lane j: the messages into n summed, over the scores into n
    summed plus the small constant. -/
theorem aggK_apply (dst : IVec S500000 32) (msg : S500000x128.Idx → EReal) (s : S500000x8.Idx → EReal)
    (n : Fin 50000) (h : Fin 8) (j : Fin 16) (k : Fin 128) (hk : k.val = h.val * 16 + j.val) :
    aggK dst msg s (ix2 n k)
      = Ideal.div
          (Ideal.ofBits .f32 0x00000000#32 + ∑ e : Fin 500000, if (dst (ix1 e)).toInt = (n.val : ℤ) then msg (ix2 e k) else 0)
          ((Ideal.ofBits .f32 0x00000000#32 + ∑ e : Fin 500000, if (dst (ix1 e)).toInt = (n.val : ℤ) then s (ix2 e h) else 0)
            + Ideal.ofBits .f32 0x358637BD#32) := by
  unfold aggK
  rw [hostDivf_apply, k_sc128, addf_apply,
    shapeCast_abc_am_apply (by rfl : (128 : ℕ) = 8 * 16) _ _ n h j k hk, bcast_ab_abc_apply, k_sc8]
  have hb : ∀ e : Fin 500000, broadcastInDim S500000x1 ![0] bcast_S500000_S500000x1_0 dst (ix2 e (0 : Fin 1)) = dst (ix1 e) :=
    fun e => bcast_col_apply _ dst e
  simp only [hb]
  rw [broadcastInDim_scalar_apply, broadcastInDim_scalar_apply, broadcastInDim_scalar_apply]
  rfl

variable (m : (ℓ : Loc nD τ sig) → Buf (Elt Ideal) ℓ) (outs : Outs (F := Ideal)) (c : Dev nD)

theorem k_arg4 : V6 m outs c main_arg4 = m ((c : Thread nD τ).loc main_arg4) :=
  (V6_of m outs c main_arg4 (by decide)).trans <| (V5_of m outs c main_arg4 (by decide)).trans <|
    (V4_of m outs c main_arg4 (by decide)).trans <| (V3_of m outs c main_arg4 (by decide)).trans <|
    (V2_of m outs c main_arg4 (by decide)).trans <| (V1_of m c main_arg4 (by decide)).trans <| rfl

end K

/-! ## The reference side -/

section R
open Cert.ReferenceIdeal Cert.ReferenceIdeal.Gen Cert.ReferenceIdeal.Hand

/-- The aggregated value as the reference's operations compose it, over any buffer contents before them. -/
abbrev aggR (dst : IVec S500000 32) (msg : S500000x8x16.Idx → EReal) (s : S500000x8x1.Idx → EReal) : S50000x128.Idx → EReal :=
  shapeCast S50000x128
    (Host.divf
      (Host.scatterAdd scatter_S50000x8x16_S500000x1_S500000x8x16_12_0_0_1
        (broadcastInDim S50000x8x16 ![] bcast_S_S50000x8x16 (constant (F := Ideal) S_ .f32 0x00000000#32))
        (broadcastInDim S500000x1 ![0] bcast_S500000_S500000x1_0 dst)
        msg)
      (broadcastInDim S50000x8x16 ![0, 1, 2] bcast_S50000x8x1_S50000x8x16_0_1_2
        (addf
          (Host.scatterAdd scatter_S50000x8x1_S500000x1_S500000x8x1_12_0_0_1
            (broadcastInDim S50000x8x1 ![] bcast_S_S50000x8x1 (constant (F := Ideal) S_ .f32 0x00000000#32))
            (broadcastInDim S500000x1 ![0] bcast_S500000_S500000x1_0 dst)
            s)
          (broadcastInDim S50000x8x1 ![] bcast_S_S50000x8x1 (constant (F := Ideal) S_ .f32 0x358637BD#32)))))
    shapeCasts_S50000x8x16_S50000x128

set_option maxHeartbeats 2000000 in
theorem r_after (W : Valuation τ sig (Elt Ideal)) :
    (StableHlo.after (ops2 (F := Ideal)) W main_v52 : S50000x128.Idx → EReal) = aggR (W main_arg4) (W main_v41) (W main_v30) := by
  after_results; rfl

/-- The scatter of the message rows, heads apart, at an element. -/
theorem r_sc16 (x : FVec Ideal S50000x8x16 .f32) (idx : IVec S500000x1 32) (upd : FVec Ideal S500000x8x16 .f32)
    (n : Fin 50000) (h : Fin 8) (j : Fin 16) :
    Host.scatterAdd scatter_S50000x8x16_S500000x1_S500000x8x16_12_0_0_1 x idx upd (ix3 n h j)
      = x (ix3 n h j) + ∑ e : Fin 500000, if (idx (ix2 e (0 : Fin 1))).toInt = (n.val : ℤ) then upd (ix3 e h j) else 0 :=
  scatterRow3_apply (scatter_S50000x8x16_S500000x1_S500000x8x16_12_0_0_1).wf x idx upd n h j

/-- The scatter of the score rows, heads apart, at an element. -/
theorem r_sc1 (x : FVec Ideal S50000x8x1 .f32) (idx : IVec S500000x1 32) (upd : FVec Ideal S500000x8x1 .f32)
    (n : Fin 50000) (h : Fin 8) (z : Fin 1) :
    Host.scatterAdd scatter_S50000x8x1_S500000x1_S500000x8x1_12_0_0_1 x idx upd (ix3 n h z)
      = x (ix3 n h z) + ∑ e : Fin 500000, if (idx (ix2 e (0 : Fin 1))).toInt = (n.val : ℤ) then upd (ix3 e h z) else 0 :=
  scatterRow3_apply (scatter_S50000x8x1_S500000x1_S500000x8x1_12_0_0_1).wf x idx upd n h z

/-- The reference's aggregated value at node n, head h, lane j. -/
theorem aggR_apply (dst : IVec S500000 32) (msg : S500000x8x16.Idx → EReal) (s : S500000x8x1.Idx → EReal)
    (n : Fin 50000) (h : Fin 8) (j : Fin 16) (k : Fin 128) (hk : k.val = h.val * 16 + j.val) :
    aggR dst msg s (ix2 n k)
      = Ideal.div
          (Ideal.ofBits .f32 0x00000000#32 + ∑ e : Fin 500000, if (dst (ix1 e)).toInt = (n.val : ℤ) then msg (ix3 e h j) else 0)
          ((Ideal.ofBits .f32 0x00000000#32 + ∑ e : Fin 500000, if (dst (ix1 e)).toInt = (n.val : ℤ) then s (ix3 e h (0 : Fin 1)) else 0)
            + Ideal.ofBits .f32 0x358637BD#32) := by
  unfold aggR
  rw [shapeCast_abc_am_apply (by rfl : (128 : ℕ) = 8 * 16) _ _ n h j k hk, hostDivf_apply, r_sc16, bcast_ab1_abc_apply,
    addf_apply, r_sc1]
  have hb : ∀ e : Fin 500000, broadcastInDim S500000x1 ![0] bcast_S500000_S500000x1_0 dst (ix2 e (0 : Fin 1)) = dst (ix1 e) :=
    fun e => bcast_col_apply _ dst e
  simp only [hb]
  rw [broadcastInDim_scalar_apply, broadcastInDim_scalar_apply, broadcastInDim_scalar_apply]
  rfl

variable (m' : (ℓ : Loc nD τ sig) → Buf (Elt Ideal) ℓ) (c : Dev nD)

theorem r_arg4 : RV2 m' c main_arg4 = m' ((c : Thread nD τ).loc main_arg4) :=
  (RV2_of m' c main_arg4 (by decide)).trans <| (RV1_of m' c main_arg4 (by decide)).trans <| rfl

end R

/-! ## The two sides meet -/

/-- With the same destination words, and the message and score rows equal element by element (the kernel's lane
    16·h + j is the reference's head h, lane j), the two aggregated values are equal at every element: on each side
    it is the sum of the messages into node n over the sum of the scores into node n plus the small constant. -/
theorem agg_eq (dstK : IVec Cert.KernelIdeal.S500000 32) (dstR : IVec Cert.ReferenceIdeal.S500000 32) (hdst : dstK = dstR)
    (msgK : Cert.KernelIdeal.S500000x128.Idx → EReal) (sK : Cert.KernelIdeal.S500000x8.Idx → EReal)
    (msgR : Cert.ReferenceIdeal.S500000x8x16.Idx → EReal) (sR : Cert.ReferenceIdeal.S500000x8x1.Idx → EReal)
    (hmsg : ∀ (e : Fin 500000) (h : Fin 8) (j : Fin 16) (k : Fin 128), k.val = 16 * h.val + j.val →
      msgK (ix2 e k) = msgR (ix3 e h j))
    (hs : ∀ (e : Fin 500000) (h : Fin 8), sK (ix2 e h) = sR (ix3 e h (0 : Fin 1)))
    (n : Fin 50000) (d : Fin 128) :
    aggK dstK msgK sK (ix2 n d) = aggR dstR msgR sR (ix2 n d) := by
  subst hdst
  have hd := d.isLt
  have hk : d.val = (⟨d.val / 16, by omega⟩ : Fin 8).val * 16 + (⟨d.val % 16, by omega⟩ : Fin 16).val := by
    show d.val = d.val / 16 * 16 + d.val % 16
    omega
  rw [aggK_apply dstK msgK sK n ⟨d.val / 16, by omega⟩ ⟨d.val % 16, by omega⟩ d hk,
    aggR_apply dstK msgR sR n ⟨d.val / 16, by omega⟩ ⟨d.val % 16, by omega⟩ d hk]
  have e1 : ∀ e : Fin 500000, msgK (ix2 e d) = msgR (ix3 e (⟨d.val / 16, by omega⟩ : Fin 8) (⟨d.val % 16, by omega⟩ : Fin 16)) :=
    fun e => hmsg e _ _ d (by show d.val = 16 * (d.val / 16) + d.val % 16; omega)
  simp only [e1, hs]

/-! ## The stage -/

/-- Stage S3: the aggregated node values agree, element by element, given that the destination words agree and that
    the edge stage's message and score arrays agree. -/
theorem stage
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (outs : Cert.KernelIdeal.Gen.Outs (F := Ideal)) (c : Dev Cert.KernelIdeal.nD)
    (harg4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4))
    (hs : ∀ (e : Fin 500000) (h : Fin 8),
      (Cert.KernelIdeal.Gen.V6 m outs c Cert.KernelIdeal.main_v42_1 : Cert.KernelIdeal.S500000x8.Idx → EReal) (ix2 e h)
        = (Cert.ReferenceIdeal.Hand.RV2 m' c Cert.ReferenceIdeal.main_v30 : Cert.ReferenceIdeal.S500000x8x1.Idx → EReal) (ix3 e h (0 : Fin 1)))
    (hmsg : ∀ (e : Fin 500000) (h : Fin 8) (j : Fin 16) (k : Fin 128), k.val = 16 * h.val + j.val →
      (Cert.KernelIdeal.Gen.V6 m outs c Cert.KernelIdeal.main_v42_2 : Cert.KernelIdeal.S500000x128.Idx → EReal) (ix2 e k)
        = (Cert.ReferenceIdeal.Hand.RV2 m' c Cert.ReferenceIdeal.main_v41 : Cert.ReferenceIdeal.S500000x8x16.Idx → EReal) (ix3 e h j))
    (n : Fin 50000) (d : Fin 128) :
    (Cert.KernelIdeal.Gen.V7 m outs c Cert.KernelIdeal.main_v53 : Cert.KernelIdeal.S50000x128.Idx → EReal) (ix2 n d)
      = (Cert.ReferenceIdeal.Hand.RV3 m' c Cert.ReferenceIdeal.main_v52 : Cert.ReferenceIdeal.S50000x128.Idx → EReal) (ix2 n d) := by
  have eK := k_after (Cert.KernelIdeal.Gen.V6 m outs c)
  have eR := r_after (Cert.ReferenceIdeal.Hand.RV2 m' c)
  have hdst : (Cert.KernelIdeal.Gen.V6 m outs c Cert.KernelIdeal.main_arg4 : IVec Cert.KernelIdeal.S500000 32)
      = (Cert.ReferenceIdeal.Hand.RV2 m' c Cert.ReferenceIdeal.main_arg4 : IVec Cert.ReferenceIdeal.S500000 32) :=
    (k_arg4 m outs c).trans (harg4.symm.trans (r_arg4 m' c).symm)
  exact (congrFun eK (ix2 n d)).trans
    ((agg_eq _ _ hdst _ _ _ _ hmsg hs n d).trans (congrFun eR (ix2 n d)).symm)

end Cert.Bridge.S3
end
-- ==== Proof.Val.S4Pay.lean ====
/- The arithmetic of the output-projection body at an index, at the ideal values: entry (p, q) of the block the body
   stores is (x(p,q) + Σ_k attn(p,k) · W(k,q)) + b(0,q). The format changes are the identity, the shape casts are to the
   same shape, the product accumulated into zero is the plain sum over the contracted coordinate, and the one-row bias is
   laid along every row. -/
import proofs.«101045_j34351148433892_1_alg».proof.Proof.Gen.KernelIdeal.Skeleton
import Idealize.ShloMosaic.Lib.StackMember

noncomputable section

namespace Cert.Bridge.S4

open Cert.KernelIdeal Cert.KernelIdeal.Gen
open Idealize.ShloMosaic Idealize.ShloMosaic.ValueIdx

/-- The body's dimension numbers are those of the plain product of a 5000×128 by a 128×128 matrix. -/
theorem dims_eq_plain : dot_S5000x128_S128x128_S5000x128_1_0_0_1_n_n = DotDims.plain 5000 128 128 := rfl

/-- The body's matrix product into a zero accumulator, at (p, q): the sum over k of A(p,k) · B(k,q). -/
theorem matmul_apply (A : FVec Ideal S5000x128 .bf16) (B : FVec Ideal S128x128 .bf16) (p : Fin 5000) (q : Fin 128) :
    matmul dot_S5000x128_S128x128_S5000x128_1_0_0_1_n_n none A B (constant (F := Ideal) S5000x128 .f32 0x00000000#32) (ix2 p q)
      = ∑ k : Fin 128, A (ix2 p k) * B (ix2 k q) := by
  rw [matmul_zero_eq_dotGeneral, dims_eq_plain]
  exact StackMember.dotGeneral_plain_apply none A B p q

/-- The one-row bias laid along the 5000 rows, at (p, q): the bias at (0, q). -/
theorem bias_apply (x3 : FVec Ideal S1x128 .f32) (p : Fin 5000) (q : Fin 128) :
    broadcastTo S5000x128 x3 broadcasts_S1x128_S5000x128 (ix2 p q) = x3 (ix2 (0 : Fin 1) q) := by
  refine broadcastTo_apply x3 broadcasts_S1x128_S5000x128 (ix2 p q) (ix2 (0 : Fin 1) q) ?_
  intro a
  match a with
  | ⟨0, _⟩ => rfl
  | ⟨1, _⟩ => rfl

/-- Region 3's payload at (p, q). Arguments in the payload's own order: attn block, W, x block, bias. -/
theorem pay3_apply (x1 : Vec Ideal S5000x128 .f32) (x2 : Vec Ideal S128x128 .bf16) (x0 : Vec Ideal S5000x128 .f32)
    (x3 : Vec Ideal S1x128 .f32) (p : Fin 5000) (q : Fin 128) :
    k3_pay1 x1 x2 x0 x3 (ix2 p q)
      = (x0 (ix2 p q) + ∑ k : Fin 128, x1 (ix2 p k) * x2 (ix2 k q)) + x3 (ix2 (0 : Fin 1) q) := by
  unfold k3_pay1
  simp only [shapeCast_self]
  refine (addf_apply _ _ _).trans ?_
  refine congrArg₂ (· + ·) ?_ (bias_apply x3 p q)
  refine (addf_apply _ _ _).trans ?_
  exact congrArg (x0 (ix2 p q) + ·) (matmul_apply _ x2 p q)

/-- Region 4's payload at (p, q): the same arithmetic. -/
theorem pay4_apply (x1 : Vec Ideal S5000x128 .f32) (x2 : Vec Ideal S128x128 .bf16) (x0 : Vec Ideal S5000x128 .f32)
    (x3 : Vec Ideal S1x128 .f32) (p : Fin 5000) (q : Fin 128) :
    k4_pay1 x1 x2 x0 x3 (ix2 p q)
      = (x0 (ix2 p q) + ∑ k : Fin 128, x1 (ix2 p k) * x2 (ix2 k q)) + x3 (ix2 (0 : Fin 1) q) := by
  unfold k4_pay1
  simp only [shapeCast_self]
  refine (addf_apply _ _ _).trans ?_
  refine congrArg₂ (· + ·) ?_ (bias_apply x3 p q)
  refine (addf_apply _ _ _).trans ?_
  exact congrArg (x0 (ix2 p q) + ·) (matmul_apply _ x2 p q)

end Cert.Bridge.S4

end
-- ==== Proof.Val.S4.lean ====
/- Stage 4, the output projections. Region 3 computes, on blocks of 5000 rows, (x + attn · W) + b for the node arrays
   (50000 rows); region 4 computes the same for the edge arrays (500000 rows). Here: each region's output array as a
   function of the arrays the region finds, entry by entry — what a point writes back is the block of that function at
   the point, and the points' blocks cover the array —; the arrays the regions find, carried back through the host
   stretches to the launch memory (the weights in the narrower format are the weights, the bias as one row is the
   bias); the reference's five operations per projection read at an entry; and the stage: entry (r, j) of the kernel's
   output is (x(r,j) + Σ_k a(r,k) · W(k,j)) + b(j), of the reference's x(r,j) + ((Σ_k a(r,k) · W(k,j)) + b(j)), equal by
   associativity of addition on the extended reals (no finiteness is needed). -/
import proofs.«101045_j34351148433892_1_alg».proof.Proof.KI.Reg3
import proofs.«101045_j34351148433892_1_alg».proof.Proof.KI.Reg4
import proofs.«101045_j34351148433892_1_alg».proof.Proof.Gen.KernelIdeal.Regions
import proofs.«101045_j34351148433892_1_alg».proof.Proof.Gen.ReferenceIdeal
import proofs.«101045_j34351148433892_1_alg».proof.Proof.Ref.Ops
import proofs.«101045_j34351148433892_1_alg».proof.Proof.Val.S4Pay
import Idealize.ShloMosaic.Lib.Pipeline.Value
import Idealize.ShloMosaic.Lib.StackMember
import Idealize.ShloMosaic.Lib.Tactic

set_option maxRecDepth 16384

noncomputable section

namespace Cert.Bridge.S4

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-! ## The region's value, for any entry contents -/

section Value
variable (V : (c : Dev nD) → (b : Ref sig .tc) → Buf (Elt Ideal) ((c : Thread nD τ).loc b))

theorem hz : (![0, 0] : Fin 2 → Nat) = fun _ => 0 := funext fun a => by fin_cases a <;> rfl

/-- The output array as one function of the four input arrays: entry (r, j) is (x(r,j) + Σ_k attn(r,k) · W(k,j)) + b(0,j). -/
def G (n : Nat) (a0 a1 : (⟨2, ![n, 128]⟩ : Shape).Idx → EReal) (a2 : (⟨2, ![128, 128]⟩ : Shape).Idx → EReal)
    (a3 : (⟨2, ![1, 128]⟩ : Shape).Idx → EReal) : (⟨2, ![n, 128]⟩ : Shape).Idx → EReal :=
  fun i => (a0 (ix2 (i 0) (i 1)) + ∑ k : Fin 128, a1 (ix2 (i 0) k) * a2 (ix2 k (i 1))) + a3 (ix2 (0 : Fin 1) (i 1))

/-- Region 3's block indices over its ten points: x, attn and the output move with the point along the rows; W and b stay. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Block t of x is rows 5000·t … 5000·t + 4999 of the array. -/
theorem iblk3_0_apply (c : Dev nD) (t : Fin cfg3.N) (p : Fin 5000) (q : Fin 128) (r : Fin 50000)
    (hr : r.val = t.val * 5000 + p.val) :
    (iblk3 V c 0 t : Vec Ideal S5000x128 .f32) (ix2 p q) = (V c main_arg0 : S50000x128.Idx → EReal) (ix2 r q) := by
  obtain ⟨e0, e1, -⟩ := idx3 t
  unfold iblk3
  rw [View.read_apply]
  show V c main_arg0 _ = V c main_arg0 _
  refine congrArg (V c main_arg0) ?_
  funext a
  apply Fin.ext
  match a with
  | ⟨0, _⟩ => show win3_0.index t 0 * 5000 + 1 * p.val = r.val; rw [e0, hr]; omega
  | ⟨1, _⟩ => show win3_0.index t 1 * 128 + 1 * q.val = q.val; rw [e1]; omega

/-- Block t of attn, likewise. -/
theorem iblk3_1_apply (c : Dev nD) (t : Fin cfg3.N) (p : Fin 5000) (q : Fin 128) (r : Fin 50000)
    (hr : r.val = t.val * 5000 + p.val) :
    (iblk3 V c 1 t : Vec Ideal S5000x128 .f32) (ix2 p q) = (V c main_v53 : S50000x128.Idx → EReal) (ix2 r q) := by
  obtain ⟨-, -, e0, e1, -⟩ := idx3 t
  unfold iblk3
  rw [View.read_apply]
  show V c main_v53 _ = V c main_v53 _
  refine congrArg (V c main_v53) ?_
  funext a
  apply Fin.ext
  match a with
  | ⟨0, _⟩ => show win3_1.index t 0 * 5000 + 1 * p.val = r.val; rw [e0, hr]; omega
  | ⟨1, _⟩ => show win3_1.index t 1 * 128 + 1 * q.val = q.val; rw [e1]; omega

/-- W's one block is the array. -/
theorem iblk3_2_apply (c : Dev nD) (t : Fin cfg3.N) (k : Fin 128) (q : Fin 128) :
    (iblk3 V c 2 t : Vec Ideal S128x128 .bf16) (ix2 k q) = (V c main_v3 : S128x128.Idx → EReal) (ix2 k q) := by
  obtain ⟨-, -, -, -, e0, e1, -⟩ := idx3 t
  unfold iblk3
  rw [View.read_apply]
  show V c main_v3 _ = V c main_v3 _
  refine congrArg (V c main_v3) ?_
  funext a
  apply Fin.ext
  match a with
  | ⟨0, _⟩ => show win3_2.index t 0 * 128 + 1 * k.val = k.val; rw [e0]; omega
  | ⟨1, _⟩ => show win3_2.index t 1 * 128 + 1 * q.val = q.val; rw [e1]; omega

/-- b's one block is the array. -/
theorem iblk3_3_apply (c : Dev nD) (t : Fin cfg3.N) (z : Fin 1) (q : Fin 128) :
    (iblk3 V c 3 t : Vec Ideal S1x128 .f32) (ix2 z q) = (V c main_v9 : S1x128.Idx → EReal) (ix2 z q) := by
  obtain ⟨-, -, -, -, -, -, e0, e1, -⟩ := idx3 t
  unfold iblk3
  rw [View.read_apply]
  show V c main_v9 _ = V c main_v9 _
  refine congrArg (V c main_v9) ?_
  funext a
  apply Fin.ext
  match a with
  | ⟨0, _⟩ => show win3_3.index t 0 * 1 + 1 * z.val = z.val; rw [e0]; omega
  | ⟨1, _⟩ => show win3_3.index t 1 * 128 + 1 * q.val = q.val; rw [e1]; omega

/-- Entry (p, q) of the output's block t sits at row 5000·t + p of the array. -/
theorem emb3_4 (t : Fin cfg3.N) (p : Fin 5000) (q : Fin 128) (r : Fin 50000) (hr : r.val = t.val * 5000 + p.val) :
    (((cfg3.win 4).blk t).view.emb (ix2 p q) : S50000x128.Idx) = ix2 r q := by
  obtain ⟨-, -, -, -, -, -, -, -, e0, e1⟩ := idx3 t
  funext a
  apply Fin.ext
  match a with
  | ⟨0, _⟩ => show win3_4.index t 0 * 5000 + 1 * p.val = r.val; rw [e0, hr]; omega
  | ⟨1, _⟩ => show win3_4.index t 1 * 128 + 1 * q.val = q.val; rw [e1]; omega

/-- What point t writes back is block t of `G` of the arrays as the region finds them. -/
theorem flushed3_eq (c : Dev nD) (t : Fin cfg3.N) :
    (dat3 V c).flushed 4 t = ((cfg3.win 4).blk t).view.read (Elt Ideal)
      (G 50000 (V c main_arg0) (V c main_v53) (V c main_v3) (V c main_v9)) := by
  show (cfg3.win 4).cut (grid3.coords t) ((dat3 V c).after 4 t) = _
  rw [after3_4]
  unfold out3_4
  rw [View.canon_unit_zero hz]
  simp only [View.ld_unit_zero (S := S5000x128) hz, View.ld_unit_zero (S := S128x128) hz, View.ld_unit_zero (S := S1x128) hz]
  funext y
  obtain ⟨p, q, rfl⟩ : ∃ (p : Fin 5000) (q : Fin 128), y = ix2 p q := ⟨y 0, y 1, eq_ix2 y⟩
  have ht : t.val < 10 := lt_of_lt_of_eq t.isLt N_3
  obtain ⟨r, hr⟩ : ∃ r : Fin 50000, r.val = t.val * 5000 + p.val := ⟨⟨t.val * 5000 + p.val, by have := p.isLt; omega⟩, rfl⟩
  show k3_pay1 (iblk3 V c 1 t) (iblk3 V c 2 t) (iblk3 V c 0 t) (iblk3 V c 3 t) (ix2 p q)
    = G 50000 (V c main_arg0) (V c main_v53) (V c main_v3) (V c main_v9) (((cfg3.win 4).blk t).view.emb (ix2 p q))
  rw [emb3_4 t p q r hr]
  refine (pay3_apply (iblk3 V c 1 t) (iblk3 V c 2 t) (iblk3 V c 0 t) (iblk3 V c 3 t) p q).trans ?_
  exact congrArg₂ (· + ·) (congrArg₂ (· + ·) (iblk3_0_apply V c t p q r hr)
    (Finset.sum_congr rfl fun k _ => congrArg₂ (· * ·) (iblk3_1_apply V c t p k r hr) (iblk3_2_apply V c t k q)))
    (iblk3_3_apply V c t 0 q)

/-- An index of the array is in the output's block t iff each coordinate is in the block's range. -/
theorem mem_blk3 (t : Fin cfg3.N) (i : S50000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v54).slice (win3_4.rect t)).set ↔ _
  rw [View.set_slice_whole, Rect.mem_set_unit]
  exact Iff.rfl

/-- Every row lies in the block of the point (row / 5000). -/
theorem cover3 (i : S50000x128.Idx) : ∃ t : Fin cfg3.N, (cfg3.win 4).flush t = true ∧ i ∈ ((cfg3.win 4).blk t).view.set := by
  have hi0 : (i 0).val < 50000 := idx2_lt0 i
  have hi1 : (i 1).val < 128 := idx2_lt1 i
  obtain ⟨t, ht⟩ : ∃ t : Fin cfg3.N, t.val = (i 0).val / 5000 := ⟨⟨(i 0).val / 5000, by rw [show cfg3.N = 10 from N_3]; omega⟩, rfl⟩
  obtain ⟨-, -, -, -, -, -, -, -, e0, e1⟩ := idx3 t
  refine ⟨t, flush3_4 t, ?_⟩
  rw [mem_blk3]
  intro a
  match a with
  | ⟨0, _⟩ => show win3_4.index t (0 : Fin 2) * 5000 ≤ (i 0).val ∧ (i 0).val < win3_4.index t (0 : Fin 2) * 5000 + 5000; rw [e0, ht]; omega
  | ⟨1, _⟩ => show win3_4.index t (1 : Fin 2) * 128 ≤ (i 1).val ∧ (i 1).val < win3_4.index t (1 : Fin 2) * 128 + 128; rw [e1]; omega

/-- The four arrays region 3 reads, as the region finds them, each at its literal type. -/
abbrev xin3 (c : Dev nD) : S50000x128.Idx → EReal := V c main_arg0
abbrev attn3 (c : Dev nD) : S50000x128.Idx → EReal := V c main_v53
abbrev wgt3 (c : Dev nD) : S128x128.Idx → EReal := V c main_v3
abbrev bias3 (c : Dev nD) : S1x128.Idx → EReal := V c main_v9
/-- The array region 3 writes, after the region. -/
abbrev res3 (c : Dev nD) : S50000x128.Idx → EReal := (dat3 V c).arrAt 4 cfg3.N

/-- THE REGION'S VALUE: after the region, entry (r, j) of the output array is (x(r,j) + Σ_k attn(r,k) · W(k,j)) + b(0,j)
    of the arrays as the region finds them. -/
theorem val3_4 (c : Dev nD) (r : Fin 50000) (j : Fin 128) :
    res3 V c (ix2 r j)
      = (xin3 V c (ix2 r j) + ∑ k : Fin 128, attn3 V c (ix2 r k) * wgt3 V c (ix2 k j)) + bias3 V c (ix2 (0 : Fin 1) j) := by
  have h := (dat3 V c).arrAt_eq_of_cover 4 (G 50000 (V c main_arg0) (V c main_v53) (V c main_v3) (V c main_v9))
    (fun t _ => flushed3_eq V c t) (cover3)
  show (dat3 V c).arrAt 4 cfg3.N (ix2 r j) = _
  rw [h]
  rfl

/-! ### Region 4: the same body on the edge arrays, a hundred points -/

/-- Region 4's block indices over its hundred points: x, attn and the output move with the point along the rows; W and b stay. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- Block t of the edge input is rows 5000·t … 5000·t + 4999 of the array. -/
theorem iblk4_0_apply (c : Dev nD) (t : Fin cfg4.N) (p : Fin 5000) (q : Fin 128) (r : Fin 500000)
    (hr : r.val = t.val * 5000 + p.val) :
    (iblk4 V c 0 t : Vec Ideal S5000x128 .f32) (ix2 p q) = (V c main_arg1 : S500000x128.Idx → EReal) (ix2 r q) := by
  obtain ⟨e0, e1, -⟩ := idx4 t
  unfold iblk4
  rw [View.read_apply]
  show V c main_arg1 _ = V c main_arg1 _
  refine congrArg (V c main_arg1) ?_
  funext a
  apply Fin.ext
  match a with
  | ⟨0, _⟩ => show win4_0.index t 0 * 5000 + 1 * p.val = r.val; rw [e0, hr]; omega
  | ⟨1, _⟩ => show win4_0.index t 1 * 128 + 1 * q.val = q.val; rw [e1]; omega

/-- Block t of the edge scores, likewise. -/
theorem iblk4_1_apply (c : Dev nD) (t : Fin cfg4.N) (p : Fin 5000) (q : Fin 128) (r : Fin 500000)
    (hr : r.val = t.val * 5000 + p.val) :
    (iblk4 V c 1 t : Vec Ideal S5000x128 .f32) (ix2 p q) = (V c main_v42_0 : S500000x128.Idx → EReal) (ix2 r q) := by
  obtain ⟨-, -, e0, e1, -⟩ := idx4 t
  unfold iblk4
  rw [View.read_apply]
  show V c main_v42_0 _ = V c main_v42_0 _
  refine congrArg (V c main_v42_0) ?_
  funext a
  apply Fin.ext
  match a with
  | ⟨0, _⟩ => show win4_1.index t 0 * 5000 + 1 * p.val = r.val; rw [e0, hr]; omega
  | ⟨1, _⟩ => show win4_1.index t 1 * 128 + 1 * q.val = q.val; rw [e1]; omega

/-- W's one block is the array. -/
theorem iblk4_2_apply (c : Dev nD) (t : Fin cfg4.N) (k : Fin 128) (q : Fin 128) :
    (iblk4 V c 2 t : Vec Ideal S128x128 .bf16) (ix2 k q) = (V c main_v4 : S128x128.Idx → EReal) (ix2 k q) := by
  obtain ⟨-, -, -, -, e0, e1, -⟩ := idx4 t
  unfold iblk4
  rw [View.read_apply]
  show V c main_v4 _ = V c main_v4 _
  refine congrArg (V c main_v4) ?_
  funext a
  apply Fin.ext
  match a with
  | ⟨0, _⟩ => show win4_2.index t 0 * 128 + 1 * k.val = k.val; rw [e0]; omega
  | ⟨1, _⟩ => show win4_2.index t 1 * 128 + 1 * q.val = q.val; rw [e1]; omega

/-- b's one block is the array. -/
theorem iblk4_3_apply (c : Dev nD) (t : Fin cfg4.N) (z : Fin 1) (q : Fin 128) :
    (iblk4 V c 3 t : Vec Ideal S1x128 .f32) (ix2 z q) = (V c main_v10 : S1x128.Idx → EReal) (ix2 z q) := by
  obtain ⟨-, -, -, -, -, -, e0, e1, -⟩ := idx4 t
  unfold iblk4
  rw [View.read_apply]
  show V c main_v10 _ = V c main_v10 _
  refine congrArg (V c main_v10) ?_
  funext a
  apply Fin.ext
  match a with
  | ⟨0, _⟩ => show win4_3.index t 0 * 1 + 1 * z.val = z.val; rw [e0]; omega
  | ⟨1, _⟩ => show win4_3.index t 1 * 128 + 1 * q.val = q.val; rw [e1]; omega

/-- Entry (p, q) of the output's block t sits at row 5000·t + p of the array. -/
theorem emb4_4 (t : Fin cfg4.N) (p : Fin 5000) (q : Fin 128) (r : Fin 500000) (hr : r.val = t.val * 5000 + p.val) :
    (((cfg4.win 4).blk t).view.emb (ix2 p q) : S500000x128.Idx) = ix2 r q := by
  obtain ⟨-, -, -, -, -, -, -, -, e0, e1⟩ := idx4 t
  funext a
  apply Fin.ext
  match a with
  | ⟨0, _⟩ => show win4_4.index t 0 * 5000 + 1 * p.val = r.val; rw [e0, hr]; omega
  | ⟨1, _⟩ => show win4_4.index t 1 * 128 + 1 * q.val = q.val; rw [e1]; omega

/-- What point t writes back is block t of `G` of the arrays as the region finds them. -/
theorem flushed4_eq (c : Dev nD) (t : Fin cfg4.N) :
    (dat4 V c).flushed 4 t = ((cfg4.win 4).blk t).view.read (Elt Ideal)
      (G 500000 (V c main_arg1) (V c main_v42_0) (V c main_v4) (V c main_v10)) := by
  show (cfg4.win 4).cut (grid4.coords t) ((dat4 V c).after 4 t) = _
  rw [after4_4]
  unfold out4_4
  rw [View.canon_unit_zero hz]
  simp only [View.ld_unit_zero (S := S5000x128) hz, View.ld_unit_zero (S := S128x128) hz, View.ld_unit_zero (S := S1x128) hz]
  funext y
  obtain ⟨p, q, rfl⟩ : ∃ (p : Fin 5000) (q : Fin 128), y = ix2 p q := ⟨y 0, y 1, eq_ix2 y⟩
  have ht : t.val < 100 := lt_of_lt_of_eq t.isLt N_4
  obtain ⟨r, hr⟩ : ∃ r : Fin 500000, r.val = t.val * 5000 + p.val := ⟨⟨t.val * 5000 + p.val, by have := p.isLt; omega⟩, rfl⟩
  show k4_pay1 (iblk4 V c 1 t) (iblk4 V c 2 t) (iblk4 V c 0 t) (iblk4 V c 3 t) (ix2 p q)
    = G 500000 (V c main_arg1) (V c main_v42_0) (V c main_v4) (V c main_v10) (((cfg4.win 4).blk t).view.emb (ix2 p q))
  rw [emb4_4 t p q r hr]
  refine (pay4_apply (iblk4 V c 1 t) (iblk4 V c 2 t) (iblk4 V c 0 t) (iblk4 V c 3 t) p q).trans ?_
  exact congrArg₂ (· + ·) (congrArg₂ (· + ·) (iblk4_0_apply V c t p q r hr)
    (Finset.sum_congr rfl fun k _ => congrArg₂ (· * ·) (iblk4_1_apply V c t p k r hr) (iblk4_2_apply V c t k q)))
    (iblk4_3_apply V c t 0 q)

/-- An index of the array is in the output's block t iff each coordinate is in the block's range. -/
theorem mem_blk4 (t : Fin cfg4.N) (i : S500000x128.Idx) :
    i ∈ ((cfg4.win 4).blk t).view.set ↔ ∀ a : Fin 2, win4_4.index t a * S5000x128.size a ≤ (i a).val ∧ (i a).val < win4_4.index t a * S5000x128.size a + S5000x128.size a := by
  show i ∈ ((View.whole main_v55).slice (win4_4.rect t)).set ↔ _
  rw [View.set_slice_whole, Rect.mem_set_unit]
  exact Iff.rfl

/-- Every row lies in the block of the point (row / 5000). -/
theorem cover4 (i : S500000x128.Idx) : ∃ t : Fin cfg4.N, (cfg4.win 4).flush t = true ∧ i ∈ ((cfg4.win 4).blk t).view.set := by
  have hi0 : (i 0).val < 500000 := idx2_lt0 i
  have hi1 : (i 1).val < 128 := idx2_lt1 i
  obtain ⟨t, ht⟩ : ∃ t : Fin cfg4.N, t.val = (i 0).val / 5000 := ⟨⟨(i 0).val / 5000, by rw [show cfg4.N = 100 from N_4]; omega⟩, rfl⟩
  obtain ⟨-, -, -, -, -, -, -, -, e0, e1⟩ := idx4 t
  refine ⟨t, flush4_4 t, ?_⟩
  rw [mem_blk4]
  intro a
  match a with
  | ⟨0, _⟩ => show win4_4.index t (0 : Fin 2) * 5000 ≤ (i 0).val ∧ (i 0).val < win4_4.index t (0 : Fin 2) * 5000 + 5000; rw [e0, ht]; omega
  | ⟨1, _⟩ => show win4_4.index t (1 : Fin 2) * 128 ≤ (i 1).val ∧ (i 1).val < win4_4.index t (1 : Fin 2) * 128 + 128; rw [e1]; omega

/-- The four arrays region 4 reads, as the region finds them, each at its literal type. -/
abbrev xin4 (c : Dev nD) : S500000x128.Idx → EReal := V c main_arg1
abbrev attn4 (c : Dev nD) : S500000x128.Idx → EReal := V c main_v42_0
abbrev wgt4 (c : Dev nD) : S128x128.Idx → EReal := V c main_v4
abbrev bias4 (c : Dev nD) : S1x128.Idx → EReal := V c main_v10
/-- The array region 4 writes, after the region. -/
abbrev res4 (c : Dev nD) : S500000x128.Idx → EReal := (dat4 V c).arrAt 4 cfg4.N

/-- THE REGION'S VALUE: after the region, entry (r, j) of the output array is (x(r,j) + Σ_k attn(r,k) · W(k,j)) + b(0,j)
    of the arrays as the region finds them. -/
theorem val4_4 (c : Dev nD) (r : Fin 500000) (j : Fin 128) :
    res4 V c (ix2 r j)
      = (xin4 V c (ix2 r j) + ∑ k : Fin 128, attn4 V c (ix2 r k) * wgt4 V c (ix2 k j)) + bias4 V c (ix2 (0 : Fin 1) j) := by
  have h := (dat4 V c).arrAt_eq_of_cover 4 (G 500000 (V c main_arg1) (V c main_v42_0) (V c main_v4) (V c main_v10))
    (fun t _ => flushed4_eq V c t) (cover4)
  show (dat4 V c).arrAt 4 cfg4.N (ix2 r j) = _
  rw [h]
  rfl

end Value

/-! ## The kernel side: the buffers the two regions read, carried back to the launch memory -/

section KernelReads
variable (m : (ℓ : Loc nD τ sig) → Buf (Elt Ideal) ℓ) (outs : Outs (F := Ideal))

/-- The node input reaches region 3 as launched. -/
theorem k7_arg0 (c : Dev nD) : V7 m outs c main_arg0 = m ((c : Thread nD τ).loc main_arg0) :=
  (V7_of m outs c main_arg0 (by decide)).trans <| (V6_of m outs c main_arg0 (by decide)).trans <|
  (V5_of m outs c main_arg0 (by decide)).trans <| (V4_of m outs c main_arg0 (by decide)).trans <|
  (V3_of m outs c main_arg0 (by decide)).trans <| (V2_of m outs c main_arg0 (by decide)).trans <|
  (V1_of m c main_arg0 (by decide))

/-- The edge input reaches region 4 as launched. -/
theorem k8_arg1 (c : Dev nD) : V8 m outs c main_arg1 = m ((c : Thread nD τ).loc main_arg1) :=
  (V8_of m outs c main_arg1 (by decide)).trans <|
  (V7_of m outs c main_arg1 (by decide)).trans <| (V6_of m outs c main_arg1 (by decide)).trans <|
  (V5_of m outs c main_arg1 (by decide)).trans <| (V4_of m outs c main_arg1 (by decide)).trans <|
  (V3_of m outs c main_arg1 (by decide)).trans <| (V2_of m outs c main_arg1 (by decide)).trans <|
  (V1_of m c main_arg1 (by decide))

/-- The node projection's weights in the narrower format: at the ideal values, the argument itself. -/
theorem k1_v3 (c : Dev nD) : (V1 m c main_v3 : S128x128.Idx → EReal) = (m ((c : Thread nD τ).loc main_arg9) : S128x128.Idx → EReal) := by
  dsimp only [V1, hostOps0]; after_results; rfl

theorem k7_v3 (c : Dev nD) : (V7 m outs c main_v3 : S128x128.Idx → EReal) = (m ((c : Thread nD τ).loc main_arg9) : S128x128.Idx → EReal) :=
  (V7_of m outs c main_v3 (by decide)).trans <| (V6_of m outs c main_v3 (by decide)).trans <|
  (V5_of m outs c main_v3 (by decide)).trans <| (V4_of m outs c main_v3 (by decide)).trans <|
  (V3_of m outs c main_v3 (by decide)).trans <| (V2_of m outs c main_v3 (by decide)).trans <| k1_v3 m c

/-- The edge projection's weights, likewise. -/
theorem k1_v4 (c : Dev nD) : (V1 m c main_v4 : S128x128.Idx → EReal) = (m ((c : Thread nD τ).loc main_arg11) : S128x128.Idx → EReal) := by
  dsimp only [V1, hostOps0]; after_results; rfl

theorem k8_v4 (c : Dev nD) : (V8 m outs c main_v4 : S128x128.Idx → EReal) = (m ((c : Thread nD τ).loc main_arg11) : S128x128.Idx → EReal) :=
  (V8_of m outs c main_v4 (by decide)).trans <|
  (V7_of m outs c main_v4 (by decide)).trans <| (V6_of m outs c main_v4 (by decide)).trans <|
  (V5_of m outs c main_v4 (by decide)).trans <| (V4_of m outs c main_v4 (by decide)).trans <|
  (V3_of m outs c main_v4 (by decide)).trans <| (V2_of m outs c main_v4 (by decide)).trans <| k1_v4 m c

/-- A vector of 128 entries reshaped to one row, at (0, j): entry j. -/
theorem oneRow_apply (b : S128.Idx → EReal) (z : Fin 1) (j : Fin 128) :
    shapeCast S1x128 b shapeCasts_S128_S1x128 (ix2 z j) = b (ix1 j) := by
  refine shapeCast_apply b shapeCasts_S128_S1x128 (ix2 z j) (ix1 j) ?_
  rw [Shape.rowMajor_val_one, Shape.rowMajor_val_two]
  show j.val = z.val * 128 + j.val
  have := z.isLt
  omega

/-- The node projection's bias as one row. -/
theorem k1_v9 (c : Dev nD) : (V1 m c main_v9 : S1x128.Idx → EReal)
    = shapeCast S1x128 (m ((c : Thread nD τ).loc main_arg10) : S128.Idx → EReal) shapeCasts_S128_S1x128 := by
  dsimp only [V1, hostOps0]; after_results; rfl

theorem k7_v9 (c : Dev nD) : (V7 m outs c main_v9 : S1x128.Idx → EReal)
    = shapeCast S1x128 (m ((c : Thread nD τ).loc main_arg10) : S128.Idx → EReal) shapeCasts_S128_S1x128 :=
  (V7_of m outs c main_v9 (by decide)).trans <| (V6_of m outs c main_v9 (by decide)).trans <|
  (V5_of m outs c main_v9 (by decide)).trans <| (V4_of m outs c main_v9 (by decide)).trans <|
  (V3_of m outs c main_v9 (by decide)).trans <| (V2_of m outs c main_v9 (by decide)).trans <| k1_v9 m c

/-- The edge projection's bias as one row. -/
theorem k1_v10 (c : Dev nD) : (V1 m c main_v10 : S1x128.Idx → EReal)
    = shapeCast S1x128 (m ((c : Thread nD τ).loc main_arg12) : S128.Idx → EReal) shapeCasts_S128_S1x128 := by
  dsimp only [V1, hostOps0]; after_results; rfl

theorem k8_v10 (c : Dev nD) : (V8 m outs c main_v10 : S1x128.Idx → EReal)
    = shapeCast S1x128 (m ((c : Thread nD τ).loc main_arg12) : S128.Idx → EReal) shapeCasts_S128_S1x128 :=
  (V8_of m outs c main_v10 (by decide)).trans <|
  (V7_of m outs c main_v10 (by decide)).trans <| (V6_of m outs c main_v10 (by decide)).trans <|
  (V5_of m outs c main_v10 (by decide)).trans <| (V4_of m outs c main_v10 (by decide)).trans <|
  (V3_of m outs c main_v10 (by decide)).trans <| (V2_of m outs c main_v10 (by decide)).trans <| k1_v10 m c

/-- The edge attention scores reach region 4 as region 2 left them. -/
theorem k8_v42_0 (c : Dev nD) : V8 m outs c main_v42_0 = V6 m outs c main_v42_0 :=
  (V8_of m outs c main_v42_0 (by decide)).trans (V7_of m outs c main_v42_0 (by decide))

/-- What region 3 leaves in its output is the slot's contents … -/
theorem k8_v54 (c : Dev nD) : V8 m outs c main_v54 = outs 8 main_v54 c := Function.update_self ..
/-- … and region 4 likewise. -/
theorem k9_v55 (c : Dev nD) : V9 m outs c main_v55 = outs 9 main_v55 c := Function.update_self ..

end KernelReads

/-! ## The reference side's arithmetic at an index -/

section RefArith

theorem refdims3_eq_plain : Cert.ReferenceIdeal.dot_S50000x128_S128x128_S50000x128_1_0_0_1_n_n = DotDims.plain 50000 128 128 := rfl
theorem refdims4_eq_plain : Cert.ReferenceIdeal.dot_S500000x128_S128x128_S500000x128_1_0_0_1_n_n = DotDims.plain 500000 128 128 := rfl

/-- A vector of 128 entries laid as one row (the host's spelling), at (0, j): entry j. -/
theorem ref_oneRow_apply (h1 : Cert.ReferenceIdeal.S128.BroadcastsInDim Cert.ReferenceIdeal.S1x128 ![1])
    (b : Cert.ReferenceIdeal.S128.Idx → EReal) (z : Fin 1) (j : Fin 128) :
    broadcastInDim Cert.ReferenceIdeal.S1x128 ![1] h1 b (ix2 z j) = b (ix1 j) := by
  refine broadcastInDim_apply ![1] h1 b (ix2 z j) (ix1 j) ?_
  intro a
  match a with
  | ⟨0, _⟩ => show j.val = if (128 : ℕ) = 1 then 0 else j.val; rw [if_neg (by decide)]

/-- The reference's node output projection at (r, j): x(r,j) + ((Σ_k A(r,k) · W(k,j)) + b(j)). -/
theorem ref_expr3_apply (h1 : Cert.ReferenceIdeal.S128.BroadcastsInDim Cert.ReferenceIdeal.S1x128 ![1])
    (h2 : Cert.ReferenceIdeal.S1x128.BroadcastsInDim Cert.ReferenceIdeal.S50000x128 ![0, 1])
    (X A : Cert.ReferenceIdeal.S50000x128.Idx → EReal) (W : Cert.ReferenceIdeal.S128x128.Idx → EReal)
    (b : Cert.ReferenceIdeal.S128.Idx → EReal) (r : Fin 50000) (j : Fin 128) :
    addf (F := Ideal) (φ := .f32) X (addf (F := Ideal) (φ := .f32) (Host.dotGeneral (φ₁ := .f32) (φ₂ := .f32) Cert.ReferenceIdeal.dot_S50000x128_S128x128_S50000x128_1_0_0_1_n_n none A W)
      (broadcastInDim Cert.ReferenceIdeal.S50000x128 ![0, 1] h2 (broadcastInDim Cert.ReferenceIdeal.S1x128 ![1] h1 b))) (ix2 r j)
      = X (ix2 r j) + ((∑ k : Fin 128, A (ix2 r k) * W (ix2 k j)) + b (ix1 j)) := by
  refine (addf_apply _ _ _).trans ?_
  refine congrArg (X (ix2 r j) + ·) ?_
  refine (addf_apply _ _ _).trans ?_
  refine congrArg₂ (· + ·) ?_ ?_
  · rw [refdims3_eq_plain]
    exact StackMember.dotGeneral_plain_apply (φ₁ := .f32) (φ₂ := .f32) none A W r j
  · refine (broadcastInDim_oneRow_apply h2 _ r j).trans ?_
    exact ref_oneRow_apply h1 b 0 j

/-- The reference's edge output projection at (e, j), likewise. -/
theorem ref_expr4_apply (h1 : Cert.ReferenceIdeal.S128.BroadcastsInDim Cert.ReferenceIdeal.S1x128 ![1])
    (h2 : Cert.ReferenceIdeal.S1x128.BroadcastsInDim Cert.ReferenceIdeal.S500000x128 ![0, 1])
    (X A : Cert.ReferenceIdeal.S500000x128.Idx → EReal) (W : Cert.ReferenceIdeal.S128x128.Idx → EReal)
    (b : Cert.ReferenceIdeal.S128.Idx → EReal) (r : Fin 500000) (j : Fin 128) :
    addf (F := Ideal) (φ := .f32) X (addf (F := Ideal) (φ := .f32) (Host.dotGeneral (φ₁ := .f32) (φ₂ := .f32) Cert.ReferenceIdeal.dot_S500000x128_S128x128_S500000x128_1_0_0_1_n_n none A W)
      (broadcastInDim Cert.ReferenceIdeal.S500000x128 ![0, 1] h2 (broadcastInDim Cert.ReferenceIdeal.S1x128 ![1] h1 b))) (ix2 r j)
      = X (ix2 r j) + ((∑ k : Fin 128, A (ix2 r k) * W (ix2 k j)) + b (ix1 j)) := by
  refine (addf_apply _ _ _).trans ?_
  refine congrArg (X (ix2 r j) + ·) ?_
  refine (addf_apply _ _ _).trans ?_
  refine congrArg₂ (· + ·) ?_ ?_
  · rw [refdims4_eq_plain]
    exact StackMember.dotGeneral_plain_apply (φ₁ := .f32) (φ₂ := .f32) none A W r j
  · refine (broadcastInDim_oneRow_apply h2 _ r j).trans ?_
    exact ref_oneRow_apply h1 b 0 j

end RefArith

/-! ## The reference side's reads, and the stage -/

section Stage
open Cert.ReferenceIdeal.Hand
variable (m : (ℓ : Loc nD τ sig) → Buf (Elt Ideal) ℓ) (outs : Outs (F := Ideal))
variable (m' : (ℓ : Loc Cert.ReferenceIdeal.nD Cert.ReferenceIdeal.τ Cert.ReferenceIdeal.sig) → Buf (Elt Ideal) ℓ)

/-- The reference's node output, from any contents before its five operations. -/
theorem ref_v57 (W : Valuation Cert.ReferenceIdeal.τ Cert.ReferenceIdeal.sig (Elt Ideal)) :
    (StableHlo.after (ops3 (F := Ideal)) W (Proc.devRef .tc Cert.ReferenceIdeal.main_v57) : Cert.ReferenceIdeal.S50000x128.Idx → EReal)
      = addf (F := Ideal) (φ := .f32) (W Cert.ReferenceIdeal.main_arg0 : Cert.ReferenceIdeal.S50000x128.Idx → EReal)
          (addf (F := Ideal) (φ := .f32)
            (Host.dotGeneral (φ₁ := .f32) (φ₂ := .f32) Cert.ReferenceIdeal.dot_S50000x128_S128x128_S50000x128_1_0_0_1_n_n none
              (W Cert.ReferenceIdeal.main_v52 : Cert.ReferenceIdeal.S50000x128.Idx → EReal) (W Cert.ReferenceIdeal.main_arg9 : Cert.ReferenceIdeal.S128x128.Idx → EReal))
            (broadcastInDim Cert.ReferenceIdeal.S50000x128 ![0, 1] Cert.ReferenceIdeal.Gen.bcast_S1x128_S50000x128_0_1
              (broadcastInDim Cert.ReferenceIdeal.S1x128 ![1] Cert.ReferenceIdeal.Gen.bcast_S128_S1x128_1 (W Cert.ReferenceIdeal.main_arg10 : Cert.ReferenceIdeal.S128.Idx → EReal)))) := by
  dsimp only [ops3]; after_results

/-- The reference's edge output, from any contents before its five operations. -/
theorem ref_v81 (W : Valuation Cert.ReferenceIdeal.τ Cert.ReferenceIdeal.sig (Elt Ideal)) :
    (StableHlo.after (ops5 (F := Ideal)) W (Proc.devRef .tc Cert.ReferenceIdeal.main_v81) : Cert.ReferenceIdeal.S500000x128.Idx → EReal)
      = addf (F := Ideal) (φ := .f32) (W Cert.ReferenceIdeal.main_arg1 : Cert.ReferenceIdeal.S500000x128.Idx → EReal)
          (addf (F := Ideal) (φ := .f32)
            (Host.dotGeneral (φ₁ := .f32) (φ₂ := .f32) Cert.ReferenceIdeal.dot_S500000x128_S128x128_S500000x128_1_0_0_1_n_n none
              (W Cert.ReferenceIdeal.main_v26 : Cert.ReferenceIdeal.S500000x128.Idx → EReal) (W Cert.ReferenceIdeal.main_arg11 : Cert.ReferenceIdeal.S128x128.Idx → EReal))
            (broadcastInDim Cert.ReferenceIdeal.S500000x128 ![0, 1] Cert.ReferenceIdeal.Gen.bcast_S1x128_S500000x128_0_1
              (broadcastInDim Cert.ReferenceIdeal.S1x128 ![1] Cert.ReferenceIdeal.Gen.bcast_S128_S1x128_1 (W Cert.ReferenceIdeal.main_arg12 : Cert.ReferenceIdeal.S128.Idx → EReal)))) := by
  dsimp only [ops5]; after_results

/-- The arguments the node projection reads are still the launch contents before it. -/
theorem r3_arg0 (c : Dev Cert.ReferenceIdeal.nD) : RV3 m' c Cert.ReferenceIdeal.main_arg0 = m' ((c.tc : Thread Cert.ReferenceIdeal.nD Cert.ReferenceIdeal.τ).loc Cert.ReferenceIdeal.main_arg0) :=
  (RV3_of m' c Cert.ReferenceIdeal.main_arg0 (by decide)).trans <| (RV2_of m' c Cert.ReferenceIdeal.main_arg0 (by decide)).trans <| RV1_of m' c Cert.ReferenceIdeal.main_arg0 (by decide)
theorem r3_arg9 (c : Dev Cert.ReferenceIdeal.nD) : RV3 m' c Cert.ReferenceIdeal.main_arg9 = m' ((c.tc : Thread Cert.ReferenceIdeal.nD Cert.ReferenceIdeal.τ).loc Cert.ReferenceIdeal.main_arg9) :=
  (RV3_of m' c Cert.ReferenceIdeal.main_arg9 (by decide)).trans <| (RV2_of m' c Cert.ReferenceIdeal.main_arg9 (by decide)).trans <| RV1_of m' c Cert.ReferenceIdeal.main_arg9 (by decide)
theorem r3_arg10 (c : Dev Cert.ReferenceIdeal.nD) : RV3 m' c Cert.ReferenceIdeal.main_arg10 = m' ((c.tc : Thread Cert.ReferenceIdeal.nD Cert.ReferenceIdeal.τ).loc Cert.ReferenceIdeal.main_arg10) :=
  (RV3_of m' c Cert.ReferenceIdeal.main_arg10 (by decide)).trans <| (RV2_of m' c Cert.ReferenceIdeal.main_arg10 (by decide)).trans <| RV1_of m' c Cert.ReferenceIdeal.main_arg10 (by decide)

/-- The arguments the edge projection reads are still the launch contents before it, and the edge scores are as the
    edge stage left them. -/
theorem r5_arg1 (c : Dev Cert.ReferenceIdeal.nD) : RV5 m' c Cert.ReferenceIdeal.main_arg1 = m' ((c.tc : Thread Cert.ReferenceIdeal.nD Cert.ReferenceIdeal.τ).loc Cert.ReferenceIdeal.main_arg1) :=
  (RV5_of m' c Cert.ReferenceIdeal.main_arg1 (by decide)).trans <| (RV4_of m' c Cert.ReferenceIdeal.main_arg1 (by decide)).trans <|
  (RV3_of m' c Cert.ReferenceIdeal.main_arg1 (by decide)).trans <| (RV2_of m' c Cert.ReferenceIdeal.main_arg1 (by decide)).trans <| RV1_of m' c Cert.ReferenceIdeal.main_arg1 (by decide)
theorem r5_arg11 (c : Dev Cert.ReferenceIdeal.nD) : RV5 m' c Cert.ReferenceIdeal.main_arg11 = m' ((c.tc : Thread Cert.ReferenceIdeal.nD Cert.ReferenceIdeal.τ).loc Cert.ReferenceIdeal.main_arg11) :=
  (RV5_of m' c Cert.ReferenceIdeal.main_arg11 (by decide)).trans <| (RV4_of m' c Cert.ReferenceIdeal.main_arg11 (by decide)).trans <|
  (RV3_of m' c Cert.ReferenceIdeal.main_arg11 (by decide)).trans <| (RV2_of m' c Cert.ReferenceIdeal.main_arg11 (by decide)).trans <| RV1_of m' c Cert.ReferenceIdeal.main_arg11 (by decide)
theorem r5_arg12 (c : Dev Cert.ReferenceIdeal.nD) : RV5 m' c Cert.ReferenceIdeal.main_arg12 = m' ((c.tc : Thread Cert.ReferenceIdeal.nD Cert.ReferenceIdeal.τ).loc Cert.ReferenceIdeal.main_arg12) :=
  (RV5_of m' c Cert.ReferenceIdeal.main_arg12 (by decide)).trans <| (RV4_of m' c Cert.ReferenceIdeal.main_arg12 (by decide)).trans <|
  (RV3_of m' c Cert.ReferenceIdeal.main_arg12 (by decide)).trans <| (RV2_of m' c Cert.ReferenceIdeal.main_arg12 (by decide)).trans <| RV1_of m' c Cert.ReferenceIdeal.main_arg12 (by decide)
theorem r5_v26 (c : Dev Cert.ReferenceIdeal.nD) : RV5 m' c Cert.ReferenceIdeal.main_v26 = RV2 m' c Cert.ReferenceIdeal.main_v26 :=
  (RV5_of m' c Cert.ReferenceIdeal.main_v26 (by decide)).trans <| (RV4_of m' c Cert.ReferenceIdeal.main_v26 (by decide)).trans <| RV3_of m' c Cert.ReferenceIdeal.main_v26 (by decide)

/-- The arrays of the two sides, each at its literal type. -/
abbrev kx3 (c : Dev nD) : S50000x128.Idx → EReal := m ((c.tc : Thread nD τ).loc main_arg0)
abbrev kw3 (c : Dev nD) : S128x128.Idx → EReal := m ((c.tc : Thread nD τ).loc main_arg9)
abbrev kb3 (c : Dev nD) : S128.Idx → EReal := m ((c.tc : Thread nD τ).loc main_arg10)
abbrev kx4 (c : Dev nD) : S500000x128.Idx → EReal := m ((c.tc : Thread nD τ).loc main_arg1)
abbrev kw4 (c : Dev nD) : S128x128.Idx → EReal := m ((c.tc : Thread nD τ).loc main_arg11)
abbrev kb4 (c : Dev nD) : S128.Idx → EReal := m ((c.tc : Thread nD τ).loc main_arg12)
abbrev ra3 (c : Dev Cert.ReferenceIdeal.nD) : Cert.ReferenceIdeal.S50000x128.Idx → EReal := RV3 m' c Cert.ReferenceIdeal.main_v52
abbrev ra4 (c : Dev Cert.ReferenceIdeal.nD) : Cert.ReferenceIdeal.S500000x128.Idx → EReal := RV2 m' c Cert.ReferenceIdeal.main_v26
abbrev rx3 (c : Dev Cert.ReferenceIdeal.nD) : Cert.ReferenceIdeal.S50000x128.Idx → EReal := m' ((c.tc : Thread Cert.ReferenceIdeal.nD Cert.ReferenceIdeal.τ).loc Cert.ReferenceIdeal.main_arg0)
abbrev rw3 (c : Dev Cert.ReferenceIdeal.nD) : Cert.ReferenceIdeal.S128x128.Idx → EReal := m' ((c.tc : Thread Cert.ReferenceIdeal.nD Cert.ReferenceIdeal.τ).loc Cert.ReferenceIdeal.main_arg9)
abbrev rb3 (c : Dev Cert.ReferenceIdeal.nD) : Cert.ReferenceIdeal.S128.Idx → EReal := m' ((c.tc : Thread Cert.ReferenceIdeal.nD Cert.ReferenceIdeal.τ).loc Cert.ReferenceIdeal.main_arg10)
abbrev rx4 (c : Dev Cert.ReferenceIdeal.nD) : Cert.ReferenceIdeal.S500000x128.Idx → EReal := m' ((c.tc : Thread Cert.ReferenceIdeal.nD Cert.ReferenceIdeal.τ).loc Cert.ReferenceIdeal.main_arg1)
abbrev rw4 (c : Dev Cert.ReferenceIdeal.nD) : Cert.ReferenceIdeal.S128x128.Idx → EReal := m' ((c.tc : Thread Cert.ReferenceIdeal.nD Cert.ReferenceIdeal.τ).loc Cert.ReferenceIdeal.main_arg11)
abbrev rb4 (c : Dev Cert.ReferenceIdeal.nD) : Cert.ReferenceIdeal.S128.Idx → EReal := m' ((c.tc : Thread Cert.ReferenceIdeal.nD Cert.ReferenceIdeal.τ).loc Cert.ReferenceIdeal.main_arg12)

/-- The reference's node output at (r, j). -/
theorem r4_v57 (c : Dev Cert.ReferenceIdeal.nD) (r : Fin 50000) (j : Fin 128) :
    (RV4 m' c Cert.ReferenceIdeal.main_v57 : Cert.ReferenceIdeal.S50000x128.Idx → EReal) (ix2 r j)
      = rx3 m' c (ix2 r j) + ((∑ k : Fin 128, ra3 m' c (ix2 r k) * rw3 m' c (ix2 k j)) + rb3 m' c (ix1 j)) := by
  have e := ref_v57 (RV3 m' c)
  rw [r3_arg0 m' c, r3_arg9 m' c, r3_arg10 m' c] at e
  show (StableHlo.after (ops3 (F := Ideal)) (RV3 m' c) (Proc.devRef .tc Cert.ReferenceIdeal.main_v57) : Cert.ReferenceIdeal.S50000x128.Idx → EReal) (ix2 r j) = _
  rw [e]
  exact ref_expr3_apply _ _ (rx3 m' c) (ra3 m' c) (rw3 m' c) (rb3 m' c) r j

/-- The reference's edge output at (e, j). -/
theorem r6_v81 (c : Dev Cert.ReferenceIdeal.nD) (r : Fin 500000) (j : Fin 128) :
    (RV6 m' c Cert.ReferenceIdeal.main_v81 : Cert.ReferenceIdeal.S500000x128.Idx → EReal) (ix2 r j)
      = rx4 m' c (ix2 r j) + ((∑ k : Fin 128, ra4 m' c (ix2 r k) * rw4 m' c (ix2 k j)) + rb4 m' c (ix1 j)) := by
  have e := ref_v81 (RV5 m' c)
  rw [r5_arg1 m' c, r5_arg11 m' c, r5_arg12 m' c, r5_v26 m' c] at e
  show (StableHlo.after (ops5 (F := Ideal)) (RV5 m' c) (Proc.devRef .tc Cert.ReferenceIdeal.main_v81) : Cert.ReferenceIdeal.S500000x128.Idx → EReal) (ix2 r j) = _
  rw [e]
  exact ref_expr4_apply _ _ (rx4 m' c) (ra4 m' c) (rw4 m' c) (rb4 m' c) r j

/-- The kernel's node output at (r, j), from the slot's specification. -/
theorem k8_v54_apply (c : Dev nD)
    (hslot : (dat3 (fun c b => V7 m outs c b) c).arrAt 4 cfg3.N = outs 8 main_v54 c) (r : Fin 50000) (j : Fin 128) :
    (V8 m outs c main_v54 : S50000x128.Idx → EReal) (ix2 r j)
      = (kx3 m c (ix2 r j) + ∑ k : Fin 128, attn3 (fun c b => V7 m outs c b) c (ix2 r k) * kw3 m c (ix2 k j)) + kb3 m c (ix1 j) := by
  rw [k8_v54 m outs c, ← hslot]
  refine (val3_4 (fun c b => V7 m outs c b) c r j).trans ?_
  have e0 : xin3 (fun c b => V7 m outs c b) c = kx3 m c := k7_arg0 m outs c
  have e2 : wgt3 (fun c b => V7 m outs c b) c = kw3 m c := k7_v3 m outs c
  have e3 : bias3 (fun c b => V7 m outs c b) c (ix2 (0 : Fin 1) j) = kb3 m c (ix1 j) := by
    rw [show bias3 (fun c b => V7 m outs c b) c = shapeCast S1x128 (kb3 m c) shapeCasts_S128_S1x128 from k7_v9 m outs c]
    exact oneRow_apply _ 0 j
  rw [e0, e2, e3]

/-- The kernel's edge output at (e, j), from the slot's specification. -/
theorem k9_v55_apply (c : Dev nD)
    (hslot : (dat4 (fun c b => V8 m outs c b) c).arrAt 4 cfg4.N = outs 9 main_v55 c) (r : Fin 500000) (j : Fin 128) :
    (V9 m outs c main_v55 : S500000x128.Idx → EReal) (ix2 r j)
      = (kx4 m c (ix2 r j) + ∑ k : Fin 128, attn4 (fun c b => V8 m outs c b) c (ix2 r k) * kw4 m c (ix2 k j)) + kb4 m c (ix1 j) := by
  rw [k9_v55 m outs c, ← hslot]
  refine (val4_4 (fun c b => V8 m outs c b) c r j).trans ?_
  have e0 : xin4 (fun c b => V8 m outs c b) c = kx4 m c := k8_arg1 m outs c
  have e2 : wgt4 (fun c b => V8 m outs c b) c = kw4 m c := k8_v4 m outs c
  have e3 : bias4 (fun c b => V8 m outs c b) c (ix2 (0 : Fin 1) j) = kb4 m c (ix1 j) := by
    rw [show bias4 (fun c b => V8 m outs c b) c = shapeCast S1x128 (kb4 m c) shapeCasts_S128_S1x128 from k8_v10 m outs c]
    exact oneRow_apply _ 0 j
  rw [e0, e2, e3]

/-- STAGE, the node output: given the slot's specification, the aggregation stage's equality and the agreement of
    the three arguments, the kernel's node output is the reference's, entry by entry: (x + Σ) + b = x + (Σ + b). -/
theorem stage_v54 (c : Dev nD)
    (hslot : (dat3 (fun c b => V7 m outs c b) c).arrAt 4 cfg3.N = outs 8 main_v54 c)
    (h53 : ∀ (r : Fin 50000) (j : Fin 128), (V7 m outs c main_v53 : S50000x128.Idx → EReal) (ix2 r j)
      = (RV3 m' c Cert.ReferenceIdeal.main_v52 : Cert.ReferenceIdeal.S50000x128.Idx → EReal) (ix2 r j))
    (ha0 : m' ((c.tc : Thread Cert.ReferenceIdeal.nD Cert.ReferenceIdeal.τ).loc Cert.ReferenceIdeal.main_arg0) = m ((c.tc : Thread nD τ).loc main_arg0))
    (ha9 : m' ((c.tc : Thread Cert.ReferenceIdeal.nD Cert.ReferenceIdeal.τ).loc Cert.ReferenceIdeal.main_arg9) = m ((c.tc : Thread nD τ).loc main_arg9))
    (ha10 : m' ((c.tc : Thread Cert.ReferenceIdeal.nD Cert.ReferenceIdeal.τ).loc Cert.ReferenceIdeal.main_arg10) = m ((c.tc : Thread nD τ).loc main_arg10))
    (r : Fin 50000) (j : Fin 128) :
    (V8 m outs c main_v54 : S50000x128.Idx → EReal) (ix2 r j)
      = (RV4 m' c Cert.ReferenceIdeal.main_v57 : Cert.ReferenceIdeal.S50000x128.Idx → EReal) (ix2 r j) := by
  rw [k8_v54_apply m outs c hslot r j, r4_v57 m' c r j]
  have e1 : ∀ k : Fin 128, attn3 (fun c b => V7 m outs c b) c (ix2 r k) = ra3 m' c (ix2 r k) := fun k => h53 r k
  have ex : rx3 m' c = kx3 m c := ha0
  have ew : rw3 m' c = kw3 m c := ha9
  have eb : rb3 m' c = kb3 m c := ha10
  rw [ex, ew, eb]
  simp only [e1]
  exact add_assoc (_ : EReal) _ _

/-- STAGE, the edge output: likewise from the edge stage's equality of the scores. -/
theorem stage_v55 (c : Dev nD)
    (hslot : (dat4 (fun c b => V8 m outs c b) c).arrAt 4 cfg4.N = outs 9 main_v55 c)
    (h26 : ∀ (e : Fin 500000) (d : Fin 128), (V6 m outs c main_v42_0 : S500000x128.Idx → EReal) (ix2 e d)
      = (RV2 m' c Cert.ReferenceIdeal.main_v26 : Cert.ReferenceIdeal.S500000x128.Idx → EReal) (ix2 e d))
    (ha1 : m' ((c.tc : Thread Cert.ReferenceIdeal.nD Cert.ReferenceIdeal.τ).loc Cert.ReferenceIdeal.main_arg1) = m ((c.tc : Thread nD τ).loc main_arg1))
    (ha11 : m' ((c.tc : Thread Cert.ReferenceIdeal.nD Cert.ReferenceIdeal.τ).loc Cert.ReferenceIdeal.main_arg11) = m ((c.tc : Thread nD τ).loc main_arg11))
    (ha12 : m' ((c.tc : Thread Cert.ReferenceIdeal.nD Cert.ReferenceIdeal.τ).loc Cert.ReferenceIdeal.main_arg12) = m ((c.tc : Thread nD τ).loc main_arg12))
    (r : Fin 500000) (j : Fin 128) :
    (V9 m outs c main_v55 : S500000x128.Idx → EReal) (ix2 r j)
      = (RV6 m' c Cert.ReferenceIdeal.main_v81 : Cert.ReferenceIdeal.S500000x128.Idx → EReal) (ix2 r j) := by
  rw [k9_v55_apply m outs c hslot r j, r6_v81 m' c r j]
  have e1 : ∀ k : Fin 128, attn4 (fun c b => V8 m outs c b) c (ix2 r k) = ra4 m' c (ix2 r k) := fun k => by
    show (V8 m outs c main_v42_0 : S500000x128.Idx → EReal) (ix2 r k) = _
    rw [k8_v42_0 m outs c]
    exact h26 r k
  have ex : rx4 m' c = kx4 m c := ha1
  have ew : rw4 m' c = kw4 m c := ha11
  have eb : rb4 m' c = kb4 m c := ha12
  rw [ex, ew, eb]
  simp only [e1]
  exact add_assoc (_ : EReal) _ _

end Stage

end Cert.Bridge.S4

end
-- ==== Proof.Val.LibDot.lean ====
/-
  A plain matrix product read at an entry, and a one-row matrix laid down the rows read at an entry.

  For an M×K matrix A and a K×N matrix B, the product with contraction over A's columns and B's rows, read at (r, q),
  is the sum over c of A (r, c) * B (c, q): at the extended reals this holds for the kernel's product accumulated into
  a zero matrix and for the host's product alike, since both are the sum over the one contracted axis and that axis's
  positions are the numbers below K.
-/
import Idealize.ShloMosaic.Lib.KernelVsHost
import Idealize.ShloMosaic.Lib.IdealHost

namespace Cert.Bridge.LibDot

open Idealize.ShloMosaic Idealize.ShloMosaic.ValueIdx

/-- The left operand's index at output (r, q) and contraction position c is (r, c). -/
theorem plain_lhs {M K N : Nat} (r : Fin M) (q : Fin N) (c : (DotDims.plain M K N).contr.Idx) :
    (DotDims.plain M K N).lhsIdx (ix2 r q) c = ix2 r (c ⟨0, Nat.one_pos⟩) := by
  funext a
  apply Fin.ext
  match a with
  | ⟨0, _⟩ => rfl
  | ⟨1, _⟩ => rfl

/-- The right operand's index at output (r, q) and contraction position c is (c, q). -/
theorem plain_rhs {M K N : Nat} (r : Fin M) (q : Fin N) (c : (DotDims.plain M K N).contr.Idx) :
    (DotDims.plain M K N).rhsIdx (ix2 r q) c = ix2 (c ⟨0, Nat.one_pos⟩) q := by
  funext a
  apply Fin.ext
  match a with
  | ⟨0, _⟩ => rfl
  | ⟨1, _⟩ => rfl

/-- The sum over the contracted axis is the sum over the numbers below K. -/
theorem plain_sum {M K N : Nat} (A : (⟨2, ![M, K]⟩ : Shape).Idx → EReal) (B : (⟨2, ![K, N]⟩ : Shape).Idx → EReal)
    (r : Fin M) (q : Fin N) :
    ∑ c : (DotDims.plain M K N).contr.Idx,
        A ((DotDims.plain M K N).lhsIdx (ix2 r q) c) * B ((DotDims.plain M K N).rhsIdx (ix2 r q) c)
      = ∑ c : Fin K, A (ix2 r c) * B (ix2 c q) := by
  rw [← Equiv.sum_comp (contrEquiv1 (DotDims.plain M K N) K rfl rfl).symm]
  refine Finset.sum_congr rfl fun c _ => ?_
  rw [plain_lhs, plain_rhs]
  have e : ((contrEquiv1 (DotDims.plain M K N) K rfl rfl).symm c) ⟨0, Nat.one_pos⟩ = c :=
    Fin.ext (contrEquiv1_symm_val (DotDims.plain M K N) K rfl rfl c)
  rw [e]
  try rfl

/-- The kernel's product into a zero matrix at (r, q). -/
theorem matmul_plain_apply {M K N : Nat} {φ₁ φ₂ : FTy} (prec : Option ContractPrecision)
    (A : FVec Ideal ⟨2, ![M, K]⟩ φ₁) (B : FVec Ideal ⟨2, ![K, N]⟩ φ₂) (r : Fin M) (q : Fin N) :
    matmul (DotDims.plain M K N) prec A B (constant ⟨2, ![M, N]⟩ .f32 0x00000000#32) (ix2 r q)
      = ∑ c : Fin K, A (ix2 r c) * B (ix2 c q) := by
  show FloatOps.matmul (DotDims.plain M K N) prec A B (constant ⟨2, ![M, N]⟩ .f32 0x00000000#32) (ix2 r q) = _
  rw [Ideal.matmul_constant_zero_apply]
  exact plain_sum A B r q

/-- The host's product at (r, q). -/
theorem dotGeneral_plain_apply {M K N : Nat} {φ₁ φ₂ : FTy} (prec : Option ContractPrecision)
    (A : FVec Ideal ⟨2, ![M, K]⟩ φ₁) (B : FVec Ideal ⟨2, ![K, N]⟩ φ₂) (r : Fin M) (q : Fin N) :
    Host.dotGeneral (DotDims.plain M K N) prec A B (ix2 r q) = ∑ c : Fin K, A (ix2 r c) * B (ix2 c q) := by
  show FloatOps.dotGeneral (DotDims.plain M K N) prec _ A B (ix2 r q) = _
  rw [Ideal.dotGeneral_apply]
  exact plain_sum A B r q

/-- A one-row matrix laid down m rows by the kernel's broadcast, read at (r, j), is the row at (0, j). -/
theorem broadcastTo_oneRow_apply {α : Type} {m n : Nat} (hb : (⟨2, ![1, n]⟩ : Shape).Broadcasts ⟨2, ![m, n]⟩)
    (y : (⟨2, ![1, n]⟩ : Shape).Idx → α) (r : Fin m) (j : Fin n) :
    broadcastTo ⟨2, ![m, n]⟩ y hb (ix2 r j) = y (ix2 (0 : Fin 1) j) := by
  refine broadcastTo_apply y hb (ix2 r j) (ix2 (0 : Fin 1) j) ?_
  intro a
  match a with
  | ⟨0, _⟩ => rfl
  | ⟨1, _⟩ =>
    show j.val = if n = 1 then 0 else j.val
    split
    · have := j.isLt; omega
    · rfl

end Cert.Bridge.LibDot
-- ==== Proof.Val.LibBN.lean ====
/-
  Column statistics of a matrix, in the two spellings a program may print them.

  For a matrix `x` of `m` rows and `n` columns, the mean of a column is the column's sum divided by a literal, and the
  (biased) variance of a column is the sum of the squared deviations from that mean divided by a count `N - k`, kept
  only where the count is positive. One spelling keeps the reduced axis as a unit axis (results of shape [1, n], read
  at (0, j)); the other drops it (results of shape [n], read at j). Both are, at column `j`, one and the same scalar
  expression of `x`: `colMean` and `colVar` below; the two spellings feed the same array to the same sum.
-/
import Idealize.ShloMosaic.Lib.IdealHost
import Idealize.ShloMosaic.Lib.KernelVsHost

namespace Cert.Bridge.LibBN

open Idealize.ShloMosaic Idealize.ShloMosaic.ValueIdx

variable {F : FTy → Type} [FloatOps F] {m n : Nat}

/-! ## Broadcasts read at coordinates -/

/-- A vector of `n` entries laid as the one row of a [1, n] matrix, read at (0, j), is the vector at j. -/
theorem broadcastInDim_keep_apply {α : Type} (hb1 : (⟨1, ![n]⟩ : Shape).BroadcastsInDim ⟨2, ![1, n]⟩ ![1])
    (y : (⟨1, ![n]⟩ : Shape).Idx → α) (j : Fin n) :
    broadcastInDim ⟨2, ![1, n]⟩ ![1] hb1 y (ix2 (0 : Fin 1) j) = y (ix1 j) := by
  refine broadcastInDim_apply ![1] hb1 y (ix2 (0 : Fin 1) j) (ix1 j) ?_
  intro a
  match a with
  | ⟨0, _⟩ =>
    show j.val = if n = 1 then 0 else j.val
    split
    · have := j.isLt; omega
    · rfl

/-! ## The column sums and the column mean -/

/-- The sums of the columns of `x`: entry `j` is the sum over the rows of column `j`, from zero. -/
def colSum (x : FVec F ⟨2, ![m, n]⟩ .f32) (hr : (⟨2, ![m, n]⟩ : Shape).ReducesTo [0] ⟨1, ![n]⟩) :
    FVec F ⟨1, ![n]⟩ .f32 :=
  Host.reduceAdd x (constant (⟨0, ![]⟩ : Shape) .f32 0x00000000#32) hr (by decide)

/-- The mean of column `j`: the column's sum divided by the literal `N`. -/
def colMean (x : FVec F ⟨2, ![m, n]⟩ .f32) (N : BitVec 32) (hr : (⟨2, ![m, n]⟩ : Shape).ReducesTo [0] ⟨1, ![n]⟩)
    (j : Fin n) : F .f32 :=
  FloatOps.hostDivf (colSum x hr (ix1 j)) (FloatOps.ofBits .f32 N)

/-- The column means with the reduced axis kept as a unit axis: shape [1, n]. -/
def meanKeep (x : FVec F ⟨2, ![m, n]⟩ .f32) (N : BitVec 32) (hr : (⟨2, ![m, n]⟩ : Shape).ReducesTo [0] ⟨1, ![n]⟩)
    (hb1 : (⟨1, ![n]⟩ : Shape).BroadcastsInDim ⟨2, ![1, n]⟩ ![1])
    (hb0 : (⟨0, ![]⟩ : Shape).BroadcastsInDim ⟨2, ![1, n]⟩ ![]) : FVec F ⟨2, ![1, n]⟩ .f32 :=
  Host.divf (broadcastInDim ⟨2, ![1, n]⟩ ![1] hb1 (colSum x hr))
    (broadcastInDim ⟨2, ![1, n]⟩ ![] hb0 (constant (⟨0, ![]⟩ : Shape) .f32 N))

/-- The column means with the reduced axis dropped: shape [n]. -/
def meanDrop (x : FVec F ⟨2, ![m, n]⟩ .f32) (N : BitVec 32) (hr : (⟨2, ![m, n]⟩ : Shape).ReducesTo [0] ⟨1, ![n]⟩)
    (hbn : (⟨0, ![]⟩ : Shape).BroadcastsInDim ⟨1, ![n]⟩ ![]) : FVec F ⟨1, ![n]⟩ .f32 :=
  Host.divf (colSum x hr) (broadcastInDim ⟨1, ![n]⟩ ![] hbn (constant (⟨0, ![]⟩ : Shape) .f32 N))

/-- The kept-axis mean at (0, j) is the mean of column j. -/
theorem meanKeep_apply (x : FVec F ⟨2, ![m, n]⟩ .f32) (N : BitVec 32)
    (hr : (⟨2, ![m, n]⟩ : Shape).ReducesTo [0] ⟨1, ![n]⟩)
    (hb1 : (⟨1, ![n]⟩ : Shape).BroadcastsInDim ⟨2, ![1, n]⟩ ![1])
    (hb0 : (⟨0, ![]⟩ : Shape).BroadcastsInDim ⟨2, ![1, n]⟩ ![]) (j : Fin n) :
    meanKeep x N hr hb1 hb0 (ix2 (0 : Fin 1) j) = colMean x N hr j := by
  show FloatOps.hostDivf (broadcastInDim ⟨2, ![1, n]⟩ ![1] hb1 (colSum x hr) (ix2 (0 : Fin 1) j))
      (broadcastInDim ⟨2, ![1, n]⟩ ![] hb0 (constant (⟨0, ![]⟩ : Shape) .f32 N) (ix2 (0 : Fin 1) j)) = _
  rw [broadcastInDim_keep_apply, broadcastInDim_scalar_apply]
  rfl

/-- The dropped-axis mean at j is the mean of column j. -/
theorem meanDrop_apply (x : FVec F ⟨2, ![m, n]⟩ .f32) (N : BitVec 32)
    (hr : (⟨2, ![m, n]⟩ : Shape).ReducesTo [0] ⟨1, ![n]⟩)
    (hbn : (⟨0, ![]⟩ : Shape).BroadcastsInDim ⟨1, ![n]⟩ ![]) (j : Fin n) :
    meanDrop x N hr hbn (ix1 j) = colMean x N hr j := by
  show FloatOps.hostDivf (colSum x hr (ix1 j))
      (broadcastInDim ⟨1, ![n]⟩ ![] hbn (constant (⟨0, ![]⟩ : Shape) .f32 N) (ix1 j)) = _
  rw [broadcastInDim_scalar_apply]
  rfl

/-! ## The squared deviations and the column variance -/

/-- The squared deviations of `x` from its column means: the kept-axis means laid down the rows, subtracted, and the
difference multiplied by itself. -/
def sqDev (x : FVec F ⟨2, ![m, n]⟩ .f32) (N : BitVec 32) (hr : (⟨2, ![m, n]⟩ : Shape).ReducesTo [0] ⟨1, ![n]⟩)
    (hb1 : (⟨1, ![n]⟩ : Shape).BroadcastsInDim ⟨2, ![1, n]⟩ ![1])
    (hb0 : (⟨0, ![]⟩ : Shape).BroadcastsInDim ⟨2, ![1, n]⟩ ![])
    (hbr : (⟨2, ![1, n]⟩ : Shape).BroadcastsInDim ⟨2, ![m, n]⟩ ![0, 1]) : FVec F ⟨2, ![m, n]⟩ .f32 :=
  mulf (subf x (broadcastInDim ⟨2, ![m, n]⟩ ![0, 1] hbr (meanKeep x N hr hb1 hb0)))
    (subf x (broadcastInDim ⟨2, ![m, n]⟩ ![0, 1] hbr (meanKeep x N hr hb1 hb0)))

/-- The squared deviation at (r, j) is the square of the entry less the mean of column j. -/
theorem sqDev_apply (x : FVec F ⟨2, ![m, n]⟩ .f32) (N : BitVec 32)
    (hr : (⟨2, ![m, n]⟩ : Shape).ReducesTo [0] ⟨1, ![n]⟩)
    (hb1 : (⟨1, ![n]⟩ : Shape).BroadcastsInDim ⟨2, ![1, n]⟩ ![1])
    (hb0 : (⟨0, ![]⟩ : Shape).BroadcastsInDim ⟨2, ![1, n]⟩ ![])
    (hbr : (⟨2, ![1, n]⟩ : Shape).BroadcastsInDim ⟨2, ![m, n]⟩ ![0, 1]) (r : Fin m) (j : Fin n) :
    sqDev x N hr hb1 hb0 hbr (ix2 r j)
      = FloatOps.mulf (FloatOps.subf (x (ix2 r j)) (colMean x N hr j)) (FloatOps.subf (x (ix2 r j)) (colMean x N hr j)) := by
  show FloatOps.mulf
      (FloatOps.subf (x (ix2 r j)) (broadcastInDim ⟨2, ![m, n]⟩ ![0, 1] hbr (meanKeep x N hr hb1 hb0) (ix2 r j)))
      (FloatOps.subf (x (ix2 r j)) (broadcastInDim ⟨2, ![m, n]⟩ ![0, 1] hbr (meanKeep x N hr hb1 hb0) (ix2 r j))) = _
  rw [broadcastInDim_oneRow_apply, meanKeep_apply]

/-- The count the variance divides by: the literal `N` less the integer `k` as a float. -/
def cnt (N : BitVec 32) (k : IVec (⟨0, ![]⟩ : Shape) 32) : FVec F (⟨0, ![]⟩ : Shape) .f32 :=
  subf (constant (⟨0, ![]⟩ : Shape) .f32 N) (sitofp .f32 k)

/-- The variance of column `j`: the sum of the column's squared deviations divided by the count, where the count is
positive; the literal `0x7FC00000` elsewhere. -/
def colVar (x : FVec F ⟨2, ![m, n]⟩ .f32) (N : BitVec 32) (k : IVec (⟨0, ![]⟩ : Shape) 32)
    (hr : (⟨2, ![m, n]⟩ : Shape).ReducesTo [0] ⟨1, ![n]⟩)
    (hb1 : (⟨1, ![n]⟩ : Shape).BroadcastsInDim ⟨2, ![1, n]⟩ ![1])
    (hb0 : (⟨0, ![]⟩ : Shape).BroadcastsInDim ⟨2, ![1, n]⟩ ![])
    (hbr : (⟨2, ![1, n]⟩ : Shape).BroadcastsInDim ⟨2, ![m, n]⟩ ![0, 1]) (j : Fin n) : F .f32 :=
  Scalar.select (FloatOps.cmpf .ogt (cnt (F := F) N k ix0) (FloatOps.ofBits .f32 0x00000000#32))
    (FloatOps.hostDivf (colSum (sqDev x N hr hb1 hb0 hbr) hr (ix1 j)) (cnt (F := F) N k ix0))
    (FloatOps.ofBits .f32 0x7FC00000#32)

/-- The column variances with the reduced axis kept as a unit axis: shape [1, n]. -/
def varKeep (x : FVec F ⟨2, ![m, n]⟩ .f32) (N : BitVec 32) (k : IVec (⟨0, ![]⟩ : Shape) 32)
    (hr : (⟨2, ![m, n]⟩ : Shape).ReducesTo [0] ⟨1, ![n]⟩)
    (hb1 : (⟨1, ![n]⟩ : Shape).BroadcastsInDim ⟨2, ![1, n]⟩ ![1])
    (hb0 : (⟨0, ![]⟩ : Shape).BroadcastsInDim ⟨2, ![1, n]⟩ ![])
    (hbr : (⟨2, ![1, n]⟩ : Shape).BroadcastsInDim ⟨2, ![m, n]⟩ ![0, 1]) : FVec F ⟨2, ![1, n]⟩ .f32 :=
  select
    (broadcastInDim ⟨2, ![1, n]⟩ ![] hb0
      (cmpf .ogt (cnt (F := F) N k) (constant (⟨0, ![]⟩ : Shape) .f32 0x00000000#32)))
    (Host.divf (broadcastInDim ⟨2, ![1, n]⟩ ![1] hb1 (colSum (sqDev x N hr hb1 hb0 hbr) hr))
      (broadcastInDim ⟨2, ![1, n]⟩ ![] hb0 (cnt (F := F) N k)))
    (broadcastInDim ⟨2, ![1, n]⟩ ![] hb0 (id (constant (⟨0, ![]⟩ : Shape) .f32 0x7FC00000#32)))

/-- The column variances with the reduced axis dropped: shape [n]. -/
def varDrop (x : FVec F ⟨2, ![m, n]⟩ .f32) (N : BitVec 32) (k : IVec (⟨0, ![]⟩ : Shape) 32)
    (hr : (⟨2, ![m, n]⟩ : Shape).ReducesTo [0] ⟨1, ![n]⟩)
    (hb1 : (⟨1, ![n]⟩ : Shape).BroadcastsInDim ⟨2, ![1, n]⟩ ![1])
    (hb0 : (⟨0, ![]⟩ : Shape).BroadcastsInDim ⟨2, ![1, n]⟩ ![])
    (hbr : (⟨2, ![1, n]⟩ : Shape).BroadcastsInDim ⟨2, ![m, n]⟩ ![0, 1])
    (hbn : (⟨0, ![]⟩ : Shape).BroadcastsInDim ⟨1, ![n]⟩ ![]) : FVec F ⟨1, ![n]⟩ .f32 :=
  select
    (broadcastInDim ⟨1, ![n]⟩ ![] hbn
      (cmpf .ogt (cnt (F := F) N k) (constant (⟨0, ![]⟩ : Shape) .f32 0x00000000#32)))
    (Host.divf (colSum (sqDev x N hr hb1 hb0 hbr) hr) (broadcastInDim ⟨1, ![n]⟩ ![] hbn (cnt (F := F) N k)))
    (broadcastInDim ⟨1, ![n]⟩ ![] hbn (id (constant (⟨0, ![]⟩ : Shape) .f32 0x7FC00000#32)))

/-- The kept-axis variance at (0, j) is the variance of column j. -/
theorem varKeep_apply (x : FVec F ⟨2, ![m, n]⟩ .f32) (N : BitVec 32) (k : IVec (⟨0, ![]⟩ : Shape) 32)
    (hr : (⟨2, ![m, n]⟩ : Shape).ReducesTo [0] ⟨1, ![n]⟩)
    (hb1 : (⟨1, ![n]⟩ : Shape).BroadcastsInDim ⟨2, ![1, n]⟩ ![1])
    (hb0 : (⟨0, ![]⟩ : Shape).BroadcastsInDim ⟨2, ![1, n]⟩ ![])
    (hbr : (⟨2, ![1, n]⟩ : Shape).BroadcastsInDim ⟨2, ![m, n]⟩ ![0, 1]) (j : Fin n) :
    varKeep x N k hr hb1 hb0 hbr (ix2 (0 : Fin 1) j) = colVar x N k hr hb1 hb0 hbr j := by
  show Scalar.select
      (broadcastInDim ⟨2, ![1, n]⟩ ![] hb0
        (cmpf .ogt (cnt (F := F) N k) (constant (⟨0, ![]⟩ : Shape) .f32 0x00000000#32)) (ix2 (0 : Fin 1) j))
      (FloatOps.hostDivf
        (broadcastInDim ⟨2, ![1, n]⟩ ![1] hb1 (colSum (sqDev x N hr hb1 hb0 hbr) hr) (ix2 (0 : Fin 1) j))
        (broadcastInDim ⟨2, ![1, n]⟩ ![] hb0 (cnt (F := F) N k) (ix2 (0 : Fin 1) j)))
      (broadcastInDim ⟨2, ![1, n]⟩ ![] hb0 (id (constant (⟨0, ![]⟩ : Shape) .f32 0x7FC00000#32)) (ix2 (0 : Fin 1) j))
      = _
  rw [broadcastInDim_keep_apply, broadcastInDim_scalar_apply, broadcastInDim_scalar_apply,
    broadcastInDim_scalar_apply]
  rfl

/-- The dropped-axis variance at j is the variance of column j. -/
theorem varDrop_apply (x : FVec F ⟨2, ![m, n]⟩ .f32) (N : BitVec 32) (k : IVec (⟨0, ![]⟩ : Shape) 32)
    (hr : (⟨2, ![m, n]⟩ : Shape).ReducesTo [0] ⟨1, ![n]⟩)
    (hb1 : (⟨1, ![n]⟩ : Shape).BroadcastsInDim ⟨2, ![1, n]⟩ ![1])
    (hb0 : (⟨0, ![]⟩ : Shape).BroadcastsInDim ⟨2, ![1, n]⟩ ![])
    (hbr : (⟨2, ![1, n]⟩ : Shape).BroadcastsInDim ⟨2, ![m, n]⟩ ![0, 1])
    (hbn : (⟨0, ![]⟩ : Shape).BroadcastsInDim ⟨1, ![n]⟩ ![]) (j : Fin n) :
    varDrop x N k hr hb1 hb0 hbr hbn (ix1 j) = colVar x N k hr hb1 hb0 hbr j := by
  show Scalar.select
      (broadcastInDim ⟨1, ![n]⟩ ![] hbn
        (cmpf .ogt (cnt (F := F) N k) (constant (⟨0, ![]⟩ : Shape) .f32 0x00000000#32)) (ix1 j))
      (FloatOps.hostDivf (colSum (sqDev x N hr hb1 hb0 hbr) hr (ix1 j))
        (broadcastInDim ⟨1, ![n]⟩ ![] hbn (cnt (F := F) N k) (ix1 j)))
      (broadcastInDim ⟨1, ![n]⟩ ![] hbn (id (constant (⟨0, ![]⟩ : Shape) .f32 0x7FC00000#32)) (ix1 j))
      = _
  rw [broadcastInDim_scalar_apply, broadcastInDim_scalar_apply, broadcastInDim_scalar_apply]
  rfl

/-! ## The normalisation

Each entry less its column's mean, times the reciprocal root of the column's variance plus a literal, times the
column's scale, plus the column's shift: with the statistics kept as [1, n] matrices, and with them dropped to [n]
vectors first laid as one row. At (r, j) both are `bnAt` of the entry and column j's four numbers. -/

/-- One entry normalised. -/
def bnAt (xv μ v g b : F .f32) (eps : BitVec 32) : F .f32 :=
  FloatOps.addf
    (FloatOps.mulf
      (FloatOps.mulf (FloatOps.subf xv μ) (FloatOps.hostUnary .rsqrt (FloatOps.addf v (FloatOps.ofBits .f32 eps))))
      g)
    b

/-- The normalisation with mean and variance as [1, n] matrices, scale and shift as [n] vectors. -/
def bnKeep (x : FVec F ⟨2, ![m, n]⟩ .f32) (μ v : FVec F ⟨2, ![1, n]⟩ .f32) (g b : FVec F ⟨1, ![n]⟩ .f32)
    (eps : BitVec 32)
    (hb1 : (⟨1, ![n]⟩ : Shape).BroadcastsInDim ⟨2, ![1, n]⟩ ![1])
    (hb0 : (⟨0, ![]⟩ : Shape).BroadcastsInDim ⟨2, ![1, n]⟩ ![])
    (hbr : (⟨2, ![1, n]⟩ : Shape).BroadcastsInDim ⟨2, ![m, n]⟩ ![0, 1]) : FVec F ⟨2, ![m, n]⟩ .f32 :=
  addf
    (mulf
      (mulf (subf x (broadcastInDim ⟨2, ![m, n]⟩ ![0, 1] hbr μ))
        (broadcastInDim ⟨2, ![m, n]⟩ ![0, 1] hbr
          (Host.rsqrt (addf v (broadcastInDim ⟨2, ![1, n]⟩ ![] hb0 (constant (⟨0, ![]⟩ : Shape) .f32 eps))))))
      (broadcastInDim ⟨2, ![m, n]⟩ ![0, 1] hbr (broadcastInDim ⟨2, ![1, n]⟩ ![1] hb1 g)))
    (broadcastInDim ⟨2, ![m, n]⟩ ![0, 1] hbr (broadcastInDim ⟨2, ![1, n]⟩ ![1] hb1 b))

/-- The normalisation with mean, variance, scale and shift all as [n] vectors. -/
def bnDrop (x : FVec F ⟨2, ![m, n]⟩ .f32) (μ v g b : FVec F ⟨1, ![n]⟩ .f32) (eps : BitVec 32)
    (hb1 : (⟨1, ![n]⟩ : Shape).BroadcastsInDim ⟨2, ![1, n]⟩ ![1])
    (hbr : (⟨2, ![1, n]⟩ : Shape).BroadcastsInDim ⟨2, ![m, n]⟩ ![0, 1])
    (hbn : (⟨0, ![]⟩ : Shape).BroadcastsInDim ⟨1, ![n]⟩ ![]) : FVec F ⟨2, ![m, n]⟩ .f32 :=
  addf
    (mulf
      (mulf (subf x (broadcastInDim ⟨2, ![m, n]⟩ ![0, 1] hbr (broadcastInDim ⟨2, ![1, n]⟩ ![1] hb1 μ)))
        (broadcastInDim ⟨2, ![m, n]⟩ ![0, 1] hbr
          (broadcastInDim ⟨2, ![1, n]⟩ ![1] hb1
            (Host.rsqrt (addf v (broadcastInDim ⟨1, ![n]⟩ ![] hbn (constant (⟨0, ![]⟩ : Shape) .f32 eps)))))))
      (broadcastInDim ⟨2, ![m, n]⟩ ![0, 1] hbr (broadcastInDim ⟨2, ![1, n]⟩ ![1] hb1 g)))
    (broadcastInDim ⟨2, ![m, n]⟩ ![0, 1] hbr (broadcastInDim ⟨2, ![1, n]⟩ ![1] hb1 b))

/-- A vector laid as one row and that row laid down the rows, read at (r, j), is the vector at j. -/
theorem broadcastInDim_rows_keep_apply {α : Type}
    (hb1 : (⟨1, ![n]⟩ : Shape).BroadcastsInDim ⟨2, ![1, n]⟩ ![1])
    (hbr : (⟨2, ![1, n]⟩ : Shape).BroadcastsInDim ⟨2, ![m, n]⟩ ![0, 1])
    (y : (⟨1, ![n]⟩ : Shape).Idx → α) (r : Fin m) (j : Fin n) :
    broadcastInDim ⟨2, ![m, n]⟩ ![0, 1] hbr (broadcastInDim ⟨2, ![1, n]⟩ ![1] hb1 y) (ix2 r j) = y (ix1 j) :=
  (broadcastInDim_oneRow_apply hbr _ r j).trans (broadcastInDim_keep_apply hb1 y j)

/-- The kept-statistics normalisation at (r, j). -/
theorem bnKeep_apply (x : FVec F ⟨2, ![m, n]⟩ .f32) (μ v : FVec F ⟨2, ![1, n]⟩ .f32) (g b : FVec F ⟨1, ![n]⟩ .f32)
    (eps : BitVec 32)
    (hb1 : (⟨1, ![n]⟩ : Shape).BroadcastsInDim ⟨2, ![1, n]⟩ ![1])
    (hb0 : (⟨0, ![]⟩ : Shape).BroadcastsInDim ⟨2, ![1, n]⟩ ![])
    (hbr : (⟨2, ![1, n]⟩ : Shape).BroadcastsInDim ⟨2, ![m, n]⟩ ![0, 1]) (r : Fin m) (j : Fin n) :
    bnKeep x μ v g b eps hb1 hb0 hbr (ix2 r j)
      = bnAt (x (ix2 r j)) (μ (ix2 (0 : Fin 1) j)) (v (ix2 (0 : Fin 1) j)) (g (ix1 j)) (b (ix1 j)) eps := by
  have e1 := broadcastInDim_oneRow_apply hbr μ r j
  have e2 : broadcastInDim ⟨2, ![m, n]⟩ ![0, 1] hbr
        (Host.rsqrt (addf v (broadcastInDim ⟨2, ![1, n]⟩ ![] hb0 (constant (⟨0, ![]⟩ : Shape) .f32 eps)))) (ix2 r j)
      = FloatOps.hostUnary .rsqrt (FloatOps.addf (v (ix2 (0 : Fin 1) j)) (FloatOps.ofBits .f32 eps)) := by
    refine (broadcastInDim_oneRow_apply hbr _ r j).trans ?_
    show FloatOps.hostUnary .rsqrt (FloatOps.addf (v (ix2 (0 : Fin 1) j))
      (broadcastInDim ⟨2, ![1, n]⟩ ![] hb0 (constant (⟨0, ![]⟩ : Shape) .f32 eps) (ix2 (0 : Fin 1) j))) = _
    rw [broadcastInDim_scalar_apply]
    rfl
  have e3 := broadcastInDim_rows_keep_apply hb1 hbr g r j
  have e4 := broadcastInDim_rows_keep_apply hb1 hbr b r j
  show FloatOps.addf
      (FloatOps.mulf
        (FloatOps.mulf (FloatOps.subf (x (ix2 r j)) (broadcastInDim ⟨2, ![m, n]⟩ ![0, 1] hbr μ (ix2 r j)))
          (broadcastInDim ⟨2, ![m, n]⟩ ![0, 1] hbr
            (Host.rsqrt (addf v (broadcastInDim ⟨2, ![1, n]⟩ ![] hb0 (constant (⟨0, ![]⟩ : Shape) .f32 eps))))
            (ix2 r j)))
        (broadcastInDim ⟨2, ![m, n]⟩ ![0, 1] hbr (broadcastInDim ⟨2, ![1, n]⟩ ![1] hb1 g) (ix2 r j)))
      (broadcastInDim ⟨2, ![m, n]⟩ ![0, 1] hbr (broadcastInDim ⟨2, ![1, n]⟩ ![1] hb1 b) (ix2 r j)) = _
  rw [e1, e2, e3, e4]
  rfl

/-- The dropped-statistics normalisation at (r, j). -/
theorem bnDrop_apply (x : FVec F ⟨2, ![m, n]⟩ .f32) (μ v g b : FVec F ⟨1, ![n]⟩ .f32) (eps : BitVec 32)
    (hb1 : (⟨1, ![n]⟩ : Shape).BroadcastsInDim ⟨2, ![1, n]⟩ ![1])
    (hbr : (⟨2, ![1, n]⟩ : Shape).BroadcastsInDim ⟨2, ![m, n]⟩ ![0, 1])
    (hbn : (⟨0, ![]⟩ : Shape).BroadcastsInDim ⟨1, ![n]⟩ ![]) (r : Fin m) (j : Fin n) :
    bnDrop x μ v g b eps hb1 hbr hbn (ix2 r j)
      = bnAt (x (ix2 r j)) (μ (ix1 j)) (v (ix1 j)) (g (ix1 j)) (b (ix1 j)) eps := by
  have e1 := broadcastInDim_rows_keep_apply hb1 hbr μ r j
  have e2 : broadcastInDim ⟨2, ![m, n]⟩ ![0, 1] hbr
        (broadcastInDim ⟨2, ![1, n]⟩ ![1] hb1
          (Host.rsqrt (addf v (broadcastInDim ⟨1, ![n]⟩ ![] hbn (constant (⟨0, ![]⟩ : Shape) .f32 eps))))) (ix2 r j)
      = FloatOps.hostUnary .rsqrt (FloatOps.addf (v (ix1 j)) (FloatOps.ofBits .f32 eps)) := by
    refine (broadcastInDim_rows_keep_apply hb1 hbr _ r j).trans ?_
    show FloatOps.hostUnary .rsqrt (FloatOps.addf (v (ix1 j))
      (broadcastInDim ⟨1, ![n]⟩ ![] hbn (constant (⟨0, ![]⟩ : Shape) .f32 eps) (ix1 j))) = _
    rw [broadcastInDim_scalar_apply]
    rfl
  have e3 := broadcastInDim_rows_keep_apply hb1 hbr g r j
  have e4 := broadcastInDim_rows_keep_apply hb1 hbr b r j
  show FloatOps.addf
      (FloatOps.mulf
        (FloatOps.mulf
          (FloatOps.subf (x (ix2 r j))
            (broadcastInDim ⟨2, ![m, n]⟩ ![0, 1] hbr (broadcastInDim ⟨2, ![1, n]⟩ ![1] hb1 μ) (ix2 r j)))
          (broadcastInDim ⟨2, ![m, n]⟩ ![0, 1] hbr
            (broadcastInDim ⟨2, ![1, n]⟩ ![1] hb1
              (Host.rsqrt (addf v (broadcastInDim ⟨1, ![n]⟩ ![] hbn (constant (⟨0, ![]⟩ : Shape) .f32 eps)))))
            (ix2 r j)))
        (broadcastInDim ⟨2, ![m, n]⟩ ![0, 1] hbr (broadcastInDim ⟨2, ![1, n]⟩ ![1] hb1 g) (ix2 r j)))
      (broadcastInDim ⟨2, ![m, n]⟩ ![0, 1] hbr (broadcastInDim ⟨2, ![1, n]⟩ ![1] hb1 b) (ix2 r j)) = _
  rw [e1, e2, e3, e4]
  rfl

end Cert.Bridge.LibBN
-- ==== Proof.Val.S5Pay.lean ====
/-
  The fused normalisation and feed-forward body read at one entry.

  The body takes a block of 5000 rows x of 128 entries, the four [1,128] rows μ, v, g, b, a 128×256 matrix W1 with a
  [1,256] row b1 and a 256×128 matrix W2 with a [1,128] row b2. Row p of the result is, with
  y l = ((x (p, l) - μ l) * rsqrt (v l + ε)) * g l + b l, at column q:
  y q + ((Σ k, max ((Σ l, y l * W1 (l, k)) + b1 k) 0 * W2 (k, q)) + b2 q). At the extended reals the changes of float
  format are the identity and each product into a zero matrix is the sum over the contracted axis. Regions 5 and 6
  have this one body.
-/
import proofs.«101045_j34351148433892_1_alg».proof.Proof.Gen.KernelIdeal.Skeleton
import proofs.«101045_j34351148433892_1_alg».proof.Proof.Val.LibDot
import proofs.«101045_j34351148433892_1_alg».proof.Proof.Val.LibBN

noncomputable section

namespace Cert.Bridge.S5

open Cert.KernelIdeal Cert.KernelIdeal.Gen Idealize.ShloMosaic Idealize.ShloMosaic.ValueIdx
open Cert.Bridge

/-- One row y through the feed-forward block with its residual, read at column q. -/
def ffnAt (y : Fin 128 → EReal) (W1 : Fin 128 → Fin 256 → EReal) (b1 : Fin 256 → EReal)
    (W2 : Fin 256 → Fin 128 → EReal) (b2 : Fin 128 → EReal) (q : Fin 128) : EReal :=
  y q + ((∑ k : Fin 256, max ((∑ l : Fin 128, y l * W1 l k) + b1 k) (Ideal.ofBits .f32 0x00000000#32) * W2 k q) + b2 q)

/-- The normalised block at (p, q). -/
theorem pay2_apply (x0 : Vec Ideal S5000x128 .f32) (x1 x2 x3 x4 : Vec Ideal S1x128 .f32) (p : Fin 5000) (q : Fin 128) :
    k5_pay2 x0 x1 x2 x3 x4 (ix2 p q)
      = LibBN.bnAt (F := Ideal) (x0 (ix2 p q)) (x1 (ix2 (0 : Fin 1) q)) (x2 (ix2 (0 : Fin 1) q)) (x3 (ix2 (0 : Fin 1) q))
          (x4 (ix2 (0 : Fin 1) q)) 0x3727C5AC#32 := by
  unfold k5_pay2
  simp only [shapeCast_self]
  have hb (y : Vec Ideal S1x128 .f32) :
      broadcastTo S5000x128 y broadcasts_S1x128_S5000x128 (ix2 p q) = y (ix2 (0 : Fin 1) q) :=
    LibDot.broadcastTo_oneRow_apply (m := 5000) (n := 128) broadcasts_S1x128_S5000x128 y p q
  simp only [addf_apply, mulf_apply, subf_apply, hb]
  rfl

/-- The two products at (p, q): the hidden row is the normalised row times W1 plus b1, cut below at zero. -/
theorem pay3_apply (x0 : Vec Ideal S5000x128 .f32) (x1 x2 x3 x4 : Vec Ideal S1x128 .f32) (x5 : Vec Ideal S128x256 .bf16)
    (x6 : Vec Ideal S1x256 .f32) (x7 : Vec Ideal S256x128 .bf16) (p : Fin 5000) (q : Fin 128) :
    k5_pay3 x0 x1 x2 x3 x4 x5 x6 x7 (ix2 p q)
      = ∑ k : Fin 256, max ((∑ l : Fin 128, k5_pay2 x0 x1 x2 x3 x4 (ix2 p l) * x5 (ix2 l k)) + x6 (ix2 (0 : Fin 1) k))
          (Ideal.ofBits .f32 0x00000000#32) * x7 (ix2 k q) := by
  unfold k5_pay3
  simp only [shapeCast_self]
  have hb (y : Vec Ideal S1x256 .f32) (k : Fin 256) :
      broadcastTo S5000x256 y broadcasts_S1x256_S5000x256 (ix2 p k) = y (ix2 (0 : Fin 1) k) :=
    LibDot.broadcastTo_oneRow_apply (m := 5000) (n := 256) broadcasts_S1x256_S5000x256 y p k
  refine (LibDot.matmul_plain_apply (M := 5000) (K := 256) (N := 128) (φ₁ := .bf16) (φ₂ := .bf16) none _ x7 p q).trans ?_
  refine Finset.sum_congr rfl fun k _ => ?_
  refine congrArg (· * x7 (ix2 k q)) ?_
  show max (matmul (DotDims.plain 5000 128 256) none (truncf FTy.bf16 (k5_pay2 x0 x1 x2 x3 x4) bitsLt_bf16_f32) x5
        (constant S5000x256 FTy.f32 0#32) (ix2 p k)
      + broadcastTo S5000x256 x6 broadcasts_S1x256_S5000x256 (ix2 p k)) (Ideal.ofBits FTy.f32 0#32) = _
  rw [hb, LibDot.matmul_plain_apply (M := 5000) (K := 128) (N := 256) (φ₁ := .bf16) (φ₂ := .bf16)]
  rfl

/-- The body's stored block at (p, q). -/
theorem out_apply (x0 : Vec Ideal S5000x128 .f32) (x1 x2 x3 x4 : Vec Ideal S1x128 .f32) (x5 : Vec Ideal S128x256 .bf16)
    (x6 : Vec Ideal S1x256 .f32) (x7 : Vec Ideal S256x128 .bf16) (x8 : Vec Ideal S1x128 .f32) (p : Fin 5000) (q : Fin 128) :
    k5_pay1 (k5_pay2 x0 x1 x2 x3 x4) (k5_pay3 x0 x1 x2 x3 x4 x5 x6 x7) (k5_pay4 x8) (ix2 p q)
      = ffnAt (fun l => LibBN.bnAt (F := Ideal) (x0 (ix2 p l)) (x1 (ix2 (0 : Fin 1) l)) (x2 (ix2 (0 : Fin 1) l))
            (x3 (ix2 (0 : Fin 1) l)) (x4 (ix2 (0 : Fin 1) l)) 0x3727C5AC#32)
          (fun l k => x5 (ix2 l k)) (fun k => x6 (ix2 (0 : Fin 1) k)) (fun k j => x7 (ix2 k j))
          (fun j => x8 (ix2 (0 : Fin 1) j)) q := by
  unfold k5_pay1 k5_pay4
  simp only [shapeCast_self]
  show k5_pay2 x0 x1 x2 x3 x4 (ix2 p q)
      + (k5_pay3 x0 x1 x2 x3 x4 x5 x6 x7 (ix2 p q) + broadcastTo S5000x128 x8 broadcasts_S1x128_S5000x128 (ix2 p q)) = _
  rw [LibDot.broadcastTo_oneRow_apply (m := 5000) (n := 128) broadcasts_S1x128_S5000x128 x8 p q, pay3_apply]
  simp only [pay2_apply]
  rfl

/-- Region 6's body is region 5's. -/
theorem k6_pay1_eq (v20 v34 : FVec Ideal S5000x128 .f32) (v36 : FVec Ideal S1x128 .f32) : k6_pay1 v20 v34 v36 = k5_pay1 v20 v34 v36 := rfl
theorem k6_pay2_eq (x0 : Vec Ideal S5000x128 .f32) (x1 x2 x3 x4 : Vec Ideal S1x128 .f32) : k6_pay2 x0 x1 x2 x3 x4 = k5_pay2 x0 x1 x2 x3 x4 := rfl
theorem k6_pay3_eq (x0 : Vec Ideal S5000x128 .f32) (x1 x2 x3 x4 : Vec Ideal S1x128 .f32) (x5 : Vec Ideal S128x256 .bf16)
    (x6 : Vec Ideal S1x256 .f32) (x7 : Vec Ideal S256x128 .bf16) : k6_pay3 x0 x1 x2 x3 x4 x5 x6 x7 = k5_pay3 x0 x1 x2 x3 x4 x5 x6 x7 := rfl
theorem k6_pay4_eq (x8 : Vec Ideal S1x128 .f32) : k6_pay4 x8 = k5_pay4 x8 := rfl

end Cert.Bridge.S5
-- ==== Proof.Val.S5Reg.lean ====
/-
  What regions 5 and 6 leave in their output arrays, entry by entry, for any contents V of the core's buffers on entry.

  A region's grid point t takes rows 5000 t … 5000 t + 4999 of the row array and the whole of each of the eight
  parameter arrays; the body's stored block at (p, q) depends on row p of its block only (S5Pay), so point t writes
  rows 5000 t … of one function `Gffn` of the arrays; every row lies in the block of point (row / 5000), so the
  output array after the last point is `Gffn` of the arrays.
-/
import proofs.«101045_j34351148433892_1_alg».proof.Proof.KI.Reg5
import proofs.«101045_j34351148433892_1_alg».proof.Proof.KI.Reg6
import proofs.«101045_j34351148433892_1_alg».proof.Proof.Val.S5Pay
import Idealize.ShloMosaic.Lib.Pipeline.Value

set_option maxRecDepth 16384

noncomputable section

namespace Cert.Bridge.S5

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.Bridge

/-- The normalisation and the feed-forward block with its residual applied to every row of an M×128 array. -/
def Gffn {M : Nat} (a : (⟨2, ![M, 128]⟩ : Shape).Idx → EReal) (μ v g b : (⟨2, ![1, 128]⟩ : Shape).Idx → EReal)
    (W1 : (⟨2, ![128, 256]⟩ : Shape).Idx → EReal) (b1 : (⟨2, ![1, 256]⟩ : Shape).Idx → EReal)
    (W2 : (⟨2, ![256, 128]⟩ : Shape).Idx → EReal) (b2 : (⟨2, ![1, 128]⟩ : Shape).Idx → EReal) :
    (⟨2, ![M, 128]⟩ : Shape).Idx → EReal := fun i =>
  ffnAt (fun l => LibBN.bnAt (F := Ideal) (a (ix2 (i 0 : Fin M) l)) (μ (ix2 (0 : Fin 1) l)) (v (ix2 (0 : Fin 1) l))
        (g (ix2 (0 : Fin 1) l)) (b (ix2 (0 : Fin 1) l)) 0x3727C5AC#32)
    (fun l k => W1 (ix2 l k)) (fun k => b1 (ix2 (0 : Fin 1) k)) (fun k j => W2 (ix2 k j))
    (fun j => b2 (ix2 (0 : Fin 1) j)) (i 1 : Fin 128)

theorem hz2 : (![0, 0] : Fin 2 → Nat) = fun _ => 0 := funext fun a => by fin_cases a <;> rfl

variable (V : (c : Dev nD) → (b : Ref sig .tc) → Buf (Elt Ideal) ((c : Thread nD τ).loc b))

/-! ## Region 5 -/

/-- The printed index maps over the grid: the row window and the output window sit at block t, every parameter
    window at block 0. -/
theorem idx_facts5 : ∀ t : Fin cfg5.N, win5_0.index t (0 : Fin 2) = t.val
    ∧ win5_0.index t (1 : Fin 2) = 0
    ∧ win5_9.index t (0 : Fin 2) = t.val
    ∧ win5_9.index t (1 : Fin 2) = 0
    ∧ win5_1.index t (0 : Fin 2) = 0
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (0 : Fin 2) = 0
    ∧ win5_5.index t (1 : Fin 2) = 0
    ∧ win5_6.index t (0 : Fin 2) = 0
    ∧ win5_6.index t (1 : Fin 2) = 0
    ∧ win5_7.index t (0 : Fin 2) = 0
    ∧ win5_7.index t (1 : Fin 2) = 0
    ∧ win5_8.index t (0 : Fin 2) = 0
    ∧ win5_8.index t (1 : Fin 2) = 0 :=
  (by decide +kernel : ∀ t : Fin grid5.N, _)

/-- Row p of point t's block is row 5000 t + p of the array. -/
def rowOf5 (t : Fin cfg5.N) (p : Fin 5000) : Fin 50000 :=
  ⟨t.val * 5000 + p.val, by have h1 : t.val < 10 := t.isLt; have h2 := p.isLt; omega⟩

/-- The row window's block at point t is rows 5000 t … of its array. -/
theorem blk5_0 (c : Dev nD) (t : Fin cfg5.N) :
    (iblk5 V c 0 t : Vec Ideal S5000x128 .f32)
      = fun y => (V c main_v54 : Vec Ideal S50000x128 .f32) (ix2 (rowOf5 t (y 0 : Fin 5000)) (y 1 : Fin 128)) := by
  obtain ⟨e0, e1, e2, e3, e4, e5, e6, e7, e8, e9, e10, e11, e12, e13, e14, e15, e16, e17, e18, e19⟩ := idx_facts5 t
  funext y
  show (V c main_v54 : Vec Ideal S50000x128 .f32) (((cfg5.win 0).blk t).view.emb y) = _
  refine congrArg (V c main_v54 : Vec Ideal S50000x128 .f32) ?_
  funext a; apply Fin.ext
  match a with
  | ⟨0, _⟩ => show win5_0.index t (0 : Fin 2) * 5000 + 1 * (y 0).val = t.val * 5000 + (y 0).val; omega
  | ⟨1, _⟩ => show win5_0.index t (1 : Fin 2) * 128 + 1 * (y 1).val = (y 1).val; omega

/-- Parameter window 1's block at any point is its whole array. -/
theorem blk5_1 (c : Dev nD) (t : Fin cfg5.N) :
    (iblk5 V c 1 t : Vec Ideal S1x128 .f32) = (V c main_v59 : Vec Ideal S1x128 .f32) := by
  obtain ⟨e0, e1, e2, e3, e4, e5, e6, e7, e8, e9, e10, e11, e12, e13, e14, e15, e16, e17, e18, e19⟩ := idx_facts5 t
  funext y
  show (V c main_v59 : Vec Ideal S1x128 .f32) (((cfg5.win 1).blk t).view.emb y) = _
  refine congrArg (V c main_v59 : Vec Ideal S1x128 .f32) ?_
  funext a; apply Fin.ext
  match a with
  | ⟨0, _⟩ => show win5_1.index t (0 : Fin 2) * 1 + 1 * (y 0).val = (y 0).val; omega
  | ⟨1, _⟩ => show win5_1.index t (1 : Fin 2) * 128 + 1 * (y 1).val = (y 1).val; omega

/-- Parameter window 2's block at any point is its whole array. -/
theorem blk5_2 (c : Dev nD) (t : Fin cfg5.N) :
    (iblk5 V c 2 t : Vec Ideal S1x128 .f32) = (V c main_v60 : Vec Ideal S1x128 .f32) := by
  obtain ⟨e0, e1, e2, e3, e4, e5, e6, e7, e8, e9, e10, e11, e12, e13, e14, e15, e16, e17, e18, e19⟩ := idx_facts5 t
  funext y
  show (V c main_v60 : Vec Ideal S1x128 .f32) (((cfg5.win 2).blk t).view.emb y) = _
  refine congrArg (V c main_v60 : Vec Ideal S1x128 .f32) ?_
  funext a; apply Fin.ext
  match a with
  | ⟨0, _⟩ => show win5_2.index t (0 : Fin 2) * 1 + 1 * (y 0).val = (y 0).val; omega
  | ⟨1, _⟩ => show win5_2.index t (1 : Fin 2) * 128 + 1 * (y 1).val = (y 1).val; omega

/-- Parameter window 3's block at any point is its whole array. -/
theorem blk5_3 (c : Dev nD) (t : Fin cfg5.N) :
    (iblk5 V c 3 t : Vec Ideal S1x128 .f32) = (V c main_v66 : Vec Ideal S1x128 .f32) := by
  obtain ⟨e0, e1, e2, e3, e4, e5, e6, e7, e8, e9, e10, e11, e12, e13, e14, e15, e16, e17, e18, e19⟩ := idx_facts5 t
  funext y
  show (V c main_v66 : Vec Ideal S1x128 .f32) (((cfg5.win 3).blk t).view.emb y) = _
  refine congrArg (V c main_v66 : Vec Ideal S1x128 .f32) ?_
  funext a; apply Fin.ext
  match a with
  | ⟨0, _⟩ => show win5_3.index t (0 : Fin 2) * 1 + 1 * (y 0).val = (y 0).val; omega
  | ⟨1, _⟩ => show win5_3.index t (1 : Fin 2) * 128 + 1 * (y 1).val = (y 1).val; omega

/-- Parameter window 4's block at any point is its whole array. -/
theorem blk5_4 (c : Dev nD) (t : Fin cfg5.N) :
    (iblk5 V c 4 t : Vec Ideal S1x128 .f32) = (V c main_v67 : Vec Ideal S1x128 .f32) := by
  obtain ⟨e0, e1, e2, e3, e4, e5, e6, e7, e8, e9, e10, e11, e12, e13, e14, e15, e16, e17, e18, e19⟩ := idx_facts5 t
  funext y
  show (V c main_v67 : Vec Ideal S1x128 .f32) (((cfg5.win 4).blk t).view.emb y) = _
  refine congrArg (V c main_v67 : Vec Ideal S1x128 .f32) ?_
  funext a; apply Fin.ext
  match a with
  | ⟨0, _⟩ => show win5_4.index t (0 : Fin 2) * 1 + 1 * (y 0).val = (y 0).val; omega
  | ⟨1, _⟩ => show win5_4.index t (1 : Fin 2) * 128 + 1 * (y 1).val = (y 1).val; omega

/-- Parameter window 5's block at any point is its whole array. -/
theorem blk5_5 (c : Dev nD) (t : Fin cfg5.N) :
    (iblk5 V c 5 t : Vec Ideal S128x256 .bf16) = (V c main_v5 : Vec Ideal S128x256 .bf16) := by
  obtain ⟨e0, e1, e2, e3, e4, e5, e6, e7, e8, e9, e10, e11, e12, e13, e14, e15, e16, e17, e18, e19⟩ := idx_facts5 t
  funext y
  show (V c main_v5 : Vec Ideal S128x256 .bf16) (((cfg5.win 5).blk t).view.emb y) = _
  refine congrArg (V c main_v5 : Vec Ideal S128x256 .bf16) ?_
  funext a; apply Fin.ext
  match a with
  | ⟨0, _⟩ => show win5_5.index t (0 : Fin 2) * 128 + 1 * (y 0).val = (y 0).val; omega
  | ⟨1, _⟩ => show win5_5.index t (1 : Fin 2) * 256 + 1 * (y 1).val = (y 1).val; omega

/-- Parameter window 6's block at any point is its whole array. -/
theorem blk5_6 (c : Dev nD) (t : Fin cfg5.N) :
    (iblk5 V c 6 t : Vec Ideal S1x256 .f32) = (V c main_v11 : Vec Ideal S1x256 .f32) := by
  obtain ⟨e0, e1, e2, e3, e4, e5, e6, e7, e8, e9, e10, e11, e12, e13, e14, e15, e16, e17, e18, e19⟩ := idx_facts5 t
  funext y
  show (V c main_v11 : Vec Ideal S1x256 .f32) (((cfg5.win 6).blk t).view.emb y) = _
  refine congrArg (V c main_v11 : Vec Ideal S1x256 .f32) ?_
  funext a; apply Fin.ext
  match a with
  | ⟨0, _⟩ => show win5_6.index t (0 : Fin 2) * 1 + 1 * (y 0).val = (y 0).val; omega
  | ⟨1, _⟩ => show win5_6.index t (1 : Fin 2) * 256 + 1 * (y 1).val = (y 1).val; omega

/-- Parameter window 7's block at any point is its whole array. -/
theorem blk5_7 (c : Dev nD) (t : Fin cfg5.N) :
    (iblk5 V c 7 t : Vec Ideal S256x128 .bf16) = (V c main_v6 : Vec Ideal S256x128 .bf16) := by
  obtain ⟨e0, e1, e2, e3, e4, e5, e6, e7, e8, e9, e10, e11, e12, e13, e14, e15, e16, e17, e18, e19⟩ := idx_facts5 t
  funext y
  show (V c main_v6 : Vec Ideal S256x128 .bf16) (((cfg5.win 7).blk t).view.emb y) = _
  refine congrArg (V c main_v6 : Vec Ideal S256x128 .bf16) ?_
  funext a; apply Fin.ext
  match a with
  | ⟨0, _⟩ => show win5_7.index t (0 : Fin 2) * 256 + 1 * (y 0).val = (y 0).val; omega
  | ⟨1, _⟩ => show win5_7.index t (1 : Fin 2) * 128 + 1 * (y 1).val = (y 1).val; omega

/-- Parameter window 8's block at any point is its whole array. -/
theorem blk5_8 (c : Dev nD) (t : Fin cfg5.N) :
    (iblk5 V c 8 t : Vec Ideal S1x128 .f32) = (V c main_v12 : Vec Ideal S1x128 .f32) := by
  obtain ⟨e0, e1, e2, e3, e4, e5, e6, e7, e8, e9, e10, e11, e12, e13, e14, e15, e16, e17, e18, e19⟩ := idx_facts5 t
  funext y
  show (V c main_v12 : Vec Ideal S1x128 .f32) (((cfg5.win 8).blk t).view.emb y) = _
  refine congrArg (V c main_v12 : Vec Ideal S1x128 .f32) ?_
  funext a; apply Fin.ext
  match a with
  | ⟨0, _⟩ => show win5_8.index t (0 : Fin 2) * 1 + 1 * (y 0).val = (y 0).val; omega
  | ⟨1, _⟩ => show win5_8.index t (1 : Fin 2) * 128 + 1 * (y 1).val = (y 1).val; omega

/-- Entry (p, q) of the output window's block at point t is entry (5000 t + p, q) of the array. -/
theorem emb5_9 (t : Fin cfg5.N) (p : Fin 5000) (q : Fin 128) :
    ((cfg5.win 9).blk t).view.emb (ix2 p q) = (ix2 (rowOf5 t p) q : S50000x128.Idx) := by
  obtain ⟨e0, e1, e2, e3, e4, e5, e6, e7, e8, e9, e10, e11, e12, e13, e14, e15, e16, e17, e18, e19⟩ := idx_facts5 t
  funext a; apply Fin.ext
  match a with
  | ⟨0, _⟩ => show win5_9.index t (0 : Fin 2) * 5000 + 1 * p.val = t.val * 5000 + p.val; omega
  | ⟨1, _⟩ => show win5_9.index t (1 : Fin 2) * 128 + 1 * q.val = q.val; omega

/-- What point t writes back is block t of `Gffn` of the arrays as the region finds them. -/
theorem flushed5_eq (c : Dev nD) (t : Fin cfg5.N) :
    (dat5 V c).flushed 9 t = ((cfg5.win 9).blk t).view.read (Elt Ideal) (Gffn (M := 50000) (V c main_v54) (V c main_v59) (V c main_v60) (V c main_v66) (V c main_v67) (V c main_v5) (V c main_v11) (V c main_v6) (V c main_v12)) := by
  show (cfg5.win 9).cut (grid5.coords t) ((dat5 V c).after 9 t) = _
  rw [after5_9]
  unfold out5_9
  rw [View.canon_unit_zero hz2]
  simp only [View.ld_unit_zero (S := S5000x128) hz2, View.ld_unit_zero (S := S1x128) hz2,
    View.ld_unit_zero (S := S128x256) hz2, View.ld_unit_zero (S := S1x256) hz2, View.ld_unit_zero (S := S256x128) hz2]
  rw [blk5_0 V c t, blk5_1 V c t, blk5_2 V c t, blk5_3 V c t, blk5_4 V c t, blk5_5 V c t, blk5_6 V c t,
    blk5_7 V c t, blk5_8 V c t]
  funext j
  obtain ⟨p, q, rfl⟩ : ∃ (p : Fin 5000) (q : Fin 128), j = ix2 p q := ⟨j 0, j 1, eq_ix2 j⟩
  show _ = (Gffn (M := 50000) (V c main_v54) (V c main_v59) (V c main_v60) (V c main_v66) (V c main_v67) (V c main_v5) (V c main_v11) (V c main_v6) (V c main_v12)) (((cfg5.win 9).blk t).view.emb (ix2 p q))
  rw [emb5_9 t p q]
  exact out_apply _ _ _ _ _ _ _ _ _ p q

/-- An index of the array is in point t's block iff each coordinate is in the block's range on its axis. -/
theorem mem_blk5_9 (t : Fin cfg5.N) (i : S50000x128.Idx) :
    i ∈ ((cfg5.win 9).blk t).view.set ↔ ∀ a : Fin 2, win5_9.index t a * S5000x128.size a ≤ (i a).val ∧ (i a).val < win5_9.index t a * S5000x128.size a + S5000x128.size a := by
  show i ∈ ((View.whole main_v70).slice (win5_9.rect t)).set ↔ _
  rw [View.set_slice_whole, Rect.mem_set_unit]
  exact Iff.rfl

/-- Every index of the output array is in the block of point (row / 5000). -/
theorem cover5 (i : S50000x128.Idx) : ∃ t : Fin cfg5.N, (cfg5.win 9).flush t = true ∧ i ∈ ((cfg5.win 9).blk t).view.set := by
  have hi0 : (i 0).val < 50000 := (i 0).isLt
  have hi1 : (i 1).val < 128 := (i 1).isLt
  let t : Fin cfg5.N := ⟨(i 0).val / 5000, by show (i 0).val / 5000 < 10; omega⟩
  have ht : t.val = (i 0).val / 5000 := rfl
  obtain ⟨e0, e1, e2, e3, e4, e5, e6, e7, e8, e9, e10, e11, e12, e13, e14, e15, e16, e17, e18, e19⟩ := idx_facts5 t
  refine ⟨t, flush5_9 t, ?_⟩
  rw [mem_blk5_9]
  intro a
  match a with
  | ⟨0, _⟩ => show win5_9.index t (0 : Fin 2) * 5000 ≤ (i 0).val ∧ (i 0).val < win5_9.index t (0 : Fin 2) * 5000 + 5000; omega
  | ⟨1, _⟩ => show win5_9.index t (1 : Fin 2) * 128 ≤ (i 1).val ∧ (i 1).val < win5_9.index t (1 : Fin 2) * 128 + 128; omega

/-- THE REGION'S VALUE: the output array after the last point, entry by entry. -/
theorem val5_9 (c : Dev nD) :
    (dat5 V c).arrAt 9 cfg5.N = (Gffn (M := 50000) (V c main_v54) (V c main_v59) (V c main_v60) (V c main_v66) (V c main_v67) (V c main_v5) (V c main_v11) (V c main_v6) (V c main_v12)) :=
  (dat5 V c).arrAt_eq_of_cover 9 (Gffn (M := 50000) (V c main_v54) (V c main_v59) (V c main_v60) (V c main_v66) (V c main_v67) (V c main_v5) (V c main_v11) (V c main_v6) (V c main_v12)) (fun t _ => flushed5_eq V c t) cover5

/-! ## Region 6 -/

/-- The printed index maps over the grid: the row window and the output window sit at block t, every parameter
    window at block 0. -/
theorem idx_facts6 : ∀ t : Fin cfg6.N, win6_0.index t (0 : Fin 2) = t.val
    ∧ win6_0.index t (1 : Fin 2) = 0
    ∧ win6_9.index t (0 : Fin 2) = t.val
    ∧ win6_9.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (0 : Fin 2) = 0
    ∧ win6_3.index t (1 : Fin 2) = 0
    ∧ win6_4.index t (0 : Fin 2) = 0
    ∧ win6_4.index t (1 : Fin 2) = 0
    ∧ win6_5.index t (0 : Fin 2) = 0
    ∧ win6_5.index t (1 : Fin 2) = 0
    ∧ win6_6.index t (0 : Fin 2) = 0
    ∧ win6_6.index t (1 : Fin 2) = 0
    ∧ win6_7.index t (0 : Fin 2) = 0
    ∧ win6_7.index t (1 : Fin 2) = 0
    ∧ win6_8.index t (0 : Fin 2) = 0
    ∧ win6_8.index t (1 : Fin 2) = 0 :=
  (by decide +kernel : ∀ t : Fin grid6.N, _)

/-- Row p of point t's block is row 5000 t + p of the array. -/
def rowOf6 (t : Fin cfg6.N) (p : Fin 5000) : Fin 500000 :=
  ⟨t.val * 5000 + p.val, by have h1 : t.val < 100 := t.isLt; have h2 := p.isLt; omega⟩

/-- The row window's block at point t is rows 5000 t … of its array. -/
theorem blk6_0 (c : Dev nD) (t : Fin cfg6.N) :
    (iblk6 V c 0 t : Vec Ideal S5000x128 .f32)
      = fun y => (V c main_v55 : Vec Ideal S500000x128 .f32) (ix2 (rowOf6 t (y 0 : Fin 5000)) (y 1 : Fin 128)) := by
  obtain ⟨e0, e1, e2, e3, e4, e5, e6, e7, e8, e9, e10, e11, e12, e13, e14, e15, e16, e17, e18, e19⟩ := idx_facts6 t
  funext y
  show (V c main_v55 : Vec Ideal S500000x128 .f32) (((cfg6.win 0).blk t).view.emb y) = _
  refine congrArg (V c main_v55 : Vec Ideal S500000x128 .f32) ?_
  funext a; apply Fin.ext
  match a with
  | ⟨0, _⟩ => show win6_0.index t (0 : Fin 2) * 5000 + 1 * (y 0).val = t.val * 5000 + (y 0).val; omega
  | ⟨1, _⟩ => show win6_0.index t (1 : Fin 2) * 128 + 1 * (y 1).val = (y 1).val; omega

/-- Parameter window 1's block at any point is its whole array. -/
theorem blk6_1 (c : Dev nD) (t : Fin cfg6.N) :
    (iblk6 V c 1 t : Vec Ideal S1x128 .f32) = (V c main_v64 : Vec Ideal S1x128 .f32) := by
  obtain ⟨e0, e1, e2, e3, e4, e5, e6, e7, e8, e9, e10, e11, e12, e13, e14, e15, e16, e17, e18, e19⟩ := idx_facts6 t
  funext y
  show (V c main_v64 : Vec Ideal S1x128 .f32) (((cfg6.win 1).blk t).view.emb y) = _
  refine congrArg (V c main_v64 : Vec Ideal S1x128 .f32) ?_
  funext a; apply Fin.ext
  match a with
  | ⟨0, _⟩ => show win6_1.index t (0 : Fin 2) * 1 + 1 * (y 0).val = (y 0).val; omega
  | ⟨1, _⟩ => show win6_1.index t (1 : Fin 2) * 128 + 1 * (y 1).val = (y 1).val; omega

/-- Parameter window 2's block at any point is its whole array. -/
theorem blk6_2 (c : Dev nD) (t : Fin cfg6.N) :
    (iblk6 V c 2 t : Vec Ideal S1x128 .f32) = (V c main_v65 : Vec Ideal S1x128 .f32) := by
  obtain ⟨e0, e1, e2, e3, e4, e5, e6, e7, e8, e9, e10, e11, e12, e13, e14, e15, e16, e17, e18, e19⟩ := idx_facts6 t
  funext y
  show (V c main_v65 : Vec Ideal S1x128 .f32) (((cfg6.win 2).blk t).view.emb y) = _
  refine congrArg (V c main_v65 : Vec Ideal S1x128 .f32) ?_
  funext a; apply Fin.ext
  match a with
  | ⟨0, _⟩ => show win6_2.index t (0 : Fin 2) * 1 + 1 * (y 0).val = (y 0).val; omega
  | ⟨1, _⟩ => show win6_2.index t (1 : Fin 2) * 128 + 1 * (y 1).val = (y 1).val; omega

/-- Parameter window 3's block at any point is its whole array. -/
theorem blk6_3 (c : Dev nD) (t : Fin cfg6.N) :
    (iblk6 V c 3 t : Vec Ideal S1x128 .f32) = (V c main_v68 : Vec Ideal S1x128 .f32) := by
  obtain ⟨e0, e1, e2, e3, e4, e5, e6, e7, e8, e9, e10, e11, e12, e13, e14, e15, e16, e17, e18, e19⟩ := idx_facts6 t
  funext y
  show (V c main_v68 : Vec Ideal S1x128 .f32) (((cfg6.win 3).blk t).view.emb y) = _
  refine congrArg (V c main_v68 : Vec Ideal S1x128 .f32) ?_
  funext a; apply Fin.ext
  match a with
  | ⟨0, _⟩ => show win6_3.index t (0 : Fin 2) * 1 + 1 * (y 0).val = (y 0).val; omega
  | ⟨1, _⟩ => show win6_3.index t (1 : Fin 2) * 128 + 1 * (y 1).val = (y 1).val; omega

/-- Parameter window 4's block at any point is its whole array. -/
theorem blk6_4 (c : Dev nD) (t : Fin cfg6.N) :
    (iblk6 V c 4 t : Vec Ideal S1x128 .f32) = (V c main_v69 : Vec Ideal S1x128 .f32) := by
  obtain ⟨e0, e1, e2, e3, e4, e5, e6, e7, e8, e9, e10, e11, e12, e13, e14, e15, e16, e17, e18, e19⟩ := idx_facts6 t
  funext y
  show (V c main_v69 : Vec Ideal S1x128 .f32) (((cfg6.win 4).blk t).view.emb y) = _
  refine congrArg (V c main_v69 : Vec Ideal S1x128 .f32) ?_
  funext a; apply Fin.ext
  match a with
  | ⟨0, _⟩ => show win6_4.index t (0 : Fin 2) * 1 + 1 * (y 0).val = (y 0).val; omega
  | ⟨1, _⟩ => show win6_4.index t (1 : Fin 2) * 128 + 1 * (y 1).val = (y 1).val; omega

/-- Parameter window 5's block at any point is its whole array. -/
theorem blk6_5 (c : Dev nD) (t : Fin cfg6.N) :
    (iblk6 V c 5 t : Vec Ideal S128x256 .bf16) = (V c main_v7 : Vec Ideal S128x256 .bf16) := by
  obtain ⟨e0, e1, e2, e3, e4, e5, e6, e7, e8, e9, e10, e11, e12, e13, e14, e15, e16, e17, e18, e19⟩ := idx_facts6 t
  funext y
  show (V c main_v7 : Vec Ideal S128x256 .bf16) (((cfg6.win 5).blk t).view.emb y) = _
  refine congrArg (V c main_v7 : Vec Ideal S128x256 .bf16) ?_
  funext a; apply Fin.ext
  match a with
  | ⟨0, _⟩ => show win6_5.index t (0 : Fin 2) * 128 + 1 * (y 0).val = (y 0).val; omega
  | ⟨1, _⟩ => show win6_5.index t (1 : Fin 2) * 256 + 1 * (y 1).val = (y 1).val; omega

/-- Parameter window 6's block at any point is its whole array. -/
theorem blk6_6 (c : Dev nD) (t : Fin cfg6.N) :
    (iblk6 V c 6 t : Vec Ideal S1x256 .f32) = (V c main_v13 : Vec Ideal S1x256 .f32) := by
  obtain ⟨e0, e1, e2, e3, e4, e5, e6, e7, e8, e9, e10, e11, e12, e13, e14, e15, e16, e17, e18, e19⟩ := idx_facts6 t
  funext y
  show (V c main_v13 : Vec Ideal S1x256 .f32) (((cfg6.win 6).blk t).view.emb y) = _
  refine congrArg (V c main_v13 : Vec Ideal S1x256 .f32) ?_
  funext a; apply Fin.ext
  match a with
  | ⟨0, _⟩ => show win6_6.index t (0 : Fin 2) * 1 + 1 * (y 0).val = (y 0).val; omega
  | ⟨1, _⟩ => show win6_6.index t (1 : Fin 2) * 256 + 1 * (y 1).val = (y 1).val; omega

/-- Parameter window 7's block at any point is its whole array. -/
theorem blk6_7 (c : Dev nD) (t : Fin cfg6.N) :
    (iblk6 V c 7 t : Vec Ideal S256x128 .bf16) = (V c main_v8 : Vec Ideal S256x128 .bf16) := by
  obtain ⟨e0, e1, e2, e3, e4, e5, e6, e7, e8, e9, e10, e11, e12, e13, e14, e15, e16, e17, e18, e19⟩ := idx_facts6 t
  funext y
  show (V c main_v8 : Vec Ideal S256x128 .bf16) (((cfg6.win 7).blk t).view.emb y) = _
  refine congrArg (V c main_v8 : Vec Ideal S256x128 .bf16) ?_
  funext a; apply Fin.ext
  match a with
  | ⟨0, _⟩ => show win6_7.index t (0 : Fin 2) * 256 + 1 * (y 0).val = (y 0).val; omega
  | ⟨1, _⟩ => show win6_7.index t (1 : Fin 2) * 128 + 1 * (y 1).val = (y 1).val; omega

/-- Parameter window 8's block at any point is its whole array. -/
theorem blk6_8 (c : Dev nD) (t : Fin cfg6.N) :
    (iblk6 V c 8 t : Vec Ideal S1x128 .f32) = (V c main_v14 : Vec Ideal S1x128 .f32) := by
  obtain ⟨e0, e1, e2, e3, e4, e5, e6, e7, e8, e9, e10, e11, e12, e13, e14, e15, e16, e17, e18, e19⟩ := idx_facts6 t
  funext y
  show (V c main_v14 : Vec Ideal S1x128 .f32) (((cfg6.win 8).blk t).view.emb y) = _
  refine congrArg (V c main_v14 : Vec Ideal S1x128 .f32) ?_
  funext a; apply Fin.ext
  match a with
  | ⟨0, _⟩ => show win6_8.index t (0 : Fin 2) * 1 + 1 * (y 0).val = (y 0).val; omega
  | ⟨1, _⟩ => show win6_8.index t (1 : Fin 2) * 128 + 1 * (y 1).val = (y 1).val; omega

/-- Entry (p, q) of the output window's block at point t is entry (5000 t + p, q) of the array. -/
theorem emb6_9 (t : Fin cfg6.N) (p : Fin 5000) (q : Fin 128) :
    ((cfg6.win 9).blk t).view.emb (ix2 p q) = (ix2 (rowOf6 t p) q : S500000x128.Idx) := by
  obtain ⟨e0, e1, e2, e3, e4, e5, e6, e7, e8, e9, e10, e11, e12, e13, e14, e15, e16, e17, e18, e19⟩ := idx_facts6 t
  funext a; apply Fin.ext
  match a with
  | ⟨0, _⟩ => show win6_9.index t (0 : Fin 2) * 5000 + 1 * p.val = t.val * 5000 + p.val; omega
  | ⟨1, _⟩ => show win6_9.index t (1 : Fin 2) * 128 + 1 * q.val = q.val; omega

/-- What point t writes back is block t of `Gffn` of the arrays as the region finds them. -/
theorem flushed6_eq (c : Dev nD) (t : Fin cfg6.N) :
    (dat6 V c).flushed 9 t = ((cfg6.win 9).blk t).view.read (Elt Ideal) (Gffn (M := 500000) (V c main_v55) (V c main_v64) (V c main_v65) (V c main_v68) (V c main_v69) (V c main_v7) (V c main_v13) (V c main_v8) (V c main_v14)) := by
  show (cfg6.win 9).cut (grid6.coords t) ((dat6 V c).after 9 t) = _
  rw [after6_9]
  unfold out6_9
  rw [View.canon_unit_zero hz2]
  simp only [View.ld_unit_zero (S := S5000x128) hz2, View.ld_unit_zero (S := S1x128) hz2,
    View.ld_unit_zero (S := S128x256) hz2, View.ld_unit_zero (S := S1x256) hz2, View.ld_unit_zero (S := S256x128) hz2]
  rw [blk6_0 V c t, blk6_1 V c t, blk6_2 V c t, blk6_3 V c t, blk6_4 V c t, blk6_5 V c t, blk6_6 V c t,
    blk6_7 V c t, blk6_8 V c t]
  funext j
  obtain ⟨p, q, rfl⟩ : ∃ (p : Fin 5000) (q : Fin 128), j = ix2 p q := ⟨j 0, j 1, eq_ix2 j⟩
  show _ = (Gffn (M := 500000) (V c main_v55) (V c main_v64) (V c main_v65) (V c main_v68) (V c main_v69) (V c main_v7) (V c main_v13) (V c main_v8) (V c main_v14)) (((cfg6.win 9).blk t).view.emb (ix2 p q))
  rw [emb6_9 t p q]
  rw [k6_pay1_eq, k6_pay2_eq, k6_pay3_eq, k6_pay4_eq]
  exact out_apply _ _ _ _ _ _ _ _ _ p q

/-- An index of the array is in point t's block iff each coordinate is in the block's range on its axis. -/
theorem mem_blk6_9 (t : Fin cfg6.N) (i : S500000x128.Idx) :
    i ∈ ((cfg6.win 9).blk t).view.set ↔ ∀ a : Fin 2, win6_9.index t a * S5000x128.size a ≤ (i a).val ∧ (i a).val < win6_9.index t a * S5000x128.size a + S5000x128.size a := by
  show i ∈ ((View.whole main_v71).slice (win6_9.rect t)).set ↔ _
  rw [View.set_slice_whole, Rect.mem_set_unit]
  exact Iff.rfl

/-- Every index of the output array is in the block of point (row / 5000). -/
theorem cover6 (i : S500000x128.Idx) : ∃ t : Fin cfg6.N, (cfg6.win 9).flush t = true ∧ i ∈ ((cfg6.win 9).blk t).view.set := by
  have hi0 : (i 0).val < 500000 := (i 0).isLt
  have hi1 : (i 1).val < 128 := (i 1).isLt
  let t : Fin cfg6.N := ⟨(i 0).val / 5000, by show (i 0).val / 5000 < 100; omega⟩
  have ht : t.val = (i 0).val / 5000 := rfl
  obtain ⟨e0, e1, e2, e3, e4, e5, e6, e7, e8, e9, e10, e11, e12, e13, e14, e15, e16, e17, e18, e19⟩ := idx_facts6 t
  refine ⟨t, flush6_9 t, ?_⟩
  rw [mem_blk6_9]
  intro a
  match a with
  | ⟨0, _⟩ => show win6_9.index t (0 : Fin 2) * 5000 ≤ (i 0).val ∧ (i 0).val < win6_9.index t (0 : Fin 2) * 5000 + 5000; omega
  | ⟨1, _⟩ => show win6_9.index t (1 : Fin 2) * 128 ≤ (i 1).val ∧ (i 1).val < win6_9.index t (1 : Fin 2) * 128 + 128; omega

/-- THE REGION'S VALUE: the output array after the last point, entry by entry. -/
theorem val6_9 (c : Dev nD) :
    (dat6 V c).arrAt 9 cfg6.N = (Gffn (M := 500000) (V c main_v55) (V c main_v64) (V c main_v65) (V c main_v68) (V c main_v69) (V c main_v7) (V c main_v13) (V c main_v8) (V c main_v14)) :=
  (dat6 V c).arrAt_eq_of_cover 9 (Gffn (M := 500000) (V c main_v55) (V c main_v64) (V c main_v65) (V c main_v68) (V c main_v69) (V c main_v7) (V c main_v13) (V c main_v8) (V c main_v14)) (fun t _ => flushed6_eq V c t) cover6

end Cert.Bridge.S5
-- ==== Proof.Val.S5K.lean ====
/-
  The kernel program's buffers on entry to regions 5 and 6, read back to the arrays that stage 4 left and to the
  arguments.

  Before region 5 the host computes, of the node array A that region 3 left: the column means kept as a [1,128] row
  (the column sums divided by 50000) and the column variances kept as a [1,128] row (the sums of the squared
  deviations divided by 50000 - 0, where that count is positive); the same of the edge array with 500000; and the
  scale and shift vectors laid as [1,128] rows. The feed-forward weights were converted and laid out at launch. Each
  is read here at an entry: a kept row at (0, l) is the column's mean or variance or the vector's entry l, a converted
  matrix at (l, k) is the argument's entry.
-/
import proofs.«101045_j34351148433892_1_alg».proof.Proof.Gen.KernelIdeal.Regions
import proofs.«101045_j34351148433892_1_alg».proof.Proof.Val.LibBN

set_option maxRecDepth 8192
set_option Elab.async false

noncomputable section

namespace Cert.Bridge.S5K

open Cert.KernelIdeal Cert.KernelIdeal.Gen
open Idealize.ShloMosaic Idealize.ShloMosaic.TcCoe Idealize.ShloMosaic.ValueIdx Idealize.ShloMosaic.StableHlo Idealize.SL.Sem
open Cert.Bridge

/-- A vector laid as the one row of a [1, n] matrix by a reshape, read at (0, l), is the vector at l. -/
theorem shapeCast_keep_apply {α : Type} {n : Nat} (h : (⟨1, ![n]⟩ : Shape).ShapeCasts ⟨2, ![1, n]⟩)
    (x : (⟨1, ![n]⟩ : Shape).Idx → α) (l : Fin n) :
    shapeCast ⟨2, ![1, n]⟩ x h (ix2 (0 : Fin 1) l) = x (ix1 l) :=
  shapeCast_apply x h (ix2 (0 : Fin 1) l) (ix1 l) (by
    rw [Shape.rowMajor_val_two, Shape.rowMajor_val_one]; show l.val = 0 * n + l.val; omega)

/-- Reading back through a typed reference what was written through it gives the value. -/
theorem ofBuf_toBuf {T : BufTy} (x : StableHlo.TRef sig T) (v : T.Contents (Elt Ideal)) : x.ofBuf (x.toBuf v) = v := by
  obtain ⟨r, h, h2, h3⟩ := x; subst h; rfl

/-! ## Each host stretch over any contents W of the buffers before it -/

section Stretch
variable (W : Valuation τ sig (Elt Ideal))

theorem hostOps5_main_v59 :
    (StableHlo.after hostOps5 W (Proc.devRef .tc main_v59) : FVec Ideal ⟨2, ![1, 128]⟩ .f32)
      = LibBN.meanKeep (F := Ideal) (W main_v54) 0x47435000#32 reducesTo_S50000x128_S128_d0 bcast_S128_S1x128_1 bcast_S_S1x128 := by
  after_results_simp
  rfl

theorem hostOps5_main_c_11 : (StableHlo.after hostOps5 W (Proc.devRef .tc main_c_11) : IVec ⟨0, ![]⟩ 32) = constantI S_ 32 0#32 := by
  after_results_simp

set_option maxHeartbeats 1000000 in
theorem hostOps5_1_main_v60 :
    (StableHlo.after hostOps5_1 W (Proc.devRef .tc main_v60) : FVec Ideal ⟨2, ![1, 128]⟩ .f32)
      = LibBN.varKeep (F := Ideal) (W main_v54) 0x47435000#32 (W main_c_11) reducesTo_S50000x128_S128_d0 bcast_S128_S1x128_1 bcast_S_S1x128
          bcast_S1x128_S50000x128_0_1 := by
  have ex : ∀ V : (main_v54 : Ref sig .tc).ty.Contents (Elt Ideal),
      (StableHlo.TRef.of main_v54 : StableHlo.TRef sig ⟨S50000x128, .f32⟩).ofBuf (Val := Elt Ideal) V = V := fun _ => rfl
  have ec : ∀ V : (main_c_11 : Ref sig .tc).ty.Contents (Elt Ideal),
      (StableHlo.TRef.of main_c_11 : StableHlo.TRef sig ⟨S_, .i32⟩).ofBuf (Val := Elt Ideal) V = V := fun _ => rfl
  have er : ∀ V : (⟨S1x128, .f32⟩ : BufTy).Contents (Elt Ideal),
      (StableHlo.TRef.of main_v60 : StableHlo.TRef sig ⟨S1x128, .f32⟩).toBuf (Val := Elt Ideal) V = V := fun _ => rfl
  after_results_simp
  simp only [ofBuf_toBuf, ex, ec, er]
  rfl

theorem hostOps5_2_main_v64 :
    (StableHlo.after hostOps5_2 W (Proc.devRef .tc main_v64) : FVec Ideal ⟨2, ![1, 128]⟩ .f32)
      = LibBN.meanKeep (F := Ideal) (W main_v55) 0x48F42400#32 reducesTo_S500000x128_S128_d0 bcast_S128_S1x128_1 bcast_S_S1x128 := by
  after_results_simp
  rfl

theorem hostOps5_2_main_c_14 : (StableHlo.after hostOps5_2 W (Proc.devRef .tc main_c_14) : IVec ⟨0, ![]⟩ 32) = constantI S_ 32 0#32 := by
  after_results_simp

set_option maxHeartbeats 1000000 in
theorem hostOps5_3_main_v65 :
    (StableHlo.after hostOps5_3 W (Proc.devRef .tc main_v65) : FVec Ideal ⟨2, ![1, 128]⟩ .f32)
      = LibBN.varKeep (F := Ideal) (W main_v55) 0x48F42400#32 (W main_c_14) reducesTo_S500000x128_S128_d0 bcast_S128_S1x128_1 bcast_S_S1x128
          bcast_S1x128_S500000x128_0_1 := by
  have ex : ∀ V : (main_v55 : Ref sig .tc).ty.Contents (Elt Ideal),
      (StableHlo.TRef.of main_v55 : StableHlo.TRef sig ⟨S500000x128, .f32⟩).ofBuf (Val := Elt Ideal) V = V := fun _ => rfl
  have ec : ∀ V : (main_c_14 : Ref sig .tc).ty.Contents (Elt Ideal),
      (StableHlo.TRef.of main_c_14 : StableHlo.TRef sig ⟨S_, .i32⟩).ofBuf (Val := Elt Ideal) V = V := fun _ => rfl
  have er : ∀ V : (⟨S1x128, .f32⟩ : BufTy).Contents (Elt Ideal),
      (StableHlo.TRef.of main_v65 : StableHlo.TRef sig ⟨S1x128, .f32⟩).toBuf (Val := Elt Ideal) V = V := fun _ => rfl
  after_results_simp
  simp only [ofBuf_toBuf, ex, ec, er]
  rfl

theorem hostOps5_4_main_v66 :
    (StableHlo.after hostOps5_4 W (Proc.devRef .tc main_v66) : FVec Ideal ⟨2, ![1, 128]⟩ .f32)
      = shapeCast S1x128 (W main_arg13) shapeCasts_S128_S1x128 := by
  after_results_simp
  try rfl

theorem hostOps5_4_main_v67 :
    (StableHlo.after hostOps5_4 W (Proc.devRef .tc main_v67) : FVec Ideal ⟨2, ![1, 128]⟩ .f32)
      = shapeCast S1x128 (W main_arg14) shapeCasts_S128_S1x128 := by
  after_results_simp
  try rfl

theorem hostOps5_4_main_v68 :
    (StableHlo.after hostOps5_4 W (Proc.devRef .tc main_v68) : FVec Ideal ⟨2, ![1, 128]⟩ .f32)
      = shapeCast S1x128 (W main_arg15) shapeCasts_S128_S1x128 := by
  after_results_simp
  try rfl

theorem hostOps5_4_main_v69 :
    (StableHlo.after hostOps5_4 W (Proc.devRef .tc main_v69) : FVec Ideal ⟨2, ![1, 128]⟩ .f32)
      = shapeCast S1x128 (W main_arg16) shapeCasts_S128_S1x128 := by
  after_results_simp
  try rfl

theorem hostOps0_main_v5 :
    (StableHlo.after hostOps0 W (Proc.devRef .tc main_v5) : FVec Ideal S128x256 .bf16) = truncf (F := Ideal) (s := S128x256) .bf16 (W main_arg17 : FVec Ideal S128x256 .f32) bitsLt_bf16_f32 := by
  after_results_simp
  try rfl

theorem hostOps0_main_v6 :
    (StableHlo.after hostOps0 W (Proc.devRef .tc main_v6) : FVec Ideal S256x128 .bf16) = truncf (F := Ideal) (s := S256x128) .bf16 (W main_arg19 : FVec Ideal S256x128 .f32) bitsLt_bf16_f32 := by
  after_results_simp
  try rfl

theorem hostOps0_main_v7 :
    (StableHlo.after hostOps0 W (Proc.devRef .tc main_v7) : FVec Ideal S128x256 .bf16) = truncf (F := Ideal) (s := S128x256) .bf16 (W main_arg21 : FVec Ideal S128x256 .f32) bitsLt_bf16_f32 := by
  after_results_simp
  try rfl

theorem hostOps0_main_v8 :
    (StableHlo.after hostOps0 W (Proc.devRef .tc main_v8) : FVec Ideal S256x128 .bf16) = truncf (F := Ideal) (s := S256x128) .bf16 (W main_arg23 : FVec Ideal S256x128 .f32) bitsLt_bf16_f32 := by
  after_results_simp
  try rfl

theorem hostOps0_main_v11 :
    (StableHlo.after hostOps0 W (Proc.devRef .tc main_v11) : FVec Ideal S1x256 .f32) = shapeCast S1x256 (W main_arg18) shapeCasts_S256_S1x256 := by
  after_results_simp
  try rfl

theorem hostOps0_main_v12 :
    (StableHlo.after hostOps0 W (Proc.devRef .tc main_v12) : FVec Ideal S1x128 .f32) = shapeCast S1x128 (W main_arg20) shapeCasts_S128_S1x128 := by
  after_results_simp
  try rfl

theorem hostOps0_main_v13 :
    (StableHlo.after hostOps0 W (Proc.devRef .tc main_v13) : FVec Ideal S1x256 .f32) = shapeCast S1x256 (W main_arg22) shapeCasts_S256_S1x256 := by
  after_results_simp
  try rfl

theorem hostOps0_main_v14 :
    (StableHlo.after hostOps0 W (Proc.devRef .tc main_v14) : FVec Ideal S1x128 .f32) = shapeCast S1x128 (W main_arg24) shapeCasts_S128_S1x128 := by
  after_results_simp
  try rfl

end Stretch

/-! ## The buffers on entry to the regions -/

variable (m : (ℓ : Loc nD τ sig) → Buf (Elt Ideal) ℓ) (outs : Outs (F := Ideal)) (c : Dev nD)

/-- The node array that region 3 left. -/
abbrev kA : FVec Ideal ⟨2, ![50000, 128]⟩ .f32 := V8 m outs c main_v54
/-- The edge array that region 4 left. -/
abbrev kE : FVec Ideal ⟨2, ![500000, 128]⟩ .f32 := V9 m outs c main_v55

/-! ### On entry to region 5 (after item 13) -/

theorem e5_x : V14 m outs c main_v54 = kA m outs c :=
  (V14_of m outs c main_v54 (by decide)).trans <|
      (V13_of m outs c main_v54 (by decide)).trans <|
      (V12_of m outs c main_v54 (by decide)).trans <|
      (V11_of m outs c main_v54 (by decide)).trans <|
      (V10_of m outs c main_v54 (by decide)).trans <|
      (V9_of m outs c main_v54 (by decide))

theorem e5_mean (l : Fin 128) :
    (V14 m outs c main_v59 : FVec Ideal ⟨2, ![1, 128]⟩ .f32) (ix2 (0 : Fin 1) l)
      = LibBN.colMean (F := Ideal) (kA m outs c) 0x47435000#32 reducesTo_S50000x128_S128_d0 l := by
  have h1 : V14 m outs c main_v59 = V10 m outs c main_v59 :=
    (V14_of m outs c main_v59 (by decide)).trans <|
      (V13_of m outs c main_v59 (by decide)).trans <|
      (V12_of m outs c main_v59 (by decide)).trans <|
      (V11_of m outs c main_v59 (by decide))
  have h2 : V9 m outs c main_v54 = kA m outs c :=
    (V9_of m outs c main_v54 (by decide))
  rw [h1]
  show (StableHlo.after hostOps5 (V9 m outs c) (Proc.devRef .tc main_v59) : FVec Ideal ⟨2, ![1, 128]⟩ .f32) (ix2 (0 : Fin 1) l) = _
  rw [hostOps5_main_v59, h2]
  exact LibBN.meanKeep_apply _ _ _ _ _ l

theorem e5_var (l : Fin 128) :
    (V14 m outs c main_v60 : FVec Ideal ⟨2, ![1, 128]⟩ .f32) (ix2 (0 : Fin 1) l)
      = LibBN.colVar (F := Ideal) (kA m outs c) 0x47435000#32 (constantI S_ 32 0#32) reducesTo_S50000x128_S128_d0 bcast_S128_S1x128_1
          bcast_S_S1x128 bcast_S1x128_S50000x128_0_1 l := by
  have h1 : V14 m outs c main_v60 = V11 m outs c main_v60 :=
    (V14_of m outs c main_v60 (by decide)).trans <|
      (V13_of m outs c main_v60 (by decide)).trans <|
      (V12_of m outs c main_v60 (by decide))
  have h2 : V10 m outs c main_v54 = kA m outs c :=
    (V10_of m outs c main_v54 (by decide)).trans <|
      (V9_of m outs c main_v54 (by decide))
  have h3 : V10 m outs c main_c_11 = constantI S_ 32 0#32 := by
    show (StableHlo.after hostOps5 (V9 m outs c) (Proc.devRef .tc main_c_11) : IVec ⟨0, ![]⟩ 32) = _
    exact hostOps5_main_c_11 _
  rw [h1]
  show (StableHlo.after hostOps5_1 (V10 m outs c) (Proc.devRef .tc main_v60) : FVec Ideal ⟨2, ![1, 128]⟩ .f32) (ix2 (0 : Fin 1) l) = _
  rw [hostOps5_1_main_v60, h2, h3]
  exact LibBN.varKeep_apply _ _ _ _ _ _ _ l

theorem e5_g (l : Fin 128) :
    (V14 m outs c main_v66 : FVec Ideal ⟨2, ![1, 128]⟩ .f32) (ix2 (0 : Fin 1) l)
      = (m ((c : Thread nD τ).loc main_arg13) : FVec Ideal ⟨1, ![128]⟩ .f32) (ix1 l) := by
  have h2 : V13 m outs c main_arg13 = m ((c : Thread nD τ).loc main_arg13) :=
    (V13_of m outs c main_arg13 (by decide)).trans <|
      (V12_of m outs c main_arg13 (by decide)).trans <|
      (V11_of m outs c main_arg13 (by decide)).trans <|
      (V10_of m outs c main_arg13 (by decide)).trans <|
      (V9_of m outs c main_arg13 (by decide)).trans <|
      (V8_of m outs c main_arg13 (by decide)).trans <|
      (V7_of m outs c main_arg13 (by decide)).trans <|
      (V6_of m outs c main_arg13 (by decide)).trans <|
      (V5_of m outs c main_arg13 (by decide)).trans <|
      (V4_of m outs c main_arg13 (by decide)).trans <|
      (V3_of m outs c main_arg13 (by decide)).trans <|
      (V2_of m outs c main_arg13 (by decide)).trans <|
      (V1_of m c main_arg13 (by decide))
  show (StableHlo.after hostOps5_4 (V13 m outs c) (Proc.devRef .tc main_v66) : FVec Ideal ⟨2, ![1, 128]⟩ .f32) (ix2 (0 : Fin 1) l) = _
  rw [hostOps5_4_main_v66, h2]
  exact shapeCast_keep_apply _ _ l

theorem e5_b (l : Fin 128) :
    (V14 m outs c main_v67 : FVec Ideal ⟨2, ![1, 128]⟩ .f32) (ix2 (0 : Fin 1) l)
      = (m ((c : Thread nD τ).loc main_arg14) : FVec Ideal ⟨1, ![128]⟩ .f32) (ix1 l) := by
  have h2 : V13 m outs c main_arg14 = m ((c : Thread nD τ).loc main_arg14) :=
    (V13_of m outs c main_arg14 (by decide)).trans <|
      (V12_of m outs c main_arg14 (by decide)).trans <|
      (V11_of m outs c main_arg14 (by decide)).trans <|
      (V10_of m outs c main_arg14 (by decide)).trans <|
      (V9_of m outs c main_arg14 (by decide)).trans <|
      (V8_of m outs c main_arg14 (by decide)).trans <|
      (V7_of m outs c main_arg14 (by decide)).trans <|
      (V6_of m outs c main_arg14 (by decide)).trans <|
      (V5_of m outs c main_arg14 (by decide)).trans <|
      (V4_of m outs c main_arg14 (by decide)).trans <|
      (V3_of m outs c main_arg14 (by decide)).trans <|
      (V2_of m outs c main_arg14 (by decide)).trans <|
      (V1_of m c main_arg14 (by decide))
  show (StableHlo.after hostOps5_4 (V13 m outs c) (Proc.devRef .tc main_v67) : FVec Ideal ⟨2, ![1, 128]⟩ .f32) (ix2 (0 : Fin 1) l) = _
  rw [hostOps5_4_main_v67, h2]
  exact shapeCast_keep_apply _ _ l

theorem e5_W1 (l : Fin 128) (k : Fin 256) :
    (V14 m outs c main_v5 : FVec Ideal S128x256 .bf16) (ix2 l k) = (m ((c : Thread nD τ).loc main_arg17) : FVec Ideal S128x256 .f32) (ix2 l k) := by
  have h1 : V14 m outs c main_v5 = V1 m c main_v5 :=
    (V14_of m outs c main_v5 (by decide)).trans <|
      (V13_of m outs c main_v5 (by decide)).trans <|
      (V12_of m outs c main_v5 (by decide)).trans <|
      (V11_of m outs c main_v5 (by decide)).trans <|
      (V10_of m outs c main_v5 (by decide)).trans <|
      (V9_of m outs c main_v5 (by decide)).trans <|
      (V8_of m outs c main_v5 (by decide)).trans <|
      (V7_of m outs c main_v5 (by decide)).trans <|
      (V6_of m outs c main_v5 (by decide)).trans <|
      (V5_of m outs c main_v5 (by decide)).trans <|
      (V4_of m outs c main_v5 (by decide)).trans <|
      (V3_of m outs c main_v5 (by decide)).trans <|
      (V2_of m outs c main_v5 (by decide))
  rw [h1]
  show (StableHlo.after hostOps0 (V0 m c) (Proc.devRef .tc main_v5) : FVec Ideal S128x256 .bf16) (ix2 l k) = _
  rw [hostOps0_main_v5]
  rfl

theorem e5_W2 (l : Fin 256) (k : Fin 128) :
    (V14 m outs c main_v6 : FVec Ideal S256x128 .bf16) (ix2 l k) = (m ((c : Thread nD τ).loc main_arg19) : FVec Ideal S256x128 .f32) (ix2 l k) := by
  have h1 : V14 m outs c main_v6 = V1 m c main_v6 :=
    (V14_of m outs c main_v6 (by decide)).trans <|
      (V13_of m outs c main_v6 (by decide)).trans <|
      (V12_of m outs c main_v6 (by decide)).trans <|
      (V11_of m outs c main_v6 (by decide)).trans <|
      (V10_of m outs c main_v6 (by decide)).trans <|
      (V9_of m outs c main_v6 (by decide)).trans <|
      (V8_of m outs c main_v6 (by decide)).trans <|
      (V7_of m outs c main_v6 (by decide)).trans <|
      (V6_of m outs c main_v6 (by decide)).trans <|
      (V5_of m outs c main_v6 (by decide)).trans <|
      (V4_of m outs c main_v6 (by decide)).trans <|
      (V3_of m outs c main_v6 (by decide)).trans <|
      (V2_of m outs c main_v6 (by decide))
  rw [h1]
  show (StableHlo.after hostOps0 (V0 m c) (Proc.devRef .tc main_v6) : FVec Ideal S256x128 .bf16) (ix2 l k) = _
  rw [hostOps0_main_v6]
  rfl

theorem e5_b1 (k : Fin 256) :
    (V14 m outs c main_v11 : FVec Ideal S1x256 .f32) (ix2 (0 : Fin 1) k) = (m ((c : Thread nD τ).loc main_arg18) : FVec Ideal ⟨1, ![256]⟩ .f32) (ix1 k) := by
  have h1 : V14 m outs c main_v11 = V1 m c main_v11 :=
    (V14_of m outs c main_v11 (by decide)).trans <|
      (V13_of m outs c main_v11 (by decide)).trans <|
      (V12_of m outs c main_v11 (by decide)).trans <|
      (V11_of m outs c main_v11 (by decide)).trans <|
      (V10_of m outs c main_v11 (by decide)).trans <|
      (V9_of m outs c main_v11 (by decide)).trans <|
      (V8_of m outs c main_v11 (by decide)).trans <|
      (V7_of m outs c main_v11 (by decide)).trans <|
      (V6_of m outs c main_v11 (by decide)).trans <|
      (V5_of m outs c main_v11 (by decide)).trans <|
      (V4_of m outs c main_v11 (by decide)).trans <|
      (V3_of m outs c main_v11 (by decide)).trans <|
      (V2_of m outs c main_v11 (by decide))
  rw [h1]
  show (StableHlo.after hostOps0 (V0 m c) (Proc.devRef .tc main_v11) : FVec Ideal S1x256 .f32) (ix2 (0 : Fin 1) k) = _
  rw [hostOps0_main_v11]
  exact shapeCast_keep_apply _ _ k

theorem e5_b2 (k : Fin 128) :
    (V14 m outs c main_v12 : FVec Ideal S1x128 .f32) (ix2 (0 : Fin 1) k) = (m ((c : Thread nD τ).loc main_arg20) : FVec Ideal ⟨1, ![128]⟩ .f32) (ix1 k) := by
  have h1 : V14 m outs c main_v12 = V1 m c main_v12 :=
    (V14_of m outs c main_v12 (by decide)).trans <|
      (V13_of m outs c main_v12 (by decide)).trans <|
      (V12_of m outs c main_v12 (by decide)).trans <|
      (V11_of m outs c main_v12 (by decide)).trans <|
      (V10_of m outs c main_v12 (by decide)).trans <|
      (V9_of m outs c main_v12 (by decide)).trans <|
      (V8_of m outs c main_v12 (by decide)).trans <|
      (V7_of m outs c main_v12 (by decide)).trans <|
      (V6_of m outs c main_v12 (by decide)).trans <|
      (V5_of m outs c main_v12 (by decide)).trans <|
      (V4_of m outs c main_v12 (by decide)).trans <|
      (V3_of m outs c main_v12 (by decide)).trans <|
      (V2_of m outs c main_v12 (by decide))
  rw [h1]
  show (StableHlo.after hostOps0 (V0 m c) (Proc.devRef .tc main_v12) : FVec Ideal S1x128 .f32) (ix2 (0 : Fin 1) k) = _
  rw [hostOps0_main_v12]
  exact shapeCast_keep_apply _ _ k

/-! ### On entry to region 6 (after item 14) -/

theorem e6_x : V15 m outs c main_v55 = kE m outs c :=
  (V15_of m outs c main_v55 (by decide)).trans <|
      (V14_of m outs c main_v55 (by decide)).trans <|
      (V13_of m outs c main_v55 (by decide)).trans <|
      (V12_of m outs c main_v55 (by decide)).trans <|
      (V11_of m outs c main_v55 (by decide)).trans <|
      (V10_of m outs c main_v55 (by decide))

theorem e6_mean (l : Fin 128) :
    (V15 m outs c main_v64 : FVec Ideal ⟨2, ![1, 128]⟩ .f32) (ix2 (0 : Fin 1) l)
      = LibBN.colMean (F := Ideal) (kE m outs c) 0x48F42400#32 reducesTo_S500000x128_S128_d0 l := by
  have h1 : V15 m outs c main_v64 = V12 m outs c main_v64 :=
    (V15_of m outs c main_v64 (by decide)).trans <|
      (V14_of m outs c main_v64 (by decide)).trans <|
      (V13_of m outs c main_v64 (by decide))
  have h2 : V11 m outs c main_v55 = kE m outs c :=
    (V11_of m outs c main_v55 (by decide)).trans <|
      (V10_of m outs c main_v55 (by decide))
  rw [h1]
  show (StableHlo.after hostOps5_2 (V11 m outs c) (Proc.devRef .tc main_v64) : FVec Ideal ⟨2, ![1, 128]⟩ .f32) (ix2 (0 : Fin 1) l) = _
  rw [hostOps5_2_main_v64, h2]
  exact LibBN.meanKeep_apply _ _ _ _ _ l

theorem e6_var (l : Fin 128) :
    (V15 m outs c main_v65 : FVec Ideal ⟨2, ![1, 128]⟩ .f32) (ix2 (0 : Fin 1) l)
      = LibBN.colVar (F := Ideal) (kE m outs c) 0x48F42400#32 (constantI S_ 32 0#32) reducesTo_S500000x128_S128_d0 bcast_S128_S1x128_1
          bcast_S_S1x128 bcast_S1x128_S500000x128_0_1 l := by
  have h1 : V15 m outs c main_v65 = V13 m outs c main_v65 :=
    (V15_of m outs c main_v65 (by decide)).trans <|
      (V14_of m outs c main_v65 (by decide))
  have h2 : V12 m outs c main_v55 = kE m outs c :=
    (V12_of m outs c main_v55 (by decide)).trans <|
      (V11_of m outs c main_v55 (by decide)).trans <|
      (V10_of m outs c main_v55 (by decide))
  have h3 : V12 m outs c main_c_14 = constantI S_ 32 0#32 := by
    show (StableHlo.after hostOps5_2 (V11 m outs c) (Proc.devRef .tc main_c_14) : IVec ⟨0, ![]⟩ 32) = _
    exact hostOps5_2_main_c_14 _
  rw [h1]
  show (StableHlo.after hostOps5_3 (V12 m outs c) (Proc.devRef .tc main_v65) : FVec Ideal ⟨2, ![1, 128]⟩ .f32) (ix2 (0 : Fin 1) l) = _
  rw [hostOps5_3_main_v65, h2, h3]
  exact LibBN.varKeep_apply _ _ _ _ _ _ _ l

theorem e6_g (l : Fin 128) :
    (V15 m outs c main_v68 : FVec Ideal ⟨2, ![1, 128]⟩ .f32) (ix2 (0 : Fin 1) l)
      = (m ((c : Thread nD τ).loc main_arg15) : FVec Ideal ⟨1, ![128]⟩ .f32) (ix1 l) := by
  have h1 : V15 m outs c main_v68 = V14 m outs c main_v68 :=
    (V15_of m outs c main_v68 (by decide))
  have h2 : V13 m outs c main_arg15 = m ((c : Thread nD τ).loc main_arg15) :=
    (V13_of m outs c main_arg15 (by decide)).trans <|
      (V12_of m outs c main_arg15 (by decide)).trans <|
      (V11_of m outs c main_arg15 (by decide)).trans <|
      (V10_of m outs c main_arg15 (by decide)).trans <|
      (V9_of m outs c main_arg15 (by decide)).trans <|
      (V8_of m outs c main_arg15 (by decide)).trans <|
      (V7_of m outs c main_arg15 (by decide)).trans <|
      (V6_of m outs c main_arg15 (by decide)).trans <|
      (V5_of m outs c main_arg15 (by decide)).trans <|
      (V4_of m outs c main_arg15 (by decide)).trans <|
      (V3_of m outs c main_arg15 (by decide)).trans <|
      (V2_of m outs c main_arg15 (by decide)).trans <|
      (V1_of m c main_arg15 (by decide))
  rw [h1]
  show (StableHlo.after hostOps5_4 (V13 m outs c) (Proc.devRef .tc main_v68) : FVec Ideal ⟨2, ![1, 128]⟩ .f32) (ix2 (0 : Fin 1) l) = _
  rw [hostOps5_4_main_v68, h2]
  exact shapeCast_keep_apply _ _ l

theorem e6_b (l : Fin 128) :
    (V15 m outs c main_v69 : FVec Ideal ⟨2, ![1, 128]⟩ .f32) (ix2 (0 : Fin 1) l)
      = (m ((c : Thread nD τ).loc main_arg16) : FVec Ideal ⟨1, ![128]⟩ .f32) (ix1 l) := by
  have h1 : V15 m outs c main_v69 = V14 m outs c main_v69 :=
    (V15_of m outs c main_v69 (by decide))
  have h2 : V13 m outs c main_arg16 = m ((c : Thread nD τ).loc main_arg16) :=
    (V13_of m outs c main_arg16 (by decide)).trans <|
      (V12_of m outs c main_arg16 (by decide)).trans <|
      (V11_of m outs c main_arg16 (by decide)).trans <|
      (V10_of m outs c main_arg16 (by decide)).trans <|
      (V9_of m outs c main_arg16 (by decide)).trans <|
      (V8_of m outs c main_arg16 (by decide)).trans <|
      (V7_of m outs c main_arg16 (by decide)).trans <|
      (V6_of m outs c main_arg16 (by decide)).trans <|
      (V5_of m outs c main_arg16 (by decide)).trans <|
      (V4_of m outs c main_arg16 (by decide)).trans <|
      (V3_of m outs c main_arg16 (by decide)).trans <|
      (V2_of m outs c main_arg16 (by decide)).trans <|
      (V1_of m c main_arg16 (by decide))
  rw [h1]
  show (StableHlo.after hostOps5_4 (V13 m outs c) (Proc.devRef .tc main_v69) : FVec Ideal ⟨2, ![1, 128]⟩ .f32) (ix2 (0 : Fin 1) l) = _
  rw [hostOps5_4_main_v69, h2]
  exact shapeCast_keep_apply _ _ l

theorem e6_W1 (l : Fin 128) (k : Fin 256) :
    (V15 m outs c main_v7 : FVec Ideal S128x256 .bf16) (ix2 l k) = (m ((c : Thread nD τ).loc main_arg21) : FVec Ideal S128x256 .f32) (ix2 l k) := by
  have h1 : V15 m outs c main_v7 = V1 m c main_v7 :=
    (V15_of m outs c main_v7 (by decide)).trans <|
      (V14_of m outs c main_v7 (by decide)).trans <|
      (V13_of m outs c main_v7 (by decide)).trans <|
      (V12_of m outs c main_v7 (by decide)).trans <|
      (V11_of m outs c main_v7 (by decide)).trans <|
      (V10_of m outs c main_v7 (by decide)).trans <|
      (V9_of m outs c main_v7 (by decide)).trans <|
      (V8_of m outs c main_v7 (by decide)).trans <|
      (V7_of m outs c main_v7 (by decide)).trans <|
      (V6_of m outs c main_v7 (by decide)).trans <|
      (V5_of m outs c main_v7 (by decide)).trans <|
      (V4_of m outs c main_v7 (by decide)).trans <|
      (V3_of m outs c main_v7 (by decide)).trans <|
      (V2_of m outs c main_v7 (by decide))
  rw [h1]
  show (StableHlo.after hostOps0 (V0 m c) (Proc.devRef .tc main_v7) : FVec Ideal S128x256 .bf16) (ix2 l k) = _
  rw [hostOps0_main_v7]
  rfl

theorem e6_W2 (l : Fin 256) (k : Fin 128) :
    (V15 m outs c main_v8 : FVec Ideal S256x128 .bf16) (ix2 l k) = (m ((c : Thread nD τ).loc main_arg23) : FVec Ideal S256x128 .f32) (ix2 l k) := by
  have h1 : V15 m outs c main_v8 = V1 m c main_v8 :=
    (V15_of m outs c main_v8 (by decide)).trans <|
      (V14_of m outs c main_v8 (by decide)).trans <|
      (V13_of m outs c main_v8 (by decide)).trans <|
      (V12_of m outs c main_v8 (by decide)).trans <|
      (V11_of m outs c main_v8 (by decide)).trans <|
      (V10_of m outs c main_v8 (by decide)).trans <|
      (V9_of m outs c main_v8 (by decide)).trans <|
      (V8_of m outs c main_v8 (by decide)).trans <|
      (V7_of m outs c main_v8 (by decide)).trans <|
      (V6_of m outs c main_v8 (by decide)).trans <|
      (V5_of m outs c main_v8 (by decide)).trans <|
      (V4_of m outs c main_v8 (by decide)).trans <|
      (V3_of m outs c main_v8 (by decide)).trans <|
      (V2_of m outs c main_v8 (by decide))
  rw [h1]
  show (StableHlo.after hostOps0 (V0 m c) (Proc.devRef .tc main_v8) : FVec Ideal S256x128 .bf16) (ix2 l k) = _
  rw [hostOps0_main_v8]
  rfl

theorem e6_b1 (k : Fin 256) :
    (V15 m outs c main_v13 : FVec Ideal S1x256 .f32) (ix2 (0 : Fin 1) k) = (m ((c : Thread nD τ).loc main_arg22) : FVec Ideal ⟨1, ![256]⟩ .f32) (ix1 k) := by
  have h1 : V15 m outs c main_v13 = V1 m c main_v13 :=
    (V15_of m outs c main_v13 (by decide)).trans <|
      (V14_of m outs c main_v13 (by decide)).trans <|
      (V13_of m outs c main_v13 (by decide)).trans <|
      (V12_of m outs c main_v13 (by decide)).trans <|
      (V11_of m outs c main_v13 (by decide)).trans <|
      (V10_of m outs c main_v13 (by decide)).trans <|
      (V9_of m outs c main_v13 (by decide)).trans <|
      (V8_of m outs c main_v13 (by decide)).trans <|
      (V7_of m outs c main_v13 (by decide)).trans <|
      (V6_of m outs c main_v13 (by decide)).trans <|
      (V5_of m outs c main_v13 (by decide)).trans <|
      (V4_of m outs c main_v13 (by decide)).trans <|
      (V3_of m outs c main_v13 (by decide)).trans <|
      (V2_of m outs c main_v13 (by decide))
  rw [h1]
  show (StableHlo.after hostOps0 (V0 m c) (Proc.devRef .tc main_v13) : FVec Ideal S1x256 .f32) (ix2 (0 : Fin 1) k) = _
  rw [hostOps0_main_v13]
  exact shapeCast_keep_apply _ _ k

theorem e6_b2 (k : Fin 128) :
    (V15 m outs c main_v14 : FVec Ideal S1x128 .f32) (ix2 (0 : Fin 1) k) = (m ((c : Thread nD τ).loc main_arg24) : FVec Ideal ⟨1, ![128]⟩ .f32) (ix1 k) := by
  have h1 : V15 m outs c main_v14 = V1 m c main_v14 :=
    (V15_of m outs c main_v14 (by decide)).trans <|
      (V14_of m outs c main_v14 (by decide)).trans <|
      (V13_of m outs c main_v14 (by decide)).trans <|
      (V12_of m outs c main_v14 (by decide)).trans <|
      (V11_of m outs c main_v14 (by decide)).trans <|
      (V10_of m outs c main_v14 (by decide)).trans <|
      (V9_of m outs c main_v14 (by decide)).trans <|
      (V8_of m outs c main_v14 (by decide)).trans <|
      (V7_of m outs c main_v14 (by decide)).trans <|
      (V6_of m outs c main_v14 (by decide)).trans <|
      (V5_of m outs c main_v14 (by decide)).trans <|
      (V4_of m outs c main_v14 (by decide)).trans <|
      (V3_of m outs c main_v14 (by decide)).trans <|
      (V2_of m outs c main_v14 (by decide))
  rw [h1]
  show (StableHlo.after hostOps0 (V0 m c) (Proc.devRef .tc main_v14) : FVec Ideal S1x128 .f32) (ix2 (0 : Fin 1) k) = _
  rw [hostOps0_main_v14]
  exact shapeCast_keep_apply _ _ k

end Cert.Bridge.S5K
-- ==== Proof.Val.S5Ref.lean ====
/-
  The reference side of the normalisation and feed-forward stage, read at one entry.

  Nodes (M = 50000 rows) and edges (M = 500000 rows) alike. For the M×128 input x of the block:
  the normalised array is, at (r, j), ((x (r, j) - mean_j) * rsqrt (var_j + ε)) * g j + b j, with mean_j the sum of
  column j divided by the literal M and var_j the sum of column j's squared deviations from mean_j divided by the
  count M - 0 where that count is positive; and the block's result is, at (r, j), with y l the normalised entry (r, l),
      y j + ((Σ_k max ((Σ_l y l * W1 (l, k)) + b1 k) 0 * W2 (k, j)) + b2 j).
  Each is first read off the reference's operations over arbitrary buffer contents before them, then at the contents
  the reference has there, with the parameters read back to the start of the program.
-/
import proofs.«101045_j34351148433892_1_alg».proof.Proof.Ref.Ops
import proofs.«101045_j34351148433892_1_alg».proof.Proof.Val.LibBN
import proofs.«101045_j34351148433892_1_alg».proof.Proof.Val.LibDot
import Idealize.ShloMosaic.Lib.IdealHost
import Idealize.ShloMosaic.Lib.KernelVsHost
import Idealize.ShloMosaic.Lib.ValueIdx
import Idealize.ShloMosaic.Lib.StableHlo.Run

set_option maxRecDepth 8192
-- one declaration at a time: the reads of the long operation lists each hold gigabytes while they run
set_option Elab.async false

noncomputable section

open scoped BigOperators

namespace Cert.Bridge.S5

open Idealize.ShloMosaic Idealize.ShloMosaic.ValueIdx Idealize.ShloMosaic.TcCoe
open Cert.ReferenceIdeal Cert.ReferenceIdeal.Gen Cert.ReferenceIdeal.Hand
open Cert.Bridge

/-! ## The feed-forward block at an entry, for any number of rows -/

/-- The block as the operations compose it. -/
abbrev ffnExpr {M : ℕ}
    (h1 : (⟨1, ![256]⟩ : Shape).BroadcastsInDim ⟨2, ![1, 256]⟩ ![1])
    (h2 : (⟨2, ![1, 256]⟩ : Shape).BroadcastsInDim ⟨2, ![M, 256]⟩ ![0, 1])
    (h0 : (⟨0, ![]⟩ : Shape).BroadcastsInDim ⟨2, ![M, 256]⟩ ![])
    (h3 : (⟨1, ![128]⟩ : Shape).BroadcastsInDim ⟨2, ![1, 128]⟩ ![1])
    (h4 : (⟨2, ![1, 128]⟩ : Shape).BroadcastsInDim ⟨2, ![M, 128]⟩ ![0, 1])
    (Y : FVec Ideal ⟨2, ![M, 128]⟩ .f32) (W1 : FVec Ideal ⟨2, ![128, 256]⟩ .f32) (b1 : FVec Ideal ⟨1, ![256]⟩ .f32)
    (W2 : FVec Ideal ⟨2, ![256, 128]⟩ .f32) (b2 : FVec Ideal ⟨1, ![128]⟩ .f32) : FVec Ideal ⟨2, ![M, 128]⟩ .f32 :=
  addf Y
    (addf
      (Host.dotGeneral (DotDims.plain M 256 128) none
        (maximumf
          (addf (Host.dotGeneral (DotDims.plain M 128 256) none Y W1)
            (broadcastInDim ⟨2, ![M, 256]⟩ ![0, 1] h2 (broadcastInDim ⟨2, ![1, 256]⟩ ![1] h1 b1)))
          (broadcastInDim ⟨2, ![M, 256]⟩ ![] h0 (constant (F := Ideal) (⟨0, ![]⟩ : Shape) .f32 0x00000000#32)))
        W2)
      (broadcastInDim ⟨2, ![M, 128]⟩ ![0, 1] h4 (broadcastInDim ⟨2, ![1, 128]⟩ ![1] h3 b2)))

/-- The block at (r, j). -/
theorem ffnExpr_apply {M : ℕ}
    (h1 : (⟨1, ![256]⟩ : Shape).BroadcastsInDim ⟨2, ![1, 256]⟩ ![1])
    (h2 : (⟨2, ![1, 256]⟩ : Shape).BroadcastsInDim ⟨2, ![M, 256]⟩ ![0, 1])
    (h0 : (⟨0, ![]⟩ : Shape).BroadcastsInDim ⟨2, ![M, 256]⟩ ![])
    (h3 : (⟨1, ![128]⟩ : Shape).BroadcastsInDim ⟨2, ![1, 128]⟩ ![1])
    (h4 : (⟨2, ![1, 128]⟩ : Shape).BroadcastsInDim ⟨2, ![M, 128]⟩ ![0, 1])
    (Y : FVec Ideal ⟨2, ![M, 128]⟩ .f32) (W1 : FVec Ideal ⟨2, ![128, 256]⟩ .f32) (b1 : FVec Ideal ⟨1, ![256]⟩ .f32)
    (W2 : FVec Ideal ⟨2, ![256, 128]⟩ .f32) (b2 : FVec Ideal ⟨1, ![128]⟩ .f32) (r : Fin M) (j : Fin 128) :
    ffnExpr h1 h2 h0 h3 h4 Y W1 b1 W2 b2 (ix2 r j)
      = Y (ix2 r j) + ((∑ k : Fin 256, max ((∑ l : Fin 128, Y (ix2 r l) * W1 (ix2 l k)) + b1 (ix1 k))
            (Ideal.ofBits .f32 0x00000000#32) * W2 (ix2 k j)) + b2 (ix1 j)) := by
  unfold ffnExpr
  rw [addf_apply, addf_apply, LibDot.dotGeneral_plain_apply (φ₁ := .f32) (φ₂ := .f32),
    LibBN.broadcastInDim_rows_keep_apply]
  refine congrArg (Y (ix2 r j) + ·) (congrArg (· + b2 (ix1 j)) ?_)
  refine Finset.sum_congr rfl fun k _ => ?_
  rw [maximumf_apply, addf_apply, LibDot.dotGeneral_plain_apply (φ₁ := .f32) (φ₂ := .f32),
    LibBN.broadcastInDim_rows_keep_apply, broadcastInDim_scalar_apply, constant_apply]

/-- Contents moved to a typed reference's own type and back are unchanged. -/
theorem ofBuf_toBuf {T : BufTy} (x : StableHlo.TRef sig T) (v : T.Contents (Elt Ideal)) : x.ofBuf (x.toBuf v) = v := by
  obtain ⟨r, h, h2, h3⟩ := x
  subst h
  rfl

/-! ## The nodes -/

section Nodes
variable (W : Valuation τ sig (Elt Ideal))

set_option maxHeartbeats 4000000 in
/-- The normalised array as the operations compose it. -/
theorem ops4_v76 :
    (StableHlo.after (ops4 (F := Ideal)) W (Proc.devRef .tc main_v76) : FVec Ideal ⟨2, ![50000, 128]⟩ .f32)
      = LibBN.bnDrop (F := Ideal) (W main_v57)
          (LibBN.meanDrop (F := Ideal) (W main_v57) 0x47435000#32 reducesTo_S50000x128_S128_d0 bcast_S_S128)
          (LibBN.varDrop (F := Ideal) (W main_v57) 0x47435000#32 (constantI S_ 32 0#32) reducesTo_S50000x128_S128_d0 bcast_S128_S1x128_1
            bcast_S_S1x128 bcast_S1x128_S50000x128_0_1 bcast_S_S128)
          (W main_arg13) (W main_arg14) 0x3727C5AC#32 bcast_S128_S1x128_1 bcast_S1x128_S50000x128_0_1 bcast_S_S128 := by
  have ex : ∀ V : (main_v57 : Ref sig .tc).ty.Contents (Elt Ideal),
      (StableHlo.TRef.of main_v57 : StableHlo.TRef sig ⟨S50000x128, .f32⟩).ofBuf (Val := Elt Ideal) V = V := fun _ => rfl
  have ek : ∀ V : (main_c_13 : Ref sig .tc).ty.Contents (Elt Ideal),
      (StableHlo.TRef.of main_c_13 : StableHlo.TRef sig ⟨S_, .i32⟩).ofBuf (Val := Elt Ideal) V = V := fun _ => rfl
  have ev : ∀ v : (⟨S128, .f32⟩ : BufTy).Contents (Elt Ideal),
      (StableHlo.TRef.of main_v61 : StableHlo.TRef sig ⟨S128, .f32⟩).toBuf (Val := Elt Ideal) v = v := fun _ => rfl
  after_results_simp
  simp only [ofBuf_toBuf, ex, ek, ev]
  rfl

/-- The normalised array at (r, j), over any contents; the scale and shift named. -/
theorem ops4_v76_apply (g b : FVec Ideal ⟨1, ![128]⟩ .f32) (hg : W main_arg13 = g) (hb : W main_arg14 = b)
    (r : Fin 50000) (j : Fin 128) :
    (StableHlo.after (ops4 (F := Ideal)) W (Proc.devRef .tc main_v76) : FVec Ideal ⟨2, ![50000, 128]⟩ .f32) (ix2 r j)
      = LibBN.bnAt (F := Ideal) ((W main_v57 : FVec Ideal ⟨2, ![50000, 128]⟩ .f32) (ix2 r j))
          (LibBN.colMean (F := Ideal) (W main_v57) 0x47435000#32 reducesTo_S50000x128_S128_d0 j)
          (LibBN.colVar (F := Ideal) (W main_v57) 0x47435000#32 (constantI S_ 32 0#32) reducesTo_S50000x128_S128_d0 bcast_S128_S1x128_1
            bcast_S_S1x128 bcast_S1x128_S50000x128_0_1 j)
          (g (ix1 j)) (b (ix1 j)) 0x3727C5AC#32 := by
  subst hg hb
  rw [ops4_v76, LibBN.bnDrop_apply, LibBN.meanDrop_apply, LibBN.varDrop_apply]

set_option maxHeartbeats 4000000 in
/-- The feed-forward block's result as the operations compose it. -/
theorem ops7_v110 :
    (StableHlo.after (ops7 (F := Ideal)) W (Proc.devRef .tc main_v110) : FVec Ideal ⟨2, ![50000, 128]⟩ .f32)
      = ffnExpr bcast_S256_S1x256_1 bcast_S1x256_S50000x256_0_1 bcast_S_S50000x256 bcast_S128_S1x128_1 bcast_S1x128_S50000x128_0_1
          (W main_v76) (W main_arg17) (W main_arg18) (W main_arg19) (W main_arg20) := by
  have ev : ∀ v : (⟨S50000x256, .f32⟩ : BufTy).Contents (Elt Ideal),
      (StableHlo.TRef.of main_v105 : StableHlo.TRef sig ⟨S50000x256, .f32⟩).toBuf (Val := Elt Ideal) v = v := fun _ => rfl
  have eh : ∀ V : (main_v104 : Ref sig .tc).ty.Contents (Elt Ideal),
      (StableHlo.TRef.of main_v104 : StableHlo.TRef sig ⟨S50000x256, .f32⟩).ofBuf (Val := Elt Ideal) V = V := fun _ => rfl
  after_results_simp
  simp only [ofBuf_toBuf, ev, eh]
  rfl

/-- The feed-forward block's result at (r, j), over any contents; its operands named. -/
theorem ops7_v110_apply (Y : FVec Ideal ⟨2, ![50000, 128]⟩ .f32) (W1 : FVec Ideal ⟨2, ![128, 256]⟩ .f32)
    (b1 : FVec Ideal ⟨1, ![256]⟩ .f32) (W2 : FVec Ideal ⟨2, ![256, 128]⟩ .f32) (b2 : FVec Ideal ⟨1, ![128]⟩ .f32)
    (hY : W main_v76 = Y) (hW1 : W main_arg17 = W1) (hb1 : W main_arg18 = b1) (hW2 : W main_arg19 = W2)
    (hb2 : W main_arg20 = b2) (r : Fin 50000) (j : Fin 128) :
    (StableHlo.after (ops7 (F := Ideal)) W (Proc.devRef .tc main_v110) : FVec Ideal ⟨2, ![50000, 128]⟩ .f32) (ix2 r j)
      = Y (ix2 r j) + ((∑ k : Fin 256, max ((∑ l : Fin 128, Y (ix2 r l) * W1 (ix2 l k)) + b1 (ix1 k))
            (Ideal.ofBits .f32 0x00000000#32) * W2 (ix2 k j)) + b2 (ix1 j)) := by
  subst hY hW1 hb1 hW2 hb2
  rw [ops7_v110, ffnExpr_apply]

end Nodes

/-! ## The edges -/

section Edges
variable (W : Valuation τ sig (Elt Ideal))

set_option maxHeartbeats 4000000 in
/-- The normalised array as the operations compose it. -/
theorem ops6_v100 :
    (StableHlo.after (ops6 (F := Ideal)) W (Proc.devRef .tc main_v100) : FVec Ideal ⟨2, ![500000, 128]⟩ .f32)
      = LibBN.bnDrop (F := Ideal) (W main_v81)
          (LibBN.meanDrop (F := Ideal) (W main_v81) 0x48F42400#32 reducesTo_S500000x128_S128_d0 bcast_S_S128)
          (LibBN.varDrop (F := Ideal) (W main_v81) 0x48F42400#32 (constantI S_ 32 0#32) reducesTo_S500000x128_S128_d0 bcast_S128_S1x128_1
            bcast_S_S1x128 bcast_S1x128_S500000x128_0_1 bcast_S_S128)
          (W main_arg15) (W main_arg16) 0x3727C5AC#32 bcast_S128_S1x128_1 bcast_S1x128_S500000x128_0_1 bcast_S_S128 := by
  have ex : ∀ V : (main_v81 : Ref sig .tc).ty.Contents (Elt Ideal),
      (StableHlo.TRef.of main_v81 : StableHlo.TRef sig ⟨S500000x128, .f32⟩).ofBuf (Val := Elt Ideal) V = V := fun _ => rfl
  have ek : ∀ V : (main_c_17 : Ref sig .tc).ty.Contents (Elt Ideal),
      (StableHlo.TRef.of main_c_17 : StableHlo.TRef sig ⟨S_, .i32⟩).ofBuf (Val := Elt Ideal) V = V := fun _ => rfl
  have ev : ∀ v : (⟨S128, .f32⟩ : BufTy).Contents (Elt Ideal),
      (StableHlo.TRef.of main_v85 : StableHlo.TRef sig ⟨S128, .f32⟩).toBuf (Val := Elt Ideal) v = v := fun _ => rfl
  after_results_simp
  simp only [ofBuf_toBuf, ex, ek, ev]
  rfl

/-- The normalised array at (r, j), over any contents; the scale and shift named. -/
theorem ops6_v100_apply (g b : FVec Ideal ⟨1, ![128]⟩ .f32) (hg : W main_arg15 = g) (hb : W main_arg16 = b)
    (r : Fin 500000) (j : Fin 128) :
    (StableHlo.after (ops6 (F := Ideal)) W (Proc.devRef .tc main_v100) : FVec Ideal ⟨2, ![500000, 128]⟩ .f32) (ix2 r j)
      = LibBN.bnAt (F := Ideal) ((W main_v81 : FVec Ideal ⟨2, ![500000, 128]⟩ .f32) (ix2 r j))
          (LibBN.colMean (F := Ideal) (W main_v81) 0x48F42400#32 reducesTo_S500000x128_S128_d0 j)
          (LibBN.colVar (F := Ideal) (W main_v81) 0x48F42400#32 (constantI S_ 32 0#32) reducesTo_S500000x128_S128_d0 bcast_S128_S1x128_1
            bcast_S_S1x128 bcast_S1x128_S500000x128_0_1 j)
          (g (ix1 j)) (b (ix1 j)) 0x3727C5AC#32 := by
  subst hg hb
  rw [ops6_v100, LibBN.bnDrop_apply, LibBN.meanDrop_apply, LibBN.varDrop_apply]

set_option maxHeartbeats 4000000 in
/-- The feed-forward block's result as the operations compose it. -/
theorem ops9_v139 :
    (StableHlo.after (ops9 (F := Ideal)) W (Proc.devRef .tc main_v139) : FVec Ideal ⟨2, ![500000, 128]⟩ .f32)
      = ffnExpr bcast_S256_S1x256_1 bcast_S1x256_S500000x256_0_1 bcast_S_S500000x256 bcast_S128_S1x128_1 bcast_S1x128_S500000x128_0_1
          (W main_v100) (W main_arg21) (W main_arg22) (W main_arg23) (W main_arg24) := by
  have ev : ∀ v : (⟨S500000x256, .f32⟩ : BufTy).Contents (Elt Ideal),
      (StableHlo.TRef.of main_v134 : StableHlo.TRef sig ⟨S500000x256, .f32⟩).toBuf (Val := Elt Ideal) v = v := fun _ => rfl
  have eh : ∀ V : (main_v133 : Ref sig .tc).ty.Contents (Elt Ideal),
      (StableHlo.TRef.of main_v133 : StableHlo.TRef sig ⟨S500000x256, .f32⟩).ofBuf (Val := Elt Ideal) V = V := fun _ => rfl
  after_results_simp
  simp only [ofBuf_toBuf, ev, eh]
  rfl

/-- The feed-forward block's result at (r, j), over any contents; its operands named. -/
theorem ops9_v139_apply (Y : FVec Ideal ⟨2, ![500000, 128]⟩ .f32) (W1 : FVec Ideal ⟨2, ![128, 256]⟩ .f32)
    (b1 : FVec Ideal ⟨1, ![256]⟩ .f32) (W2 : FVec Ideal ⟨2, ![256, 128]⟩ .f32) (b2 : FVec Ideal ⟨1, ![128]⟩ .f32)
    (hY : W main_v100 = Y) (hW1 : W main_arg21 = W1) (hb1 : W main_arg22 = b1) (hW2 : W main_arg23 = W2)
    (hb2 : W main_arg24 = b2) (r : Fin 500000) (j : Fin 128) :
    (StableHlo.after (ops9 (F := Ideal)) W (Proc.devRef .tc main_v139) : FVec Ideal ⟨2, ![500000, 128]⟩ .f32) (ix2 r j)
      = Y (ix2 r j) + ((∑ k : Fin 256, max ((∑ l : Fin 128, Y (ix2 r l) * W1 (ix2 l k)) + b1 (ix1 k))
            (Ideal.ofBits .f32 0x00000000#32) * W2 (ix2 k j)) + b2 (ix1 j)) := by
  subst hY hW1 hb1 hW2 hb2
  rw [ops9_v139, ffnExpr_apply]

end Edges

/-! ## At the reference's own contents -/

section AtRV
variable (m' : (ℓ : Loc nD τ sig) → Buf (Elt Ideal) ℓ) (c : Dev nD)

/-! ### Nodes -/

theorem RV4_arg13 : RV4 m' c main_arg13 = m' ((c : Thread nD τ).loc main_arg13) :=
  (RV4_of m' c main_arg13 (by decide)).trans <| (RV3_of m' c main_arg13 (by decide)).trans <| (RV2_of m' c main_arg13 (by decide)).trans <| (RV1_of m' c main_arg13 (by decide)).trans <| rfl
theorem RV4_arg14 : RV4 m' c main_arg14 = m' ((c : Thread nD τ).loc main_arg14) :=
  (RV4_of m' c main_arg14 (by decide)).trans <| (RV3_of m' c main_arg14 (by decide)).trans <| (RV2_of m' c main_arg14 (by decide)).trans <| (RV1_of m' c main_arg14 (by decide)).trans <| rfl
theorem RV7_arg17 : RV7 m' c main_arg17 = m' ((c : Thread nD τ).loc main_arg17) :=
  (RV7_of m' c main_arg17 (by decide)).trans <| (RV6_of m' c main_arg17 (by decide)).trans <| (RV5_of m' c main_arg17 (by decide)).trans <| (RV4_of m' c main_arg17 (by decide)).trans <| (RV3_of m' c main_arg17 (by decide)).trans <| (RV2_of m' c main_arg17 (by decide)).trans <| (RV1_of m' c main_arg17 (by decide)).trans <| rfl
theorem RV7_arg18 : RV7 m' c main_arg18 = m' ((c : Thread nD τ).loc main_arg18) :=
  (RV7_of m' c main_arg18 (by decide)).trans <| (RV6_of m' c main_arg18 (by decide)).trans <| (RV5_of m' c main_arg18 (by decide)).trans <| (RV4_of m' c main_arg18 (by decide)).trans <| (RV3_of m' c main_arg18 (by decide)).trans <| (RV2_of m' c main_arg18 (by decide)).trans <| (RV1_of m' c main_arg18 (by decide)).trans <| rfl
theorem RV7_arg19 : RV7 m' c main_arg19 = m' ((c : Thread nD τ).loc main_arg19) :=
  (RV7_of m' c main_arg19 (by decide)).trans <| (RV6_of m' c main_arg19 (by decide)).trans <| (RV5_of m' c main_arg19 (by decide)).trans <| (RV4_of m' c main_arg19 (by decide)).trans <| (RV3_of m' c main_arg19 (by decide)).trans <| (RV2_of m' c main_arg19 (by decide)).trans <| (RV1_of m' c main_arg19 (by decide)).trans <| rfl
theorem RV7_arg20 : RV7 m' c main_arg20 = m' ((c : Thread nD τ).loc main_arg20) :=
  (RV7_of m' c main_arg20 (by decide)).trans <| (RV6_of m' c main_arg20 (by decide)).trans <| (RV5_of m' c main_arg20 (by decide)).trans <| (RV4_of m' c main_arg20 (by decide)).trans <| (RV3_of m' c main_arg20 (by decide)).trans <| (RV2_of m' c main_arg20 (by decide)).trans <| (RV1_of m' c main_arg20 (by decide)).trans <| rfl
/-- Nothing between the normalisation and the feed-forward block writes the normalised array. -/
theorem RV7_v76 : RV7 m' c main_v76 = RV5 m' c main_v76 :=
  (RV7_of m' c main_v76 (by decide)).trans <| (RV6_of m' c main_v76 (by decide))

/-- The reference's normalised array at (r, j): its input named A, the scale and shift parameters named g and b. -/
theorem r_v76 (A : FVec Ideal ⟨2, ![50000, 128]⟩ .f32) (g b : FVec Ideal ⟨1, ![128]⟩ .f32) (hA : RV4 m' c main_v57 = A)
    (hg : m' ((c : Thread nD τ).loc main_arg13) = g) (hb : m' ((c : Thread nD τ).loc main_arg14) = b)
    (r : Fin 50000) (j : Fin 128) :
    (RV5 m' c main_v76 : FVec Ideal ⟨2, ![50000, 128]⟩ .f32) (ix2 r j)
      = LibBN.bnAt (F := Ideal) (A (ix2 r j)) (LibBN.colMean (F := Ideal) A 0x47435000#32 reducesTo_S50000x128_S128_d0 j)
            (LibBN.colVar (F := Ideal) A 0x47435000#32 (constantI S_ 32 0#32) reducesTo_S50000x128_S128_d0 bcast_S128_S1x128_1 bcast_S_S1x128
              bcast_S1x128_S50000x128_0_1 j)
            (g (ix1 j)) (b (ix1 j)) 0x3727C5AC#32 := by
  subst hA
  exact ops4_v76_apply (RV4 m' c) g b ((RV4_arg13 m' c).trans hg) ((RV4_arg14 m' c).trans hb) r j

/-- The reference's feed-forward result at (r, j): the normalised array named Y, the four parameters named. -/
theorem r_v110 (Y : FVec Ideal ⟨2, ![50000, 128]⟩ .f32) (W1 : FVec Ideal ⟨2, ![128, 256]⟩ .f32) (b1 : FVec Ideal ⟨1, ![256]⟩ .f32)
    (W2 : FVec Ideal ⟨2, ![256, 128]⟩ .f32) (b2 : FVec Ideal ⟨1, ![128]⟩ .f32)
    (hY : RV5 m' c main_v76 = Y) (hW1 : m' ((c : Thread nD τ).loc main_arg17) = W1) (hb1 : m' ((c : Thread nD τ).loc main_arg18) = b1)
    (hW2 : m' ((c : Thread nD τ).loc main_arg19) = W2) (hb2 : m' ((c : Thread nD τ).loc main_arg20) = b2)
    (r : Fin 50000) (j : Fin 128) :
    (RV8 m' c main_v110 : FVec Ideal ⟨2, ![50000, 128]⟩ .f32) (ix2 r j)
      = Y (ix2 r j) + ((∑ k : Fin 256, max ((∑ l : Fin 128, Y (ix2 r l) * W1 (ix2 l k)) + b1 (ix1 k))
            (Ideal.ofBits .f32 0x00000000#32) * W2 (ix2 k j)) + b2 (ix1 j)) :=
  ops7_v110_apply (RV7 m' c) Y W1 b1 W2 b2 ((RV7_v76 m' c).trans hY) ((RV7_arg17 m' c).trans hW1) ((RV7_arg18 m' c).trans hb1)
    ((RV7_arg19 m' c).trans hW2) ((RV7_arg20 m' c).trans hb2) r j

/-- The same with the normalised entries written out. -/
theorem r_v110_bn (A : FVec Ideal ⟨2, ![50000, 128]⟩ .f32) (g b : FVec Ideal ⟨1, ![128]⟩ .f32) (W1 : FVec Ideal ⟨2, ![128, 256]⟩ .f32) (b1 : FVec Ideal ⟨1, ![256]⟩ .f32)
    (W2 : FVec Ideal ⟨2, ![256, 128]⟩ .f32) (b2 : FVec Ideal ⟨1, ![128]⟩ .f32)
    (hA : RV4 m' c main_v57 = A)
    (hg : m' ((c : Thread nD τ).loc main_arg13) = g) (hb : m' ((c : Thread nD τ).loc main_arg14) = b)
    (hW1 : m' ((c : Thread nD τ).loc main_arg17) = W1) (hb1 : m' ((c : Thread nD τ).loc main_arg18) = b1)
    (hW2 : m' ((c : Thread nD τ).loc main_arg19) = W2) (hb2 : m' ((c : Thread nD τ).loc main_arg20) = b2)
    (r : Fin 50000) (j : Fin 128) :
    (RV8 m' c main_v110 : FVec Ideal ⟨2, ![50000, 128]⟩ .f32) (ix2 r j)
      = (LibBN.bnAt (F := Ideal) (A (ix2 r j)) (LibBN.colMean (F := Ideal) A 0x47435000#32 reducesTo_S50000x128_S128_d0 j)
            (LibBN.colVar (F := Ideal) A 0x47435000#32 (constantI S_ 32 0#32) reducesTo_S50000x128_S128_d0 bcast_S128_S1x128_1 bcast_S_S1x128
              bcast_S1x128_S50000x128_0_1 j)
            (g (ix1 j)) (b (ix1 j)) 0x3727C5AC#32) + ((∑ k : Fin 256, max ((∑ l : Fin 128, (LibBN.bnAt (F := Ideal) (A (ix2 r l)) (LibBN.colMean (F := Ideal) A 0x47435000#32 reducesTo_S50000x128_S128_d0 l)
            (LibBN.colVar (F := Ideal) A 0x47435000#32 (constantI S_ 32 0#32) reducesTo_S50000x128_S128_d0 bcast_S128_S1x128_1 bcast_S_S1x128
              bcast_S1x128_S50000x128_0_1 l)
            (g (ix1 l)) (b (ix1 l)) 0x3727C5AC#32) * W1 (ix2 l k)) + b1 (ix1 k))
            (Ideal.ofBits .f32 0x00000000#32) * W2 (ix2 k j)) + b2 (ix1 j)) := by
  rw [r_v110 m' c (RV5 m' c main_v76) W1 b1 W2 b2 rfl hW1 hb1 hW2 hb2 r j]
  simp only [r_v76 m' c A g b hA hg hb]

/-! ### Edges -/

theorem RV6_arg15 : RV6 m' c main_arg15 = m' ((c : Thread nD τ).loc main_arg15) :=
  (RV6_of m' c main_arg15 (by decide)).trans <| (RV5_of m' c main_arg15 (by decide)).trans <| (RV4_of m' c main_arg15 (by decide)).trans <| (RV3_of m' c main_arg15 (by decide)).trans <| (RV2_of m' c main_arg15 (by decide)).trans <| (RV1_of m' c main_arg15 (by decide)).trans <| rfl
theorem RV6_arg16 : RV6 m' c main_arg16 = m' ((c : Thread nD τ).loc main_arg16) :=
  (RV6_of m' c main_arg16 (by decide)).trans <| (RV5_of m' c main_arg16 (by decide)).trans <| (RV4_of m' c main_arg16 (by decide)).trans <| (RV3_of m' c main_arg16 (by decide)).trans <| (RV2_of m' c main_arg16 (by decide)).trans <| (RV1_of m' c main_arg16 (by decide)).trans <| rfl
theorem RV9_arg21 : RV9 m' c main_arg21 = m' ((c : Thread nD τ).loc main_arg21) :=
  (RV9_of m' c main_arg21 (by decide)).trans <| (RV8_of m' c main_arg21 (by decide)).trans <| (RV7_of m' c main_arg21 (by decide)).trans <| (RV6_of m' c main_arg21 (by decide)).trans <| (RV5_of m' c main_arg21 (by decide)).trans <| (RV4_of m' c main_arg21 (by decide)).trans <| (RV3_of m' c main_arg21 (by decide)).trans <| (RV2_of m' c main_arg21 (by decide)).trans <| (RV1_of m' c main_arg21 (by decide)).trans <| rfl
theorem RV9_arg22 : RV9 m' c main_arg22 = m' ((c : Thread nD τ).loc main_arg22) :=
  (RV9_of m' c main_arg22 (by decide)).trans <| (RV8_of m' c main_arg22 (by decide)).trans <| (RV7_of m' c main_arg22 (by decide)).trans <| (RV6_of m' c main_arg22 (by decide)).trans <| (RV5_of m' c main_arg22 (by decide)).trans <| (RV4_of m' c main_arg22 (by decide)).trans <| (RV3_of m' c main_arg22 (by decide)).trans <| (RV2_of m' c main_arg22 (by decide)).trans <| (RV1_of m' c main_arg22 (by decide)).trans <| rfl
theorem RV9_arg23 : RV9 m' c main_arg23 = m' ((c : Thread nD τ).loc main_arg23) :=
  (RV9_of m' c main_arg23 (by decide)).trans <| (RV8_of m' c main_arg23 (by decide)).trans <| (RV7_of m' c main_arg23 (by decide)).trans <| (RV6_of m' c main_arg23 (by decide)).trans <| (RV5_of m' c main_arg23 (by decide)).trans <| (RV4_of m' c main_arg23 (by decide)).trans <| (RV3_of m' c main_arg23 (by decide)).trans <| (RV2_of m' c main_arg23 (by decide)).trans <| (RV1_of m' c main_arg23 (by decide)).trans <| rfl
theorem RV9_arg24 : RV9 m' c main_arg24 = m' ((c : Thread nD τ).loc main_arg24) :=
  (RV9_of m' c main_arg24 (by decide)).trans <| (RV8_of m' c main_arg24 (by decide)).trans <| (RV7_of m' c main_arg24 (by decide)).trans <| (RV6_of m' c main_arg24 (by decide)).trans <| (RV5_of m' c main_arg24 (by decide)).trans <| (RV4_of m' c main_arg24 (by decide)).trans <| (RV3_of m' c main_arg24 (by decide)).trans <| (RV2_of m' c main_arg24 (by decide)).trans <| (RV1_of m' c main_arg24 (by decide)).trans <| rfl
/-- Nothing between the normalisation and the feed-forward block writes the normalised array. -/
theorem RV9_v100 : RV9 m' c main_v100 = RV7 m' c main_v100 :=
  (RV9_of m' c main_v100 (by decide)).trans <| (RV8_of m' c main_v100 (by decide))

/-- The reference's normalised array at (r, j): its input named A, the scale and shift parameters named g and b. -/
theorem r_v100 (A : FVec Ideal ⟨2, ![500000, 128]⟩ .f32) (g b : FVec Ideal ⟨1, ![128]⟩ .f32) (hA : RV6 m' c main_v81 = A)
    (hg : m' ((c : Thread nD τ).loc main_arg15) = g) (hb : m' ((c : Thread nD τ).loc main_arg16) = b)
    (r : Fin 500000) (j : Fin 128) :
    (RV7 m' c main_v100 : FVec Ideal ⟨2, ![500000, 128]⟩ .f32) (ix2 r j)
      = LibBN.bnAt (F := Ideal) (A (ix2 r j)) (LibBN.colMean (F := Ideal) A 0x48F42400#32 reducesTo_S500000x128_S128_d0 j)
            (LibBN.colVar (F := Ideal) A 0x48F42400#32 (constantI S_ 32 0#32) reducesTo_S500000x128_S128_d0 bcast_S128_S1x128_1 bcast_S_S1x128
              bcast_S1x128_S500000x128_0_1 j)
            (g (ix1 j)) (b (ix1 j)) 0x3727C5AC#32 := by
  subst hA
  exact ops6_v100_apply (RV6 m' c) g b ((RV6_arg15 m' c).trans hg) ((RV6_arg16 m' c).trans hb) r j

/-- The reference's feed-forward result at (r, j): the normalised array named Y, the four parameters named. -/
theorem r_v139 (Y : FVec Ideal ⟨2, ![500000, 128]⟩ .f32) (W1 : FVec Ideal ⟨2, ![128, 256]⟩ .f32) (b1 : FVec Ideal ⟨1, ![256]⟩ .f32)
    (W2 : FVec Ideal ⟨2, ![256, 128]⟩ .f32) (b2 : FVec Ideal ⟨1, ![128]⟩ .f32)
    (hY : RV7 m' c main_v100 = Y) (hW1 : m' ((c : Thread nD τ).loc main_arg21) = W1) (hb1 : m' ((c : Thread nD τ).loc main_arg22) = b1)
    (hW2 : m' ((c : Thread nD τ).loc main_arg23) = W2) (hb2 : m' ((c : Thread nD τ).loc main_arg24) = b2)
    (r : Fin 500000) (j : Fin 128) :
    (RV10 m' c main_v139 : FVec Ideal ⟨2, ![500000, 128]⟩ .f32) (ix2 r j)
      = Y (ix2 r j) + ((∑ k : Fin 256, max ((∑ l : Fin 128, Y (ix2 r l) * W1 (ix2 l k)) + b1 (ix1 k))
            (Ideal.ofBits .f32 0x00000000#32) * W2 (ix2 k j)) + b2 (ix1 j)) :=
  ops9_v139_apply (RV9 m' c) Y W1 b1 W2 b2 ((RV9_v100 m' c).trans hY) ((RV9_arg21 m' c).trans hW1) ((RV9_arg22 m' c).trans hb1)
    ((RV9_arg23 m' c).trans hW2) ((RV9_arg24 m' c).trans hb2) r j

/-- The same with the normalised entries written out. -/
theorem r_v139_bn (A : FVec Ideal ⟨2, ![500000, 128]⟩ .f32) (g b : FVec Ideal ⟨1, ![128]⟩ .f32) (W1 : FVec Ideal ⟨2, ![128, 256]⟩ .f32) (b1 : FVec Ideal ⟨1, ![256]⟩ .f32)
    (W2 : FVec Ideal ⟨2, ![256, 128]⟩ .f32) (b2 : FVec Ideal ⟨1, ![128]⟩ .f32)
    (hA : RV6 m' c main_v81 = A)
    (hg : m' ((c : Thread nD τ).loc main_arg15) = g) (hb : m' ((c : Thread nD τ).loc main_arg16) = b)
    (hW1 : m' ((c : Thread nD τ).loc main_arg21) = W1) (hb1 : m' ((c : Thread nD τ).loc main_arg22) = b1)
    (hW2 : m' ((c : Thread nD τ).loc main_arg23) = W2) (hb2 : m' ((c : Thread nD τ).loc main_arg24) = b2)
    (r : Fin 500000) (j : Fin 128) :
    (RV10 m' c main_v139 : FVec Ideal ⟨2, ![500000, 128]⟩ .f32) (ix2 r j)
      = (LibBN.bnAt (F := Ideal) (A (ix2 r j)) (LibBN.colMean (F := Ideal) A 0x48F42400#32 reducesTo_S500000x128_S128_d0 j)
            (LibBN.colVar (F := Ideal) A 0x48F42400#32 (constantI S_ 32 0#32) reducesTo_S500000x128_S128_d0 bcast_S128_S1x128_1 bcast_S_S1x128
              bcast_S1x128_S500000x128_0_1 j)
            (g (ix1 j)) (b (ix1 j)) 0x3727C5AC#32) + ((∑ k : Fin 256, max ((∑ l : Fin 128, (LibBN.bnAt (F := Ideal) (A (ix2 r l)) (LibBN.colMean (F := Ideal) A 0x48F42400#32 reducesTo_S500000x128_S128_d0 l)
            (LibBN.colVar (F := Ideal) A 0x48F42400#32 (constantI S_ 32 0#32) reducesTo_S500000x128_S128_d0 bcast_S128_S1x128_1 bcast_S_S1x128
              bcast_S1x128_S500000x128_0_1 l)
            (g (ix1 l)) (b (ix1 l)) 0x3727C5AC#32) * W1 (ix2 l k)) + b1 (ix1 k))
            (Ideal.ofBits .f32 0x00000000#32) * W2 (ix2 k j)) + b2 (ix1 j)) := by
  rw [r_v139 m' c (RV7 m' c main_v100) W1 b1 W2 b2 rfl hW1 hb1 hW2 hb2 r j]
  simp only [r_v100 m' c A g b hA hg hb]

end AtRV

end Cert.Bridge.S5
end
-- ==== Proof.Val.S5.lean ====
/-
  Stage 5: the first normalisation and the feed-forward block, nodes and edges.

  On the kernel side the host computes the column means and variances of the array stage 4 left and regions 5 and 6
  apply to each row ((x - mean) * rsqrt (var + ε)) * g + b and then y + ((relu (y W1 + b1)) W2 + b2); the reference
  computes the same statistics with the reduced axis dropped and the same row function by whole-array operations. Entry
  by entry both are one expression of the array of stage 4, its column statistics and the arguments.
-/
import proofs.«101045_j34351148433892_1_alg».proof.Proof.Val.S5Reg
import proofs.«101045_j34351148433892_1_alg».proof.Proof.Val.S5K
import proofs.«101045_j34351148433892_1_alg».proof.Proof.Val.S5Ref

set_option maxRecDepth 16384

noncomputable section

namespace Cert.Bridge.S5

open Cert.KernelIdeal Cert.KernelIdeal.Gen Cert.KernelIdeal.Hand
open Idealize.ShloMosaic Idealize.ShloMosaic.TcCoe Idealize.SL.Sem Idealize.ShloMosaic.ValueIdx
open Cert.ReferenceIdeal.Hand
open Cert.Bridge

variable (m : (ℓ : Loc nD τ sig) → Buf (Elt Ideal) ℓ) (outs : Outs (F := Ideal))
variable (m' : (ℓ : Loc Cert.ReferenceIdeal.nD Cert.ReferenceIdeal.τ Cert.ReferenceIdeal.sig) → Buf (Elt Ideal) ℓ)

/-! ## Nodes -/

/-- The kernel side: what region 5 leaves at (r, j), over the array stage 4 left and the arguments. -/
theorem k_v70 (c : Dev nD)
    (hslot : (dat5 (fun c b => V14 m outs c b) c).arrAt 9 cfg5.N = outs 15 main_v70 c)
    (r : Fin 50000) (j : Fin 128) :
    (V15 m outs c main_v70 : S50000x128.Idx → EReal) (ix2 r j)
      = ffnAt (fun l => LibBN.bnAt (F := Ideal) (S5K.kA m outs c (ix2 r l))
          (LibBN.colMean (F := Ideal) (S5K.kA m outs c) 0x47435000#32 reducesTo_S50000x128_S128_d0 l)
          (LibBN.colVar (F := Ideal) (S5K.kA m outs c) 0x47435000#32 (constantI S_ 32 0#32) reducesTo_S50000x128_S128_d0 bcast_S128_S1x128_1
            bcast_S_S1x128 bcast_S1x128_S50000x128_0_1 l)
          (((m ((c.tc : Thread nD τ).loc main_arg13)) : FVec Ideal ⟨1, ![128]⟩ .f32) (ix1 l)) (((m ((c.tc : Thread nD τ).loc main_arg14)) : FVec Ideal ⟨1, ![128]⟩ .f32) (ix1 l)) 0x3727C5AC#32)
        (fun l k => ((m ((c.tc : Thread nD τ).loc main_arg17)) : FVec Ideal S128x256 .f32) (ix2 l k)) (fun k => ((m ((c.tc : Thread nD τ).loc main_arg18)) : FVec Ideal ⟨1, ![256]⟩ .f32) (ix1 k))
        (fun k q => ((m ((c.tc : Thread nD τ).loc main_arg19)) : FVec Ideal S256x128 .f32) (ix2 k q)) (fun q => ((m ((c.tc : Thread nD τ).loc main_arg20)) : FVec Ideal ⟨1, ![128]⟩ .f32) (ix1 q)) j := by
  have h0 : V15 m outs c main_v70 = outs 15 main_v70 c := Function.update_self _ _ _
  rw [h0, ← hslot, val5_9 (fun c b => V14 m outs c b) c]
  show ffnAt (fun l => LibBN.bnAt (F := Ideal) ((V14 m outs c main_v54 : FVec Ideal ⟨2, ![50000, 128]⟩ .f32) (ix2 r l))
        ((V14 m outs c main_v59 : FVec Ideal ⟨2, ![1, 128]⟩ .f32) (ix2 (0 : Fin 1) l))
        ((V14 m outs c main_v60 : FVec Ideal ⟨2, ![1, 128]⟩ .f32) (ix2 (0 : Fin 1) l))
        ((V14 m outs c main_v66 : FVec Ideal ⟨2, ![1, 128]⟩ .f32) (ix2 (0 : Fin 1) l))
        ((V14 m outs c main_v67 : FVec Ideal ⟨2, ![1, 128]⟩ .f32) (ix2 (0 : Fin 1) l)) 0x3727C5AC#32)
      (fun l k => (V14 m outs c main_v5 : FVec Ideal S128x256 .bf16) (ix2 l k))
      (fun k => (V14 m outs c main_v11 : FVec Ideal S1x256 .f32) (ix2 (0 : Fin 1) k))
      (fun k q => (V14 m outs c main_v6 : FVec Ideal S256x128 .bf16) (ix2 k q))
      (fun q => (V14 m outs c main_v12 : FVec Ideal S1x128 .f32) (ix2 (0 : Fin 1) q)) j = _
  simp only [S5K.e5_mean m outs c, S5K.e5_var m outs c, S5K.e5_g m outs c, S5K.e5_b m outs c,
    S5K.e5_W1 m outs c, S5K.e5_b1 m outs c, S5K.e5_W2 m outs c, S5K.e5_b2 m outs c]
  rw [S5K.e5_x m outs c]

/-- Stage 5 for the nodes: from the arrays of stage 4 equal entry by entry and the arguments equal, the arrays
    after the normalisation and the feed-forward block are equal entry by entry. -/
theorem stage_v70 (c : Dev nD)
    (hslot : (dat5 (fun c b => V14 m outs c b) c).arrAt 9 cfg5.N = outs 15 main_v70 c)
    (h54 : ∀ (r : Fin 50000) (j : Fin 128), (V8 m outs c main_v54 : S50000x128.Idx → EReal) (ix2 r j)
      = (RV4 m' c Cert.ReferenceIdeal.main_v57 : Cert.ReferenceIdeal.S50000x128.Idx → EReal) (ix2 r j))
    (ha13 : m' ((c.tc : Thread Cert.ReferenceIdeal.nD Cert.ReferenceIdeal.τ).loc Cert.ReferenceIdeal.main_arg13) = m ((c.tc : Thread nD τ).loc main_arg13))
    (ha14 : m' ((c.tc : Thread Cert.ReferenceIdeal.nD Cert.ReferenceIdeal.τ).loc Cert.ReferenceIdeal.main_arg14) = m ((c.tc : Thread nD τ).loc main_arg14))
    (ha17 : m' ((c.tc : Thread Cert.ReferenceIdeal.nD Cert.ReferenceIdeal.τ).loc Cert.ReferenceIdeal.main_arg17) = m ((c.tc : Thread nD τ).loc main_arg17))
    (ha18 : m' ((c.tc : Thread Cert.ReferenceIdeal.nD Cert.ReferenceIdeal.τ).loc Cert.ReferenceIdeal.main_arg18) = m ((c.tc : Thread nD τ).loc main_arg18))
    (ha19 : m' ((c.tc : Thread Cert.ReferenceIdeal.nD Cert.ReferenceIdeal.τ).loc Cert.ReferenceIdeal.main_arg19) = m ((c.tc : Thread nD τ).loc main_arg19))
    (ha20 : m' ((c.tc : Thread Cert.ReferenceIdeal.nD Cert.ReferenceIdeal.τ).loc Cert.ReferenceIdeal.main_arg20) = m ((c.tc : Thread nD τ).loc main_arg20))
    (r : Fin 50000) (j : Fin 128) :
    (V15 m outs c main_v70 : S50000x128.Idx → EReal) (ix2 r j)
      = (RV8 m' c Cert.ReferenceIdeal.main_v110 : Cert.ReferenceIdeal.S50000x128.Idx → EReal) (ix2 r j) := by
  have hA : (RV4 m' c Cert.ReferenceIdeal.main_v57 : Cert.ReferenceIdeal.S50000x128.Idx → EReal) = (S5K.kA m outs c : S50000x128.Idx → EReal) := by
    funext i
    obtain ⟨p, q, rfl⟩ : ∃ (p : Fin 50000) (q : Fin 128), i = ix2 p q := ⟨i 0, i 1, eq_ix2 i⟩
    exact (h54 p q).symm
  rw [k_v70 m outs c hslot r j]
  exact (r_v110_bn m' c _ _ _ _ _ _ _ hA ha13 ha14 ha17 ha18 ha19 ha20 r j).symm

/-! ## Edges -/

/-- The kernel side: what region 6 leaves at (e, j), over the array stage 4 left and the arguments. -/
theorem k_v71 (c : Dev nD)
    (hslot : (dat6 (fun c b => V15 m outs c b) c).arrAt 9 cfg6.N = outs 16 main_v71 c)
    (e : Fin 500000) (j : Fin 128) :
    (V16 m outs c main_v71 : S500000x128.Idx → EReal) (ix2 e j)
      = ffnAt (fun l => LibBN.bnAt (F := Ideal) (S5K.kE m outs c (ix2 e l))
          (LibBN.colMean (F := Ideal) (S5K.kE m outs c) 0x48F42400#32 reducesTo_S500000x128_S128_d0 l)
          (LibBN.colVar (F := Ideal) (S5K.kE m outs c) 0x48F42400#32 (constantI S_ 32 0#32) reducesTo_S500000x128_S128_d0 bcast_S128_S1x128_1
            bcast_S_S1x128 bcast_S1x128_S500000x128_0_1 l)
          (((m ((c.tc : Thread nD τ).loc main_arg15)) : FVec Ideal ⟨1, ![128]⟩ .f32) (ix1 l)) (((m ((c.tc : Thread nD τ).loc main_arg16)) : FVec Ideal ⟨1, ![128]⟩ .f32) (ix1 l)) 0x3727C5AC#32)
        (fun l k => ((m ((c.tc : Thread nD τ).loc main_arg21)) : FVec Ideal S128x256 .f32) (ix2 l k)) (fun k => ((m ((c.tc : Thread nD τ).loc main_arg22)) : FVec Ideal ⟨1, ![256]⟩ .f32) (ix1 k))
        (fun k q => ((m ((c.tc : Thread nD τ).loc main_arg23)) : FVec Ideal S256x128 .f32) (ix2 k q)) (fun q => ((m ((c.tc : Thread nD τ).loc main_arg24)) : FVec Ideal ⟨1, ![128]⟩ .f32) (ix1 q)) j := by
  have h0 : V16 m outs c main_v71 = outs 16 main_v71 c := Function.update_self _ _ _
  rw [h0, ← hslot, val6_9 (fun c b => V15 m outs c b) c]
  show ffnAt (fun l => LibBN.bnAt (F := Ideal) ((V15 m outs c main_v55 : FVec Ideal ⟨2, ![500000, 128]⟩ .f32) (ix2 e l))
        ((V15 m outs c main_v64 : FVec Ideal ⟨2, ![1, 128]⟩ .f32) (ix2 (0 : Fin 1) l))
        ((V15 m outs c main_v65 : FVec Ideal ⟨2, ![1, 128]⟩ .f32) (ix2 (0 : Fin 1) l))
        ((V15 m outs c main_v68 : FVec Ideal ⟨2, ![1, 128]⟩ .f32) (ix2 (0 : Fin 1) l))
        ((V15 m outs c main_v69 : FVec Ideal ⟨2, ![1, 128]⟩ .f32) (ix2 (0 : Fin 1) l)) 0x3727C5AC#32)
      (fun l k => (V15 m outs c main_v7 : FVec Ideal S128x256 .bf16) (ix2 l k))
      (fun k => (V15 m outs c main_v13 : FVec Ideal S1x256 .f32) (ix2 (0 : Fin 1) k))
      (fun k q => (V15 m outs c main_v8 : FVec Ideal S256x128 .bf16) (ix2 k q))
      (fun q => (V15 m outs c main_v14 : FVec Ideal S1x128 .f32) (ix2 (0 : Fin 1) q)) j = _
  simp only [S5K.e6_mean m outs c, S5K.e6_var m outs c, S5K.e6_g m outs c, S5K.e6_b m outs c,
    S5K.e6_W1 m outs c, S5K.e6_b1 m outs c, S5K.e6_W2 m outs c, S5K.e6_b2 m outs c]
  rw [S5K.e6_x m outs c]

/-- Stage 5 for the edges: from the arrays of stage 4 equal entry by entry and the arguments equal, the arrays
    after the normalisation and the feed-forward block are equal entry by entry. -/
theorem stage_v71 (c : Dev nD)
    (hslot : (dat6 (fun c b => V15 m outs c b) c).arrAt 9 cfg6.N = outs 16 main_v71 c)
    (h55 : ∀ (e : Fin 500000) (j : Fin 128), (V9 m outs c main_v55 : S500000x128.Idx → EReal) (ix2 e j)
      = (RV6 m' c Cert.ReferenceIdeal.main_v81 : Cert.ReferenceIdeal.S500000x128.Idx → EReal) (ix2 e j))
    (ha15 : m' ((c.tc : Thread Cert.ReferenceIdeal.nD Cert.ReferenceIdeal.τ).loc Cert.ReferenceIdeal.main_arg15) = m ((c.tc : Thread nD τ).loc main_arg15))
    (ha16 : m' ((c.tc : Thread Cert.ReferenceIdeal.nD Cert.ReferenceIdeal.τ).loc Cert.ReferenceIdeal.main_arg16) = m ((c.tc : Thread nD τ).loc main_arg16))
    (ha21 : m' ((c.tc : Thread Cert.ReferenceIdeal.nD Cert.ReferenceIdeal.τ).loc Cert.ReferenceIdeal.main_arg21) = m ((c.tc : Thread nD τ).loc main_arg21))
    (ha22 : m' ((c.tc : Thread Cert.ReferenceIdeal.nD Cert.ReferenceIdeal.τ).loc Cert.ReferenceIdeal.main_arg22) = m ((c.tc : Thread nD τ).loc main_arg22))
    (ha23 : m' ((c.tc : Thread Cert.ReferenceIdeal.nD Cert.ReferenceIdeal.τ).loc Cert.ReferenceIdeal.main_arg23) = m ((c.tc : Thread nD τ).loc main_arg23))
    (ha24 : m' ((c.tc : Thread Cert.ReferenceIdeal.nD Cert.ReferenceIdeal.τ).loc Cert.ReferenceIdeal.main_arg24) = m ((c.tc : Thread nD τ).loc main_arg24))
    (e : Fin 500000) (j : Fin 128) :
    (V16 m outs c main_v71 : S500000x128.Idx → EReal) (ix2 e j)
      = (RV10 m' c Cert.ReferenceIdeal.main_v139 : Cert.ReferenceIdeal.S500000x128.Idx → EReal) (ix2 e j) := by
  have hA : (RV6 m' c Cert.ReferenceIdeal.main_v81 : Cert.ReferenceIdeal.S500000x128.Idx → EReal) = (S5K.kE m outs c : S500000x128.Idx → EReal) := by
    funext i
    obtain ⟨p, q, rfl⟩ : ∃ (p : Fin 500000) (q : Fin 128), i = ix2 p q := ⟨i 0, i 1, eq_ix2 i⟩
    exact (h55 p q).symm
  rw [k_v71 m outs c hslot e j]
  exact (r_v139_bn m' c _ _ _ _ _ _ _ hA ha15 ha16 ha21 ha22 ha23 ha24 e j).symm

end Cert.Bridge.S5
-- ==== Proof.Val.S6Ref.lean ====
/-
  The reference's second normalisation, of the nodes and of the edges, read at an index. Each is, as a whole
  array, the normalisation of its input by the input's own column means and column variances with a per-column
  scale and shift; at row r and column j it is the one entry normalised by column j's four numbers.
-/
import proofs.«101045_j34351148433892_1_alg».proof.Proof.Ref.Ops
import proofs.«101045_j34351148433892_1_alg».proof.Proof.Val.LibBN
import Idealize.ShloMosaic.Lib.Pipeline.Regions

set_option maxRecDepth 8192

open Idealize.ShloMosaic Idealize.ShloMosaic.ValueIdx Idealize.ShloMosaic.TcCoe
open Cert.ReferenceIdeal Cert.ReferenceIdeal.Gen Cert.ReferenceIdeal.Hand Cert.Bridge.LibBN

noncomputable section

namespace Cert.Bridge.S6.R

/-! ## The two lists as whole-array normalisations (any float values) -/

section Ops

variable {F : FTy → Type} [FloatOps F] (m' : (ℓ : Loc nD τ sig) → Buf (Elt F) ℓ) (c : Dev nD)

/-- The ninth list: the node result is the node feed-forward output normalised over the 50000 nodes. -/
theorem r_v129 : (RV9 m' c main_v129 : (⟨S50000x128, .f32⟩ : BufTy).Contents (Elt F))
    = bnDrop (RV8 m' c main_v110 : (⟨S50000x128, .f32⟩ : BufTy).Contents (Elt F))
        (meanDrop (RV8 m' c main_v110 : (⟨S50000x128, .f32⟩ : BufTy).Contents (Elt F)) 0x47435000#32 reducesTo_S50000x128_S128_d0 bcast_S_S128)
        (varDrop (RV8 m' c main_v110 : (⟨S50000x128, .f32⟩ : BufTy).Contents (Elt F)) 0x47435000#32 (constantI S_ 32 0#32) reducesTo_S50000x128_S128_d0
          bcast_S128_S1x128_1 bcast_S_S1x128 bcast_S1x128_S50000x128_0_1 bcast_S_S128)
        (m' ((c : Thread nD τ).loc main_arg25) : (⟨S128, .f32⟩ : BufTy).Contents (Elt F)) (m' ((c : Thread nD τ).loc main_arg26) : (⟨S128, .f32⟩ : BufTy).Contents (Elt F))
        0x3727C5AC#32 bcast_S128_S1x128_1 bcast_S1x128_S50000x128_0_1 bcast_S_S128 := by
  chain_rfl

/-- The eleventh list: the edge result is the edge feed-forward output normalised over the 500000 edges. -/
theorem r_v158 : (RV11 m' c main_v158 : (⟨S500000x128, .f32⟩ : BufTy).Contents (Elt F))
    = bnDrop (RV10 m' c main_v139 : (⟨S500000x128, .f32⟩ : BufTy).Contents (Elt F))
        (meanDrop (RV10 m' c main_v139 : (⟨S500000x128, .f32⟩ : BufTy).Contents (Elt F)) 0x48F42400#32 reducesTo_S500000x128_S128_d0 bcast_S_S128)
        (varDrop (RV10 m' c main_v139 : (⟨S500000x128, .f32⟩ : BufTy).Contents (Elt F)) 0x48F42400#32 (constantI S_ 32 0#32) reducesTo_S500000x128_S128_d0
          bcast_S128_S1x128_1 bcast_S_S1x128 bcast_S1x128_S500000x128_0_1 bcast_S_S128)
        (m' ((c : Thread nD τ).loc main_arg27) : (⟨S128, .f32⟩ : BufTy).Contents (Elt F)) (m' ((c : Thread nD τ).loc main_arg28) : (⟨S128, .f32⟩ : BufTy).Contents (Elt F))
        0x3727C5AC#32 bcast_S128_S1x128_1 bcast_S1x128_S500000x128_0_1 bcast_S_S128 := by
  chain_rfl

end Ops

/-! ## Read at an index (the ideal values) -/

section Values

variable (m' : (ℓ : Loc nD τ sig) → Buf (Elt Ideal) ℓ) (c : Dev nD)

/-- The node result at (r, j). -/
theorem v129_apply (r : Fin 50000) (j : Fin 128) :
    (RV9 m' c (main_v129 : DevRef τ sig) : S50000x128.Idx → EReal) (ix2 r j)
      = bnAt (F := Ideal) ((RV8 m' c (main_v110 : DevRef τ sig) : S50000x128.Idx → EReal) (ix2 r j))
          (colMean (F := Ideal) (RV8 m' c (main_v110 : DevRef τ sig) : S50000x128.Idx → EReal) 0x47435000#32 reducesTo_S50000x128_S128_d0 j)
          (colVar (F := Ideal) (RV8 m' c (main_v110 : DevRef τ sig) : S50000x128.Idx → EReal) 0x47435000#32 (constantI S_ 32 0#32)
            reducesTo_S50000x128_S128_d0 bcast_S128_S1x128_1 bcast_S_S1x128 bcast_S1x128_S50000x128_0_1 j)
          ((m' ((c : Thread nD τ).loc main_arg25) : S128.Idx → EReal) (ix1 j))
          ((m' ((c : Thread nD τ).loc main_arg26) : S128.Idx → EReal) (ix1 j)) 0x3727C5AC#32 := by
  refine (congrFun (r_v129 m' c) (ix2 r j)).trans ?_
  rw [bnDrop_apply, meanDrop_apply, varDrop_apply]

/-- The edge result at (e, j). -/
theorem v158_apply (e : Fin 500000) (j : Fin 128) :
    (RV11 m' c (main_v158 : DevRef τ sig) : S500000x128.Idx → EReal) (ix2 e j)
      = bnAt (F := Ideal) ((RV10 m' c (main_v139 : DevRef τ sig) : S500000x128.Idx → EReal) (ix2 e j))
          (colMean (F := Ideal) (RV10 m' c (main_v139 : DevRef τ sig) : S500000x128.Idx → EReal) 0x48F42400#32 reducesTo_S500000x128_S128_d0 j)
          (colVar (F := Ideal) (RV10 m' c (main_v139 : DevRef τ sig) : S500000x128.Idx → EReal) 0x48F42400#32 (constantI S_ 32 0#32)
            reducesTo_S500000x128_S128_d0 bcast_S128_S1x128_1 bcast_S_S1x128 bcast_S1x128_S500000x128_0_1 j)
          ((m' ((c : Thread nD τ).loc main_arg27) : S128.Idx → EReal) (ix1 j))
          ((m' ((c : Thread nD τ).loc main_arg28) : S128.Idx → EReal) (ix1 j)) 0x3727C5AC#32 := by
  refine (congrFun (r_v158 m' c) (ix2 e j)).trans ?_
  rw [bnDrop_apply, meanDrop_apply, varDrop_apply]

end Values

end Cert.Bridge.S6.R

end
-- ==== Proof.Val.S6.lean ====
/-
  Stage six: the last normalisation of the node features and of the edge features, on the host in both programs.

  Kernel program: after the two feed-forward regions have written their outputs x (nodes) and y (edges), the host
  computes for each of them the column means and column variances with the reduced axis kept ([1, 128]), and then
  (x - mean) * rsqrt (var + eps) * scale + shift, the statistics laid down the rows. Reference program: the same with
  the reduced axis dropped ([128]) and each statistic laid as one row before it is laid down the rows. At every (r, j)
  both are the same scalar expression of the entry and of column j (LibBN: `bnAt`, `colMean`, `colVar`), so equal inputs
  give equal outputs.
-/
import proofs.«101045_j34351148433892_1_alg».proof.Proof.Gen.KernelIdeal.Regions
import proofs.«101045_j34351148433892_1_alg».proof.Proof.Val.LibBN
import proofs.«101045_j34351148433892_1_alg».proof.Proof.Val.S6Ref
import Idealize.ShloMosaic.Lib.StableHlo.Run

set_option maxRecDepth 1792

noncomputable section

namespace Cert.Bridge.S6

open Idealize.ShloMosaic Idealize.ShloMosaic.TcCoe Idealize.ShloMosaic.StableHlo Idealize.ShloMosaic.ValueIdx
open Cert.Bridge.LibBN

/-! ## The kernel program's side -/

namespace K

open Cert.KernelIdeal Cert.KernelIdeal.Gen

/-! ### The typed references' transports are the identity -/

/-- Contents carried to a typed reference's buffer and back are the contents. -/
theorem ofBuf_toBuf {T : BufTy} (x : StableHlo.TRef sig T) (v : T.Contents (Elt Ideal)) : x.ofBuf (x.toBuf v) = v := by
  obtain ⟨r, h, h2, h3⟩ := x
  subst h
  rfl

section Stretch

variable (W : Valuation τ sig (Elt Ideal))

/-- The nodes' column means, reduced axis kept. -/
theorem s7_v75 :
    (after hostOps7 W (main_v75 : DevRef τ sig) : S1x128.Idx → EReal)
      = meanKeep (F := Ideal) (W (main_v70 : DevRef τ sig) : S50000x128.Idx → EReal) 0x47435000#32
          reducesTo_S50000x128_S128_d0 bcast_S128_S1x128_1 bcast_S_S1x128 := by
  after_results
  rfl

/-- The integer the nodes' variance count subtracts is zero. -/
theorem s7_c17 : (after hostOps7 W (main_c_17 : DevRef τ sig) : S_.Idx → BitVec 32) = constantI S_ 32 0#32 := by
  after_results

/-- The nodes' column variances, reduced axis kept. -/
theorem s7_1_v76 :
    (after hostOps7_1 W (main_v76 : DevRef τ sig) : S1x128.Idx → EReal)
      = varKeep (F := Ideal) (W (main_v70 : DevRef τ sig) : S50000x128.Idx → EReal) 0x47435000#32
          (W (main_c_17 : DevRef τ sig) : S_.Idx → BitVec 32)
          reducesTo_S50000x128_S128_d0 bcast_S128_S1x128_1 bcast_S_S1x128 bcast_S1x128_S50000x128_0_1 := by
  have e70 : ∀ V : (main_v70 : Ref sig .tc).ty.Contents (Elt Ideal),
      (StableHlo.TRef.of main_v70 : StableHlo.TRef sig ⟨S50000x128, .f32⟩).ofBuf (Val := Elt Ideal) V = V :=
    fun _ => rfl
  have e17 : ∀ V : (main_c_17 : Ref sig .tc).ty.Contents (Elt Ideal),
      (StableHlo.TRef.of main_c_17 : StableHlo.TRef sig ⟨S_, .i32⟩).ofBuf (Val := Elt Ideal) V = V :=
    fun _ => rfl
  have e76 : ∀ V : (⟨S1x128, .f32⟩ : BufTy).Contents (Elt Ideal),
      (StableHlo.TRef.of main_v76 : StableHlo.TRef sig ⟨S1x128, .f32⟩).toBuf (Val := Elt Ideal) V = V :=
    fun _ => rfl
  after_results_simp
  simp only [ofBuf_toBuf, e70, e17, e76]
  rfl

/-- The edges' column means, reduced axis kept. -/
theorem s7_2_v80 :
    (after hostOps7_2 W (main_v80 : DevRef τ sig) : S1x128.Idx → EReal)
      = meanKeep (F := Ideal) (W (main_v71 : DevRef τ sig) : S500000x128.Idx → EReal) 0x48F42400#32
          reducesTo_S500000x128_S128_d0 bcast_S128_S1x128_1 bcast_S_S1x128 := by
  after_results
  rfl

/-- The integer the edges' variance count subtracts is zero. -/
theorem s7_2_c20 : (after hostOps7_2 W (main_c_20 : DevRef τ sig) : S_.Idx → BitVec 32) = constantI S_ 32 0#32 := by
  after_results

/-- The edges' column variances, reduced axis kept. -/
theorem s7_3_v81 :
    (after hostOps7_3 W (main_v81 : DevRef τ sig) : S1x128.Idx → EReal)
      = varKeep (F := Ideal) (W (main_v71 : DevRef τ sig) : S500000x128.Idx → EReal) 0x48F42400#32
          (W (main_c_20 : DevRef τ sig) : S_.Idx → BitVec 32)
          reducesTo_S500000x128_S128_d0 bcast_S128_S1x128_1 bcast_S_S1x128 bcast_S1x128_S500000x128_0_1 := by
  have e71 : ∀ V : (main_v71 : Ref sig .tc).ty.Contents (Elt Ideal),
      (StableHlo.TRef.of main_v71 : StableHlo.TRef sig ⟨S500000x128, .f32⟩).ofBuf (Val := Elt Ideal) V = V :=
    fun _ => rfl
  have e20 : ∀ V : (main_c_20 : Ref sig .tc).ty.Contents (Elt Ideal),
      (StableHlo.TRef.of main_c_20 : StableHlo.TRef sig ⟨S_, .i32⟩).ofBuf (Val := Elt Ideal) V = V :=
    fun _ => rfl
  have e81 : ∀ V : (⟨S1x128, .f32⟩ : BufTy).Contents (Elt Ideal),
      (StableHlo.TRef.of main_v81 : StableHlo.TRef sig ⟨S1x128, .f32⟩).toBuf (Val := Elt Ideal) V = V :=
    fun _ => rfl
  after_results_simp
  simp only [ofBuf_toBuf, e71, e20, e81]
  rfl

/-- The nodes' normalisation from the statistics as the stretch finds them. -/
theorem s7_4_v94 :
    (after hostOps7_4 W (main_v94 : DevRef τ sig) : S50000x128.Idx → EReal)
      = bnKeep (F := Ideal) (W (main_v70 : DevRef τ sig) : S50000x128.Idx → EReal)
          (W (main_v75 : DevRef τ sig) : S1x128.Idx → EReal) (W (main_v76 : DevRef τ sig) : S1x128.Idx → EReal)
          (W (main_arg25 : DevRef τ sig) : S128.Idx → EReal) (W (main_arg26 : DevRef τ sig) : S128.Idx → EReal)
          0x3727C5AC#32 bcast_S128_S1x128_1 bcast_S_S1x128 bcast_S1x128_S50000x128_0_1 := by
  after_results_simp
  rfl

/-- The edges' normalisation from the statistics as the stretch finds them. -/
theorem s7_4_v107 :
    (after hostOps7_4 W (main_v107 : DevRef τ sig) : S500000x128.Idx → EReal)
      = bnKeep (F := Ideal) (W (main_v71 : DevRef τ sig) : S500000x128.Idx → EReal)
          (W (main_v80 : DevRef τ sig) : S1x128.Idx → EReal) (W (main_v81 : DevRef τ sig) : S1x128.Idx → EReal)
          (W (main_arg27 : DevRef τ sig) : S128.Idx → EReal) (W (main_arg28 : DevRef τ sig) : S128.Idx → EReal)
          0x3727C5AC#32 bcast_S128_S1x128_1 bcast_S_S1x128 bcast_S1x128_S500000x128_0_1 := by
  after_results_simp
  rfl

end Stretch

/-! ### The results at an index -/

variable (m : (ℓ : Loc nD τ sig) → Buf (Elt Ideal) ℓ) (outs : Outs (F := Ideal)) (c : Dev nD)

/-- The nodes' result at (r, j): the entry of what the fifth region left, normalised by its column's mean and variance,
scaled and shifted by the launch arguments. -/
theorem v94_apply (r : Fin 50000) (j : Fin 128) :
    (V21 m outs c (main_v94 : DevRef τ sig) : S50000x128.Idx → EReal) (ix2 r j)
      = bnAt (F := Ideal) ((V15 m outs c (main_v70 : DevRef τ sig) : S50000x128.Idx → EReal) (ix2 r j))
          (colMean (F := Ideal) (V15 m outs c (main_v70 : DevRef τ sig) : S50000x128.Idx → EReal) 0x47435000#32
            reducesTo_S50000x128_S128_d0 j)
          (colVar (F := Ideal) (V15 m outs c (main_v70 : DevRef τ sig) : S50000x128.Idx → EReal) 0x47435000#32
            (constantI S_ 32 0#32) reducesTo_S50000x128_S128_d0 bcast_S128_S1x128_1 bcast_S_S1x128
            bcast_S1x128_S50000x128_0_1 j)
          ((m ((c : Thread nD τ).loc main_arg25) : S128.Idx → EReal) (ix1 j))
          ((m ((c : Thread nD τ).loc main_arg26) : S128.Idx → EReal) (ix1 j)) 0x3727C5AC#32 := by
  have hx : (V20 m outs c (main_v70 : DevRef τ sig) : S50000x128.Idx → EReal) = V15 m outs c (main_v70 : DevRef τ sig) :=
    (V20_of m outs c main_v70 (by decide)).trans <| (V19_of m outs c main_v70 (by decide)).trans <|
      (V18_of m outs c main_v70 (by decide)).trans <| (V17_of m outs c main_v70 (by decide)).trans <|
      V16_of m outs c main_v70 (by decide)
  have hμ : (V20 m outs c (main_v75 : DevRef τ sig) : S1x128.Idx → EReal)
      = meanKeep (F := Ideal) (V15 m outs c (main_v70 : DevRef τ sig) : S50000x128.Idx → EReal) 0x47435000#32
          reducesTo_S50000x128_S128_d0 bcast_S128_S1x128_1 bcast_S_S1x128 :=
    (V20_of m outs c main_v75 (by decide)).trans <| (V19_of m outs c main_v75 (by decide)).trans <|
      (V18_of m outs c main_v75 (by decide)).trans <| (s7_v75 (V16 m outs c)).trans <| by
        rw [V16_of m outs c main_v70 (by decide)]
  have hk : (V17 m outs c (main_c_17 : DevRef τ sig) : S_.Idx → BitVec 32) = constantI S_ 32 0#32 := s7_c17 (V16 m outs c)
  have hv : (V20 m outs c (main_v76 : DevRef τ sig) : S1x128.Idx → EReal)
      = varKeep (F := Ideal) (V15 m outs c (main_v70 : DevRef τ sig) : S50000x128.Idx → EReal) 0x47435000#32
          (constantI S_ 32 0#32) reducesTo_S50000x128_S128_d0 bcast_S128_S1x128_1 bcast_S_S1x128
          bcast_S1x128_S50000x128_0_1 :=
    (V20_of m outs c main_v76 (by decide)).trans <| (V19_of m outs c main_v76 (by decide)).trans <|
      (s7_1_v76 (V17 m outs c)).trans <| by
        rw [hk, V17_of m outs c main_v70 (by decide), V16_of m outs c main_v70 (by decide)]
  have h25 : (V20 m outs c (main_arg25 : DevRef τ sig) : S128.Idx → EReal) = m ((c : Thread nD τ).loc main_arg25) :=
    (V21_of m outs c main_arg25 (by decide)).symm.trans (V21_main_arg25 m outs c)
  have h26 : (V20 m outs c (main_arg26 : DevRef τ sig) : S128.Idx → EReal) = m ((c : Thread nD τ).loc main_arg26) :=
    (V21_of m outs c main_arg26 (by decide)).symm.trans (V21_main_arg26 m outs c)
  rw [show (V21 m outs c (main_v94 : DevRef τ sig) : S50000x128.Idx → EReal) = _ from s7_4_v94 (V20 m outs c), hx, hμ, hv, h25, h26, bnKeep_apply, meanKeep_apply, varKeep_apply]

/-- The edges' result at (e, j), the same way from what the sixth region left. -/
theorem v107_apply (e : Fin 500000) (j : Fin 128) :
    (V21 m outs c (main_v107 : DevRef τ sig) : S500000x128.Idx → EReal) (ix2 e j)
      = bnAt (F := Ideal) ((V16 m outs c (main_v71 : DevRef τ sig) : S500000x128.Idx → EReal) (ix2 e j))
          (colMean (F := Ideal) (V16 m outs c (main_v71 : DevRef τ sig) : S500000x128.Idx → EReal) 0x48F42400#32
            reducesTo_S500000x128_S128_d0 j)
          (colVar (F := Ideal) (V16 m outs c (main_v71 : DevRef τ sig) : S500000x128.Idx → EReal) 0x48F42400#32
            (constantI S_ 32 0#32) reducesTo_S500000x128_S128_d0 bcast_S128_S1x128_1 bcast_S_S1x128
            bcast_S1x128_S500000x128_0_1 j)
          ((m ((c : Thread nD τ).loc main_arg27) : S128.Idx → EReal) (ix1 j))
          ((m ((c : Thread nD τ).loc main_arg28) : S128.Idx → EReal) (ix1 j)) 0x3727C5AC#32 := by
  have hx : (V20 m outs c (main_v71 : DevRef τ sig) : S500000x128.Idx → EReal) = V16 m outs c (main_v71 : DevRef τ sig) :=
    (V20_of m outs c main_v71 (by decide)).trans <| (V19_of m outs c main_v71 (by decide)).trans <|
      (V18_of m outs c main_v71 (by decide)).trans <| V17_of m outs c main_v71 (by decide)
  have hμ : (V20 m outs c (main_v80 : DevRef τ sig) : S1x128.Idx → EReal)
      = meanKeep (F := Ideal) (V16 m outs c (main_v71 : DevRef τ sig) : S500000x128.Idx → EReal) 0x48F42400#32
          reducesTo_S500000x128_S128_d0 bcast_S128_S1x128_1 bcast_S_S1x128 :=
    (V20_of m outs c main_v80 (by decide)).trans <| (s7_2_v80 (V18 m outs c)).trans <| by
      rw [V18_of m outs c main_v71 (by decide), V17_of m outs c main_v71 (by decide)]
  have hk : (V19 m outs c (main_c_20 : DevRef τ sig) : S_.Idx → BitVec 32) = constantI S_ 32 0#32 := s7_2_c20 (V18 m outs c)
  have hv : (V20 m outs c (main_v81 : DevRef τ sig) : S1x128.Idx → EReal)
      = varKeep (F := Ideal) (V16 m outs c (main_v71 : DevRef τ sig) : S500000x128.Idx → EReal) 0x48F42400#32
          (constantI S_ 32 0#32) reducesTo_S500000x128_S128_d0 bcast_S128_S1x128_1 bcast_S_S1x128
          bcast_S1x128_S500000x128_0_1 :=
    (s7_3_v81 (V19 m outs c)).trans <| by
      rw [hk, V19_of m outs c main_v71 (by decide), V18_of m outs c main_v71 (by decide),
        V17_of m outs c main_v71 (by decide)]
  have h27 : (V20 m outs c (main_arg27 : DevRef τ sig) : S128.Idx → EReal) = m ((c : Thread nD τ).loc main_arg27) :=
    (V21_of m outs c main_arg27 (by decide)).symm.trans (V21_main_arg27 m outs c)
  have h28 : (V20 m outs c (main_arg28 : DevRef τ sig) : S128.Idx → EReal) = m ((c : Thread nD τ).loc main_arg28) :=
    (V21_of m outs c main_arg28 (by decide)).symm.trans (V21_main_arg28 m outs c)
  rw [show (V21 m outs c (main_v107 : DevRef τ sig) : S500000x128.Idx → EReal) = _ from s7_4_v107 (V20 m outs c), hx, hμ, hv, h27, h28, bnKeep_apply, meanKeep_apply, varKeep_apply]

end K

/-! ## The stage -/

section Stage

open Cert.KernelIdeal Cert.KernelIdeal.Gen Cert.ReferenceIdeal.Hand

variable (m : (ℓ : Loc nD τ sig) → Buf (Elt Ideal) ℓ) (outs : Outs (F := Ideal))
  (m' : (ℓ : Loc Cert.ReferenceIdeal.nD Cert.ReferenceIdeal.τ Cert.ReferenceIdeal.sig) → Buf (Elt Ideal) ℓ)

/-- Nodes: if what the fifth region left equals the reference's input to its last normalisation, entry by entry, and
the two programs were given the same scale and shift, then the two results are equal entry by entry. -/
theorem stage_v94 (c : Dev nD)
    (h70 : ∀ (r : Fin 50000) (j : Fin 128), (V15 m outs c (main_v70 : DevRef τ sig) : S50000x128.Idx → EReal) (ix2 r j)
      = (RV8 m' c (Cert.ReferenceIdeal.main_v110 : DevRef Cert.ReferenceIdeal.τ Cert.ReferenceIdeal.sig)
          : Cert.ReferenceIdeal.S50000x128.Idx → EReal) (ix2 r j))
    (ha25 : m' ((c.tc : Thread Cert.ReferenceIdeal.nD Cert.ReferenceIdeal.τ).loc Cert.ReferenceIdeal.main_arg25)
      = m ((c.tc : Thread nD τ).loc main_arg25))
    (ha26 : m' ((c.tc : Thread Cert.ReferenceIdeal.nD Cert.ReferenceIdeal.τ).loc Cert.ReferenceIdeal.main_arg26)
      = m ((c.tc : Thread nD τ).loc main_arg26))
    (r : Fin 50000) (j : Fin 128) :
    (V21 m outs c (main_v94 : DevRef τ sig) : S50000x128.Idx → EReal) (ix2 r j)
      = (RV9 m' c (Cert.ReferenceIdeal.main_v129 : DevRef Cert.ReferenceIdeal.τ Cert.ReferenceIdeal.sig)
          : Cert.ReferenceIdeal.S50000x128.Idx → EReal) (ix2 r j) := by
  have hX : (V15 m outs c (main_v70 : DevRef τ sig) : S50000x128.Idx → EReal)
      = (RV8 m' c (Cert.ReferenceIdeal.main_v110 : DevRef Cert.ReferenceIdeal.τ Cert.ReferenceIdeal.sig)
          : Cert.ReferenceIdeal.S50000x128.Idx → EReal) :=
    funext fun i => by rw [eq_ix2 i]; exact h70 _ _
  rw [K.v94_apply m outs c r j, R.v129_apply m' c r j, hX, ha25, ha26]

/-- Edges: the same from what the sixth region left. -/
theorem stage_v107 (c : Dev nD)
    (h71 : ∀ (e : Fin 500000) (j : Fin 128), (V16 m outs c (main_v71 : DevRef τ sig) : S500000x128.Idx → EReal) (ix2 e j)
      = (RV10 m' c (Cert.ReferenceIdeal.main_v139 : DevRef Cert.ReferenceIdeal.τ Cert.ReferenceIdeal.sig)
          : Cert.ReferenceIdeal.S500000x128.Idx → EReal) (ix2 e j))
    (ha27 : m' ((c.tc : Thread Cert.ReferenceIdeal.nD Cert.ReferenceIdeal.τ).loc Cert.ReferenceIdeal.main_arg27)
      = m ((c.tc : Thread nD τ).loc main_arg27))
    (ha28 : m' ((c.tc : Thread Cert.ReferenceIdeal.nD Cert.ReferenceIdeal.τ).loc Cert.ReferenceIdeal.main_arg28)
      = m ((c.tc : Thread nD τ).loc main_arg28))
    (e : Fin 500000) (j : Fin 128) :
    (V21 m outs c (main_v107 : DevRef τ sig) : S500000x128.Idx → EReal) (ix2 e j)
      = (RV11 m' c (Cert.ReferenceIdeal.main_v158 : DevRef Cert.ReferenceIdeal.τ Cert.ReferenceIdeal.sig)
          : Cert.ReferenceIdeal.S500000x128.Idx → EReal) (ix2 e j) := by
  have hY : (V16 m outs c (main_v71 : DevRef τ sig) : S500000x128.Idx → EReal)
      = (RV10 m' c (Cert.ReferenceIdeal.main_v139 : DevRef Cert.ReferenceIdeal.τ Cert.ReferenceIdeal.sig)
          : Cert.ReferenceIdeal.S500000x128.Idx → EReal) :=
    funext fun i => by rw [eq_ix2 i]; exact h71 _ _
  rw [K.v107_apply m outs c e j, R.v158_apply m' c e j, hY, ha27, ha28]

end Stage

end Cert.Bridge.S6
-- ==== Proof.Assemble.lean ====
/- The assembly: the kernel program's run and the reference program's run, re-posted with the two results named, and
   the six stages chained at every core from the agreement of the arguments to the equality of the results. -/
import proofs.«101045_j34351148433892_1_alg».proof.Defs
import proofs.«101045_j34351148433892_1_alg».proof.Proof.Gen.Pre_finite_inputs
import proofs.«101045_j34351148433892_1_alg».proof.Proof.Gen.KernelIdeal.Regions
import proofs.«101045_j34351148433892_1_alg».proof.Proof.KI.Run
import proofs.«101045_j34351148433892_1_alg».proof.Proof.Ref.Run
import proofs.«101045_j34351148433892_1_alg».proof.Proof.Ref.Frame
import proofs.«101045_j34351148433892_1_alg».proof.Proof.Val.S1
import proofs.«101045_j34351148433892_1_alg».proof.Proof.Val.S2
import proofs.«101045_j34351148433892_1_alg».proof.Proof.Val.S3
import proofs.«101045_j34351148433892_1_alg».proof.Proof.Val.S4
import proofs.«101045_j34351148433892_1_alg».proof.Proof.Val.S5
import proofs.«101045_j34351148433892_1_alg».proof.Proof.Val.S6
import Idealize.ShloMosaic.Lib.ValueIdx
import Idealize.ShloMosaic.Lib.Pipeline.Regions

set_option maxRecDepth 16384

noncomputable section

namespace Cert.Bridge

open Idealize.ShloMosaic Idealize.ShloMosaic.TcCoe Idealize.SL.Sem Idealize.ShloMosaic.ValueIdx
open Cert.KernelIdeal.Gen Cert.KernelIdeal.Hand Cert.ReferenceIdeal.Hand

/-! ## The two runs -/

section Runs
variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (ρ' : Dev Cert.ReferenceIdeal.nD → PrngReg)

/-- The kernel program's run: the two results at the last fold of its operations, every argument as launched. -/
theorem kernel_run : θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v94) = V21 m (outs m) c Cert.KernelIdeal.main_v94
      ∧ r.2.mem ((c.tc : Thread Cert.KernelIdeal.nD Cert.KernelIdeal.τ).loc Cert.KernelIdeal.main_v107) = V21 m (outs m) c Cert.KernelIdeal.main_v107
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)) :=
  (θ_run (Cert.KernelIdeal.defs (F := Ideal)) _ _).mono (fun r h c => ⟨h c _ (mem_uc Cert.KernelIdeal.main_v94 (by decide)), h c _ (mem_uc Cert.KernelIdeal.main_v107 (by decide)),
      (h c _ (mem_uc Cert.KernelIdeal.main_arg0 (by decide))).trans (V21_main_arg0 m (outs m) c),
      (h c _ (mem_uc Cert.KernelIdeal.main_arg1 (by decide))).trans (V21_main_arg1 m (outs m) c),
      (h c _ (mem_uc Cert.KernelIdeal.main_arg2 (by decide))).trans (V21_main_arg2 m (outs m) c),
      (h c _ (mem_uc Cert.KernelIdeal.main_arg3 (by decide))).trans (V21_main_arg3 m (outs m) c),
      (h c _ (mem_uc Cert.KernelIdeal.main_arg4 (by decide))).trans (V21_main_arg4 m (outs m) c),
      (h c _ (mem_uc Cert.KernelIdeal.main_arg5 (by decide))).trans (V21_main_arg5 m (outs m) c),
      (h c _ (mem_uc Cert.KernelIdeal.main_arg6 (by decide))).trans (V21_main_arg6 m (outs m) c),
      (h c _ (mem_uc Cert.KernelIdeal.main_arg7 (by decide))).trans (V21_main_arg7 m (outs m) c),
      (h c _ (mem_uc Cert.KernelIdeal.main_arg8 (by decide))).trans (V21_main_arg8 m (outs m) c),
      (h c _ (mem_uc Cert.KernelIdeal.main_arg9 (by decide))).trans (V21_main_arg9 m (outs m) c),
      (h c _ (mem_uc Cert.KernelIdeal.main_arg10 (by decide))).trans (V21_main_arg10 m (outs m) c),
      (h c _ (mem_uc Cert.KernelIdeal.main_arg11 (by decide))).trans (V21_main_arg11 m (outs m) c),
      (h c _ (mem_uc Cert.KernelIdeal.main_arg12 (by decide))).trans (V21_main_arg12 m (outs m) c),
      (h c _ (mem_uc Cert.KernelIdeal.main_arg13 (by decide))).trans (V21_main_arg13 m (outs m) c),
      (h c _ (mem_uc Cert.KernelIdeal.main_arg14 (by decide))).trans (V21_main_arg14 m (outs m) c),
      (h c _ (mem_uc Cert.KernelIdeal.main_arg15 (by decide))).trans (V21_main_arg15 m (outs m) c),
      (h c _ (mem_uc Cert.KernelIdeal.main_arg16 (by decide))).trans (V21_main_arg16 m (outs m) c),
      (h c _ (mem_uc Cert.KernelIdeal.main_arg17 (by decide))).trans (V21_main_arg17 m (outs m) c),
      (h c _ (mem_uc Cert.KernelIdeal.main_arg18 (by decide))).trans (V21_main_arg18 m (outs m) c),
      (h c _ (mem_uc Cert.KernelIdeal.main_arg19 (by decide))).trans (V21_main_arg19 m (outs m) c),
      (h c _ (mem_uc Cert.KernelIdeal.main_arg20 (by decide))).trans (V21_main_arg20 m (outs m) c),
      (h c _ (mem_uc Cert.KernelIdeal.main_arg21 (by decide))).trans (V21_main_arg21 m (outs m) c),
      (h c _ (mem_uc Cert.KernelIdeal.main_arg22 (by decide))).trans (V21_main_arg22 m (outs m) c),
      (h c _ (mem_uc Cert.KernelIdeal.main_arg23 (by decide))).trans (V21_main_arg23 m (outs m) c),
      (h c _ (mem_uc Cert.KernelIdeal.main_arg24 (by decide))).trans (V21_main_arg24 m (outs m) c),
      (h c _ (mem_uc Cert.KernelIdeal.main_arg25 (by decide))).trans (V21_main_arg25 m (outs m) c),
      (h c _ (mem_uc Cert.KernelIdeal.main_arg26 (by decide))).trans (V21_main_arg26 m (outs m) c),
      (h c _ (mem_uc Cert.KernelIdeal.main_arg27 (by decide))).trans (V21_main_arg27 m (outs m) c),
      (h c _ (mem_uc Cert.KernelIdeal.main_arg28 (by decide))).trans (V21_main_arg28 m (outs m) c)⟩)
    (run_all m ρ)

/-- The reference program's run, its two results at any arrays `v0`, `v1` that the last lists of operations leave. -/
theorem reference_run (v0 : (c : Dev Cert.KernelIdeal.nD) → Buf (Elt Ideal) ((c.tc : Thread Cert.KernelIdeal.nD Cert.KernelIdeal.τ).loc Cert.KernelIdeal.main_v94))
    (v1 : (c : Dev Cert.KernelIdeal.nD) → Buf (Elt Ideal) ((c.tc : Thread Cert.KernelIdeal.nD Cert.KernelIdeal.τ).loc Cert.KernelIdeal.main_v107))
    (h0 : ∀ c : Dev Cert.ReferenceIdeal.nD, RV11 m' c Cert.ReferenceIdeal.main_v129 = v0 c) (h1 : ∀ c : Dev Cert.ReferenceIdeal.nD, RV11 m' c Cert.ReferenceIdeal.main_v158 = v1 c) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v129) = v0 c
      ∧ r.2.mem ((c.tc : Thread Cert.ReferenceIdeal.nD Cert.ReferenceIdeal.τ).loc Cert.ReferenceIdeal.main_v158) = v1 c
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)) :=
  (θ_run (Cert.ReferenceIdeal.defs (F := Ideal)) _ _).mono (fun r h c => ⟨(h c Cert.ReferenceIdeal.main_v129).trans (h0 c), (h c Cert.ReferenceIdeal.main_v158).trans (h1 c),
      (h c Cert.ReferenceIdeal.main_arg0).trans (RV11_main_arg0 m' c),
      (h c Cert.ReferenceIdeal.main_arg1).trans (RV11_main_arg1 m' c),
      (h c Cert.ReferenceIdeal.main_arg2).trans (RV11_main_arg2 m' c),
      (h c Cert.ReferenceIdeal.main_arg3).trans (RV11_main_arg3 m' c),
      (h c Cert.ReferenceIdeal.main_arg4).trans (RV11_main_arg4 m' c),
      (h c Cert.ReferenceIdeal.main_arg5).trans (RV11_main_arg5 m' c),
      (h c Cert.ReferenceIdeal.main_arg6).trans (RV11_main_arg6 m' c),
      (h c Cert.ReferenceIdeal.main_arg7).trans (RV11_main_arg7 m' c),
      (h c Cert.ReferenceIdeal.main_arg8).trans (RV11_main_arg8 m' c),
      (h c Cert.ReferenceIdeal.main_arg9).trans (RV11_main_arg9 m' c),
      (h c Cert.ReferenceIdeal.main_arg10).trans (RV11_main_arg10 m' c),
      (h c Cert.ReferenceIdeal.main_arg11).trans (RV11_main_arg11 m' c),
      (h c Cert.ReferenceIdeal.main_arg12).trans (RV11_main_arg12 m' c),
      (h c Cert.ReferenceIdeal.main_arg13).trans (RV11_main_arg13 m' c),
      (h c Cert.ReferenceIdeal.main_arg14).trans (RV11_main_arg14 m' c),
      (h c Cert.ReferenceIdeal.main_arg15).trans (RV11_main_arg15 m' c),
      (h c Cert.ReferenceIdeal.main_arg16).trans (RV11_main_arg16 m' c),
      (h c Cert.ReferenceIdeal.main_arg17).trans (RV11_main_arg17 m' c),
      (h c Cert.ReferenceIdeal.main_arg18).trans (RV11_main_arg18 m' c),
      (h c Cert.ReferenceIdeal.main_arg19).trans (RV11_main_arg19 m' c),
      (h c Cert.ReferenceIdeal.main_arg20).trans (RV11_main_arg20 m' c),
      (h c Cert.ReferenceIdeal.main_arg21).trans (RV11_main_arg21 m' c),
      (h c Cert.ReferenceIdeal.main_arg22).trans (RV11_main_arg22 m' c),
      (h c Cert.ReferenceIdeal.main_arg23).trans (RV11_main_arg23 m' c),
      (h c Cert.ReferenceIdeal.main_arg24).trans (RV11_main_arg24 m' c),
      (h c Cert.ReferenceIdeal.main_arg25).trans (RV11_main_arg25 m' c),
      (h c Cert.ReferenceIdeal.main_arg26).trans (RV11_main_arg26 m' c),
      (h c Cert.ReferenceIdeal.main_arg27).trans (RV11_main_arg27 m' c),
      (h c Cert.ReferenceIdeal.main_arg28).trans (RV11_main_arg28 m' c)⟩)
    (Cert.ReferenceIdeal.Hand.run m' ρ')

end Runs

/-! ## The chain of stages, and the claim -/

/-- The claim: with the two programs' arguments equal, both programs run to the end and leave the same two results.
    At every core the six stages chain — the projections, the edge stage, the aggregation, the output projections,
    the first normalisation with the feed-forward block, the second normalisation —, each from the one before and the
    arguments it reads; the last gives the results entry by entry, hence as arrays. -/
theorem algebraic : Cert.algebraic_KernelIdeal_ReferenceIdeal := by
  intro m ρ m' ρ' _ hagree
  have hchain : ∀ c : Dev Cert.KernelIdeal.nD,
      (∀ (r : Fin 50000) (j : Fin 128), (Cert.KernelIdeal.Gen.V21 m (outs m) c Cert.KernelIdeal.main_v94 : Cert.KernelIdeal.S50000x128.Idx → EReal) (ix2 r j) = (Cert.ReferenceIdeal.Hand.RV9 m' c Cert.ReferenceIdeal.main_v129 : Cert.ReferenceIdeal.S50000x128.Idx → EReal) (ix2 r j))
      ∧ (∀ (r : Fin 500000) (j : Fin 128), (Cert.KernelIdeal.Gen.V21 m (outs m) c Cert.KernelIdeal.main_v107 : Cert.KernelIdeal.S500000x128.Idx → EReal) (ix2 r j) = (Cert.ReferenceIdeal.Hand.RV11 m' c Cert.ReferenceIdeal.main_v158 : Cert.ReferenceIdeal.S500000x128.Idx → EReal) (ix2 r j)) := by
    intro c
    obtain ⟨a0, a1, a2, a3, a4, a5, a6, a7, a8, a9, a10, a11, a12, a13, a14, a15, a16, a17, a18, a19, a20, a21, a22, a23, a24, a25, a26, a27, a28⟩ := hagree c
    obtain ⟨h16, h17, h18, h19⟩ := S1.stage m (outs m) m' c (spec_v15 m c) (spec_v19 m c) a0 a1 a5 a6 a7 a8
    obtain ⟨h26, hs, hmsg⟩ := S2.stage m (outs m) m' c (spec_v42_0 m c) (spec_v42_1 m c) (spec_v42_2 m c) h16 h17 h18 h19 a2 a3 a4
    have h53 := S3.stage m m' (outs m) c a4 hs hmsg
    have h54 := S4.stage_v54 m (outs m) m' c (spec_v54 m c) h53 a0 a9 a10
    have h55 := S4.stage_v55 m (outs m) m' c (spec_v55 m c) h26 a1 a11 a12
    have h70 := S5.stage_v70 m (outs m) m' c (spec_v70 m c) h54 a13 a14 a17 a18 a19 a20
    have h71 := S5.stage_v71 m (outs m) m' c (spec_v71 m c) h55 a15 a16 a21 a22 a23 a24
    exact ⟨S6.stage_v94 m (outs m) m' c h70 a25 a26, S6.stage_v107 m (outs m) m' c h71 a27 a28⟩
  refine ⟨fun c => V21 m (outs m) c Cert.KernelIdeal.main_v94, fun c => V21 m (outs m) c Cert.KernelIdeal.main_v107, kernel_run m ρ, ?_⟩
  refine reference_run m' ρ' _ _ (fun c => ?_) (fun c => ?_)
  · refine (RV11_main_v129 m' c).trans ?_
    show (RV9 m' c Cert.ReferenceIdeal.main_v129 : Cert.ReferenceIdeal.S50000x128.Idx → EReal) = (V21 m (outs m) c Cert.KernelIdeal.main_v94 : Cert.KernelIdeal.S50000x128.Idx → EReal)
    funext i
    rw [eq_ix2 i]
    exact ((hchain c).1 (i 0) (i 1)).symm
  · show (RV11 m' c Cert.ReferenceIdeal.main_v158 : Cert.ReferenceIdeal.S500000x128.Idx → EReal) = (V21 m (outs m) c Cert.KernelIdeal.main_v107 : Cert.KernelIdeal.S500000x128.Idx → EReal)
    funext i
    rw [eq_ix2 i]
    exact ((hchain c).2 (i 0) (i 1)).symm

end Cert.Bridge

end
-- ==== Proof.lean ====
/- One layer of a graph transformer on a graph of 50000 nodes and 500000 edges, of width 128 = 8 heads of 16.
   From the node features x and the edge features e: the projections Q = x·W_Q, K = x·W_K, V = x·W_V and P = e·W_e; per
   edge s → d and head, entry by entry, the score K[s] · Q[d] / 4 · P (the edge's new features before their projection),
   its sum over the head clipped to [−5, 5] and exponentiated, the edge's weight w, and the message V[s] · envelope · w;
   per node the sum of the messages of the edges into it divided by the sum of their weights plus 10⁻⁶; then, for the
   nodes and for the edges alike, an output projection with bias added to the input, a normalisation over the rows
   ((y − mean) · rsqrt(var + 10⁻⁵) · γ + β with each column's mean and biased variance), a two-layer feed-forward block
   with a rectifier added to its input, and a second normalisation. The results are the node array and the edge array
   after the second normalisation.

   The kernel program computes the layer by seven pipelined regions over blocks of rows — the projections, the edge
   stage on blocks of 2000 edges, the two output projections and the two feed-forward blocks on blocks of 5000 rows —
   between stretches of array operations (the gathers by the edges' endpoints, the sums into the nodes, the columns'
   statistics, the second normalisation); the reference program is one list of array operations.

   What is proved: each program terminates from any memory, nothing faulting, and leaves every argument array as
   launched (the frames, for the kernel program at any float instance); and, at the ideal values, run from memories
   that agree on the arguments the two programs leave the same two results. The two programs are joined stage by
   stage and entry by entry. A region's output array is, block by block, the body's arithmetic of the blocks the body
   reads, and the blocks tile the arrays. At the ideal values a change of float format is the identity, a product
   accumulated into zero is the plain sum over the contracted coordinate, and a reshape keeps the row-major position.
   What remains between the two programs is the grouping and the order of sums and products on the extended reals
   (for the output projections (x + a·W) + b against x + (a·W + b)), a division by 4 against a product by 1/4, and the
   head axis kept apart or flattened (column 16·h + j against the pair (h, j)). -/
import proofs.«101045_j34351148433892_1_alg».proof.Defs
import proofs.«101045_j34351148433892_1_alg».proof.Proof.Gen.Kernel
import proofs.«101045_j34351148433892_1_alg».proof.Proof.Gen.Kernel.Skeleton
import proofs.«101045_j34351148433892_1_alg».proof.Proof.Gen.Kernel.Launch
import proofs.«101045_j34351148433892_1_alg».proof.Proof.Gen.Kernel.Regions
import proofs.«101045_j34351148433892_1_alg».proof.Proof.Gen.Kernel.Points
import proofs.«101045_j34351148433892_1_alg».proof.Proof.Gen.KernelIdeal
import proofs.«101045_j34351148433892_1_alg».proof.Proof.Gen.KernelIdeal.Skeleton
import proofs.«101045_j34351148433892_1_alg».proof.Proof.Gen.KernelIdeal.Launch
import proofs.«101045_j34351148433892_1_alg».proof.Proof.Gen.KernelIdeal.Regions
import proofs.«101045_j34351148433892_1_alg».proof.Proof.Gen.KernelIdeal.Points
import proofs.«101045_j34351148433892_1_alg».proof.Proof.Gen.ReferenceIdeal
import proofs.«101045_j34351148433892_1_alg».proof.Proof.Gen.Pre_finite_inputs
import Idealize.ShloMosaic.Adequacy
import Idealize.ShloMosaic.Init
import proofs.«101045_j34351148433892_1_alg».proof.Proof.K.Run
import proofs.«101045_j34351148433892_1_alg».proof.Proof.KI.Run
import proofs.«101045_j34351148433892_1_alg».proof.Proof.Ref.Frame
import proofs.«101045_j34351148433892_1_alg».proof.Proof.Assemble

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    Cert.ReferenceIdeal.Hand.frame_ref,
    trivial,
    Cert.Bridge.algebraic⟩

end Cert.Proof

end
